-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x56x56 : Shape := ⟨4, ![8, 256, 56, 56]⟩
abbrev S8x18x56x56 : Shape := ⟨4, ![8, 18, 56, 56]⟩
abbrev S8x9x56x56 : Shape := ⟨4, ![8, 9, 56, 56]⟩
abbrev S256x256x3x3 : Shape := ⟨4, ![256, 256, 3, 3]⟩
abbrev S256 : Shape := ⟨1, ![256]⟩
abbrev S_ : Shape := ⟨0, ![]⟩

class Facts : Prop where
  bcast_S_S8x256x56x56 : S_.BroadcastsInDim S8x256x56x56 (![] : Fin 0 → Fin S8x256x56x56.rank)
  reducesTo_S8x256x56x56_S_d0_1_2_3 : S8x256x56x56.ReducesTo [0, 1, 2, 3] S_
  h_S_ : 0 < S_.numel
  bcast_S_S8x18x56x56 : S_.BroadcastsInDim S8x18x56x56 (![] : Fin 0 → Fin S8x18x56x56.rank)
  reducesTo_S8x18x56x56_S_d0_1_2_3 : S8x18x56x56.ReducesTo [0, 1, 2, 3] S_
  bcast_S_S8x9x56x56 : S_.BroadcastsInDim S8x9x56x56 (![] : Fin 0 → Fin S8x9x56x56.rank)
  reducesTo_S8x9x56x56_S_d0_1_2_3 : S8x9x56x56.ReducesTo [0, 1, 2, 3] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256x3x3 1) : IVec S_ 1 :=
  let main_c_5 : IVec S_ 1 := constantI S_ 1 1#1
  let main_v17 : IVec S_ 1 := (fun x v => Host.reduce IntOp.andi x v reducesTo_S256x256x3x3_S_d0_1_2_3 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x56x56 .f32) (main_arg1 : FVec F S8x18x56x56 .f32) (main_arg2 : FVec F S8x9x56x56 .f32) (main_arg3 : FVec F S256x256x3x3 .f32) (main_arg4 : FVec F S256 .f32) : IVec S_ 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_c : IVec S_ 1 := constantI S_ 1 1#1
  let main_v3 : IVec S_ 1 := (fun x v => Host.reduce IntOp.andi x v reducesTo_S8x256x56x56_S_d0_1_2_3 h_S_) main_v2 main_c
  let main_v4 : FVec F S8x18x56x56 .f32 := Host.absf main_arg1
  let main_cst_0 : FVec F S_ .f32 := constant S_ .f32 0x7F800000#32
  let main_v5 : FVec F S8x18x56x56 .f32 := broadcastInDim S8x18x56x56 ![] bcast_S_S8x18x56x56 main_cst_0
  let main_v6 : IVec S8x18x56x56 1 := cmpf .olt main_v4 main_v5
  let main_c_1 : IVec S_ 1 := constantI S_ 1 1#1
  let main_v7 : IVec S_ 1 := (fun x v => Host.reduce IntOp.andi x v reducesTo_S8x18x56x56_S_d0_1_2_3 h_S_) main_v6 main_c_1
  let main_v8 : IVec S_ 1 := andi main_v3 main_v7
  let main_v9 : FVec F S8x9x56x56 .f32 := Host.absf main_arg2
  let main_cst_2 : FVec F S_ .f32 := constant S_ .f32 0x7F800000#32
  let main_v10 : FVec F S8x9x56x56 .f32 := broadcastInDim S8x9x56x56 ![] bcast_S_S8x9x56x56 main_cst_2
  let main_v11 : IVec S8x9x56x56 1 := cmpf .olt main_v9 main_v10
  let main_c_3 : IVec S_ 1 := constantI S_ 1 1#1
  let main_v12 : IVec S_ 1 := (fun x v => Host.reduce IntOp.andi x v reducesTo_S8x9x56x56_S_d0_1_2_3 h_S_) main_v11 main_c_3
  let main_v13 : IVec S_ 1 := andi main_v8 main_v12
  let main_v14 : FVec F S256x256x3x3 .f32 := Host.absf main_arg3
  let main_cst_4 : FVec F S_ .f32 := constant S_ .f32 0x7F800000#32
  let main_v15 : FVec F S256x256x3x3 .f32 := broadcastInDim S256x256x3x3 ![] bcast_S_S256x256x3x3 main_cst_4
  let main_v16 : IVec S256x256x3x3 1 := cmpf .olt main_v14 main_v15
  fn_part1 (F := F) main_arg4 main_v13 main_v16
-- ==== Kernel.lean ====
abbrev S8x256x56x56 : Shape := ⟨4, ![8, 256, 56, 56]⟩
abbrev S8x18x56x56 : Shape := ⟨4, ![8, 18, 56, 56]⟩
abbrev S8x9x56x56 : Shape := ⟨4, ![8, 9, 56, 56]⟩
abbrev S256x256x3x3 : Shape := ⟨4, ![256, 256, 3, 3]⟩
abbrev S256 : Shape := ⟨1, ![256]⟩
abbrev S56 : Shape := ⟨1, ![56]⟩
abbrev S_ : Shape := ⟨0, ![]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x1x3x1 : Shape := ⟨4, ![56, 1, 3, 1]⟩
abbrev S56x56x3x3 : Shape := ⟨4, ![56, 56, 3, 3]⟩
abbrev S56x56x9 : Shape := ⟨3, ![56, 56, 9]⟩
abbrev S1x56x1x3 : Shape := ⟨4, ![1, 56, 1, 3]⟩
abbrev S56x56x9x1 : Shape := ⟨4, ![56, 56, 9, 1]⟩
abbrev S56x56x9x2 : Shape := ⟨4, ![56, 56, 9, 2]⟩
abbrev S8x9x2x56x56 : Shape := ⟨5, ![8, 9, 2, 56, 56]⟩
abbrev S8x56x56x9x2 : Shape := ⟨5, ![8, 56, 56, 9, 2]⟩
abbrev S1x56x56x9x2 : Shape := ⟨5, ![1, 56, 56, 9, 2]⟩
abbrev S8x56x56x9x1 : Shape := ⟨5, ![8, 56, 56, 9, 1]⟩
abbrev S8x56x56x9 : Shape := ⟨4, ![8, 56, 56, 9]⟩
abbrev S8x56x56x256 : Shape := ⟨4, ![8, 56, 56, 256]⟩
abbrev S8x3136x256 : Shape := ⟨3, ![8, 3136, 256]⟩
abbrev S8x28224x1 : Shape := ⟨3, ![8, 28224, 1]⟩
abbrev S1 : Shape := ⟨1, ![1]⟩
abbrev S1x1x1 : Shape := ⟨3, ![1, 1, 1]⟩
abbrev S8x28224 : Shape := ⟨2, ![8, 28224]⟩
abbrev S8x28224x256 : Shape := ⟨3, ![8, 28224, 256]⟩
abbrev S8x56x56x9x256 : Shape := ⟨5, ![8, 56, 56, 9, 256]⟩
abbrev S8x3136x2304 : Shape := ⟨3, ![8, 3136, 2304]⟩
abbrev S3x3x256x256 : Shape := ⟨4, ![3, 3, 256, 256]⟩
abbrev S2304x256 : Shape := ⟨2, ![2304, 256]⟩
abbrev S1x256 : Shape := ⟨2, ![1, 256]⟩
abbrev S1x3136x768 : Shape := ⟨3, ![1, 3136, 768]⟩
abbrev S768x256 : Shape := ⟨2, ![768, 256]⟩
abbrev S1x3136x256 : Shape := ⟨3, ![1, 3136, 256]⟩
abbrev S3136x256 : Shape := ⟨2, ![3136, 256]⟩
abbrev S3136x768 : Shape := ⟨2, ![3136, 768]⟩
abbrev S8x256x3136 : Shape := ⟨3, ![8, 256, 3136]⟩

abbrev nBuf : Space → Nat
  | .hbm => 355
  | .vmem => 8
  | .smem => 0
  | _ => 0

abbrev hbmTy0_0 (i : Nat) : BufTy := match i % 128 with
  | 0 => ⟨S8x256x56x56, .f32⟩
  | 1 => ⟨S8x18x56x56, .f32⟩
  | 2 => ⟨S8x9x56x56, .f32⟩
  | 3 => ⟨S256x256x3x3, .f32⟩
  | 4 => ⟨S256, .f32⟩
  | 5 => ⟨S56, .i32⟩
  | 6 => ⟨S_, .i32⟩
  | 7 => ⟨S56, .i32⟩
  | 8 => ⟨S56, .i32⟩
  | 9 => ⟨S_, .i32⟩
  | 10 => ⟨S56, .i32⟩
  | 11 => ⟨S56, .i32⟩
  | 12 => ⟨S56x1, .i32⟩
  | 13 => ⟨S3, .i32⟩
  | 14 => ⟨S_, .i32⟩
  | 15 => ⟨S3, .i32⟩
  | 16 => ⟨S3, .i32⟩
  | 17 => ⟨S1x3, .i32⟩
  | 18 => ⟨S56x3, .i32⟩
  | 19 => ⟨S56x3, .i32⟩
  | 20 => ⟨S56x3, .i32⟩
  | 21 => ⟨S56, .i32⟩
  | 22 => ⟨S_, .i32⟩
  | 23 => ⟨S56, .i32⟩
  | 24 => ⟨S56, .i32⟩
  | 25 => ⟨S_, .i32⟩
  | 26 => ⟨S56, .i32⟩
  | 27 => ⟨S56, .i32⟩
  | 28 => ⟨S56x1, .i32⟩
  | 29 => ⟨S3, .i32⟩
  | 30 => ⟨S_, .i32⟩
  | 31 => ⟨S3, .i32⟩
  | 32 => ⟨S3, .i32⟩
  | 33 => ⟨S1x3, .i32⟩
  | 34 => ⟨S56x3, .i32⟩
  | 35 => ⟨S56x3, .i32⟩
  | 36 => ⟨S56x3, .i32⟩
  | 37 => ⟨S56x1x3x1, .i32⟩
  | 38 => ⟨S56x56x3x3, .i32⟩
  | 39 => ⟨S56x56x9, .i32⟩
  | 40 => ⟨S1x56x1x3, .i32⟩
  | 41 => ⟨S56x56x3x3, .i32⟩
  | 42 => ⟨S56x56x9, .i32⟩
  | 43 => ⟨S56x56x9x1, .i32⟩
  | 44 => ⟨S56x56x9x1, .i32⟩
  | 45 => ⟨S56x56x9x2, .i32⟩
  | 46 => ⟨S56x56x9x2, .f32⟩
  | 47 => ⟨S8x9x2x56x56, .f32⟩
  | 48 => ⟨S8x56x56x9x2, .f32⟩
  | 49 => ⟨S1x56x56x9x2, .f32⟩
  | 50 => ⟨S8x56x56x9x2, .f32⟩
  | 51 => ⟨S8x56x56x9x2, .f32⟩
  | 52 => ⟨S8x56x56x9x2, .f32⟩
  | 53 => ⟨S8x56x56x9x2, .f32⟩
  | 54 => ⟨S8x56x56x9x1, .f32⟩
  | 55 => ⟨S8x56x56x9, .f32⟩
  | 56 => ⟨S8x56x56x9, .i32⟩
  | 57 => ⟨S8x56x56x9x1, .f32⟩
  | 58 => ⟨S8x56x56x9, .f32⟩
  | 59 => ⟨S8x56x56x9, .i32⟩
  | 60 => ⟨S_, .i32⟩
  | 61 => ⟨S8x56x56x9, .i32⟩
  | 62 => ⟨S8x56x56x9, .i32⟩
  | 63 => ⟨S_, .i32⟩
  | 64 => ⟨S8x56x56x9, .i32⟩
  | 65 => ⟨S8x56x56x9, .i32⟩
  | 66 => ⟨S8x56x56x256, .f32⟩
  | 67 => ⟨S8x3136x256, .f32⟩
  | 68 => ⟨S_, .i32⟩
  | 69 => ⟨S8x56x56x9, .i32⟩
  | 70 => ⟨S8x56x56x9, .i1⟩
  | 71 => ⟨S_, .i32⟩
  | 72 => ⟨S8x56x56x9, .i32⟩
  | 73 => ⟨S8x56x56x9, .i1⟩
  | 74 => ⟨S8x56x56x9, .i1⟩
  | 75 => ⟨S_, .i32⟩
  | 76 => ⟨S8x56x56x9, .i32⟩
  | 77 => ⟨S8x56x56x9, .i1⟩
  | 78 => ⟨S8x56x56x9, .i1⟩
  | 79 => ⟨S_, .i32⟩
  | 80 => ⟨S8x56x56x9, .i32⟩
  | 81 => ⟨S8x56x56x9, .i1⟩
  | 82 => ⟨S8x56x56x9, .i1⟩
  | 83 => ⟨S_, .i32⟩
  | 84 => ⟨S_, .i32⟩
  | 85 => ⟨S_, .i32⟩
  | 86 => ⟨S8x56x56x9, .i32⟩
  | 87 => ⟨S8x56x56x9, .i32⟩
  | 88 => ⟨S_, .i32⟩
  | 89 => ⟨S8x56x56x9, .i32⟩
  | 90 => ⟨S8x56x56x9, .i32⟩
  | 91 => ⟨S_, .i32⟩
  | 92 => ⟨S8x56x56x9, .i32⟩
  | 93 => ⟨S8x56x56x9, .i32⟩
  | 94 => ⟨S_, .i32⟩
  | 95 => ⟨S_, .i32⟩
  | 96 => ⟨S_, .i32⟩
  | 97 => ⟨S8x56x56x9, .i32⟩
  | 98 => ⟨S8x56x56x9, .i32⟩
  | 99 => ⟨S_, .i32⟩
  | 100 => ⟨S8x56x56x9, .i32⟩
  | 101 => ⟨S8x56x56x9, .i32⟩
  | 102 => ⟨S8x56x56x9, .i32⟩
  | 103 => ⟨S8x28224x1, .i32⟩
  | 104 => ⟨S_, .i32⟩
  | 105 => ⟨S8x28224x1, .i32⟩
  | 106 => ⟨S8x28224x1, .i1⟩
  | 107 => ⟨S_, .i32⟩
  | 108 => ⟨S8x28224x1, .i32⟩
  | 109 => ⟨S8x28224x1, .i32⟩
  | 110 => ⟨S8x28224x1, .i32⟩
  | 111 => ⟨S1, .i32⟩
  | 112 => ⟨S_, .i32⟩
  | 113 => ⟨S8x28224x1, .i32⟩
  | 114 => ⟨S8x28224x1, .i1⟩
  | 115 => ⟨S1x1x1, .i32⟩
  | 116 => ⟨S8x28224x1, .i32⟩
  | 117 => ⟨S8x28224x1, .i1⟩
  | 118 => ⟨S8x28224x1, .i1⟩
  | 119 => ⟨S_, .i1⟩
  | 120 => ⟨S8x28224, .i1⟩
  | 121 => ⟨S8x28224x256, .f32⟩
  | 122 => ⟨S8x28224x256, .i1⟩
  | 123 => ⟨S_, .f32⟩
  | 124 => ⟨S8x28224x256, .f32⟩
  | 125 => ⟨S8x28224x256, .f32⟩
  | 126 => ⟨S8x56x56x9x256, .f32⟩
  | 127 => ⟨S8x56x56x9x1, .i1⟩
  | _ => ⟨S8x256x56x56, .f32⟩

abbrev hbmTy0_1 (i : Nat) : BufTy := match i % 128 with
  | 0 => ⟨S_, .f32⟩
  | 1 => ⟨S8x56x56x9x256, .i1⟩
  | 2 => ⟨S8x56x56x9x256, .f32⟩
  | 3 => ⟨S8x56x56x9x256, .f32⟩
  | 4 => ⟨S_, .i32⟩
  | 5 => ⟨S8x56x56x9, .i32⟩
  | 6 => ⟨S8x56x56x9, .i1⟩
  | 7 => ⟨S_, .i32⟩
  | 8 => ⟨S8x56x56x9, .i32⟩
  | 9 => ⟨S8x56x56x9, .i1⟩
  | 10 => ⟨S8x56x56x9, .i1⟩
  | 11 => ⟨S_, .i32⟩
  | 12 => ⟨S8x56x56x9, .i32⟩
  | 13 => ⟨S8x56x56x9, .i1⟩
  | 14 => ⟨S8x56x56x9, .i1⟩
  | 15 => ⟨S_, .i32⟩
  | 16 => ⟨S8x56x56x9, .i32⟩
  | 17 => ⟨S8x56x56x9, .i1⟩
  | 18 => ⟨S8x56x56x9, .i1⟩
  | 19 => ⟨S_, .i32⟩
  | 20 => ⟨S_, .i32⟩
  | 21 => ⟨S_, .i32⟩
  | 22 => ⟨S8x56x56x9, .i32⟩
  | 23 => ⟨S8x56x56x9, .i32⟩
  | 24 => ⟨S_, .i32⟩
  | 25 => ⟨S8x56x56x9, .i32⟩
  | 26 => ⟨S8x56x56x9, .i32⟩
  | 27 => ⟨S_, .i32⟩
  | 28 => ⟨S8x56x56x9, .i32⟩
  | 29 => ⟨S8x56x56x9, .i32⟩
  | 30 => ⟨S_, .i32⟩
  | 31 => ⟨S_, .i32⟩
  | 32 => ⟨S_, .i32⟩
  | 33 => ⟨S8x56x56x9, .i32⟩
  | 34 => ⟨S8x56x56x9, .i32⟩
  | 35 => ⟨S_, .i32⟩
  | 36 => ⟨S8x56x56x9, .i32⟩
  | 37 => ⟨S8x56x56x9, .i32⟩
  | 38 => ⟨S8x56x56x9, .i32⟩
  | 39 => ⟨S8x28224x1, .i32⟩
  | 40 => ⟨S_, .i32⟩
  | 41 => ⟨S8x28224x1, .i32⟩
  | 42 => ⟨S8x28224x1, .i1⟩
  | 43 => ⟨S_, .i32⟩
  | 44 => ⟨S8x28224x1, .i32⟩
  | 45 => ⟨S8x28224x1, .i32⟩
  | 46 => ⟨S8x28224x1, .i32⟩
  | 47 => ⟨S1, .i32⟩
  | 48 => ⟨S_, .i32⟩
  | 49 => ⟨S8x28224x1, .i32⟩
  | 50 => ⟨S8x28224x1, .i1⟩
  | 51 => ⟨S1x1x1, .i32⟩
  | 52 => ⟨S8x28224x1, .i32⟩
  | 53 => ⟨S8x28224x1, .i1⟩
  | 54 => ⟨S8x28224x1, .i1⟩
  | 55 => ⟨S_, .i1⟩
  | 56 => ⟨S8x28224, .i1⟩
  | 57 => ⟨S8x28224x256, .f32⟩
  | 58 => ⟨S8x28224x256, .i1⟩
  | 59 => ⟨S_, .f32⟩
  | 60 => ⟨S8x28224x256, .f32⟩
  | 61 => ⟨S8x28224x256, .f32⟩
  | 62 => ⟨S8x56x56x9x256, .f32⟩
  | 63 => ⟨S8x56x56x9x1, .i1⟩
  | 64 => ⟨S_, .f32⟩
  | 65 => ⟨S8x56x56x9x256, .i1⟩
  | 66 => ⟨S8x56x56x9x256, .f32⟩
  | 67 => ⟨S8x56x56x9x256, .f32⟩
  | 68 => ⟨S_, .i32⟩
  | 69 => ⟨S8x56x56x9, .i32⟩
  | 70 => ⟨S8x56x56x9, .i1⟩
  | 71 => ⟨S_, .i32⟩
  | 72 => ⟨S8x56x56x9, .i32⟩
  | 73 => ⟨S8x56x56x9, .i1⟩
  | 74 => ⟨S8x56x56x9, .i1⟩
  | 75 => ⟨S_, .i32⟩
  | 76 => ⟨S8x56x56x9, .i32⟩
  | 77 => ⟨S8x56x56x9, .i1⟩
  | 78 => ⟨S8x56x56x9, .i1⟩
  | 79 => ⟨S_, .i32⟩
  | 80 => ⟨S8x56x56x9, .i32⟩
  | 81 => ⟨S8x56x56x9, .i1⟩
  | 82 => ⟨S8x56x56x9, .i1⟩
  | 83 => ⟨S_, .i32⟩
  | 84 => ⟨S_, .i32⟩
  | 85 => ⟨S_, .i32⟩
  | 86 => ⟨S8x56x56x9, .i32⟩
  | 87 => ⟨S8x56x56x9, .i32⟩
  | 88 => ⟨S_, .i32⟩
  | 89 => ⟨S8x56x56x9, .i32⟩
  | 90 => ⟨S8x56x56x9, .i32⟩
  | 91 => ⟨S_, .i32⟩
  | 92 => ⟨S8x56x56x9, .i32⟩
  | 93 => ⟨S8x56x56x9, .i32⟩
  | 94 => ⟨S_, .i32⟩
  | 95 => ⟨S_, .i32⟩
  | 96 => ⟨S_, .i32⟩
  | 97 => ⟨S8x56x56x9, .i32⟩
  | 98 => ⟨S8x56x56x9, .i32⟩
  | 99 => ⟨S_, .i32⟩
  | 100 => ⟨S8x56x56x9, .i32⟩
  | 101 => ⟨S8x56x56x9, .i32⟩
  | 102 => ⟨S8x56x56x9, .i32⟩
  | 103 => ⟨S8x28224x1, .i32⟩
  | 104 => ⟨S_, .i32⟩
  | 105 => ⟨S8x28224x1, .i32⟩
  | 106 => ⟨S8x28224x1, .i1⟩
  | 107 => ⟨S_, .i32⟩
  | 108 => ⟨S8x28224x1, .i32⟩
  | 109 => ⟨S8x28224x1, .i32⟩
  | 110 => ⟨S8x28224x1, .i32⟩
  | 111 => ⟨S1, .i32⟩
  | 112 => ⟨S_, .i32⟩
  | 113 => ⟨S8x28224x1, .i32⟩
  | 114 => ⟨S8x28224x1, .i1⟩
  | 115 => ⟨S1x1x1, .i32⟩
  | 116 => ⟨S8x28224x1, .i32⟩
  | 117 => ⟨S8x28224x1, .i1⟩
  | 118 => ⟨S8x28224x1, .i1⟩
  | 119 => ⟨S_, .i1⟩
  | 120 => ⟨S8x28224, .i1⟩
  | 121 => ⟨S8x28224x256, .f32⟩
  | 122 => ⟨S8x28224x256, .i1⟩
  | 123 => ⟨S_, .f32⟩
  | 124 => ⟨S8x28224x256, .f32⟩
  | 125 => ⟨S8x28224x256, .f32⟩
  | 126 => ⟨S8x56x56x9x256, .f32⟩
  | 127 => ⟨S8x56x56x9x1, .i1⟩
  | _ => ⟨S8x256x56x56, .f32⟩

abbrev hbmTy0_2 (i : Nat) : BufTy := match i % 128 with
  | 0 => ⟨S_, .f32⟩
  | 1 => ⟨S8x56x56x9x256, .i1⟩
  | 2 => ⟨S8x56x56x9x256, .f32⟩
  | 3 => ⟨S8x56x56x9x256, .f32⟩
  | 4 => ⟨S_, .i32⟩
  | 5 => ⟨S8x56x56x9, .i32⟩
  | 6 => ⟨S8x56x56x9, .i1⟩
  | 7 => ⟨S_, .i32⟩
  | 8 => ⟨S8x56x56x9, .i32⟩
  | 9 => ⟨S8x56x56x9, .i1⟩
  | 10 => ⟨S8x56x56x9, .i1⟩
  | 11 => ⟨S_, .i32⟩
  | 12 => ⟨S8x56x56x9, .i32⟩
  | 13 => ⟨S8x56x56x9, .i1⟩
  | 14 => ⟨S8x56x56x9, .i1⟩
  | 15 => ⟨S_, .i32⟩
  | 16 => ⟨S8x56x56x9, .i32⟩
  | 17 => ⟨S8x56x56x9, .i1⟩
  | 18 => ⟨S8x56x56x9, .i1⟩
  | 19 => ⟨S_, .i32⟩
  | 20 => ⟨S_, .i32⟩
  | 21 => ⟨S_, .i32⟩
  | 22 => ⟨S8x56x56x9, .i32⟩
  | 23 => ⟨S8x56x56x9, .i32⟩
  | 24 => ⟨S_, .i32⟩
  | 25 => ⟨S8x56x56x9, .i32⟩
  | 26 => ⟨S8x56x56x9, .i32⟩
  | 27 => ⟨S_, .i32⟩
  | 28 => ⟨S8x56x56x9, .i32⟩
  | 29 => ⟨S8x56x56x9, .i32⟩
  | 30 => ⟨S_, .i32⟩
  | 31 => ⟨S_, .i32⟩
  | 32 => ⟨S_, .i32⟩
  | 33 => ⟨S8x56x56x9, .i32⟩
  | 34 => ⟨S8x56x56x9, .i32⟩
  | 35 => ⟨S_, .i32⟩
  | 36 => ⟨S8x56x56x9, .i32⟩
  | 37 => ⟨S8x56x56x9, .i32⟩
  | 38 => ⟨S8x56x56x9, .i32⟩
  | 39 => ⟨S8x28224x1, .i32⟩
  | 40 => ⟨S_, .i32⟩
  | 41 => ⟨S8x28224x1, .i32⟩
  | 42 => ⟨S8x28224x1, .i1⟩
  | 43 => ⟨S_, .i32⟩
  | 44 => ⟨S8x28224x1, .i32⟩
  | 45 => ⟨S8x28224x1, .i32⟩
  | 46 => ⟨S8x28224x1, .i32⟩
  | 47 => ⟨S1, .i32⟩
  | 48 => ⟨S_, .i32⟩
  | 49 => ⟨S8x28224x1, .i32⟩
  | 50 => ⟨S8x28224x1, .i1⟩
  | 51 => ⟨S1x1x1, .i32⟩
  | 52 => ⟨S8x28224x1, .i32⟩
  | 53 => ⟨S8x28224x1, .i1⟩
  | 54 => ⟨S8x28224x1, .i1⟩
  | 55 => ⟨S_, .i1⟩
  | 56 => ⟨S8x28224, .i1⟩
  | 57 => ⟨S8x28224x256, .f32⟩
  | 58 => ⟨S8x28224x256, .i1⟩
  | 59 => ⟨S_, .f32⟩
  | 60 => ⟨S8x28224x256, .f32⟩
  | 61 => ⟨S8x28224x256, .f32⟩
  | 62 => ⟨S8x56x56x9x256, .f32⟩
  | 63 => ⟨S8x56x56x9x1, .i1⟩
  | 64 => ⟨S_, .f32⟩
  | 65 => ⟨S8x56x56x9x256, .i1⟩
  | 66 => ⟨S8x56x56x9x256, .f32⟩
  | 67 => ⟨S8x56x56x9x256, .f32⟩
  | 68 => ⟨S8x56x56x9x1, .f32⟩
  | 69 => ⟨S8x56x56x9, .f32⟩
  | 70 => ⟨S8x56x56x9x1, .f32⟩
  | 71 => ⟨S8x56x56x9x1, .f32⟩
  | 72 => ⟨S8x56x56x9, .f32⟩
  | 73 => ⟨S8x56x56x9x1, .f32⟩
  | 74 => ⟨S8x56x56x9x256, .f32⟩
  | 75 => ⟨S8x56x56x9x256, .f32⟩
  | 76 => ⟨S8x56x56x9x256, .f32⟩
  | 77 => ⟨S8x56x56x9x256, .f32⟩
  | 78 => ⟨S8x56x56x9x256, .f32⟩
  | 79 => ⟨S8x56x56x9x256, .f32⟩
  | 80 => ⟨S8x56x56x9x256, .f32⟩
  | 81 => ⟨S8x56x56x9x256, .f32⟩
  | 82 => ⟨S8x56x56x9x256, .f32⟩
  | 83 => ⟨S8x56x56x9x256, .f32⟩
  | 84 => ⟨S8x56x56x9x256, .f32⟩
  | 85 => ⟨S8x56x56x9x256, .f32⟩
  | 86 => ⟨S8x56x56x9, .f32⟩
  | 87 => ⟨S8x56x56x9x1, .f32⟩
  | 88 => ⟨S8x56x56x9x256, .f32⟩
  | 89 => ⟨S8x56x56x9x256, .f32⟩
  | 90 => ⟨S8x3136x2304, .f32⟩
  | 91 => ⟨S3x3x256x256, .f32⟩
  | 92 => ⟨S2304x256, .f32⟩
  | 93 => ⟨S8x3136x2304, .bf16⟩
  | 94 => ⟨S2304x256, .bf16⟩
  | 95 => ⟨S1x256, .f32⟩
  | 96 => ⟨S8x3136x256, .f32⟩
  | 97 => ⟨S8x256x3136, .f32⟩
  | 98 => ⟨S8x256x56x56, .f32⟩
  | _ => ⟨S8x256x56x56, .f32⟩

abbrev hbmTy (i : Nat) : BufTy := match i / 128 with
  | 0 => hbmTy0_0 i
  | 1 => hbmTy0_1 i
  | 2 => hbmTy0_2 i
  | _ => ⟨S8x256x56x56, .f32⟩

abbrev bufTy : (tb : Table) → Fin (tcTables nBuf tb) → BufTy
  | .hbm, ⟨i, _⟩ => hbmTy i
  | .local _ .vmem, ⟨0, _⟩ => ⟨S1x3136x768, .bf16⟩
  | .local _ .vmem, ⟨1, _⟩ => ⟨S1x3136x768, .bf16⟩
  | .local _ .vmem, ⟨2, _⟩ => ⟨S768x256, .bf16⟩
  | .local _ .vmem, ⟨3, _⟩ => ⟨S768x256, .bf16⟩
  | .local _ .vmem, ⟨4, _⟩ => ⟨S1x256, .f32⟩
  | .local _ .vmem, ⟨5, _⟩ => ⟨S1x3136x256, .f32⟩
  | .local _ .vmem, ⟨6, _⟩ => ⟨S1x3136x256, .f32⟩
  | .local _ .vmem, ⟨7, _⟩ => ⟨S3136x256, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_7 : Ref sig .tc := ⟨.hbm, 68, rfl⟩
abbrev main_v55 : Ref sig .tc := ⟨.hbm, 69, rfl⟩
abbrev main_v56 : Ref sig .tc := ⟨.hbm, 70, rfl⟩
abbrev main_c_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_11 : Ref sig .tc := ⟨.hbm, 83, rfl⟩
abbrev main_c_12 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_c_15 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_c_1 : Ref sig .tc := ⟨.hbm, 111, rfl⟩
abbrev main_call2_c_2 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_c_3 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_cst : Ref sig .tc := ⟨.hbm, 123, rfl⟩
abbrev main_call2_v14 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst : Ref sig .tc := ⟨.hbm, 128, rfl⟩
abbrev main_call3_v0 : Ref sig .tc := ⟨.hbm, 129, rfl⟩
abbrev main_call3_v1 : Ref sig .tc := ⟨.hbm, 130, rfl⟩
abbrev main_v75 : Ref sig .tc := ⟨.hbm, 131, rfl⟩
abbrev main_c_16 : Ref sig .tc := ⟨.hbm, 132, rfl⟩
abbrev main_v76 : Ref sig .tc := ⟨.hbm, 133, rfl⟩
abbrev main_v77 : Ref sig .tc := ⟨.hbm, 134, rfl⟩
abbrev main_c_17 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_c_18 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_c_19 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_c_20 : Ref sig .tc := ⟨.hbm, 147, rfl⟩
abbrev main_c_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v87 : Ref sig .tc := ⟨.hbm, 154, rfl⟩
abbrev main_c_22 : Ref sig .tc := ⟨.hbm, 155, rfl⟩
abbrev main_v88 : Ref sig .tc := ⟨.hbm, 156, rfl⟩
abbrev main_v89 : Ref sig .tc := ⟨.hbm, 157, rfl⟩
abbrev main_c_23 : Ref sig .tc := ⟨.hbm, 158, rfl⟩
abbrev main_c_24 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_c_1 : Ref sig .tc := ⟨.hbm, 175, rfl⟩
abbrev main_call6_c_2 : Ref sig .tc := ⟨.hbm, 176, rfl⟩
abbrev main_call6_v5 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_c_3 : Ref sig .tc := ⟨.hbm, 183, rfl⟩
abbrev main_call6_v11 : Ref sig .tc := ⟨.hbm, 184, rfl⟩
abbrev main_call6_v12 : Ref sig .tc := ⟨.hbm, 185, rfl⟩
abbrev main_call6_v13 : Ref sig .tc := ⟨.hbm, 186, rfl⟩
abbrev main_call6_cst : Ref sig .tc := ⟨.hbm, 187, rfl⟩
abbrev main_call6_v14 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_cst_25 : Ref sig .tc := ⟨.hbm, 192, rfl⟩
abbrev main_call7_v0 : Ref sig .tc := ⟨.hbm, 193, rfl⟩
abbrev main_call7_v1 : Ref sig .tc := ⟨.hbm, 194, rfl⟩
abbrev main_v96 : Ref sig .tc := ⟨.hbm, 195, rfl⟩
abbrev main_c_26 : Ref sig .tc := ⟨.hbm, 196, rfl⟩
abbrev main_v97 : Ref sig .tc := ⟨.hbm, 197, rfl⟩
abbrev main_v98 : Ref sig .tc := ⟨.hbm, 198, rfl⟩
abbrev main_c_27 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_c_28 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_c_29 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_c_30 : Ref sig .tc := ⟨.hbm, 211, rfl⟩
abbrev main_c_31 : Ref sig .tc := ⟨.hbm, 212, rfl⟩
abbrev main_call8_v0 : Ref sig .tc := ⟨.hbm, 213, rfl⟩
abbrev main_call8_v1 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_v108 : Ref sig .tc := ⟨.hbm, 218, rfl⟩
abbrev main_c_32 : Ref sig .tc := ⟨.hbm, 219, rfl⟩
abbrev main_v109 : Ref sig .tc := ⟨.hbm, 220, rfl⟩
abbrev main_v110 : Ref sig .tc := ⟨.hbm, 221, rfl⟩
abbrev main_c_33 : Ref sig .tc := ⟨.hbm, 222, rfl⟩
abbrev main_c_34 : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_call10_c : Ref sig .tc := ⟨.hbm, 232, rfl⟩
abbrev main_call10_v0 : Ref sig .tc := ⟨.hbm, 233, rfl⟩
abbrev main_call10_v1 : Ref sig .tc := ⟨.hbm, 234, rfl⟩
abbrev main_call10_c_0 : Ref sig .tc := ⟨.hbm, 235, rfl⟩
abbrev main_call10_v2 : Ref sig .tc := ⟨.hbm, 236, rfl⟩
abbrev main_call10_v3 : Ref sig .tc := ⟨.hbm, 237, rfl⟩
abbrev main_call10_v4 : Ref sig .tc := ⟨.hbm, 238, rfl⟩
abbrev main_call10_c_1 : Ref sig .tc := ⟨.hbm, 239, rfl⟩
abbrev main_call10_c_2 : Ref sig .tc := ⟨.hbm, 240, rfl⟩
abbrev main_call10_v5 : Ref sig .tc := ⟨.hbm, 241, rfl⟩
abbrev main_call10_v6 : Ref sig .tc := ⟨.hbm, 242, rfl⟩
abbrev main_call10_v7 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_call10_c_3 : Ref sig .tc := ⟨.hbm, 247, rfl⟩
abbrev main_call10_v11 : Ref sig .tc := ⟨.hbm, 248, rfl⟩
abbrev main_call10_v12 : Ref sig .tc := ⟨.hbm, 249, rfl⟩
abbrev main_call10_v13 : Ref sig .tc := ⟨.hbm, 250, rfl⟩
abbrev main_call10_cst : Ref sig .tc := ⟨.hbm, 251, rfl⟩
abbrev main_call10_v14 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩
abbrev main_cst_35 : Ref sig .tc := ⟨.hbm, 256, rfl⟩
abbrev main_call11_v0 : Ref sig .tc := ⟨.hbm, 257, rfl⟩
abbrev main_call11_v1 : Ref sig .tc := ⟨.hbm, 258, rfl⟩
abbrev main_v117 : Ref sig .tc := ⟨.hbm, 259, rfl⟩
abbrev main_c_36 : Ref sig .tc := ⟨.hbm, 260, rfl⟩
abbrev main_v118 : Ref sig .tc := ⟨.hbm, 261, rfl⟩
abbrev main_v119 : Ref sig .tc := ⟨.hbm, 262, rfl⟩
abbrev main_c_37 : Ref sig .tc := ⟨.hbm, 263, rfl⟩
abbrev main_v120 : Ref sig .tc := ⟨.hbm, 264, rfl⟩
abbrev main_v121 : Ref sig .tc := ⟨.hbm, 265, rfl⟩
abbrev main_v122 : Ref sig .tc := ⟨.hbm, 266, rfl⟩
abbrev main_c_38 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_c_39 : Ref sig .tc := ⟨.hbm, 271, rfl⟩
abbrev main_v126 : Ref sig .tc := ⟨.hbm, 272, rfl⟩
abbrev main_v127 : Ref sig .tc := ⟨.hbm, 273, rfl⟩
abbrev main_v128 : Ref sig .tc := ⟨.hbm, 274, rfl⟩
abbrev main_c_40 : Ref sig .tc := ⟨.hbm, 275, rfl⟩
abbrev main_c_41 : Ref sig .tc := ⟨.hbm, 276, rfl⟩
abbrev main_call12_v0 : Ref sig .tc := ⟨.hbm, 277, rfl⟩
abbrev main_call12_v1 : Ref sig .tc := ⟨.hbm, 278, rfl⟩
abbrev main_call12_v2 : Ref sig .tc := ⟨.hbm, 279, rfl⟩
abbrev main_call12_v3 : Ref sig .tc := ⟨.hbm, 280, rfl⟩
abbrev main_call12_v4 : Ref sig .tc := ⟨.hbm, 281, rfl⟩
abbrev main_v129 : Ref sig .tc := ⟨.hbm, 282, rfl⟩
abbrev main_c_42 : Ref sig .tc := ⟨.hbm, 283, rfl⟩
abbrev main_v130 : Ref sig .tc := ⟨.hbm, 284, rfl⟩
abbrev main_v131 : Ref sig .tc := ⟨.hbm, 285, rfl⟩
abbrev main_c_43 : Ref sig .tc := ⟨.hbm, 286, rfl⟩
abbrev main_c_44 : Ref sig .tc := ⟨.hbm, 287, rfl⟩
abbrev main_call13_v0 : Ref sig .tc := ⟨.hbm, 288, rfl⟩
abbrev main_call13_v1 : Ref sig .tc := ⟨.hbm, 289, rfl⟩
abbrev main_call13_v2 : Ref sig .tc := ⟨.hbm, 290, rfl⟩
abbrev main_call13_v3 : Ref sig .tc := ⟨.hbm, 291, rfl⟩
abbrev main_call13_v4 : Ref sig .tc := ⟨.hbm, 292, rfl⟩
abbrev main_v132 : Ref sig .tc := ⟨.hbm, 293, rfl⟩
abbrev main_v133 : Ref sig .tc := ⟨.hbm, 294, rfl⟩
abbrev main_v134 : Ref sig .tc := ⟨.hbm, 295, rfl⟩
abbrev main_call14_c : Ref sig .tc := ⟨.hbm, 296, rfl⟩
abbrev main_call14_v0 : Ref sig .tc := ⟨.hbm, 297, rfl⟩
abbrev main_call14_v1 : Ref sig .tc := ⟨.hbm, 298, rfl⟩
abbrev main_call14_c_0 : Ref sig .tc := ⟨.hbm, 299, rfl⟩
abbrev main_call14_v2 : Ref sig .tc := ⟨.hbm, 300, rfl⟩
abbrev main_call14_v3 : Ref sig .tc := ⟨.hbm, 301, rfl⟩
abbrev main_call14_v4 : Ref sig .tc := ⟨.hbm, 302, rfl⟩
abbrev main_call14_c_1 : Ref sig .tc := ⟨.hbm, 303, rfl⟩
abbrev main_call14_c_2 : Ref sig .tc := ⟨.hbm, 304, rfl⟩
abbrev main_call14_v5 : Ref sig .tc := ⟨.hbm, 305, rfl⟩
abbrev main_call14_v6 : Ref sig .tc := ⟨.hbm, 306, rfl⟩
abbrev main_call14_v7 : Ref sig .tc := ⟨.hbm, 307, rfl⟩
abbrev main_call14_v8 : Ref sig .tc := ⟨.hbm, 308, rfl⟩
abbrev main_call14_v9 : Ref sig .tc := ⟨.hbm, 309, rfl⟩
abbrev main_call14_v10 : Ref sig .tc := ⟨.hbm, 310, rfl⟩
abbrev main_call14_c_3 : Ref sig .tc := ⟨.hbm, 311, rfl⟩
abbrev main_call14_v11 : Ref sig .tc := ⟨.hbm, 312, rfl⟩
abbrev main_call14_v12 : Ref sig .tc := ⟨.hbm, 313, rfl⟩
abbrev main_call14_v13 : Ref sig .tc := ⟨.hbm, 314, rfl⟩
abbrev main_call14_cst : Ref sig .tc := ⟨.hbm, 315, rfl⟩
abbrev main_call14_v14 : Ref sig .tc := ⟨.hbm, 316, rfl⟩
abbrev main_v135 : Ref sig .tc := ⟨.hbm, 317, rfl⟩
abbrev main_v136 : Ref sig .tc := ⟨.hbm, 318, rfl⟩
abbrev main_v137 : Ref sig .tc := ⟨.hbm, 319, rfl⟩
abbrev main_cst_45 : Ref sig .tc := ⟨.hbm, 320, rfl⟩
abbrev main_call15_v0 : Ref sig .tc := ⟨.hbm, 321, rfl⟩
abbrev main_call15_v1 : Ref sig .tc := ⟨.hbm, 322, rfl⟩
abbrev main_v138 : Ref sig .tc := ⟨.hbm, 323, rfl⟩
abbrev main_v139 : Ref sig .tc := ⟨.hbm, 324, rfl⟩
abbrev main_v140 : Ref sig .tc := ⟨.hbm, 325, rfl⟩
abbrev main_v141 : Ref sig .tc := ⟨.hbm, 326, rfl⟩
abbrev main_v142 : Ref sig .tc := ⟨.hbm, 327, rfl⟩
abbrev main_v143 : Ref sig .tc := ⟨.hbm, 328, rfl⟩
abbrev main_v144 : Ref sig .tc := ⟨.hbm, 329, rfl⟩
abbrev main_v145 : Ref sig .tc := ⟨.hbm, 330, rfl⟩
abbrev main_v146 : Ref sig .tc := ⟨.hbm, 331, rfl⟩
abbrev main_v147 : Ref sig .tc := ⟨.hbm, 332, rfl⟩
abbrev main_v148 : Ref sig .tc := ⟨.hbm, 333, rfl⟩
abbrev main_v149 : Ref sig .tc := ⟨.hbm, 334, rfl⟩
abbrev main_v150 : Ref sig .tc := ⟨.hbm, 335, rfl⟩
abbrev main_v151 : Ref sig .tc := ⟨.hbm, 336, rfl⟩
abbrev main_v152 : Ref sig .tc := ⟨.hbm, 337, rfl⟩
abbrev main_v153 : Ref sig .tc := ⟨.hbm, 338, rfl⟩
abbrev main_v154 : Ref sig .tc := ⟨.hbm, 339, rfl⟩
abbrev main_v155 : Ref sig .tc := ⟨.hbm, 340, rfl⟩
abbrev main_v156 : Ref sig .tc := ⟨.hbm, 341, rfl⟩
abbrev main_v157 : Ref sig .tc := ⟨.hbm, 342, rfl⟩
abbrev main_v158 : Ref sig .tc := ⟨.hbm, 343, rfl⟩
abbrev main_v159 : Ref sig .tc := ⟨.hbm, 344, rfl⟩
abbrev main_v160 : Ref sig .tc := ⟨.hbm, 345, rfl⟩
abbrev main_v161 : Ref sig .tc := ⟨.hbm, 346, rfl⟩
abbrev main_v162 : Ref sig .tc := ⟨.hbm, 347, rfl⟩
abbrev main_v163 : Ref sig .tc := ⟨.hbm, 348, rfl⟩
abbrev main_v164 : Ref sig .tc := ⟨.hbm, 349, rfl⟩
abbrev main_v165 : Ref sig .tc := ⟨.hbm, 350, rfl⟩
abbrev main_v166 : Ref sig .tc := ⟨.hbm, 351, rfl⟩
abbrev main_v167 : Ref sig .tc := ⟨.hbm, 352, rfl⟩
abbrev main_v168 : Ref sig .tc := ⟨.hbm, 353, rfl⟩
abbrev main_v169 : Ref sig .tc := ⟨.hbm, 354, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3136x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S56 : S_.BroadcastsInDim S56 (![] : Fin 0 → Fin S56.rank)
  bcast_S56_S56x1_0 : S56.BroadcastsInDim S56x1 (![0] : Fin 1 → Fin S56x1.rank)
  bcast_S_S3 : S_.BroadcastsInDim S3 (![] : Fin 0 → Fin S3.rank)
  bcast_S3_S1x3_1 : S3.BroadcastsInDim S1x3 (![1] : Fin 1 → Fin S1x3.rank)
  bcast_S56x1_S56x3_0_1 : S56x1.BroadcastsInDim S56x3 (![0, 1] : Fin 2 → Fin S56x3.rank)
  bcast_S1x3_S56x3_0_1 : S1x3.BroadcastsInDim S56x3 (![0, 1] : Fin 2 → Fin S56x3.rank)
  bcast_S56x3_S56x1x3x1_0_2 : S56x3.BroadcastsInDim S56x1x3x1 (![0, 2] : Fin 2 → Fin S56x1x3x1.rank)
  bcast_S56x1x3x1_S56x56x3x3_0_1_2_3 : S56x1x3x1.BroadcastsInDim S56x56x3x3 (![0, 1, 2, 3] : Fin 4 → Fin S56x56x3x3.rank)
  shapeCasts_S56x56x3x3_S56x56x9 : S56x56x3x3.ShapeCasts S56x56x9
  bcast_S56x3_S1x56x1x3_1_3 : S56x3.BroadcastsInDim S1x56x1x3 (![1, 3] : Fin 2 → Fin S1x56x1x3.rank)
  bcast_S1x56x1x3_S56x56x3x3_0_1_2_3 : S1x56x1x3.BroadcastsInDim S56x56x3x3 (![0, 1, 2, 3] : Fin 4 → Fin S56x56x3x3.rank)
  bcast_S56x56x9_S56x56x9x1_0_1_2 : S56x56x9.BroadcastsInDim S56x56x9x1 (![0, 1, 2] : Fin 3 → Fin S56x56x9x1.rank)
  concatenates_S56x56x9x1_S56x56x9x1_S56x56x9x2_d3 : Shape.Concatenates [S56x56x9x1, S56x56x9x1] S56x56x9x2 3
  shapeCasts_S8x18x56x56_S8x9x2x56x56 : S8x18x56x56.ShapeCasts S8x9x2x56x56
  transposes_S8x9x2x56x56_S8x56x56x9x2_0_3_4_1_2 : S8x9x2x56x56.Transposes [0, 3, 4, 1, 2] S8x56x56x9x2
  bcast_S56x56x9x2_S1x56x56x9x2_1_2_3_4 : S56x56x9x2.BroadcastsInDim S1x56x56x9x2 (![1, 2, 3, 4] : Fin 4 → Fin S1x56x56x9x2.rank)
  bcast_S1x56x56x9x2_S8x56x56x9x2_0_1_2_3_4 : S1x56x56x9x2.BroadcastsInDim S8x56x56x9x2 (![0, 1, 2, 3, 4] : Fin 5 → Fin S8x56x56x9x2.rank)
  slices_S8x56x56x9x2_S8x56x56x9x1_0_0_0_0_0 : S8x56x56x9x2.Slices ![0, 0, 0, 0, 0] S8x56x56x9x1
  shapeCasts_S8x56x56x9x1_S8x56x56x9 : S8x56x56x9x1.ShapeCasts S8x56x56x9
  slices_S8x56x56x9x2_S8x56x56x9x1_0_0_0_0_1 : S8x56x56x9x2.Slices ![0, 0, 0, 0, 1] S8x56x56x9x1
  bcast_S_S8x56x56x9 : S_.BroadcastsInDim S8x56x56x9 (![] : Fin 0 → Fin S8x56x56x9.rank)
  transposes_S8x256x56x56_S8x56x56x256_0_2_3_1 : S8x256x56x56.Transposes [0, 2, 3, 1] S8x56x56x256
  shapeCasts_S8x56x56x256_S8x3136x256 : S8x56x56x256.ShapeCasts S8x3136x256
  shapeCasts_S8x56x56x9_S8x28224x1 : S8x56x56x9.ShapeCasts S8x28224x1
  bcast_S_S8x28224x1 : S_.BroadcastsInDim S8x28224x1 (![] : Fin 0 → Fin S8x28224x1.rank)
  bcast_S1_S1x1x1_2 : S1.BroadcastsInDim S1x1x1 (![2] : Fin 1 → Fin S1x1x1.rank)
  bcast_S1x1x1_S8x28224x1_0_1_2 : S1x1x1.BroadcastsInDim S8x28224x1 (![0, 1, 2] : Fin 3 → Fin S8x28224x1.rank)
  reducesTo_S8x28224x1_S8x28224_d2 : S8x28224x1.ReducesTo [2] S8x28224
  h_S_ : 0 < S_.numel
  bcast_S8x28224_S8x28224x256_0_1 : S8x28224.BroadcastsInDim S8x28224x256 (![0, 1] : Fin 2 → Fin S8x28224x256.rank)
  bcast_S_S8x28224x256 : S_.BroadcastsInDim S8x28224x256 (![] : Fin 0 → Fin S8x28224x256.rank)
  shapeCasts_S8x28224x256_S8x56x56x9x256 : S8x28224x256.ShapeCasts S8x56x56x9x256
  bcast_S8x56x56x9_S8x56x56x9x1_0_1_2_3 : S8x56x56x9.BroadcastsInDim S8x56x56x9x1 (![0, 1, 2, 3] : Fin 4 → Fin S8x56x56x9x1.rank)
  bcast_S8x56x56x9x1_S8x56x56x9x256_0_1_2_3_4 : S8x56x56x9x1.BroadcastsInDim S8x56x56x9x256 (![0, 1, 2, 3, 4] : Fin 5 → Fin S8x56x56x9x256.rank)
  bcast_S_S8x56x56x9x256 : S_.BroadcastsInDim S8x56x56x9x256 (![] : Fin 0 → Fin S8x56x56x9x256.rank)
  transposes_S8x9x56x56_S8x56x56x9_0_2_3_1 : S8x9x56x56.Transposes [0, 2, 3, 1] S8x56x56x9
  shapeCasts_S8x56x56x9x256_S8x3136x2304 : S8x56x56x9x256.ShapeCasts S8x3136x2304
  transposes_S256x256x3x3_S3x3x256x256_2_3_1_0 : S256x256x3x3.Transposes [2, 3, 1, 0] S3x3x256x256
  shapeCasts_S3x3x256x256_S2304x256 : S3x3x256x256.ShapeCasts S2304x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3136x256 : S1x256.Broadcasts S3136x256
  inb_S3136x256_S3136x256_0_0 : ∀ a, (![0, 0] : Fin 2 → Nat) a + S3136x256.size a ≤ S3136x256.size a
  h_S3136x256 : 0 < S3136x256.numel
  shapeCasts_S3136x256_S3136x256 : S3136x256.ShapeCasts S3136x256
  inb_S1x3136x768_S1x3136x768_0_0_0 : ∀ a, (![0, 0, 0] : Fin 3 → Nat) a + S1x3136x768.size a ≤ S1x3136x768.size a
  h_S1x3136x768 : 0 < S1x3136x768.numel
  shapeCasts_S1x3136x768_S3136x768 : S1x3136x768.ShapeCasts S3136x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x3136x256_S1x3136x256_0_0_0 : ∀ a, (![0, 0, 0] : Fin 3 → Nat) a + S1x3136x256.size a ≤ S1x3136x256.size a
  h_S1x3136x256 : 0 < S1x3136x256.numel
  shapeCasts_S1x3136x256_S3136x256 : S1x3136x256.ShapeCasts S3136x256
  shapeCasts_S3136x256_S1x3136x256 : S3136x256.ShapeCasts S1x3136x256
  transposes_S8x3136x256_S8x256x3136_0_2_1 : S8x3136x256.Transposes [0, 2, 1] S8x256x3136
  shapeCasts_S8x256x3136_S8x256x56x56 : S8x256x3136.ShapeCasts S8x256x56x56
  gather_S8x3136x256_S8x28224x1_S8x28224x256_2_1_0_0_1_2_11256_wf : GatherDims.WF S8x3136x256 S8x28224x1 S8x28224x256 [2] [1] [0] [1] [0] 2 ![1, 1, 256]
  dot_S3136x768_S768x256_S3136x256_1_0_0_1_n_n_wf : DotDims.WF S3136x768 S768x256 S3136x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3136x768.size a ≤ S8x3136x2304.size a
  hwx0_0 : ∀ i : grid0.Coords, EltTy.bits .bf16 = 32 ∨ (Rect.block (s := S8x3136x2304) S1x3136x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S2304x256.size a
  hwx0_1 : ∀ i : grid0.Coords, EltTy.bits .bf16 = 32 ∨ (Rect.block (s := S2304x256) S768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3136x256.size a ≤ S8x3136x256.size a
  hwx0_3 : ∀ i : grid0.Coords, EltTy.bits .f32 = 32 ∨ (Rect.block (s := S8x3136x256) S1x3136x256.size (cc0_transform_3 i) (hinb0_3 i)).WholeWords (EltTy.packing .f32)

variable [Facts₀]

def gather_S8x3136x256_S8x28224x1_S8x28224x256_2_1_0_0_1_2_11256 : GatherDims S8x3136x256 S8x28224x1 S8x28224x256 where
  offsetDims := [2]
  collapsedSliceDims := [1]
  operandBatchingDims := [0]
  startIndicesBatchingDims := [0]
  startIndexMap := [1]
  indexVectorDim := 2
  sliceSizes := ![1, 1, 256]
  wf := gather_S8x3136x256_S8x28224x1_S8x28224x256_2_1_0_0_1_2_11256_wf
def dot_S3136x768_S768x256_S3136x256_1_0_0_1_n_n : DotDims S3136x768 S768x256 S3136x256 where
  lhsContracting := [1]
  rhsContracting := [0]
  lhsNonContracting := [0]
  rhsNonContracting := [1]
  lhsBatch := []
  rhsBatch := []
  wf := dot_S3136x768_S768x256_S3136x256_1_0_0_1_n_n_wf

abbrev win0_0 : Pipeline.Window sig grid0 :=
  Pipeline.Window.ofSpec (Memref.whole main_v164) S1x3136x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v165) S768x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v166) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v167) S1x3136x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x56x56 : Shape := ⟨4, ![8, 256, 56, 56]⟩
abbrev S8x18x56x56 : Shape := ⟨4, ![8, 18, 56, 56]⟩
abbrev S8x9x56x56 : Shape := ⟨4, ![8, 9, 56, 56]⟩
abbrev S256x256x3x3 : Shape := ⟨4, ![256, 256, 3, 3]⟩
abbrev S256 : Shape := ⟨1, ![256]⟩
abbrev S56 : Shape := ⟨1, ![56]⟩
abbrev S_ : Shape := ⟨0, ![]⟩
abbrev S56x1 : Shape := ⟨2, ![56, 1]⟩
abbrev S3 : Shape := ⟨1, ![3]⟩
abbrev S1x3 : Shape := ⟨2, ![1, 3]⟩
abbrev S56x3 : Shape := ⟨2, ![56, 3]⟩
abbrev S56x1x3x1 : Shape := ⟨4, ![56, 1, 3, 1]⟩
abbrev S56x56x3x3 : Shape := ⟨4, ![56, 56, 3, 3]⟩
abbrev S56x56x9 : Shape := ⟨3, ![56, 56, 9]⟩
abbrev S1x56x1x3 : Shape := ⟨4, ![1, 56, 1, 3]⟩
abbrev S56x56x9x1 : Shape := ⟨4, ![56, 56, 9, 1]⟩
abbrev S56x56x9x2 : Shape := ⟨4, ![56, 56, 9, 2]⟩
abbrev S8x1x9x2x56x56 : Shape := ⟨6, ![8, 1, 9, 2, 56, 56]⟩
abbrev S8x1x56x56x9x2 : Shape := ⟨6, ![8, 1, 56, 56, 9, 2]⟩
abbrev S1x1x56x56x9x2 : Shape := ⟨6, ![1, 1, 56, 56, 9, 2]⟩
abbrev S8x1x56x56x9x1 : Shape := ⟨6, ![8, 1, 56, 56, 9, 1]⟩
abbrev S8x1x56x56x9 : Shape := ⟨5, ![8, 1, 56, 56, 9]⟩
abbrev S8x1x256x3136 : Shape := ⟨4, ![8, 1, 256, 3136]⟩
abbrev S8x1x1x28224 : Shape := ⟨4, ![8, 1, 1, 28224]⟩
abbrev S8x28224x1 : Shape := ⟨3, ![8, 28224, 1]⟩
abbrev S1 : Shape := ⟨1, ![1]⟩
abbrev S1x1x1 : Shape := ⟨3, ![1, 1, 1]⟩
abbrev S8x28224 : Shape := ⟨2, ![8, 28224]⟩
abbrev S8x1x256x28224 : Shape := ⟨4, ![8, 1, 256, 28224]⟩
abbrev S8x1x256x56x56x9 : Shape := ⟨6, ![8, 1, 256, 56, 56, 9]⟩
abbrev S8x1x1x56x56x9 : Shape := ⟨6, ![8, 1, 1, 56, 56, 9]⟩
abbrev S8x1x9x56x56 : Shape := ⟨5, ![8, 1, 9, 56, 56]⟩
abbrev S1x256x9x8x56x56 : Shape := ⟨6, ![1, 256, 9, 8, 56, 56]⟩
abbrev S1x2304x25088 : Shape := ⟨3, ![1, 2304, 25088]⟩
abbrev S1x256x2304 : Shape := ⟨3, ![1, 256, 2304]⟩
abbrev S1x256x25088 : Shape := ⟨3, ![1, 256, 25088]⟩
abbrev S256x8x56x56 : Shape := ⟨4, ![256, 8, 56, 56]⟩
abbrev S256x1x1x1 : Shape := ⟨4, ![256, 1, 1, 1]⟩

abbrev nBuf : Space → Nat
  | .hbm => 359
  | .vmem => 0
  | .smem => 0
  | _ => 0

abbrev hbmTy0_0 (i : Nat) : BufTy := match i % 128 with
  | 0 => ⟨S8x256x56x56, .f32⟩
  | 1 => ⟨S8x18x56x56, .f32⟩
  | 2 => ⟨S8x9x56x56, .f32⟩
  | 3 => ⟨S256x256x3x3, .f32⟩
  | 4 => ⟨S256, .f32⟩
  | 5 => ⟨S56, .i32⟩
  | 6 => ⟨S_, .i32⟩
  | 7 => ⟨S56, .i32⟩
  | 8 => ⟨S56, .i32⟩
  | 9 => ⟨S_, .i32⟩
  | 10 => ⟨S56, .i32⟩
  | 11 => ⟨S56, .i32⟩
  | 12 => ⟨S56x1, .i32⟩
  | 13 => ⟨S3, .i32⟩
  | 14 => ⟨S_, .i32⟩
  | 15 => ⟨S3, .i32⟩
  | 16 => ⟨S3, .i32⟩
  | 17 => ⟨S1x3, .i32⟩
  | 18 => ⟨S56x3, .i32⟩
  | 19 => ⟨S56x3, .i32⟩
  | 20 => ⟨S56x3, .i32⟩
  | 21 => ⟨S56, .i32⟩
  | 22 => ⟨S_, .i32⟩
  | 23 => ⟨S56, .i32⟩
  | 24 => ⟨S56, .i32⟩
  | 25 => ⟨S_, .i32⟩
  | 26 => ⟨S56, .i32⟩
  | 27 => ⟨S56, .i32⟩
  | 28 => ⟨S56x1, .i32⟩
  | 29 => ⟨S3, .i32⟩
  | 30 => ⟨S_, .i32⟩
  | 31 => ⟨S3, .i32⟩
  | 32 => ⟨S3, .i32⟩
  | 33 => ⟨S1x3, .i32⟩
  | 34 => ⟨S56x3, .i32⟩
  | 35 => ⟨S56x3, .i32⟩
  | 36 => ⟨S56x3, .i32⟩
  | 37 => ⟨S56x1x3x1, .i32⟩
  | 38 => ⟨S56x56x3x3, .i32⟩
  | 39 => ⟨S56x56x9, .i32⟩
  | 40 => ⟨S1x56x1x3, .i32⟩
  | 41 => ⟨S56x56x3x3, .i32⟩
  | 42 => ⟨S56x56x9, .i32⟩
  | 43 => ⟨S56x56x9x1, .i32⟩
  | 44 => ⟨S56x56x9x1, .i32⟩
  | 45 => ⟨S56x56x9x2, .i32⟩
  | 46 => ⟨S56x56x9x2, .f32⟩
  | 47 => ⟨S8x1x9x2x56x56, .f32⟩
  | 48 => ⟨S8x1x56x56x9x2, .f32⟩
  | 49 => ⟨S1x1x56x56x9x2, .f32⟩
  | 50 => ⟨S8x1x56x56x9x2, .f32⟩
  | 51 => ⟨S8x1x56x56x9x2, .f32⟩
  | 52 => ⟨S8x1x56x56x9x2, .f32⟩
  | 53 => ⟨S8x1x56x56x9x2, .f32⟩
  | 54 => ⟨S8x1x56x56x9x1, .f32⟩
  | 55 => ⟨S8x1x56x56x9, .f32⟩
  | 56 => ⟨S8x1x56x56x9, .i32⟩
  | 57 => ⟨S8x1x56x56x9x1, .f32⟩
  | 58 => ⟨S8x1x56x56x9, .f32⟩
  | 59 => ⟨S8x1x56x56x9, .i32⟩
  | 60 => ⟨S_, .i32⟩
  | 61 => ⟨S8x1x56x56x9, .i32⟩
  | 62 => ⟨S8x1x56x56x9, .i32⟩
  | 63 => ⟨S_, .i32⟩
  | 64 => ⟨S8x1x56x56x9, .i32⟩
  | 65 => ⟨S8x1x56x56x9, .i32⟩
  | 66 => ⟨S8x1x256x3136, .f32⟩
  | 67 => ⟨S_, .i32⟩
  | 68 => ⟨S8x1x56x56x9, .i32⟩
  | 69 => ⟨S8x1x56x56x9, .i1⟩
  | 70 => ⟨S_, .i32⟩
  | 71 => ⟨S8x1x56x56x9, .i32⟩
  | 72 => ⟨S8x1x56x56x9, .i1⟩
  | 73 => ⟨S8x1x56x56x9, .i1⟩
  | 74 => ⟨S_, .i32⟩
  | 75 => ⟨S8x1x56x56x9, .i32⟩
  | 76 => ⟨S8x1x56x56x9, .i1⟩
  | 77 => ⟨S8x1x56x56x9, .i1⟩
  | 78 => ⟨S_, .i32⟩
  | 79 => ⟨S8x1x56x56x9, .i32⟩
  | 80 => ⟨S8x1x56x56x9, .i1⟩
  | 81 => ⟨S8x1x56x56x9, .i1⟩
  | 82 => ⟨S_, .i32⟩
  | 83 => ⟨S_, .i32⟩
  | 84 => ⟨S_, .i32⟩
  | 85 => ⟨S8x1x56x56x9, .i32⟩
  | 86 => ⟨S8x1x56x56x9, .i32⟩
  | 87 => ⟨S_, .i32⟩
  | 88 => ⟨S8x1x56x56x9, .i32⟩
  | 89 => ⟨S8x1x56x56x9, .i32⟩
  | 90 => ⟨S_, .i32⟩
  | 91 => ⟨S8x1x56x56x9, .i32⟩
  | 92 => ⟨S8x1x56x56x9, .i32⟩
  | 93 => ⟨S_, .i32⟩
  | 94 => ⟨S_, .i32⟩
  | 95 => ⟨S_, .i32⟩
  | 96 => ⟨S8x1x56x56x9, .i32⟩
  | 97 => ⟨S8x1x56x56x9, .i32⟩
  | 98 => ⟨S_, .i32⟩
  | 99 => ⟨S8x1x56x56x9, .i32⟩
  | 100 => ⟨S8x1x56x56x9, .i32⟩
  | 101 => ⟨S8x1x56x56x9, .i32⟩
  | 102 => ⟨S8x1x1x28224, .i32⟩
  | 103 => ⟨S_, .i32⟩
  | 104 => ⟨S8x1x1x28224, .i32⟩
  | 105 => ⟨S8x1x1x28224, .i1⟩
  | 106 => ⟨S_, .i32⟩
  | 107 => ⟨S8x1x1x28224, .i32⟩
  | 108 => ⟨S8x1x1x28224, .i32⟩
  | 109 => ⟨S8x1x1x28224, .i32⟩
  | 110 => ⟨S8x28224x1, .i32⟩
  | 111 => ⟨S1, .i32⟩
  | 112 => ⟨S_, .i32⟩
  | 113 => ⟨S8x28224x1, .i32⟩
  | 114 => ⟨S8x28224x1, .i1⟩
  | 115 => ⟨S1x1x1, .i32⟩
  | 116 => ⟨S8x28224x1, .i32⟩
  | 117 => ⟨S8x28224x1, .i1⟩
  | 118 => ⟨S8x28224x1, .i1⟩
  | 119 => ⟨S_, .i1⟩
  | 120 => ⟨S8x28224, .i1⟩
  | 121 => ⟨S8x1x256x28224, .f32⟩
  | 122 => ⟨S8x1x256x28224, .i1⟩
  | 123 => ⟨S_, .f32⟩
  | 124 => ⟨S8x1x256x28224, .f32⟩
  | 125 => ⟨S8x1x256x28224, .f32⟩
  | 126 => ⟨S8x1x256x56x56x9, .f32⟩
  | 127 => ⟨S8x1x1x56x56x9, .i1⟩
  | _ => ⟨S8x256x56x56, .f32⟩

abbrev hbmTy0_1 (i : Nat) : BufTy := match i % 128 with
  | 0 => ⟨S_, .f32⟩
  | 1 => ⟨S8x1x256x56x56x9, .i1⟩
  | 2 => ⟨S8x1x256x56x56x9, .f32⟩
  | 3 => ⟨S8x1x256x56x56x9, .f32⟩
  | 4 => ⟨S_, .i32⟩
  | 5 => ⟨S8x1x56x56x9, .i32⟩
  | 6 => ⟨S8x1x56x56x9, .i1⟩
  | 7 => ⟨S_, .i32⟩
  | 8 => ⟨S8x1x56x56x9, .i32⟩
  | 9 => ⟨S8x1x56x56x9, .i1⟩
  | 10 => ⟨S8x1x56x56x9, .i1⟩
  | 11 => ⟨S_, .i32⟩
  | 12 => ⟨S8x1x56x56x9, .i32⟩
  | 13 => ⟨S8x1x56x56x9, .i1⟩
  | 14 => ⟨S8x1x56x56x9, .i1⟩
  | 15 => ⟨S_, .i32⟩
  | 16 => ⟨S8x1x56x56x9, .i32⟩
  | 17 => ⟨S8x1x56x56x9, .i1⟩
  | 18 => ⟨S8x1x56x56x9, .i1⟩
  | 19 => ⟨S_, .i32⟩
  | 20 => ⟨S_, .i32⟩
  | 21 => ⟨S_, .i32⟩
  | 22 => ⟨S8x1x56x56x9, .i32⟩
  | 23 => ⟨S8x1x56x56x9, .i32⟩
  | 24 => ⟨S_, .i32⟩
  | 25 => ⟨S8x1x56x56x9, .i32⟩
  | 26 => ⟨S8x1x56x56x9, .i32⟩
  | 27 => ⟨S_, .i32⟩
  | 28 => ⟨S8x1x56x56x9, .i32⟩
  | 29 => ⟨S8x1x56x56x9, .i32⟩
  | 30 => ⟨S_, .i32⟩
  | 31 => ⟨S_, .i32⟩
  | 32 => ⟨S_, .i32⟩
  | 33 => ⟨S8x1x56x56x9, .i32⟩
  | 34 => ⟨S8x1x56x56x9, .i32⟩
  | 35 => ⟨S_, .i32⟩
  | 36 => ⟨S8x1x56x56x9, .i32⟩
  | 37 => ⟨S8x1x56x56x9, .i32⟩
  | 38 => ⟨S8x1x56x56x9, .i32⟩
  | 39 => ⟨S8x1x1x28224, .i32⟩
  | 40 => ⟨S_, .i32⟩
  | 41 => ⟨S8x1x1x28224, .i32⟩
  | 42 => ⟨S8x1x1x28224, .i1⟩
  | 43 => ⟨S_, .i32⟩
  | 44 => ⟨S8x1x1x28224, .i32⟩
  | 45 => ⟨S8x1x1x28224, .i32⟩
  | 46 => ⟨S8x1x1x28224, .i32⟩
  | 47 => ⟨S8x28224x1, .i32⟩
  | 48 => ⟨S1, .i32⟩
  | 49 => ⟨S_, .i32⟩
  | 50 => ⟨S8x28224x1, .i32⟩
  | 51 => ⟨S8x28224x1, .i1⟩
  | 52 => ⟨S1x1x1, .i32⟩
  | 53 => ⟨S8x28224x1, .i32⟩
  | 54 => ⟨S8x28224x1, .i1⟩
  | 55 => ⟨S8x28224x1, .i1⟩
  | 56 => ⟨S_, .i1⟩
  | 57 => ⟨S8x28224, .i1⟩
  | 58 => ⟨S8x1x256x28224, .f32⟩
  | 59 => ⟨S8x1x256x28224, .i1⟩
  | 60 => ⟨S_, .f32⟩
  | 61 => ⟨S8x1x256x28224, .f32⟩
  | 62 => ⟨S8x1x256x28224, .f32⟩
  | 63 => ⟨S8x1x256x56x56x9, .f32⟩
  | 64 => ⟨S8x1x1x56x56x9, .i1⟩
  | 65 => ⟨S_, .f32⟩
  | 66 => ⟨S8x1x256x56x56x9, .i1⟩
  | 67 => ⟨S8x1x256x56x56x9, .f32⟩
  | 68 => ⟨S8x1x256x56x56x9, .f32⟩
  | 69 => ⟨S_, .i32⟩
  | 70 => ⟨S8x1x56x56x9, .i32⟩
  | 71 => ⟨S8x1x56x56x9, .i1⟩
  | 72 => ⟨S_, .i32⟩
  | 73 => ⟨S8x1x56x56x9, .i32⟩
  | 74 => ⟨S8x1x56x56x9, .i1⟩
  | 75 => ⟨S8x1x56x56x9, .i1⟩
  | 76 => ⟨S_, .i32⟩
  | 77 => ⟨S8x1x56x56x9, .i32⟩
  | 78 => ⟨S8x1x56x56x9, .i1⟩
  | 79 => ⟨S8x1x56x56x9, .i1⟩
  | 80 => ⟨S_, .i32⟩
  | 81 => ⟨S8x1x56x56x9, .i32⟩
  | 82 => ⟨S8x1x56x56x9, .i1⟩
  | 83 => ⟨S8x1x56x56x9, .i1⟩
  | 84 => ⟨S_, .i32⟩
  | 85 => ⟨S_, .i32⟩
  | 86 => ⟨S_, .i32⟩
  | 87 => ⟨S8x1x56x56x9, .i32⟩
  | 88 => ⟨S8x1x56x56x9, .i32⟩
  | 89 => ⟨S_, .i32⟩
  | 90 => ⟨S8x1x56x56x9, .i32⟩
  | 91 => ⟨S8x1x56x56x9, .i32⟩
  | 92 => ⟨S_, .i32⟩
  | 93 => ⟨S8x1x56x56x9, .i32⟩
  | 94 => ⟨S8x1x56x56x9, .i32⟩
  | 95 => ⟨S_, .i32⟩
  | 96 => ⟨S_, .i32⟩
  | 97 => ⟨S_, .i32⟩
  | 98 => ⟨S8x1x56x56x9, .i32⟩
  | 99 => ⟨S8x1x56x56x9, .i32⟩
  | 100 => ⟨S_, .i32⟩
  | 101 => ⟨S8x1x56x56x9, .i32⟩
  | 102 => ⟨S8x1x56x56x9, .i32⟩
  | 103 => ⟨S8x1x56x56x9, .i32⟩
  | 104 => ⟨S8x1x1x28224, .i32⟩
  | 105 => ⟨S_, .i32⟩
  | 106 => ⟨S8x1x1x28224, .i32⟩
  | 107 => ⟨S8x1x1x28224, .i1⟩
  | 108 => ⟨S_, .i32⟩
  | 109 => ⟨S8x1x1x28224, .i32⟩
  | 110 => ⟨S8x1x1x28224, .i32⟩
  | 111 => ⟨S8x1x1x28224, .i32⟩
  | 112 => ⟨S8x28224x1, .i32⟩
  | 113 => ⟨S1, .i32⟩
  | 114 => ⟨S_, .i32⟩
  | 115 => ⟨S8x28224x1, .i32⟩
  | 116 => ⟨S8x28224x1, .i1⟩
  | 117 => ⟨S1x1x1, .i32⟩
  | 118 => ⟨S8x28224x1, .i32⟩
  | 119 => ⟨S8x28224x1, .i1⟩
  | 120 => ⟨S8x28224x1, .i1⟩
  | 121 => ⟨S_, .i1⟩
  | 122 => ⟨S8x28224, .i1⟩
  | 123 => ⟨S8x1x256x28224, .f32⟩
  | 124 => ⟨S8x1x256x28224, .i1⟩
  | 125 => ⟨S_, .f32⟩
  | 126 => ⟨S8x1x256x28224, .f32⟩
  | 127 => ⟨S8x1x256x28224, .f32⟩
  | _ => ⟨S8x256x56x56, .f32⟩

abbrev hbmTy0_2 (i : Nat) : BufTy := match i % 128 with
  | 0 => ⟨S8x1x256x56x56x9, .f32⟩
  | 1 => ⟨S8x1x1x56x56x9, .i1⟩
  | 2 => ⟨S_, .f32⟩
  | 3 => ⟨S8x1x256x56x56x9, .i1⟩
  | 4 => ⟨S8x1x256x56x56x9, .f32⟩
  | 5 => ⟨S8x1x256x56x56x9, .f32⟩
  | 6 => ⟨S_, .i32⟩
  | 7 => ⟨S8x1x56x56x9, .i32⟩
  | 8 => ⟨S8x1x56x56x9, .i1⟩
  | 9 => ⟨S_, .i32⟩
  | 10 => ⟨S8x1x56x56x9, .i32⟩
  | 11 => ⟨S8x1x56x56x9, .i1⟩
  | 12 => ⟨S8x1x56x56x9, .i1⟩
  | 13 => ⟨S_, .i32⟩
  | 14 => ⟨S8x1x56x56x9, .i32⟩
  | 15 => ⟨S8x1x56x56x9, .i1⟩
  | 16 => ⟨S8x1x56x56x9, .i1⟩
  | 17 => ⟨S_, .i32⟩
  | 18 => ⟨S8x1x56x56x9, .i32⟩
  | 19 => ⟨S8x1x56x56x9, .i1⟩
  | 20 => ⟨S8x1x56x56x9, .i1⟩
  | 21 => ⟨S_, .i32⟩
  | 22 => ⟨S_, .i32⟩
  | 23 => ⟨S_, .i32⟩
  | 24 => ⟨S8x1x56x56x9, .i32⟩
  | 25 => ⟨S8x1x56x56x9, .i32⟩
  | 26 => ⟨S_, .i32⟩
  | 27 => ⟨S8x1x56x56x9, .i32⟩
  | 28 => ⟨S8x1x56x56x9, .i32⟩
  | 29 => ⟨S_, .i32⟩
  | 30 => ⟨S8x1x56x56x9, .i32⟩
  | 31 => ⟨S8x1x56x56x9, .i32⟩
  | 32 => ⟨S_, .i32⟩
  | 33 => ⟨S_, .i32⟩
  | 34 => ⟨S_, .i32⟩
  | 35 => ⟨S8x1x56x56x9, .i32⟩
  | 36 => ⟨S8x1x56x56x9, .i32⟩
  | 37 => ⟨S_, .i32⟩
  | 38 => ⟨S8x1x56x56x9, .i32⟩
  | 39 => ⟨S8x1x56x56x9, .i32⟩
  | 40 => ⟨S8x1x56x56x9, .i32⟩
  | 41 => ⟨S8x1x1x28224, .i32⟩
  | 42 => ⟨S_, .i32⟩
  | 43 => ⟨S8x1x1x28224, .i32⟩
  | 44 => ⟨S8x1x1x28224, .i1⟩
  | 45 => ⟨S_, .i32⟩
  | 46 => ⟨S8x1x1x28224, .i32⟩
  | 47 => ⟨S8x1x1x28224, .i32⟩
  | 48 => ⟨S8x1x1x28224, .i32⟩
  | 49 => ⟨S8x28224x1, .i32⟩
  | 50 => ⟨S1, .i32⟩
  | 51 => ⟨S_, .i32⟩
  | 52 => ⟨S8x28224x1, .i32⟩
  | 53 => ⟨S8x28224x1, .i1⟩
  | 54 => ⟨S1x1x1, .i32⟩
  | 55 => ⟨S8x28224x1, .i32⟩
  | 56 => ⟨S8x28224x1, .i1⟩
  | 57 => ⟨S8x28224x1, .i1⟩
  | 58 => ⟨S_, .i1⟩
  | 59 => ⟨S8x28224, .i1⟩
  | 60 => ⟨S8x1x256x28224, .f32⟩
  | 61 => ⟨S8x1x256x28224, .i1⟩
  | 62 => ⟨S_, .f32⟩
  | 63 => ⟨S8x1x256x28224, .f32⟩
  | 64 => ⟨S8x1x256x28224, .f32⟩
  | 65 => ⟨S8x1x256x56x56x9, .f32⟩
  | 66 => ⟨S8x1x1x56x56x9, .i1⟩
  | 67 => ⟨S_, .f32⟩
  | 68 => ⟨S8x1x256x56x56x9, .i1⟩
  | 69 => ⟨S8x1x256x56x56x9, .f32⟩
  | 70 => ⟨S8x1x256x56x56x9, .f32⟩
  | 71 => ⟨S8x1x56x56x9x1, .f32⟩
  | 72 => ⟨S8x1x56x56x9, .f32⟩
  | 73 => ⟨S8x1x1x56x56x9, .f32⟩
  | 74 => ⟨S8x1x56x56x9x1, .f32⟩
  | 75 => ⟨S8x1x56x56x9, .f32⟩
  | 76 => ⟨S8x1x1x56x56x9, .f32⟩
  | 77 => ⟨S8x1x256x56x56x9, .f32⟩
  | 78 => ⟨S8x1x256x56x56x9, .f32⟩
  | 79 => ⟨S8x1x256x56x56x9, .f32⟩
  | 80 => ⟨S8x1x256x56x56x9, .f32⟩
  | 81 => ⟨S8x1x256x56x56x9, .f32⟩
  | 82 => ⟨S8x1x256x56x56x9, .f32⟩
  | 83 => ⟨S8x1x256x56x56x9, .f32⟩
  | 84 => ⟨S8x1x256x56x56x9, .f32⟩
  | 85 => ⟨S8x1x256x56x56x9, .f32⟩
  | 86 => ⟨S8x1x256x56x56x9, .f32⟩
  | 87 => ⟨S8x1x256x56x56x9, .f32⟩
  | 88 => ⟨S8x1x256x56x56x9, .f32⟩
  | 89 => ⟨S8x1x9x56x56, .f32⟩
  | 90 => ⟨S8x1x56x56x9, .f32⟩
  | 91 => ⟨S8x1x1x56x56x9, .f32⟩
  | 92 => ⟨S8x1x256x56x56x9, .f32⟩
  | 93 => ⟨S8x1x256x56x56x9, .f32⟩
  | 94 => ⟨S1x256x9x8x56x56, .f32⟩
  | 95 => ⟨S1x2304x25088, .f32⟩
  | 96 => ⟨S1x256x2304, .f32⟩
  | 97 => ⟨S1x256x25088, .f32⟩
  | 98 => ⟨S256x8x56x56, .f32⟩
  | 99 => ⟨S256x1x1x1, .f32⟩
  | 100 => ⟨S256x8x56x56, .f32⟩
  | 101 => ⟨S256x8x56x56, .f32⟩
  | 102 => ⟨S8x256x56x56, .f32⟩
  | _ => ⟨S8x256x56x56, .f32⟩

abbrev hbmTy (i : Nat) : BufTy := match i / 128 with
  | 0 => hbmTy0_0 i
  | 1 => hbmTy0_1 i
  | 2 => hbmTy0_2 i
  | _ => ⟨S8x256x56x56, .f32⟩

abbrev bufTy : (tb : Table) → Fin (tcTables nBuf tb) → BufTy
  | .hbm, ⟨i, _⟩ => hbmTy i
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_7 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_11 : Ref sig .tc := ⟨.hbm, 82, rfl⟩
abbrev main_c_12 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_c_14 : Ref sig .tc := ⟨.hbm, 93, rfl⟩
abbrev main_c_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst : Ref sig .tc := ⟨.hbm, 128, rfl⟩
abbrev main_call3_v0 : Ref sig .tc := ⟨.hbm, 129, rfl⟩
abbrev main_call3_v1 : Ref sig .tc := ⟨.hbm, 130, rfl⟩
abbrev main_v74 : Ref sig .tc := ⟨.hbm, 131, rfl⟩
abbrev main_c_16 : Ref sig .tc := ⟨.hbm, 132, rfl⟩
abbrev main_v75 : Ref sig .tc := ⟨.hbm, 133, rfl⟩
abbrev main_v76 : Ref sig .tc := ⟨.hbm, 134, rfl⟩
abbrev main_c_17 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_c_18 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_c_19 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_c_20 : Ref sig .tc := ⟨.hbm, 147, rfl⟩
abbrev main_c_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v86 : Ref sig .tc := ⟨.hbm, 154, rfl⟩
abbrev main_c_22 : Ref sig .tc := ⟨.hbm, 155, rfl⟩
abbrev main_v87 : Ref sig .tc := ⟨.hbm, 156, rfl⟩
abbrev main_v88 : Ref sig .tc := ⟨.hbm, 157, rfl⟩
abbrev main_c_23 : Ref sig .tc := ⟨.hbm, 158, rfl⟩
abbrev main_c_24 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_25 : Ref sig .tc := ⟨.hbm, 193, rfl⟩
abbrev main_call7_v0 : Ref sig .tc := ⟨.hbm, 194, rfl⟩
abbrev main_call7_v1 : Ref sig .tc := ⟨.hbm, 195, rfl⟩
abbrev main_v95 : Ref sig .tc := ⟨.hbm, 196, rfl⟩
abbrev main_c_26 : Ref sig .tc := ⟨.hbm, 197, rfl⟩
abbrev main_v96 : Ref sig .tc := ⟨.hbm, 198, rfl⟩
abbrev main_v97 : Ref sig .tc := ⟨.hbm, 199, rfl⟩
abbrev main_c_27 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_c_28 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_c_29 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_c_30 : Ref sig .tc := ⟨.hbm, 212, rfl⟩
abbrev main_c_31 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_v107 : Ref sig .tc := ⟨.hbm, 219, rfl⟩
abbrev main_c_32 : Ref sig .tc := ⟨.hbm, 220, rfl⟩
abbrev main_v108 : Ref sig .tc := ⟨.hbm, 221, rfl⟩
abbrev main_v109 : Ref sig .tc := ⟨.hbm, 222, rfl⟩
abbrev main_c_33 : Ref sig .tc := ⟨.hbm, 223, rfl⟩
abbrev main_c_34 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_call9_v3 : Ref sig .tc := ⟨.hbm, 228, rfl⟩
abbrev main_call9_v4 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_call10_c : Ref sig .tc := ⟨.hbm, 233, rfl⟩
abbrev main_call10_v0 : Ref sig .tc := ⟨.hbm, 234, rfl⟩
abbrev main_call10_v1 : Ref sig .tc := ⟨.hbm, 235, rfl⟩
abbrev main_call10_c_0 : Ref sig .tc := ⟨.hbm, 236, rfl⟩
abbrev main_call10_v2 : Ref sig .tc := ⟨.hbm, 237, rfl⟩
abbrev main_call10_v3 : Ref sig .tc := ⟨.hbm, 238, rfl⟩
abbrev main_call10_v4 : Ref sig .tc := ⟨.hbm, 239, rfl⟩
abbrev main_call10_v5 : Ref sig .tc := ⟨.hbm, 240, rfl⟩
abbrev main_call10_c_1 : Ref sig .tc := ⟨.hbm, 241, rfl⟩
abbrev main_call10_c_2 : Ref sig .tc := ⟨.hbm, 242, rfl⟩
abbrev main_call10_v6 : Ref sig .tc := ⟨.hbm, 243, rfl⟩
abbrev main_call10_v7 : Ref sig .tc := ⟨.hbm, 244, rfl⟩
abbrev main_call10_v8 : Ref sig .tc := ⟨.hbm, 245, rfl⟩
abbrev main_call10_v9 : Ref sig .tc := ⟨.hbm, 246, rfl⟩
abbrev main_call10_v10 : Ref sig .tc := ⟨.hbm, 247, rfl⟩
abbrev main_call10_v11 : Ref sig .tc := ⟨.hbm, 248, rfl⟩
abbrev main_call10_c_3 : Ref sig .tc := ⟨.hbm, 249, rfl⟩
abbrev main_call10_v12 : Ref sig .tc := ⟨.hbm, 250, rfl⟩
abbrev main_call10_v13 : Ref sig .tc := ⟨.hbm, 251, rfl⟩
abbrev main_call10_v14 : Ref sig .tc := ⟨.hbm, 252, rfl⟩
abbrev main_call10_cst : Ref sig .tc := ⟨.hbm, 253, rfl⟩
abbrev main_call10_v15 : Ref sig .tc := ⟨.hbm, 254, rfl⟩
abbrev main_v113 : Ref sig .tc := ⟨.hbm, 255, rfl⟩
abbrev main_v114 : Ref sig .tc := ⟨.hbm, 256, rfl⟩
abbrev main_v115 : Ref sig .tc := ⟨.hbm, 257, rfl⟩
abbrev main_cst_35 : Ref sig .tc := ⟨.hbm, 258, rfl⟩
abbrev main_call11_v0 : Ref sig .tc := ⟨.hbm, 259, rfl⟩
abbrev main_call11_v1 : Ref sig .tc := ⟨.hbm, 260, rfl⟩
abbrev main_v116 : Ref sig .tc := ⟨.hbm, 261, rfl⟩
abbrev main_c_36 : Ref sig .tc := ⟨.hbm, 262, rfl⟩
abbrev main_v117 : Ref sig .tc := ⟨.hbm, 263, rfl⟩
abbrev main_v118 : Ref sig .tc := ⟨.hbm, 264, rfl⟩
abbrev main_c_37 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_c_38 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_c_39 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_c_40 : Ref sig .tc := ⟨.hbm, 277, rfl⟩
abbrev main_c_41 : Ref sig .tc := ⟨.hbm, 278, rfl⟩
abbrev main_call12_v0 : Ref sig .tc := ⟨.hbm, 279, rfl⟩
abbrev main_call12_v1 : Ref sig .tc := ⟨.hbm, 280, rfl⟩
abbrev main_call12_v2 : Ref sig .tc := ⟨.hbm, 281, rfl⟩
abbrev main_call12_v3 : Ref sig .tc := ⟨.hbm, 282, rfl⟩
abbrev main_call12_v4 : Ref sig .tc := ⟨.hbm, 283, rfl⟩
abbrev main_v128 : Ref sig .tc := ⟨.hbm, 284, rfl⟩
abbrev main_c_42 : Ref sig .tc := ⟨.hbm, 285, rfl⟩
abbrev main_v129 : Ref sig .tc := ⟨.hbm, 286, rfl⟩
abbrev main_v130 : Ref sig .tc := ⟨.hbm, 287, rfl⟩
abbrev main_c_43 : Ref sig .tc := ⟨.hbm, 288, rfl⟩
abbrev main_c_44 : Ref sig .tc := ⟨.hbm, 289, rfl⟩
abbrev main_call13_v0 : Ref sig .tc := ⟨.hbm, 290, rfl⟩
abbrev main_call13_v1 : Ref sig .tc := ⟨.hbm, 291, rfl⟩
abbrev main_call13_v2 : Ref sig .tc := ⟨.hbm, 292, rfl⟩
abbrev main_call13_v3 : Ref sig .tc := ⟨.hbm, 293, rfl⟩
abbrev main_call13_v4 : Ref sig .tc := ⟨.hbm, 294, rfl⟩
abbrev main_v131 : Ref sig .tc := ⟨.hbm, 295, rfl⟩
abbrev main_v132 : Ref sig .tc := ⟨.hbm, 296, rfl⟩
abbrev main_v133 : Ref sig .tc := ⟨.hbm, 297, rfl⟩
abbrev main_call14_c : Ref sig .tc := ⟨.hbm, 298, rfl⟩
abbrev main_call14_v0 : Ref sig .tc := ⟨.hbm, 299, rfl⟩
abbrev main_call14_v1 : Ref sig .tc := ⟨.hbm, 300, rfl⟩
abbrev main_call14_c_0 : Ref sig .tc := ⟨.hbm, 301, rfl⟩
abbrev main_call14_v2 : Ref sig .tc := ⟨.hbm, 302, rfl⟩
abbrev main_call14_v3 : Ref sig .tc := ⟨.hbm, 303, rfl⟩
abbrev main_call14_v4 : Ref sig .tc := ⟨.hbm, 304, rfl⟩
abbrev main_call14_v5 : Ref sig .tc := ⟨.hbm, 305, rfl⟩
abbrev main_call14_c_1 : Ref sig .tc := ⟨.hbm, 306, rfl⟩
abbrev main_call14_c_2 : Ref sig .tc := ⟨.hbm, 307, rfl⟩
abbrev main_call14_v6 : Ref sig .tc := ⟨.hbm, 308, rfl⟩
abbrev main_call14_v7 : Ref sig .tc := ⟨.hbm, 309, rfl⟩
abbrev main_call14_v8 : Ref sig .tc := ⟨.hbm, 310, rfl⟩
abbrev main_call14_v9 : Ref sig .tc := ⟨.hbm, 311, rfl⟩
abbrev main_call14_v10 : Ref sig .tc := ⟨.hbm, 312, rfl⟩
abbrev main_call14_v11 : Ref sig .tc := ⟨.hbm, 313, rfl⟩
abbrev main_call14_c_3 : Ref sig .tc := ⟨.hbm, 314, rfl⟩
abbrev main_call14_v12 : Ref sig .tc := ⟨.hbm, 315, rfl⟩
abbrev main_call14_v13 : Ref sig .tc := ⟨.hbm, 316, rfl⟩
abbrev main_call14_v14 : Ref sig .tc := ⟨.hbm, 317, rfl⟩
abbrev main_call14_cst : Ref sig .tc := ⟨.hbm, 318, rfl⟩
abbrev main_call14_v15 : Ref sig .tc := ⟨.hbm, 319, rfl⟩
abbrev main_v134 : Ref sig .tc := ⟨.hbm, 320, rfl⟩
abbrev main_v135 : Ref sig .tc := ⟨.hbm, 321, rfl⟩
abbrev main_v136 : Ref sig .tc := ⟨.hbm, 322, rfl⟩
abbrev main_cst_45 : Ref sig .tc := ⟨.hbm, 323, rfl⟩
abbrev main_call15_v0 : Ref sig .tc := ⟨.hbm, 324, rfl⟩
abbrev main_call15_v1 : Ref sig .tc := ⟨.hbm, 325, rfl⟩
abbrev main_v137 : Ref sig .tc := ⟨.hbm, 326, rfl⟩
abbrev main_v138 : Ref sig .tc := ⟨.hbm, 327, rfl⟩
abbrev main_v139 : Ref sig .tc := ⟨.hbm, 328, rfl⟩
abbrev main_v140 : Ref sig .tc := ⟨.hbm, 329, rfl⟩
abbrev main_v141 : Ref sig .tc := ⟨.hbm, 330, rfl⟩
abbrev main_v142 : Ref sig .tc := ⟨.hbm, 331, rfl⟩
abbrev main_v143 : Ref sig .tc := ⟨.hbm, 332, rfl⟩
abbrev main_v144 : Ref sig .tc := ⟨.hbm, 333, rfl⟩
abbrev main_v145 : Ref sig .tc := ⟨.hbm, 334, rfl⟩
abbrev main_v146 : Ref sig .tc := ⟨.hbm, 335, rfl⟩
abbrev main_v147 : Ref sig .tc := ⟨.hbm, 336, rfl⟩
abbrev main_v148 : Ref sig .tc := ⟨.hbm, 337, rfl⟩
abbrev main_v149 : Ref sig .tc := ⟨.hbm, 338, rfl⟩
abbrev main_v150 : Ref sig .tc := ⟨.hbm, 339, rfl⟩
abbrev main_v151 : Ref sig .tc := ⟨.hbm, 340, rfl⟩
abbrev main_v152 : Ref sig .tc := ⟨.hbm, 341, rfl⟩
abbrev main_v153 : Ref sig .tc := ⟨.hbm, 342, rfl⟩
abbrev main_v154 : Ref sig .tc := ⟨.hbm, 343, rfl⟩
abbrev main_v155 : Ref sig .tc := ⟨.hbm, 344, rfl⟩
abbrev main_v156 : Ref sig .tc := ⟨.hbm, 345, rfl⟩
abbrev main_v157 : Ref sig .tc := ⟨.hbm, 346, rfl⟩
abbrev main_v158 : Ref sig .tc := ⟨.hbm, 347, rfl⟩
abbrev main_v159 : Ref sig .tc := ⟨.hbm, 348, rfl⟩
abbrev main_v160 : Ref sig .tc := ⟨.hbm, 349, rfl⟩
abbrev main_v161 : Ref sig .tc := ⟨.hbm, 350, rfl⟩
abbrev main_v162 : Ref sig .tc := ⟨.hbm, 351, rfl⟩
abbrev main_v163 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩
abbrev main_v167 : Ref sig .tc := ⟨.hbm, 356, rfl⟩
abbrev main_v168 : Ref sig .tc := ⟨.hbm, 357, rfl⟩
abbrev main_v169 : Ref sig .tc := ⟨.hbm, 358, rfl⟩

abbrev nD : Nat := 1
abbrev τ : Topo := Topo.v7x

variable {F : FTy → Type} [FloatOps F]

class Facts₀ : Prop where
  bcast_S_S56 : S_.BroadcastsInDim S56 (![] : Fin 0 → Fin S56.rank)
  bcast_S56_S56x1_0 : S56.BroadcastsInDim S56x1 (![0] : Fin 1 → Fin S56x1.rank)
  bcast_S_S3 : S_.BroadcastsInDim S3 (![] : Fin 0 → Fin S3.rank)
  bcast_S3_S1x3_1 : S3.BroadcastsInDim S1x3 (![1] : Fin 1 → Fin S1x3.rank)
  bcast_S56x1_S56x3_0_1 : S56x1.BroadcastsInDim S56x3 (![0, 1] : Fin 2 → Fin S56x3.rank)
  bcast_S1x3_S56x3_0_1 : S1x3.BroadcastsInDim S56x3 (![0, 1] : Fin 2 → Fin S56x3.rank)
  bcast_S56x3_S56x1x3x1_0_2 : S56x3.BroadcastsInDim S56x1x3x1 (![0, 2] : Fin 2 → Fin S56x1x3x1.rank)
  bcast_S56x1x3x1_S56x56x3x3_0_1_2_3 : S56x1x3x1.BroadcastsInDim S56x56x3x3 (![0, 1, 2, 3] : Fin 4 → Fin S56x56x3x3.rank)
  shapeCasts_S56x56x3x3_S56x56x9 : S56x56x3x3.ShapeCasts S56x56x9
  bcast_S56x3_S1x56x1x3_1_3 : S56x3.BroadcastsInDim S1x56x1x3 (![1, 3] : Fin 2 → Fin S1x56x1x3.rank)
  bcast_S1x56x1x3_S56x56x3x3_0_1_2_3 : S1x56x1x3.BroadcastsInDim S56x56x3x3 (![0, 1, 2, 3] : Fin 4 → Fin S56x56x3x3.rank)
  bcast_S56x56x9_S56x56x9x1_0_1_2 : S56x56x9.BroadcastsInDim S56x56x9x1 (![0, 1, 2] : Fin 3 → Fin S56x56x9x1.rank)
  concatenates_S56x56x9x1_S56x56x9x1_S56x56x9x2_d3 : Shape.Concatenates [S56x56x9x1, S56x56x9x1] S56x56x9x2 3
  shapeCasts_S8x18x56x56_S8x1x9x2x56x56 : S8x18x56x56.ShapeCasts S8x1x9x2x56x56
  transposes_S8x1x9x2x56x56_S8x1x56x56x9x2_0_1_4_5_2_3 : S8x1x9x2x56x56.Transposes [0, 1, 4, 5, 2, 3] S8x1x56x56x9x2
  bcast_S56x56x9x2_S1x1x56x56x9x2_2_3_4_5 : S56x56x9x2.BroadcastsInDim S1x1x56x56x9x2 (![2, 3, 4, 5] : Fin 4 → Fin S1x1x56x56x9x2.rank)
  bcast_S1x1x56x56x9x2_S8x1x56x56x9x2_0_1_2_3_4_5 : S1x1x56x56x9x2.BroadcastsInDim S8x1x56x56x9x2 (![0, 1, 2, 3, 4, 5] : Fin 6 → Fin S8x1x56x56x9x2.rank)
  slices_S8x1x56x56x9x2_S8x1x56x56x9x1_0_0_0_0_0_0 : S8x1x56x56x9x2.Slices ![0, 0, 0, 0, 0, 0] S8x1x56x56x9x1
  shapeCasts_S8x1x56x56x9x1_S8x1x56x56x9 : S8x1x56x56x9x1.ShapeCasts S8x1x56x56x9
  slices_S8x1x56x56x9x2_S8x1x56x56x9x1_0_0_0_0_0_1 : S8x1x56x56x9x2.Slices ![0, 0, 0, 0, 0, 1] S8x1x56x56x9x1
  bcast_S_S8x1x56x56x9 : S_.BroadcastsInDim S8x1x56x56x9 (![] : Fin 0 → Fin S8x1x56x56x9.rank)
  shapeCasts_S8x256x56x56_S8x1x256x3136 : S8x256x56x56.ShapeCasts S8x1x256x3136
  shapeCasts_S8x1x56x56x9_S8x1x1x28224 : S8x1x56x56x9.ShapeCasts S8x1x1x28224
  bcast_S_S8x1x1x28224 : S_.BroadcastsInDim S8x1x1x28224 (![] : Fin 0 → Fin S8x1x1x28224.rank)
  shapeCasts_S8x1x1x28224_S8x28224x1 : S8x1x1x28224.ShapeCasts S8x28224x1
  bcast_S_S8x28224x1 : S_.BroadcastsInDim S8x28224x1 (![] : Fin 0 → Fin S8x28224x1.rank)
  bcast_S1_S1x1x1_2 : S1.BroadcastsInDim S1x1x1 (![2] : Fin 1 → Fin S1x1x1.rank)
  bcast_S1x1x1_S8x28224x1_0_1_2 : S1x1x1.BroadcastsInDim S8x28224x1 (![0, 1, 2] : Fin 3 → Fin S8x28224x1.rank)
  reducesTo_S8x28224x1_S8x28224_d2 : S8x28224x1.ReducesTo [2] S8x28224
  h_S_ : 0 < S_.numel
  bcast_S8x28224_S8x1x256x28224_0_3 : S8x28224.BroadcastsInDim S8x1x256x28224 (![0, 3] : Fin 2 → Fin S8x1x256x28224.rank)
  bcast_S_S8x1x256x28224 : S_.BroadcastsInDim S8x1x256x28224 (![] : Fin 0 → Fin S8x1x256x28224.rank)
  shapeCasts_S8x1x256x28224_S8x1x256x56x56x9 : S8x1x256x28224.ShapeCasts S8x1x256x56x56x9
  bcast_S8x1x56x56x9_S8x1x1x56x56x9_0_1_3_4_5 : S8x1x56x56x9.BroadcastsInDim S8x1x1x56x56x9 (![0, 1, 3, 4, 5] : Fin 5 → Fin S8x1x1x56x56x9.rank)
  bcast_S8x1x1x56x56x9_S8x1x256x56x56x9_0_1_2_3_4_5 : S8x1x1x56x56x9.BroadcastsInDim S8x1x256x56x56x9 (![0, 1, 2, 3, 4, 5] : Fin 6 → Fin S8x1x256x56x56x9.rank)
  bcast_S_S8x1x256x56x56x9 : S_.BroadcastsInDim S8x1x256x56x56x9 (![] : Fin 0 → Fin S8x1x256x56x56x9.rank)
  shapeCasts_S8x9x56x56_S8x1x9x56x56 : S8x9x56x56.ShapeCasts S8x1x9x56x56
  transposes_S8x1x9x56x56_S8x1x56x56x9_0_1_3_4_2 : S8x1x9x56x56.Transposes [0, 1, 3, 4, 2] S8x1x56x56x9
  transposes_S8x1x256x56x56x9_S1x256x9x8x56x56_1_2_5_0_3_4 : S8x1x256x56x56x9.Transposes [1, 2, 5, 0, 3, 4] S1x256x9x8x56x56
  shapeCasts_S1x256x9x8x56x56_S1x2304x25088 : S1x256x9x8x56x56.ShapeCasts S1x2304x25088
  shapeCasts_S256x256x3x3_S1x256x2304 : S256x256x3x3.ShapeCasts S1x256x2304
  shapeCasts_S1x256x25088_S256x8x56x56 : S1x256x25088.ShapeCasts S256x8x56x56
  bcast_S256_S256x1x1x1_0 : S256.BroadcastsInDim S256x1x1x1 (![0] : Fin 1 → Fin S256x1x1x1.rank)
  bcast_S256x1x1x1_S256x8x56x56_0_1_2_3 : S256x1x1x1.BroadcastsInDim S256x8x56x56 (![0, 1, 2, 3] : Fin 4 → Fin S256x8x56x56.rank)
  transposes_S256x8x56x56_S8x256x56x56_1_0_2_3 : S256x8x56x56.Transposes [1, 0, 2, 3] S8x256x56x56
  gather_S8x1x256x3136_S8x28224x1_S8x1x256x28224_12_3_0_0_3_2_112561_wf : GatherDims.WF S8x1x256x3136 S8x28224x1 S8x1x256x28224 [1, 2] [3] [0] [3] [0] 2 ![1, 1, 256, 1]
  dot_S1x256x2304_S1x2304x25088_S1x256x25088_2_1_1_2_0_0_wf : DotDims.WF S1x256x2304 S1x2304x25088 S1x256x25088 [2] [1] [1] [2] [0] [0]

variable [Facts₀]

def gather_S8x1x256x3136_S8x28224x1_S8x1x256x28224_12_3_0_0_3_2_112561 : GatherDims S8x1x256x3136 S8x28224x1 S8x1x256x28224 where
  offsetDims := [1, 2]
  collapsedSliceDims := [3]
  operandBatchingDims := [0]
  startIndicesBatchingDims := [0]
  startIndexMap := [3]
  indexVectorDim := 2
  sliceSizes := ![1, 1, 256, 1]
  wf := gather_S8x1x256x3136_S8x28224x1_S8x1x256x28224_12_3_0_0_3_2_112561_wf
def dot_S1x256x2304_S1x2304x25088_S1x256x25088_2_1_1_2_0_0 : DotDims S1x256x2304 S1x2304x25088 S1x256x25088 where
  lhsContracting := [2]
  rhsContracting := [1]
  lhsNonContracting := [1]
  rhsNonContracting := [2]
  lhsBatch := [0]
  rhsBatch := [0]
  wf := dot_S1x256x2304_S1x2304x25088_S1x256x25088_2_1_1_2_0_0_wf

class Facts : Prop extends Facts₀ where

variable [Facts]
-- ==== Proof.KernelRunA.lean ====
/-
  What one grid point of the region computes, read as values.
  The body's stores were found as lists of pieces over the staging buffers; here each list is read back as the
  payload it leaves: a later tile of the contraction axis leaves "accumulator + tile product", the first tile of a
  batch element leaves "broadcast bias row + tile product", and in both cases the output block receives the new
  accumulator under a leading unit axis. Then each payload is read at one index over the extended reals: the
  broadcast reads the bias row at the column, the matrix product into a zero accumulator is the sum over the 768
  contracted entries of the tile, the copy drops the unit coordinate.
-/
import proofs.«412700_j5961414607249_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.KRun

open Cert.KernelIdeal Cert.KernelIdeal.Gen

section pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile leaves in the accumulator what it held plus the tile's product. -/
theorem soutB (c : Dev nD) (i : grid0.Coords) (a2 : Memref sig .tc .vmem S1x3136x768 .bf16) (h2 : a2.IsWhole)
    (a3 : Memref sig .tc .vmem S768x256 .bf16) (h3 : a3.IsWhole) (a4 : Memref sig .tc .vmem S1x256 .f32) (h4 : a4.IsWhole)
    (a5 : Memref sig .tc .vmem S1x3136x256 .f32) (h5 : a5.IsWhole) (a6 : Memref sig .tc .vmem S3136x256 .f32) (h6 : a6.IsWhole)
    (hc : ¬cond0_0 i) (x0 : Vec F S1x3136x768 .bf16) (x1 : Vec F S768x256 .bf16) (x2 : Vec F S1x256 .f32) (xs0 : Vec F S3136x256 .f32) :
    sout0_B_0 c i a2 h2 a3 h3 a4 h4 a5 h5 a6 h6 hc x0 x1 x2 xs0 = k0_pay2 x0 x1 xs0 := by
  unfold sout0_B_0
  rw [View.read_writes_eq_canon _ _ _ (scover0_B_0 c i a2 h2 a3 h3 a4 h4 a5 h5 a6 h6 hc x0 x1 x2 xs0)]
  unfold kernelRun0_B
  dsimp only
  sl_unfold_words
  rw [View.canon_unit_zero hz2]
  simp only [View.readAt_eq_ld, h2.read_unread, h3.read_unread, h6.read_unread, View.ld_unit_zero (S := S1x3136x768) hz3,
    View.ld_unit_zero (S := S768x256) hz2, View.ld_unit_zero (S := S3136x256) hz2]

/-- and in the output block the accumulator's new contents, re-laid with a leading unit axis. -/
theorem outB (c : Dev nD) (i : grid0.Coords) (a2 : Memref sig .tc .vmem S1x3136x768 .bf16) (h2 : a2.IsWhole)
    (a3 : Memref sig .tc .vmem S768x256 .bf16) (h3 : a3.IsWhole) (a4 : Memref sig .tc .vmem S1x256 .f32) (h4 : a4.IsWhole)
    (a5 : Memref sig .tc .vmem S1x3136x256 .f32) (h5 : a5.IsWhole) (a6 : Memref sig .tc .vmem S3136x256 .f32) (h6 : a6.IsWhole)
    (hc : ¬cond0_0 i) (x0 : Vec F S1x3136x768 .bf16) (x1 : Vec F S768x256 .bf16) (x2 : Vec F S1x256 .f32) (xs0 : Vec F S3136x256 .f32) :
    out0_B_3 c i a2 h2 a3 h3 a4 h4 a5 h5 a6 h6 hc x0 x1 x2 xs0 = k0_pay3 (k0_pay2 x0 x1 xs0) := by
  unfold out0_B_3
  rw [View.read_writes_eq_canon _ _ _ (cover0_B_3 c i a2 h2 a3 h3 a4 h4 a5 h5 a6 h6 hc x0 x1 x2 xs0)]
  unfold kernelRun0_B
  dsimp only
  sl_unfold_words
  rw [View.canon_unit_zero (S := S1x3136x256) hz3]
  simp only [View.readCov_cons_toLoadRect, View.readAt_eq_ld, h2.read_unread, h3.read_unread, h6.read_unread,
    View.ld_unit_zero (S := S1x3136x768) hz3, View.ld_unit_zero (S := S768x256) hz2, View.ld_unit_zero (S := S3136x256) hz2]

/-- The first tile of a batch element resets the accumulator to the broadcast bias row and adds its product. -/
theorem soutA (c : Dev nD) (i : grid0.Coords) (a2 : Memref sig .tc .vmem S1x3136x768 .bf16) (h2 : a2.IsWhole)
    (a3 : Memref sig .tc .vmem S768x256 .bf16) (h3 : a3.IsWhole) (a4 : Memref sig .tc .vmem S1x256 .f32) (h4 : a4.IsWhole)
    (a5 : Memref sig .tc .vmem S1x3136x256 .f32) (h5 : a5.IsWhole) (a6 : Memref sig .tc .vmem S3136x256 .f32) (h6 : a6.IsWhole)
    (hc : cond0_0 i) (x0 : Vec F S1x3136x768 .bf16) (x1 : Vec F S768x256 .bf16) (x2 : Vec F S1x256 .f32) :
    sout0_A_0 c i a2 h2 a3 h3 a4 h4 a5 h5 a6 h6 hc x0 x1 x2 = k0_pay2 x0 x1 (k0_pay1 x2) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S3136x256) hz2]
  simp only [View.readCov_cons_toLoadRect, View.readAt_eq_ld, h2.read_unread, h3.read_unread, h4.read_unread,
    View.ld_unit_zero (S := S1x3136x768) hz3, View.ld_unit_zero (S := S768x256) hz2, View.ld_unit_zero (S := S1x256) hz2]

/-- and copies that to the output block, re-laid with a leading unit axis. -/
theorem outA (c : Dev nD) (i : grid0.Coords) (a2 : Memref sig .tc .vmem S1x3136x768 .bf16) (h2 : a2.IsWhole)
    (a3 : Memref sig .tc .vmem S768x256 .bf16) (h3 : a3.IsWhole) (a4 : Memref sig .tc .vmem S1x256 .f32) (h4 : a4.IsWhole)
    (a5 : Memref sig .tc .vmem S1x3136x256 .f32) (h5 : a5.IsWhole) (a6 : Memref sig .tc .vmem S3136x256 .f32) (h6 : a6.IsWhole)
    (hc : cond0_0 i) (x0 : Vec F S1x3136x768 .bf16) (x1 : Vec F S768x256 .bf16) (x2 : Vec F S1x256 .f32) :
    out0_A_3 c i a2 h2 a3 h3 a4 h4 a5 h5 a6 h6 hc x0 x1 x2 = k0_pay3 (k0_pay2 x0 x1 (k0_pay1 x2)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1x3136x256) hz3]
  simp only [View.readCov_cons_toLoadRect, View.readAt_eq_ld, h2.read_unread, h3.read_unread, h4.read_unread,
    View.ld_unit_zero (S := S1x3136x768) hz3, View.ld_unit_zero (S := S768x256) hz2, View.ld_unit_zero (S := S1x256) hz2]

end pieces

section payloads

/-- On the left operand's row axis the dot's operand index is the output's row; -/
theorem lhs_dot_0 (i : S3136x256.Idx) (q : dot_S3136x768_S768x256_S3136x256_1_0_0_1_n_n.contr.Idx) :
    (dot_S3136x768_S768x256_S3136x256_1_0_0_1_n_n.lhsIdx i q 0).val = (i 0).val := by
  unfold DotDims.lhsIdx
  rw [dif_neg (show ¬(0 : Fin S3136x768.rank) ∈ dot_S3136x768_S768x256_S3136x256_1_0_0_1_n_n.lhsBatch by decide), dif_pos (show (0 : Fin S3136x768.rank) ∈ dot_S3136x768_S768x256_S3136x256_1_0_0_1_n_n.lhsNonContracting by decide)]
  rfl
/-- on its contracted axis the contraction position; -/
theorem lhs_dot_1 (i : S3136x256.Idx) (q : dot_S3136x768_S768x256_S3136x256_1_0_0_1_n_n.contr.Idx) :
    (dot_S3136x768_S768x256_S3136x256_1_0_0_1_n_n.lhsIdx i q 1).val = (q ⟨0, by decide⟩).val :=
  dot_S3136x768_S768x256_S3136x256_1_0_0_1_n_n.lhsIdx_val_of_single rfl i q
/-- on the right operand's contracted axis the contraction position; -/
theorem rhs_dot_0 (i : S3136x256.Idx) (q : dot_S3136x768_S768x256_S3136x256_1_0_0_1_n_n.contr.Idx) :
    (dot_S3136x768_S768x256_S3136x256_1_0_0_1_n_n.rhsIdx i q 0).val = (q ⟨0, by decide⟩).val :=
  dot_S3136x768_S768x256_S3136x256_1_0_0_1_n_n.rhsIdx_val_of_single rfl i q
/-- and on its column axis the output's column. -/
theorem rhs_dot_1 (i : S3136x256.Idx) (q : dot_S3136x768_S768x256_S3136x256_1_0_0_1_n_n.contr.Idx) :
    (dot_S3136x768_S768x256_S3136x256_1_0_0_1_n_n.rhsIdx i q 1).val = (i 1).val := by
  unfold DotDims.rhsIdx
  rw [dif_neg (show ¬(1 : Fin S768x256.rank) ∈ dot_S3136x768_S768x256_S3136x256_1_0_0_1_n_n.rhsBatch by decide), dif_pos (show (1 : Fin S768x256.rank) ∈ dot_S3136x768_S768x256_S3136x256_1_0_0_1_n_n.rhsNonContracting by decide)]
  rfl

/-- The matrix product into a zero accumulator, at (l, oc): the sum over the 768 contracted entries. -/
theorem matmul_zero_apply (A : FVec Ideal S3136x768 .bf16) (B : FVec Ideal S768x256 .bf16) (l : Fin 3136) (oc : Fin 256) :
    matmul dot_S3136x768_S768x256_S3136x256_1_0_0_1_n_n none A B (constant (F := Ideal) S3136x256 .f32 0x00000000#32) (ix2 l oc)
      = ∑ kk : Fin 768, A (ix2 l kk) * B (ix2 kk oc) := by
  simp only [matmul]
  rw [Ideal.matmul_constant_zero_apply, ← Equiv.sum_comp (contrEquiv1 dot_S3136x768_S768x256_S3136x256_1_0_0_1_n_n 768 rfl rfl).symm]
  refine Finset.sum_congr rfl fun k _ => ?_
  have hk := contrEquiv1_symm_val dot_S3136x768_S768x256_S3136x256_1_0_0_1_n_n 768 rfl rfl k
  have el : dot_S3136x768_S768x256_S3136x256_1_0_0_1_n_n.lhsIdx (ix2 l oc) ((contrEquiv1 dot_S3136x768_S768x256_S3136x256_1_0_0_1_n_n 768 rfl rfl).symm k) = ix2 l k := funext fun a => Fin.ext (by
    match a with
    | ⟨0, _⟩ => exact lhs_dot_0 _ _
    | ⟨1, _⟩ => exact (lhs_dot_1 _ _).trans hk)
  have er : dot_S3136x768_S768x256_S3136x256_1_0_0_1_n_n.rhsIdx (ix2 l oc) ((contrEquiv1 dot_S3136x768_S768x256_S3136x256_1_0_0_1_n_n 768 rfl rfl).symm k) = ix2 k oc := funext fun a => Fin.ext (by
    match a with
    | ⟨0, _⟩ => exact (rhs_dot_0 _ _).trans hk
    | ⟨1, _⟩ => exact rhs_dot_1 _ _)
  rw [el, er]

/-- The reset value reads the bias row at every output position. -/
theorem pay1_apply (v17 : Vec Ideal S1x256 .f32) (l : Fin 3136) (oc : Fin 256) :
    k0_pay1 (F := Ideal) v17 (ix2 l oc) = v17 (ix2 (0 : Fin 1) oc) := by
  unfold k0_pay1
  simp only [shapeCast_self]
  exact broadcastTo_apply v17 broadcasts_S1x256_S3136x256 (ix2 l oc) (ix2 (0 : Fin 1) oc)
    (fun a => match a with | ⟨0, _⟩ => rfl | ⟨1, _⟩ => rfl)

/-- The update reads the accumulator plus the tile's product. -/
theorem pay2_apply (v3 : Vec Ideal S1x3136x768 .bf16) (v5 : Vec Ideal S768x256 .bf16) (v7 : Vec Ideal S3136x256 .f32)
    (l : Fin 3136) (oc : Fin 256) :
    k0_pay2 (F := Ideal) v3 v5 v7 (ix2 l oc) = v7 (ix2 l oc) + ∑ kk : Fin 768, v3 (ix3 (0 : Fin 1) l kk) * v5 (ix2 kk oc) := by
  unfold k0_pay2
  simp only [shapeCast_self]
  refine (addf_apply _ _ _).trans ?_
  refine congrArg (v7 (ix2 l oc) + ·) ?_
  refine (matmul_zero_apply _ _ l oc).trans ?_
  refine Finset.sum_congr rfl fun kk _ => ?_
  exact congrArg (· * v5 (ix2 kk oc)) (shapeCast_1ab_ab_apply v3 shapeCasts_S1x3136x768_S3136x768 l kk)

/-- The copy to the output block reads the accumulator under a leading unit coordinate. -/
theorem pay3_apply (v13 : Vec Ideal S3136x256 .f32) (u : Fin 1) (l : Fin 3136) (oc : Fin 256) :
    k0_pay3 (F := Ideal) v13 (ix3 u l oc) = v13 (ix2 l oc) := by
  unfold k0_pay3
  exact shapeCast_ab_1ab_apply v13 shapeCasts_S3136x256_S1x3136x256 u l oc

end payloads

end Cert.KernelIdeal.KRun

end
-- ==== Proof.KernelRun.lean ====
/-
  What the kernel's one region and the two host lines after it leave in the result array, at the ideal instance.
  The region runs on a grid of 8 batch elements × 3 tiles of the contraction axis (768 of 2304 entries each). A
  scratch accumulator is carried across the three tiles of a batch element: the first tile resets it to the bias
  row broadcast over the 3136 output positions and adds its partial product, the other two add theirs, and every
  point copies the accumulator to the batch element's output block. So block b of the region's result is
      ((bias + P₀) + P₁) + P₂,    Pₜ[l, oc] = Σ_{kk < 768} cols[b, l, 768·t + kk] · wmat[768·t + kk, oc],
  and the two host lines (a transpose and a reshape) re-lay [b, l, oc] as [b, oc, l / 56, l % 56].
  The steps: where each window's block sits in its array (point 3·b + kt reads rows of batch element b at
  contraction tile kt); the accumulator after each point, by induction on the point; the output block of the last
  tile of each batch element is what is written back, and these eight blocks cover the region's result; the
  transpose and the reshape read at an index.
-/
import proofs.«412700_j5961414607249_3_alg».proof.Proof.KernelRunA
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen

variable (m : (ℓ : Loc nD τ sig) → Buf (Elt Ideal) ℓ) (ρ : Dev nD → PrngReg)

/-- The three arrays the region reads, as the host lines before it leave them: the im2col matrix [8, 3136, 2304],
    the weight matrix [2304, 256] and the bias row [1, 256]. -/
def colsA (c : Dev nD) : S8x3136x2304.Idx → EReal := V m c main_v164
def wmatA (c : Dev nD) : S2304x256.Idx → EReal := V m c main_v165
def biasA (c : Dev nD) : S1x256.Idx → EReal := V m c main_v166

/-- Entry kk of tile t of the contraction axis. -/
def kix (t : Fin 3) (kk : Fin 768) : Fin 2304 := ⟨t.val * 768 + kk.val, by omega⟩

/-- Output position (oh, ow) as a row of the im2col matrix. -/
def lix (oh ow : Fin 56) : Fin 3136 := ⟨oh.val * 56 + ow.val, by omega⟩

/-- One tile's partial product at (b, l, oc). -/
def tile (c : Dev nD) (b : Fin 8) (l : Fin 3136) (oc : Fin 256) (t : Fin 3) : EReal :=
  ∑ kk : Fin 768, colsA m c (ix3 b l (kix t kk)) * wmatA m c (ix2 (kix t kk) oc)

/-- The result array: the bias, then the three tiles' products added in grid order. -/
def outK (c : Dev nD) : S8x256x56x56.Idx → EReal := fun i =>
  ((biasA m c (ix2 0 (i 1)) + tile m c (i 0) (lix (i 2) (i 3)) (i 1) 0) + tile m c (i 0) (lix (i 2) (i 3)) (i 1) 1)
    + tile m c (i 0) (lix (i 2) (i 3)) (i 1) 2

section blocks

/-- The input blocks of a point, at their literal vector types. -/
abbrev cblk (c : Dev nD) (t : Fin cfg0.N) : Vec Ideal S1x3136x768 .bf16 := iblk m c 0 t
abbrev wblk (c : Dev nD) (t : Fin cfg0.N) : Vec Ideal S768x256 .bf16 := iblk m c 1 t
abbrev bblk (c : Dev nD) (t : Fin cfg0.N) : Vec Ideal S1x256 .f32 := iblk m c 2 t

/-- The windows' index maps over the grid: point t = 3·b + kt reads batch element b's rows of the im2col matrix at
    contraction tile kt, the weight matrix at row tile kt, the whole bias row, and writes output block b. -/
theorem idx_facts : ∀ t : Fin cfg0.N,
    win0_0.index t (0 : Fin 3) = t.val / 3 ∧ win0_0.index t (1 : Fin 3) = 0 ∧ win0_0.index t (2 : Fin 3) = t.val % 3
    ∧ win0_1.index t (0 : Fin 2) = t.val % 3 ∧ win0_1.index t (1 : Fin 2) = 0
    ∧ win0_2.index t (0 : Fin 2) = 0 ∧ win0_2.index t (1 : Fin 2) = 0
    ∧ win0_3.index t (0 : Fin 3) = t.val / 3 ∧ win0_3.index t (1 : Fin 3) = 0 ∧ win0_3.index t (2 : Fin 3) = 0 :=
  (by decide +kernel : ∀ t : Fin grid0.N, _)

/-- The im2col block of point 3·b + kt at (·, l, kk) is the matrix at (b, l, 768·kt + kk). -/
theorem cols_blk (c : Dev nD) (t : Fin cfg0.N) (b : Fin 8) (kt : Fin 3) (ht : t.val = 3 * b.val + kt.val)
    (u : Fin 1) (l : Fin 3136) (kk : Fin 768) :
    cblk m c t (ix3 u l kk) = colsA m c (ix3 b l (kix kt kk)) := by
  obtain ⟨e0, e1, e2, -⟩ := idx_facts t
  unfold colsA
  show V m c main_v164 (((cfg0.win 0).blk t).view.emb (ix3 u l kk)) = V m c main_v164 (ix3 b l (kix kt kk))
  refine congrArg (V m c main_v164) (funext fun a => Fin.ext ?_)
  match a with
  | ⟨0, _⟩ => show win0_0.index t (0 : Fin 3) * 1 + 1 * u.val = b.val; omega
  | ⟨1, _⟩ => show win0_0.index t (1 : Fin 3) * 3136 + 1 * l.val = l.val; omega
  | ⟨2, _⟩ => show win0_0.index t (2 : Fin 3) * 768 + 1 * kk.val = kt.val * 768 + kk.val; omega

/-- The weight block of point 3·b + kt at (kk, oc) is the matrix at (768·kt + kk, oc). -/
theorem wmat_blk (c : Dev nD) (t : Fin cfg0.N) (b : Fin 8) (kt : Fin 3) (ht : t.val = 3 * b.val + kt.val)
    (kk : Fin 768) (oc : Fin 256) :
    wblk m c t (ix2 kk oc) = wmatA m c (ix2 (kix kt kk) oc) := by
  obtain ⟨-, -, -, e3, e4, -⟩ := idx_facts t
  unfold wmatA
  show V m c main_v165 (((cfg0.win 1).blk t).view.emb (ix2 kk oc)) = V m c main_v165 (ix2 (kix kt kk) oc)
  refine congrArg (V m c main_v165) (funext fun a => Fin.ext ?_)
  match a with
  | ⟨0, _⟩ => show win0_1.index t (0 : Fin 2) * 768 + 1 * kk.val = kt.val * 768 + kk.val; omega
  | ⟨1, _⟩ => show win0_1.index t (1 : Fin 2) * 256 + 1 * oc.val = oc.val; omega

/-- The bias block of every point is the bias row. -/
theorem bias_blk (c : Dev nD) (t : Fin cfg0.N) (u : Fin 1) (oc : Fin 256) :
    bblk m c t (ix2 u oc) = biasA m c (ix2 (0 : Fin 1) oc) := by
  obtain ⟨-, -, -, -, -, e5, e6, -⟩ := idx_facts t
  unfold biasA
  show V m c main_v166 (((cfg0.win 2).blk t).view.emb (ix2 u oc)) = V m c main_v166 (ix2 (0 : Fin 1) oc)
  refine congrArg (V m c main_v166) (funext fun a => Fin.ext ?_)
  match a with
  | ⟨0, _⟩ => show win0_2.index t (0 : Fin 2) * 1 + 1 * u.val = 0; omega
  | ⟨1, _⟩ => show win0_2.index t (1 : Fin 2) * 256 + 1 * oc.val = oc.val; omega

/-- So the product of a point's two blocks at (l, oc) is tile kt's partial product of batch element b. -/
theorem tile_blk (c : Dev nD) (t : Fin cfg0.N) (b : Fin 8) (kt : Fin 3) (ht : t.val = 3 * b.val + kt.val)
    (l : Fin 3136) (oc : Fin 256) :
    ∑ kk : Fin 768, cblk m c t (ix3 (0 : Fin 1) l kk) * wblk m c t (ix2 kk oc) = tile m c b l oc kt := by
  unfold tile
  refine Finset.sum_congr rfl fun kk _ => ?_
  rw [cols_blk m c t b kt ht (0 : Fin 1) l kk, wmat_blk m c t b kt ht kk oc]

end blocks

section invariant

/-- The accumulator of batch element b at (l, oc) after its tile kt: the bias, then the tiles' products up to kt,
    added in grid order. -/
def accK (c : Dev nD) (b : Fin 8) (l : Fin 3136) (oc : Fin 256) (kt : Fin 3) : EReal :=
  match kt with
  | ⟨0, _⟩ => biasA m c (ix2 (0 : Fin 1) oc) + tile m c b l oc 0
  | ⟨1, _⟩ => (biasA m c (ix2 (0 : Fin 1) oc) + tile m c b l oc 0) + tile m c b l oc 1
  | ⟨2, _⟩ => ((biasA m c (ix2 (0 : Fin 1) oc) + tile m c b l oc 0) + tile m c b l oc 1) + tile m c b l oc 2

/-- At the first tile of a batch element the accumulator is reset and holds bias + P₀. -/
theorem scratch_first (c : Dev nD) (t : Fin cfg0.N) (h0 : t.val % 3 = 0) (b : Fin 8) (ht : t.val = 3 * b.val)
    (l : Fin 3136) (oc : Fin 256) :
    (outsAt0 m c t.val t.isLt).2 (ix2 l oc) = accK m c b l oc 0 := by
  rw [outsAt0_A m c t h0]
  dsimp only
  refine (congrFun (soutA (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (cblk m c t) (wblk m c t) (bblk m c t)) (ix2 l oc)).trans ?_
  refine (pay2_apply (cblk m c t) (wblk m c t) (k0_pay1 (bblk m c t)) l oc).trans ?_
  rw [pay1_apply (bblk m c t) l oc, bias_blk m c t (0 : Fin 1) oc,
    tile_blk m c t b 0 (by show t.val = 3 * b.val + 0; omega) l oc]
  rfl

/-- At a later tile kt it holds what the tile before left plus P_kt. -/
theorem scratch_next (c : Dev nD) (t : Fin cfg0.N) (h0 : ¬t.val % 3 = 0) (b : Fin 8) (kt kt' : Fin 3)
    (ht : t.val = 3 * b.val + kt.val) (hk : kt.val = kt'.val + 1) (l : Fin 3136) (oc : Fin 256)
    (ih : (outsAt0 m c (t.val - 1) (Nat.lt_of_le_of_lt (Nat.sub_le _ _) t.isLt)).2 (ix2 l oc) = accK m c b l oc kt') :
    (outsAt0 m c t.val t.isLt).2 (ix2 l oc) = accK m c b l oc kt := by
  rw [outsAt0_B m c t h0]
  dsimp only
  refine (congrFun (soutB (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (cblk m c t) (wblk m c t) (bblk m c t) (outsAt0 m c (t.val - 1) (Nat.lt_of_le_of_lt (Nat.sub_le _ _) t.isLt)).2) (ix2 l oc)).trans ?_
  refine (pay2_apply (cblk m c t) (wblk m c t) (outsAt0 m c (t.val - 1) (Nat.lt_of_le_of_lt (Nat.sub_le _ _) t.isLt)).2 l oc).trans ?_
  rw [ih, tile_blk m c t b kt ht l oc]
  obtain ⟨k, hklt⟩ := kt
  obtain ⟨k', hk'lt⟩ := kt'
  dsimp only at hk
  subst hk
  match k', hk'lt, hklt with
  | 0, _, _ => rfl
  | 1, _, _ => rfl
  | k'' + 2, _, h => exact absurd h (by omega)

/-- THE ACCUMULATOR after point n = 3·b + kt, by induction on the point. -/
theorem scratch_eq (c : Dev nD) (n : ℕ) : ∀ (h : n < cfg0.N) (b : Fin 8) (kt : Fin 3), n = 3 * b.val + kt.val →
    ∀ (l : Fin 3136) (oc : Fin 256), (outsAt0 m c n h).2 (ix2 l oc) = accK m c b l oc kt := by
  induction n with
  | zero =>
    intro h b kt hn l oc
    obtain rfl : kt = 0 := Fin.ext (by show kt.val = 0; omega)
    exact scratch_first m c ⟨0, h⟩ rfl b (by show 0 = 3 * b.val; omega) l oc
  | succ n ih =>
    intro h b kt hn l oc
    by_cases h0 : (n + 1) % 3 = 0
    · obtain rfl : kt = 0 := Fin.ext (by show kt.val = 0; omega)
      exact scratch_first m c ⟨n + 1, h⟩ h0 b (by show n + 1 = 3 * b.val; have : ((0 : Fin 3) : ℕ) = 0 := rfl; omega) l oc
    · have hk : 0 < kt.val := by omega
      exact scratch_next m c ⟨n + 1, h⟩ h0 b kt ⟨kt.val - 1, by omega⟩ hn (by show kt.val = kt.val - 1 + 1; omega) l oc
        (ih (Nat.lt_of_succ_lt h) b ⟨kt.val - 1, by omega⟩ (by show n = 3 * b.val + (kt.val - 1); omega) l oc)

/-- Every point copies its new accumulator to the output block. -/
theorem out_eq (c : Dev nD) (t : Fin cfg0.N) (u : Fin 1) (l : Fin 3136) (oc : Fin 256) :
    (outsAt0 m c t.val t.isLt).1 (ix3 u l oc) = (outsAt0 m c t.val t.isLt).2 (ix2 l oc) := by
  by_cases h0 : t.val % 3 = 0
  · rw [outsAt0_A m c t h0]
    dsimp only
    refine (congrFun (outA (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (cblk m c t) (wblk m c t) (bblk m c t)) (ix3 u l oc)).trans ?_
    refine (pay3_apply (k0_pay2 (cblk m c t) (wblk m c t) (k0_pay1 (bblk m c t))) u l oc).trans ?_
    exact (congrFun (soutA (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (cblk m c t) (wblk m c t) (bblk m c t)) (ix2 l oc)).symm
  · rw [outsAt0_B m c t h0]
    dsimp only
    refine (congrFun (outB (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (cblk m c t) (wblk m c t) (bblk m c t) (outsAt0 m c (t.val - 1) (Nat.lt_of_le_of_lt (Nat.sub_le _ _) t.isLt)).2) (ix3 u l oc)).trans ?_
    refine (pay3_apply (k0_pay2 (cblk m c t) (wblk m c t) (outsAt0 m c (t.val - 1) (Nat.lt_of_le_of_lt (Nat.sub_le _ _) t.isLt)).2) u l oc).trans ?_
    exact (congrFun (soutB (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (cblk m c t) (wblk m c t) (bblk m c t) (outsAt0 m c (t.val - 1) (Nat.lt_of_le_of_lt (Nat.sub_le _ _) t.isLt)).2) (ix2 l oc)).symm

end invariant

section region

/-- The region's result [8, 3136, 256]: each batch element's accumulator after its last tile. -/
def regK (c : Dev nD) : S8x3136x256.Idx → EReal := fun i => accK m c (i 0) (i 1) (i 2) 2

/-- WHAT A FLUSHING POINT WRITES BACK — the last tile of a batch element — is that element's block of the result. -/
theorem flushed_eq (c : Dev nD) (t : Fin cfg0.N) (hf : (cfg0.win 3).flush t = true) :
    (dats m 0 c).flushed 3 t = ((cfg0.win 3).blk t).view.read (Elt Ideal) (regK m c) := by
  have h2 : t.val % 3 = 2 := (flush0_3 t).mp hf
  have hN : t.val < 24 := lt_of_lt_of_eq t.isLt (show cfg0.N = 24 from N_0)
  have hb : t.val / 3 < 8 := by omega
  show (cfg0.win 3).cut (grid0.coords t) ((dats m 0 c).after 3 t) = _
  rw [after0_3]
  funext j
  obtain ⟨u, l, oc, rfl⟩ : ∃ (u : Fin 1) (l : Fin 3136) (oc : Fin 256), j = ix3 u l oc := ⟨j 0, j 1, j 2, eq_ix3 j⟩
  show (outsAt0 m c t.val t.isLt).1 (ix3 u l oc) = regK m c (((cfg0.win 3).blk t).view.emb (ix3 u l oc))
  have he : ((cfg0.win 3).blk t).view.emb (ix3 u l oc) = ix3 (⟨t.val / 3, hb⟩ : Fin 8) l oc := by
    obtain ⟨-, -, -, -, -, -, -, e7, e8, e9⟩ := idx_facts t
    funext a; apply Fin.ext
    match a with
    | ⟨0, _⟩ => show win0_3.index t (0 : Fin 3) * 1 + 1 * u.val = t.val / 3; omega
    | ⟨1, _⟩ => show win0_3.index t (1 : Fin 3) * 3136 + 1 * l.val = l.val; omega
    | ⟨2, _⟩ => show win0_3.index t (2 : Fin 3) * 256 + 1 * oc.val = oc.val; omega
  rw [he, out_eq m c t u l oc,
    scratch_eq m c t.val t.isLt ⟨t.val / 3, hb⟩ 2 (by show t.val = 3 * (t.val / 3) + 2; omega) l oc]
  rfl

/-- An index of the result is in point t's block iff each coordinate is in the block's range on its axis. -/
theorem mem_blk3 (t : Fin cfg0.N) (i : S8x3136x256.Idx) :
    i ∈ ((cfg0.win 3).blk t).view.set ↔ ∀ a : Fin 3, win0_3.index t a * S1x3136x256.size a ≤ (i a).val
      ∧ (i a).val < win0_3.index t a * S1x3136x256.size a + S1x3136x256.size a := by
  show i ∈ ((View.whole main_v167).slice (win0_3.rect t)).set ↔ _
  rw [View.set_slice_whole, Rect.mem_set_unit]
  exact Iff.rfl

/-- THE REGION'S RESULT: batch element b's block is written back at point 3·b + 2, and these blocks cover the array. -/
theorem final (c : Dev nD) : (dats m 0 c).arrAt 3 cfg0.N = regK m c :=
  (dats m 0 c).arrAt_eq_of_cover 3 (regK m c) (flushed_eq m c) fun i => by
    have hi0 : (i 0).val < 8 := (i 0).isLt
    have hi1 : (i 1).val < 3136 := (i 1).isLt
    have hi2 : (i 2).val < 256 := (i 2).isLt
    obtain ⟨t, ht⟩ : ∃ t : Fin cfg0.N, t.val = 3 * (i 0).val + 2 :=
      ⟨⟨3 * (i 0).val + 2, lt_of_lt_of_eq (by omega : 3 * (i 0).val + 2 < 24) N_0.symm⟩, rfl⟩
    refine ⟨t, (flush0_3 t).mpr (by omega), ?_⟩
    rw [mem_blk3]
    obtain ⟨-, -, -, -, -, -, -, e7, e8, e9⟩ := idx_facts t
    intro a
    match a with
    | ⟨0, _⟩ =>
      show win0_3.index t (0 : Fin 3) * 1 ≤ (i 0).val ∧ (i 0).val < win0_3.index t (0 : Fin 3) * 1 + 1
      omega
    | ⟨1, _⟩ =>
      show win0_3.index t (1 : Fin 3) * 3136 ≤ (i 1).val ∧ (i 1).val < win0_3.index t (1 : Fin 3) * 3136 + 3136
      omega
    | ⟨2, _⟩ =>
      show win0_3.index t (2 : Fin 3) * 256 ≤ (i 2).val ∧ (i 2).val < win0_3.index t (2 : Fin 3) * 256 + 256
      omega

end region

section tail

/-- The two host lines after the region re-lay its result [b, l, oc] as [b, oc, l / 56, l % 56]: the transpose swaps the
    last two axes, the reshape splits the 3136 positions into 56 rows of 56. -/
theorem tail_eq (c : Dev nD) : Pipeline.afterTail₀ cfgs (dats m) 0 (V0 m) [hostOps1] c main_v169 = outK m c := by
  unfold Pipeline.afterTail₀
  show StableHlo.after hostOps1 _ (Proc.devRef .tc main_v169) = _
  after_results
  have hA : Pipeline.withArrays (cfgs 0).spec c (V0 m c) (fun w => (dats m 0 c).arrAt w (cfgs 0).N)
      (Proc.tc.devRef main_v167) = regK m c :=
    (Pipeline.withArrays_arr spec0 launch0.win.arr_inj c _ _ 3).trans (final m c)
  rw [hA]
  funext i
  obtain ⟨b, oc, oh, ow, rfl⟩ : ∃ (b : Fin 8) (oc : Fin 256) (oh ow : Fin 56), i = ix4 b oc oh ow :=
    ⟨i 0, i 1, i 2, i 3, eq_ix4 i⟩
  refine (shapeCast_apply (transpose S8x256x3136 [0, 2, 1] (regK m c) transposes_S8x3136x256_S8x256x3136_0_2_1)
    shapeCasts_S8x256x3136_S8x256x56x56 (ix4 b oc oh ow) (ix3 b oc (lix oh ow)) ?_).trans ?_
  · rw [Shape.rowMajor_val_three, Shape.rowMajor_val_four]
    show (b.val * 256 + oc.val) * 3136 + (oh.val * 56 + ow.val) = ((b.val * 256 + oc.val) * 56 + oh.val) * 56 + ow.val
    omega
  · refine (transpose_ix3_021_apply (regK m c) transposes_S8x3136x256_S8x256x3136_0_2_1 b oc (lix oh ow)).trans ?_
    rfl

end tail

/-- THE KERNEL'S RUN, READ: every weakly fair execution terminates with the result array at `outK` and the five
    arguments unchanged. -/
theorem run : θ_run defs (onTc (τ := τ) (main (F := Ideal))) ⟨m, fun _ => 0, ρ⟩ (fun r => ∀ c : Dev nD,
      r.2.mem ((c.tc : Thread nD τ).loc main_v169) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v169 (Pipeline.mem_restRefs_of main_v169 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.KVal.lean ====
/- (run in the unit directory; the script is filed with the unit, in its scratch/ directory). One definition per buffer that the host
   operations before the kernel's region write: the operation applied to its operands' definitions, as a function
   of the argument arrays x0 ... x4 it depends on. kv_main_v164, kv_main_v165 and kv_main_v166 are the three arrays
   the region reads: the im2col matrix, the weight matrix and the bias row. -/
import proofs.«412700_j5961414607249_3_alg».proof.Proof.Gen.KernelIdeal

noncomputable section

namespace Cert.KernelIdeal.KVal

open Cert.KernelIdeal Cert.KernelIdeal.Gen Idealize.ShloMosaic

variable {F : FTy → Type} [FloatOps F]

def kv_main_v0 : (⟨S56, .i32⟩ : BufTy).Contents (Elt F) :=
  iotaInDim S56 32 0

def kv_main_c : (⟨S_, .i32⟩ : BufTy).Contents (Elt F) :=
  constantI S_ 32 1#32

def kv_main_v1 : (⟨S56, .i32⟩ : BufTy).Contents (Elt F) :=
  (broadcastInDim S56 ![] bcast_S_S56) (kv_main_c (F := F))

def kv_main_v2 : (⟨S56, .i32⟩ : BufTy).Contents (Elt F) :=
  muli (kv_main_v0 (F := F)) (kv_main_v1 (F := F))

def kv_main_c_0 : (⟨S_, .i32⟩ : BufTy).Contents (Elt F) :=
  constantI S_ 32 1#32

def kv_main_v3 : (⟨S56, .i32⟩ : BufTy).Contents (Elt F) :=
  (broadcastInDim S56 ![] bcast_S_S56) (kv_main_c_0 (F := F))

def kv_main_v4 : (⟨S56, .i32⟩ : BufTy).Contents (Elt F) :=
  subi (kv_main_v2 (F := F)) (kv_main_v3 (F := F))

def kv_main_v5 : (⟨S56x1, .i32⟩ : BufTy).Contents (Elt F) :=
  (broadcastInDim S56x1 ![0] bcast_S56_S56x1_0) (kv_main_v4 (F := F))

def kv_main_v6 : (⟨S3, .i32⟩ : BufTy).Contents (Elt F) :=
  iotaInDim S3 32 0

def kv_main_c_1 : (⟨S_, .i32⟩ : BufTy).Contents (Elt F) :=
  constantI S_ 32 1#32

def kv_main_v7 : (⟨S3, .i32⟩ : BufTy).Contents (Elt F) :=
  (broadcastInDim S3 ![] bcast_S_S3) (kv_main_c_1 (F := F))

def kv_main_v8 : (⟨S3, .i32⟩ : BufTy).Contents (Elt F) :=
  muli (kv_main_v6 (F := F)) (kv_main_v7 (F := F))

def kv_main_v9 : (⟨S1x3, .i32⟩ : BufTy).Contents (Elt F) :=
  (broadcastInDim S1x3 ![1] bcast_S3_S1x3_1) (kv_main_v8 (F := F))

def kv_main_v10 : (⟨S56x3, .i32⟩ : BufTy).Contents (Elt F) :=
  (broadcastInDim S56x3 ![0, 1] bcast_S56x1_S56x3_0_1) (kv_main_v5 (F := F))

def kv_main_v11 : (⟨S56x3, .i32⟩ : BufTy).Contents (Elt F) :=
  (broadcastInDim S56x3 ![0, 1] bcast_S1x3_S56x3_0_1) (kv_main_v9 (F := F))

def kv_main_v12 : (⟨S56x3, .i32⟩ : BufTy).Contents (Elt F) :=
  addi (kv_main_v10 (F := F)) (kv_main_v11 (F := F))

def kv_main_v13 : (⟨S56, .i32⟩ : BufTy).Contents (Elt F) :=
  iotaInDim S56 32 0

def kv_main_c_2 : (⟨S_, .i32⟩ : BufTy).Contents (Elt F) :=
  constantI S_ 32 1#32

def kv_main_v14 : (⟨S56, .i32⟩ : BufTy).Contents (Elt F) :=
  (broadcastInDim S56 ![] bcast_S_S56) (kv_main_c_2 (F := F))

def kv_main_v15 : (⟨S56, .i32⟩ : BufTy).Contents (Elt F) :=
  muli (kv_main_v13 (F := F)) (kv_main_v14 (F := F))

def kv_main_c_3 : (⟨S_, .i32⟩ : BufTy).Contents (Elt F) :=
  constantI S_ 32 1#32

def kv_main_v16 : (⟨S56, .i32⟩ : BufTy).Contents (Elt F) :=
  (broadcastInDim S56 ![] bcast_S_S56) (kv_main_c_3 (F := F))

def kv_main_v17 : (⟨S56, .i32⟩ : BufTy).Contents (Elt F) :=
  subi (kv_main_v15 (F := F)) (kv_main_v16 (F := F))

def kv_main_v18 : (⟨S56x1, .i32⟩ : BufTy).Contents (Elt F) :=
  (broadcastInDim S56x1 ![0] bcast_S56_S56x1_0) (kv_main_v17 (F := F))

def kv_main_v19 : (⟨S3, .i32⟩ : BufTy).Contents (Elt F) :=
  iotaInDim S3 32 0

def kv_main_c_4 : (⟨S_, .i32⟩ : BufTy).Contents (Elt F) :=
  constantI S_ 32 1#32

def kv_main_v20 : (⟨S3, .i32⟩ : BufTy).Contents (Elt F) :=
  (broadcastInDim S3 ![] bcast_S_S3) (kv_main_c_4 (F := F))

def kv_main_v21 : (⟨S3, .i32⟩ : BufTy).Contents (Elt F) :=
  muli (kv_main_v19 (F := F)) (kv_main_v20 (F := F))

def kv_main_v22 : (⟨S1x3, .i32⟩ : BufTy).Contents (Elt F) :=
  (broadcastInDim S1x3 ![1] bcast_S3_S1x3_1) (kv_main_v21 (F := F))

def kv_main_v23 : (⟨S56x3, .i32⟩ : BufTy).Contents (Elt F) :=
  (broadcastInDim S56x3 ![0, 1] bcast_S56x1_S56x3_0_1) (kv_main_v18 (F := F))

def kv_main_v24 : (⟨S56x3, .i32⟩ : BufTy).Contents (Elt F) :=
  (broadcastInDim S56x3 ![0, 1] bcast_S1x3_S56x3_0_1) (kv_main_v22 (F := F))

def kv_main_v25 : (⟨S56x3, .i32⟩ : BufTy).Contents (Elt F) :=
  addi (kv_main_v23 (F := F)) (kv_main_v24 (F := F))

def kv_main_v26 : (⟨S56x1x3x1, .i32⟩ : BufTy).Contents (Elt F) :=
  (broadcastInDim S56x1x3x1 ![0, 2] bcast_S56x3_S56x1x3x1_0_2) (kv_main_v12 (F := F))

def kv_main_v27 : (⟨S56x56x3x3, .i32⟩ : BufTy).Contents (Elt F) :=
  (broadcastInDim S56x56x3x3 ![0, 1, 2, 3] bcast_S56x1x3x1_S56x56x3x3_0_1_2_3) (kv_main_v26 (F := F))

def kv_main_v28 : (⟨S56x56x9, .i32⟩ : BufTy).Contents (Elt F) :=
  shapeCast _ (kv_main_v27 (F := F)) shapeCasts_S56x56x3x3_S56x56x9

def kv_main_v29 : (⟨S1x56x1x3, .i32⟩ : BufTy).Contents (Elt F) :=
  (broadcastInDim S1x56x1x3 ![1, 3] bcast_S56x3_S1x56x1x3_1_3) (kv_main_v25 (F := F))

def kv_main_v30 : (⟨S56x56x3x3, .i32⟩ : BufTy).Contents (Elt F) :=
  (broadcastInDim S56x56x3x3 ![0, 1, 2, 3] bcast_S1x56x1x3_S56x56x3x3_0_1_2_3) (kv_main_v29 (F := F))

def kv_main_v31 : (⟨S56x56x9, .i32⟩ : BufTy).Contents (Elt F) :=
  shapeCast _ (kv_main_v30 (F := F)) shapeCasts_S56x56x3x3_S56x56x9

def kv_main_v32 : (⟨S56x56x9x1, .i32⟩ : BufTy).Contents (Elt F) :=
  (broadcastInDim S56x56x9x1 ![0, 1, 2] bcast_S56x56x9_S56x56x9x1_0_1_2) (kv_main_v28 (F := F))

def kv_main_v33 : (⟨S56x56x9x1, .i32⟩ : BufTy).Contents (Elt F) :=
  (broadcastInDim S56x56x9x1 ![0, 1, 2] bcast_S56x56x9_S56x56x9x1_0_1_2) (kv_main_v31 (F := F))

def kv_main_v34 : (⟨S56x56x9x2, .i32⟩ : BufTy).Contents (Elt F) :=
  (fun a b => concatenate S56x56x9x2 3 [⟨S56x56x9x1, a⟩, ⟨S56x56x9x1, b⟩] concatenates_S56x56x9x1_S56x56x9x1_S56x56x9x2_d3) (kv_main_v32 (F := F)) (kv_main_v33 (F := F))

def kv_main_v35 : (⟨S56x56x9x2, .f32⟩ : BufTy).Contents (Elt F) :=
  (sitofp .f32) (kv_main_v34 (F := F))

def kv_main_v36 (x1 : (⟨S8x18x56x56, .f32⟩ : BufTy).Contents (Elt F)) : (⟨S8x9x2x56x56, .f32⟩ : BufTy).Contents (Elt F) :=
  shapeCast _ x1 shapeCasts_S8x18x56x56_S8x9x2x56x56

def kv_main_v37 (x1 : (⟨S8x18x56x56, .f32⟩ : BufTy).Contents (Elt F)) : (⟨S8x56x56x9x2, .f32⟩ : BufTy).Contents (Elt F) :=
  transpose S8x56x56x9x2 [0, 3, 4, 1, 2] (kv_main_v36 (F := F) x1) transposes_S8x9x2x56x56_S8x56x56x9x2_0_3_4_1_2

def kv_main_v38 : (⟨S1x56x56x9x2, .f32⟩ : BufTy).Contents (Elt F) :=
  (broadcastInDim S1x56x56x9x2 ![1, 2, 3, 4] bcast_S56x56x9x2_S1x56x56x9x2_1_2_3_4) (kv_main_v35 (F := F))

def kv_main_v39 : (⟨S8x56x56x9x2, .f32⟩ : BufTy).Contents (Elt F) :=
  (broadcastInDim S8x56x56x9x2 ![0, 1, 2, 3, 4] bcast_S1x56x56x9x2_S8x56x56x9x2_0_1_2_3_4) (kv_main_v38 (F := F))

def kv_main_v40 (x1 : (⟨S8x18x56x56, .f32⟩ : BufTy).Contents (Elt F)) : (⟨S8x56x56x9x2, .f32⟩ : BufTy).Contents (Elt F) :=
  addf (kv_main_v37 (F := F) x1) (kv_main_v39 (F := F))

def kv_main_v41 (x1 : (⟨S8x18x56x56, .f32⟩ : BufTy).Contents (Elt F)) : (⟨S8x56x56x9x2, .f32⟩ : BufTy).Contents (Elt F) :=
  Host.floor (kv_main_v40 (F := F) x1)

def kv_main_v42 (x1 : (⟨S8x18x56x56, .f32⟩ : BufTy).Contents (Elt F)) : (⟨S8x56x56x9x2, .f32⟩ : BufTy).Contents (Elt F) :=
  subf (kv_main_v40 (F := F) x1) (kv_main_v41 (F := F) x1)

def kv_main_v43 (x1 : (⟨S8x18x56x56, .f32⟩ : BufTy).Contents (Elt F)) : (⟨S8x56x56x9x1, .f32⟩ : BufTy).Contents (Elt F) :=
  extractStridedSlice S8x56x56x9x1 ![0, 0, 0, 0, 0] (kv_main_v41 (F := F) x1) slices_S8x56x56x9x2_S8x56x56x9x1_0_0_0_0_0

def kv_main_v44 (x1 : (⟨S8x18x56x56, .f32⟩ : BufTy).Contents (Elt F)) : (⟨S8x56x56x9, .f32⟩ : BufTy).Contents (Elt F) :=
  shapeCast _ (kv_main_v43 (F := F) x1) shapeCasts_S8x56x56x9x1_S8x56x56x9

def kv_main_v45 (x1 : (⟨S8x18x56x56, .f32⟩ : BufTy).Contents (Elt F)) : (⟨S8x56x56x9, .i32⟩ : BufTy).Contents (Elt F) :=
  (fptosi 32) (kv_main_v44 (F := F) x1)

def kv_main_v46 (x1 : (⟨S8x18x56x56, .f32⟩ : BufTy).Contents (Elt F)) : (⟨S8x56x56x9x1, .f32⟩ : BufTy).Contents (Elt F) :=
  extractStridedSlice S8x56x56x9x1 ![0, 0, 0, 0, 1] (kv_main_v41 (F := F) x1) slices_S8x56x56x9x2_S8x56x56x9x1_0_0_0_0_1

def kv_main_v47 (x1 : (⟨S8x18x56x56, .f32⟩ : BufTy).Contents (Elt F)) : (⟨S8x56x56x9, .f32⟩ : BufTy).Contents (Elt F) :=
  shapeCast _ (kv_main_v46 (F := F) x1) shapeCasts_S8x56x56x9x1_S8x56x56x9

def kv_main_v48 (x1 : (⟨S8x18x56x56, .f32⟩ : BufTy).Contents (Elt F)) : (⟨S8x56x56x9, .i32⟩ : BufTy).Contents (Elt F) :=
  (fptosi 32) (kv_main_v47 (F := F) x1)

def kv_main_c_5 : (⟨S_, .i32⟩ : BufTy).Contents (Elt F) :=
  constantI S_ 32 1#32

def kv_main_v49 : (⟨S8x56x56x9, .i32⟩ : BufTy).Contents (Elt F) :=
  (broadcastInDim S8x56x56x9 ![] bcast_S_S8x56x56x9) (kv_main_c_5 (F := F))

def kv_main_v50 (x1 : (⟨S8x18x56x56, .f32⟩ : BufTy).Contents (Elt F)) : (⟨S8x56x56x9, .i32⟩ : BufTy).Contents (Elt F) :=
  addi (kv_main_v45 (F := F) x1) (kv_main_v49 (F := F))

def kv_main_c_6 : (⟨S_, .i32⟩ : BufTy).Contents (Elt F) :=
  constantI S_ 32 1#32

def kv_main_v51 : (⟨S8x56x56x9, .i32⟩ : BufTy).Contents (Elt F) :=
  (broadcastInDim S8x56x56x9 ![] bcast_S_S8x56x56x9) (kv_main_c_6 (F := F))

def kv_main_v52 (x1 : (⟨S8x18x56x56, .f32⟩ : BufTy).Contents (Elt F)) : (⟨S8x56x56x9, .i32⟩ : BufTy).Contents (Elt F) :=
  addi (kv_main_v48 (F := F) x1) (kv_main_v51 (F := F))

def kv_main_v53 (x0 : (⟨S8x256x56x56, .f32⟩ : BufTy).Contents (Elt F)) : (⟨S8x56x56x256, .f32⟩ : BufTy).Contents (Elt F) :=
  transpose S8x56x56x256 [0, 2, 3, 1] x0 transposes_S8x256x56x56_S8x56x56x256_0_2_3_1

def kv_main_v54 (x0 : (⟨S8x256x56x56, .f32⟩ : BufTy).Contents (Elt F)) : (⟨S8x3136x256, .f32⟩ : BufTy).Contents (Elt F) :=
  shapeCast _ (kv_main_v53 (F := F) x0) shapeCasts_S8x56x56x256_S8x3136x256

def kv_main_c_7 : (⟨S_, .i32⟩ : BufTy).Contents (Elt F) :=
  constantI S_ 32 0#32

def kv_main_v55 : (⟨S8x56x56x9, .i32⟩ : BufTy).Contents (Elt F) :=
  (broadcastInDim S8x56x56x9 ![] bcast_S_S8x56x56x9) (kv_main_c_7 (F := F))

def kv_main_v56 (x1 : (⟨S8x18x56x56, .f32⟩ : BufTy).Contents (Elt F)) : (⟨S8x56x56x9, .i1⟩ : BufTy).Contents (Elt F) :=
  (cmpi .sge) (kv_main_v45 (F := F) x1) (kv_main_v55 (F := F))

def kv_main_c_8 : (⟨S_, .i32⟩ : BufTy).Contents (Elt F) :=
  constantI S_ 32 56#32

def kv_main_v57 : (⟨S8x56x56x9, .i32⟩ : BufTy).Contents (Elt F) :=
  (broadcastInDim S8x56x56x9 ![] bcast_S_S8x56x56x9) (kv_main_c_8 (F := F))

def kv_main_v58 (x1 : (⟨S8x18x56x56, .f32⟩ : BufTy).Contents (Elt F)) : (⟨S8x56x56x9, .i1⟩ : BufTy).Contents (Elt F) :=
  (cmpi .slt) (kv_main_v45 (F := F) x1) (kv_main_v57 (F := F))

def kv_main_v59 (x1 : (⟨S8x18x56x56, .f32⟩ : BufTy).Contents (Elt F)) : (⟨S8x56x56x9, .i1⟩ : BufTy).Contents (Elt F) :=
  andi (kv_main_v56 (F := F) x1) (kv_main_v58 (F := F) x1)

def kv_main_c_9 : (⟨S_, .i32⟩ : BufTy).Contents (Elt F) :=
  constantI S_ 32 0#32

def kv_main_v60 : (⟨S8x56x56x9, .i32⟩ : BufTy).Contents (Elt F) :=
  (broadcastInDim S8x56x56x9 ![] bcast_S_S8x56x56x9) (kv_main_c_9 (F := F))

def kv_main_v61 (x1 : (⟨S8x18x56x56, .f32⟩ : BufTy).Contents (Elt F)) : (⟨S8x56x56x9, .i1⟩ : BufTy).Contents (Elt F) :=
  (cmpi .sge) (kv_main_v48 (F := F) x1) (kv_main_v60 (F := F))

def kv_main_v62 (x1 : (⟨S8x18x56x56, .f32⟩ : BufTy).Contents (Elt F)) : (⟨S8x56x56x9, .i1⟩ : BufTy).Contents (Elt F) :=
  andi (kv_main_v59 (F := F) x1) (kv_main_v61 (F := F) x1)

def kv_main_c_10 : (⟨S_, .i32⟩ : BufTy).Contents (Elt F) :=
  constantI S_ 32 56#32

def kv_main_v63 : (⟨S8x56x56x9, .i32⟩ : BufTy).Contents (Elt F) :=
  (broadcastInDim S8x56x56x9 ![] bcast_S_S8x56x56x9) (kv_main_c_10 (F := F))

def kv_main_v64 (x1 : (⟨S8x18x56x56, .f32⟩ : BufTy).Contents (Elt F)) : (⟨S8x56x56x9, .i1⟩ : BufTy).Contents (Elt F) :=
  (cmpi .slt) (kv_main_v48 (F := F) x1) (kv_main_v63 (F := F))

def kv_main_v65 (x1 : (⟨S8x18x56x56, .f32⟩ : BufTy).Contents (Elt F)) : (⟨S8x56x56x9, .i1⟩ : BufTy).Contents (Elt F) :=
  andi (kv_main_v62 (F := F) x1) (kv_main_v64 (F := F) x1)

def kv_main_c_11 : (⟨S_, .i32⟩ : BufTy).Contents (Elt F) :=
  constantI S_ 32 0#32

def kv_main_c_12 : (⟨S_, .i32⟩ : BufTy).Contents (Elt F) :=
  constantI S_ 32 55#32

def kv_main_call0_v0 : (⟨S_, .i32⟩ : BufTy).Contents (Elt F) :=
  id (kv_main_c_11 (F := F))

def kv_main_call0_v1 : (⟨S8x56x56x9, .i32⟩ : BufTy).Contents (Elt F) :=
  (broadcastInDim S8x56x56x9 ![] bcast_S_S8x56x56x9) (kv_main_call0_v0 (F := F))

def kv_main_call0_v2 (x1 : (⟨S8x18x56x56, .f32⟩ : BufTy).Contents (Elt F)) : (⟨S8x56x56x9, .i32⟩ : BufTy).Contents (Elt F) :=
  maxsi (kv_main_call0_v1 (F := F)) (kv_main_v45 (F := F) x1)

def kv_main_call0_v3 : (⟨S_, .i32⟩ : BufTy).Contents (Elt F) :=
  id (kv_main_c_12 (F := F))

def kv_main_call0_v4 : (⟨S8x56x56x9, .i32⟩ : BufTy).Contents (Elt F) :=
  (broadcastInDim S8x56x56x9 ![] bcast_S_S8x56x56x9) (kv_main_call0_v3 (F := F))

def kv_main_v66 (x1 : (⟨S8x18x56x56, .f32⟩ : BufTy).Contents (Elt F)) : (⟨S8x56x56x9, .i32⟩ : BufTy).Contents (Elt F) :=
  minsi (kv_main_call0_v4 (F := F)) (kv_main_call0_v2 (F := F) x1)

def kv_main_c_13 : (⟨S_, .i32⟩ : BufTy).Contents (Elt F) :=
  constantI S_ 32 56#32

def kv_main_v67 : (⟨S8x56x56x9, .i32⟩ : BufTy).Contents (Elt F) :=
  (broadcastInDim S8x56x56x9 ![] bcast_S_S8x56x56x9) (kv_main_c_13 (F := F))

def kv_main_v68 (x1 : (⟨S8x18x56x56, .f32⟩ : BufTy).Contents (Elt F)) : (⟨S8x56x56x9, .i32⟩ : BufTy).Contents (Elt F) :=
  muli (kv_main_v66 (F := F) x1) (kv_main_v67 (F := F))

def kv_main_c_14 : (⟨S_, .i32⟩ : BufTy).Contents (Elt F) :=
  constantI S_ 32 0#32

def kv_main_c_15 : (⟨S_, .i32⟩ : BufTy).Contents (Elt F) :=
  constantI S_ 32 55#32

def kv_main_call1_v0 : (⟨S_, .i32⟩ : BufTy).Contents (Elt F) :=
  id (kv_main_c_14 (F := F))

def kv_main_call1_v1 : (⟨S8x56x56x9, .i32⟩ : BufTy).Contents (Elt F) :=
  (broadcastInDim S8x56x56x9 ![] bcast_S_S8x56x56x9) (kv_main_call1_v0 (F := F))

def kv_main_call1_v2 (x1 : (⟨S8x18x56x56, .f32⟩ : BufTy).Contents (Elt F)) : (⟨S8x56x56x9, .i32⟩ : BufTy).Contents (Elt F) :=
  maxsi (kv_main_call1_v1 (F := F)) (kv_main_v48 (F := F) x1)

def kv_main_call1_v3 : (⟨S_, .i32⟩ : BufTy).Contents (Elt F) :=
  id (kv_main_c_15 (F := F))

def kv_main_call1_v4 : (⟨S8x56x56x9, .i32⟩ : BufTy).Contents (Elt F) :=
  (broadcastInDim S8x56x56x9 ![] bcast_S_S8x56x56x9) (kv_main_call1_v3 (F := F))

def kv_main_v69 (x1 : (⟨S8x18x56x56, .f32⟩ : BufTy).Contents (Elt F)) : (⟨S8x56x56x9, .i32⟩ : BufTy).Contents (Elt F) :=
  minsi (kv_main_call1_v4 (F := F)) (kv_main_call1_v2 (F := F) x1)

def kv_main_v70 (x1 : (⟨S8x18x56x56, .f32⟩ : BufTy).Contents (Elt F)) : (⟨S8x56x56x9, .i32⟩ : BufTy).Contents (Elt F) :=
  addi (kv_main_v68 (F := F) x1) (kv_main_v69 (F := F) x1)

def kv_main_v71 (x1 : (⟨S8x18x56x56, .f32⟩ : BufTy).Contents (Elt F)) : (⟨S8x28224x1, .i32⟩ : BufTy).Contents (Elt F) :=
  shapeCast _ (kv_main_v70 (F := F) x1) shapeCasts_S8x56x56x9_S8x28224x1

def kv_main_call2_c : (⟨S_, .i32⟩ : BufTy).Contents (Elt F) :=
  constantI S_ 32 0#32

def kv_main_call2_v0 : (⟨S8x28224x1, .i32⟩ : BufTy).Contents (Elt F) :=
  (broadcastInDim S8x28224x1 ![] bcast_S_S8x28224x1) (kv_main_call2_c (F := F))

def kv_main_call2_v1 (x1 : (⟨S8x18x56x56, .f32⟩ : BufTy).Contents (Elt F)) : (⟨S8x28224x1, .i1⟩ : BufTy).Contents (Elt F) :=
  (cmpi .slt) (kv_main_v71 (F := F) x1) (kv_main_call2_v0 (F := F))

def kv_main_call2_c_0 : (⟨S_, .i32⟩ : BufTy).Contents (Elt F) :=
  constantI S_ 32 3136#32

def kv_main_call2_v2 : (⟨S8x28224x1, .i32⟩ : BufTy).Contents (Elt F) :=
  (broadcastInDim S8x28224x1 ![] bcast_S_S8x28224x1) (kv_main_call2_c_0 (F := F))

def kv_main_call2_v3 (x1 : (⟨S8x18x56x56, .f32⟩ : BufTy).Contents (Elt F)) : (⟨S8x28224x1, .i32⟩ : BufTy).Contents (Elt F) :=
  addi (kv_main_v71 (F := F) x1) (kv_main_call2_v2 (F := F))

def kv_main_call2_v4 (x1 : (⟨S8x18x56x56, .f32⟩ : BufTy).Contents (Elt F)) : (⟨S8x28224x1, .i32⟩ : BufTy).Contents (Elt F) :=
  select (kv_main_call2_v1 (F := F) x1) (kv_main_call2_v3 (F := F) x1) (kv_main_v71 (F := F) x1)

def kv_main_call2_c_1 : (⟨S1, .i32⟩ : BufTy).Contents (Elt F) :=
  constantI S1 32 3135#32

def kv_main_call2_c_2 : (⟨S_, .i32⟩ : BufTy).Contents (Elt F) :=
  constantI S_ 32 0#32

def kv_main_call2_v5 : (⟨S8x28224x1, .i32⟩ : BufTy).Contents (Elt F) :=
  (broadcastInDim S8x28224x1 ![] bcast_S_S8x28224x1) (kv_main_call2_c_2 (F := F))

def kv_main_call2_v6 (x1 : (⟨S8x18x56x56, .f32⟩ : BufTy).Contents (Elt F)) : (⟨S8x28224x1, .i1⟩ : BufTy).Contents (Elt F) :=
  (cmpi .sge) (kv_main_call2_v4 (F := F) x1) (kv_main_call2_v5 (F := F))

def kv_main_call2_v7 : (⟨S1x1x1, .i32⟩ : BufTy).Contents (Elt F) :=
  (broadcastInDim S1x1x1 ![2] bcast_S1_S1x1x1_2) (kv_main_call2_c_1 (F := F))

def kv_main_call2_v8 : (⟨S8x28224x1, .i32⟩ : BufTy).Contents (Elt F) :=
  (broadcastInDim S8x28224x1 ![0, 1, 2] bcast_S1x1x1_S8x28224x1_0_1_2) (kv_main_call2_v7 (F := F))

def kv_main_call2_v9 (x1 : (⟨S8x18x56x56, .f32⟩ : BufTy).Contents (Elt F)) : (⟨S8x28224x1, .i1⟩ : BufTy).Contents (Elt F) :=
  (cmpi .sle) (kv_main_call2_v4 (F := F) x1) (kv_main_call2_v8 (F := F))

def kv_main_call2_v10 (x1 : (⟨S8x18x56x56, .f32⟩ : BufTy).Contents (Elt F)) : (⟨S8x28224x1, .i1⟩ : BufTy).Contents (Elt F) :=
  andi (kv_main_call2_v6 (F := F) x1) (kv_main_call2_v9 (F := F) x1)

def kv_main_call2_c_3 : (⟨S_, .i1⟩ : BufTy).Contents (Elt F) :=
  constantI S_ 1 1#1

def kv_main_call2_v11 (x1 : (⟨S8x18x56x56, .f32⟩ : BufTy).Contents (Elt F)) : (⟨S8x28224, .i1⟩ : BufTy).Contents (Elt F) :=
  (fun x v => Host.reduce IntOp.andi x v reducesTo_S8x28224x1_S8x28224_d2 h_S_) (kv_main_call2_v10 (F := F) x1) (kv_main_call2_c_3 (F := F))

def kv_main_call2_v12 (x0 : (⟨S8x256x56x56, .f32⟩ : BufTy).Contents (Elt F)) (x1 : (⟨S8x18x56x56, .f32⟩ : BufTy).Contents (Elt F)) : (⟨S8x28224x256, .f32⟩ : BufTy).Contents (Elt F) :=
  (fun x i => Host.gather gather_S8x3136x256_S8x28224x1_S8x28224x256_2_1_0_0_1_2_11256 x i) (kv_main_v54 (F := F) x0) (kv_main_call2_v4 (F := F) x1)

def kv_main_call2_v13 (x1 : (⟨S8x18x56x56, .f32⟩ : BufTy).Contents (Elt F)) : (⟨S8x28224x256, .i1⟩ : BufTy).Contents (Elt F) :=
  (broadcastInDim S8x28224x256 ![0, 1] bcast_S8x28224_S8x28224x256_0_1) (kv_main_call2_v11 (F := F) x1)

def kv_main_call2_cst : (⟨S_, .f32⟩ : BufTy).Contents (Elt F) :=
  constant S_ .f32 0x7FC00000#32

def kv_main_call2_v14 : (⟨S8x28224x256, .f32⟩ : BufTy).Contents (Elt F) :=
  (broadcastInDim S8x28224x256 ![] bcast_S_S8x28224x256) (kv_main_call2_cst (F := F))

def kv_main_v72 (x0 : (⟨S8x256x56x56, .f32⟩ : BufTy).Contents (Elt F)) (x1 : (⟨S8x18x56x56, .f32⟩ : BufTy).Contents (Elt F)) : (⟨S8x28224x256, .f32⟩ : BufTy).Contents (Elt F) :=
  select (kv_main_call2_v13 (F := F) x1) (kv_main_call2_v12 (F := F) x0 x1) (kv_main_call2_v14 (F := F))

def kv_main_v73 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  shapeCast _ (kv_main_v72 (F := F) x0 x1) shapeCasts_S8x28224x256_S8x56x56x9x256

def kv_main_v74 (x1 : (⟨S8x18x56x56, .f32⟩ : BufTy).Contents (Elt F)) : (⟨S8x56x56x9x1, .i1⟩ : BufTy).Contents (Elt F) :=
  (broadcastInDim S8x56x56x9x1 ![0, 1, 2, 3] bcast_S8x56x56x9_S8x56x56x9x1_0_1_2_3) (kv_main_v65 (F := F) x1)

def kv_main_cst : (⟨S_, .f32⟩ : BufTy).Contents (Elt F) :=
  constant S_ .f32 0x00000000#32

def kv_main_call3_v0 (x1 : (⟨S8x18x56x56, .f32⟩ : BufTy).Contents (Elt F)) : (⟨S8x56x56x9x256, .i1⟩ : BufTy).Contents (Elt F) :=
  (broadcastInDim S8x56x56x9x256 ![0, 1, 2, 3, 4] bcast_S8x56x56x9x1_S8x56x56x9x256_0_1_2_3_4) (kv_main_v74 (F := F) x1)

def kv_main_call3_v1 : (⟨S8x56x56x9x256, .f32⟩ : BufTy).Contents (Elt F) :=
  (broadcastInDim S8x56x56x9x256 ![] bcast_S_S8x56x56x9x256) (kv_main_cst (F := F))

def kv_main_v75 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  select (kv_main_call3_v0 (F := F) x1) (kv_main_v73 (F := F) x0 x1) (kv_main_call3_v1 (F := F))

def kv_main_c_16 : (⟨S_, .i32⟩ : BufTy).Contents (Elt F) :=
  constantI S_ 32 0#32

def kv_main_v76 : (⟨S8x56x56x9, .i32⟩ : BufTy).Contents (Elt F) :=
  (broadcastInDim S8x56x56x9 ![] bcast_S_S8x56x56x9) (kv_main_c_16 (F := F))

def kv_main_v77 (x1 : (⟨S8x18x56x56, .f32⟩ : BufTy).Contents (Elt F)) : (⟨S8x56x56x9, .i1⟩ : BufTy).Contents (Elt F) :=
  (cmpi .sge) (kv_main_v50 (F := F) x1) (kv_main_v76 (F := F))

def kv_main_c_17 : (⟨S_, .i32⟩ : BufTy).Contents (Elt F) :=
  constantI S_ 32 56#32

def kv_main_v78 : (⟨S8x56x56x9, .i32⟩ : BufTy).Contents (Elt F) :=
  (broadcastInDim S8x56x56x9 ![] bcast_S_S8x56x56x9) (kv_main_c_17 (F := F))

def kv_main_v79 (x1 : (⟨S8x18x56x56, .f32⟩ : BufTy).Contents (Elt F)) : (⟨S8x56x56x9, .i1⟩ : BufTy).Contents (Elt F) :=
  (cmpi .slt) (kv_main_v50 (F := F) x1) (kv_main_v78 (F := F))

def kv_main_v80 (x1 : (⟨S8x18x56x56, .f32⟩ : BufTy).Contents (Elt F)) : (⟨S8x56x56x9, .i1⟩ : BufTy).Contents (Elt F) :=
  andi (kv_main_v77 (F := F) x1) (kv_main_v79 (F := F) x1)

def kv_main_c_18 : (⟨S_, .i32⟩ : BufTy).Contents (Elt F) :=
  constantI S_ 32 0#32

def kv_main_v81 : (⟨S8x56x56x9, .i32⟩ : BufTy).Contents (Elt F) :=
  (broadcastInDim S8x56x56x9 ![] bcast_S_S8x56x56x9) (kv_main_c_18 (F := F))

def kv_main_v82 (x1 : (⟨S8x18x56x56, .f32⟩ : BufTy).Contents (Elt F)) : (⟨S8x56x56x9, .i1⟩ : BufTy).Contents (Elt F) :=
  (cmpi .sge) (kv_main_v52 (F := F) x1) (kv_main_v81 (F := F))

def kv_main_v83 (x1 : (⟨S8x18x56x56, .f32⟩ : BufTy).Contents (Elt F)) : (⟨S8x56x56x9, .i1⟩ : BufTy).Contents (Elt F) :=
  andi (kv_main_v80 (F := F) x1) (kv_main_v82 (F := F) x1)

def kv_main_c_19 : (⟨S_, .i32⟩ : BufTy).Contents (Elt F) :=
  constantI S_ 32 56#32

def kv_main_v84 : (⟨S8x56x56x9, .i32⟩ : BufTy).Contents (Elt F) :=
  (broadcastInDim S8x56x56x9 ![] bcast_S_S8x56x56x9) (kv_main_c_19 (F := F))

def kv_main_v85 (x1 : (⟨S8x18x56x56, .f32⟩ : BufTy).Contents (Elt F)) : (⟨S8x56x56x9, .i1⟩ : BufTy).Contents (Elt F) :=
  (cmpi .slt) (kv_main_v52 (F := F) x1) (kv_main_v84 (F := F))

def kv_main_v86 (x1 : (⟨S8x18x56x56, .f32⟩ : BufTy).Contents (Elt F)) : (⟨S8x56x56x9, .i1⟩ : BufTy).Contents (Elt F) :=
  andi (kv_main_v83 (F := F) x1) (kv_main_v85 (F := F) x1)

def kv_main_c_20 : (⟨S_, .i32⟩ : BufTy).Contents (Elt F) :=
  constantI S_ 32 0#32

def kv_main_c_21 : (⟨S_, .i32⟩ : BufTy).Contents (Elt F) :=
  constantI S_ 32 55#32

def kv_main_call4_v0 : (⟨S_, .i32⟩ : BufTy).Contents (Elt F) :=
  id (kv_main_c_20 (F := F))

def kv_main_call4_v1 : (⟨S8x56x56x9, .i32⟩ : BufTy).Contents (Elt F) :=
  (broadcastInDim S8x56x56x9 ![] bcast_S_S8x56x56x9) (kv_main_call4_v0 (F := F))

def kv_main_call4_v2 (x1 : (⟨S8x18x56x56, .f32⟩ : BufTy).Contents (Elt F)) : (⟨S8x56x56x9, .i32⟩ : BufTy).Contents (Elt F) :=
  maxsi (kv_main_call4_v1 (F := F)) (kv_main_v50 (F := F) x1)

def kv_main_call4_v3 : (⟨S_, .i32⟩ : BufTy).Contents (Elt F) :=
  id (kv_main_c_21 (F := F))

def kv_main_call4_v4 : (⟨S8x56x56x9, .i32⟩ : BufTy).Contents (Elt F) :=
  (broadcastInDim S8x56x56x9 ![] bcast_S_S8x56x56x9) (kv_main_call4_v3 (F := F))

def kv_main_v87 (x1 : (⟨S8x18x56x56, .f32⟩ : BufTy).Contents (Elt F)) : (⟨S8x56x56x9, .i32⟩ : BufTy).Contents (Elt F) :=
  minsi (kv_main_call4_v4 (F := F)) (kv_main_call4_v2 (F := F) x1)

def kv_main_c_22 : (⟨S_, .i32⟩ : BufTy).Contents (Elt F) :=
  constantI S_ 32 56#32

def kv_main_v88 : (⟨S8x56x56x9, .i32⟩ : BufTy).Contents (Elt F) :=
  (broadcastInDim S8x56x56x9 ![] bcast_S_S8x56x56x9) (kv_main_c_22 (F := F))

def kv_main_v89 (x1 : (⟨S8x18x56x56, .f32⟩ : BufTy).Contents (Elt F)) : (⟨S8x56x56x9, .i32⟩ : BufTy).Contents (Elt F) :=
  muli (kv_main_v87 (F := F) x1) (kv_main_v88 (F := F))

def kv_main_c_23 : (⟨S_, .i32⟩ : BufTy).Contents (Elt F) :=
  constantI S_ 32 0#32

def kv_main_c_24 : (⟨S_, .i32⟩ : BufTy).Contents (Elt F) :=
  constantI S_ 32 55#32

def kv_main_call5_v0 : (⟨S_, .i32⟩ : BufTy).Contents (Elt F) :=
  id (kv_main_c_23 (F := F))

def kv_main_call5_v1 : (⟨S8x56x56x9, .i32⟩ : BufTy).Contents (Elt F) :=
  (broadcastInDim S8x56x56x9 ![] bcast_S_S8x56x56x9) (kv_main_call5_v0 (F := F))

def kv_main_call5_v2 (x1 : (⟨S8x18x56x56, .f32⟩ : BufTy).Contents (Elt F)) : (⟨S8x56x56x9, .i32⟩ : BufTy).Contents (Elt F) :=
  maxsi (kv_main_call5_v1 (F := F)) (kv_main_v52 (F := F) x1)

def kv_main_call5_v3 : (⟨S_, .i32⟩ : BufTy).Contents (Elt F) :=
  id (kv_main_c_24 (F := F))

def kv_main_call5_v4 : (⟨S8x56x56x9, .i32⟩ : BufTy).Contents (Elt F) :=
  (broadcastInDim S8x56x56x9 ![] bcast_S_S8x56x56x9) (kv_main_call5_v3 (F := F))

def kv_main_v90 (x1 : (⟨S8x18x56x56, .f32⟩ : BufTy).Contents (Elt F)) : (⟨S8x56x56x9, .i32⟩ : BufTy).Contents (Elt F) :=
  minsi (kv_main_call5_v4 (F := F)) (kv_main_call5_v2 (F := F) x1)

def kv_main_v91 (x1 : (⟨S8x18x56x56, .f32⟩ : BufTy).Contents (Elt F)) : (⟨S8x56x56x9, .i32⟩ : BufTy).Contents (Elt F) :=
  addi (kv_main_v89 (F := F) x1) (kv_main_v90 (F := F) x1)

def kv_main_v92 (x1 : (⟨S8x18x56x56, .f32⟩ : BufTy).Contents (Elt F)) : (⟨S8x28224x1, .i32⟩ : BufTy).Contents (Elt F) :=
  shapeCast _ (kv_main_v91 (F := F) x1) shapeCasts_S8x56x56x9_S8x28224x1

def kv_main_call6_c : (⟨S_, .i32⟩ : BufTy).Contents (Elt F) :=
  constantI S_ 32 0#32

def kv_main_call6_v0 : (⟨S8x28224x1, .i32⟩ : BufTy).Contents (Elt F) :=
  (broadcastInDim S8x28224x1 ![] bcast_S_S8x28224x1) (kv_main_call6_c (F := F))

def kv_main_call6_v1 (x1 : (⟨S8x18x56x56, .f32⟩ : BufTy).Contents (Elt F)) : (⟨S8x28224x1, .i1⟩ : BufTy).Contents (Elt F) :=
  (cmpi .slt) (kv_main_v92 (F := F) x1) (kv_main_call6_v0 (F := F))

def kv_main_call6_c_0 : (⟨S_, .i32⟩ : BufTy).Contents (Elt F) :=
  constantI S_ 32 3136#32

def kv_main_call6_v2 : (⟨S8x28224x1, .i32⟩ : BufTy).Contents (Elt F) :=
  (broadcastInDim S8x28224x1 ![] bcast_S_S8x28224x1) (kv_main_call6_c_0 (F := F))

def kv_main_call6_v3 (x1 : (⟨S8x18x56x56, .f32⟩ : BufTy).Contents (Elt F)) : (⟨S8x28224x1, .i32⟩ : BufTy).Contents (Elt F) :=
  addi (kv_main_v92 (F := F) x1) (kv_main_call6_v2 (F := F))

def kv_main_call6_v4 (x1 : (⟨S8x18x56x56, .f32⟩ : BufTy).Contents (Elt F)) : (⟨S8x28224x1, .i32⟩ : BufTy).Contents (Elt F) :=
  select (kv_main_call6_v1 (F := F) x1) (kv_main_call6_v3 (F := F) x1) (kv_main_v92 (F := F) x1)

def kv_main_call6_c_1 : (⟨S1, .i32⟩ : BufTy).Contents (Elt F) :=
  constantI S1 32 3135#32

def kv_main_call6_c_2 : (⟨S_, .i32⟩ : BufTy).Contents (Elt F) :=
  constantI S_ 32 0#32

def kv_main_call6_v5 : (⟨S8x28224x1, .i32⟩ : BufTy).Contents (Elt F) :=
  (broadcastInDim S8x28224x1 ![] bcast_S_S8x28224x1) (kv_main_call6_c_2 (F := F))

def kv_main_call6_v6 (x1 : (⟨S8x18x56x56, .f32⟩ : BufTy).Contents (Elt F)) : (⟨S8x28224x1, .i1⟩ : BufTy).Contents (Elt F) :=
  (cmpi .sge) (kv_main_call6_v4 (F := F) x1) (kv_main_call6_v5 (F := F))

def kv_main_call6_v7 : (⟨S1x1x1, .i32⟩ : BufTy).Contents (Elt F) :=
  (broadcastInDim S1x1x1 ![2] bcast_S1_S1x1x1_2) (kv_main_call6_c_1 (F := F))

def kv_main_call6_v8 : (⟨S8x28224x1, .i32⟩ : BufTy).Contents (Elt F) :=
  (broadcastInDim S8x28224x1 ![0, 1, 2] bcast_S1x1x1_S8x28224x1_0_1_2) (kv_main_call6_v7 (F := F))

def kv_main_call6_v9 (x1 : (⟨S8x18x56x56, .f32⟩ : BufTy).Contents (Elt F)) : (⟨S8x28224x1, .i1⟩ : BufTy).Contents (Elt F) :=
  (cmpi .sle) (kv_main_call6_v4 (F := F) x1) (kv_main_call6_v8 (F := F))

def kv_main_call6_v10 (x1 : (⟨S8x18x56x56, .f32⟩ : BufTy).Contents (Elt F)) : (⟨S8x28224x1, .i1⟩ : BufTy).Contents (Elt F) :=
  andi (kv_main_call6_v6 (F := F) x1) (kv_main_call6_v9 (F := F) x1)

def kv_main_call6_c_3 : (⟨S_, .i1⟩ : BufTy).Contents (Elt F) :=
  constantI S_ 1 1#1

def kv_main_call6_v11 (x1 : (⟨S8x18x56x56, .f32⟩ : BufTy).Contents (Elt F)) : (⟨S8x28224, .i1⟩ : BufTy).Contents (Elt F) :=
  (fun x v => Host.reduce IntOp.andi x v reducesTo_S8x28224x1_S8x28224_d2 h_S_) (kv_main_call6_v10 (F := F) x1) (kv_main_call6_c_3 (F := F))

def kv_main_call6_v12 (x0 : (⟨S8x256x56x56, .f32⟩ : BufTy).Contents (Elt F)) (x1 : (⟨S8x18x56x56, .f32⟩ : BufTy).Contents (Elt F)) : (⟨S8x28224x256, .f32⟩ : BufTy).Contents (Elt F) :=
  (fun x i => Host.gather gather_S8x3136x256_S8x28224x1_S8x28224x256_2_1_0_0_1_2_11256 x i) (kv_main_v54 (F := F) x0) (kv_main_call6_v4 (F := F) x1)

def kv_main_call6_v13 (x1 : (⟨S8x18x56x56, .f32⟩ : BufTy).Contents (Elt F)) : (⟨S8x28224x256, .i1⟩ : BufTy).Contents (Elt F) :=
  (broadcastInDim S8x28224x256 ![0, 1] bcast_S8x28224_S8x28224x256_0_1) (kv_main_call6_v11 (F := F) x1)

def kv_main_call6_cst : (⟨S_, .f32⟩ : BufTy).Contents (Elt F) :=
  constant S_ .f32 0x7FC00000#32

def kv_main_call6_v14 : (⟨S8x28224x256, .f32⟩ : BufTy).Contents (Elt F) :=
  (broadcastInDim S8x28224x256 ![] bcast_S_S8x28224x256) (kv_main_call6_cst (F := F))

def kv_main_v93 (x0 : (⟨S8x256x56x56, .f32⟩ : BufTy).Contents (Elt F)) (x1 : (⟨S8x18x56x56, .f32⟩ : BufTy).Contents (Elt F)) : (⟨S8x28224x256, .f32⟩ : BufTy).Contents (Elt F) :=
  select (kv_main_call6_v13 (F := F) x1) (kv_main_call6_v12 (F := F) x0 x1) (kv_main_call6_v14 (F := F))

def kv_main_v94 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  shapeCast _ (kv_main_v93 (F := F) x0 x1) shapeCasts_S8x28224x256_S8x56x56x9x256

def kv_main_v95 (x1 : (⟨S8x18x56x56, .f32⟩ : BufTy).Contents (Elt F)) : (⟨S8x56x56x9x1, .i1⟩ : BufTy).Contents (Elt F) :=
  (broadcastInDim S8x56x56x9x1 ![0, 1, 2, 3] bcast_S8x56x56x9_S8x56x56x9x1_0_1_2_3) (kv_main_v86 (F := F) x1)

def kv_main_cst_25 : (⟨S_, .f32⟩ : BufTy).Contents (Elt F) :=
  constant S_ .f32 0x00000000#32

def kv_main_call7_v0 (x1 : (⟨S8x18x56x56, .f32⟩ : BufTy).Contents (Elt F)) : (⟨S8x56x56x9x256, .i1⟩ : BufTy).Contents (Elt F) :=
  (broadcastInDim S8x56x56x9x256 ![0, 1, 2, 3, 4] bcast_S8x56x56x9x1_S8x56x56x9x256_0_1_2_3_4) (kv_main_v95 (F := F) x1)

def kv_main_call7_v1 : (⟨S8x56x56x9x256, .f32⟩ : BufTy).Contents (Elt F) :=
  (broadcastInDim S8x56x56x9x256 ![] bcast_S_S8x56x56x9x256) (kv_main_cst_25 (F := F))

def kv_main_v96 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  select (kv_main_call7_v0 (F := F) x1) (kv_main_v94 (F := F) x0 x1) (kv_main_call7_v1 (F := F))

def kv_main_c_26 : (⟨S_, .i32⟩ : BufTy).Contents (Elt F) :=
  constantI S_ 32 0#32

def kv_main_v97 : (⟨S8x56x56x9, .i32⟩ : BufTy).Contents (Elt F) :=
  (broadcastInDim S8x56x56x9 ![] bcast_S_S8x56x56x9) (kv_main_c_26 (F := F))

def kv_main_v98 (x1 : (⟨S8x18x56x56, .f32⟩ : BufTy).Contents (Elt F)) : (⟨S8x56x56x9, .i1⟩ : BufTy).Contents (Elt F) :=
  (cmpi .sge) (kv_main_v45 (F := F) x1) (kv_main_v97 (F := F))

def kv_main_c_27 : (⟨S_, .i32⟩ : BufTy).Contents (Elt F) :=
  constantI S_ 32 56#32

def kv_main_v99 : (⟨S8x56x56x9, .i32⟩ : BufTy).Contents (Elt F) :=
  (broadcastInDim S8x56x56x9 ![] bcast_S_S8x56x56x9) (kv_main_c_27 (F := F))

def kv_main_v100 (x1 : (⟨S8x18x56x56, .f32⟩ : BufTy).Contents (Elt F)) : (⟨S8x56x56x9, .i1⟩ : BufTy).Contents (Elt F) :=
  (cmpi .slt) (kv_main_v45 (F := F) x1) (kv_main_v99 (F := F))

def kv_main_v101 (x1 : (⟨S8x18x56x56, .f32⟩ : BufTy).Contents (Elt F)) : (⟨S8x56x56x9, .i1⟩ : BufTy).Contents (Elt F) :=
  andi (kv_main_v98 (F := F) x1) (kv_main_v100 (F := F) x1)

def kv_main_c_28 : (⟨S_, .i32⟩ : BufTy).Contents (Elt F) :=
  constantI S_ 32 0#32

def kv_main_v102 : (⟨S8x56x56x9, .i32⟩ : BufTy).Contents (Elt F) :=
  (broadcastInDim S8x56x56x9 ![] bcast_S_S8x56x56x9) (kv_main_c_28 (F := F))

def kv_main_v103 (x1 : (⟨S8x18x56x56, .f32⟩ : BufTy).Contents (Elt F)) : (⟨S8x56x56x9, .i1⟩ : BufTy).Contents (Elt F) :=
  (cmpi .sge) (kv_main_v52 (F := F) x1) (kv_main_v102 (F := F))

def kv_main_v104 (x1 : (⟨S8x18x56x56, .f32⟩ : BufTy).Contents (Elt F)) : (⟨S8x56x56x9, .i1⟩ : BufTy).Contents (Elt F) :=
  andi (kv_main_v101 (F := F) x1) (kv_main_v103 (F := F) x1)

def kv_main_c_29 : (⟨S_, .i32⟩ : BufTy).Contents (Elt F) :=
  constantI S_ 32 56#32

def kv_main_v105 : (⟨S8x56x56x9, .i32⟩ : BufTy).Contents (Elt F) :=
  (broadcastInDim S8x56x56x9 ![] bcast_S_S8x56x56x9) (kv_main_c_29 (F := F))

def kv_main_v106 (x1 : (⟨S8x18x56x56, .f32⟩ : BufTy).Contents (Elt F)) : (⟨S8x56x56x9, .i1⟩ : BufTy).Contents (Elt F) :=
  (cmpi .slt) (kv_main_v52 (F := F) x1) (kv_main_v105 (F := F))

def kv_main_v107 (x1 : (⟨S8x18x56x56, .f32⟩ : BufTy).Contents (Elt F)) : (⟨S8x56x56x9, .i1⟩ : BufTy).Contents (Elt F) :=
  andi (kv_main_v104 (F := F) x1) (kv_main_v106 (F := F) x1)

def kv_main_c_30 : (⟨S_, .i32⟩ : BufTy).Contents (Elt F) :=
  constantI S_ 32 0#32

def kv_main_c_31 : (⟨S_, .i32⟩ : BufTy).Contents (Elt F) :=
  constantI S_ 32 55#32

def kv_main_call8_v0 : (⟨S_, .i32⟩ : BufTy).Contents (Elt F) :=
  id (kv_main_c_30 (F := F))

def kv_main_call8_v1 : (⟨S8x56x56x9, .i32⟩ : BufTy).Contents (Elt F) :=
  (broadcastInDim S8x56x56x9 ![] bcast_S_S8x56x56x9) (kv_main_call8_v0 (F := F))

def kv_main_call8_v2 (x1 : (⟨S8x18x56x56, .f32⟩ : BufTy).Contents (Elt F)) : (⟨S8x56x56x9, .i32⟩ : BufTy).Contents (Elt F) :=
  maxsi (kv_main_call8_v1 (F := F)) (kv_main_v45 (F := F) x1)

def kv_main_call8_v3 : (⟨S_, .i32⟩ : BufTy).Contents (Elt F) :=
  id (kv_main_c_31 (F := F))

def kv_main_call8_v4 : (⟨S8x56x56x9, .i32⟩ : BufTy).Contents (Elt F) :=
  (broadcastInDim S8x56x56x9 ![] bcast_S_S8x56x56x9) (kv_main_call8_v3 (F := F))

def kv_main_v108 (x1 : (⟨S8x18x56x56, .f32⟩ : BufTy).Contents (Elt F)) : (⟨S8x56x56x9, .i32⟩ : BufTy).Contents (Elt F) :=
  minsi (kv_main_call8_v4 (F := F)) (kv_main_call8_v2 (F := F) x1)

def kv_main_c_32 : (⟨S_, .i32⟩ : BufTy).Contents (Elt F) :=
  constantI S_ 32 56#32

def kv_main_v109 : (⟨S8x56x56x9, .i32⟩ : BufTy).Contents (Elt F) :=
  (broadcastInDim S8x56x56x9 ![] bcast_S_S8x56x56x9) (kv_main_c_32 (F := F))

def kv_main_v110 (x1 : (⟨S8x18x56x56, .f32⟩ : BufTy).Contents (Elt F)) : (⟨S8x56x56x9, .i32⟩ : BufTy).Contents (Elt F) :=
  muli (kv_main_v108 (F := F) x1) (kv_main_v109 (F := F))

def kv_main_c_33 : (⟨S_, .i32⟩ : BufTy).Contents (Elt F) :=
  constantI S_ 32 0#32

def kv_main_c_34 : (⟨S_, .i32⟩ : BufTy).Contents (Elt F) :=
  constantI S_ 32 55#32

def kv_main_call9_v0 : (⟨S_, .i32⟩ : BufTy).Contents (Elt F) :=
  id (kv_main_c_33 (F := F))

def kv_main_call9_v1 : (⟨S8x56x56x9, .i32⟩ : BufTy).Contents (Elt F) :=
  (broadcastInDim S8x56x56x9 ![] bcast_S_S8x56x56x9) (kv_main_call9_v0 (F := F))

def kv_main_call9_v2 (x1 : (⟨S8x18x56x56, .f32⟩ : BufTy).Contents (Elt F)) : (⟨S8x56x56x9, .i32⟩ : BufTy).Contents (Elt F) :=
  maxsi (kv_main_call9_v1 (F := F)) (kv_main_v52 (F := F) x1)

def kv_main_call9_v3 : (⟨S_, .i32⟩ : BufTy).Contents (Elt F) :=
  id (kv_main_c_34 (F := F))

def kv_main_call9_v4 : (⟨S8x56x56x9, .i32⟩ : BufTy).Contents (Elt F) :=
  (broadcastInDim S8x56x56x9 ![] bcast_S_S8x56x56x9) (kv_main_call9_v3 (F := F))

def kv_main_v111 (x1 : (⟨S8x18x56x56, .f32⟩ : BufTy).Contents (Elt F)) : (⟨S8x56x56x9, .i32⟩ : BufTy).Contents (Elt F) :=
  minsi (kv_main_call9_v4 (F := F)) (kv_main_call9_v2 (F := F) x1)

def kv_main_v112 (x1 : (⟨S8x18x56x56, .f32⟩ : BufTy).Contents (Elt F)) : (⟨S8x56x56x9, .i32⟩ : BufTy).Contents (Elt F) :=
  addi (kv_main_v110 (F := F) x1) (kv_main_v111 (F := F) x1)

def kv_main_v113 (x1 : (⟨S8x18x56x56, .f32⟩ : BufTy).Contents (Elt F)) : (⟨S8x28224x1, .i32⟩ : BufTy).Contents (Elt F) :=
  shapeCast _ (kv_main_v112 (F := F) x1) shapeCasts_S8x56x56x9_S8x28224x1

def kv_main_call10_c : (⟨S_, .i32⟩ : BufTy).Contents (Elt F) :=
  constantI S_ 32 0#32

def kv_main_call10_v0 : (⟨S8x28224x1, .i32⟩ : BufTy).Contents (Elt F) :=
  (broadcastInDim S8x28224x1 ![] bcast_S_S8x28224x1) (kv_main_call10_c (F := F))

def kv_main_call10_v1 (x1 : (⟨S8x18x56x56, .f32⟩ : BufTy).Contents (Elt F)) : (⟨S8x28224x1, .i1⟩ : BufTy).Contents (Elt F) :=
  (cmpi .slt) (kv_main_v113 (F := F) x1) (kv_main_call10_v0 (F := F))

def kv_main_call10_c_0 : (⟨S_, .i32⟩ : BufTy).Contents (Elt F) :=
  constantI S_ 32 3136#32

def kv_main_call10_v2 : (⟨S8x28224x1, .i32⟩ : BufTy).Contents (Elt F) :=
  (broadcastInDim S8x28224x1 ![] bcast_S_S8x28224x1) (kv_main_call10_c_0 (F := F))

def kv_main_call10_v3 (x1 : (⟨S8x18x56x56, .f32⟩ : BufTy).Contents (Elt F)) : (⟨S8x28224x1, .i32⟩ : BufTy).Contents (Elt F) :=
  addi (kv_main_v113 (F := F) x1) (kv_main_call10_v2 (F := F))

def kv_main_call10_v4 (x1 : (⟨S8x18x56x56, .f32⟩ : BufTy).Contents (Elt F)) : (⟨S8x28224x1, .i32⟩ : BufTy).Contents (Elt F) :=
  select (kv_main_call10_v1 (F := F) x1) (kv_main_call10_v3 (F := F) x1) (kv_main_v113 (F := F) x1)

def kv_main_call10_c_1 : (⟨S1, .i32⟩ : BufTy).Contents (Elt F) :=
  constantI S1 32 3135#32

def kv_main_call10_c_2 : (⟨S_, .i32⟩ : BufTy).Contents (Elt F) :=
  constantI S_ 32 0#32

def kv_main_call10_v5 : (⟨S8x28224x1, .i32⟩ : BufTy).Contents (Elt F) :=
  (broadcastInDim S8x28224x1 ![] bcast_S_S8x28224x1) (kv_main_call10_c_2 (F := F))

def kv_main_call10_v6 (x1 : (⟨S8x18x56x56, .f32⟩ : BufTy).Contents (Elt F)) : (⟨S8x28224x1, .i1⟩ : BufTy).Contents (Elt F) :=
  (cmpi .sge) (kv_main_call10_v4 (F := F) x1) (kv_main_call10_v5 (F := F))

def kv_main_call10_v7 : (⟨S1x1x1, .i32⟩ : BufTy).Contents (Elt F) :=
  (broadcastInDim S1x1x1 ![2] bcast_S1_S1x1x1_2) (kv_main_call10_c_1 (F := F))

def kv_main_call10_v8 : (⟨S8x28224x1, .i32⟩ : BufTy).Contents (Elt F) :=
  (broadcastInDim S8x28224x1 ![0, 1, 2] bcast_S1x1x1_S8x28224x1_0_1_2) (kv_main_call10_v7 (F := F))

def kv_main_call10_v9 (x1 : (⟨S8x18x56x56, .f32⟩ : BufTy).Contents (Elt F)) : (⟨S8x28224x1, .i1⟩ : BufTy).Contents (Elt F) :=
  (cmpi .sle) (kv_main_call10_v4 (F := F) x1) (kv_main_call10_v8 (F := F))

def kv_main_call10_v10 (x1 : (⟨S8x18x56x56, .f32⟩ : BufTy).Contents (Elt F)) : (⟨S8x28224x1, .i1⟩ : BufTy).Contents (Elt F) :=
  andi (kv_main_call10_v6 (F := F) x1) (kv_main_call10_v9 (F := F) x1)

def kv_main_call10_c_3 : (⟨S_, .i1⟩ : BufTy).Contents (Elt F) :=
  constantI S_ 1 1#1

def kv_main_call10_v11 (x1 : (⟨S8x18x56x56, .f32⟩ : BufTy).Contents (Elt F)) : (⟨S8x28224, .i1⟩ : BufTy).Contents (Elt F) :=
  (fun x v => Host.reduce IntOp.andi x v reducesTo_S8x28224x1_S8x28224_d2 h_S_) (kv_main_call10_v10 (F := F) x1) (kv_main_call10_c_3 (F := F))

def kv_main_call10_v12 (x0 : (⟨S8x256x56x56, .f32⟩ : BufTy).Contents (Elt F)) (x1 : (⟨S8x18x56x56, .f32⟩ : BufTy).Contents (Elt F)) : (⟨S8x28224x256, .f32⟩ : BufTy).Contents (Elt F) :=
  (fun x i => Host.gather gather_S8x3136x256_S8x28224x1_S8x28224x256_2_1_0_0_1_2_11256 x i) (kv_main_v54 (F := F) x0) (kv_main_call10_v4 (F := F) x1)

def kv_main_call10_v13 (x1 : (⟨S8x18x56x56, .f32⟩ : BufTy).Contents (Elt F)) : (⟨S8x28224x256, .i1⟩ : BufTy).Contents (Elt F) :=
  (broadcastInDim S8x28224x256 ![0, 1] bcast_S8x28224_S8x28224x256_0_1) (kv_main_call10_v11 (F := F) x1)

def kv_main_call10_cst : (⟨S_, .f32⟩ : BufTy).Contents (Elt F) :=
  constant S_ .f32 0x7FC00000#32

def kv_main_call10_v14 : (⟨S8x28224x256, .f32⟩ : BufTy).Contents (Elt F) :=
  (broadcastInDim S8x28224x256 ![] bcast_S_S8x28224x256) (kv_main_call10_cst (F := F))

def kv_main_v114 (x0 : (⟨S8x256x56x56, .f32⟩ : BufTy).Contents (Elt F)) (x1 : (⟨S8x18x56x56, .f32⟩ : BufTy).Contents (Elt F)) : (⟨S8x28224x256, .f32⟩ : BufTy).Contents (Elt F) :=
  select (kv_main_call10_v13 (F := F) x1) (kv_main_call10_v12 (F := F) x0 x1) (kv_main_call10_v14 (F := F))

def kv_main_v115 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  shapeCast _ (kv_main_v114 (F := F) x0 x1) shapeCasts_S8x28224x256_S8x56x56x9x256

def kv_main_v116 (x1 : (⟨S8x18x56x56, .f32⟩ : BufTy).Contents (Elt F)) : (⟨S8x56x56x9x1, .i1⟩ : BufTy).Contents (Elt F) :=
  (broadcastInDim S8x56x56x9x1 ![0, 1, 2, 3] bcast_S8x56x56x9_S8x56x56x9x1_0_1_2_3) (kv_main_v107 (F := F) x1)

def kv_main_cst_35 : (⟨S_, .f32⟩ : BufTy).Contents (Elt F) :=
  constant S_ .f32 0x00000000#32

def kv_main_call11_v0 (x1 : (⟨S8x18x56x56, .f32⟩ : BufTy).Contents (Elt F)) : (⟨S8x56x56x9x256, .i1⟩ : BufTy).Contents (Elt F) :=
  (broadcastInDim S8x56x56x9x256 ![0, 1, 2, 3, 4] bcast_S8x56x56x9x1_S8x56x56x9x256_0_1_2_3_4) (kv_main_v116 (F := F) x1)

def kv_main_call11_v1 : (⟨S8x56x56x9x256, .f32⟩ : BufTy).Contents (Elt F) :=
  (broadcastInDim S8x56x56x9x256 ![] bcast_S_S8x56x56x9x256) (kv_main_cst_35 (F := F))

def kv_main_v117 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  select (kv_main_call11_v0 (F := F) x1) (kv_main_v115 (F := F) x0 x1) (kv_main_call11_v1 (F := F))

def kv_main_c_36 : (⟨S_, .i32⟩ : BufTy).Contents (Elt F) :=
  constantI S_ 32 0#32

def kv_main_v118 : (⟨S8x56x56x9, .i32⟩ : BufTy).Contents (Elt F) :=
  (broadcastInDim S8x56x56x9 ![] bcast_S_S8x56x56x9) (kv_main_c_36 (F := F))

def kv_main_v119 (x1 : (⟨S8x18x56x56, .f32⟩ : BufTy).Contents (Elt F)) : (⟨S8x56x56x9, .i1⟩ : BufTy).Contents (Elt F) :=
  (cmpi .sge) (kv_main_v50 (F := F) x1) (kv_main_v118 (F := F))

def kv_main_c_37 : (⟨S_, .i32⟩ : BufTy).Contents (Elt F) :=
  constantI S_ 32 56#32

def kv_main_v120 : (⟨S8x56x56x9, .i32⟩ : BufTy).Contents (Elt F) :=
  (broadcastInDim S8x56x56x9 ![] bcast_S_S8x56x56x9) (kv_main_c_37 (F := F))

def kv_main_v121 (x1 : (⟨S8x18x56x56, .f32⟩ : BufTy).Contents (Elt F)) : (⟨S8x56x56x9, .i1⟩ : BufTy).Contents (Elt F) :=
  (cmpi .slt) (kv_main_v50 (F := F) x1) (kv_main_v120 (F := F))

def kv_main_v122 (x1 : (⟨S8x18x56x56, .f32⟩ : BufTy).Contents (Elt F)) : (⟨S8x56x56x9, .i1⟩ : BufTy).Contents (Elt F) :=
  andi (kv_main_v119 (F := F) x1) (kv_main_v121 (F := F) x1)

def kv_main_c_38 : (⟨S_, .i32⟩ : BufTy).Contents (Elt F) :=
  constantI S_ 32 0#32

def kv_main_v123 : (⟨S8x56x56x9, .i32⟩ : BufTy).Contents (Elt F) :=
  (broadcastInDim S8x56x56x9 ![] bcast_S_S8x56x56x9) (kv_main_c_38 (F := F))

def kv_main_v124 (x1 : (⟨S8x18x56x56, .f32⟩ : BufTy).Contents (Elt F)) : (⟨S8x56x56x9, .i1⟩ : BufTy).Contents (Elt F) :=
  (cmpi .sge) (kv_main_v48 (F := F) x1) (kv_main_v123 (F := F))

def kv_main_v125 (x1 : (⟨S8x18x56x56, .f32⟩ : BufTy).Contents (Elt F)) : (⟨S8x56x56x9, .i1⟩ : BufTy).Contents (Elt F) :=
  andi (kv_main_v122 (F := F) x1) (kv_main_v124 (F := F) x1)

def kv_main_c_39 : (⟨S_, .i32⟩ : BufTy).Contents (Elt F) :=
  constantI S_ 32 56#32

def kv_main_v126 : (⟨S8x56x56x9, .i32⟩ : BufTy).Contents (Elt F) :=
  (broadcastInDim S8x56x56x9 ![] bcast_S_S8x56x56x9) (kv_main_c_39 (F := F))

def kv_main_v127 (x1 : (⟨S8x18x56x56, .f32⟩ : BufTy).Contents (Elt F)) : (⟨S8x56x56x9, .i1⟩ : BufTy).Contents (Elt F) :=
  (cmpi .slt) (kv_main_v48 (F := F) x1) (kv_main_v126 (F := F))

def kv_main_v128 (x1 : (⟨S8x18x56x56, .f32⟩ : BufTy).Contents (Elt F)) : (⟨S8x56x56x9, .i1⟩ : BufTy).Contents (Elt F) :=
  andi (kv_main_v125 (F := F) x1) (kv_main_v127 (F := F) x1)

def kv_main_c_40 : (⟨S_, .i32⟩ : BufTy).Contents (Elt F) :=
  constantI S_ 32 0#32

def kv_main_c_41 : (⟨S_, .i32⟩ : BufTy).Contents (Elt F) :=
  constantI S_ 32 55#32

def kv_main_call12_v0 : (⟨S_, .i32⟩ : BufTy).Contents (Elt F) :=
  id (kv_main_c_40 (F := F))

def kv_main_call12_v1 : (⟨S8x56x56x9, .i32⟩ : BufTy).Contents (Elt F) :=
  (broadcastInDim S8x56x56x9 ![] bcast_S_S8x56x56x9) (kv_main_call12_v0 (F := F))

def kv_main_call12_v2 (x1 : (⟨S8x18x56x56, .f32⟩ : BufTy).Contents (Elt F)) : (⟨S8x56x56x9, .i32⟩ : BufTy).Contents (Elt F) :=
  maxsi (kv_main_call12_v1 (F := F)) (kv_main_v50 (F := F) x1)

def kv_main_call12_v3 : (⟨S_, .i32⟩ : BufTy).Contents (Elt F) :=
  id (kv_main_c_41 (F := F))

def kv_main_call12_v4 : (⟨S8x56x56x9, .i32⟩ : BufTy).Contents (Elt F) :=
  (broadcastInDim S8x56x56x9 ![] bcast_S_S8x56x56x9) (kv_main_call12_v3 (F := F))

def kv_main_v129 (x1 : (⟨S8x18x56x56, .f32⟩ : BufTy).Contents (Elt F)) : (⟨S8x56x56x9, .i32⟩ : BufTy).Contents (Elt F) :=
  minsi (kv_main_call12_v4 (F := F)) (kv_main_call12_v2 (F := F) x1)

def kv_main_c_42 : (⟨S_, .i32⟩ : BufTy).Contents (Elt F) :=
  constantI S_ 32 56#32

def kv_main_v130 : (⟨S8x56x56x9, .i32⟩ : BufTy).Contents (Elt F) :=
  (broadcastInDim S8x56x56x9 ![] bcast_S_S8x56x56x9) (kv_main_c_42 (F := F))

def kv_main_v131 (x1 : (⟨S8x18x56x56, .f32⟩ : BufTy).Contents (Elt F)) : (⟨S8x56x56x9, .i32⟩ : BufTy).Contents (Elt F) :=
  muli (kv_main_v129 (F := F) x1) (kv_main_v130 (F := F))

def kv_main_c_43 : (⟨S_, .i32⟩ : BufTy).Contents (Elt F) :=
  constantI S_ 32 0#32

def kv_main_c_44 : (⟨S_, .i32⟩ : BufTy).Contents (Elt F) :=
  constantI S_ 32 55#32

def kv_main_call13_v0 : (⟨S_, .i32⟩ : BufTy).Contents (Elt F) :=
  id (kv_main_c_43 (F := F))

def kv_main_call13_v1 : (⟨S8x56x56x9, .i32⟩ : BufTy).Contents (Elt F) :=
  (broadcastInDim S8x56x56x9 ![] bcast_S_S8x56x56x9) (kv_main_call13_v0 (F := F))

def kv_main_call13_v2 (x1 : (⟨S8x18x56x56, .f32⟩ : BufTy).Contents (Elt F)) : (⟨S8x56x56x9, .i32⟩ : BufTy).Contents (Elt F) :=
  maxsi (kv_main_call13_v1 (F := F)) (kv_main_v48 (F := F) x1)

def kv_main_call13_v3 : (⟨S_, .i32⟩ : BufTy).Contents (Elt F) :=
  id (kv_main_c_44 (F := F))

def kv_main_call13_v4 : (⟨S8x56x56x9, .i32⟩ : BufTy).Contents (Elt F) :=
  (broadcastInDim S8x56x56x9 ![] bcast_S_S8x56x56x9) (kv_main_call13_v3 (F := F))

def kv_main_v132 (x1 : (⟨S8x18x56x56, .f32⟩ : BufTy).Contents (Elt F)) : (⟨S8x56x56x9, .i32⟩ : BufTy).Contents (Elt F) :=
  minsi (kv_main_call13_v4 (F := F)) (kv_main_call13_v2 (F := F) x1)

def kv_main_v133 (x1 : (⟨S8x18x56x56, .f32⟩ : BufTy).Contents (Elt F)) : (⟨S8x56x56x9, .i32⟩ : BufTy).Contents (Elt F) :=
  addi (kv_main_v131 (F := F) x1) (kv_main_v132 (F := F) x1)

def kv_main_v134 (x1 : (⟨S8x18x56x56, .f32⟩ : BufTy).Contents (Elt F)) : (⟨S8x28224x1, .i32⟩ : BufTy).Contents (Elt F) :=
  shapeCast _ (kv_main_v133 (F := F) x1) shapeCasts_S8x56x56x9_S8x28224x1

def kv_main_call14_c : (⟨S_, .i32⟩ : BufTy).Contents (Elt F) :=
  constantI S_ 32 0#32

def kv_main_call14_v0 : (⟨S8x28224x1, .i32⟩ : BufTy).Contents (Elt F) :=
  (broadcastInDim S8x28224x1 ![] bcast_S_S8x28224x1) (kv_main_call14_c (F := F))

def kv_main_call14_v1 (x1 : (⟨S8x18x56x56, .f32⟩ : BufTy).Contents (Elt F)) : (⟨S8x28224x1, .i1⟩ : BufTy).Contents (Elt F) :=
  (cmpi .slt) (kv_main_v134 (F := F) x1) (kv_main_call14_v0 (F := F))

def kv_main_call14_c_0 : (⟨S_, .i32⟩ : BufTy).Contents (Elt F) :=
  constantI S_ 32 3136#32

def kv_main_call14_v2 : (⟨S8x28224x1, .i32⟩ : BufTy).Contents (Elt F) :=
  (broadcastInDim S8x28224x1 ![] bcast_S_S8x28224x1) (kv_main_call14_c_0 (F := F))

def kv_main_call14_v3 (x1 : (⟨S8x18x56x56, .f32⟩ : BufTy).Contents (Elt F)) : (⟨S8x28224x1, .i32⟩ : BufTy).Contents (Elt F) :=
  addi (kv_main_v134 (F := F) x1) (kv_main_call14_v2 (F := F))

def kv_main_call14_v4 (x1 : (⟨S8x18x56x56, .f32⟩ : BufTy).Contents (Elt F)) : (⟨S8x28224x1, .i32⟩ : BufTy).Contents (Elt F) :=
  select (kv_main_call14_v1 (F := F) x1) (kv_main_call14_v3 (F := F) x1) (kv_main_v134 (F := F) x1)

def kv_main_call14_c_1 : (⟨S1, .i32⟩ : BufTy).Contents (Elt F) :=
  constantI S1 32 3135#32

def kv_main_call14_c_2 : (⟨S_, .i32⟩ : BufTy).Contents (Elt F) :=
  constantI S_ 32 0#32

def kv_main_call14_v5 : (⟨S8x28224x1, .i32⟩ : BufTy).Contents (Elt F) :=
  (broadcastInDim S8x28224x1 ![] bcast_S_S8x28224x1) (kv_main_call14_c_2 (F := F))

def kv_main_call14_v6 (x1 : (⟨S8x18x56x56, .f32⟩ : BufTy).Contents (Elt F)) : (⟨S8x28224x1, .i1⟩ : BufTy).Contents (Elt F) :=
  (cmpi .sge) (kv_main_call14_v4 (F := F) x1) (kv_main_call14_v5 (F := F))

def kv_main_call14_v7 : (⟨S1x1x1, .i32⟩ : BufTy).Contents (Elt F) :=
  (broadcastInDim S1x1x1 ![2] bcast_S1_S1x1x1_2) (kv_main_call14_c_1 (F := F))

def kv_main_call14_v8 : (⟨S8x28224x1, .i32⟩ : BufTy).Contents (Elt F) :=
  (broadcastInDim S8x28224x1 ![0, 1, 2] bcast_S1x1x1_S8x28224x1_0_1_2) (kv_main_call14_v7 (F := F))

def kv_main_call14_v9 (x1 : (⟨S8x18x56x56, .f32⟩ : BufTy).Contents (Elt F)) : (⟨S8x28224x1, .i1⟩ : BufTy).Contents (Elt F) :=
  (cmpi .sle) (kv_main_call14_v4 (F := F) x1) (kv_main_call14_v8 (F := F))

def kv_main_call14_v10 (x1 : (⟨S8x18x56x56, .f32⟩ : BufTy).Contents (Elt F)) : (⟨S8x28224x1, .i1⟩ : BufTy).Contents (Elt F) :=
  andi (kv_main_call14_v6 (F := F) x1) (kv_main_call14_v9 (F := F) x1)

def kv_main_call14_c_3 : (⟨S_, .i1⟩ : BufTy).Contents (Elt F) :=
  constantI S_ 1 1#1

def kv_main_call14_v11 (x1 : (⟨S8x18x56x56, .f32⟩ : BufTy).Contents (Elt F)) : (⟨S8x28224, .i1⟩ : BufTy).Contents (Elt F) :=
  (fun x v => Host.reduce IntOp.andi x v reducesTo_S8x28224x1_S8x28224_d2 h_S_) (kv_main_call14_v10 (F := F) x1) (kv_main_call14_c_3 (F := F))

def kv_main_call14_v12 (x0 : (⟨S8x256x56x56, .f32⟩ : BufTy).Contents (Elt F)) (x1 : (⟨S8x18x56x56, .f32⟩ : BufTy).Contents (Elt F)) : (⟨S8x28224x256, .f32⟩ : BufTy).Contents (Elt F) :=
  (fun x i => Host.gather gather_S8x3136x256_S8x28224x1_S8x28224x256_2_1_0_0_1_2_11256 x i) (kv_main_v54 (F := F) x0) (kv_main_call14_v4 (F := F) x1)

def kv_main_call14_v13 (x1 : (⟨S8x18x56x56, .f32⟩ : BufTy).Contents (Elt F)) : (⟨S8x28224x256, .i1⟩ : BufTy).Contents (Elt F) :=
  (broadcastInDim S8x28224x256 ![0, 1] bcast_S8x28224_S8x28224x256_0_1) (kv_main_call14_v11 (F := F) x1)

def kv_main_call14_cst : (⟨S_, .f32⟩ : BufTy).Contents (Elt F) :=
  constant S_ .f32 0x7FC00000#32

def kv_main_call14_v14 : (⟨S8x28224x256, .f32⟩ : BufTy).Contents (Elt F) :=
  (broadcastInDim S8x28224x256 ![] bcast_S_S8x28224x256) (kv_main_call14_cst (F := F))

def kv_main_v135 (x0 : (⟨S8x256x56x56, .f32⟩ : BufTy).Contents (Elt F)) (x1 : (⟨S8x18x56x56, .f32⟩ : BufTy).Contents (Elt F)) : (⟨S8x28224x256, .f32⟩ : BufTy).Contents (Elt F) :=
  select (kv_main_call14_v13 (F := F) x1) (kv_main_call14_v12 (F := F) x0 x1) (kv_main_call14_v14 (F := F))

def kv_main_v136 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  shapeCast _ (kv_main_v135 (F := F) x0 x1) shapeCasts_S8x28224x256_S8x56x56x9x256

def kv_main_v137 (x1 : (⟨S8x18x56x56, .f32⟩ : BufTy).Contents (Elt F)) : (⟨S8x56x56x9x1, .i1⟩ : BufTy).Contents (Elt F) :=
  (broadcastInDim S8x56x56x9x1 ![0, 1, 2, 3] bcast_S8x56x56x9_S8x56x56x9x1_0_1_2_3) (kv_main_v128 (F := F) x1)

def kv_main_cst_45 : (⟨S_, .f32⟩ : BufTy).Contents (Elt F) :=
  constant S_ .f32 0x00000000#32

def kv_main_call15_v0 (x1 : (⟨S8x18x56x56, .f32⟩ : BufTy).Contents (Elt F)) : (⟨S8x56x56x9x256, .i1⟩ : BufTy).Contents (Elt F) :=
  (broadcastInDim S8x56x56x9x256 ![0, 1, 2, 3, 4] bcast_S8x56x56x9x1_S8x56x56x9x256_0_1_2_3_4) (kv_main_v137 (F := F) x1)

def kv_main_call15_v1 : (⟨S8x56x56x9x256, .f32⟩ : BufTy).Contents (Elt F) :=
  (broadcastInDim S8x56x56x9x256 ![] bcast_S_S8x56x56x9x256) (kv_main_cst_45 (F := F))

def kv_main_v138 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  select (kv_main_call15_v0 (F := F) x1) (kv_main_v136 (F := F) x0 x1) (kv_main_call15_v1 (F := F))

def kv_main_v139 (x1 : (⟨S8x18x56x56, .f32⟩ : BufTy).Contents (Elt F)) : (⟨S8x56x56x9x1, .f32⟩ : BufTy).Contents (Elt F) :=
  extractStridedSlice S8x56x56x9x1 ![0, 0, 0, 0, 0] (kv_main_v42 (F := F) x1) slices_S8x56x56x9x2_S8x56x56x9x1_0_0_0_0_0

def kv_main_v140 (x1 : (⟨S8x18x56x56, .f32⟩ : BufTy).Contents (Elt F)) : (⟨S8x56x56x9, .f32⟩ : BufTy).Contents (Elt F) :=
  shapeCast _ (kv_main_v139 (F := F) x1) shapeCasts_S8x56x56x9x1_S8x56x56x9

def kv_main_v141 (x1 : (⟨S8x18x56x56, .f32⟩ : BufTy).Contents (Elt F)) : (⟨S8x56x56x9x1, .f32⟩ : BufTy).Contents (Elt F) :=
  (broadcastInDim S8x56x56x9x1 ![0, 1, 2, 3] bcast_S8x56x56x9_S8x56x56x9x1_0_1_2_3) (kv_main_v140 (F := F) x1)

def kv_main_v142 (x1 : (⟨S8x18x56x56, .f32⟩ : BufTy).Contents (Elt F)) : (⟨S8x56x56x9x1, .f32⟩ : BufTy).Contents (Elt F) :=
  extractStridedSlice S8x56x56x9x1 ![0, 0, 0, 0, 1] (kv_main_v42 (F := F) x1) slices_S8x56x56x9x2_S8x56x56x9x1_0_0_0_0_1

def kv_main_v143 (x1 : (⟨S8x18x56x56, .f32⟩ : BufTy).Contents (Elt F)) : (⟨S8x56x56x9, .f32⟩ : BufTy).Contents (Elt F) :=
  shapeCast _ (kv_main_v142 (F := F) x1) shapeCasts_S8x56x56x9x1_S8x56x56x9

def kv_main_v144 (x1 : (⟨S8x18x56x56, .f32⟩ : BufTy).Contents (Elt F)) : (⟨S8x56x56x9x1, .f32⟩ : BufTy).Contents (Elt F) :=
  (broadcastInDim S8x56x56x9x1 ![0, 1, 2, 3] bcast_S8x56x56x9_S8x56x56x9x1_0_1_2_3) (kv_main_v143 (F := F) x1)

def kv_main_v145 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  subf (kv_main_v117 (F := F) x0 x1) (kv_main_v75 (F := F) x0 x1)

def kv_main_v146 (x1 : (⟨S8x18x56x56, .f32⟩ : BufTy).Contents (Elt F)) : (⟨S8x56x56x9x256, .f32⟩ : BufTy).Contents (Elt F) :=
  (broadcastInDim S8x56x56x9x256 ![0, 1, 2, 3, 4] bcast_S8x56x56x9x1_S8x56x56x9x256_0_1_2_3_4) (kv_main_v144 (F := F) x1)

def kv_main_v147 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  mulf (kv_main_v146 (F := F) x1) (kv_main_v145 (F := F) x0 x1)

def kv_main_v148 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  addf (kv_main_v75 (F := F) x0 x1) (kv_main_v147 (F := F) x0 x1)

def kv_main_v149 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  subf (kv_main_v96 (F := F) x0 x1) (kv_main_v138 (F := F) x0 x1)

def kv_main_v150 (x1 : (⟨S8x18x56x56, .f32⟩ : BufTy).Contents (Elt F)) : (⟨S8x56x56x9x256, .f32⟩ : BufTy).Contents (Elt F) :=
  (broadcastInDim S8x56x56x9x256 ![0, 1, 2, 3, 4] bcast_S8x56x56x9x1_S8x56x56x9x256_0_1_2_3_4) (kv_main_v144 (F := F) x1)

def kv_main_v151 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  mulf (kv_main_v150 (F := F) x1) (kv_main_v149 (F := F) x0 x1)

def kv_main_v152 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  addf (kv_main_v138 (F := F) x0 x1) (kv_main_v151 (F := F) x0 x1)

def kv_main_v153 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  subf (kv_main_v152 (F := F) x0 x1) (kv_main_v148 (F := F) x0 x1)

def kv_main_v154 (x1 : (⟨S8x18x56x56, .f32⟩ : BufTy).Contents (Elt F)) : (⟨S8x56x56x9x256, .f32⟩ : BufTy).Contents (Elt F) :=
  (broadcastInDim S8x56x56x9x256 ![0, 1, 2, 3, 4] bcast_S8x56x56x9x1_S8x56x56x9x256_0_1_2_3_4) (kv_main_v141 (F := F) x1)

def kv_main_v155 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  mulf (kv_main_v154 (F := F) x1) (kv_main_v153 (F := F) x0 x1)

def kv_main_v156 (x0 : (⟨S8x256x56x56, .f32⟩ : BufTy).Contents (Elt F)) (x1 : (⟨S8x18x56x56, .f32⟩ : BufTy).Contents (Elt F)) : (⟨S8x56x56x9x256, .f32⟩ : BufTy).Contents (Elt F) :=
  addf (kv_main_v148 (F := F) x0 x1) (kv_main_v155 (F := F) x0 x1)

def kv_main_v157 (x2 : (⟨S8x9x56x56, .f32⟩ : BufTy).Contents (Elt F)) : (⟨S8x56x56x9, .f32⟩ : BufTy).Contents (Elt F) :=
  transpose S8x56x56x9 [0, 2, 3, 1] x2 transposes_S8x9x56x56_S8x56x56x9_0_2_3_1

def kv_main_v158 (x2 : (⟨S8x9x56x56, .f32⟩ : BufTy).Contents (Elt F)) : (⟨S8x56x56x9x1, .f32⟩ : BufTy).Contents (Elt F) :=
  (broadcastInDim S8x56x56x9x1 ![0, 1, 2, 3] bcast_S8x56x56x9_S8x56x56x9x1_0_1_2_3) (kv_main_v157 (F := F) x2)

def kv_main_v159 (x2 : (⟨S8x9x56x56, .f32⟩ : BufTy).Contents (Elt F)) : (⟨S8x56x56x9x256, .f32⟩ : BufTy).Contents (Elt F) :=
  (broadcastInDim S8x56x56x9x256 ![0, 1, 2, 3, 4] bcast_S8x56x56x9x1_S8x56x56x9x256_0_1_2_3_4) (kv_main_v158 (F := F) x2)

def kv_main_v160 (x0 : (⟨S8x256x56x56, .f32⟩ : BufTy).Contents (Elt F)) (x1 : (⟨S8x18x56x56, .f32⟩ : BufTy).Contents (Elt F)) (x2 : (⟨S8x9x56x56, .f32⟩ : BufTy).Contents (Elt F)) : (⟨S8x56x56x9x256, .f32⟩ : BufTy).Contents (Elt F) :=
  mulf (kv_main_v156 (F := F) x0 x1) (kv_main_v159 (F := F) x2)

def kv_main_v161 (x0 : (⟨S8x256x56x56, .f32⟩ : BufTy).Contents (Elt F)) (x1 : (⟨S8x18x56x56, .f32⟩ : BufTy).Contents (Elt F)) (x2 : (⟨S8x9x56x56, .f32⟩ : BufTy).Contents (Elt F)) : (⟨S8x3136x2304, .f32⟩ : BufTy).Contents (Elt F) :=
  shapeCast _ (kv_main_v160 (F := F) x0 x1 x2) shapeCasts_S8x56x56x9x256_S8x3136x2304

def kv_main_v162 (x3 : (⟨S256x256x3x3, .f32⟩ : BufTy).Contents (Elt F)) : (⟨S3x3x256x256, .f32⟩ : BufTy).Contents (Elt F) :=
  transpose S3x3x256x256 [2, 3, 1, 0] x3 transposes_S256x256x3x3_S3x3x256x256_2_3_1_0

def kv_main_v163 (x3 : (⟨S256x256x3x3, .f32⟩ : BufTy).Contents (Elt F)) : (⟨S2304x256, .f32⟩ : BufTy).Contents (Elt F) :=
  shapeCast _ (kv_main_v162 (F := F) x3) shapeCasts_S3x3x256x256_S2304x256

def kv_main_v164 (x0 : (⟨S8x256x56x56, .f32⟩ : BufTy).Contents (Elt F)) (x1 : (⟨S8x18x56x56, .f32⟩ : BufTy).Contents (Elt F)) (x2 : (⟨S8x9x56x56, .f32⟩ : BufTy).Contents (Elt F)) : (⟨S8x3136x2304, .bf16⟩ : BufTy).Contents (Elt F) :=
  truncf .bf16 (kv_main_v161 (F := F) x0 x1 x2) bitsLt_bf16_f32

def kv_main_v165 (x3 : (⟨S256x256x3x3, .f32⟩ : BufTy).Contents (Elt F)) : (⟨S2304x256, .bf16⟩ : BufTy).Contents (Elt F) :=
  truncf .bf16 (kv_main_v163 (F := F) x3) bitsLt_bf16_f32

def kv_main_v166 (x4 : (⟨S256, .f32⟩ : BufTy).Contents (Elt F)) : (⟨S1x256, .f32⟩ : BufTy).Contents (Elt F) :=
  shapeCast _ x4 shapeCasts_S256_S1x256

end Cert.KernelIdeal.KVal

end
-- ==== Proof.KPre.lean ====
/- (run in the unit directory; the script is filed with the unit, in its scratch/ directory). The host operations before the region,
   stretch by stretch as the generated launch module cuts them: a valuation that holds, at every buffer still read
   later, the stage KVal.lean names for it, still does after the stretch's operations; chained over the 33 stretches
   from the launch contents this gives the three arrays the region reads as KVal's stages of the arguments. -/
import proofs.«412700_j5961414607249_3_alg».proof.Proof.Gen.KernelIdeal.Frame
import proofs.«412700_j5961414607249_3_alg».proof.Proof.KVal
import Idealize.ShloMosaic.Lib.StableHlo.Run
import Idealize.ShloMosaic.Lib.Pipeline.Frame

noncomputable section

open Idealize.ShloMosaic Idealize.ShloMosaic.TcCoe Idealize.SL.Sem Idealize.ShloMosaic.StableHlo

namespace Cert.KernelIdeal.KPre

open Cert.KernelIdeal Cert.KernelIdeal.Gen Cert.KernelIdeal.KVal

variable {F : FTy → Type} [FloatOps F]

set_option maxHeartbeats 4000000 in
/-- Stretch 0 of the host operations before the region keeps every live buffer at its stage. -/
theorem st0 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) :
    after (hostOps0 : List (HloOp τ sig (Elt F))) W (Proc.devRef .tc main_arg2) = x2 ∧ after (hostOps0 : List (HloOp τ sig (Elt F))) W (Proc.devRef .tc main_arg3) = x3 ∧ after (hostOps0 : List (HloOp τ sig (Elt F))) W (Proc.devRef .tc main_arg4) = x4 ∧ after (hostOps0 : List (HloOp τ sig (Elt F))) W (Proc.devRef .tc main_v42) = kv_main_v42 (F := F) x1 ∧ after (hostOps0 : List (HloOp τ sig (Elt F))) W (Proc.devRef .tc main_v45) = kv_main_v45 (F := F) x1 ∧ after (hostOps0 : List (HloOp τ sig (Elt F))) W (Proc.devRef .tc main_v48) = kv_main_v48 (F := F) x1 ∧ after (hostOps0 : List (HloOp τ sig (Elt F))) W (Proc.devRef .tc main_v50) = kv_main_v50 (F := F) x1 ∧ after (hostOps0 : List (HloOp τ sig (Elt F))) W (Proc.devRef .tc main_v52) = kv_main_v52 (F := F) x1 ∧ after (hostOps0 : List (HloOp τ sig (Elt F))) W (Proc.devRef .tc main_v54) = kv_main_v54 (F := F) x0 ∧ after (hostOps0 : List (HloOp τ sig (Elt F))) W (Proc.devRef .tc main_v65) = kv_main_v65 (F := F) x1 ∧ after (hostOps0 : List (HloOp τ sig (Elt F))) W (Proc.devRef .tc main_c_11) = kv_main_c_11 (F := F) ∧ after (hostOps0 : List (HloOp τ sig (Elt F))) W (Proc.devRef .tc main_c_12) = kv_main_c_12 (F := F) := by
  refine ⟨?_, ?_, ?_, ?_, ?_, ?_, ?_, ?_, ?_, ?_, ?_, ?_⟩ <;>
    (simp only [hostOps0]; after_results_simp <;> (try simp only [TRef.ofBuf, TRef.toBuf, cast_eq]) <;> (try simp only [h_main_arg0, h_main_arg1, h_main_arg2, h_main_arg3, h_main_arg4]) <;> rfl)

set_option maxHeartbeats 4000000 in
/-- Stretch 1 of the host operations before the region keeps every live buffer at its stage. -/
theorem st1 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v65 : W (Proc.devRef .tc main_v65) = kv_main_v65 (F := F) x1) (h_main_c_11 : W (Proc.devRef .tc main_c_11) = kv_main_c_11 (F := F)) (h_main_c_12 : W (Proc.devRef .tc main_c_12) = kv_main_c_12 (F := F)) :
    after (hostOps0_1 : List (HloOp τ sig (Elt F))) W (Proc.devRef .tc main_arg2) = x2 ∧ after (hostOps0_1 : List (HloOp τ sig (Elt F))) W (Proc.devRef .tc main_arg3) = x3 ∧ after (hostOps0_1 : List (HloOp τ sig (Elt F))) W (Proc.devRef .tc main_arg4) = x4 ∧ after (hostOps0_1 : List (HloOp τ sig (Elt F))) W (Proc.devRef .tc main_v42) = kv_main_v42 (F := F) x1 ∧ after (hostOps0_1 : List (HloOp τ sig (Elt F))) W (Proc.devRef .tc main_v45) = kv_main_v45 (F := F) x1 ∧ after (hostOps0_1 : List (HloOp τ sig (Elt F))) W (Proc.devRef .tc main_v48) = kv_main_v48 (F := F) x1 ∧ after (hostOps0_1 : List (HloOp τ sig (Elt F))) W (Proc.devRef .tc main_v50) = kv_main_v50 (F := F) x1 ∧ after (hostOps0_1 : List (HloOp τ sig (Elt F))) W (Proc.devRef .tc main_v52) = kv_main_v52 (F := F) x1 ∧ after (hostOps0_1 : List (HloOp τ sig (Elt F))) W (Proc.devRef .tc main_v54) = kv_main_v54 (F := F) x0 ∧ after (hostOps0_1 : List (HloOp τ sig (Elt F))) W (Proc.devRef .tc main_v65) = kv_main_v65 (F := F) x1 ∧ after (hostOps0_1 : List (HloOp τ sig (Elt F))) W (Proc.devRef .tc main_v66) = kv_main_v66 (F := F) x1 := by
  refine ⟨?_, ?_, ?_, ?_, ?_, ?_, ?_, ?_, ?_, ?_, ?_⟩ <;>
    (simp only [hostOps0_1]; after_results_simp <;> (try simp only [TRef.ofBuf, TRef.toBuf, cast_eq]) <;> (try simp only [h_main_arg2, h_main_arg3, h_main_arg4, h_main_v42, h_main_v45, h_main_v48, h_main_v50, h_main_v52, h_main_v54, h_main_v65, h_main_c_11, h_main_c_12]) <;> rfl)

set_option maxHeartbeats 4000000 in
/-- Stretch 2 of the host operations before the region keeps every live buffer at its stage. -/
theorem st2 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v65 : W (Proc.devRef .tc main_v65) = kv_main_v65 (F := F) x1) (h_main_v66 : W (Proc.devRef .tc main_v66) = kv_main_v66 (F := F) x1) :
    after (hostOps0_2 : List (HloOp τ sig (Elt F))) W (Proc.devRef .tc main_arg2) = x2 ∧ after (hostOps0_2 : List (HloOp τ sig (Elt F))) W (Proc.devRef .tc main_arg3) = x3 ∧ after (hostOps0_2 : List (HloOp τ sig (Elt F))) W (Proc.devRef .tc main_arg4) = x4 ∧ after (hostOps0_2 : List (HloOp τ sig (Elt F))) W (Proc.devRef .tc main_v42) = kv_main_v42 (F := F) x1 ∧ after (hostOps0_2 : List (HloOp τ sig (Elt F))) W (Proc.devRef .tc main_v45) = kv_main_v45 (F := F) x1 ∧ after (hostOps0_2 : List (HloOp τ sig (Elt F))) W (Proc.devRef .tc main_v48) = kv_main_v48 (F := F) x1 ∧ after (hostOps0_2 : List (HloOp τ sig (Elt F))) W (Proc.devRef .tc main_v50) = kv_main_v50 (F := F) x1 ∧ after (hostOps0_2 : List (HloOp τ sig (Elt F))) W (Proc.devRef .tc main_v52) = kv_main_v52 (F := F) x1 ∧ after (hostOps0_2 : List (HloOp τ sig (Elt F))) W (Proc.devRef .tc main_v54) = kv_main_v54 (F := F) x0 ∧ after (hostOps0_2 : List (HloOp τ sig (Elt F))) W (Proc.devRef .tc main_v65) = kv_main_v65 (F := F) x1 ∧ after (hostOps0_2 : List (HloOp τ sig (Elt F))) W (Proc.devRef .tc main_v68) = kv_main_v68 (F := F) x1 ∧ after (hostOps0_2 : List (HloOp τ sig (Elt F))) W (Proc.devRef .tc main_c_14) = kv_main_c_14 (F := F) ∧ after (hostOps0_2 : List (HloOp τ sig (Elt F))) W (Proc.devRef .tc main_c_15) = kv_main_c_15 (F := F) := by
  refine ⟨?_, ?_, ?_, ?_, ?_, ?_, ?_, ?_, ?_, ?_, ?_, ?_, ?_⟩ <;>
    (simp only [hostOps0_2]; after_results_simp <;> (try simp only [TRef.ofBuf, TRef.toBuf, cast_eq]) <;> (try simp only [h_main_arg2, h_main_arg3, h_main_arg4, h_main_v42, h_main_v45, h_main_v48, h_main_v50, h_main_v52, h_main_v54, h_main_v65, h_main_v66]) <;> rfl)

set_option maxHeartbeats 4000000 in
/-- Stretch 3 of the host operations before the region keeps every live buffer at its stage. -/
theorem st3 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v65 : W (Proc.devRef .tc main_v65) = kv_main_v65 (F := F) x1) (h_main_v68 : W (Proc.devRef .tc main_v68) = kv_main_v68 (F := F) x1) (h_main_c_14 : W (Proc.devRef .tc main_c_14) = kv_main_c_14 (F := F)) (h_main_c_15 : W (Proc.devRef .tc main_c_15) = kv_main_c_15 (F := F)) :
    after (hostOps0_3 : List (HloOp τ sig (Elt F))) W (Proc.devRef .tc main_arg2) = x2 ∧ after (hostOps0_3 : List (HloOp τ sig (Elt F))) W (Proc.devRef .tc main_arg3) = x3 ∧ after (hostOps0_3 : List (HloOp τ sig (Elt F))) W (Proc.devRef .tc main_arg4) = x4 ∧ after (hostOps0_3 : List (HloOp τ sig (Elt F))) W (Proc.devRef .tc main_v42) = kv_main_v42 (F := F) x1 ∧ after (hostOps0_3 : List (HloOp τ sig (Elt F))) W (Proc.devRef .tc main_v45) = kv_main_v45 (F := F) x1 ∧ after (hostOps0_3 : List (HloOp τ sig (Elt F))) W (Proc.devRef .tc main_v48) = kv_main_v48 (F := F) x1 ∧ after (hostOps0_3 : List (HloOp τ sig (Elt F))) W (Proc.devRef .tc main_v50) = kv_main_v50 (F := F) x1 ∧ after (hostOps0_3 : List (HloOp τ sig (Elt F))) W (Proc.devRef .tc main_v52) = kv_main_v52 (F := F) x1 ∧ after (hostOps0_3 : List (HloOp τ sig (Elt F))) W (Proc.devRef .tc main_v54) = kv_main_v54 (F := F) x0 ∧ after (hostOps0_3 : List (HloOp τ sig (Elt F))) W (Proc.devRef .tc main_v65) = kv_main_v65 (F := F) x1 ∧ after (hostOps0_3 : List (HloOp τ sig (Elt F))) W (Proc.devRef .tc main_v68) = kv_main_v68 (F := F) x1 ∧ after (hostOps0_3 : List (HloOp τ sig (Elt F))) W (Proc.devRef .tc main_v69) = kv_main_v69 (F := F) x1 := by
  refine ⟨?_, ?_, ?_, ?_, ?_, ?_, ?_, ?_, ?_, ?_, ?_, ?_⟩ <;>
    (simp only [hostOps0_3]; after_results_simp <;> (try simp only [TRef.ofBuf, TRef.toBuf, cast_eq]) <;> (try simp only [h_main_arg2, h_main_arg3, h_main_arg4, h_main_v42, h_main_v45, h_main_v48, h_main_v50, h_main_v52, h_main_v54, h_main_v65, h_main_v68, h_main_c_14, h_main_c_15]) <;> rfl)

set_option maxHeartbeats 4000000 in
/-- Stretch 4 of the host operations before the region keeps every live buffer at its stage. -/
theorem st4 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v65 : W (Proc.devRef .tc main_v65) = kv_main_v65 (F := F) x1) (h_main_v68 : W (Proc.devRef .tc main_v68) = kv_main_v68 (F := F) x1) (h_main_v69 : W (Proc.devRef .tc main_v69) = kv_main_v69 (F := F) x1) :
    after (hostOps0_4 : List (HloOp τ sig (Elt F))) W (Proc.devRef .tc main_arg2) = x2 ∧ after (hostOps0_4 : List (HloOp τ sig (Elt F))) W (Proc.devRef .tc main_arg3) = x3 ∧ after (hostOps0_4 : List (HloOp τ sig (Elt F))) W (Proc.devRef .tc main_arg4) = x4 ∧ after (hostOps0_4 : List (HloOp τ sig (Elt F))) W (Proc.devRef .tc main_v42) = kv_main_v42 (F := F) x1 ∧ after (hostOps0_4 : List (HloOp τ sig (Elt F))) W (Proc.devRef .tc main_v45) = kv_main_v45 (F := F) x1 ∧ after (hostOps0_4 : List (HloOp τ sig (Elt F))) W (Proc.devRef .tc main_v48) = kv_main_v48 (F := F) x1 ∧ after (hostOps0_4 : List (HloOp τ sig (Elt F))) W (Proc.devRef .tc main_v50) = kv_main_v50 (F := F) x1 ∧ after (hostOps0_4 : List (HloOp τ sig (Elt F))) W (Proc.devRef .tc main_v52) = kv_main_v52 (F := F) x1 ∧ after (hostOps0_4 : List (HloOp τ sig (Elt F))) W (Proc.devRef .tc main_v54) = kv_main_v54 (F := F) x0 ∧ after (hostOps0_4 : List (HloOp τ sig (Elt F))) W (Proc.devRef .tc main_v65) = kv_main_v65 (F := F) x1 ∧ after (hostOps0_4 : List (HloOp τ sig (Elt F))) W (Proc.devRef .tc main_v71) = kv_main_v71 (F := F) x1 := by
  refine ⟨?_, ?_, ?_, ?_, ?_, ?_, ?_, ?_, ?_, ?_, ?_⟩ <;>
    (simp only [hostOps0_4]; after_results_simp <;> (try simp only [TRef.ofBuf, TRef.toBuf, cast_eq]) <;> (try simp only [h_main_arg2, h_main_arg3, h_main_arg4, h_main_v42, h_main_v45, h_main_v48, h_main_v50, h_main_v52, h_main_v54, h_main_v65, h_main_v68, h_main_v69]) <;> rfl)

set_option maxHeartbeats 4000000 in
/-- Stretch 5 of the host operations before the region keeps every live buffer at its stage. -/
theorem st5 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v65 : W (Proc.devRef .tc main_v65) = kv_main_v65 (F := F) x1) (h_main_v71 : W (Proc.devRef .tc main_v71) = kv_main_v71 (F := F) x1) :
    after (hostOps0_5 : List (HloOp τ sig (Elt F))) W (Proc.devRef .tc main_arg2) = x2 ∧ after (hostOps0_5 : List (HloOp τ sig (Elt F))) W (Proc.devRef .tc main_arg3) = x3 ∧ after (hostOps0_5 : List (HloOp τ sig (Elt F))) W (Proc.devRef .tc main_arg4) = x4 ∧ after (hostOps0_5 : List (HloOp τ sig (Elt F))) W (Proc.devRef .tc main_v42) = kv_main_v42 (F := F) x1 ∧ after (hostOps0_5 : List (HloOp τ sig (Elt F))) W (Proc.devRef .tc main_v45) = kv_main_v45 (F := F) x1 ∧ after (hostOps0_5 : List (HloOp τ sig (Elt F))) W (Proc.devRef .tc main_v48) = kv_main_v48 (F := F) x1 ∧ after (hostOps0_5 : List (HloOp τ sig (Elt F))) W (Proc.devRef .tc main_v50) = kv_main_v50 (F := F) x1 ∧ after (hostOps0_5 : List (HloOp τ sig (Elt F))) W (Proc.devRef .tc main_v52) = kv_main_v52 (F := F) x1 ∧ after (hostOps0_5 : List (HloOp τ sig (Elt F))) W (Proc.devRef .tc main_v54) = kv_main_v54 (F := F) x0 ∧ after (hostOps0_5 : List (HloOp τ sig (Elt F))) W (Proc.devRef .tc main_v65) = kv_main_v65 (F := F) x1 ∧ after (hostOps0_5 : List (HloOp τ sig (Elt F))) W (Proc.devRef .tc main_v72) = kv_main_v72 (F := F) x0 x1 := by
  refine ⟨?_, ?_, ?_, ?_, ?_, ?_, ?_, ?_, ?_, ?_, ?_⟩ <;>
    (simp only [hostOps0_5]; after_results_simp <;> (try simp only [TRef.ofBuf, TRef.toBuf, cast_eq]) <;> (try simp only [h_main_arg2, h_main_arg3, h_main_arg4, h_main_v42, h_main_v45, h_main_v48, h_main_v50, h_main_v52, h_main_v54, h_main_v65, h_main_v71]) <;> rfl)

set_option maxHeartbeats 4000000 in
/-- Stretch 6 of the host operations before the region keeps every live buffer at its stage. -/
theorem st6 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v65 : W (Proc.devRef .tc main_v65) = kv_main_v65 (F := F) x1) (h_main_v72 : W (Proc.devRef .tc main_v72) = kv_main_v72 (F := F) x0 x1) :
    after (hostOps0_6 : List (HloOp τ sig (Elt F))) W (Proc.devRef .tc main_arg2) = x2 ∧ after (hostOps0_6 : List (HloOp τ sig (Elt F))) W (Proc.devRef .tc main_arg3) = x3 ∧ after (hostOps0_6 : List (HloOp τ sig (Elt F))) W (Proc.devRef .tc main_arg4) = x4 ∧ after (hostOps0_6 : List (HloOp τ sig (Elt F))) W (Proc.devRef .tc main_v42) = kv_main_v42 (F := F) x1 ∧ after (hostOps0_6 : List (HloOp τ sig (Elt F))) W (Proc.devRef .tc main_v45) = kv_main_v45 (F := F) x1 ∧ after (hostOps0_6 : List (HloOp τ sig (Elt F))) W (Proc.devRef .tc main_v48) = kv_main_v48 (F := F) x1 ∧ after (hostOps0_6 : List (HloOp τ sig (Elt F))) W (Proc.devRef .tc main_v50) = kv_main_v50 (F := F) x1 ∧ after (hostOps0_6 : List (HloOp τ sig (Elt F))) W (Proc.devRef .tc main_v52) = kv_main_v52 (F := F) x1 ∧ after (hostOps0_6 : List (HloOp τ sig (Elt F))) W (Proc.devRef .tc main_v54) = kv_main_v54 (F := F) x0 ∧ after (hostOps0_6 : List (HloOp τ sig (Elt F))) W (Proc.devRef .tc main_v73) = kv_main_v73 (F := F) x0 x1 ∧ after (hostOps0_6 : List (HloOp τ sig (Elt F))) W (Proc.devRef .tc main_v74) = kv_main_v74 (F := F) x1 ∧ after (hostOps0_6 : List (HloOp τ sig (Elt F))) W (Proc.devRef .tc main_cst) = kv_main_cst (F := F) := by
  refine ⟨?_, ?_, ?_, ?_, ?_, ?_, ?_, ?_, ?_, ?_, ?_, ?_⟩ <;>
    (simp only [hostOps0_6]; after_results_simp <;> (try simp only [TRef.ofBuf, TRef.toBuf, cast_eq]) <;> (try simp only [h_main_arg2, h_main_arg3, h_main_arg4, h_main_v42, h_main_v45, h_main_v48, h_main_v50, h_main_v52, h_main_v54, h_main_v65, h_main_v72]) <;> rfl)

set_option maxHeartbeats 4000000 in
/-- Stretch 7 of the host operations before the region keeps every live buffer at its stage. -/
theorem st7 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v73 : W (Proc.devRef .tc main_v73) = kv_main_v73 (F := F) x0 x1) (h_main_v74 : W (Proc.devRef .tc main_v74) = kv_main_v74 (F := F) x1) (h_main_cst : W (Proc.devRef .tc main_cst) = kv_main_cst (F := F)) :
    after (hostOps0_7 : List (HloOp τ sig (Elt F))) W (Proc.devRef .tc main_arg2) = x2 ∧ after (hostOps0_7 : List (HloOp τ sig (Elt F))) W (Proc.devRef .tc main_arg3) = x3 ∧ after (hostOps0_7 : List (HloOp τ sig (Elt F))) W (Proc.devRef .tc main_arg4) = x4 ∧ after (hostOps0_7 : List (HloOp τ sig (Elt F))) W (Proc.devRef .tc main_v42) = kv_main_v42 (F := F) x1 ∧ after (hostOps0_7 : List (HloOp τ sig (Elt F))) W (Proc.devRef .tc main_v45) = kv_main_v45 (F := F) x1 ∧ after (hostOps0_7 : List (HloOp τ sig (Elt F))) W (Proc.devRef .tc main_v48) = kv_main_v48 (F := F) x1 ∧ after (hostOps0_7 : List (HloOp τ sig (Elt F))) W (Proc.devRef .tc main_v50) = kv_main_v50 (F := F) x1 ∧ after (hostOps0_7 : List (HloOp τ sig (Elt F))) W (Proc.devRef .tc main_v52) = kv_main_v52 (F := F) x1 ∧ after (hostOps0_7 : List (HloOp τ sig (Elt F))) W (Proc.devRef .tc main_v54) = kv_main_v54 (F := F) x0 ∧ after (hostOps0_7 : List (HloOp τ sig (Elt F))) W (Proc.devRef .tc main_v75) = kv_main_v75 (F := F) x0 x1 := by
  refine ⟨?_, ?_, ?_, ?_, ?_, ?_, ?_, ?_, ?_, ?_⟩ <;>
    (simp only [hostOps0_7]; after_results_simp <;> (try simp only [TRef.ofBuf, TRef.toBuf, cast_eq]) <;> (try simp only [h_main_arg2, h_main_arg3, h_main_arg4, h_main_v42, h_main_v45, h_main_v48, h_main_v50, h_main_v52, h_main_v54, h_main_v73, h_main_v74, h_main_cst]) <;> rfl)

set_option maxHeartbeats 4000000 in
/-- Stretch 8 of the host operations before the region keeps every live buffer at its stage. -/
theorem st8 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) :
    after (hostOps0_8 : List (HloOp τ sig (Elt F))) W (Proc.devRef .tc main_arg2) = x2 ∧ after (hostOps0_8 : List (HloOp τ sig (Elt F))) W (Proc.devRef .tc main_arg3) = x3 ∧ after (hostOps0_8 : List (HloOp τ sig (Elt F))) W (Proc.devRef .tc main_arg4) = x4 ∧ after (hostOps0_8 : List (HloOp τ sig (Elt F))) W (Proc.devRef .tc main_v42) = kv_main_v42 (F := F) x1 ∧ after (hostOps0_8 : List (HloOp τ sig (Elt F))) W (Proc.devRef .tc main_v45) = kv_main_v45 (F := F) x1 ∧ after (hostOps0_8 : List (HloOp τ sig (Elt F))) W (Proc.devRef .tc main_v48) = kv_main_v48 (F := F) x1 ∧ after (hostOps0_8 : List (HloOp τ sig (Elt F))) W (Proc.devRef .tc main_v50) = kv_main_v50 (F := F) x1 ∧ after (hostOps0_8 : List (HloOp τ sig (Elt F))) W (Proc.devRef .tc main_v52) = kv_main_v52 (F := F) x1 ∧ after (hostOps0_8 : List (HloOp τ sig (Elt F))) W (Proc.devRef .tc main_v54) = kv_main_v54 (F := F) x0 ∧ after (hostOps0_8 : List (HloOp τ sig (Elt F))) W (Proc.devRef .tc main_v75) = kv_main_v75 (F := F) x0 x1 ∧ after (hostOps0_8 : List (HloOp τ sig (Elt F))) W (Proc.devRef .tc main_v86) = kv_main_v86 (F := F) x1 ∧ after (hostOps0_8 : List (HloOp τ sig (Elt F))) W (Proc.devRef .tc main_c_20) = kv_main_c_20 (F := F) ∧ after (hostOps0_8 : List (HloOp τ sig (Elt F))) W (Proc.devRef .tc main_c_21) = kv_main_c_21 (F := F) := by
  refine ⟨?_, ?_, ?_, ?_, ?_, ?_, ?_, ?_, ?_, ?_, ?_, ?_, ?_⟩ <;>
    (simp only [hostOps0_8]; after_results_simp <;> (try simp only [TRef.ofBuf, TRef.toBuf, cast_eq]) <;> (try simp only [h_main_arg2, h_main_arg3, h_main_arg4, h_main_v42, h_main_v45, h_main_v48, h_main_v50, h_main_v52, h_main_v54, h_main_v75]) <;> rfl)

set_option maxHeartbeats 4000000 in
/-- Stretch 9 of the host operations before the region keeps every live buffer at its stage. -/
theorem st9 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v86 : W (Proc.devRef .tc main_v86) = kv_main_v86 (F := F) x1) (h_main_c_20 : W (Proc.devRef .tc main_c_20) = kv_main_c_20 (F := F)) (h_main_c_21 : W (Proc.devRef .tc main_c_21) = kv_main_c_21 (F := F)) :
    after (hostOps0_9 : List (HloOp τ sig (Elt F))) W (Proc.devRef .tc main_arg2) = x2 ∧ after (hostOps0_9 : List (HloOp τ sig (Elt F))) W (Proc.devRef .tc main_arg3) = x3 ∧ after (hostOps0_9 : List (HloOp τ sig (Elt F))) W (Proc.devRef .tc main_arg4) = x4 ∧ after (hostOps0_9 : List (HloOp τ sig (Elt F))) W (Proc.devRef .tc main_v42) = kv_main_v42 (F := F) x1 ∧ after (hostOps0_9 : List (HloOp τ sig (Elt F))) W (Proc.devRef .tc main_v45) = kv_main_v45 (F := F) x1 ∧ after (hostOps0_9 : List (HloOp τ sig (Elt F))) W (Proc.devRef .tc main_v48) = kv_main_v48 (F := F) x1 ∧ after (hostOps0_9 : List (HloOp τ sig (Elt F))) W (Proc.devRef .tc main_v50) = kv_main_v50 (F := F) x1 ∧ after (hostOps0_9 : List (HloOp τ sig (Elt F))) W (Proc.devRef .tc main_v52) = kv_main_v52 (F := F) x1 ∧ after (hostOps0_9 : List (HloOp τ sig (Elt F))) W (Proc.devRef .tc main_v54) = kv_main_v54 (F := F) x0 ∧ after (hostOps0_9 : List (HloOp τ sig (Elt F))) W (Proc.devRef .tc main_v75) = kv_main_v75 (F := F) x0 x1 ∧ after (hostOps0_9 : List (HloOp τ sig (Elt F))) W (Proc.devRef .tc main_v86) = kv_main_v86 (F := F) x1 ∧ after (hostOps0_9 : List (HloOp τ sig (Elt F))) W (Proc.devRef .tc main_v87) = kv_main_v87 (F := F) x1 := by
  refine ⟨?_, ?_, ?_, ?_, ?_, ?_, ?_, ?_, ?_, ?_, ?_, ?_⟩ <;>
    (simp only [hostOps0_9]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v86, h_main_c_20, h_main_c_21]) <;> rfl)

set_option maxHeartbeats 4000000 in
/-- Stretch 10 of the host operations before the region keeps every live buffer at its stage. -/
theorem st10 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v86 : W (Proc.devRef .tc main_v86) = kv_main_v86 (F := F) x1) (h_main_v87 : W (Proc.devRef .tc main_v87) = kv_main_v87 (F := F) x1) :
    after (hostOps0_10 : List (HloOp τ sig (Elt F))) W (Proc.devRef .tc main_arg2) = x2 ∧ after (hostOps0_10 : List (HloOp τ sig (Elt F))) W (Proc.devRef .tc main_arg3) = x3 ∧ after (hostOps0_10 : List (HloOp τ sig (Elt F))) W (Proc.devRef .tc main_arg4) = x4 ∧ after (hostOps0_10 : List (HloOp τ sig (Elt F))) W (Proc.devRef .tc main_v42) = kv_main_v42 (F := F) x1 ∧ after (hostOps0_10 : List (HloOp τ sig (Elt F))) W (Proc.devRef .tc main_v45) = kv_main_v45 (F := F) x1 ∧ after (hostOps0_10 : List (HloOp τ sig (Elt F))) W (Proc.devRef .tc main_v48) = kv_main_v48 (F := F) x1 ∧ after (hostOps0_10 : List (HloOp τ sig (Elt F))) W (Proc.devRef .tc main_v50) = kv_main_v50 (F := F) x1 ∧ after (hostOps0_10 : List (HloOp τ sig (Elt F))) W (Proc.devRef .tc main_v52) = kv_main_v52 (F := F) x1 ∧ after (hostOps0_10 : List (HloOp τ sig (Elt F))) W (Proc.devRef .tc main_v54) = kv_main_v54 (F := F) x0 ∧ after (hostOps0_10 : List (HloOp τ sig (Elt F))) W (Proc.devRef .tc main_v75) = kv_main_v75 (F := F) x0 x1 ∧ after (hostOps0_10 : List (HloOp τ sig (Elt F))) W (Proc.devRef .tc main_v86) = kv_main_v86 (F := F) x1 ∧ after (hostOps0_10 : List (HloOp τ sig (Elt F))) W (Proc.devRef .tc main_v89) = kv_main_v89 (F := F) x1 ∧ after (hostOps0_10 : List (HloOp τ sig (Elt F))) W (Proc.devRef .tc main_c_23) = kv_main_c_23 (F := F) ∧ after (hostOps0_10 : List (HloOp τ sig (Elt F))) W (Proc.devRef .tc main_c_24) = kv_main_c_24 (F := F) := by
  refine ⟨?_, ?_, ?_, ?_, ?_, ?_, ?_, ?_, ?_, ?_, ?_, ?_, ?_, ?_⟩ <;>
    (simp only [hostOps0_10]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v86, h_main_v87]) <;> rfl)

set_option maxHeartbeats 4000000 in
/-- Stretch 11 of the host operations before the region keeps every live buffer at its stage. -/
theorem st11 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v86 : W (Proc.devRef .tc main_v86) = kv_main_v86 (F := F) x1) (h_main_v89 : W (Proc.devRef .tc main_v89) = kv_main_v89 (F := F) x1) (h_main_c_23 : W (Proc.devRef .tc main_c_23) = kv_main_c_23 (F := F)) (h_main_c_24 : W (Proc.devRef .tc main_c_24) = kv_main_c_24 (F := F)) :
    after (hostOps0_11 : List (HloOp τ sig (Elt F))) W (Proc.devRef .tc main_arg2) = x2 ∧ after (hostOps0_11 : List (HloOp τ sig (Elt F))) W (Proc.devRef .tc main_arg3) = x3 ∧ after (hostOps0_11 : List (HloOp τ sig (Elt F))) W (Proc.devRef .tc main_arg4) = x4 ∧ after (hostOps0_11 : List (HloOp τ sig (Elt F))) W (Proc.devRef .tc main_v42) = kv_main_v42 (F := F) x1 ∧ after (hostOps0_11 : List (HloOp τ sig (Elt F))) W (Proc.devRef .tc main_v45) = kv_main_v45 (F := F) x1 ∧ after (hostOps0_11 : List (HloOp τ sig (Elt F))) W (Proc.devRef .tc main_v48) = kv_main_v48 (F := F) x1 ∧ after (hostOps0_11 : List (HloOp τ sig (Elt F))) W (Proc.devRef .tc main_v50) = kv_main_v50 (F := F) x1 ∧ after (hostOps0_11 : List (HloOp τ sig (Elt F))) W (Proc.devRef .tc main_v52) = kv_main_v52 (F := F) x1 ∧ after (hostOps0_11 : List (HloOp τ sig (Elt F))) W (Proc.devRef .tc main_v54) = kv_main_v54 (F := F) x0 ∧ after (hostOps0_11 : List (HloOp τ sig (Elt F))) W (Proc.devRef .tc main_v75) = kv_main_v75 (F := F) x0 x1 ∧ after (hostOps0_11 : List (HloOp τ sig (Elt F))) W (Proc.devRef .tc main_v86) = kv_main_v86 (F := F) x1 ∧ after (hostOps0_11 : List (HloOp τ sig (Elt F))) W (Proc.devRef .tc main_v89) = kv_main_v89 (F := F) x1 ∧ after (hostOps0_11 : List (HloOp τ sig (Elt F))) W (Proc.devRef .tc main_v90) = kv_main_v90 (F := F) x1 := by
  refine ⟨?_, ?_, ?_, ?_, ?_, ?_, ?_, ?_, ?_, ?_, ?_, ?_, ?_⟩ <;>
    (simp only [hostOps0_11]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v86, h_main_v89, h_main_c_23, h_main_c_24]) <;> rfl)

set_option maxHeartbeats 4000000 in
/-- Stretch 12 of the host operations before the region keeps every live buffer at its stage. -/
theorem st12 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v86 : W (Proc.devRef .tc main_v86) = kv_main_v86 (F := F) x1) (h_main_v89 : W (Proc.devRef .tc main_v89) = kv_main_v89 (F := F) x1) (h_main_v90 : W (Proc.devRef .tc main_v90) = kv_main_v90 (F := F) x1) :
    after (hostOps0_12 : List (HloOp τ sig (Elt F))) W (Proc.devRef .tc main_arg2) = x2 ∧ after (hostOps0_12 : List (HloOp τ sig (Elt F))) W (Proc.devRef .tc main_arg3) = x3 ∧ after (hostOps0_12 : List (HloOp τ sig (Elt F))) W (Proc.devRef .tc main_arg4) = x4 ∧ after (hostOps0_12 : List (HloOp τ sig (Elt F))) W (Proc.devRef .tc main_v42) = kv_main_v42 (F := F) x1 ∧ after (hostOps0_12 : List (HloOp τ sig (Elt F))) W (Proc.devRef .tc main_v45) = kv_main_v45 (F := F) x1 ∧ after (hostOps0_12 : List (HloOp τ sig (Elt F))) W (Proc.devRef .tc main_v48) = kv_main_v48 (F := F) x1 ∧ after (hostOps0_12 : List (HloOp τ sig (Elt F))) W (Proc.devRef .tc main_v50) = kv_main_v50 (F := F) x1 ∧ after (hostOps0_12 : List (HloOp τ sig (Elt F))) W (Proc.devRef .tc main_v52) = kv_main_v52 (F := F) x1 ∧ after (hostOps0_12 : List (HloOp τ sig (Elt F))) W (Proc.devRef .tc main_v54) = kv_main_v54 (F := F) x0 ∧ after (hostOps0_12 : List (HloOp τ sig (Elt F))) W (Proc.devRef .tc main_v75) = kv_main_v75 (F := F) x0 x1 ∧ after (hostOps0_12 : List (HloOp τ sig (Elt F))) W (Proc.devRef .tc main_v86) = kv_main_v86 (F := F) x1 ∧ after (hostOps0_12 : List (HloOp τ sig (Elt F))) W (Proc.devRef .tc main_v92) = kv_main_v92 (F := F) x1 := by
  refine ⟨?_, ?_, ?_, ?_, ?_, ?_, ?_, ?_, ?_, ?_, ?_, ?_⟩ <;>
    (simp only [hostOps0_12]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v86, h_main_v89, h_main_v90]) <;> rfl)

set_option maxHeartbeats 4000000 in
/-- Stretch 13 of the host operations before the region keeps every live buffer at its stage. -/
theorem st13 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v86 : W (Proc.devRef .tc main_v86) = kv_main_v86 (F := F) x1) (h_main_v92 : W (Proc.devRef .tc main_v92) = kv_main_v92 (F := F) x1) :
    after (hostOps0_13 : List (HloOp τ sig (Elt F))) W (Proc.devRef .tc main_arg2) = x2 ∧ after (hostOps0_13 : List (HloOp τ sig (Elt F))) W (Proc.devRef .tc main_arg3) = x3 ∧ after (hostOps0_13 : List (HloOp τ sig (Elt F))) W (Proc.devRef .tc main_arg4) = x4 ∧ after (hostOps0_13 : List (HloOp τ sig (Elt F))) W (Proc.devRef .tc main_v42) = kv_main_v42 (F := F) x1 ∧ after (hostOps0_13 : List (HloOp τ sig (Elt F))) W (Proc.devRef .tc main_v45) = kv_main_v45 (F := F) x1 ∧ after (hostOps0_13 : List (HloOp τ sig (Elt F))) W (Proc.devRef .tc main_v48) = kv_main_v48 (F := F) x1 ∧ after (hostOps0_13 : List (HloOp τ sig (Elt F))) W (Proc.devRef .tc main_v50) = kv_main_v50 (F := F) x1 ∧ after (hostOps0_13 : List (HloOp τ sig (Elt F))) W (Proc.devRef .tc main_v52) = kv_main_v52 (F := F) x1 ∧ after (hostOps0_13 : List (HloOp τ sig (Elt F))) W (Proc.devRef .tc main_v54) = kv_main_v54 (F := F) x0 ∧ after (hostOps0_13 : List (HloOp τ sig (Elt F))) W (Proc.devRef .tc main_v75) = kv_main_v75 (F := F) x0 x1 ∧ after (hostOps0_13 : List (HloOp τ sig (Elt F))) W (Proc.devRef .tc main_v86) = kv_main_v86 (F := F) x1 ∧ after (hostOps0_13 : List (HloOp τ sig (Elt F))) W (Proc.devRef .tc main_v93) = kv_main_v93 (F := F) x0 x1 := by
  refine ⟨?_, ?_, ?_, ?_, ?_, ?_, ?_, ?_, ?_, ?_, ?_, ?_⟩ <;>
    (simp only [hostOps0_13]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v86, h_main_v92]) <;> rfl)

set_option maxHeartbeats 4000000 in
/-- Stretch 14 of the host operations before the region keeps every live buffer at its stage. -/
theorem st14 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v86 : W (Proc.devRef .tc main_v86) = kv_main_v86 (F := F) x1) (h_main_v93 : W (Proc.devRef .tc main_v93) = kv_main_v93 (F := F) x0 x1) :
    after (hostOps0_14 : List (HloOp τ sig (Elt F))) W (Proc.devRef .tc main_arg2) = x2 ∧ after (hostOps0_14 : List (HloOp τ sig (Elt F))) W (Proc.devRef .tc main_arg3) = x3 ∧ after (hostOps0_14 : List (HloOp τ sig (Elt F))) W (Proc.devRef .tc main_arg4) = x4 ∧ after (hostOps0_14 : List (HloOp τ sig (Elt F))) W (Proc.devRef .tc main_v42) = kv_main_v42 (F := F) x1 ∧ after (hostOps0_14 : List (HloOp τ sig (Elt F))) W (Proc.devRef .tc main_v45) = kv_main_v45 (F := F) x1 ∧ after (hostOps0_14 : List (HloOp τ sig (Elt F))) W (Proc.devRef .tc main_v48) = kv_main_v48 (F := F) x1 ∧ after (hostOps0_14 : List (HloOp τ sig (Elt F))) W (Proc.devRef .tc main_v50) = kv_main_v50 (F := F) x1 ∧ after (hostOps0_14 : List (HloOp τ sig (Elt F))) W (Proc.devRef .tc main_v52) = kv_main_v52 (F := F) x1 ∧ after (hostOps0_14 : List (HloOp τ sig (Elt F))) W (Proc.devRef .tc main_v54) = kv_main_v54 (F := F) x0 ∧ after (hostOps0_14 : List (HloOp τ sig (Elt F))) W (Proc.devRef .tc main_v75) = kv_main_v75 (F := F) x0 x1 ∧ after (hostOps0_14 : List (HloOp τ sig (Elt F))) W (Proc.devRef .tc main_v94) = kv_main_v94 (F := F) x0 x1 ∧ after (hostOps0_14 : List (HloOp τ sig (Elt F))) W (Proc.devRef .tc main_v95) = kv_main_v95 (F := F) x1 ∧ after (hostOps0_14 : List (HloOp τ sig (Elt F))) W (Proc.devRef .tc main_cst_25) = kv_main_cst_25 (F := F) := by
  refine ⟨?_, ?_, ?_, ?_, ?_, ?_, ?_, ?_, ?_, ?_, ?_, ?_, ?_⟩ <;>
    (simp only [hostOps0_14]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v86, h_main_v93]) <;> rfl)

set_option maxHeartbeats 4000000 in
/-- Stretch 15 of the host operations before the region keeps every live buffer at its stage. -/
theorem st15 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v94 : W (Proc.devRef .tc main_v94) = kv_main_v94 (F := F) x0 x1) (h_main_v95 : W (Proc.devRef .tc main_v95) = kv_main_v95 (F := F) x1) (h_main_cst_25 : W (Proc.devRef .tc main_cst_25) = kv_main_cst_25 (F := F)) :
    after (hostOps0_15 : List (HloOp τ sig (Elt F))) W (Proc.devRef .tc main_arg2) = x2 ∧ after (hostOps0_15 : List (HloOp τ sig (Elt F))) W (Proc.devRef .tc main_arg3) = x3 ∧ after (hostOps0_15 : List (HloOp τ sig (Elt F))) W (Proc.devRef .tc main_arg4) = x4 ∧ after (hostOps0_15 : List (HloOp τ sig (Elt F))) W (Proc.devRef .tc main_v42) = kv_main_v42 (F := F) x1 ∧ after (hostOps0_15 : List (HloOp τ sig (Elt F))) W (Proc.devRef .tc main_v45) = kv_main_v45 (F := F) x1 ∧ after (hostOps0_15 : List (HloOp τ sig (Elt F))) W (Proc.devRef .tc main_v48) = kv_main_v48 (F := F) x1 ∧ after (hostOps0_15 : List (HloOp τ sig (Elt F))) W (Proc.devRef .tc main_v50) = kv_main_v50 (F := F) x1 ∧ after (hostOps0_15 : List (HloOp τ sig (Elt F))) W (Proc.devRef .tc main_v52) = kv_main_v52 (F := F) x1 ∧ after (hostOps0_15 : List (HloOp τ sig (Elt F))) W (Proc.devRef .tc main_v54) = kv_main_v54 (F := F) x0 ∧ after (hostOps0_15 : List (HloOp τ sig (Elt F))) W (Proc.devRef .tc main_v75) = kv_main_v75 (F := F) x0 x1 ∧ after (hostOps0_15 : List (HloOp τ sig (Elt F))) W (Proc.devRef .tc main_v96) = kv_main_v96 (F := F) x0 x1 := by
  refine ⟨?_, ?_, ?_, ?_, ?_, ?_, ?_, ?_, ?_, ?_, ?_⟩ <;>
    (simp only [hostOps0_15]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v94, h_main_v95, h_main_cst_25]) <;> rfl)

set_option maxHeartbeats 4000000 in
/-- Stretch 16 of the host operations before the region keeps every live buffer at its stage. -/
theorem st16 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) :
    after (hostOps0_16 : List (HloOp τ sig (Elt F))) W (Proc.devRef .tc main_arg2) = x2 ∧ after (hostOps0_16 : List (HloOp τ sig (Elt F))) W (Proc.devRef .tc main_arg3) = x3 ∧ after (hostOps0_16 : List (HloOp τ sig (Elt F))) W (Proc.devRef .tc main_arg4) = x4 ∧ after (hostOps0_16 : List (HloOp τ sig (Elt F))) W (Proc.devRef .tc main_v42) = kv_main_v42 (F := F) x1 ∧ after (hostOps0_16 : List (HloOp τ sig (Elt F))) W (Proc.devRef .tc main_v45) = kv_main_v45 (F := F) x1 ∧ after (hostOps0_16 : List (HloOp τ sig (Elt F))) W (Proc.devRef .tc main_v48) = kv_main_v48 (F := F) x1 ∧ after (hostOps0_16 : List (HloOp τ sig (Elt F))) W (Proc.devRef .tc main_v50) = kv_main_v50 (F := F) x1 ∧ after (hostOps0_16 : List (HloOp τ sig (Elt F))) W (Proc.devRef .tc main_v52) = kv_main_v52 (F := F) x1 ∧ after (hostOps0_16 : List (HloOp τ sig (Elt F))) W (Proc.devRef .tc main_v54) = kv_main_v54 (F := F) x0 ∧ after (hostOps0_16 : List (HloOp τ sig (Elt F))) W (Proc.devRef .tc main_v75) = kv_main_v75 (F := F) x0 x1 ∧ after (hostOps0_16 : List (HloOp τ sig (Elt F))) W (Proc.devRef .tc main_v96) = kv_main_v96 (F := F) x0 x1 ∧ after (hostOps0_16 : List (HloOp τ sig (Elt F))) W (Proc.devRef .tc main_v107) = kv_main_v107 (F := F) x1 ∧ after (hostOps0_16 : List (HloOp τ sig (Elt F))) W (Proc.devRef .tc main_c_30) = kv_main_c_30 (F := F) ∧ after (hostOps0_16 : List (HloOp τ sig (Elt F))) W (Proc.devRef .tc main_c_31) = kv_main_c_31 (F := F) := by
  refine ⟨?_, ?_, ?_, ?_, ?_, ?_, ?_, ?_, ?_, ?_, ?_, ?_, ?_, ?_⟩ <;>
    (simp only [hostOps0_16]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v96]) <;> rfl)

set_option maxHeartbeats 4000000 in
/-- Stretch 17 of the host operations before the region keeps every live buffer at its stage. -/
theorem st17 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v45 : W (Proc.devRef .tc main_v45) = kv_main_v45 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v107 : W (Proc.devRef .tc main_v107) = kv_main_v107 (F := F) x1) (h_main_c_30 : W (Proc.devRef .tc main_c_30) = kv_main_c_30 (F := F)) (h_main_c_31 : W (Proc.devRef .tc main_c_31) = kv_main_c_31 (F := F)) :
    after (hostOps0_17 : List (HloOp τ sig (Elt F))) W (Proc.devRef .tc main_arg2) = x2 ∧ after (hostOps0_17 : List (HloOp τ sig (Elt F))) W (Proc.devRef .tc main_arg3) = x3 ∧ after (hostOps0_17 : List (HloOp τ sig (Elt F))) W (Proc.devRef .tc main_arg4) = x4 ∧ after (hostOps0_17 : List (HloOp τ sig (Elt F))) W (Proc.devRef .tc main_v42) = kv_main_v42 (F := F) x1 ∧ after (hostOps0_17 : List (HloOp τ sig (Elt F))) W (Proc.devRef .tc main_v48) = kv_main_v48 (F := F) x1 ∧ after (hostOps0_17 : List (HloOp τ sig (Elt F))) W (Proc.devRef .tc main_v50) = kv_main_v50 (F := F) x1 ∧ after (hostOps0_17 : List (HloOp τ sig (Elt F))) W (Proc.devRef .tc main_v52) = kv_main_v52 (F := F) x1 ∧ after (hostOps0_17 : List (HloOp τ sig (Elt F))) W (Proc.devRef .tc main_v54) = kv_main_v54 (F := F) x0 ∧ after (hostOps0_17 : List (HloOp τ sig (Elt F))) W (Proc.devRef .tc main_v75) = kv_main_v75 (F := F) x0 x1 ∧ after (hostOps0_17 : List (HloOp τ sig (Elt F))) W (Proc.devRef .tc main_v96) = kv_main_v96 (F := F) x0 x1 ∧ after (hostOps0_17 : List (HloOp τ sig (Elt F))) W (Proc.devRef .tc main_v107) = kv_main_v107 (F := F) x1 ∧ after (hostOps0_17 : List (HloOp τ sig (Elt F))) W (Proc.devRef .tc main_v108) = kv_main_v108 (F := F) x1 := by
  refine ⟨?_, ?_, ?_, ?_, ?_, ?_, ?_, ?_, ?_, ?_, ?_, ?_⟩ <;>
    (simp only [hostOps0_17]; after_results_simp <;> (try simp only [TRef.ofBuf, TRef.toBuf, cast_eq]) <;> (try simp only [h_main_arg2, h_main_arg3, h_main_arg4, h_main_v42, h_main_v45, h_main_v48, h_main_v50, h_main_v52, h_main_v54, h_main_v75, h_main_v96, h_main_v107, h_main_c_30, h_main_c_31]) <;> rfl)

set_option maxHeartbeats 4000000 in
/-- Stretch 18 of the host operations before the region keeps every live buffer at its stage. -/
theorem st18 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v107 : W (Proc.devRef .tc main_v107) = kv_main_v107 (F := F) x1) (h_main_v108 : W (Proc.devRef .tc main_v108) = kv_main_v108 (F := F) x1) :
    after (hostOps0_18 : List (HloOp τ sig (Elt F))) W (Proc.devRef .tc main_arg2) = x2 ∧ after (hostOps0_18 : List (HloOp τ sig (Elt F))) W (Proc.devRef .tc main_arg3) = x3 ∧ after (hostOps0_18 : List (HloOp τ sig (Elt F))) W (Proc.devRef .tc main_arg4) = x4 ∧ after (hostOps0_18 : List (HloOp τ sig (Elt F))) W (Proc.devRef .tc main_v42) = kv_main_v42 (F := F) x1 ∧ after (hostOps0_18 : List (HloOp τ sig (Elt F))) W (Proc.devRef .tc main_v48) = kv_main_v48 (F := F) x1 ∧ after (hostOps0_18 : List (HloOp τ sig (Elt F))) W (Proc.devRef .tc main_v50) = kv_main_v50 (F := F) x1 ∧ after (hostOps0_18 : List (HloOp τ sig (Elt F))) W (Proc.devRef .tc main_v52) = kv_main_v52 (F := F) x1 ∧ after (hostOps0_18 : List (HloOp τ sig (Elt F))) W (Proc.devRef .tc main_v54) = kv_main_v54 (F := F) x0 ∧ after (hostOps0_18 : List (HloOp τ sig (Elt F))) W (Proc.devRef .tc main_v75) = kv_main_v75 (F := F) x0 x1 ∧ after (hostOps0_18 : List (HloOp τ sig (Elt F))) W (Proc.devRef .tc main_v96) = kv_main_v96 (F := F) x0 x1 ∧ after (hostOps0_18 : List (HloOp τ sig (Elt F))) W (Proc.devRef .tc main_v107) = kv_main_v107 (F := F) x1 ∧ after (hostOps0_18 : List (HloOp τ sig (Elt F))) W (Proc.devRef .tc main_v110) = kv_main_v110 (F := F) x1 ∧ after (hostOps0_18 : List (HloOp τ sig (Elt F))) W (Proc.devRef .tc main_c_33) = kv_main_c_33 (F := F) ∧ after (hostOps0_18 : List (HloOp τ sig (Elt F))) W (Proc.devRef .tc main_c_34) = kv_main_c_34 (F := F) := by
  refine ⟨?_, ?_, ?_, ?_, ?_, ?_, ?_, ?_, ?_, ?_, ?_, ?_, ?_, ?_⟩ <;>
    (simp only [hostOps0_18]; after_results_simp <;> (try simp only [TRef.ofBuf, TRef.toBuf, cast_eq]) <;> (try simp only [h_main_arg2, h_main_arg3, h_main_arg4, h_main_v42, h_main_v48, h_main_v50, h_main_v52, h_main_v54, h_main_v75, h_main_v96, h_main_v107, h_main_v108]) <;> rfl)

set_option maxHeartbeats 4000000 in
/-- Stretch 19 of the host operations before the region keeps every live buffer at its stage. -/
theorem st19 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v52 : W (Proc.devRef .tc main_v52) = kv_main_v52 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v107 : W (Proc.devRef .tc main_v107) = kv_main_v107 (F := F) x1) (h_main_v110 : W (Proc.devRef .tc main_v110) = kv_main_v110 (F := F) x1) (h_main_c_33 : W (Proc.devRef .tc main_c_33) = kv_main_c_33 (F := F)) (h_main_c_34 : W (Proc.devRef .tc main_c_34) = kv_main_c_34 (F := F)) :
    after (hostOps0_19 : List (HloOp τ sig (Elt F))) W (Proc.devRef .tc main_arg2) = x2 ∧ after (hostOps0_19 : List (HloOp τ sig (Elt F))) W (Proc.devRef .tc main_arg3) = x3 ∧ after (hostOps0_19 : List (HloOp τ sig (Elt F))) W (Proc.devRef .tc main_arg4) = x4 ∧ after (hostOps0_19 : List (HloOp τ sig (Elt F))) W (Proc.devRef .tc main_v42) = kv_main_v42 (F := F) x1 ∧ after (hostOps0_19 : List (HloOp τ sig (Elt F))) W (Proc.devRef .tc main_v48) = kv_main_v48 (F := F) x1 ∧ after (hostOps0_19 : List (HloOp τ sig (Elt F))) W (Proc.devRef .tc main_v50) = kv_main_v50 (F := F) x1 ∧ after (hostOps0_19 : List (HloOp τ sig (Elt F))) W (Proc.devRef .tc main_v54) = kv_main_v54 (F := F) x0 ∧ after (hostOps0_19 : List (HloOp τ sig (Elt F))) W (Proc.devRef .tc main_v75) = kv_main_v75 (F := F) x0 x1 ∧ after (hostOps0_19 : List (HloOp τ sig (Elt F))) W (Proc.devRef .tc main_v96) = kv_main_v96 (F := F) x0 x1 ∧ after (hostOps0_19 : List (HloOp τ sig (Elt F))) W (Proc.devRef .tc main_v107) = kv_main_v107 (F := F) x1 ∧ after (hostOps0_19 : List (HloOp τ sig (Elt F))) W (Proc.devRef .tc main_v110) = kv_main_v110 (F := F) x1 ∧ after (hostOps0_19 : List (HloOp τ sig (Elt F))) W (Proc.devRef .tc main_v111) = kv_main_v111 (F := F) x1 := by
  refine ⟨?_, ?_, ?_, ?_, ?_, ?_, ?_, ?_, ?_, ?_, ?_, ?_⟩ <;>
    (simp only [hostOps0_19]; after_results_simp <;> (try simp only [TRef.ofBuf, TRef.toBuf, cast_eq]) <;> (try simp only [h_main_arg2, h_main_arg3, h_main_arg4, h_main_v42, h_main_v48, h_main_v50, h_main_v52, h_main_v54, h_main_v75, h_main_v96, h_main_v107, h_main_v110, h_main_c_33, h_main_c_34]) <;> rfl)

set_option maxHeartbeats 4000000 in
/-- Stretch 20 of the host operations before the region keeps every live buffer at its stage. -/
theorem st20 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v107 : W (Proc.devRef .tc main_v107) = kv_main_v107 (F := F) x1) (h_main_v110 : W (Proc.devRef .tc main_v110) = kv_main_v110 (F := F) x1) (h_main_v111 : W (Proc.devRef .tc main_v111) = kv_main_v111 (F := F) x1) :
    after (hostOps0_20 : List (HloOp τ sig (Elt F))) W (Proc.devRef .tc main_arg2) = x2 ∧ after (hostOps0_20 : List (HloOp τ sig (Elt F))) W (Proc.devRef .tc main_arg3) = x3 ∧ after (hostOps0_20 : List (HloOp τ sig (Elt F))) W (Proc.devRef .tc main_arg4) = x4 ∧ after (hostOps0_20 : List (HloOp τ sig (Elt F))) W (Proc.devRef .tc main_v42) = kv_main_v42 (F := F) x1 ∧ after (hostOps0_20 : List (HloOp τ sig (Elt F))) W (Proc.devRef .tc main_v48) = kv_main_v48 (F := F) x1 ∧ after (hostOps0_20 : List (HloOp τ sig (Elt F))) W (Proc.devRef .tc main_v50) = kv_main_v50 (F := F) x1 ∧ after (hostOps0_20 : List (HloOp τ sig (Elt F))) W (Proc.devRef .tc main_v54) = kv_main_v54 (F := F) x0 ∧ after (hostOps0_20 : List (HloOp τ sig (Elt F))) W (Proc.devRef .tc main_v75) = kv_main_v75 (F := F) x0 x1 ∧ after (hostOps0_20 : List (HloOp τ sig (Elt F))) W (Proc.devRef .tc main_v96) = kv_main_v96 (F := F) x0 x1 ∧ after (hostOps0_20 : List (HloOp τ sig (Elt F))) W (Proc.devRef .tc main_v107) = kv_main_v107 (F := F) x1 ∧ after (hostOps0_20 : List (HloOp τ sig (Elt F))) W (Proc.devRef .tc main_v113) = kv_main_v113 (F := F) x1 := by
  refine ⟨?_, ?_, ?_, ?_, ?_, ?_, ?_, ?_, ?_, ?_, ?_⟩ <;>
    (simp only [hostOps0_20]; after_results_simp <;> (try simp only [TRef.ofBuf, TRef.toBuf, cast_eq]) <;> (try simp only [h_main_arg2, h_main_arg3, h_main_arg4, h_main_v42, h_main_v48, h_main_v50, h_main_v54, h_main_v75, h_main_v96, h_main_v107, h_main_v110, h_main_v111]) <;> rfl)

set_option maxHeartbeats 4000000 in
/-- Stretch 21 of the host operations before the region keeps every live buffer at its stage. -/
theorem st21 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v107 : W (Proc.devRef .tc main_v107) = kv_main_v107 (F := F) x1) (h_main_v113 : W (Proc.devRef .tc main_v113) = kv_main_v113 (F := F) x1) :
    after (hostOps0_21 : List (HloOp τ sig (Elt F))) W (Proc.devRef .tc main_arg2) = x2 ∧ after (hostOps0_21 : List (HloOp τ sig (Elt F))) W (Proc.devRef .tc main_arg3) = x3 ∧ after (hostOps0_21 : List (HloOp τ sig (Elt F))) W (Proc.devRef .tc main_arg4) = x4 ∧ after (hostOps0_21 : List (HloOp τ sig (Elt F))) W (Proc.devRef .tc main_v42) = kv_main_v42 (F := F) x1 ∧ after (hostOps0_21 : List (HloOp τ sig (Elt F))) W (Proc.devRef .tc main_v48) = kv_main_v48 (F := F) x1 ∧ after (hostOps0_21 : List (HloOp τ sig (Elt F))) W (Proc.devRef .tc main_v50) = kv_main_v50 (F := F) x1 ∧ after (hostOps0_21 : List (HloOp τ sig (Elt F))) W (Proc.devRef .tc main_v54) = kv_main_v54 (F := F) x0 ∧ after (hostOps0_21 : List (HloOp τ sig (Elt F))) W (Proc.devRef .tc main_v75) = kv_main_v75 (F := F) x0 x1 ∧ after (hostOps0_21 : List (HloOp τ sig (Elt F))) W (Proc.devRef .tc main_v96) = kv_main_v96 (F := F) x0 x1 ∧ after (hostOps0_21 : List (HloOp τ sig (Elt F))) W (Proc.devRef .tc main_v107) = kv_main_v107 (F := F) x1 ∧ after (hostOps0_21 : List (HloOp τ sig (Elt F))) W (Proc.devRef .tc main_v114) = kv_main_v114 (F := F) x0 x1 := by
  refine ⟨?_, ?_, ?_, ?_, ?_, ?_, ?_, ?_, ?_, ?_, ?_⟩ <;>
    (simp only [hostOps0_21]; after_results_simp <;> (try simp only [TRef.ofBuf, TRef.toBuf, cast_eq]) <;> (try simp only [h_main_arg2, h_main_arg3, h_main_arg4, h_main_v42, h_main_v48, h_main_v50, h_main_v54, h_main_v75, h_main_v96, h_main_v107, h_main_v113]) <;> rfl)

set_option maxHeartbeats 4000000 in
/-- Stretch 22 of the host operations before the region keeps every live buffer at its stage. -/
theorem st22 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v107 : W (Proc.devRef .tc main_v107) = kv_main_v107 (F := F) x1) (h_main_v114 : W (Proc.devRef .tc main_v114) = kv_main_v114 (F := F) x0 x1) :
    after (hostOps0_22 : List (HloOp τ sig (Elt F))) W (Proc.devRef .tc main_arg2) = x2 ∧ after (hostOps0_22 : List (HloOp τ sig (Elt F))) W (Proc.devRef .tc main_arg3) = x3 ∧ after (hostOps0_22 : List (HloOp τ sig (Elt F))) W (Proc.devRef .tc main_arg4) = x4 ∧ after (hostOps0_22 : List (HloOp τ sig (Elt F))) W (Proc.devRef .tc main_v42) = kv_main_v42 (F := F) x1 ∧ after (hostOps0_22 : List (HloOp τ sig (Elt F))) W (Proc.devRef .tc main_v48) = kv_main_v48 (F := F) x1 ∧ after (hostOps0_22 : List (HloOp τ sig (Elt F))) W (Proc.devRef .tc main_v50) = kv_main_v50 (F := F) x1 ∧ after (hostOps0_22 : List (HloOp τ sig (Elt F))) W (Proc.devRef .tc main_v54) = kv_main_v54 (F := F) x0 ∧ after (hostOps0_22 : List (HloOp τ sig (Elt F))) W (Proc.devRef .tc main_v75) = kv_main_v75 (F := F) x0 x1 ∧ after (hostOps0_22 : List (HloOp τ sig (Elt F))) W (Proc.devRef .tc main_v96) = kv_main_v96 (F := F) x0 x1 ∧ after (hostOps0_22 : List (HloOp τ sig (Elt F))) W (Proc.devRef .tc main_v115) = kv_main_v115 (F := F) x0 x1 ∧ after (hostOps0_22 : List (HloOp τ sig (Elt F))) W (Proc.devRef .tc main_v116) = kv_main_v116 (F := F) x1 ∧ after (hostOps0_22 : List (HloOp τ sig (Elt F))) W (Proc.devRef .tc main_cst_35) = kv_main_cst_35 (F := F) := by
  refine ⟨?_, ?_, ?_, ?_, ?_, ?_, ?_, ?_, ?_, ?_, ?_, ?_⟩ <;>
    (simp only [hostOps0_22]; after_results_simp <;> (try simp only [TRef.ofBuf, TRef.toBuf, cast_eq]) <;> (try simp only [h_main_arg2, h_main_arg3, h_main_arg4, h_main_v42, h_main_v48, h_main_v50, h_main_v54, h_main_v75, h_main_v96, h_main_v107, h_main_v114]) <;> rfl)

set_option maxHeartbeats 4000000 in
/-- Stretch 23 of the host operations before the region keeps every live buffer at its stage. -/
theorem st23 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v115 : W (Proc.devRef .tc main_v115) = kv_main_v115 (F := F) x0 x1) (h_main_v116 : W (Proc.devRef .tc main_v116) = kv_main_v116 (F := F) x1) (h_main_cst_35 : W (Proc.devRef .tc main_cst_35) = kv_main_cst_35 (F := F)) :
    after (hostOps0_23 : List (HloOp τ sig (Elt F))) W (Proc.devRef .tc main_arg2) = x2 ∧ after (hostOps0_23 : List (HloOp τ sig (Elt F))) W (Proc.devRef .tc main_arg3) = x3 ∧ after (hostOps0_23 : List (HloOp τ sig (Elt F))) W (Proc.devRef .tc main_arg4) = x4 ∧ after (hostOps0_23 : List (HloOp τ sig (Elt F))) W (Proc.devRef .tc main_v42) = kv_main_v42 (F := F) x1 ∧ after (hostOps0_23 : List (HloOp τ sig (Elt F))) W (Proc.devRef .tc main_v48) = kv_main_v48 (F := F) x1 ∧ after (hostOps0_23 : List (HloOp τ sig (Elt F))) W (Proc.devRef .tc main_v50) = kv_main_v50 (F := F) x1 ∧ after (hostOps0_23 : List (HloOp τ sig (Elt F))) W (Proc.devRef .tc main_v54) = kv_main_v54 (F := F) x0 ∧ after (hostOps0_23 : List (HloOp τ sig (Elt F))) W (Proc.devRef .tc main_v75) = kv_main_v75 (F := F) x0 x1 ∧ after (hostOps0_23 : List (HloOp τ sig (Elt F))) W (Proc.devRef .tc main_v96) = kv_main_v96 (F := F) x0 x1 ∧ after (hostOps0_23 : List (HloOp τ sig (Elt F))) W (Proc.devRef .tc main_v117) = kv_main_v117 (F := F) x0 x1 := by
  refine ⟨?_, ?_, ?_, ?_, ?_, ?_, ?_, ?_, ?_, ?_⟩ <;>
    (simp only [hostOps0_23]; after_results_simp <;> (try simp only [TRef.ofBuf, TRef.toBuf, cast_eq]) <;> (try simp only [h_main_arg2, h_main_arg3, h_main_arg4, h_main_v42, h_main_v48, h_main_v50, h_main_v54, h_main_v75, h_main_v96, h_main_v115, h_main_v116, h_main_cst_35]) <;> rfl)

set_option maxHeartbeats 4000000 in
/-- Stretch 24 of the host operations before the region keeps every live buffer at its stage. -/
theorem st24 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) :
    after (hostOps0_24 : List (HloOp τ sig (Elt F))) W (Proc.devRef .tc main_arg2) = x2 ∧ after (hostOps0_24 : List (HloOp τ sig (Elt F))) W (Proc.devRef .tc main_arg3) = x3 ∧ after (hostOps0_24 : List (HloOp τ sig (Elt F))) W (Proc.devRef .tc main_arg4) = x4 ∧ after (hostOps0_24 : List (HloOp τ sig (Elt F))) W (Proc.devRef .tc main_v42) = kv_main_v42 (F := F) x1 ∧ after (hostOps0_24 : List (HloOp τ sig (Elt F))) W (Proc.devRef .tc main_v48) = kv_main_v48 (F := F) x1 ∧ after (hostOps0_24 : List (HloOp τ sig (Elt F))) W (Proc.devRef .tc main_v50) = kv_main_v50 (F := F) x1 ∧ after (hostOps0_24 : List (HloOp τ sig (Elt F))) W (Proc.devRef .tc main_v54) = kv_main_v54 (F := F) x0 ∧ after (hostOps0_24 : List (HloOp τ sig (Elt F))) W (Proc.devRef .tc main_v75) = kv_main_v75 (F := F) x0 x1 ∧ after (hostOps0_24 : List (HloOp τ sig (Elt F))) W (Proc.devRef .tc main_v96) = kv_main_v96 (F := F) x0 x1 ∧ after (hostOps0_24 : List (HloOp τ sig (Elt F))) W (Proc.devRef .tc main_v117) = kv_main_v117 (F := F) x0 x1 ∧ after (hostOps0_24 : List (HloOp τ sig (Elt F))) W (Proc.devRef .tc main_v128) = kv_main_v128 (F := F) x1 ∧ after (hostOps0_24 : List (HloOp τ sig (Elt F))) W (Proc.devRef .tc main_c_40) = kv_main_c_40 (F := F) ∧ after (hostOps0_24 : List (HloOp τ sig (Elt F))) W (Proc.devRef .tc main_c_41) = kv_main_c_41 (F := F) := by
  refine ⟨?_, ?_, ?_, ?_, ?_, ?_, ?_, ?_, ?_, ?_, ?_, ?_, ?_⟩ <;>
    (simp only [hostOps0_24]; after_results_simp <;> (try simp only [TRef.ofBuf, TRef.toBuf, cast_eq]) <;> (try simp only [h_main_arg2, h_main_arg3, h_main_arg4, h_main_v42, h_main_v48, h_main_v50, h_main_v54, h_main_v75, h_main_v96, h_main_v117]) <;> rfl)

set_option maxHeartbeats 4000000 in
/-- Stretch 25 of the host operations before the region keeps every live buffer at its stage. -/
theorem st25 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v50 : W (Proc.devRef .tc main_v50) = kv_main_v50 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v128 : W (Proc.devRef .tc main_v128) = kv_main_v128 (F := F) x1) (h_main_c_40 : W (Proc.devRef .tc main_c_40) = kv_main_c_40 (F := F)) (h_main_c_41 : W (Proc.devRef .tc main_c_41) = kv_main_c_41 (F := F)) :
    after (hostOps0_25 : List (HloOp τ sig (Elt F))) W (Proc.devRef .tc main_arg2) = x2 ∧ after (hostOps0_25 : List (HloOp τ sig (Elt F))) W (Proc.devRef .tc main_arg3) = x3 ∧ after (hostOps0_25 : List (HloOp τ sig (Elt F))) W (Proc.devRef .tc main_arg4) = x4 ∧ after (hostOps0_25 : List (HloOp τ sig (Elt F))) W (Proc.devRef .tc main_v42) = kv_main_v42 (F := F) x1 ∧ after (hostOps0_25 : List (HloOp τ sig (Elt F))) W (Proc.devRef .tc main_v48) = kv_main_v48 (F := F) x1 ∧ after (hostOps0_25 : List (HloOp τ sig (Elt F))) W (Proc.devRef .tc main_v54) = kv_main_v54 (F := F) x0 ∧ after (hostOps0_25 : List (HloOp τ sig (Elt F))) W (Proc.devRef .tc main_v75) = kv_main_v75 (F := F) x0 x1 ∧ after (hostOps0_25 : List (HloOp τ sig (Elt F))) W (Proc.devRef .tc main_v96) = kv_main_v96 (F := F) x0 x1 ∧ after (hostOps0_25 : List (HloOp τ sig (Elt F))) W (Proc.devRef .tc main_v117) = kv_main_v117 (F := F) x0 x1 ∧ after (hostOps0_25 : List (HloOp τ sig (Elt F))) W (Proc.devRef .tc main_v128) = kv_main_v128 (F := F) x1 ∧ after (hostOps0_25 : List (HloOp τ sig (Elt F))) W (Proc.devRef .tc main_v129) = kv_main_v129 (F := F) x1 := by
  refine ⟨?_, ?_, ?_, ?_, ?_, ?_, ?_, ?_, ?_, ?_, ?_⟩ <;>
    (simp only [hostOps0_25]; after_results_simp <;> (try simp only [TRef.ofBuf, TRef.toBuf, cast_eq]) <;> (try simp only [h_main_arg2, h_main_arg3, h_main_arg4, h_main_v42, h_main_v48, h_main_v50, h_main_v54, h_main_v75, h_main_v96, h_main_v117, h_main_v128, h_main_c_40, h_main_c_41]) <;> rfl)

set_option maxHeartbeats 4000000 in
/-- Stretch 26 of the host operations before the region keeps every live buffer at its stage. -/
theorem st26 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v128 : W (Proc.devRef .tc main_v128) = kv_main_v128 (F := F) x1) (h_main_v129 : W (Proc.devRef .tc main_v129) = kv_main_v129 (F := F) x1) :
    after (hostOps0_26 : List (HloOp τ sig (Elt F))) W (Proc.devRef .tc main_arg2) = x2 ∧ after (hostOps0_26 : List (HloOp τ sig (Elt F))) W (Proc.devRef .tc main_arg3) = x3 ∧ after (hostOps0_26 : List (HloOp τ sig (Elt F))) W (Proc.devRef .tc main_arg4) = x4 ∧ after (hostOps0_26 : List (HloOp τ sig (Elt F))) W (Proc.devRef .tc main_v42) = kv_main_v42 (F := F) x1 ∧ after (hostOps0_26 : List (HloOp τ sig (Elt F))) W (Proc.devRef .tc main_v48) = kv_main_v48 (F := F) x1 ∧ after (hostOps0_26 : List (HloOp τ sig (Elt F))) W (Proc.devRef .tc main_v54) = kv_main_v54 (F := F) x0 ∧ after (hostOps0_26 : List (HloOp τ sig (Elt F))) W (Proc.devRef .tc main_v75) = kv_main_v75 (F := F) x0 x1 ∧ after (hostOps0_26 : List (HloOp τ sig (Elt F))) W (Proc.devRef .tc main_v96) = kv_main_v96 (F := F) x0 x1 ∧ after (hostOps0_26 : List (HloOp τ sig (Elt F))) W (Proc.devRef .tc main_v117) = kv_main_v117 (F := F) x0 x1 ∧ after (hostOps0_26 : List (HloOp τ sig (Elt F))) W (Proc.devRef .tc main_v128) = kv_main_v128 (F := F) x1 ∧ after (hostOps0_26 : List (HloOp τ sig (Elt F))) W (Proc.devRef .tc main_v131) = kv_main_v131 (F := F) x1 ∧ after (hostOps0_26 : List (HloOp τ sig (Elt F))) W (Proc.devRef .tc main_c_43) = kv_main_c_43 (F := F) ∧ after (hostOps0_26 : List (HloOp τ sig (Elt F))) W (Proc.devRef .tc main_c_44) = kv_main_c_44 (F := F) := by
  refine ⟨?_, ?_, ?_, ?_, ?_, ?_, ?_, ?_, ?_, ?_, ?_, ?_, ?_⟩ <;>
    (simp only [hostOps0_26]; after_results_simp <;> (try simp only [TRef.ofBuf, TRef.toBuf, cast_eq]) <;> (try simp only [h_main_arg2, h_main_arg3, h_main_arg4, h_main_v42, h_main_v48, h_main_v54, h_main_v75, h_main_v96, h_main_v117, h_main_v128, h_main_v129]) <;> rfl)

set_option maxHeartbeats 4000000 in
/-- Stretch 27 of the host operations before the region keeps every live buffer at its stage. -/
theorem st27 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v48 : W (Proc.devRef .tc main_v48) = kv_main_v48 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v128 : W (Proc.devRef .tc main_v128) = kv_main_v128 (F := F) x1) (h_main_v131 : W (Proc.devRef .tc main_v131) = kv_main_v131 (F := F) x1) (h_main_c_43 : W (Proc.devRef .tc main_c_43) = kv_main_c_43 (F := F)) (h_main_c_44 : W (Proc.devRef .tc main_c_44) = kv_main_c_44 (F := F)) :
    after (hostOps0_27 : List (HloOp τ sig (Elt F))) W (Proc.devRef .tc main_arg2) = x2 ∧ after (hostOps0_27 : List (HloOp τ sig (Elt F))) W (Proc.devRef .tc main_arg3) = x3 ∧ after (hostOps0_27 : List (HloOp τ sig (Elt F))) W (Proc.devRef .tc main_arg4) = x4 ∧ after (hostOps0_27 : List (HloOp τ sig (Elt F))) W (Proc.devRef .tc main_v42) = kv_main_v42 (F := F) x1 ∧ after (hostOps0_27 : List (HloOp τ sig (Elt F))) W (Proc.devRef .tc main_v54) = kv_main_v54 (F := F) x0 ∧ after (hostOps0_27 : List (HloOp τ sig (Elt F))) W (Proc.devRef .tc main_v75) = kv_main_v75 (F := F) x0 x1 ∧ after (hostOps0_27 : List (HloOp τ sig (Elt F))) W (Proc.devRef .tc main_v96) = kv_main_v96 (F := F) x0 x1 ∧ after (hostOps0_27 : List (HloOp τ sig (Elt F))) W (Proc.devRef .tc main_v117) = kv_main_v117 (F := F) x0 x1 ∧ after (hostOps0_27 : List (HloOp τ sig (Elt F))) W (Proc.devRef .tc main_v128) = kv_main_v128 (F := F) x1 ∧ after (hostOps0_27 : List (HloOp τ sig (Elt F))) W (Proc.devRef .tc main_v131) = kv_main_v131 (F := F) x1 ∧ after (hostOps0_27 : List (HloOp τ sig (Elt F))) W (Proc.devRef .tc main_v132) = kv_main_v132 (F := F) x1 := by
  refine ⟨?_, ?_, ?_, ?_, ?_, ?_, ?_, ?_, ?_, ?_, ?_⟩ <;>
    (simp only [hostOps0_27]; after_results_simp <;> (try simp only [TRef.ofBuf, TRef.toBuf, cast_eq]) <;> (try simp only [h_main_arg2, h_main_arg3, h_main_arg4, h_main_v42, h_main_v48, h_main_v54, h_main_v75, h_main_v96, h_main_v117, h_main_v128, h_main_v131, h_main_c_43, h_main_c_44]) <;> rfl)

set_option maxHeartbeats 4000000 in
/-- Stretch 28 of the host operations before the region keeps every live buffer at its stage. -/
theorem st28 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v128 : W (Proc.devRef .tc main_v128) = kv_main_v128 (F := F) x1) (h_main_v131 : W (Proc.devRef .tc main_v131) = kv_main_v131 (F := F) x1) (h_main_v132 : W (Proc.devRef .tc main_v132) = kv_main_v132 (F := F) x1) :
    after (hostOps0_28 : List (HloOp τ sig (Elt F))) W (Proc.devRef .tc main_arg2) = x2 ∧ after (hostOps0_28 : List (HloOp τ sig (Elt F))) W (Proc.devRef .tc main_arg3) = x3 ∧ after (hostOps0_28 : List (HloOp τ sig (Elt F))) W (Proc.devRef .tc main_arg4) = x4 ∧ after (hostOps0_28 : List (HloOp τ sig (Elt F))) W (Proc.devRef .tc main_v42) = kv_main_v42 (F := F) x1 ∧ after (hostOps0_28 : List (HloOp τ sig (Elt F))) W (Proc.devRef .tc main_v54) = kv_main_v54 (F := F) x0 ∧ after (hostOps0_28 : List (HloOp τ sig (Elt F))) W (Proc.devRef .tc main_v75) = kv_main_v75 (F := F) x0 x1 ∧ after (hostOps0_28 : List (HloOp τ sig (Elt F))) W (Proc.devRef .tc main_v96) = kv_main_v96 (F := F) x0 x1 ∧ after (hostOps0_28 : List (HloOp τ sig (Elt F))) W (Proc.devRef .tc main_v117) = kv_main_v117 (F := F) x0 x1 ∧ after (hostOps0_28 : List (HloOp τ sig (Elt F))) W (Proc.devRef .tc main_v128) = kv_main_v128 (F := F) x1 ∧ after (hostOps0_28 : List (HloOp τ sig (Elt F))) W (Proc.devRef .tc main_v134) = kv_main_v134 (F := F) x1 := by
  refine ⟨?_, ?_, ?_, ?_, ?_, ?_, ?_, ?_, ?_, ?_⟩ <;>
    (simp only [hostOps0_28]; after_results_simp <;> (try simp only [TRef.ofBuf, TRef.toBuf, cast_eq]) <;> (try simp only [h_main_arg2, h_main_arg3, h_main_arg4, h_main_v42, h_main_v54, h_main_v75, h_main_v96, h_main_v117, h_main_v128, h_main_v131, h_main_v132]) <;> rfl)

set_option maxHeartbeats 4000000 in
/-- Stretch 29 of the host operations before the region keeps every live buffer at its stage. -/
theorem st29 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v54 : W (Proc.devRef .tc main_v54) = kv_main_v54 (F := F) x0) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v128 : W (Proc.devRef .tc main_v128) = kv_main_v128 (F := F) x1) (h_main_v134 : W (Proc.devRef .tc main_v134) = kv_main_v134 (F := F) x1) :
    after (hostOps0_29 : List (HloOp τ sig (Elt F))) W (Proc.devRef .tc main_arg2) = x2 ∧ after (hostOps0_29 : List (HloOp τ sig (Elt F))) W (Proc.devRef .tc main_arg3) = x3 ∧ after (hostOps0_29 : List (HloOp τ sig (Elt F))) W (Proc.devRef .tc main_arg4) = x4 ∧ after (hostOps0_29 : List (HloOp τ sig (Elt F))) W (Proc.devRef .tc main_v42) = kv_main_v42 (F := F) x1 ∧ after (hostOps0_29 : List (HloOp τ sig (Elt F))) W (Proc.devRef .tc main_v75) = kv_main_v75 (F := F) x0 x1 ∧ after (hostOps0_29 : List (HloOp τ sig (Elt F))) W (Proc.devRef .tc main_v96) = kv_main_v96 (F := F) x0 x1 ∧ after (hostOps0_29 : List (HloOp τ sig (Elt F))) W (Proc.devRef .tc main_v117) = kv_main_v117 (F := F) x0 x1 ∧ after (hostOps0_29 : List (HloOp τ sig (Elt F))) W (Proc.devRef .tc main_v128) = kv_main_v128 (F := F) x1 ∧ after (hostOps0_29 : List (HloOp τ sig (Elt F))) W (Proc.devRef .tc main_v135) = kv_main_v135 (F := F) x0 x1 := by
  refine ⟨?_, ?_, ?_, ?_, ?_, ?_, ?_, ?_, ?_⟩ <;>
    (simp only [hostOps0_29]; after_results_simp <;> (try simp only [TRef.ofBuf, TRef.toBuf, cast_eq]) <;> (try simp only [h_main_arg2, h_main_arg3, h_main_arg4, h_main_v42, h_main_v54, h_main_v75, h_main_v96, h_main_v117, h_main_v128, h_main_v134]) <;> rfl)

set_option maxHeartbeats 4000000 in
/-- Stretch 30 of the host operations before the region keeps every live buffer at its stage. -/
theorem st30 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v128 : W (Proc.devRef .tc main_v128) = kv_main_v128 (F := F) x1) (h_main_v135 : W (Proc.devRef .tc main_v135) = kv_main_v135 (F := F) x0 x1) :
    after (hostOps0_30 : List (HloOp τ sig (Elt F))) W (Proc.devRef .tc main_arg2) = x2 ∧ after (hostOps0_30 : List (HloOp τ sig (Elt F))) W (Proc.devRef .tc main_arg3) = x3 ∧ after (hostOps0_30 : List (HloOp τ sig (Elt F))) W (Proc.devRef .tc main_arg4) = x4 ∧ after (hostOps0_30 : List (HloOp τ sig (Elt F))) W (Proc.devRef .tc main_v42) = kv_main_v42 (F := F) x1 ∧ after (hostOps0_30 : List (HloOp τ sig (Elt F))) W (Proc.devRef .tc main_v75) = kv_main_v75 (F := F) x0 x1 ∧ after (hostOps0_30 : List (HloOp τ sig (Elt F))) W (Proc.devRef .tc main_v96) = kv_main_v96 (F := F) x0 x1 ∧ after (hostOps0_30 : List (HloOp τ sig (Elt F))) W (Proc.devRef .tc main_v117) = kv_main_v117 (F := F) x0 x1 ∧ after (hostOps0_30 : List (HloOp τ sig (Elt F))) W (Proc.devRef .tc main_v136) = kv_main_v136 (F := F) x0 x1 ∧ after (hostOps0_30 : List (HloOp τ sig (Elt F))) W (Proc.devRef .tc main_v137) = kv_main_v137 (F := F) x1 ∧ after (hostOps0_30 : List (HloOp τ sig (Elt F))) W (Proc.devRef .tc main_cst_45) = kv_main_cst_45 (F := F) := by
  refine ⟨?_, ?_, ?_, ?_, ?_, ?_, ?_, ?_, ?_, ?_⟩ <;>
    (simp only [hostOps0_30]; after_results_simp <;> (try simp only [TRef.ofBuf, TRef.toBuf, cast_eq]) <;> (try simp only [h_main_arg2, h_main_arg3, h_main_arg4, h_main_v42, h_main_v75, h_main_v96, h_main_v117, h_main_v128, h_main_v135]) <;> rfl)

set_option maxHeartbeats 4000000 in
/-- Stretch 31 of the host operations before the region keeps every live buffer at its stage. -/
theorem st31 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v136 : W (Proc.devRef .tc main_v136) = kv_main_v136 (F := F) x0 x1) (h_main_v137 : W (Proc.devRef .tc main_v137) = kv_main_v137 (F := F) x1) (h_main_cst_45 : W (Proc.devRef .tc main_cst_45) = kv_main_cst_45 (F := F)) :
    after (hostOps0_31 : List (HloOp τ sig (Elt F))) W (Proc.devRef .tc main_arg2) = x2 ∧ after (hostOps0_31 : List (HloOp τ sig (Elt F))) W (Proc.devRef .tc main_arg3) = x3 ∧ after (hostOps0_31 : List (HloOp τ sig (Elt F))) W (Proc.devRef .tc main_arg4) = x4 ∧ after (hostOps0_31 : List (HloOp τ sig (Elt F))) W (Proc.devRef .tc main_v42) = kv_main_v42 (F := F) x1 ∧ after (hostOps0_31 : List (HloOp τ sig (Elt F))) W (Proc.devRef .tc main_v75) = kv_main_v75 (F := F) x0 x1 ∧ after (hostOps0_31 : List (HloOp τ sig (Elt F))) W (Proc.devRef .tc main_v96) = kv_main_v96 (F := F) x0 x1 ∧ after (hostOps0_31 : List (HloOp τ sig (Elt F))) W (Proc.devRef .tc main_v117) = kv_main_v117 (F := F) x0 x1 ∧ after (hostOps0_31 : List (HloOp τ sig (Elt F))) W (Proc.devRef .tc main_v138) = kv_main_v138 (F := F) x0 x1 := by
  refine ⟨?_, ?_, ?_, ?_, ?_, ?_, ?_, ?_⟩ <;>
    (simp only [hostOps0_31]; after_results_simp <;> (try simp only [TRef.ofBuf, TRef.toBuf, cast_eq]) <;> (try simp only [h_main_arg2, h_main_arg3, h_main_arg4, h_main_v42, h_main_v75, h_main_v96, h_main_v117, h_main_v136, h_main_v137, h_main_cst_45]) <;> rfl)

set_option maxHeartbeats 4000000 in
/-- Stretch 32 of the host operations before the region keeps every live buffer at its stage. -/
theorem st32 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg2 : W (Proc.devRef .tc main_arg2) = x2) (h_main_arg3 : W (Proc.devRef .tc main_arg3) = x3) (h_main_arg4 : W (Proc.devRef .tc main_arg4) = x4) (h_main_v42 : W (Proc.devRef .tc main_v42) = kv_main_v42 (F := F) x1) (h_main_v75 : W (Proc.devRef .tc main_v75) = kv_main_v75 (F := F) x0 x1) (h_main_v96 : W (Proc.devRef .tc main_v96) = kv_main_v96 (F := F) x0 x1) (h_main_v117 : W (Proc.devRef .tc main_v117) = kv_main_v117 (F := F) x0 x1) (h_main_v138 : W (Proc.devRef .tc main_v138) = kv_main_v138 (F := F) x0 x1) :
    after (hostOps0_32 : List (HloOp τ sig (Elt F))) W (Proc.devRef .tc main_v164) = kv_main_v164 (F := F) x0 x1 x2 ∧ after (hostOps0_32 : List (HloOp τ sig (Elt F))) W (Proc.devRef .tc main_v165) = kv_main_v165 (F := F) x3 ∧ after (hostOps0_32 : List (HloOp τ sig (Elt F))) W (Proc.devRef .tc main_v166) = kv_main_v166 (F := F) x4 := by
  refine ⟨?_, ?_, ?_⟩ <;>
    (simp only [hostOps0_32]; after_results_simp <;> (try simp only [TRef.ofBuf, TRef.toBuf, cast_eq]) <;> (try simp only [h_main_arg2, h_main_arg3, h_main_arg4, h_main_v42, h_main_v75, h_main_v96, h_main_v117, h_main_v138]) <;> rfl)

variable (m : (ℓ : Loc nD τ sig) → Buf (Elt F) ℓ)

/-- The contents after the first k + 1 stretches, from the launch contents. -/
def Wk0 (c : Dev nD) : Valuation τ sig (Elt F) := after (hostOps0 : List (HloOp τ sig (Elt F))) (fun b => m (c, b))
def Wk1 (c : Dev nD) : Valuation τ sig (Elt F) := after (hostOps0_1 : List (HloOp τ sig (Elt F))) (Wk0 m c)
def Wk2 (c : Dev nD) : Valuation τ sig (Elt F) := after (hostOps0_2 : List (HloOp τ sig (Elt F))) (Wk1 m c)
def Wk3 (c : Dev nD) : Valuation τ sig (Elt F) := after (hostOps0_3 : List (HloOp τ sig (Elt F))) (Wk2 m c)
def Wk4 (c : Dev nD) : Valuation τ sig (Elt F) := after (hostOps0_4 : List (HloOp τ sig (Elt F))) (Wk3 m c)
def Wk5 (c : Dev nD) : Valuation τ sig (Elt F) := after (hostOps0_5 : List (HloOp τ sig (Elt F))) (Wk4 m c)
def Wk6 (c : Dev nD) : Valuation τ sig (Elt F) := after (hostOps0_6 : List (HloOp τ sig (Elt F))) (Wk5 m c)
def Wk7 (c : Dev nD) : Valuation τ sig (Elt F) := after (hostOps0_7 : List (HloOp τ sig (Elt F))) (Wk6 m c)
def Wk8 (c : Dev nD) : Valuation τ sig (Elt F) := after (hostOps0_8 : List (HloOp τ sig (Elt F))) (Wk7 m c)
def Wk9 (c : Dev nD) : Valuation τ sig (Elt F) := after (hostOps0_9 : List (HloOp τ sig (Elt F))) (Wk8 m c)
def Wk10 (c : Dev nD) : Valuation τ sig (Elt F) := after (hostOps0_10 : List (HloOp τ sig (Elt F))) (Wk9 m c)
def Wk11 (c : Dev nD) : Valuation τ sig (Elt F) := after (hostOps0_11 : List (HloOp τ sig (Elt F))) (Wk10 m c)
def Wk12 (c : Dev nD) : Valuation τ sig (Elt F) := after (hostOps0_12 : List (HloOp τ sig (Elt F))) (Wk11 m c)
def Wk13 (c : Dev nD) : Valuation τ sig (Elt F) := after (hostOps0_13 : List (HloOp τ sig (Elt F))) (Wk12 m c)
def Wk14 (c : Dev nD) : Valuation τ sig (Elt F) := after (hostOps0_14 : List (HloOp τ sig (Elt F))) (Wk13 m c)
def Wk15 (c : Dev nD) : Valuation τ sig (Elt F) := after (hostOps0_15 : List (HloOp τ sig (Elt F))) (Wk14 m c)
def Wk16 (c : Dev nD) : Valuation τ sig (Elt F) := after (hostOps0_16 : List (HloOp τ sig (Elt F))) (Wk15 m c)
def Wk17 (c : Dev nD) : Valuation τ sig (Elt F) := after (hostOps0_17 : List (HloOp τ sig (Elt F))) (Wk16 m c)
def Wk18 (c : Dev nD) : Valuation τ sig (Elt F) := after (hostOps0_18 : List (HloOp τ sig (Elt F))) (Wk17 m c)
def Wk19 (c : Dev nD) : Valuation τ sig (Elt F) := after (hostOps0_19 : List (HloOp τ sig (Elt F))) (Wk18 m c)
def Wk20 (c : Dev nD) : Valuation τ sig (Elt F) := after (hostOps0_20 : List (HloOp τ sig (Elt F))) (Wk19 m c)
def Wk21 (c : Dev nD) : Valuation τ sig (Elt F) := after (hostOps0_21 : List (HloOp τ sig (Elt F))) (Wk20 m c)
def Wk22 (c : Dev nD) : Valuation τ sig (Elt F) := after (hostOps0_22 : List (HloOp τ sig (Elt F))) (Wk21 m c)
def Wk23 (c : Dev nD) : Valuation τ sig (Elt F) := after (hostOps0_23 : List (HloOp τ sig (Elt F))) (Wk22 m c)
def Wk24 (c : Dev nD) : Valuation τ sig (Elt F) := after (hostOps0_24 : List (HloOp τ sig (Elt F))) (Wk23 m c)
def Wk25 (c : Dev nD) : Valuation τ sig (Elt F) := after (hostOps0_25 : List (HloOp τ sig (Elt F))) (Wk24 m c)
def Wk26 (c : Dev nD) : Valuation τ sig (Elt F) := after (hostOps0_26 : List (HloOp τ sig (Elt F))) (Wk25 m c)
def Wk27 (c : Dev nD) : Valuation τ sig (Elt F) := after (hostOps0_27 : List (HloOp τ sig (Elt F))) (Wk26 m c)
def Wk28 (c : Dev nD) : Valuation τ sig (Elt F) := after (hostOps0_28 : List (HloOp τ sig (Elt F))) (Wk27 m c)
def Wk29 (c : Dev nD) : Valuation τ sig (Elt F) := after (hostOps0_29 : List (HloOp τ sig (Elt F))) (Wk28 m c)
def Wk30 (c : Dev nD) : Valuation τ sig (Elt F) := after (hostOps0_30 : List (HloOp τ sig (Elt F))) (Wk29 m c)
def Wk31 (c : Dev nD) : Valuation τ sig (Elt F) := after (hostOps0_31 : List (HloOp τ sig (Elt F))) (Wk30 m c)
def Wk32 (c : Dev nD) : Valuation τ sig (Elt F) := after (hostOps0_32 : List (HloOp τ sig (Elt F))) (Wk31 m c)

theorem live0 (c : Dev nD) : Wk0 m c (Proc.devRef .tc main_arg2) = m ((c.tc : Thread nD τ).loc main_arg2) ∧ Wk0 m c (Proc.devRef .tc main_arg3) = m ((c.tc : Thread nD τ).loc main_arg3) ∧ Wk0 m c (Proc.devRef .tc main_arg4) = m ((c.tc : Thread nD τ).loc main_arg4) ∧ Wk0 m c (Proc.devRef .tc main_v42) = kv_main_v42 (F := F) (m ((c.tc : Thread nD τ).loc main_arg1)) ∧ Wk0 m c (Proc.devRef .tc main_v45) = kv_main_v45 (F := F) (m ((c.tc : Thread nD τ).loc main_arg1)) ∧ Wk0 m c (Proc.devRef .tc main_v48) = kv_main_v48 (F := F) (m ((c.tc : Thread nD τ).loc main_arg1)) ∧ Wk0 m c (Proc.devRef .tc main_v50) = kv_main_v50 (F := F) (m ((c.tc : Thread nD τ).loc main_arg1)) ∧ Wk0 m c (Proc.devRef .tc main_v52) = kv_main_v52 (F := F) (m ((c.tc : Thread nD τ).loc main_arg1)) ∧ Wk0 m c (Proc.devRef .tc main_v54) = kv_main_v54 (F := F) (m ((c.tc : Thread nD τ).loc main_arg0)) ∧ Wk0 m c (Proc.devRef .tc main_v65) = kv_main_v65 (F := F) (m ((c.tc : Thread nD τ).loc main_arg1)) ∧ Wk0 m c (Proc.devRef .tc main_c_11) = kv_main_c_11 (F := F) ∧ Wk0 m c (Proc.devRef .tc main_c_12) = kv_main_c_12 (F := F) := by
  exact st0 (fun b => m (c, b)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) rfl rfl rfl rfl rfl

theorem live1 (c : Dev nD) : Wk1 m c (Proc.devRef .tc main_arg2) = m ((c.tc : Thread nD τ).loc main_arg2) ∧ Wk1 m c (Proc.devRef .tc main_arg3) = m ((c.tc : Thread nD τ).loc main_arg3) ∧ Wk1 m c (Proc.devRef .tc main_arg4) = m ((c.tc : Thread nD τ).loc main_arg4) ∧ Wk1 m c (Proc.devRef .tc main_v42) = kv_main_v42 (F := F) (m ((c.tc : Thread nD τ).loc main_arg1)) ∧ Wk1 m c (Proc.devRef .tc main_v45) = kv_main_v45 (F := F) (m ((c.tc : Thread nD τ).loc main_arg1)) ∧ Wk1 m c (Proc.devRef .tc main_v48) = kv_main_v48 (F := F) (m ((c.tc : Thread nD τ).loc main_arg1)) ∧ Wk1 m c (Proc.devRef .tc main_v50) = kv_main_v50 (F := F) (m ((c.tc : Thread nD τ).loc main_arg1)) ∧ Wk1 m c (Proc.devRef .tc main_v52) = kv_main_v52 (F := F) (m ((c.tc : Thread nD τ).loc main_arg1)) ∧ Wk1 m c (Proc.devRef .tc main_v54) = kv_main_v54 (F := F) (m ((c.tc : Thread nD τ).loc main_arg0)) ∧ Wk1 m c (Proc.devRef .tc main_v65) = kv_main_v65 (F := F) (m ((c.tc : Thread nD τ).loc main_arg1)) ∧ Wk1 m c (Proc.devRef .tc main_v66) = kv_main_v66 (F := F) (m ((c.tc : Thread nD τ).loc main_arg1)) := by
  exact st1 (Wk0 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live0 m c).1 (live0 m c).2.1 (live0 m c).2.2.1 (live0 m c).2.2.2.1 (live0 m c).2.2.2.2.1 (live0 m c).2.2.2.2.2.1 (live0 m c).2.2.2.2.2.2.1 (live0 m c).2.2.2.2.2.2.2.1 (live0 m c).2.2.2.2.2.2.2.2.1 (live0 m c).2.2.2.2.2.2.2.2.2.1 (live0 m c).2.2.2.2.2.2.2.2.2.2.1 (live0 m c).2.2.2.2.2.2.2.2.2.2.2

theorem live2 (c : Dev nD) : Wk2 m c (Proc.devRef .tc main_arg2) = m ((c.tc : Thread nD τ).loc main_arg2) ∧ Wk2 m c (Proc.devRef .tc main_arg3) = m ((c.tc : Thread nD τ).loc main_arg3) ∧ Wk2 m c (Proc.devRef .tc main_arg4) = m ((c.tc : Thread nD τ).loc main_arg4) ∧ Wk2 m c (Proc.devRef .tc main_v42) = kv_main_v42 (F := F) (m ((c.tc : Thread nD τ).loc main_arg1)) ∧ Wk2 m c (Proc.devRef .tc main_v45) = kv_main_v45 (F := F) (m ((c.tc : Thread nD τ).loc main_arg1)) ∧ Wk2 m c (Proc.devRef .tc main_v48) = kv_main_v48 (F := F) (m ((c.tc : Thread nD τ).loc main_arg1)) ∧ Wk2 m c (Proc.devRef .tc main_v50) = kv_main_v50 (F := F) (m ((c.tc : Thread nD τ).loc main_arg1)) ∧ Wk2 m c (Proc.devRef .tc main_v52) = kv_main_v52 (F := F) (m ((c.tc : Thread nD τ).loc main_arg1)) ∧ Wk2 m c (Proc.devRef .tc main_v54) = kv_main_v54 (F := F) (m ((c.tc : Thread nD τ).loc main_arg0)) ∧ Wk2 m c (Proc.devRef .tc main_v65) = kv_main_v65 (F := F) (m ((c.tc : Thread nD τ).loc main_arg1)) ∧ Wk2 m c (Proc.devRef .tc main_v68) = kv_main_v68 (F := F) (m ((c.tc : Thread nD τ).loc main_arg1)) ∧ Wk2 m c (Proc.devRef .tc main_c_14) = kv_main_c_14 (F := F) ∧ Wk2 m c (Proc.devRef .tc main_c_15) = kv_main_c_15 (F := F) := by
  exact st2 (Wk1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live1 m c).1 (live1 m c).2.1 (live1 m c).2.2.1 (live1 m c).2.2.2.1 (live1 m c).2.2.2.2.1 (live1 m c).2.2.2.2.2.1 (live1 m c).2.2.2.2.2.2.1 (live1 m c).2.2.2.2.2.2.2.1 (live1 m c).2.2.2.2.2.2.2.2.1 (live1 m c).2.2.2.2.2.2.2.2.2.1 (live1 m c).2.2.2.2.2.2.2.2.2.2

theorem live3 (c : Dev nD) : Wk3 m c (Proc.devRef .tc main_arg2) = m ((c.tc : Thread nD τ).loc main_arg2) ∧ Wk3 m c (Proc.devRef .tc main_arg3) = m ((c.tc : Thread nD τ).loc main_arg3) ∧ Wk3 m c (Proc.devRef .tc main_arg4) = m ((c.tc : Thread nD τ).loc main_arg4) ∧ Wk3 m c (Proc.devRef .tc main_v42) = kv_main_v42 (F := F) (m ((c.tc : Thread nD τ).loc main_arg1)) ∧ Wk3 m c (Proc.devRef .tc main_v45) = kv_main_v45 (F := F) (m ((c.tc : Thread nD τ).loc main_arg1)) ∧ Wk3 m c (Proc.devRef .tc main_v48) = kv_main_v48 (F := F) (m ((c.tc : Thread nD τ).loc main_arg1)) ∧ Wk3 m c (Proc.devRef .tc main_v50) = kv_main_v50 (F := F) (m ((c.tc : Thread nD τ).loc main_arg1)) ∧ Wk3 m c (Proc.devRef .tc main_v52) = kv_main_v52 (F := F) (m ((c.tc : Thread nD τ).loc main_arg1)) ∧ Wk3 m c (Proc.devRef .tc main_v54) = kv_main_v54 (F := F) (m ((c.tc : Thread nD τ).loc main_arg0)) ∧ Wk3 m c (Proc.devRef .tc main_v65) = kv_main_v65 (F := F) (m ((c.tc : Thread nD τ).loc main_arg1)) ∧ Wk3 m c (Proc.devRef .tc main_v68) = kv_main_v68 (F := F) (m ((c.tc : Thread nD τ).loc main_arg1)) ∧ Wk3 m c (Proc.devRef .tc main_v69) = kv_main_v69 (F := F) (m ((c.tc : Thread nD τ).loc main_arg1)) := by
  exact st3 (Wk2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live2 m c).1 (live2 m c).2.1 (live2 m c).2.2.1 (live2 m c).2.2.2.1 (live2 m c).2.2.2.2.1 (live2 m c).2.2.2.2.2.1 (live2 m c).2.2.2.2.2.2.1 (live2 m c).2.2.2.2.2.2.2.1 (live2 m c).2.2.2.2.2.2.2.2.1 (live2 m c).2.2.2.2.2.2.2.2.2.1 (live2 m c).2.2.2.2.2.2.2.2.2.2.1 (live2 m c).2.2.2.2.2.2.2.2.2.2.2.1 (live2 m c).2.2.2.2.2.2.2.2.2.2.2.2

theorem live4 (c : Dev nD) : Wk4 m c (Proc.devRef .tc main_arg2) = m ((c.tc : Thread nD τ).loc main_arg2) ∧ Wk4 m c (Proc.devRef .tc main_arg3) = m ((c.tc : Thread nD τ).loc main_arg3) ∧ Wk4 m c (Proc.devRef .tc main_arg4) = m ((c.tc : Thread nD τ).loc main_arg4) ∧ Wk4 m c (Proc.devRef .tc main_v42) = kv_main_v42 (F := F) (m ((c.tc : Thread nD τ).loc main_arg1)) ∧ Wk4 m c (Proc.devRef .tc main_v45) = kv_main_v45 (F := F) (m ((c.tc : Thread nD τ).loc main_arg1)) ∧ Wk4 m c (Proc.devRef .tc main_v48) = kv_main_v48 (F := F) (m ((c.tc : Thread nD τ).loc main_arg1)) ∧ Wk4 m c (Proc.devRef .tc main_v50) = kv_main_v50 (F := F) (m ((c.tc : Thread nD τ).loc main_arg1)) ∧ Wk4 m c (Proc.devRef .tc main_v52) = kv_main_v52 (F := F) (m ((c.tc : Thread nD τ).loc main_arg1)) ∧ Wk4 m c (Proc.devRef .tc main_v54) = kv_main_v54 (F := F) (m ((c.tc : Thread nD τ).loc main_arg0)) ∧ Wk4 m c (Proc.devRef .tc main_v65) = kv_main_v65 (F := F) (m ((c.tc : Thread nD τ).loc main_arg1)) ∧ Wk4 m c (Proc.devRef .tc main_v71) = kv_main_v71 (F := F) (m ((c.tc : Thread nD τ).loc main_arg1)) := by
  exact st4 (Wk3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live3 m c).1 (live3 m c).2.1 (live3 m c).2.2.1 (live3 m c).2.2.2.1 (live3 m c).2.2.2.2.1 (live3 m c).2.2.2.2.2.1 (live3 m c).2.2.2.2.2.2.1 (live3 m c).2.2.2.2.2.2.2.1 (live3 m c).2.2.2.2.2.2.2.2.1 (live3 m c).2.2.2.2.2.2.2.2.2.1 (live3 m c).2.2.2.2.2.2.2.2.2.2.1 (live3 m c).2.2.2.2.2.2.2.2.2.2.2

theorem live5 (c : Dev nD) : Wk5 m c (Proc.devRef .tc main_arg2) = m ((c.tc : Thread nD τ).loc main_arg2) ∧ Wk5 m c (Proc.devRef .tc main_arg3) = m ((c.tc : Thread nD τ).loc main_arg3) ∧ Wk5 m c (Proc.devRef .tc main_arg4) = m ((c.tc : Thread nD τ).loc main_arg4) ∧ Wk5 m c (Proc.devRef .tc main_v42) = kv_main_v42 (F := F) (m ((c.tc : Thread nD τ).loc main_arg1)) ∧ Wk5 m c (Proc.devRef .tc main_v45) = kv_main_v45 (F := F) (m ((c.tc : Thread nD τ).loc main_arg1)) ∧ Wk5 m c (Proc.devRef .tc main_v48) = kv_main_v48 (F := F) (m ((c.tc : Thread nD τ).loc main_arg1)) ∧ Wk5 m c (Proc.devRef .tc main_v50) = kv_main_v50 (F := F) (m ((c.tc : Thread nD τ).loc main_arg1)) ∧ Wk5 m c (Proc.devRef .tc main_v52) = kv_main_v52 (F := F) (m ((c.tc : Thread nD τ).loc main_arg1)) ∧ Wk5 m c (Proc.devRef .tc main_v54) = kv_main_v54 (F := F) (m ((c.tc : Thread nD τ).loc main_arg0)) ∧ Wk5 m c (Proc.devRef .tc main_v65) = kv_main_v65 (F := F) (m ((c.tc : Thread nD τ).loc main_arg1)) ∧ Wk5 m c (Proc.devRef .tc main_v72) = kv_main_v72 (F := F) (m ((c.tc : Thread nD τ).loc main_arg0)) (m ((c.tc : Thread nD τ).loc main_arg1)) := by
  exact st5 (Wk4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live4 m c).1 (live4 m c).2.1 (live4 m c).2.2.1 (live4 m c).2.2.2.1 (live4 m c).2.2.2.2.1 (live4 m c).2.2.2.2.2.1 (live4 m c).2.2.2.2.2.2.1 (live4 m c).2.2.2.2.2.2.2.1 (live4 m c).2.2.2.2.2.2.2.2.1 (live4 m c).2.2.2.2.2.2.2.2.2.1 (live4 m c).2.2.2.2.2.2.2.2.2.2

theorem live6 (c : Dev nD) : Wk6 m c (Proc.devRef .tc main_arg2) = m ((c.tc : Thread nD τ).loc main_arg2) ∧ Wk6 m c (Proc.devRef .tc main_arg3) = m ((c.tc : Thread nD τ).loc main_arg3) ∧ Wk6 m c (Proc.devRef .tc main_arg4) = m ((c.tc : Thread nD τ).loc main_arg4) ∧ Wk6 m c (Proc.devRef .tc main_v42) = kv_main_v42 (F := F) (m ((c.tc : Thread nD τ).loc main_arg1)) ∧ Wk6 m c (Proc.devRef .tc main_v45) = kv_main_v45 (F := F) (m ((c.tc : Thread nD τ).loc main_arg1)) ∧ Wk6 m c (Proc.devRef .tc main_v48) = kv_main_v48 (F := F) (m ((c.tc : Thread nD τ).loc main_arg1)) ∧ Wk6 m c (Proc.devRef .tc main_v50) = kv_main_v50 (F := F) (m ((c.tc : Thread nD τ).loc main_arg1)) ∧ Wk6 m c (Proc.devRef .tc main_v52) = kv_main_v52 (F := F) (m ((c.tc : Thread nD τ).loc main_arg1)) ∧ Wk6 m c (Proc.devRef .tc main_v54) = kv_main_v54 (F := F) (m ((c.tc : Thread nD τ).loc main_arg0)) ∧ Wk6 m c (Proc.devRef .tc main_v73) = kv_main_v73 (F := F) (m ((c.tc : Thread nD τ).loc main_arg0)) (m ((c.tc : Thread nD τ).loc main_arg1)) ∧ Wk6 m c (Proc.devRef .tc main_v74) = kv_main_v74 (F := F) (m ((c.tc : Thread nD τ).loc main_arg1)) ∧ Wk6 m c (Proc.devRef .tc main_cst) = kv_main_cst (F := F) := by
  exact st6 (Wk5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live5 m c).1 (live5 m c).2.1 (live5 m c).2.2.1 (live5 m c).2.2.2.1 (live5 m c).2.2.2.2.1 (live5 m c).2.2.2.2.2.1 (live5 m c).2.2.2.2.2.2.1 (live5 m c).2.2.2.2.2.2.2.1 (live5 m c).2.2.2.2.2.2.2.2.1 (live5 m c).2.2.2.2.2.2.2.2.2.1 (live5 m c).2.2.2.2.2.2.2.2.2.2

theorem live7 (c : Dev nD) : Wk7 m c (Proc.devRef .tc main_arg2) = m ((c.tc : Thread nD τ).loc main_arg2) ∧ Wk7 m c (Proc.devRef .tc main_arg3) = m ((c.tc : Thread nD τ).loc main_arg3) ∧ Wk7 m c (Proc.devRef .tc main_arg4) = m ((c.tc : Thread nD τ).loc main_arg4) ∧ Wk7 m c (Proc.devRef .tc main_v42) = kv_main_v42 (F := F) (m ((c.tc : Thread nD τ).loc main_arg1)) ∧ Wk7 m c (Proc.devRef .tc main_v45) = kv_main_v45 (F := F) (m ((c.tc : Thread nD τ).loc main_arg1)) ∧ Wk7 m c (Proc.devRef .tc main_v48) = kv_main_v48 (F := F) (m ((c.tc : Thread nD τ).loc main_arg1)) ∧ Wk7 m c (Proc.devRef .tc main_v50) = kv_main_v50 (F := F) (m ((c.tc : Thread nD τ).loc main_arg1)) ∧ Wk7 m c (Proc.devRef .tc main_v52) = kv_main_v52 (F := F) (m ((c.tc : Thread nD τ).loc main_arg1)) ∧ Wk7 m c (Proc.devRef .tc main_v54) = kv_main_v54 (F := F) (m ((c.tc : Thread nD τ).loc main_arg0)) ∧ Wk7 m c (Proc.devRef .tc main_v75) = kv_main_v75 (F := F) (m ((c.tc : Thread nD τ).loc main_arg0)) (m ((c.tc : Thread nD τ).loc main_arg1)) := by
  exact st7 (Wk6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live6 m c).1 (live6 m c).2.1 (live6 m c).2.2.1 (live6 m c).2.2.2.1 (live6 m c).2.2.2.2.1 (live6 m c).2.2.2.2.2.1 (live6 m c).2.2.2.2.2.2.1 (live6 m c).2.2.2.2.2.2.2.1 (live6 m c).2.2.2.2.2.2.2.2.1 (live6 m c).2.2.2.2.2.2.2.2.2.1 (live6 m c).2.2.2.2.2.2.2.2.2.2.1 (live6 m c).2.2.2.2.2.2.2.2.2.2.2

theorem live8 (c : Dev nD) : Wk8 m c (Proc.devRef .tc main_arg2) = m ((c.tc : Thread nD τ).loc main_arg2) ∧ Wk8 m c (Proc.devRef .tc main_arg3) = m ((c.tc : Thread nD τ).loc main_arg3) ∧ Wk8 m c (Proc.devRef .tc main_arg4) = m ((c.tc : Thread nD τ).loc main_arg4) ∧ Wk8 m c (Proc.devRef .tc main_v42) = kv_main_v42 (F := F) (m ((c.tc : Thread nD τ).loc main_arg1)) ∧ Wk8 m c (Proc.devRef .tc main_v45) = kv_main_v45 (F := F) (m ((c.tc : Thread nD τ).loc main_arg1)) ∧ Wk8 m c (Proc.devRef .tc main_v48) = kv_main_v48 (F := F) (m ((c.tc : Thread nD τ).loc main_arg1)) ∧ Wk8 m c (Proc.devRef .tc main_v50) = kv_main_v50 (F := F) (m ((c.tc : Thread nD τ).loc main_arg1)) ∧ Wk8 m c (Proc.devRef .tc main_v52) = kv_main_v52 (F := F) (m ((c.tc : Thread nD τ).loc main_arg1)) ∧ Wk8 m c (Proc.devRef .tc main_v54) = kv_main_v54 (F := F) (m ((c.tc : Thread nD τ).loc main_arg0)) ∧ Wk8 m c (Proc.devRef .tc main_v75) = kv_main_v75 (F := F) (m ((c.tc : Thread nD τ).loc main_arg0)) (m ((c.tc : Thread nD τ).loc main_arg1)) ∧ Wk8 m c (Proc.devRef .tc main_v86) = kv_main_v86 (F := F) (m ((c.tc : Thread nD τ).loc main_arg1)) ∧ Wk8 m c (Proc.devRef .tc main_c_20) = kv_main_c_20 (F := F) ∧ Wk8 m c (Proc.devRef .tc main_c_21) = kv_main_c_21 (F := F) := by
  exact st8 (Wk7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live7 m c).1 (live7 m c).2.1 (live7 m c).2.2.1 (live7 m c).2.2.2.1 (live7 m c).2.2.2.2.1 (live7 m c).2.2.2.2.2.1 (live7 m c).2.2.2.2.2.2.1 (live7 m c).2.2.2.2.2.2.2.1 (live7 m c).2.2.2.2.2.2.2.2.1 (live7 m c).2.2.2.2.2.2.2.2.2

theorem live9 (c : Dev nD) : Wk9 m c (Proc.devRef .tc main_arg2) = m ((c.tc : Thread nD τ).loc main_arg2) ∧ Wk9 m c (Proc.devRef .tc main_arg3) = m ((c.tc : Thread nD τ).loc main_arg3) ∧ Wk9 m c (Proc.devRef .tc main_arg4) = m ((c.tc : Thread nD τ).loc main_arg4) ∧ Wk9 m c (Proc.devRef .tc main_v42) = kv_main_v42 (F := F) (m ((c.tc : Thread nD τ).loc main_arg1)) ∧ Wk9 m c (Proc.devRef .tc main_v45) = kv_main_v45 (F := F) (m ((c.tc : Thread nD τ).loc main_arg1)) ∧ Wk9 m c (Proc.devRef .tc main_v48) = kv_main_v48 (F := F) (m ((c.tc : Thread nD τ).loc main_arg1)) ∧ Wk9 m c (Proc.devRef .tc main_v50) = kv_main_v50 (F := F) (m ((c.tc : Thread nD τ).loc main_arg1)) ∧ Wk9 m c (Proc.devRef .tc main_v52) = kv_main_v52 (F := F) (m ((c.tc : Thread nD τ).loc main_arg1)) ∧ Wk9 m c (Proc.devRef .tc main_v54) = kv_main_v54 (F := F) (m ((c.tc : Thread nD τ).loc main_arg0)) ∧ Wk9 m c (Proc.devRef .tc main_v75) = kv_main_v75 (F := F) (m ((c.tc : Thread nD τ).loc main_arg0)) (m ((c.tc : Thread nD τ).loc main_arg1)) ∧ Wk9 m c (Proc.devRef .tc main_v86) = kv_main_v86 (F := F) (m ((c.tc : Thread nD τ).loc main_arg1)) ∧ Wk9 m c (Proc.devRef .tc main_v87) = kv_main_v87 (F := F) (m ((c.tc : Thread nD τ).loc main_arg1)) := by
  exact st9 (Wk8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live8 m c).1 (live8 m c).2.1 (live8 m c).2.2.1 (live8 m c).2.2.2.1 (live8 m c).2.2.2.2.1 (live8 m c).2.2.2.2.2.1 (live8 m c).2.2.2.2.2.2.1 (live8 m c).2.2.2.2.2.2.2.1 (live8 m c).2.2.2.2.2.2.2.2.1 (live8 m c).2.2.2.2.2.2.2.2.2.1 (live8 m c).2.2.2.2.2.2.2.2.2.2.1 (live8 m c).2.2.2.2.2.2.2.2.2.2.2.1 (live8 m c).2.2.2.2.2.2.2.2.2.2.2.2

theorem live10 (c : Dev nD) : Wk10 m c (Proc.devRef .tc main_arg2) = m ((c.tc : Thread nD τ).loc main_arg2) ∧ Wk10 m c (Proc.devRef .tc main_arg3) = m ((c.tc : Thread nD τ).loc main_arg3) ∧ Wk10 m c (Proc.devRef .tc main_arg4) = m ((c.tc : Thread nD τ).loc main_arg4) ∧ Wk10 m c (Proc.devRef .tc main_v42) = kv_main_v42 (F := F) (m ((c.tc : Thread nD τ).loc main_arg1)) ∧ Wk10 m c (Proc.devRef .tc main_v45) = kv_main_v45 (F := F) (m ((c.tc : Thread nD τ).loc main_arg1)) ∧ Wk10 m c (Proc.devRef .tc main_v48) = kv_main_v48 (F := F) (m ((c.tc : Thread nD τ).loc main_arg1)) ∧ Wk10 m c (Proc.devRef .tc main_v50) = kv_main_v50 (F := F) (m ((c.tc : Thread nD τ).loc main_arg1)) ∧ Wk10 m c (Proc.devRef .tc main_v52) = kv_main_v52 (F := F) (m ((c.tc : Thread nD τ).loc main_arg1)) ∧ Wk10 m c (Proc.devRef .tc main_v54) = kv_main_v54 (F := F) (m ((c.tc : Thread nD τ).loc main_arg0)) ∧ Wk10 m c (Proc.devRef .tc main_v75) = kv_main_v75 (F := F) (m ((c.tc : Thread nD τ).loc main_arg0)) (m ((c.tc : Thread nD τ).loc main_arg1)) ∧ Wk10 m c (Proc.devRef .tc main_v86) = kv_main_v86 (F := F) (m ((c.tc : Thread nD τ).loc main_arg1)) ∧ Wk10 m c (Proc.devRef .tc main_v89) = kv_main_v89 (F := F) (m ((c.tc : Thread nD τ).loc main_arg1)) ∧ Wk10 m c (Proc.devRef .tc main_c_23) = kv_main_c_23 (F := F) ∧ Wk10 m c (Proc.devRef .tc main_c_24) = kv_main_c_24 (F := F) := by
  exact st10 (Wk9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live9 m c).1 (live9 m c).2.1 (live9 m c).2.2.1 (live9 m c).2.2.2.1 (live9 m c).2.2.2.2.1 (live9 m c).2.2.2.2.2.1 (live9 m c).2.2.2.2.2.2.1 (live9 m c).2.2.2.2.2.2.2.1 (live9 m c).2.2.2.2.2.2.2.2.1 (live9 m c).2.2.2.2.2.2.2.2.2.1 (live9 m c).2.2.2.2.2.2.2.2.2.2.1 (live9 m c).2.2.2.2.2.2.2.2.2.2.2

theorem live11 (c : Dev nD) : Wk11 m c (Proc.devRef .tc main_arg2) = m ((c.tc : Thread nD τ).loc main_arg2) ∧ Wk11 m c (Proc.devRef .tc main_arg3) = m ((c.tc : Thread nD τ).loc main_arg3) ∧ Wk11 m c (Proc.devRef .tc main_arg4) = m ((c.tc : Thread nD τ).loc main_arg4) ∧ Wk11 m c (Proc.devRef .tc main_v42) = kv_main_v42 (F := F) (m ((c.tc : Thread nD τ).loc main_arg1)) ∧ Wk11 m c (Proc.devRef .tc main_v45) = kv_main_v45 (F := F) (m ((c.tc : Thread nD τ).loc main_arg1)) ∧ Wk11 m c (Proc.devRef .tc main_v48) = kv_main_v48 (F := F) (m ((c.tc : Thread nD τ).loc main_arg1)) ∧ Wk11 m c (Proc.devRef .tc main_v50) = kv_main_v50 (F := F) (m ((c.tc : Thread nD τ).loc main_arg1)) ∧ Wk11 m c (Proc.devRef .tc main_v52) = kv_main_v52 (F := F) (m ((c.tc : Thread nD τ).loc main_arg1)) ∧ Wk11 m c (Proc.devRef .tc main_v54) = kv_main_v54 (F := F) (m ((c.tc : Thread nD τ).loc main_arg0)) ∧ Wk11 m c (Proc.devRef .tc main_v75) = kv_main_v75 (F := F) (m ((c.tc : Thread nD τ).loc main_arg0)) (m ((c.tc : Thread nD τ).loc main_arg1)) ∧ Wk11 m c (Proc.devRef .tc main_v86) = kv_main_v86 (F := F) (m ((c.tc : Thread nD τ).loc main_arg1)) ∧ Wk11 m c (Proc.devRef .tc main_v89) = kv_main_v89 (F := F) (m ((c.tc : Thread nD τ).loc main_arg1)) ∧ Wk11 m c (Proc.devRef .tc main_v90) = kv_main_v90 (F := F) (m ((c.tc : Thread nD τ).loc main_arg1)) := by
  exact st11 (Wk10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live10 m c).1 (live10 m c).2.1 (live10 m c).2.2.1 (live10 m c).2.2.2.1 (live10 m c).2.2.2.2.1 (live10 m c).2.2.2.2.2.1 (live10 m c).2.2.2.2.2.2.1 (live10 m c).2.2.2.2.2.2.2.1 (live10 m c).2.2.2.2.2.2.2.2.1 (live10 m c).2.2.2.2.2.2.2.2.2.1 (live10 m c).2.2.2.2.2.2.2.2.2.2.1 (live10 m c).2.2.2.2.2.2.2.2.2.2.2.1 (live10 m c).2.2.2.2.2.2.2.2.2.2.2.2.1 (live10 m c).2.2.2.2.2.2.2.2.2.2.2.2.2

theorem live12 (c : Dev nD) : Wk12 m c (Proc.devRef .tc main_arg2) = m ((c.tc : Thread nD τ).loc main_arg2) ∧ Wk12 m c (Proc.devRef .tc main_arg3) = m ((c.tc : Thread nD τ).loc main_arg3) ∧ Wk12 m c (Proc.devRef .tc main_arg4) = m ((c.tc : Thread nD τ).loc main_arg4) ∧ Wk12 m c (Proc.devRef .tc main_v42) = kv_main_v42 (F := F) (m ((c.tc : Thread nD τ).loc main_arg1)) ∧ Wk12 m c (Proc.devRef .tc main_v45) = kv_main_v45 (F := F) (m ((c.tc : Thread nD τ).loc main_arg1)) ∧ Wk12 m c (Proc.devRef .tc main_v48) = kv_main_v48 (F := F) (m ((c.tc : Thread nD τ).loc main_arg1)) ∧ Wk12 m c (Proc.devRef .tc main_v50) = kv_main_v50 (F := F) (m ((c.tc : Thread nD τ).loc main_arg1)) ∧ Wk12 m c (Proc.devRef .tc main_v52) = kv_main_v52 (F := F) (m ((c.tc : Thread nD τ).loc main_arg1)) ∧ Wk12 m c (Proc.devRef .tc main_v54) = kv_main_v54 (F := F) (m ((c.tc : Thread nD τ).loc main_arg0)) ∧ Wk12 m c (Proc.devRef .tc main_v75) = kv_main_v75 (F := F) (m ((c.tc : Thread nD τ).loc main_arg0)) (m ((c.tc : Thread nD τ).loc main_arg1)) ∧ Wk12 m c (Proc.devRef .tc main_v86) = kv_main_v86 (F := F) (m ((c.tc : Thread nD τ).loc main_arg1)) ∧ Wk12 m c (Proc.devRef .tc main_v92) = kv_main_v92 (F := F) (m ((c.tc : Thread nD τ).loc main_arg1)) := by
  exact st12 (Wk11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live11 m c).1 (live11 m c).2.1 (live11 m c).2.2.1 (live11 m c).2.2.2.1 (live11 m c).2.2.2.2.1 (live11 m c).2.2.2.2.2.1 (live11 m c).2.2.2.2.2.2.1 (live11 m c).2.2.2.2.2.2.2.1 (live11 m c).2.2.2.2.2.2.2.2.1 (live11 m c).2.2.2.2.2.2.2.2.2.1 (live11 m c).2.2.2.2.2.2.2.2.2.2.1 (live11 m c).2.2.2.2.2.2.2.2.2.2.2.1 (live11 m c).2.2.2.2.2.2.2.2.2.2.2.2

theorem live13 (c : Dev nD) : Wk13 m c (Proc.devRef .tc main_arg2) = m ((c.tc : Thread nD τ).loc main_arg2) ∧ Wk13 m c (Proc.devRef .tc main_arg3) = m ((c.tc : Thread nD τ).loc main_arg3) ∧ Wk13 m c (Proc.devRef .tc main_arg4) = m ((c.tc : Thread nD τ).loc main_arg4) ∧ Wk13 m c (Proc.devRef .tc main_v42) = kv_main_v42 (F := F) (m ((c.tc : Thread nD τ).loc main_arg1)) ∧ Wk13 m c (Proc.devRef .tc main_v45) = kv_main_v45 (F := F) (m ((c.tc : Thread nD τ).loc main_arg1)) ∧ Wk13 m c (Proc.devRef .tc main_v48) = kv_main_v48 (F := F) (m ((c.tc : Thread nD τ).loc main_arg1)) ∧ Wk13 m c (Proc.devRef .tc main_v50) = kv_main_v50 (F := F) (m ((c.tc : Thread nD τ).loc main_arg1)) ∧ Wk13 m c (Proc.devRef .tc main_v52) = kv_main_v52 (F := F) (m ((c.tc : Thread nD τ).loc main_arg1)) ∧ Wk13 m c (Proc.devRef .tc main_v54) = kv_main_v54 (F := F) (m ((c.tc : Thread nD τ).loc main_arg0)) ∧ Wk13 m c (Proc.devRef .tc main_v75) = kv_main_v75 (F := F) (m ((c.tc : Thread nD τ).loc main_arg0)) (m ((c.tc : Thread nD τ).loc main_arg1)) ∧ Wk13 m c (Proc.devRef .tc main_v86) = kv_main_v86 (F := F) (m ((c.tc : Thread nD τ).loc main_arg1)) ∧ Wk13 m c (Proc.devRef .tc main_v93) = kv_main_v93 (F := F) (m ((c.tc : Thread nD τ).loc main_arg0)) (m ((c.tc : Thread nD τ).loc main_arg1)) := by
  exact st13 (Wk12 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live12 m c).1 (live12 m c).2.1 (live12 m c).2.2.1 (live12 m c).2.2.2.1 (live12 m c).2.2.2.2.1 (live12 m c).2.2.2.2.2.1 (live12 m c).2.2.2.2.2.2.1 (live12 m c).2.2.2.2.2.2.2.1 (live12 m c).2.2.2.2.2.2.2.2.1 (live12 m c).2.2.2.2.2.2.2.2.2.1 (live12 m c).2.2.2.2.2.2.2.2.2.2.1 (live12 m c).2.2.2.2.2.2.2.2.2.2.2

theorem live14 (c : Dev nD) : Wk14 m c (Proc.devRef .tc main_arg2) = m ((c.tc : Thread nD τ).loc main_arg2) ∧ Wk14 m c (Proc.devRef .tc main_arg3) = m ((c.tc : Thread nD τ).loc main_arg3) ∧ Wk14 m c (Proc.devRef .tc main_arg4) = m ((c.tc : Thread nD τ).loc main_arg4) ∧ Wk14 m c (Proc.devRef .tc main_v42) = kv_main_v42 (F := F) (m ((c.tc : Thread nD τ).loc main_arg1)) ∧ Wk14 m c (Proc.devRef .tc main_v45) = kv_main_v45 (F := F) (m ((c.tc : Thread nD τ).loc main_arg1)) ∧ Wk14 m c (Proc.devRef .tc main_v48) = kv_main_v48 (F := F) (m ((c.tc : Thread nD τ).loc main_arg1)) ∧ Wk14 m c (Proc.devRef .tc main_v50) = kv_main_v50 (F := F) (m ((c.tc : Thread nD τ).loc main_arg1)) ∧ Wk14 m c (Proc.devRef .tc main_v52) = kv_main_v52 (F := F) (m ((c.tc : Thread nD τ).loc main_arg1)) ∧ Wk14 m c (Proc.devRef .tc main_v54) = kv_main_v54 (F := F) (m ((c.tc : Thread nD τ).loc main_arg0)) ∧ Wk14 m c (Proc.devRef .tc main_v75) = kv_main_v75 (F := F) (m ((c.tc : Thread nD τ).loc main_arg0)) (m ((c.tc : Thread nD τ).loc main_arg1)) ∧ Wk14 m c (Proc.devRef .tc main_v94) = kv_main_v94 (F := F) (m ((c.tc : Thread nD τ).loc main_arg0)) (m ((c.tc : Thread nD τ).loc main_arg1)) ∧ Wk14 m c (Proc.devRef .tc main_v95) = kv_main_v95 (F := F) (m ((c.tc : Thread nD τ).loc main_arg1)) ∧ Wk14 m c (Proc.devRef .tc main_cst_25) = kv_main_cst_25 (F := F) := by
  exact st14 (Wk13 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live13 m c).1 (live13 m c).2.1 (live13 m c).2.2.1 (live13 m c).2.2.2.1 (live13 m c).2.2.2.2.1 (live13 m c).2.2.2.2.2.1 (live13 m c).2.2.2.2.2.2.1 (live13 m c).2.2.2.2.2.2.2.1 (live13 m c).2.2.2.2.2.2.2.2.1 (live13 m c).2.2.2.2.2.2.2.2.2.1 (live13 m c).2.2.2.2.2.2.2.2.2.2.1 (live13 m c).2.2.2.2.2.2.2.2.2.2.2

theorem live15 (c : Dev nD) : Wk15 m c (Proc.devRef .tc main_arg2) = m ((c.tc : Thread nD τ).loc main_arg2) ∧ Wk15 m c (Proc.devRef .tc main_arg3) = m ((c.tc : Thread nD τ).loc main_arg3) ∧ Wk15 m c (Proc.devRef .tc main_arg4) = m ((c.tc : Thread nD τ).loc main_arg4) ∧ Wk15 m c (Proc.devRef .tc main_v42) = kv_main_v42 (F := F) (m ((c.tc : Thread nD τ).loc main_arg1)) ∧ Wk15 m c (Proc.devRef .tc main_v45) = kv_main_v45 (F := F) (m ((c.tc : Thread nD τ).loc main_arg1)) ∧ Wk15 m c (Proc.devRef .tc main_v48) = kv_main_v48 (F := F) (m ((c.tc : Thread nD τ).loc main_arg1)) ∧ Wk15 m c (Proc.devRef .tc main_v50) = kv_main_v50 (F := F) (m ((c.tc : Thread nD τ).loc main_arg1)) ∧ Wk15 m c (Proc.devRef .tc main_v52) = kv_main_v52 (F := F) (m ((c.tc : Thread nD τ).loc main_arg1)) ∧ Wk15 m c (Proc.devRef .tc main_v54) = kv_main_v54 (F := F) (m ((c.tc : Thread nD τ).loc main_arg0)) ∧ Wk15 m c (Proc.devRef .tc main_v75) = kv_main_v75 (F := F) (m ((c.tc : Thread nD τ).loc main_arg0)) (m ((c.tc : Thread nD τ).loc main_arg1)) ∧ Wk15 m c (Proc.devRef .tc main_v96) = kv_main_v96 (F := F) (m ((c.tc : Thread nD τ).loc main_arg0)) (m ((c.tc : Thread nD τ).loc main_arg1)) := by
  exact st15 (Wk14 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live14 m c).1 (live14 m c).2.1 (live14 m c).2.2.1 (live14 m c).2.2.2.1 (live14 m c).2.2.2.2.1 (live14 m c).2.2.2.2.2.1 (live14 m c).2.2.2.2.2.2.1 (live14 m c).2.2.2.2.2.2.2.1 (live14 m c).2.2.2.2.2.2.2.2.1 (live14 m c).2.2.2.2.2.2.2.2.2.1 (live14 m c).2.2.2.2.2.2.2.2.2.2.1 (live14 m c).2.2.2.2.2.2.2.2.2.2.2.1 (live14 m c).2.2.2.2.2.2.2.2.2.2.2.2

theorem live16 (c : Dev nD) : Wk16 m c (Proc.devRef .tc main_arg2) = m ((c.tc : Thread nD τ).loc main_arg2) ∧ Wk16 m c (Proc.devRef .tc main_arg3) = m ((c.tc : Thread nD τ).loc main_arg3) ∧ Wk16 m c (Proc.devRef .tc main_arg4) = m ((c.tc : Thread nD τ).loc main_arg4) ∧ Wk16 m c (Proc.devRef .tc main_v42) = kv_main_v42 (F := F) (m ((c.tc : Thread nD τ).loc main_arg1)) ∧ Wk16 m c (Proc.devRef .tc main_v45) = kv_main_v45 (F := F) (m ((c.tc : Thread nD τ).loc main_arg1)) ∧ Wk16 m c (Proc.devRef .tc main_v48) = kv_main_v48 (F := F) (m ((c.tc : Thread nD τ).loc main_arg1)) ∧ Wk16 m c (Proc.devRef .tc main_v50) = kv_main_v50 (F := F) (m ((c.tc : Thread nD τ).loc main_arg1)) ∧ Wk16 m c (Proc.devRef .tc main_v52) = kv_main_v52 (F := F) (m ((c.tc : Thread nD τ).loc main_arg1)) ∧ Wk16 m c (Proc.devRef .tc main_v54) = kv_main_v54 (F := F) (m ((c.tc : Thread nD τ).loc main_arg0)) ∧ Wk16 m c (Proc.devRef .tc main_v75) = kv_main_v75 (F := F) (m ((c.tc : Thread nD τ).loc main_arg0)) (m ((c.tc : Thread nD τ).loc main_arg1)) ∧ Wk16 m c (Proc.devRef .tc main_v96) = kv_main_v96 (F := F) (m ((c.tc : Thread nD τ).loc main_arg0)) (m ((c.tc : Thread nD τ).loc main_arg1)) ∧ Wk16 m c (Proc.devRef .tc main_v107) = kv_main_v107 (F := F) (m ((c.tc : Thread nD τ).loc main_arg1)) ∧ Wk16 m c (Proc.devRef .tc main_c_30) = kv_main_c_30 (F := F) ∧ Wk16 m c (Proc.devRef .tc main_c_31) = kv_main_c_31 (F := F) := by
  exact st16 (Wk15 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live15 m c).1 (live15 m c).2.1 (live15 m c).2.2.1 (live15 m c).2.2.2.1 (live15 m c).2.2.2.2.1 (live15 m c).2.2.2.2.2.1 (live15 m c).2.2.2.2.2.2.1 (live15 m c).2.2.2.2.2.2.2.1 (live15 m c).2.2.2.2.2.2.2.2.1 (live15 m c).2.2.2.2.2.2.2.2.2.1 (live15 m c).2.2.2.2.2.2.2.2.2.2

theorem live17 (c : Dev nD) : Wk17 m c (Proc.devRef .tc main_arg2) = m ((c.tc : Thread nD τ).loc main_arg2) ∧ Wk17 m c (Proc.devRef .tc main_arg3) = m ((c.tc : Thread nD τ).loc main_arg3) ∧ Wk17 m c (Proc.devRef .tc main_arg4) = m ((c.tc : Thread nD τ).loc main_arg4) ∧ Wk17 m c (Proc.devRef .tc main_v42) = kv_main_v42 (F := F) (m ((c.tc : Thread nD τ).loc main_arg1)) ∧ Wk17 m c (Proc.devRef .tc main_v48) = kv_main_v48 (F := F) (m ((c.tc : Thread nD τ).loc main_arg1)) ∧ Wk17 m c (Proc.devRef .tc main_v50) = kv_main_v50 (F := F) (m ((c.tc : Thread nD τ).loc main_arg1)) ∧ Wk17 m c (Proc.devRef .tc main_v52) = kv_main_v52 (F := F) (m ((c.tc : Thread nD τ).loc main_arg1)) ∧ Wk17 m c (Proc.devRef .tc main_v54) = kv_main_v54 (F := F) (m ((c.tc : Thread nD τ).loc main_arg0)) ∧ Wk17 m c (Proc.devRef .tc main_v75) = kv_main_v75 (F := F) (m ((c.tc : Thread nD τ).loc main_arg0)) (m ((c.tc : Thread nD τ).loc main_arg1)) ∧ Wk17 m c (Proc.devRef .tc main_v96) = kv_main_v96 (F := F) (m ((c.tc : Thread nD τ).loc main_arg0)) (m ((c.tc : Thread nD τ).loc main_arg1)) ∧ Wk17 m c (Proc.devRef .tc main_v107) = kv_main_v107 (F := F) (m ((c.tc : Thread nD τ).loc main_arg1)) ∧ Wk17 m c (Proc.devRef .tc main_v108) = kv_main_v108 (F := F) (m ((c.tc : Thread nD τ).loc main_arg1)) := by
  exact st17 (Wk16 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live16 m c).1 (live16 m c).2.1 (live16 m c).2.2.1 (live16 m c).2.2.2.1 (live16 m c).2.2.2.2.1 (live16 m c).2.2.2.2.2.1 (live16 m c).2.2.2.2.2.2.1 (live16 m c).2.2.2.2.2.2.2.1 (live16 m c).2.2.2.2.2.2.2.2.1 (live16 m c).2.2.2.2.2.2.2.2.2.1 (live16 m c).2.2.2.2.2.2.2.2.2.2.1 (live16 m c).2.2.2.2.2.2.2.2.2.2.2.1 (live16 m c).2.2.2.2.2.2.2.2.2.2.2.2.1 (live16 m c).2.2.2.2.2.2.2.2.2.2.2.2.2

theorem live18 (c : Dev nD) : Wk18 m c (Proc.devRef .tc main_arg2) = m ((c.tc : Thread nD τ).loc main_arg2) ∧ Wk18 m c (Proc.devRef .tc main_arg3) = m ((c.tc : Thread nD τ).loc main_arg3) ∧ Wk18 m c (Proc.devRef .tc main_arg4) = m ((c.tc : Thread nD τ).loc main_arg4) ∧ Wk18 m c (Proc.devRef .tc main_v42) = kv_main_v42 (F := F) (m ((c.tc : Thread nD τ).loc main_arg1)) ∧ Wk18 m c (Proc.devRef .tc main_v48) = kv_main_v48 (F := F) (m ((c.tc : Thread nD τ).loc main_arg1)) ∧ Wk18 m c (Proc.devRef .tc main_v50) = kv_main_v50 (F := F) (m ((c.tc : Thread nD τ).loc main_arg1)) ∧ Wk18 m c (Proc.devRef .tc main_v52) = kv_main_v52 (F := F) (m ((c.tc : Thread nD τ).loc main_arg1)) ∧ Wk18 m c (Proc.devRef .tc main_v54) = kv_main_v54 (F := F) (m ((c.tc : Thread nD τ).loc main_arg0)) ∧ Wk18 m c (Proc.devRef .tc main_v75) = kv_main_v75 (F := F) (m ((c.tc : Thread nD τ).loc main_arg0)) (m ((c.tc : Thread nD τ).loc main_arg1)) ∧ Wk18 m c (Proc.devRef .tc main_v96) = kv_main_v96 (F := F) (m ((c.tc : Thread nD τ).loc main_arg0)) (m ((c.tc : Thread nD τ).loc main_arg1)) ∧ Wk18 m c (Proc.devRef .tc main_v107) = kv_main_v107 (F := F) (m ((c.tc : Thread nD τ).loc main_arg1)) ∧ Wk18 m c (Proc.devRef .tc main_v110) = kv_main_v110 (F := F) (m ((c.tc : Thread nD τ).loc main_arg1)) ∧ Wk18 m c (Proc.devRef .tc main_c_33) = kv_main_c_33 (F := F) ∧ Wk18 m c (Proc.devRef .tc main_c_34) = kv_main_c_34 (F := F) := by
  exact st18 (Wk17 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live17 m c).1 (live17 m c).2.1 (live17 m c).2.2.1 (live17 m c).2.2.2.1 (live17 m c).2.2.2.2.1 (live17 m c).2.2.2.2.2.1 (live17 m c).2.2.2.2.2.2.1 (live17 m c).2.2.2.2.2.2.2.1 (live17 m c).2.2.2.2.2.2.2.2.1 (live17 m c).2.2.2.2.2.2.2.2.2.1 (live17 m c).2.2.2.2.2.2.2.2.2.2.1 (live17 m c).2.2.2.2.2.2.2.2.2.2.2

theorem live19 (c : Dev nD) : Wk19 m c (Proc.devRef .tc main_arg2) = m ((c.tc : Thread nD τ).loc main_arg2) ∧ Wk19 m c (Proc.devRef .tc main_arg3) = m ((c.tc : Thread nD τ).loc main_arg3) ∧ Wk19 m c (Proc.devRef .tc main_arg4) = m ((c.tc : Thread nD τ).loc main_arg4) ∧ Wk19 m c (Proc.devRef .tc main_v42) = kv_main_v42 (F := F) (m ((c.tc : Thread nD τ).loc main_arg1)) ∧ Wk19 m c (Proc.devRef .tc main_v48) = kv_main_v48 (F := F) (m ((c.tc : Thread nD τ).loc main_arg1)) ∧ Wk19 m c (Proc.devRef .tc main_v50) = kv_main_v50 (F := F) (m ((c.tc : Thread nD τ).loc main_arg1)) ∧ Wk19 m c (Proc.devRef .tc main_v54) = kv_main_v54 (F := F) (m ((c.tc : Thread nD τ).loc main_arg0)) ∧ Wk19 m c (Proc.devRef .tc main_v75) = kv_main_v75 (F := F) (m ((c.tc : Thread nD τ).loc main_arg0)) (m ((c.tc : Thread nD τ).loc main_arg1)) ∧ Wk19 m c (Proc.devRef .tc main_v96) = kv_main_v96 (F := F) (m ((c.tc : Thread nD τ).loc main_arg0)) (m ((c.tc : Thread nD τ).loc main_arg1)) ∧ Wk19 m c (Proc.devRef .tc main_v107) = kv_main_v107 (F := F) (m ((c.tc : Thread nD τ).loc main_arg1)) ∧ Wk19 m c (Proc.devRef .tc main_v110) = kv_main_v110 (F := F) (m ((c.tc : Thread nD τ).loc main_arg1)) ∧ Wk19 m c (Proc.devRef .tc main_v111) = kv_main_v111 (F := F) (m ((c.tc : Thread nD τ).loc main_arg1)) := by
  exact st19 (Wk18 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live18 m c).1 (live18 m c).2.1 (live18 m c).2.2.1 (live18 m c).2.2.2.1 (live18 m c).2.2.2.2.1 (live18 m c).2.2.2.2.2.1 (live18 m c).2.2.2.2.2.2.1 (live18 m c).2.2.2.2.2.2.2.1 (live18 m c).2.2.2.2.2.2.2.2.1 (live18 m c).2.2.2.2.2.2.2.2.2.1 (live18 m c).2.2.2.2.2.2.2.2.2.2.1 (live18 m c).2.2.2.2.2.2.2.2.2.2.2.1 (live18 m c).2.2.2.2.2.2.2.2.2.2.2.2.1 (live18 m c).2.2.2.2.2.2.2.2.2.2.2.2.2

theorem live20 (c : Dev nD) : Wk20 m c (Proc.devRef .tc main_arg2) = m ((c.tc : Thread nD τ).loc main_arg2) ∧ Wk20 m c (Proc.devRef .tc main_arg3) = m ((c.tc : Thread nD τ).loc main_arg3) ∧ Wk20 m c (Proc.devRef .tc main_arg4) = m ((c.tc : Thread nD τ).loc main_arg4) ∧ Wk20 m c (Proc.devRef .tc main_v42) = kv_main_v42 (F := F) (m ((c.tc : Thread nD τ).loc main_arg1)) ∧ Wk20 m c (Proc.devRef .tc main_v48) = kv_main_v48 (F := F) (m ((c.tc : Thread nD τ).loc main_arg1)) ∧ Wk20 m c (Proc.devRef .tc main_v50) = kv_main_v50 (F := F) (m ((c.tc : Thread nD τ).loc main_arg1)) ∧ Wk20 m c (Proc.devRef .tc main_v54) = kv_main_v54 (F := F) (m ((c.tc : Thread nD τ).loc main_arg0)) ∧ Wk20 m c (Proc.devRef .tc main_v75) = kv_main_v75 (F := F) (m ((c.tc : Thread nD τ).loc main_arg0)) (m ((c.tc : Thread nD τ).loc main_arg1)) ∧ Wk20 m c (Proc.devRef .tc main_v96) = kv_main_v96 (F := F) (m ((c.tc : Thread nD τ).loc main_arg0)) (m ((c.tc : Thread nD τ).loc main_arg1)) ∧ Wk20 m c (Proc.devRef .tc main_v107) = kv_main_v107 (F := F) (m ((c.tc : Thread nD τ).loc main_arg1)) ∧ Wk20 m c (Proc.devRef .tc main_v113) = kv_main_v113 (F := F) (m ((c.tc : Thread nD τ).loc main_arg1)) := by
  exact st20 (Wk19 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live19 m c).1 (live19 m c).2.1 (live19 m c).2.2.1 (live19 m c).2.2.2.1 (live19 m c).2.2.2.2.1 (live19 m c).2.2.2.2.2.1 (live19 m c).2.2.2.2.2.2.1 (live19 m c).2.2.2.2.2.2.2.1 (live19 m c).2.2.2.2.2.2.2.2.1 (live19 m c).2.2.2.2.2.2.2.2.2.1 (live19 m c).2.2.2.2.2.2.2.2.2.2.1 (live19 m c).2.2.2.2.2.2.2.2.2.2.2

theorem live21 (c : Dev nD) : Wk21 m c (Proc.devRef .tc main_arg2) = m ((c.tc : Thread nD τ).loc main_arg2) ∧ Wk21 m c (Proc.devRef .tc main_arg3) = m ((c.tc : Thread nD τ).loc main_arg3) ∧ Wk21 m c (Proc.devRef .tc main_arg4) = m ((c.tc : Thread nD τ).loc main_arg4) ∧ Wk21 m c (Proc.devRef .tc main_v42) = kv_main_v42 (F := F) (m ((c.tc : Thread nD τ).loc main_arg1)) ∧ Wk21 m c (Proc.devRef .tc main_v48) = kv_main_v48 (F := F) (m ((c.tc : Thread nD τ).loc main_arg1)) ∧ Wk21 m c (Proc.devRef .tc main_v50) = kv_main_v50 (F := F) (m ((c.tc : Thread nD τ).loc main_arg1)) ∧ Wk21 m c (Proc.devRef .tc main_v54) = kv_main_v54 (F := F) (m ((c.tc : Thread nD τ).loc main_arg0)) ∧ Wk21 m c (Proc.devRef .tc main_v75) = kv_main_v75 (F := F) (m ((c.tc : Thread nD τ).loc main_arg0)) (m ((c.tc : Thread nD τ).loc main_arg1)) ∧ Wk21 m c (Proc.devRef .tc main_v96) = kv_main_v96 (F := F) (m ((c.tc : Thread nD τ).loc main_arg0)) (m ((c.tc : Thread nD τ).loc main_arg1)) ∧ Wk21 m c (Proc.devRef .tc main_v107) = kv_main_v107 (F := F) (m ((c.tc : Thread nD τ).loc main_arg1)) ∧ Wk21 m c (Proc.devRef .tc main_v114) = kv_main_v114 (F := F) (m ((c.tc : Thread nD τ).loc main_arg0)) (m ((c.tc : Thread nD τ).loc main_arg1)) := by
  exact st21 (Wk20 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live20 m c).1 (live20 m c).2.1 (live20 m c).2.2.1 (live20 m c).2.2.2.1 (live20 m c).2.2.2.2.1 (live20 m c).2.2.2.2.2.1 (live20 m c).2.2.2.2.2.2.1 (live20 m c).2.2.2.2.2.2.2.1 (live20 m c).2.2.2.2.2.2.2.2.1 (live20 m c).2.2.2.2.2.2.2.2.2.1 (live20 m c).2.2.2.2.2.2.2.2.2.2

theorem live22 (c : Dev nD) : Wk22 m c (Proc.devRef .tc main_arg2) = m ((c.tc : Thread nD τ).loc main_arg2) ∧ Wk22 m c (Proc.devRef .tc main_arg3) = m ((c.tc : Thread nD τ).loc main_arg3) ∧ Wk22 m c (Proc.devRef .tc main_arg4) = m ((c.tc : Thread nD τ).loc main_arg4) ∧ Wk22 m c (Proc.devRef .tc main_v42) = kv_main_v42 (F := F) (m ((c.tc : Thread nD τ).loc main_arg1)) ∧ Wk22 m c (Proc.devRef .tc main_v48) = kv_main_v48 (F := F) (m ((c.tc : Thread nD τ).loc main_arg1)) ∧ Wk22 m c (Proc.devRef .tc main_v50) = kv_main_v50 (F := F) (m ((c.tc : Thread nD τ).loc main_arg1)) ∧ Wk22 m c (Proc.devRef .tc main_v54) = kv_main_v54 (F := F) (m ((c.tc : Thread nD τ).loc main_arg0)) ∧ Wk22 m c (Proc.devRef .tc main_v75) = kv_main_v75 (F := F) (m ((c.tc : Thread nD τ).loc main_arg0)) (m ((c.tc : Thread nD τ).loc main_arg1)) ∧ Wk22 m c (Proc.devRef .tc main_v96) = kv_main_v96 (F := F) (m ((c.tc : Thread nD τ).loc main_arg0)) (m ((c.tc : Thread nD τ).loc main_arg1)) ∧ Wk22 m c (Proc.devRef .tc main_v115) = kv_main_v115 (F := F) (m ((c.tc : Thread nD τ).loc main_arg0)) (m ((c.tc : Thread nD τ).loc main_arg1)) ∧ Wk22 m c (Proc.devRef .tc main_v116) = kv_main_v116 (F := F) (m ((c.tc : Thread nD τ).loc main_arg1)) ∧ Wk22 m c (Proc.devRef .tc main_cst_35) = kv_main_cst_35 (F := F) := by
  exact st22 (Wk21 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live21 m c).1 (live21 m c).2.1 (live21 m c).2.2.1 (live21 m c).2.2.2.1 (live21 m c).2.2.2.2.1 (live21 m c).2.2.2.2.2.1 (live21 m c).2.2.2.2.2.2.1 (live21 m c).2.2.2.2.2.2.2.1 (live21 m c).2.2.2.2.2.2.2.2.1 (live21 m c).2.2.2.2.2.2.2.2.2.1 (live21 m c).2.2.2.2.2.2.2.2.2.2

theorem live23 (c : Dev nD) : Wk23 m c (Proc.devRef .tc main_arg2) = m ((c.tc : Thread nD τ).loc main_arg2) ∧ Wk23 m c (Proc.devRef .tc main_arg3) = m ((c.tc : Thread nD τ).loc main_arg3) ∧ Wk23 m c (Proc.devRef .tc main_arg4) = m ((c.tc : Thread nD τ).loc main_arg4) ∧ Wk23 m c (Proc.devRef .tc main_v42) = kv_main_v42 (F := F) (m ((c.tc : Thread nD τ).loc main_arg1)) ∧ Wk23 m c (Proc.devRef .tc main_v48) = kv_main_v48 (F := F) (m ((c.tc : Thread nD τ).loc main_arg1)) ∧ Wk23 m c (Proc.devRef .tc main_v50) = kv_main_v50 (F := F) (m ((c.tc : Thread nD τ).loc main_arg1)) ∧ Wk23 m c (Proc.devRef .tc main_v54) = kv_main_v54 (F := F) (m ((c.tc : Thread nD τ).loc main_arg0)) ∧ Wk23 m c (Proc.devRef .tc main_v75) = kv_main_v75 (F := F) (m ((c.tc : Thread nD τ).loc main_arg0)) (m ((c.tc : Thread nD τ).loc main_arg1)) ∧ Wk23 m c (Proc.devRef .tc main_v96) = kv_main_v96 (F := F) (m ((c.tc : Thread nD τ).loc main_arg0)) (m ((c.tc : Thread nD τ).loc main_arg1)) ∧ Wk23 m c (Proc.devRef .tc main_v117) = kv_main_v117 (F := F) (m ((c.tc : Thread nD τ).loc main_arg0)) (m ((c.tc : Thread nD τ).loc main_arg1)) := by
  exact st23 (Wk22 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live22 m c).1 (live22 m c).2.1 (live22 m c).2.2.1 (live22 m c).2.2.2.1 (live22 m c).2.2.2.2.1 (live22 m c).2.2.2.2.2.1 (live22 m c).2.2.2.2.2.2.1 (live22 m c).2.2.2.2.2.2.2.1 (live22 m c).2.2.2.2.2.2.2.2.1 (live22 m c).2.2.2.2.2.2.2.2.2.1 (live22 m c).2.2.2.2.2.2.2.2.2.2.1 (live22 m c).2.2.2.2.2.2.2.2.2.2.2

theorem live24 (c : Dev nD) : Wk24 m c (Proc.devRef .tc main_arg2) = m ((c.tc : Thread nD τ).loc main_arg2) ∧ Wk24 m c (Proc.devRef .tc main_arg3) = m ((c.tc : Thread nD τ).loc main_arg3) ∧ Wk24 m c (Proc.devRef .tc main_arg4) = m ((c.tc : Thread nD τ).loc main_arg4) ∧ Wk24 m c (Proc.devRef .tc main_v42) = kv_main_v42 (F := F) (m ((c.tc : Thread nD τ).loc main_arg1)) ∧ Wk24 m c (Proc.devRef .tc main_v48) = kv_main_v48 (F := F) (m ((c.tc : Thread nD τ).loc main_arg1)) ∧ Wk24 m c (Proc.devRef .tc main_v50) = kv_main_v50 (F := F) (m ((c.tc : Thread nD τ).loc main_arg1)) ∧ Wk24 m c (Proc.devRef .tc main_v54) = kv_main_v54 (F := F) (m ((c.tc : Thread nD τ).loc main_arg0)) ∧ Wk24 m c (Proc.devRef .tc main_v75) = kv_main_v75 (F := F) (m ((c.tc : Thread nD τ).loc main_arg0)) (m ((c.tc : Thread nD τ).loc main_arg1)) ∧ Wk24 m c (Proc.devRef .tc main_v96) = kv_main_v96 (F := F) (m ((c.tc : Thread nD τ).loc main_arg0)) (m ((c.tc : Thread nD τ).loc main_arg1)) ∧ Wk24 m c (Proc.devRef .tc main_v117) = kv_main_v117 (F := F) (m ((c.tc : Thread nD τ).loc main_arg0)) (m ((c.tc : Thread nD τ).loc main_arg1)) ∧ Wk24 m c (Proc.devRef .tc main_v128) = kv_main_v128 (F := F) (m ((c.tc : Thread nD τ).loc main_arg1)) ∧ Wk24 m c (Proc.devRef .tc main_c_40) = kv_main_c_40 (F := F) ∧ Wk24 m c (Proc.devRef .tc main_c_41) = kv_main_c_41 (F := F) := by
  exact st24 (Wk23 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live23 m c).1 (live23 m c).2.1 (live23 m c).2.2.1 (live23 m c).2.2.2.1 (live23 m c).2.2.2.2.1 (live23 m c).2.2.2.2.2.1 (live23 m c).2.2.2.2.2.2.1 (live23 m c).2.2.2.2.2.2.2.1 (live23 m c).2.2.2.2.2.2.2.2.1 (live23 m c).2.2.2.2.2.2.2.2.2

theorem live25 (c : Dev nD) : Wk25 m c (Proc.devRef .tc main_arg2) = m ((c.tc : Thread nD τ).loc main_arg2) ∧ Wk25 m c (Proc.devRef .tc main_arg3) = m ((c.tc : Thread nD τ).loc main_arg3) ∧ Wk25 m c (Proc.devRef .tc main_arg4) = m ((c.tc : Thread nD τ).loc main_arg4) ∧ Wk25 m c (Proc.devRef .tc main_v42) = kv_main_v42 (F := F) (m ((c.tc : Thread nD τ).loc main_arg1)) ∧ Wk25 m c (Proc.devRef .tc main_v48) = kv_main_v48 (F := F) (m ((c.tc : Thread nD τ).loc main_arg1)) ∧ Wk25 m c (Proc.devRef .tc main_v54) = kv_main_v54 (F := F) (m ((c.tc : Thread nD τ).loc main_arg0)) ∧ Wk25 m c (Proc.devRef .tc main_v75) = kv_main_v75 (F := F) (m ((c.tc : Thread nD τ).loc main_arg0)) (m ((c.tc : Thread nD τ).loc main_arg1)) ∧ Wk25 m c (Proc.devRef .tc main_v96) = kv_main_v96 (F := F) (m ((c.tc : Thread nD τ).loc main_arg0)) (m ((c.tc : Thread nD τ).loc main_arg1)) ∧ Wk25 m c (Proc.devRef .tc main_v117) = kv_main_v117 (F := F) (m ((c.tc : Thread nD τ).loc main_arg0)) (m ((c.tc : Thread nD τ).loc main_arg1)) ∧ Wk25 m c (Proc.devRef .tc main_v128) = kv_main_v128 (F := F) (m ((c.tc : Thread nD τ).loc main_arg1)) ∧ Wk25 m c (Proc.devRef .tc main_v129) = kv_main_v129 (F := F) (m ((c.tc : Thread nD τ).loc main_arg1)) := by
  exact st25 (Wk24 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live24 m c).1 (live24 m c).2.1 (live24 m c).2.2.1 (live24 m c).2.2.2.1 (live24 m c).2.2.2.2.1 (live24 m c).2.2.2.2.2.1 (live24 m c).2.2.2.2.2.2.1 (live24 m c).2.2.2.2.2.2.2.1 (live24 m c).2.2.2.2.2.2.2.2.1 (live24 m c).2.2.2.2.2.2.2.2.2.1 (live24 m c).2.2.2.2.2.2.2.2.2.2.1 (live24 m c).2.2.2.2.2.2.2.2.2.2.2.1 (live24 m c).2.2.2.2.2.2.2.2.2.2.2.2

theorem live26 (c : Dev nD) : Wk26 m c (Proc.devRef .tc main_arg2) = m ((c.tc : Thread nD τ).loc main_arg2) ∧ Wk26 m c (Proc.devRef .tc main_arg3) = m ((c.tc : Thread nD τ).loc main_arg3) ∧ Wk26 m c (Proc.devRef .tc main_arg4) = m ((c.tc : Thread nD τ).loc main_arg4) ∧ Wk26 m c (Proc.devRef .tc main_v42) = kv_main_v42 (F := F) (m ((c.tc : Thread nD τ).loc main_arg1)) ∧ Wk26 m c (Proc.devRef .tc main_v48) = kv_main_v48 (F := F) (m ((c.tc : Thread nD τ).loc main_arg1)) ∧ Wk26 m c (Proc.devRef .tc main_v54) = kv_main_v54 (F := F) (m ((c.tc : Thread nD τ).loc main_arg0)) ∧ Wk26 m c (Proc.devRef .tc main_v75) = kv_main_v75 (F := F) (m ((c.tc : Thread nD τ).loc main_arg0)) (m ((c.tc : Thread nD τ).loc main_arg1)) ∧ Wk26 m c (Proc.devRef .tc main_v96) = kv_main_v96 (F := F) (m ((c.tc : Thread nD τ).loc main_arg0)) (m ((c.tc : Thread nD τ).loc main_arg1)) ∧ Wk26 m c (Proc.devRef .tc main_v117) = kv_main_v117 (F := F) (m ((c.tc : Thread nD τ).loc main_arg0)) (m ((c.tc : Thread nD τ).loc main_arg1)) ∧ Wk26 m c (Proc.devRef .tc main_v128) = kv_main_v128 (F := F) (m ((c.tc : Thread nD τ).loc main_arg1)) ∧ Wk26 m c (Proc.devRef .tc main_v131) = kv_main_v131 (F := F) (m ((c.tc : Thread nD τ).loc main_arg1)) ∧ Wk26 m c (Proc.devRef .tc main_c_43) = kv_main_c_43 (F := F) ∧ Wk26 m c (Proc.devRef .tc main_c_44) = kv_main_c_44 (F := F) := by
  exact st26 (Wk25 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live25 m c).1 (live25 m c).2.1 (live25 m c).2.2.1 (live25 m c).2.2.2.1 (live25 m c).2.2.2.2.1 (live25 m c).2.2.2.2.2.1 (live25 m c).2.2.2.2.2.2.1 (live25 m c).2.2.2.2.2.2.2.1 (live25 m c).2.2.2.2.2.2.2.2.1 (live25 m c).2.2.2.2.2.2.2.2.2.1 (live25 m c).2.2.2.2.2.2.2.2.2.2

theorem live27 (c : Dev nD) : Wk27 m c (Proc.devRef .tc main_arg2) = m ((c.tc : Thread nD τ).loc main_arg2) ∧ Wk27 m c (Proc.devRef .tc main_arg3) = m ((c.tc : Thread nD τ).loc main_arg3) ∧ Wk27 m c (Proc.devRef .tc main_arg4) = m ((c.tc : Thread nD τ).loc main_arg4) ∧ Wk27 m c (Proc.devRef .tc main_v42) = kv_main_v42 (F := F) (m ((c.tc : Thread nD τ).loc main_arg1)) ∧ Wk27 m c (Proc.devRef .tc main_v54) = kv_main_v54 (F := F) (m ((c.tc : Thread nD τ).loc main_arg0)) ∧ Wk27 m c (Proc.devRef .tc main_v75) = kv_main_v75 (F := F) (m ((c.tc : Thread nD τ).loc main_arg0)) (m ((c.tc : Thread nD τ).loc main_arg1)) ∧ Wk27 m c (Proc.devRef .tc main_v96) = kv_main_v96 (F := F) (m ((c.tc : Thread nD τ).loc main_arg0)) (m ((c.tc : Thread nD τ).loc main_arg1)) ∧ Wk27 m c (Proc.devRef .tc main_v117) = kv_main_v117 (F := F) (m ((c.tc : Thread nD τ).loc main_arg0)) (m ((c.tc : Thread nD τ).loc main_arg1)) ∧ Wk27 m c (Proc.devRef .tc main_v128) = kv_main_v128 (F := F) (m ((c.tc : Thread nD τ).loc main_arg1)) ∧ Wk27 m c (Proc.devRef .tc main_v131) = kv_main_v131 (F := F) (m ((c.tc : Thread nD τ).loc main_arg1)) ∧ Wk27 m c (Proc.devRef .tc main_v132) = kv_main_v132 (F := F) (m ((c.tc : Thread nD τ).loc main_arg1)) := by
  exact st27 (Wk26 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live26 m c).1 (live26 m c).2.1 (live26 m c).2.2.1 (live26 m c).2.2.2.1 (live26 m c).2.2.2.2.1 (live26 m c).2.2.2.2.2.1 (live26 m c).2.2.2.2.2.2.1 (live26 m c).2.2.2.2.2.2.2.1 (live26 m c).2.2.2.2.2.2.2.2.1 (live26 m c).2.2.2.2.2.2.2.2.2.1 (live26 m c).2.2.2.2.2.2.2.2.2.2.1 (live26 m c).2.2.2.2.2.2.2.2.2.2.2.1 (live26 m c).2.2.2.2.2.2.2.2.2.2.2.2

theorem live28 (c : Dev nD) : Wk28 m c (Proc.devRef .tc main_arg2) = m ((c.tc : Thread nD τ).loc main_arg2) ∧ Wk28 m c (Proc.devRef .tc main_arg3) = m ((c.tc : Thread nD τ).loc main_arg3) ∧ Wk28 m c (Proc.devRef .tc main_arg4) = m ((c.tc : Thread nD τ).loc main_arg4) ∧ Wk28 m c (Proc.devRef .tc main_v42) = kv_main_v42 (F := F) (m ((c.tc : Thread nD τ).loc main_arg1)) ∧ Wk28 m c (Proc.devRef .tc main_v54) = kv_main_v54 (F := F) (m ((c.tc : Thread nD τ).loc main_arg0)) ∧ Wk28 m c (Proc.devRef .tc main_v75) = kv_main_v75 (F := F) (m ((c.tc : Thread nD τ).loc main_arg0)) (m ((c.tc : Thread nD τ).loc main_arg1)) ∧ Wk28 m c (Proc.devRef .tc main_v96) = kv_main_v96 (F := F) (m ((c.tc : Thread nD τ).loc main_arg0)) (m ((c.tc : Thread nD τ).loc main_arg1)) ∧ Wk28 m c (Proc.devRef .tc main_v117) = kv_main_v117 (F := F) (m ((c.tc : Thread nD τ).loc main_arg0)) (m ((c.tc : Thread nD τ).loc main_arg1)) ∧ Wk28 m c (Proc.devRef .tc main_v128) = kv_main_v128 (F := F) (m ((c.tc : Thread nD τ).loc main_arg1)) ∧ Wk28 m c (Proc.devRef .tc main_v134) = kv_main_v134 (F := F) (m ((c.tc : Thread nD τ).loc main_arg1)) := by
  exact st28 (Wk27 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live27 m c).1 (live27 m c).2.1 (live27 m c).2.2.1 (live27 m c).2.2.2.1 (live27 m c).2.2.2.2.1 (live27 m c).2.2.2.2.2.1 (live27 m c).2.2.2.2.2.2.1 (live27 m c).2.2.2.2.2.2.2.1 (live27 m c).2.2.2.2.2.2.2.2.1 (live27 m c).2.2.2.2.2.2.2.2.2.1 (live27 m c).2.2.2.2.2.2.2.2.2.2

theorem live29 (c : Dev nD) : Wk29 m c (Proc.devRef .tc main_arg2) = m ((c.tc : Thread nD τ).loc main_arg2) ∧ Wk29 m c (Proc.devRef .tc main_arg3) = m ((c.tc : Thread nD τ).loc main_arg3) ∧ Wk29 m c (Proc.devRef .tc main_arg4) = m ((c.tc : Thread nD τ).loc main_arg4) ∧ Wk29 m c (Proc.devRef .tc main_v42) = kv_main_v42 (F := F) (m ((c.tc : Thread nD τ).loc main_arg1)) ∧ Wk29 m c (Proc.devRef .tc main_v75) = kv_main_v75 (F := F) (m ((c.tc : Thread nD τ).loc main_arg0)) (m ((c.tc : Thread nD τ).loc main_arg1)) ∧ Wk29 m c (Proc.devRef .tc main_v96) = kv_main_v96 (F := F) (m ((c.tc : Thread nD τ).loc main_arg0)) (m ((c.tc : Thread nD τ).loc main_arg1)) ∧ Wk29 m c (Proc.devRef .tc main_v117) = kv_main_v117 (F := F) (m ((c.tc : Thread nD τ).loc main_arg0)) (m ((c.tc : Thread nD τ).loc main_arg1)) ∧ Wk29 m c (Proc.devRef .tc main_v128) = kv_main_v128 (F := F) (m ((c.tc : Thread nD τ).loc main_arg1)) ∧ Wk29 m c (Proc.devRef .tc main_v135) = kv_main_v135 (F := F) (m ((c.tc : Thread nD τ).loc main_arg0)) (m ((c.tc : Thread nD τ).loc main_arg1)) := by
  exact st29 (Wk28 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live28 m c).1 (live28 m c).2.1 (live28 m c).2.2.1 (live28 m c).2.2.2.1 (live28 m c).2.2.2.2.1 (live28 m c).2.2.2.2.2.1 (live28 m c).2.2.2.2.2.2.1 (live28 m c).2.2.2.2.2.2.2.1 (live28 m c).2.2.2.2.2.2.2.2.1 (live28 m c).2.2.2.2.2.2.2.2.2

theorem live30 (c : Dev nD) : Wk30 m c (Proc.devRef .tc main_arg2) = m ((c.tc : Thread nD τ).loc main_arg2) ∧ Wk30 m c (Proc.devRef .tc main_arg3) = m ((c.tc : Thread nD τ).loc main_arg3) ∧ Wk30 m c (Proc.devRef .tc main_arg4) = m ((c.tc : Thread nD τ).loc main_arg4) ∧ Wk30 m c (Proc.devRef .tc main_v42) = kv_main_v42 (F := F) (m ((c.tc : Thread nD τ).loc main_arg1)) ∧ Wk30 m c (Proc.devRef .tc main_v75) = kv_main_v75 (F := F) (m ((c.tc : Thread nD τ).loc main_arg0)) (m ((c.tc : Thread nD τ).loc main_arg1)) ∧ Wk30 m c (Proc.devRef .tc main_v96) = kv_main_v96 (F := F) (m ((c.tc : Thread nD τ).loc main_arg0)) (m ((c.tc : Thread nD τ).loc main_arg1)) ∧ Wk30 m c (Proc.devRef .tc main_v117) = kv_main_v117 (F := F) (m ((c.tc : Thread nD τ).loc main_arg0)) (m ((c.tc : Thread nD τ).loc main_arg1)) ∧ Wk30 m c (Proc.devRef .tc main_v136) = kv_main_v136 (F := F) (m ((c.tc : Thread nD τ).loc main_arg0)) (m ((c.tc : Thread nD τ).loc main_arg1)) ∧ Wk30 m c (Proc.devRef .tc main_v137) = kv_main_v137 (F := F) (m ((c.tc : Thread nD τ).loc main_arg1)) ∧ Wk30 m c (Proc.devRef .tc main_cst_45) = kv_main_cst_45 (F := F) := by
  exact st30 (Wk29 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live29 m c).1 (live29 m c).2.1 (live29 m c).2.2.1 (live29 m c).2.2.2.1 (live29 m c).2.2.2.2.1 (live29 m c).2.2.2.2.2.1 (live29 m c).2.2.2.2.2.2.1 (live29 m c).2.2.2.2.2.2.2.1 (live29 m c).2.2.2.2.2.2.2.2

theorem live31 (c : Dev nD) : Wk31 m c (Proc.devRef .tc main_arg2) = m ((c.tc : Thread nD τ).loc main_arg2) ∧ Wk31 m c (Proc.devRef .tc main_arg3) = m ((c.tc : Thread nD τ).loc main_arg3) ∧ Wk31 m c (Proc.devRef .tc main_arg4) = m ((c.tc : Thread nD τ).loc main_arg4) ∧ Wk31 m c (Proc.devRef .tc main_v42) = kv_main_v42 (F := F) (m ((c.tc : Thread nD τ).loc main_arg1)) ∧ Wk31 m c (Proc.devRef .tc main_v75) = kv_main_v75 (F := F) (m ((c.tc : Thread nD τ).loc main_arg0)) (m ((c.tc : Thread nD τ).loc main_arg1)) ∧ Wk31 m c (Proc.devRef .tc main_v96) = kv_main_v96 (F := F) (m ((c.tc : Thread nD τ).loc main_arg0)) (m ((c.tc : Thread nD τ).loc main_arg1)) ∧ Wk31 m c (Proc.devRef .tc main_v117) = kv_main_v117 (F := F) (m ((c.tc : Thread nD τ).loc main_arg0)) (m ((c.tc : Thread nD τ).loc main_arg1)) ∧ Wk31 m c (Proc.devRef .tc main_v138) = kv_main_v138 (F := F) (m ((c.tc : Thread nD τ).loc main_arg0)) (m ((c.tc : Thread nD τ).loc main_arg1)) := by
  exact st31 (Wk30 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live30 m c).1 (live30 m c).2.1 (live30 m c).2.2.1 (live30 m c).2.2.2.1 (live30 m c).2.2.2.2.1 (live30 m c).2.2.2.2.2.1 (live30 m c).2.2.2.2.2.2.1 (live30 m c).2.2.2.2.2.2.2.1 (live30 m c).2.2.2.2.2.2.2.2.1 (live30 m c).2.2.2.2.2.2.2.2.2

theorem live32 (c : Dev nD) : Wk32 m c (Proc.devRef .tc main_v164) = kv_main_v164 (F := F) (m ((c.tc : Thread nD τ).loc main_arg0)) (m ((c.tc : Thread nD τ).loc main_arg1)) (m ((c.tc : Thread nD τ).loc main_arg2)) ∧ Wk32 m c (Proc.devRef .tc main_v165) = kv_main_v165 (F := F) (m ((c.tc : Thread nD τ).loc main_arg3)) ∧ Wk32 m c (Proc.devRef .tc main_v166) = kv_main_v166 (F := F) (m ((c.tc : Thread nD τ).loc main_arg4)) := by
  exact st32 (Wk31 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live31 m c).1 (live31 m c).2.1 (live31 m c).2.2.1 (live31 m c).2.2.2.1 (live31 m c).2.2.2.2.1 (live31 m c).2.2.2.2.2.1 (live31 m c).2.2.2.2.2.2.1 (live31 m c).2.2.2.2.2.2.2

/-- The region-entry contents are the contents after the last stretch. -/
theorem V0_eq (c : Dev nD) : V0 m c = Wk32 m c := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b)) = _
  simp only [List.flatten_cons, List.flatten_nil, List.append_nil, StableHlo.after_append]
  rfl

theorem V_cols (c : Dev nD) : V m c main_v164 = kv_main_v164 (F := F) (m ((c.tc : Thread nD τ).loc main_arg0)) (m ((c.tc : Thread nD τ).loc main_arg1)) (m ((c.tc : Thread nD τ).loc main_arg2)) := by
  show V0 m c (Proc.devRef .tc main_v164) = _
  rw [V0_eq]
  exact (live32 m c).1

theorem V_wmat (c : Dev nD) : V m c main_v165 = kv_main_v165 (F := F) (m ((c.tc : Thread nD τ).loc main_arg3)) := by
  show V0 m c (Proc.devRef .tc main_v165) = _
  rw [V0_eq]
  exact (live32 m c).2.1

theorem V_bias (c : Dev nD) : V m c main_v166 = kv_main_v166 (F := F) (m ((c.tc : Thread nD τ).loc main_arg4)) := by
  show V0 m c (Proc.devRef .tc main_v166) = _
  rw [V0_eq]
  exact (live32 m c).2.2

end Cert.KernelIdeal.KPre

end
-- ==== Proof.Spec.lean ====
/-
  The mathematics of the deformable convolution both programs compute, at the level of ONE element, over the
  extended reals: a 3×3 kernel tap k = 3·kh + kw at output position (oh, ow) samples the input image at the
  fractional coordinate  (oh − 1 + kh + offset[2k], ow − 1 + kw + offset[2k+1]);  the sample is the bilinear
  interpolation of the four integer neighbours (each neighbour read at its clipped position and replaced by zero
  when it lies outside the 56×56 image), times the modulation mask; the result is the 2304-term contraction of
  these samples with the weights, plus the bias.  Nothing here mentions a program: the two programs' arrays are
  read, index by index, against these definitions.
-/
import Idealize.ShloMosaic.PureOps.Ideal
import Idealize.ShloMosaic.Lib.ValueIdx

noncomputable section

namespace DeformSpec

open Idealize.ShloMosaic Idealize.ShloMosaic.ValueIdx

/-- The rank-zero shape: a vector over it is one element, so a pointwise vector operation applied to such a vector
    is that operation's scalar function. -/
abbrev S0 : Shape := ⟨0, ![]⟩

/-- An extended real. -/
abbrev R : Type := Ideal .f32

/-- The floor of an extended real, as the host's `floor` computes it on one element. -/
def floorS (x : R) : R := Host.floor (F := Ideal) (φ := .f32) (fun _ : S0.Idx => x) ix0
/-- The signed 32-bit integer an extended real converts to. -/
def toI32 (x : R) : BitVec 32 := fptosi (F := Ideal) (φ := .f32) 32 (fun _ : S0.Idx => x) ix0
/-- The extended real a signed 32-bit integer converts to. -/
def ofI32 (w : BitVec 32) : R := sitofp (F := Ideal) .f32 (fun _ : S0.Idx => w) ix0
/-- The real number zero, as the float constant +0.0. -/
def zeroF : R := constant (F := Ideal) S0 .f32 0x00000000#32 ix0
/-- The fill value a gather in fill mode writes where its index is out of range (the quiet NaN's word). -/
def fillF : R := constant (F := Ideal) S0 .f32 0x7FC00000#32 ix0

/-- The im2col base coordinate along one image axis, as a 32-bit word: output position `o`, stride 1, padding 1,
    tap offset `t`, dilation 1:  o·1 − 1 + t·1. -/
def baseW (o : Fin 56) (t : Fin 3) : BitVec 32 :=
  IntOp.addi (IntOp.subi (IntOp.muli (BitVec.ofNat 32 o.val) 1#32) 1#32) (IntOp.muli (BitVec.ofNat 32 t.val) 1#32)

/-- Tap `k` of the 3×3 kernel is (row k / 3, column k % 3). -/
def tapRow (k : Fin 9) : Fin 3 := ⟨k.val / 3, by omega⟩
def tapCol (k : Fin 9) : Fin 3 := ⟨k.val % 3, by omega⟩

/-- The fractional sampling coordinate along the rows: the learned offset plus the base coordinate. -/
def coordRow (off : R) (oh : Fin 56) (k : Fin 9) : R := off + ofI32 (baseW oh (tapRow k))
/-- The same along the columns. -/
def coordCol (off : R) (ow : Fin 56) (k : Fin 9) : R := off + ofI32 (baseW ow (tapCol k))

/-- The integer cell a coordinate falls in, and its fractional part. -/
def cell (x : R) : BitVec 32 := toI32 (floorS x)
def frac (x : R) : R := x - floorS x

/-- Both integer coordinates inside the 56×56 image. -/
def inImage (ci cj : BitVec 32) : BitVec 1 :=
  IntOp.andi (IntOp.andi (IntOp.andi (IntOp.cmpi .sge ci 0#32) (IntOp.cmpi .slt ci 56#32)) (IntOp.cmpi .sge cj 0#32))
    (IntOp.cmpi .slt cj 56#32)
/-- An integer coordinate clipped into [0, 55]. -/
def clip55 (c : BitVec 32) : BitVec 32 := IntOp.minsi 55#32 (IntOp.maxsi 0#32 c)
/-- The flat position 56·row + column of the clipped coordinates. -/
def flat (ci cj : BitVec 32) : BitVec 32 := IntOp.addi (IntOp.muli (clip55 ci) 56#32) (clip55 cj)
/-- NumPy's rule for a negative index: add the axis length 3136. -/
def wrap (s : BitVec 32) : BitVec 32 := Scalar.select (IntOp.cmpi .slt s 0#32) (IntOp.addi s 3136#32) s
/-- The fill-mode range test 0 ≤ s ≤ 3135, reduced by `and` from `true` over its one index component. -/
def inRange (s : BitVec 32) : BitVec 1 :=
  IntOp.andi 1#1 (IntOp.andi (IntOp.cmpi .sge s 0#32) (IntOp.cmpi .sle s 3135#32))
/-- The position a gather reads: the start index read signed and clamped into [0, 3135]. -/
def clampPos (s : BitVec 32) : Fin 3136 := ⟨min s.toInt.toNat 3135, by omega⟩

/-- ONE NEIGHBOUR of the bilinear sample: the image row `img` (one batch element and channel, its 56×56 pixels
    flattened) read at the clipped integer position (ci, cj) — through the gather's index rule and range test — and
    replaced by zero when (ci, cj) is outside the image. -/
def corner (img : Fin 3136 → R) (ci cj : BitVec 32) : R :=
  Scalar.select (inImage ci cj)
    (Scalar.select (inRange (wrap (flat ci cj))) (img (clampPos (wrap (flat ci cj)))) fillF) zeroF

/-- THE MODULATED BILINEAR SAMPLE at one output position and tap: `cr`, `cc` the fractional row and column
    coordinates, `msk` the modulation. With (lt, rb) the cell and the cell plus one:
    top = v(lt,lt) + fc·(v(lt,rb) − v(lt,lt)),  bottom = v(rb,lt) + fc·(v(rb,rb) − v(rb,lt)),
    sample = (top + fr·(bottom − top)) · msk. -/
def sample (img : Fin 3136 → R) (cr cc msk : R) : R :=
  ((corner img (cell cr) (cell cc) + frac cc * (corner img (cell cr) (IntOp.addi (cell cc) 1#32) - corner img (cell cr) (cell cc)))
    + frac cr * ((corner img (IntOp.addi (cell cr) 1#32) (cell cc)
          + frac cc * (corner img (IntOp.addi (cell cr) 1#32) (IntOp.addi (cell cc) 1#32) - corner img (IntOp.addi (cell cr) 1#32) (cell cc)))
        - (corner img (cell cr) (cell cc) + frac cc * (corner img (cell cr) (IntOp.addi (cell cc) 1#32) - corner img (cell cr) (cell cc)))))
    * msk

/-! ## The arguments in plain coordinates -/

/-- The five arguments, as functions of plain coordinates. -/
structure Args where
  x : Fin 8 → Fin 256 → Fin 56 → Fin 56 → R
  off : Fin 8 → Fin 18 → Fin 56 → Fin 56 → R
  msk : Fin 8 → Fin 9 → Fin 56 → Fin 56 → R
  w : Fin 256 → Fin 256 → Fin 3 → Fin 3 → R
  bias : Fin 256 → R

/-- Channel 2k of the offsets moves tap k along the rows, channel 2k+1 along the columns. -/
def chRow (k : Fin 9) : Fin 18 := ⟨2 * k.val, by omega⟩
def chCol (k : Fin 9) : Fin 18 := ⟨2 * k.val + 1, by omega⟩

/-- One batch element's channel as a flat image: pixel s is (s / 56, s % 56). -/
def image (A : Args) (b : Fin 8) (c : Fin 256) (s : Fin 3136) : R :=
  A.x b c ⟨s.val / 56, by omega⟩ ⟨s.val % 56, by omega⟩

/-- The im2col entry: the modulated bilinear sample of channel `c` at output position (oh, ow) for tap `k`. -/
def col (A : Args) (b : Fin 8) (oh ow : Fin 56) (k : Fin 9) (c : Fin 256) : R :=
  sample (image A b c) (coordRow (A.off b (chRow k) oh ow) oh k) (coordCol (A.off b (chCol k) oh ow) ow k) (A.msk b k oh ow)

/-- The five argument arrays of either program, read in plain coordinates. -/
def argsOf (x0 : (⟨4, ![8, 256, 56, 56]⟩ : Shape).Idx → R) (x1 : (⟨4, ![8, 18, 56, 56]⟩ : Shape).Idx → R)
    (x2 : (⟨4, ![8, 9, 56, 56]⟩ : Shape).Idx → R) (x3 : (⟨4, ![256, 256, 3, 3]⟩ : Shape).Idx → R)
    (x4 : (⟨1, ![256]⟩ : Shape).Idx → R) : Args where
  x b c h w := x0 (ix4 b c h w)
  off b ch h w := x1 (ix4 b ch h w)
  msk b k h w := x2 (ix4 b k h w)
  w o c i j := x3 (ix4 o c i j)
  bias o := x4 (ix1 o)

/-- The weight of output channel `oc` for tap `k` of input channel `c`. -/
def wgt (A : Args) (oc : Fin 256) (k : Fin 9) (c : Fin 256) : R := A.w oc c (tapRow k) (tapCol k)

end DeformSpec

end
-- ==== Proof.LibDeformLayout.lean ====
/-
  Layout facts used to read a deformable convolution's host operations at an index, none of them about a particular
  program: an `and`-reduce over a trailing axis of size one; a
  concatenation of two pieces of extent one along the last axis; and a batched row gather in two layouts.
-/
import Idealize.ShloMosaic.Lib.Pipeline.Value
import Idealize.ShloMosaic.Lib.ValueIdx
import Idealize.ShloMosaic.PureOps.Reduce

noncomputable section

namespace DeformLib

open Idealize.ShloMosaic Idealize.ShloMosaic.ValueIdx

/-! ## An `and`-reduce over a trailing axis of size one -/

/-- A fold of a commutative, associative operation over the coordinates of an axis of size one is the operation applied
    once, to the initial value and the one element. -/
theorem fold_univ_of_eq_one {α : Type} (op : α → α → α) [Std.Commutative op] [Std.Associative op] {n : Nat} (hn : n = 1)
    (init : α) (f : Fin n → α) :
    (Finset.univ : Finset (Fin n)).fold op init f = op init (f ⟨0, by omega⟩) := by
  subst hn
  rw [Finset.univ_unique, Finset.fold_singleton]
  exact Std.Commutative.comm _ _

/-- Reducing [B, N, 1] by `and` along its last axis from the initial value leaves, at (b, p), the initial value
    `and` the one element (b, p, 0). -/
theorem reduce_andi_last1 {B N : Nat} (x : IVec ⟨3, ![B, N, 1]⟩ 1) (init : IVec ⟨0, ![]⟩ 1)
    (h : (⟨3, ![B, N, 1]⟩ : Shape).ReducesTo [2] ⟨2, ![B, N]⟩) (hu : 0 < (⟨0, ![]⟩ : Shape).numel) (b : Fin B) (p : Fin N) :
    Host.reduce IntOp.andi x init h hu (ix2 b p) = IntOp.andi (init ix0) (x (ix3 b p 0)) := by
  have h' : (⟨3, ![B, N, 1]⟩ : Shape).Reduces [2] ⟨2, ![B, N]⟩ := ⟨h.1, Nat.zero_lt_two, h.2⟩
  have hn : (⟨3, ![B, N, 1]⟩ : Shape).size 2 = 1 := rfl
  have hl : ∀ k : Fin ((⟨3, ![B, N, 1]⟩ : Shape).size 2), h'.lift (ix2 b p) k = ix3 b p 0 := by
    intro k
    funext c
    refine Fin.ext ?_
    rw [h'.lift_val]
    unfold Shape.Reduces.liftVal
    match c with
    | ⟨0, _⟩ => rfl
    | ⟨1, _⟩ => rfl
    | ⟨2, _⟩ =>
      have hk : k.val < 1 := k.isLt
      split
      · show k.val = 0
        omega
      · next hc => exact absurd rfl hc
  rw [Host.reduce_eq_fold_single IntOp.andi x init h h' hu (ix2 b p), fold_univ_of_eq_one IntOp.andi hn,
    Function.comp_apply, hl, eq_ix0 (Shape.Idx.first hu)]

/-! ## Two pieces of extent one joined along the last axis -/

/-- The concatenation of two [A, B, C, 1] arrays along axis 3 read at (a, b, c, j): the first piece when j = 0, the
    second when j = 1. -/
theorem concat2_last_apply {α : Type} {A B C : Nat} (x y : (⟨4, ![A, B, C, 1]⟩ : Shape).Idx → α)
    (h : Shape.Concatenates (([⟨⟨4, ![A, B, C, 1]⟩, x⟩, ⟨⟨4, ![A, B, C, 1]⟩, y⟩] : List ((s : Shape) × (s.Idx → α))).map (·.1))
      ⟨4, ![A, B, C, 2]⟩ 3)
    (a : Fin A) (b : Fin B) (c : Fin C) (j : Fin 2) :
    concatenate ⟨4, ![A, B, C, 2]⟩ 3 [⟨⟨4, ![A, B, C, 1]⟩, x⟩, ⟨⟨4, ![A, B, C, 1]⟩, y⟩] h (ix4 a b c j)
      = if j.val = 0 then x (ix4 a b c 0) else y (ix4 a b c 0) := by
  match j with
  | ⟨0, _⟩ =>
    rw [if_pos rfl]
    refine concatenate_pair_apply_left (t := ⟨4, ![A, B, C, 2]⟩) (s₁ := ⟨4, ![A, B, C, 1]⟩) (s₂ := ⟨4, ![A, B, C, 1]⟩)
      (3 : Fin 4) x y h _ rfl (ix4 a b c 0) (fun d => ?_)
    match d with
    | ⟨0, _⟩ => rfl
    | ⟨1, _⟩ => rfl
    | ⟨2, _⟩ => rfl
    | ⟨3, _⟩ => rfl
  | ⟨1, _⟩ =>
    rw [if_neg Nat.one_ne_zero]
    refine concatenate_pair_apply_right (t := ⟨4, ![A, B, C, 2]⟩) (s₁ := ⟨4, ![A, B, C, 1]⟩) (s₂ := ⟨4, ![A, B, C, 1]⟩)
      (3 : Fin 4) x y h _ rfl rfl (ix4 a b c 0) (fun d hd => ?_) rfl
    match d with
    | ⟨0, _⟩ => rfl
    | ⟨1, _⟩ => rfl
    | ⟨2, _⟩ => rfl
    | ⟨3, _⟩ => exact absurd rfl hd

/-! ## A batched row gather -/

section Gather
variable {α : Type}

/-- Off the start index map an operand axis's slice starts at 0. -/
theorem start_eq_zero_of_not_mem {s si t : Shape} (d : GatherDims s si t) {w : Nat} (j : t.Idx) (idx : IVec si w)
    (a : Fin s.rank) (ha : a ∉ d.startIndexMap) : d.start j idx a = 0 := by
  unfold GatherDims.start
  rw [dif_neg ha]

/-- jnp.take_along_axis(x, idx, axis=1) of a table [B, T, C] at an index column [B, N, 1] (rows kept whole):
    operand batching axis 0, collapsed axis 1, offset axis 2. -/
abbrev rowsDims (B T C N : Nat)
    (wf : GatherDims.WF ⟨3, ![B, T, C]⟩ ⟨3, ![B, N, 1]⟩ ⟨3, ![B, N, C]⟩ [2] [1] [0] [1] [0] 2 ![1, 1, C]) :
    GatherDims ⟨3, ![B, T, C]⟩ ⟨3, ![B, N, 1]⟩ ⟨3, ![B, N, C]⟩ where
  offsetDims := [2]
  collapsedSliceDims := [1]
  operandBatchingDims := [0]
  startIndicesBatchingDims := [0]
  startIndexMap := [1]
  indexVectorDim := 2
  sliceSizes := ![1, 1, C]
  wf := wf

/-- THE GATHER READ AT (b, p, c): row `idx[b, p, 0]` of batch b's table — the index read signed and clamped into
    [0, T − 1] — at column c. -/
theorem gather_rows_apply {B T C N w : Nat} (hT : 0 < T)
    (wf : GatherDims.WF ⟨3, ![B, T, C]⟩ ⟨3, ![B, N, 1]⟩ ⟨3, ![B, N, C]⟩ [2] [1] [0] [1] [0] 2 ![1, 1, C])
    (x : (⟨3, ![B, T, C]⟩ : Shape).Idx → α) (idx : IVec ⟨3, ![B, N, 1]⟩ w) (b : Fin B) (p : Fin N) (c : Fin C) :
    Host.gather (rowsDims B T C N wf) x idx (ix3 b p c)
      = x (ix3 b ⟨min (idx (ix3 b p 0)).toInt.toNat (T - 1), by omega⟩ c) := by
  unfold Host.gather
  congr 1
  funext a
  refine Fin.ext ?_
  show (rowsDims B T C N wf).start (ix3 b p c) idx a + (rowsDims B T C N wf).batchCoord (ix3 b p c) a
    + (rowsDims B T C N wf).offCoord (ix3 b p c) a = _
  match a with
  | ⟨0, h0⟩ =>
    -- the batching axis: no start, the batch coordinate, no offset
    have hm : (⟨0, h0⟩ : Fin (⟨3, ![B, T, C]⟩ : Shape).rank) ∈ (rowsDims B T C N wf).operandBatchingDims :=
      List.mem_singleton.mpr rfl
    rw [GatherDims.start_batching _ _ _ _ hm,
      GatherDims.offCoord_eq_zero _ _ _ (fun h => ((GatherDims.mem_sKept _ _).mp h).2 hm)]
    unfold GatherDims.batchCoord
    rw [dif_pos hm, Nat.zero_add, Nat.add_zero]
    rfl
  | ⟨1, h1⟩ =>
    -- the collapsed axis: the clamped start index alone
    have hm : (⟨1, h1⟩ : Fin (⟨3, ![B, T, C]⟩ : Shape).rank) ∈ (rowsDims B T C N wf).startIndexMap :=
      List.mem_singleton.mpr rfl
    rw [GatherDims.batchCoord_eq_zero _ _ _
        (fun h => absurd (congrArg Fin.val (List.mem_singleton.mp h)) (show (1 : ℕ) ≠ 0 by decide)),
      GatherDims.offCoord_eq_zero _ _ _ (fun h => ((GatherDims.mem_sKept _ _).mp h).1 (List.mem_singleton.mpr rfl))]
    simp only [Nat.add_zero]
    unfold GatherDims.start
    rw [dif_pos hm]
    have hsi : ∀ hk, (rowsDims B T C N wf).siIdx (ix3 b p c) ⟨0, hk⟩ = ix3 b p 0 := by
      intro hk
      funext e; refine Fin.ext ?_
      match e with
      | ⟨0, _⟩ => rfl
      | ⟨1, _⟩ => rfl
      | ⟨2, _⟩ => rfl
    exact congrArg (fun q : (⟨3, ![B, N, 1]⟩ : Shape).Idx => min (idx q).toInt.toNat (T - 1)) (hsi _)
  | ⟨2, h2⟩ =>
    -- the offset axis: the result's column alone
    have hm : (⟨2, h2⟩ : Fin (⟨3, ![B, T, C]⟩ : Shape).rank) ∈ (rowsDims B T C N wf).sKept :=
      (GatherDims.mem_sKept _ _).mpr
        ⟨fun h => absurd (congrArg Fin.val (List.mem_singleton.mp h)) (show (2 : ℕ) ≠ 1 by decide),
          fun h => absurd (congrArg Fin.val (List.mem_singleton.mp h)) (show (2 : ℕ) ≠ 0 by decide)⟩
    rw [start_eq_zero_of_not_mem _ _ _ _
        (fun h => absurd (congrArg Fin.val (List.mem_singleton.mp h)) (show (2 : ℕ) ≠ 1 by decide)),
      GatherDims.batchCoord_eq_zero _ _ _
        (fun h => absurd (congrArg Fin.val (List.mem_singleton.mp h)) (show (2 : ℕ) ≠ 0 by decide))]
    unfold GatherDims.offCoord
    rw [dif_pos hm, Nat.zero_add]
    rfl

/-- jnp.take_along_axis(x, idx, axis=3) of a table [B, 1, C, T] at indices [B, 1, 1, N], lowered with the indices as
    a column [B, N, 1]: operand batching axis 0, collapsed axis 3, offset axes 1 and 2. -/
abbrev colsDims (B T C N : Nat)
    (wf : GatherDims.WF ⟨4, ![B, 1, C, T]⟩ ⟨3, ![B, N, 1]⟩ ⟨4, ![B, 1, C, N]⟩ [1, 2] [3] [0] [3] [0] 2 ![1, 1, C, 1]) :
    GatherDims ⟨4, ![B, 1, C, T]⟩ ⟨3, ![B, N, 1]⟩ ⟨4, ![B, 1, C, N]⟩ where
  offsetDims := [1, 2]
  collapsedSliceDims := [3]
  operandBatchingDims := [0]
  startIndicesBatchingDims := [0]
  startIndexMap := [3]
  indexVectorDim := 2
  sliceSizes := ![1, 1, C, 1]
  wf := wf

/-- THE GATHER READ AT (b, 0, c, p): batch b's channel c at position `idx[b, p, 0]`, read signed and clamped into
    [0, T − 1]. -/
theorem gather_cols_apply {B T C N w : Nat} (hT : 0 < T)
    (wf : GatherDims.WF ⟨4, ![B, 1, C, T]⟩ ⟨3, ![B, N, 1]⟩ ⟨4, ![B, 1, C, N]⟩ [1, 2] [3] [0] [3] [0] 2 ![1, 1, C, 1])
    (x : (⟨4, ![B, 1, C, T]⟩ : Shape).Idx → α) (idx : IVec ⟨3, ![B, N, 1]⟩ w) (b : Fin B) (c : Fin C) (p : Fin N) :
    Host.gather (colsDims B T C N wf) x idx (ix4 b 0 c p)
      = x (ix4 b 0 c ⟨min (idx (ix3 b p 0)).toInt.toNat (T - 1), by omega⟩) := by
  unfold Host.gather
  congr 1
  funext a
  refine Fin.ext ?_
  show (colsDims B T C N wf).start (ix4 b 0 c p) idx a + (colsDims B T C N wf).batchCoord (ix4 b 0 c p) a
    + (colsDims B T C N wf).offCoord (ix4 b 0 c p) a = _
  match a with
  | ⟨0, h0⟩ =>
    -- the batching axis: no start, the batch coordinate, no offset
    have hm : (⟨0, h0⟩ : Fin (⟨4, ![B, 1, C, T]⟩ : Shape).rank) ∈ (colsDims B T C N wf).operandBatchingDims :=
      List.mem_singleton.mpr rfl
    rw [GatherDims.start_batching _ _ _ _ hm,
      GatherDims.offCoord_eq_zero _ _ _ (fun h => ((GatherDims.mem_sKept _ _).mp h).2 hm)]
    unfold GatherDims.batchCoord
    rw [dif_pos hm, Nat.zero_add, Nat.add_zero]
    rfl
  | ⟨1, h1⟩ =>
    -- the first offset axis, of extent one
    have hm : (⟨1, h1⟩ : Fin (⟨4, ![B, 1, C, T]⟩ : Shape).rank) ∈ (colsDims B T C N wf).sKept :=
      (GatherDims.mem_sKept _ _).mpr
        ⟨fun h => absurd (congrArg Fin.val (List.mem_singleton.mp h)) (show (1 : ℕ) ≠ 3 by decide),
          fun h => absurd (congrArg Fin.val (List.mem_singleton.mp h)) (show (1 : ℕ) ≠ 0 by decide)⟩
    rw [start_eq_zero_of_not_mem _ _ _ _
        (fun h => absurd (congrArg Fin.val (List.mem_singleton.mp h)) (show (1 : ℕ) ≠ 3 by decide)),
      GatherDims.batchCoord_eq_zero _ _ _
        (fun h => absurd (congrArg Fin.val (List.mem_singleton.mp h)) (show (1 : ℕ) ≠ 0 by decide))]
    unfold GatherDims.offCoord
    rw [dif_pos hm, Nat.zero_add]
    rfl
  | ⟨2, h2⟩ =>
    -- the second offset axis: the result's channel alone
    have hm : (⟨2, h2⟩ : Fin (⟨4, ![B, 1, C, T]⟩ : Shape).rank) ∈ (colsDims B T C N wf).sKept :=
      (GatherDims.mem_sKept _ _).mpr
        ⟨fun h => absurd (congrArg Fin.val (List.mem_singleton.mp h)) (show (2 : ℕ) ≠ 3 by decide),
          fun h => absurd (congrArg Fin.val (List.mem_singleton.mp h)) (show (2 : ℕ) ≠ 0 by decide)⟩
    rw [start_eq_zero_of_not_mem _ _ _ _
        (fun h => absurd (congrArg Fin.val (List.mem_singleton.mp h)) (show (2 : ℕ) ≠ 3 by decide)),
      GatherDims.batchCoord_eq_zero _ _ _
        (fun h => absurd (congrArg Fin.val (List.mem_singleton.mp h)) (show (2 : ℕ) ≠ 0 by decide))]
    unfold GatherDims.offCoord
    rw [dif_pos hm, Nat.zero_add]
    rfl
  | ⟨3, h3⟩ =>
    -- the collapsed axis: the clamped start index alone
    have hm : (⟨3, h3⟩ : Fin (⟨4, ![B, 1, C, T]⟩ : Shape).rank) ∈ (colsDims B T C N wf).startIndexMap :=
      List.mem_singleton.mpr rfl
    rw [GatherDims.batchCoord_eq_zero _ _ _
        (fun h => absurd (congrArg Fin.val (List.mem_singleton.mp h)) (show (3 : ℕ) ≠ 0 by decide)),
      GatherDims.offCoord_eq_zero _ _ _ (fun h => ((GatherDims.mem_sKept _ _).mp h).1 (List.mem_singleton.mpr rfl))]
    simp only [Nat.add_zero]
    unfold GatherDims.start
    rw [dif_pos hm]
    have hsi : ∀ hk, (colsDims B T C N wf).siIdx (ix4 b 0 c p) ⟨0, hk⟩ = ix3 b p 0 := by
      intro hk
      funext e; refine Fin.ext ?_
      match e with
      | ⟨0, _⟩ => rfl
      | ⟨1, _⟩ => rfl
      | ⟨2, _⟩ => rfl
    exact congrArg (fun q : (⟨3, ![B, N, 1]⟩ : Shape).Idx => min (idx q).toInt.toNat (T - 1)) (hsi _)

end Gather

end DeformLib

end
-- ==== Proof.KCoord.lean ====
/-
  The kernel program's host operations that build the sampling coordinates, read at one output position and tap:
  the offsets re-laid as [batch, row, column, tap, axis] plus the base grid give the fractional coordinate; its floor
  converted to an integer is the cell, the cell plus one its neighbour, coordinate minus floor the fractional part;
  and the mask re-laid as [batch, row, column, tap].
-/
import proofs.«412700_j5961414607249_3_alg».proof.Proof.KVal
import proofs.«412700_j5961414607249_3_alg».proof.Proof.Spec
import proofs.«412700_j5961414607249_3_alg».proof.Proof.LibDeformLayout
import Idealize.ShloMosaic.Lib.Pipeline.Value
import Idealize.ShloMosaic.Lib.ValueIdx
import Idealize.ShloMosaic.Lib.ValueLayout

noncomputable section

open Idealize.ShloMosaic Idealize.ShloMosaic.ValueIdx DeformSpec DeformLib

namespace Cert.KernelIdeal.KCoord

open Cert.KernelIdeal Cert.KernelIdeal.Gen Cert.KernelIdeal.KVal

/-! ## The base grid

  The two 56×3 integer tables ii[o, t] = o·1 − 1 + t·1 (one for the rows, one for the columns), spread over
  [56, 56, 3, 3] and flattened to [56, 56, 9], where tap k sits at (k / 3, k % 3). -/

/-- The row table: entry (o, t) is o·1 − 1 + t·1. -/
theorem base_rows (o : Fin 56) (t : Fin 3) : kv_main_v12 (F := Ideal) (ix2 o t) = baseW o t := by
  show IntOp.addi (kv_main_v10 (F := Ideal) (ix2 o t)) (kv_main_v11 (F := Ideal) (ix2 o t)) = _
  have h10 : kv_main_v10 (F := Ideal) (ix2 o t) = kv_main_v5 (F := Ideal) (ix2 o 0) := by
    unfold kv_main_v10
    generalize kv_main_v5 (F := Ideal) = y
    exact broadcastInDim_apply _ bcast_S56x1_S56x3_0_1 y (ix2 o t) (ix2 o 0) (fun a => match a with
      | ⟨0, _⟩ => by show o.val = if (56 : Nat) = 1 then 0 else o.val; rw [if_neg (by decide)]
      | ⟨1, _⟩ => by show 0 = if (1 : Nat) = 1 then 0 else t.val; rw [if_pos rfl])
  have h5 : kv_main_v5 (F := Ideal) (ix2 o 0) = kv_main_v4 (F := Ideal) (ix1 o) := by
    unfold kv_main_v5
    generalize kv_main_v4 (F := Ideal) = y
    exact broadcastInDim_apply _ bcast_S56_S56x1_0 y (ix2 o 0) (ix1 o) (fun a => match a with
      | ⟨0, _⟩ => by show o.val = if (56 : Nat) = 1 then 0 else o.val; rw [if_neg (by decide)])
  have h11 : kv_main_v11 (F := Ideal) (ix2 o t) = kv_main_v9 (F := Ideal) (ix2 0 t) := by
    unfold kv_main_v11
    generalize kv_main_v9 (F := Ideal) = y
    exact broadcastInDim_apply _ bcast_S1x3_S56x3_0_1 y (ix2 o t) (ix2 0 t) (fun a => match a with
      | ⟨0, _⟩ => by show 0 = if (1 : Nat) = 1 then 0 else o.val; rw [if_pos rfl]
      | ⟨1, _⟩ => by show t.val = if (3 : Nat) = 1 then 0 else t.val; rw [if_neg (by decide)])
  have h9 : kv_main_v9 (F := Ideal) (ix2 0 t) = kv_main_v8 (F := Ideal) (ix1 t) := by
    unfold kv_main_v9
    generalize kv_main_v8 (F := Ideal) = y
    exact broadcastInDim_apply _ bcast_S3_S1x3_1 y (ix2 0 t) (ix1 t) (fun a => match a with
      | ⟨0, _⟩ => by show t.val = if (3 : Nat) = 1 then 0 else t.val; rw [if_neg (by decide)])
  rw [h10, h5, h11, h9]
  rfl

/-- The column table, built the same way. -/
theorem base_cols (o : Fin 56) (t : Fin 3) : kv_main_v25 (F := Ideal) (ix2 o t) = baseW o t := by
  show IntOp.addi (kv_main_v23 (F := Ideal) (ix2 o t)) (kv_main_v24 (F := Ideal) (ix2 o t)) = _
  have h23 : kv_main_v23 (F := Ideal) (ix2 o t) = kv_main_v18 (F := Ideal) (ix2 o 0) := by
    unfold kv_main_v23
    generalize kv_main_v18 (F := Ideal) = y
    exact broadcastInDim_apply _ bcast_S56x1_S56x3_0_1 y (ix2 o t) (ix2 o 0) (fun a => match a with
      | ⟨0, _⟩ => by show o.val = if (56 : Nat) = 1 then 0 else o.val; rw [if_neg (by decide)]
      | ⟨1, _⟩ => by show 0 = if (1 : Nat) = 1 then 0 else t.val; rw [if_pos rfl])
  have h18 : kv_main_v18 (F := Ideal) (ix2 o 0) = kv_main_v17 (F := Ideal) (ix1 o) := by
    unfold kv_main_v18
    generalize kv_main_v17 (F := Ideal) = y
    exact broadcastInDim_apply _ bcast_S56_S56x1_0 y (ix2 o 0) (ix1 o) (fun a => match a with
      | ⟨0, _⟩ => by show o.val = if (56 : Nat) = 1 then 0 else o.val; rw [if_neg (by decide)])
  have h24 : kv_main_v24 (F := Ideal) (ix2 o t) = kv_main_v22 (F := Ideal) (ix2 0 t) := by
    unfold kv_main_v24
    generalize kv_main_v22 (F := Ideal) = y
    exact broadcastInDim_apply _ bcast_S1x3_S56x3_0_1 y (ix2 o t) (ix2 0 t) (fun a => match a with
      | ⟨0, _⟩ => by show 0 = if (1 : Nat) = 1 then 0 else o.val; rw [if_pos rfl]
      | ⟨1, _⟩ => by show t.val = if (3 : Nat) = 1 then 0 else t.val; rw [if_neg (by decide)])
  have h22 : kv_main_v22 (F := Ideal) (ix2 0 t) = kv_main_v21 (F := Ideal) (ix1 t) := by
    unfold kv_main_v22
    generalize kv_main_v21 (F := Ideal) = y
    exact broadcastInDim_apply _ bcast_S3_S1x3_1 y (ix2 0 t) (ix1 t) (fun a => match a with
      | ⟨0, _⟩ => by show t.val = if (3 : Nat) = 1 then 0 else t.val; rw [if_neg (by decide)])
  rw [h23, h18, h24, h22]
  rfl

/-- Flattening [56, 56, 3, 3] to [56, 56, 9] puts tap k at (k / 3, k % 3): 3·(k / 3) + k % 3 = k. -/
private theorem taps_apply {α : Type} (y : S56x56x3x3.Idx → α) (oh ow : Fin 56) (k : Fin 9) :
    shapeCast S56x56x9 y shapeCasts_S56x56x3x3_S56x56x9 (ix3 oh ow k) = y (ix4 oh ow (tapRow k) (tapCol k)) := by
  refine shapeCast_apply y shapeCasts_S56x56x3x3_S56x56x9 (ix3 oh ow k) (ix4 oh ow (tapRow k) (tapCol k)) ?_
  rw [Shape.rowMajor_val_four, Shape.rowMajor_val_three]
  have h0 : oh.val < 56 := oh.isLt
  have h1 : ow.val < 56 := ow.isLt
  have h2 : k.val < 9 := k.isLt
  show ((oh.val * 56 + ow.val) * 3 + k.val / 3) * 3 + k.val % 3 = (oh.val * 56 + ow.val) * 9 + k.val
  omega

/-- The row grid at (oh, ow, k): the row table at (oh, k / 3). -/
theorem grid_rows (oh ow : Fin 56) (k : Fin 9) : kv_main_v28 (F := Ideal) (ix3 oh ow k) = baseW oh (tapRow k) := by
  have h27 : ∀ (r : Fin 3) (c : Fin 3), kv_main_v27 (F := Ideal) (ix4 oh ow r c) = kv_main_v26 (F := Ideal) (ix4 oh 0 r 0) := by
    intro r c
    unfold kv_main_v27
    generalize kv_main_v26 (F := Ideal) = y
    exact broadcastInDim_apply _ bcast_S56x1x3x1_S56x56x3x3_0_1_2_3 y (ix4 oh ow r c) (ix4 oh 0 r 0) (fun a => match a with
      | ⟨0, _⟩ => by show oh.val = if (56 : Nat) = 1 then 0 else oh.val; rw [if_neg (by decide)]
      | ⟨1, _⟩ => by show 0 = if (1 : Nat) = 1 then 0 else ow.val; rw [if_pos rfl]
      | ⟨2, _⟩ => by show r.val = if (3 : Nat) = 1 then 0 else r.val; rw [if_neg (by decide)]
      | ⟨3, _⟩ => by show 0 = if (1 : Nat) = 1 then 0 else c.val; rw [if_pos rfl])
  have h26 : ∀ r : Fin 3, kv_main_v26 (F := Ideal) (ix4 oh 0 r 0) = kv_main_v12 (F := Ideal) (ix2 oh r) := by
    intro r
    unfold kv_main_v26
    generalize kv_main_v12 (F := Ideal) = y
    exact broadcastInDim_apply _ bcast_S56x3_S56x1x3x1_0_2 y (ix4 oh 0 r 0) (ix2 oh r) (fun a => match a with
      | ⟨0, _⟩ => by show oh.val = if (56 : Nat) = 1 then 0 else oh.val; rw [if_neg (by decide)]
      | ⟨1, _⟩ => by show r.val = if (3 : Nat) = 1 then 0 else r.val; rw [if_neg (by decide)])
  unfold kv_main_v28
  rw [taps_apply, h27, h26, base_rows]

/-- The column grid at (oh, ow, k): the column table at (ow, k % 3). -/
theorem grid_cols (oh ow : Fin 56) (k : Fin 9) : kv_main_v31 (F := Ideal) (ix3 oh ow k) = baseW ow (tapCol k) := by
  have h30 : ∀ (r : Fin 3) (c : Fin 3), kv_main_v30 (F := Ideal) (ix4 oh ow r c) = kv_main_v29 (F := Ideal) (ix4 0 ow 0 c) := by
    intro r c
    unfold kv_main_v30
    generalize kv_main_v29 (F := Ideal) = y
    exact broadcastInDim_apply _ bcast_S1x56x1x3_S56x56x3x3_0_1_2_3 y (ix4 oh ow r c) (ix4 0 ow 0 c) (fun a => match a with
      | ⟨0, _⟩ => by show 0 = if (1 : Nat) = 1 then 0 else oh.val; rw [if_pos rfl]
      | ⟨1, _⟩ => by show ow.val = if (56 : Nat) = 1 then 0 else ow.val; rw [if_neg (by decide)]
      | ⟨2, _⟩ => by show 0 = if (1 : Nat) = 1 then 0 else r.val; rw [if_pos rfl]
      | ⟨3, _⟩ => by show c.val = if (3 : Nat) = 1 then 0 else c.val; rw [if_neg (by decide)])
  have h29 : ∀ c : Fin 3, kv_main_v29 (F := Ideal) (ix4 0 ow 0 c) = kv_main_v25 (F := Ideal) (ix2 ow c) := by
    intro c
    unfold kv_main_v29
    generalize kv_main_v25 (F := Ideal) = y
    exact broadcastInDim_apply _ bcast_S56x3_S1x56x1x3_1_3 y (ix4 0 ow 0 c) (ix2 ow c) (fun a => match a with
      | ⟨0, _⟩ => by show ow.val = if (56 : Nat) = 1 then 0 else ow.val; rw [if_neg (by decide)]
      | ⟨1, _⟩ => by show c.val = if (3 : Nat) = 1 then 0 else c.val; rw [if_neg (by decide)])
  unfold kv_main_v31
  rw [taps_apply, h30, h29, base_cols]

/-! ## The base coordinates as floats, and the offsets re-laid

  The two grids become the two components of a [56, 56, 9, 2] array (component 0 the rows, 1 the columns),
  converted to floats and spread over the batch; the offsets' channel 2k + j is component j of tap k. -/

/-- A [56, 56, 9] array as a [56, 56, 9, 1] column. -/
private theorem col1_apply {α : Type} (y : S56x56x9.Idx → α) (oh ow : Fin 56) (k : Fin 9) :
    broadcastInDim S56x56x9x1 ![0, 1, 2] bcast_S56x56x9_S56x56x9x1_0_1_2 y (ix4 oh ow k 0) = y (ix3 oh ow k) :=
  broadcastInDim_apply _ bcast_S56x56x9_S56x56x9x1_0_1_2 y (ix4 oh ow k 0) (ix3 oh ow k) (fun a => match a with
    | ⟨0, _⟩ => by show oh.val = if (56 : Nat) = 1 then 0 else oh.val; rw [if_neg (by decide)]
    | ⟨1, _⟩ => by show ow.val = if (56 : Nat) = 1 then 0 else ow.val; rw [if_neg (by decide)]
    | ⟨2, _⟩ => by show k.val = if (9 : Nat) = 1 then 0 else k.val; rw [if_neg (by decide)])

/-- The stacked integer grid: component 0 is the row grid, component 1 the column grid. -/
theorem grid2_apply (oh ow : Fin 56) (k : Fin 9) (j : Fin 2) :
    kv_main_v34 (F := Ideal) (ix4 oh ow k j) = if j.val = 0 then baseW oh (tapRow k) else baseW ow (tapCol k) := by
  unfold kv_main_v34
  show concatenate S56x56x9x2 3 [⟨S56x56x9x1, kv_main_v32 (F := Ideal)⟩, ⟨S56x56x9x1, kv_main_v33 (F := Ideal)⟩]
    concatenates_S56x56x9x1_S56x56x9x1_S56x56x9x2_d3 (ix4 oh ow k j) = _
  rw [concat2_last_apply (kv_main_v32 (F := Ideal)) (kv_main_v33 (F := Ideal))
    concatenates_S56x56x9x1_S56x56x9x1_S56x56x9x2_d3 oh ow k j]
  unfold kv_main_v32 kv_main_v33
  rw [col1_apply, col1_apply, grid_rows, grid_cols]

/-- The float grid spread over the batch. -/
theorem gridF_apply (b : Fin 8) (oh ow : Fin 56) (k : Fin 9) (j : Fin 2) :
    kv_main_v39 (F := Ideal) (ix5 b oh ow k j) = ofI32 (if j.val = 0 then baseW oh (tapRow k) else baseW ow (tapCol k)) := by
  have h39 : kv_main_v39 (F := Ideal) (ix5 b oh ow k j) = kv_main_v38 (F := Ideal) (ix5 0 oh ow k j) := by
    unfold kv_main_v39
    generalize kv_main_v38 (F := Ideal) = y
    exact broadcastInDim_apply _ bcast_S1x56x56x9x2_S8x56x56x9x2_0_1_2_3_4 y (ix5 b oh ow k j) (ix5 0 oh ow k j) (fun a => match a with
      | ⟨0, _⟩ => by show 0 = if (1 : Nat) = 1 then 0 else b.val; rw [if_pos rfl]
      | ⟨1, _⟩ => by show oh.val = if (56 : Nat) = 1 then 0 else oh.val; rw [if_neg (by decide)]
      | ⟨2, _⟩ => by show ow.val = if (56 : Nat) = 1 then 0 else ow.val; rw [if_neg (by decide)]
      | ⟨3, _⟩ => by show k.val = if (9 : Nat) = 1 then 0 else k.val; rw [if_neg (by decide)]
      | ⟨4, _⟩ => by show j.val = if (2 : Nat) = 1 then 0 else j.val; rw [if_neg (by decide)])
  have h38 : kv_main_v38 (F := Ideal) (ix5 0 oh ow k j) = kv_main_v35 (F := Ideal) (ix4 oh ow k j) := by
    unfold kv_main_v38
    generalize kv_main_v35 (F := Ideal) = y
    exact broadcastInDim_apply _ bcast_S56x56x9x2_S1x56x56x9x2_1_2_3_4 y (ix5 0 oh ow k j) (ix4 oh ow k j) (fun a => match a with
      | ⟨0, _⟩ => by show oh.val = if (56 : Nat) = 1 then 0 else oh.val; rw [if_neg (by decide)]
      | ⟨1, _⟩ => by show ow.val = if (56 : Nat) = 1 then 0 else ow.val; rw [if_neg (by decide)]
      | ⟨2, _⟩ => by show k.val = if (9 : Nat) = 1 then 0 else k.val; rw [if_neg (by decide)]
      | ⟨3, _⟩ => by show j.val = if (2 : Nat) = 1 then 0 else j.val; rw [if_neg (by decide)])
  have h35 : kv_main_v35 (F := Ideal) (ix4 oh ow k j) = ofI32 (kv_main_v34 (F := Ideal) (ix4 oh ow k j)) := rfl
  rw [h39, h38, h35, grid2_apply]

/-- Splitting the 18 offset channels as [9, 2]: channel 2k + j is component j of tap k. -/
private theorem split_apply {α : Type} (y : S8x18x56x56.Idx → α) (b : Fin 8) (k : Fin 9) (j : Fin 2) (h w : Fin 56) :
    shapeCast S8x9x2x56x56 y shapeCasts_S8x18x56x56_S8x9x2x56x56 (ix5 b k j h w)
      = y (ix4 b ⟨2 * k.val + j.val, by have := k.isLt; have := j.isLt; omega⟩ h w) := by
  refine shapeCast_apply y shapeCasts_S8x18x56x56_S8x9x2x56x56 (ix5 b k j h w) _ ?_
  rw [Shape.rowMajor_val_four, Shape.rowMajor_val_five]
  have h0 : b.val < 8 := b.isLt
  have h1 : k.val < 9 := k.isLt
  have h2 : j.val < 2 := j.isLt
  have h3 : h.val < 56 := h.isLt
  have h4 : w.val < 56 := w.isLt
  show ((b.val * 18 + (2 * k.val + j.val)) * 56 + h.val) * 56 + w.val
    = (((b.val * 9 + k.val) * 2 + j.val) * 56 + h.val) * 56 + w.val
  omega

/-- The offsets re-laid as [batch, row, column, tap, component]. -/
theorem offs_apply (x1 : (⟨S8x18x56x56, .f32⟩ : BufTy).Contents (Elt Ideal)) (b : Fin 8) (oh ow : Fin 56) (k : Fin 9) (j : Fin 2) :
    kv_main_v37 (F := Ideal) x1 (ix5 b oh ow k j)
      = x1 (ix4 b ⟨2 * k.val + j.val, by have := k.isLt; have := j.isLt; omega⟩ oh ow) := by
  have h37 : kv_main_v37 (F := Ideal) x1 (ix5 b oh ow k j) = kv_main_v36 (F := Ideal) x1 (ix5 b k j oh ow) := by
    unfold kv_main_v37
    generalize kv_main_v36 (F := Ideal) x1 = y
    exact transpose_apply [0, 3, 4, 1, 2] y transposes_S8x9x2x56x56_S8x56x56x9x2_0_3_4_1_2 (ix5 b oh ow k j) (ix5 b k j oh ow) (fun c => match c with
      | ⟨0, _⟩ => rfl
      | ⟨1, _⟩ => rfl
      | ⟨2, _⟩ => rfl
      | ⟨3, _⟩ => rfl
      | ⟨4, _⟩ => rfl)
  rw [h37]
  unfold kv_main_v36
  exact split_apply x1 b k j oh ow

/-! ## Slices, unit reshapes and columns of the [8, 56, 56, 9, 2] arrays -/

/-- Component 0 of a two-component array, as a [8, 56, 56, 9, 1] slice. -/
private theorem comp0_apply {α : Type} (y : S8x56x56x9x2.Idx → α) (b : Fin 8) (oh ow : Fin 56) (k : Fin 9) :
    extractStridedSlice S8x56x56x9x1 ![0, 0, 0, 0, 0] y slices_S8x56x56x9x2_S8x56x56x9x1_0_0_0_0_0 (ix5 b oh ow k 0)
      = y (ix5 b oh ow k 0) :=
  extractStridedSlice_apply ![0, 0, 0, 0, 0] y slices_S8x56x56x9x2_S8x56x56x9x1_0_0_0_0_0 (ix5 b oh ow k 0) (ix5 b oh ow k 0)
    (fun a => match a with
      | ⟨0, _⟩ => by show b.val = 0 + b.val; omega
      | ⟨1, _⟩ => by show oh.val = 0 + oh.val; omega
      | ⟨2, _⟩ => by show ow.val = 0 + ow.val; omega
      | ⟨3, _⟩ => by show k.val = 0 + k.val; omega
      | ⟨4, _⟩ => by show 0 = 0 + 0; omega)

/-- Component 1, likewise. -/
private theorem comp1_apply {α : Type} (y : S8x56x56x9x2.Idx → α) (b : Fin 8) (oh ow : Fin 56) (k : Fin 9) :
    extractStridedSlice S8x56x56x9x1 ![0, 0, 0, 0, 1] y slices_S8x56x56x9x2_S8x56x56x9x1_0_0_0_0_1 (ix5 b oh ow k 0)
      = y (ix5 b oh ow k 1) :=
  extractStridedSlice_apply ![0, 0, 0, 0, 1] y slices_S8x56x56x9x2_S8x56x56x9x1_0_0_0_0_1 (ix5 b oh ow k 0) (ix5 b oh ow k 1)
    (fun a => match a with
      | ⟨0, _⟩ => by show b.val = 0 + b.val; omega
      | ⟨1, _⟩ => by show oh.val = 0 + oh.val; omega
      | ⟨2, _⟩ => by show ow.val = 0 + ow.val; omega
      | ⟨3, _⟩ => by show k.val = 0 + k.val; omega
      | ⟨4, _⟩ => by show 1 = 1 + 0; omega)

/-- Dropping the trailing unit axis. -/
private theorem drop1_apply {α : Type} (y : S8x56x56x9x1.Idx → α) (b : Fin 8) (oh ow : Fin 56) (k : Fin 9) :
    shapeCast S8x56x56x9 y shapeCasts_S8x56x56x9x1_S8x56x56x9 (ix4 b oh ow k) = y (ix5 b oh ow k 0) := by
  refine shapeCast_apply y shapeCasts_S8x56x56x9x1_S8x56x56x9 (ix4 b oh ow k) (ix5 b oh ow k 0) ?_
  rw [Shape.rowMajor_val_five, Shape.rowMajor_val_four]
  show (((b.val * 56 + oh.val) * 56 + ow.val) * 9 + k.val) * 1 + 0 = ((b.val * 56 + oh.val) * 56 + ow.val) * 9 + k.val
  omega

/-- Putting it back as a column. -/
private theorem add1_apply {α : Type} (y : S8x56x56x9.Idx → α) (b : Fin 8) (oh ow : Fin 56) (k : Fin 9) :
    broadcastInDim S8x56x56x9x1 ![0, 1, 2, 3] bcast_S8x56x56x9_S8x56x56x9x1_0_1_2_3 y (ix5 b oh ow k 0) = y (ix4 b oh ow k) :=
  broadcastInDim_apply _ bcast_S8x56x56x9_S8x56x56x9x1_0_1_2_3 y (ix5 b oh ow k 0) (ix4 b oh ow k) (fun a => match a with
    | ⟨0, _⟩ => by show b.val = if (8 : Nat) = 1 then 0 else b.val; rw [if_neg (by decide)]
    | ⟨1, _⟩ => by show oh.val = if (56 : Nat) = 1 then 0 else oh.val; rw [if_neg (by decide)]
    | ⟨2, _⟩ => by show ow.val = if (56 : Nat) = 1 then 0 else ow.val; rw [if_neg (by decide)]
    | ⟨3, _⟩ => by show k.val = if (9 : Nat) = 1 then 0 else k.val; rw [if_neg (by decide)])

/-! ## The coordinates, cells and fractional parts at one position and tap -/

variable (x1 : (⟨S8x18x56x56, .f32⟩ : BufTy).Contents (Elt Ideal)) (x2 : (⟨S8x9x56x56, .f32⟩ : BufTy).Contents (Elt Ideal))
variable (b : Fin 8) (oh ow : Fin 56) (k : Fin 9)

/-- The fractional row coordinate of tap k at (b, oh, ow). -/
theorem coord_row : kv_main_v40 (F := Ideal) x1 (ix5 b oh ow k 0) = coordRow (x1 (ix4 b (chRow k) oh ow)) oh k := by
  show kv_main_v37 (F := Ideal) x1 (ix5 b oh ow k 0) + kv_main_v39 (F := Ideal) (ix5 b oh ow k 0) = _
  rw [offs_apply, gridF_apply]
  rfl

/-- The fractional column coordinate. -/
theorem coord_col : kv_main_v40 (F := Ideal) x1 (ix5 b oh ow k 1) = coordCol (x1 (ix4 b (chCol k) oh ow)) ow k := by
  show kv_main_v37 (F := Ideal) x1 (ix5 b oh ow k 1) + kv_main_v39 (F := Ideal) (ix5 b oh ow k 1) = _
  rw [offs_apply, gridF_apply]
  rfl

/-- The integer cell of the row coordinate, -/
theorem cell_row : kv_main_v45 (F := Ideal) x1 (ix4 b oh ow k) = cell (coordRow (x1 (ix4 b (chRow k) oh ow)) oh k) := by
  show toI32 (kv_main_v44 (F := Ideal) x1 (ix4 b oh ow k)) = _
  unfold kv_main_v44 kv_main_v43
  rw [drop1_apply, comp0_apply]
  show toI32 (floorS (kv_main_v40 (F := Ideal) x1 (ix5 b oh ow k 0))) = _
  rw [coord_row]
  rfl

/-- of the column coordinate, -/
theorem cell_col : kv_main_v48 (F := Ideal) x1 (ix4 b oh ow k) = cell (coordCol (x1 (ix4 b (chCol k) oh ow)) ow k) := by
  show toI32 (kv_main_v47 (F := Ideal) x1 (ix4 b oh ow k)) = _
  unfold kv_main_v47 kv_main_v46
  rw [drop1_apply, comp1_apply]
  show toI32 (floorS (kv_main_v40 (F := Ideal) x1 (ix5 b oh ow k 1))) = _
  rw [coord_col]
  rfl

/-- and each plus one. -/
theorem cell_row1 : kv_main_v50 (F := Ideal) x1 (ix4 b oh ow k)
    = IntOp.addi (cell (coordRow (x1 (ix4 b (chRow k) oh ow)) oh k)) 1#32 := by
  show IntOp.addi (kv_main_v45 (F := Ideal) x1 (ix4 b oh ow k)) 1#32 = _
  rw [cell_row]

theorem cell_col1 : kv_main_v52 (F := Ideal) x1 (ix4 b oh ow k)
    = IntOp.addi (cell (coordCol (x1 (ix4 b (chCol k) oh ow)) ow k)) 1#32 := by
  show IntOp.addi (kv_main_v48 (F := Ideal) x1 (ix4 b oh ow k)) 1#32 = _
  rw [cell_col]

/-- The fractional parts, as the columns [8, 56, 56, 9, 1] the interpolation broadcasts over the channels. -/
theorem frac_row : kv_main_v141 (F := Ideal) x1 (ix5 b oh ow k 0) = frac (coordRow (x1 (ix4 b (chRow k) oh ow)) oh k) := by
  unfold kv_main_v141 kv_main_v140 kv_main_v139
  rw [add1_apply, drop1_apply, comp0_apply]
  show kv_main_v40 (F := Ideal) x1 (ix5 b oh ow k 0) - floorS (kv_main_v40 (F := Ideal) x1 (ix5 b oh ow k 0)) = _
  rw [coord_row]
  rfl

theorem frac_col : kv_main_v144 (F := Ideal) x1 (ix5 b oh ow k 0) = frac (coordCol (x1 (ix4 b (chCol k) oh ow)) ow k) := by
  unfold kv_main_v144 kv_main_v143 kv_main_v142
  rw [add1_apply, drop1_apply, comp1_apply]
  show kv_main_v40 (F := Ideal) x1 (ix5 b oh ow k 1) - floorS (kv_main_v40 (F := Ideal) x1 (ix5 b oh ow k 1)) = _
  rw [coord_col]
  rfl

/-- The modulation mask as such a column. -/
theorem mask_at : kv_main_v158 (F := Ideal) x2 (ix5 b oh ow k 0) = x2 (ix4 b k oh ow) := by
  unfold kv_main_v158 kv_main_v157
  rw [add1_apply]
  exact transpose_apply [0, 2, 3, 1] x2 transposes_S8x9x56x56_S8x56x56x9_0_2_3_1 (ix4 b oh ow k) (ix4 b k oh ow) (fun c => match c with
    | ⟨0, _⟩ => rfl
    | ⟨1, _⟩ => rfl
    | ⟨2, _⟩ => rfl
    | ⟨3, _⟩ => rfl)

end Cert.KernelIdeal.KCoord

end
-- ==== Proof.KCorner.lean ====
/-
  One neighbour of the bilinear sample in the kernel program: the validity test of an integer coordinate pair, its
  clipped flat position, the row gather of the channels-last image at that position in fill mode, and the
  replacement by zero outside the image — read at one output position, tap and channel. The program runs this chain
  four times, at (cell, cell), (cell + 1, cell + 1), (cell, cell + 1) and (cell + 1, cell).
-/
import proofs.«412700_j5961414607249_3_alg».proof.Proof.KVal
import proofs.«412700_j5961414607249_3_alg».proof.Proof.Spec
import proofs.«412700_j5961414607249_3_alg».proof.Proof.LibDeformLayout
import Idealize.ShloMosaic.Lib.Pipeline.Value
import Idealize.ShloMosaic.Lib.ValueIdx
import Idealize.ShloMosaic.Lib.ValueLayout

noncomputable section

open Idealize.ShloMosaic Idealize.ShloMosaic.ValueIdx DeformSpec DeformLib

namespace Cert.KernelIdeal.KCorner

open Cert.KernelIdeal Cert.KernelIdeal.Gen Cert.KernelIdeal.KVal

section Pointwise
variable (ci cj : (⟨S8x56x56x9, .i32⟩ : BufTy).Contents (Elt Ideal))
variable (b : Fin 8) (oh ow : Fin 56) (k : Fin 9) (c : Fin 256)

/-- The validity bit of a coordinate pair, as the program computes it over the whole array. -/
def validA : (⟨S8x56x56x9, .i1⟩ : BufTy).Contents (Elt Ideal) :=
  andi (andi (andi ((cmpi .sge) ci ((broadcastInDim S8x56x56x9 ![] bcast_S_S8x56x56x9) (constantI S_ 32 0#32)))
      ((cmpi .slt) ci ((broadcastInDim S8x56x56x9 ![] bcast_S_S8x56x56x9) (constantI S_ 32 56#32))))
    ((cmpi .sge) cj ((broadcastInDim S8x56x56x9 ![] bcast_S_S8x56x56x9) (constantI S_ 32 0#32))))
    ((cmpi .slt) cj ((broadcastInDim S8x56x56x9 ![] bcast_S_S8x56x56x9) (constantI S_ 32 56#32)))

theorem validA_apply (i : S8x56x56x9.Idx) : validA ci cj i = inImage (ci i) (cj i) := rfl

/-- One coordinate array clipped into [0, 55]. -/
def clipA (x : (⟨S8x56x56x9, .i32⟩ : BufTy).Contents (Elt Ideal)) : (⟨S8x56x56x9, .i32⟩ : BufTy).Contents (Elt Ideal) :=
  minsi ((broadcastInDim S8x56x56x9 ![] bcast_S_S8x56x56x9) (id (constantI S_ 32 55#32)))
    (maxsi ((broadcastInDim S8x56x56x9 ![] bcast_S_S8x56x56x9) (id (constantI S_ 32 0#32))) x)

theorem clipA_apply (x : (⟨S8x56x56x9, .i32⟩ : BufTy).Contents (Elt Ideal)) (i : S8x56x56x9.Idx) : clipA x i = clip55 (x i) := rfl

/-- The flat position array. -/
def flatA : (⟨S8x56x56x9, .i32⟩ : BufTy).Contents (Elt Ideal) :=
  addi (muli (clipA ci) ((broadcastInDim S8x56x56x9 ![] bcast_S_S8x56x56x9) (constantI S_ 32 56#32))) (clipA cj)

theorem flatA_apply (i : S8x56x56x9.Idx) : flatA ci cj i = flat (ci i) (cj i) := rfl

end Pointwise

section Column
variable (ci cj : (⟨S8x56x56x9, .i32⟩ : BufTy).Contents (Elt Ideal))
variable (b : Fin 8) (oh ow : Fin 56) (k : Fin 9) (c : Fin 256)

/-- The position of (oh, ow, k) in the flattened axis of 56·56·9 entries. -/
def posK (oh ow : Fin 56) (k : Fin 9) : Fin 28224 := ⟨(oh.val * 56 + ow.val) * 9 + k.val, by omega⟩

/-- The index column: an array over (b, oh, ow, k) reshaped to [8, 28224, 1]. -/
theorem col_apply (fl : (⟨S8x56x56x9, .i32⟩ : BufTy).Contents (Elt Ideal)) :
    shapeCast S8x28224x1 fl shapeCasts_S8x56x56x9_S8x28224x1 (ix3 b (posK oh ow k) 0) = fl (ix4 b oh ow k) := by
  refine shapeCast_apply fl shapeCasts_S8x56x56x9_S8x28224x1 _ _ ?_
  rewrite [Shape.rowMajor_val_four, Shape.rowMajor_val_three]
  have h0 : b.val < 8 := b.isLt
  have h1 : oh.val < 56 := oh.isLt
  have h2 : ow.val < 56 := ow.isLt
  have h3 : k.val < 9 := k.isLt
  show ((b.val * 56 + oh.val) * 56 + ow.val) * 9 + k.val = (b.val * 28224 + ((oh.val * 56 + ow.val) * 9 + k.val)) * 1 + 0
  omega

/-- NumPy's wrap of a negative index, over the index column. -/
def wrapA (s : (⟨S8x28224x1, .i32⟩ : BufTy).Contents (Elt Ideal)) : (⟨S8x28224x1, .i32⟩ : BufTy).Contents (Elt Ideal) :=
  select ((cmpi .slt) s ((broadcastInDim S8x28224x1 ![] bcast_S_S8x28224x1) (constantI S_ 32 0#32)))
    (addi s ((broadcastInDim S8x28224x1 ![] bcast_S_S8x28224x1) (constantI S_ 32 3136#32))) s

theorem wrapA_apply (s : (⟨S8x28224x1, .i32⟩ : BufTy).Contents (Elt Ideal)) (i : S8x28224x1.Idx) : wrapA s i = wrap (s i) := rfl

/-- The range bit of the wrapped index column, reduced over its trailing axis. -/
def rangeA (w : (⟨S8x28224x1, .i32⟩ : BufTy).Contents (Elt Ideal)) : (⟨S8x28224, .i1⟩ : BufTy).Contents (Elt Ideal) :=
  (fun x v => Host.reduce IntOp.andi x v reducesTo_S8x28224x1_S8x28224_d2 h_S_)
    (andi ((cmpi .sge) w ((broadcastInDim S8x28224x1 ![] bcast_S_S8x28224x1) (constantI S_ 32 0#32)))
      ((cmpi .sle) w ((broadcastInDim S8x28224x1 ![0, 1, 2] bcast_S1x1x1_S8x28224x1_0_1_2)
        ((broadcastInDim S1x1x1 ![2] bcast_S1_S1x1x1_2) (constantI S1 32 3135#32)))))
    (constantI S_ 1 1#1)

theorem rangeA_apply (w : (⟨S8x28224x1, .i32⟩ : BufTy).Contents (Elt Ideal)) (p : Fin 28224) :
    rangeA w (ix2 b p) = inRange (w (ix3 b p 0)) := by
  unfold rangeA
  exact reduce_andi_last1 _ _ _ _ b p

end Column

section Chain
variable (ci cj : (⟨S8x56x56x9, .i32⟩ : BufTy).Contents (Elt Ideal))
variable (xcl : (⟨S8x3136x256, .f32⟩ : BufTy).Contents (Elt Ideal))
variable (b : Fin 8) (oh ow : Fin 56) (k : Fin 9) (c : Fin 256)

/-- The row gather of the channels-last image at an index column. -/
def gathA (w : (⟨S8x28224x1, .i32⟩ : BufTy).Contents (Elt Ideal)) : (⟨S8x28224x256, .f32⟩ : BufTy).Contents (Elt Ideal) :=
  (fun x i => Host.gather gather_S8x3136x256_S8x28224x1_S8x28224x256_2_1_0_0_1_2_11256 x i) xcl w

/-- The gathered row at (b, p, c): the image's row at the clamped index (b, p, 0), channel c. -/
theorem gathA_apply (w : (⟨S8x28224x1, .i32⟩ : BufTy).Contents (Elt Ideal)) (p : Fin 28224) :
    gathA xcl w (ix3 b p c) = xcl (ix3 b (clampPos (w (ix3 b p 0))) c) := by
  show Host.gather (DeformLib.rowsDims 8 3136 256 28224 _) xcl w (ix3 b p c) = _
  exact gather_rows_apply (by decide) _ xcl w b p c

/-- The gather in fill mode: the gathered row where the wrapped index is in range, the fill value elsewhere. -/
def takeA (s : (⟨S8x28224x1, .i32⟩ : BufTy).Contents (Elt Ideal)) : (⟨S8x28224x256, .f32⟩ : BufTy).Contents (Elt Ideal) :=
  select ((broadcastInDim S8x28224x256 ![0, 1] bcast_S8x28224_S8x28224x256_0_1) (rangeA (wrapA s)))
    (gathA xcl (wrapA s))
    ((broadcastInDim S8x28224x256 ![] bcast_S_S8x28224x256) (constant (F := Ideal) S_ .f32 0x7FC00000#32))

/-- The range bit broadcast over the channels. -/
theorem bcast_range_apply (r : (⟨S8x28224, .i1⟩ : BufTy).Contents (Elt Ideal)) (p : Fin 28224) :
    (broadcastInDim S8x28224x256 ![0, 1] bcast_S8x28224_S8x28224x256_0_1) r (ix3 b p c) = r (ix2 b p) :=
  broadcastInDim_apply _ bcast_S8x28224_S8x28224x256_0_1 r (ix3 b p c) (ix2 b p) (fun a => match a with
    | ⟨0, _⟩ => by show b.val = if (8 : Nat) = 1 then 0 else b.val; rw [if_neg (by decide)]
    | ⟨1, _⟩ => by show p.val = if (28224 : Nat) = 1 then 0 else p.val; rw [if_neg (by decide)])

theorem takeA_apply (s : (⟨S8x28224x1, .i32⟩ : BufTy).Contents (Elt Ideal)) (p : Fin 28224) :
    takeA xcl s (ix3 b p c)
      = Scalar.select (inRange (wrap (s (ix3 b p 0)))) (xcl (ix3 b (clampPos (wrap (s (ix3 b p 0)))) c)) fillF := by
  show Scalar.select ((broadcastInDim S8x28224x256 ![0, 1] bcast_S8x28224_S8x28224x256_0_1) (rangeA (wrapA s)) (ix3 b p c))
    (gathA xcl (wrapA s) (ix3 b p c)) fillF = _
  rw [bcast_range_apply, rangeA_apply, gathA_apply, wrapA_apply]

/-- The reshape of the gathered rows to (b, oh, ow, k, c). -/
theorem out_apply (t : (⟨S8x28224x256, .f32⟩ : BufTy).Contents (Elt Ideal)) :
    shapeCast S8x56x56x9x256 t shapeCasts_S8x28224x256_S8x56x56x9x256 (ix5 b oh ow k c) = t (ix3 b (posK oh ow k) c) := by
  refine shapeCast_apply t shapeCasts_S8x28224x256_S8x56x56x9x256 _ _ ?_
  rewrite [Shape.rowMajor_val_three, Shape.rowMajor_val_five]
  have h0 : b.val < 8 := b.isLt
  have h1 : oh.val < 56 := oh.isLt
  have h2 : ow.val < 56 := ow.isLt
  have h3 : k.val < 9 := k.isLt
  have h4 : c.val < 256 := c.isLt
  show (b.val * 28224 + ((oh.val * 56 + ow.val) * 9 + k.val)) * 256 + c.val
    = (((b.val * 56 + oh.val) * 56 + ow.val) * 9 + k.val) * 256 + c.val
  omega

/-- The validity bit broadcast over a new trailing axis and then over the channels. -/
theorem bcast_valid_apply (v : (⟨S8x56x56x9, .i1⟩ : BufTy).Contents (Elt Ideal)) :
    (broadcastInDim S8x56x56x9x256 ![0, 1, 2, 3, 4] bcast_S8x56x56x9x1_S8x56x56x9x256_0_1_2_3_4)
      ((broadcastInDim S8x56x56x9x1 ![0, 1, 2, 3] bcast_S8x56x56x9_S8x56x56x9x1_0_1_2_3) v) (ix5 b oh ow k c)
      = v (ix4 b oh ow k) := by
  refine (broadcastInDim_apply _ bcast_S8x56x56x9x1_S8x56x56x9x256_0_1_2_3_4 _ (ix5 b oh ow k c) (ix5 b oh ow k 0) (fun a => match a with
    | ⟨0, _⟩ => by show b.val = if (8 : Nat) = 1 then 0 else b.val; rw [if_neg (by decide)]
    | ⟨1, _⟩ => by show oh.val = if (56 : Nat) = 1 then 0 else oh.val; rw [if_neg (by decide)]
    | ⟨2, _⟩ => by show ow.val = if (56 : Nat) = 1 then 0 else ow.val; rw [if_neg (by decide)]
    | ⟨3, _⟩ => by show k.val = if (9 : Nat) = 1 then 0 else k.val; rw [if_neg (by decide)]
    | ⟨4, _⟩ => by show 0 = if (1 : Nat) = 1 then 0 else c.val; rw [if_pos rfl])).trans ?_
  exact broadcastInDim_apply _ bcast_S8x56x56x9_S8x56x56x9x1_0_1_2_3 v (ix5 b oh ow k 0) (ix4 b oh ow k) (fun a => match a with
    | ⟨0, _⟩ => by show b.val = if (8 : Nat) = 1 then 0 else b.val; rw [if_neg (by decide)]
    | ⟨1, _⟩ => by show oh.val = if (56 : Nat) = 1 then 0 else oh.val; rw [if_neg (by decide)]
    | ⟨2, _⟩ => by show ow.val = if (56 : Nat) = 1 then 0 else ow.val; rw [if_neg (by decide)]
    | ⟨3, _⟩ => by show k.val = if (9 : Nat) = 1 then 0 else k.val; rw [if_neg (by decide)])

/-- The whole chain over a coordinate pair `ci`, `cj` and a channels-last image `xcl` with its pixels flattened. -/
def chainA : (⟨S8x56x56x9x256, .f32⟩ : BufTy).Contents (Elt Ideal) :=
  select
    ((broadcastInDim S8x56x56x9x256 ![0, 1, 2, 3, 4] bcast_S8x56x56x9x1_S8x56x56x9x256_0_1_2_3_4)
      ((broadcastInDim S8x56x56x9x1 ![0, 1, 2, 3] bcast_S8x56x56x9_S8x56x56x9x1_0_1_2_3) (validA ci cj)))
    (shapeCast _ (takeA xcl (shapeCast _ (flatA ci cj) shapeCasts_S8x56x56x9_S8x28224x1)) shapeCasts_S8x28224x256_S8x56x56x9x256)
    ((broadcastInDim S8x56x56x9x256 ![] bcast_S_S8x56x56x9x256) (constant (F := Ideal) S_ .f32 0x00000000#32))

/-- The chain read at (b, oh, ow, k, c) is the neighbour of channel c's flat image at the coordinate pair of (b, oh, ow, k). -/
theorem chainA_apply :
    chainA ci cj xcl (ix5 b oh ow k c)
      = corner (fun s => xcl (ix3 b s c)) (ci (ix4 b oh ow k)) (cj (ix4 b oh ow k)) := by
  show Scalar.select
    ((broadcastInDim S8x56x56x9x256 ![0, 1, 2, 3, 4] bcast_S8x56x56x9x1_S8x56x56x9x256_0_1_2_3_4)
      ((broadcastInDim S8x56x56x9x1 ![0, 1, 2, 3] bcast_S8x56x56x9_S8x56x56x9x1_0_1_2_3) (validA ci cj)) (ix5 b oh ow k c))
    (shapeCast S8x56x56x9x256 (takeA xcl (shapeCast S8x28224x1 (flatA ci cj) shapeCasts_S8x56x56x9_S8x28224x1))
      shapeCasts_S8x28224x256_S8x56x56x9x256 (ix5 b oh ow k c))
    zeroF = _
  rw [bcast_valid_apply, out_apply, takeA_apply, col_apply, validA_apply, flatA_apply]
  rfl

end Chain

variable (x0 : (⟨S8x256x56x56, .f32⟩ : BufTy).Contents (Elt Ideal)) (x1 : (⟨S8x18x56x56, .f32⟩ : BufTy).Contents (Elt Ideal))
variable (b : Fin 8) (oh ow : Fin 56) (k : Fin 9) (c : Fin 256)

/-- Batch b's channel c of the image argument as a flat row of 3136 pixels. -/
def imgK (x0 : (⟨S8x256x56x56, .f32⟩ : BufTy).Contents (Elt Ideal)) (b : Fin 8) (c : Fin 256) (s : Fin 3136) : R :=
  x0 (ix4 b c ⟨s.val / 56, by omega⟩ ⟨s.val % 56, by omega⟩)

/-- The channels-last image with its pixels flattened, read at (b, s, c): pixel s is (s / 56, s % 56). -/
theorem img_apply (s : Fin 3136) : kv_main_v54 (F := Ideal) x0 (ix3 b s c) = imgK x0 b c s := by
  unfold kv_main_v54 kv_main_v53
  refine (shapeCast_apply _ shapeCasts_S8x56x56x256_S8x3136x256 (ix3 b s c)
    (ix4 b (⟨s.val / 56, by omega⟩ : Fin 56) (⟨s.val % 56, by omega⟩ : Fin 56) c) ?_).trans ?_
  · rewrite [Shape.rowMajor_val_four, Shape.rowMajor_val_three]
    have h0 : b.val < 8 := b.isLt
    have h1 : s.val < 3136 := s.isLt
    have h2 : c.val < 256 := c.isLt
    show ((b.val * 56 + s.val / 56) * 56 + s.val % 56) * 256 + c.val = (b.val * 3136 + s.val) * 256 + c.val
    omega
  · exact transpose_apply [0, 2, 3, 1] x0 transposes_S8x256x56x56_S8x56x56x256_0_2_3_1 _
      (ix4 b c (⟨s.val / 56, by omega⟩ : Fin 56) (⟨s.val % 56, by omega⟩ : Fin 56)) (fun a => match a with
      | ⟨0, _⟩ => rfl
      | ⟨1, _⟩ => rfl
      | ⟨2, _⟩ => rfl
      | ⟨3, _⟩ => rfl)

/-- The same as an equation of rows. -/
theorem img_row : (fun s => kv_main_v54 (F := Ideal) x0 (ix3 b s c)) = imgK x0 b c := funext (img_apply x0 b c)

/-- The neighbour at (row cell, column cell). -/
theorem corner_lt : kv_main_v75 (F := Ideal) x0 x1 (ix5 b oh ow k c)
    = corner (imgK x0 b c) (kv_main_v45 (F := Ideal) x1 (ix4 b oh ow k)) (kv_main_v48 (F := Ideal) x1 (ix4 b oh ow k)) := by
  have h : kv_main_v75 (F := Ideal) x0 x1
      = chainA (kv_main_v45 (F := Ideal) x1) (kv_main_v48 (F := Ideal) x1) (kv_main_v54 (F := Ideal) x0) := rfl
  rw [h, chainA_apply, img_row]

/-- The neighbour at (row cell + 1, column cell + 1). -/
theorem corner_rb : kv_main_v96 (F := Ideal) x0 x1 (ix5 b oh ow k c)
    = corner (imgK x0 b c) (kv_main_v50 (F := Ideal) x1 (ix4 b oh ow k)) (kv_main_v52 (F := Ideal) x1 (ix4 b oh ow k)) := by
  have h : kv_main_v96 (F := Ideal) x0 x1
      = chainA (kv_main_v50 (F := Ideal) x1) (kv_main_v52 (F := Ideal) x1) (kv_main_v54 (F := Ideal) x0) := rfl
  rw [h, chainA_apply, img_row]

/-- The neighbour at (row cell, column cell + 1). -/
theorem corner_rt : kv_main_v117 (F := Ideal) x0 x1 (ix5 b oh ow k c)
    = corner (imgK x0 b c) (kv_main_v45 (F := Ideal) x1 (ix4 b oh ow k)) (kv_main_v52 (F := Ideal) x1 (ix4 b oh ow k)) := by
  have h : kv_main_v117 (F := Ideal) x0 x1
      = chainA (kv_main_v45 (F := Ideal) x1) (kv_main_v52 (F := Ideal) x1) (kv_main_v54 (F := Ideal) x0) := rfl
  rw [h, chainA_apply, img_row]

/-- The neighbour at (row cell + 1, column cell). -/
theorem corner_lb : kv_main_v138 (F := Ideal) x0 x1 (ix5 b oh ow k c)
    = corner (imgK x0 b c) (kv_main_v50 (F := Ideal) x1 (ix4 b oh ow k)) (kv_main_v48 (F := Ideal) x1 (ix4 b oh ow k)) := by
  have h : kv_main_v138 (F := Ideal) x0 x1
      = chainA (kv_main_v50 (F := Ideal) x1) (kv_main_v48 (F := Ideal) x1) (kv_main_v54 (F := Ideal) x0) := rfl
  rw [h, chainA_apply, img_row]

end Cert.KernelIdeal.KCorner

end
-- ==== Proof.KRead.lean ====
/-
  The three arrays the kernel's region reads, index by index, in terms of the specification: the im2col matrix at
  (b, l, n) is the modulated bilinear sample of channel n % 256 for tap n / 256 at output position (l / 56, l % 56)
  (its conversion to bf16 is the identity on extended reals); the weight matrix at (n, oc) is the weight of output
  channel oc for that tap and channel; the bias row is the bias.
-/
import proofs.«412700_j5961414607249_3_alg».proof.Proof.KCoord
import proofs.«412700_j5961414607249_3_alg».proof.Proof.KCorner

noncomputable section

open Idealize.ShloMosaic Idealize.ShloMosaic.ValueIdx DeformSpec DeformLib

namespace Cert.KernelIdeal.KRead

open Cert.KernelIdeal Cert.KernelIdeal.Gen Cert.KernelIdeal.KVal

variable (x0 : (⟨S8x256x56x56, .f32⟩ : BufTy).Contents (Elt Ideal)) (x1 : (⟨S8x18x56x56, .f32⟩ : BufTy).Contents (Elt Ideal)) (x2 : (⟨S8x9x56x56, .f32⟩ : BufTy).Contents (Elt Ideal)) (x3 : (⟨S256x256x3x3, .f32⟩ : BufTy).Contents (Elt Ideal)) (x4 : (⟨S256, .f32⟩ : BufTy).Contents (Elt Ideal))

/-! ## The interpolation

  With lt, rt, lb, rb the four neighbours, fc and fr the fractional parts of the column and row coordinates and m
  the modulation, the program forms  top = lt + fc·(rt − lt),  bottom = lb + fc·(rb − lb)  and
  (top + fr·(bottom − top))·m,  the three scalars each spread from a [8, 56, 56, 9, 1] column over the channels. -/

/-- A [8, 56, 56, 9, 1] column spread over the 256 channels. -/
private theorem chan_apply {α : Type} (y : S8x56x56x9x1.Idx → α) (b : Fin 8) (oh ow : Fin 56) (k : Fin 9) (c : Fin 256) :
    broadcastInDim S8x56x56x9x256 ![0, 1, 2, 3, 4] bcast_S8x56x56x9x1_S8x56x56x9x256_0_1_2_3_4 y (ix5 b oh ow k c)
      = y (ix5 b oh ow k 0) :=
  broadcastInDim_apply _ bcast_S8x56x56x9x1_S8x56x56x9x256_0_1_2_3_4 y (ix5 b oh ow k c) (ix5 b oh ow k 0) (fun a => match a with
    | ⟨0, _⟩ => by show b.val = if (8 : Nat) = 1 then 0 else b.val; rw [if_neg (by decide)]
    | ⟨1, _⟩ => by show oh.val = if (56 : Nat) = 1 then 0 else oh.val; rw [if_neg (by decide)]
    | ⟨2, _⟩ => by show ow.val = if (56 : Nat) = 1 then 0 else ow.val; rw [if_neg (by decide)]
    | ⟨3, _⟩ => by show k.val = if (9 : Nat) = 1 then 0 else k.val; rw [if_neg (by decide)]
    | ⟨4, _⟩ => by show 0 = if (1 : Nat) = 1 then 0 else c.val; rw [if_pos rfl])

/-- The sample the program computes at (b, oh, ow, k, c), before the re-layout to a matrix. -/
theorem col_read (b : Fin 8) (oh ow : Fin 56) (k : Fin 9) (c : Fin 256) :
    kv_main_v160 (F := Ideal) x0 x1 x2 (ix5 b oh ow k c) = col (argsOf x0 x1 x2 x3 x4) b oh ow k c := by
  -- the flat image of batch b, channel c is the specification's
  have himg : KCorner.imgK x0 b c = image (argsOf x0 x1 x2 x3 x4) b c := rfl
  -- the three scalars at channel c are their columns' entries
  have hfc : kv_main_v146 (F := Ideal) x1 (ix5 b oh ow k c) = frac (coordCol (x1 (ix4 b (chCol k) oh ow)) ow k) :=
    (chan_apply (kv_main_v144 (F := Ideal) x1) b oh ow k c).trans (KCoord.frac_col x1 b oh ow k)
  have hfc' : kv_main_v150 (F := Ideal) x1 (ix5 b oh ow k c) = frac (coordCol (x1 (ix4 b (chCol k) oh ow)) ow k) :=
    (chan_apply (kv_main_v144 (F := Ideal) x1) b oh ow k c).trans (KCoord.frac_col x1 b oh ow k)
  have hfr : kv_main_v154 (F := Ideal) x1 (ix5 b oh ow k c) = frac (coordRow (x1 (ix4 b (chRow k) oh ow)) oh k) :=
    (chan_apply (kv_main_v141 (F := Ideal) x1) b oh ow k c).trans (KCoord.frac_row x1 b oh ow k)
  have hm : kv_main_v159 (F := Ideal) x2 (ix5 b oh ow k c) = x2 (ix4 b k oh ow) :=
    (chan_apply (kv_main_v158 (F := Ideal) x2) b oh ow k c).trans (KCoord.mask_at x2 b oh ow k)
  -- the pointwise sums, differences and products at the index
  show ((kv_main_v75 (F := Ideal) x0 x1 (ix5 b oh ow k c)
        + kv_main_v146 (F := Ideal) x1 (ix5 b oh ow k c)
          * (kv_main_v117 (F := Ideal) x0 x1 (ix5 b oh ow k c) - kv_main_v75 (F := Ideal) x0 x1 (ix5 b oh ow k c)))
      + kv_main_v154 (F := Ideal) x1 (ix5 b oh ow k c)
        * ((kv_main_v138 (F := Ideal) x0 x1 (ix5 b oh ow k c)
            + kv_main_v150 (F := Ideal) x1 (ix5 b oh ow k c)
              * (kv_main_v96 (F := Ideal) x0 x1 (ix5 b oh ow k c) - kv_main_v138 (F := Ideal) x0 x1 (ix5 b oh ow k c)))
          - (kv_main_v75 (F := Ideal) x0 x1 (ix5 b oh ow k c)
            + kv_main_v146 (F := Ideal) x1 (ix5 b oh ow k c)
              * (kv_main_v117 (F := Ideal) x0 x1 (ix5 b oh ow k c) - kv_main_v75 (F := Ideal) x0 x1 (ix5 b oh ow k c)))))
      * kv_main_v159 (F := Ideal) x2 (ix5 b oh ow k c) = _
  -- the four neighbours at the cells and the cells plus one; both sides are then the same expression
  rw [hfc, hfc', hfr, hm, KCorner.corner_lt, KCorner.corner_rt, KCorner.corner_lb,
    KCorner.corner_rb, KCoord.cell_row, KCoord.cell_col, KCoord.cell_row1, KCoord.cell_col1, himg]
  rfl

/-! ## The re-layouts -/

/-- Flattening [8, 56, 56, 9, 256] to [8, 3136, 2304]: row l is the output position (l / 56, l % 56), column n is
    tap n / 256 and channel n % 256, since 56·(l / 56) + l % 56 = l and 256·(n / 256) + n % 256 = n. -/
private theorem mat_apply {α : Type} (y : S8x56x56x9x256.Idx → α) (b : Fin 8) (l : Fin 3136) (n : Fin 2304) :
    shapeCast S8x3136x2304 y shapeCasts_S8x56x56x9x256_S8x3136x2304 (ix3 b l n)
      = y (ix5 b (⟨l.val / 56, by omega⟩ : Fin 56) (⟨l.val % 56, by omega⟩ : Fin 56)
          (⟨n.val / 256, by omega⟩ : Fin 9) (⟨n.val % 256, by omega⟩ : Fin 256)) := by
  refine shapeCast_apply y shapeCasts_S8x56x56x9x256_S8x3136x2304 (ix3 b l n) _ ?_
  rw [Shape.rowMajor_val_five, Shape.rowMajor_val_three]
  have h0 : b.val < 8 := b.isLt
  have h1 : l.val < 3136 := l.isLt
  have h2 : n.val < 2304 := n.isLt
  show (((b.val * 56 + l.val / 56) * 56 + l.val % 56) * 9 + n.val / 256) * 256 + n.val % 256
    = (b.val * 3136 + l.val) * 2304 + n.val
  omega

/-- The im2col matrix: rows are output positions, columns tap-major then channel. -/
theorem cols_read (b : Fin 8) (l : Fin 3136) (n : Fin 2304) :
    kv_main_v164 (F := Ideal) x0 x1 x2 (ix3 b l n)
      = col (argsOf x0 x1 x2 x3 x4) b ⟨l.val / 56, by omega⟩ ⟨l.val % 56, by omega⟩ ⟨n.val / 256, by omega⟩ ⟨n.val % 256, by omega⟩ := by
  -- the change of float format is the identity on extended reals
  show kv_main_v161 (F := Ideal) x0 x1 x2 (ix3 b l n) = _
  unfold kv_main_v161
  rw [mat_apply, col_read x0 x1 x2 x3 x4]

/-- Flattening [3, 3, 256, 256] to [2304, 256]: row n is tap n / 256 — kernel row n / 256 / 3, kernel column
    n / 256 % 3 — and input channel n % 256. -/
private theorem wflat_apply {α : Type} (y : S3x3x256x256.Idx → α) (n : Fin 2304) (oc : Fin 256) :
    shapeCast S2304x256 y shapeCasts_S3x3x256x256_S2304x256 (ix2 n oc)
      = y (ix4 (tapRow ⟨n.val / 256, by omega⟩) (tapCol ⟨n.val / 256, by omega⟩) (⟨n.val % 256, by omega⟩ : Fin 256) oc) := by
  refine shapeCast_apply y shapeCasts_S3x3x256x256_S2304x256 (ix2 n oc) _ ?_
  rw [Shape.rowMajor_val_four, Shape.rowMajor_val_two]
  have h0 : n.val < 2304 := n.isLt
  have h1 : oc.val < 256 := oc.isLt
  show ((n.val / 256 / 3 * 3 + n.val / 256 % 3) * 256 + n.val % 256) * 256 + oc.val = n.val * 256 + oc.val
  omega

/-- The weights with the two kernel axes first and the output channel last. -/
private theorem wtr_apply {α : Type} (y : S256x256x3x3.Idx → α) (i j : Fin 3) (c oc : Fin 256) :
    transpose S3x3x256x256 [2, 3, 1, 0] y transposes_S256x256x3x3_S3x3x256x256_2_3_1_0 (ix4 i j c oc) = y (ix4 oc c i j) :=
  transpose_apply [2, 3, 1, 0] y transposes_S256x256x3x3_S3x3x256x256_2_3_1_0 (ix4 i j c oc) (ix4 oc c i j) (fun a => match a with
    | ⟨0, _⟩ => rfl
    | ⟨1, _⟩ => rfl
    | ⟨2, _⟩ => rfl
    | ⟨3, _⟩ => rfl)

/-- The weight matrix in the same column order. -/
theorem wmat_read (n : Fin 2304) (oc : Fin 256) :
    kv_main_v165 (F := Ideal) x3 (ix2 n oc)
      = wgt (argsOf x0 x1 x2 x3 x4) oc ⟨n.val / 256, by omega⟩ ⟨n.val % 256, by omega⟩ := by
  show kv_main_v163 (F := Ideal) x3 (ix2 n oc) = _
  unfold kv_main_v163 kv_main_v162
  rw [wflat_apply, wtr_apply]
  rfl

/-- The bias row. -/
theorem bias_read (oc : Fin 256) : kv_main_v166 (F := Ideal) x4 (ix2 0 oc) = (argsOf x0 x1 x2 x3 x4).bias oc := by
  unfold kv_main_v166
  refine (shapeCast_apply x4 shapeCasts_S256_S1x256 (ix2 0 oc) (ix1 oc) ?_).trans rfl
  rw [Shape.rowMajor_val_one, Shape.rowMajor_val_two]
  show oc.val = 0 * 256 + oc.val
  omega

end Cert.KernelIdeal.KRead

end
-- ==== Proof.RefPre.lean ====
/- (run in the unit directory; the script is filed with the unit, in its scratch/ directory). The reference program's
   host operations in chunks (the base grid, then @main's own lines and each inlined call's lines in turn): a valuation that holds, at every buffer still read later, the stage the
   Read module names for it, still does after the chunk; chained over the chunks from the launch contents this gives
   the result buffer at the last stage and the arguments unchanged, and with the library's run of a straight line of
   host operations the program's run. -/
import proofs.«412700_j5961414607249_3_alg».proof.Proof.RefReadP
import Idealize.ShloMosaic.Lib.StableHlo.Run
import Idealize.ShloMosaic.Lib.Pipeline.Frame

noncomputable section

open Idealize.ShloMosaic Idealize.ShloMosaic.TcCoe Idealize.SL.Sem Idealize.ShloMosaic.StableHlo

namespace Cert.ReferenceIdeal.RPre

open Cert.ReferenceIdeal Cert.ReferenceIdeal.Gen Cert.ReferenceIdeal.RunP Cert.ReferenceIdeal.ReadP

variable {F : FTy → Type} [FloatOps F]

set_option maxHeartbeats 4000000 in
/-- Operations 1 to 42 of the reference's @main. -/
abbrev rops0 : List (HloOp τ sig (Elt F)) :=
  [ nullary main_v0 (iotaInDim S56 32 0),
    nullary main_c (constantI S_ 32 1#32),
    unary main_c main_v1 (broadcastInDim S56 ![] bcast_S_S56 : (⟨S_, .i32⟩ : BufTy).Contents (Elt F) → (⟨S56, .i32⟩ : BufTy).Contents (Elt F)),
    binary main_v0 main_v1 main_v2 (muli : (⟨S56, .i32⟩ : BufTy).Contents (Elt F) → (⟨S56, .i32⟩ : BufTy).Contents (Elt F) → (⟨S56, .i32⟩ : BufTy).Contents (Elt F)),
    nullary main_c_0 (constantI S_ 32 1#32),
    unary main_c_0 main_v3 (broadcastInDim S56 ![] bcast_S_S56 : (⟨S_, .i32⟩ : BufTy).Contents (Elt F) → (⟨S56, .i32⟩ : BufTy).Contents (Elt F)),
    binary main_v2 main_v3 main_v4 (subi : (⟨S56, .i32⟩ : BufTy).Contents (Elt F) → (⟨S56, .i32⟩ : BufTy).Contents (Elt F) → (⟨S56, .i32⟩ : BufTy).Contents (Elt F)),
    unary main_v4 main_v5 (broadcastInDim S56x1 ![0] bcast_S56_S56x1_0 : (⟨S56, .i32⟩ : BufTy).Contents (Elt F) → (⟨S56x1, .i32⟩ : BufTy).Contents (Elt F)),
    nullary main_v6 (iotaInDim S3 32 0),
    nullary main_c_1 (constantI S_ 32 1#32),
    unary main_c_1 main_v7 (broadcastInDim S3 ![] bcast_S_S3 : (⟨S_, .i32⟩ : BufTy).Contents (Elt F) → (⟨S3, .i32⟩ : BufTy).Contents (Elt F)),
    binary main_v6 main_v7 main_v8 (muli : (⟨S3, .i32⟩ : BufTy).Contents (Elt F) → (⟨S3, .i32⟩ : BufTy).Contents (Elt F) → (⟨S3, .i32⟩ : BufTy).Contents (Elt F)),
    unary main_v8 main_v9 (broadcastInDim S1x3 ![1] bcast_S3_S1x3_1 : (⟨S3, .i32⟩ : BufTy).Contents (Elt F) → (⟨S1x3, .i32⟩ : BufTy).Contents (Elt F)),
    unary main_v5 main_v10 (broadcastInDim S56x3 ![0, 1] bcast_S56x1_S56x3_0_1 : (⟨S56x1, .i32⟩ : BufTy).Contents (Elt F) → (⟨S56x3, .i32⟩ : BufTy).Contents (Elt F)),
    unary main_v9 main_v11 (broadcastInDim S56x3 ![0, 1] bcast_S1x3_S56x3_0_1 : (⟨S1x3, .i32⟩ : BufTy).Contents (Elt F) → (⟨S56x3, .i32⟩ : BufTy).Contents (Elt F)),
    binary main_v10 main_v11 main_v12 (addi : (⟨S56x3, .i32⟩ : BufTy).Contents (Elt F) → (⟨S56x3, .i32⟩ : BufTy).Contents (Elt F) → (⟨S56x3, .i32⟩ : BufTy).Contents (Elt F)),
    nullary main_v13 (iotaInDim S56 32 0),
    nullary main_c_2 (constantI S_ 32 1#32),
    unary main_c_2 main_v14 (broadcastInDim S56 ![] bcast_S_S56 : (⟨S_, .i32⟩ : BufTy).Contents (Elt F) → (⟨S56, .i32⟩ : BufTy).Contents (Elt F)),
    binary main_v13 main_v14 main_v15 (muli : (⟨S56, .i32⟩ : BufTy).Contents (Elt F) → (⟨S56, .i32⟩ : BufTy).Contents (Elt F) → (⟨S56, .i32⟩ : BufTy).Contents (Elt F)),
    nullary main_c_3 (constantI S_ 32 1#32),
    unary main_c_3 main_v16 (broadcastInDim S56 ![] bcast_S_S56 : (⟨S_, .i32⟩ : BufTy).Contents (Elt F) → (⟨S56, .i32⟩ : BufTy).Contents (Elt F)),
    binary main_v15 main_v16 main_v17 (subi : (⟨S56, .i32⟩ : BufTy).Contents (Elt F) → (⟨S56, .i32⟩ : BufTy).Contents (Elt F) → (⟨S56, .i32⟩ : BufTy).Contents (Elt F)),
    unary main_v17 main_v18 (broadcastInDim S56x1 ![0] bcast_S56_S56x1_0 : (⟨S56, .i32⟩ : BufTy).Contents (Elt F) → (⟨S56x1, .i32⟩ : BufTy).Contents (Elt F)),
    nullary main_v19 (iotaInDim S3 32 0),
    nullary main_c_4 (constantI S_ 32 1#32),
    unary main_c_4 main_v20 (broadcastInDim S3 ![] bcast_S_S3 : (⟨S_, .i32⟩ : BufTy).Contents (Elt F) → (⟨S3, .i32⟩ : BufTy).Contents (Elt F)),
    binary main_v19 main_v20 main_v21 (muli : (⟨S3, .i32⟩ : BufTy).Contents (Elt F) → (⟨S3, .i32⟩ : BufTy).Contents (Elt F) → (⟨S3, .i32⟩ : BufTy).Contents (Elt F)),
    unary main_v21 main_v22 (broadcastInDim S1x3 ![1] bcast_S3_S1x3_1 : (⟨S3, .i32⟩ : BufTy).Contents (Elt F) → (⟨S1x3, .i32⟩ : BufTy).Contents (Elt F)),
    unary main_v18 main_v23 (broadcastInDim S56x3 ![0, 1] bcast_S56x1_S56x3_0_1 : (⟨S56x1, .i32⟩ : BufTy).Contents (Elt F) → (⟨S56x3, .i32⟩ : BufTy).Contents (Elt F)),
    unary main_v22 main_v24 (broadcastInDim S56x3 ![0, 1] bcast_S1x3_S56x3_0_1 : (⟨S1x3, .i32⟩ : BufTy).Contents (Elt F) → (⟨S56x3, .i32⟩ : BufTy).Contents (Elt F)),
    binary main_v23 main_v24 main_v25 (addi : (⟨S56x3, .i32⟩ : BufTy).Contents (Elt F) → (⟨S56x3, .i32⟩ : BufTy).Contents (Elt F) → (⟨S56x3, .i32⟩ : BufTy).Contents (Elt F)),
    unary main_v12 main_v26 (broadcastInDim S56x1x3x1 ![0, 2] bcast_S56x3_S56x1x3x1_0_2 : (⟨S56x3, .i32⟩ : BufTy).Contents (Elt F) → (⟨S56x1x3x1, .i32⟩ : BufTy).Contents (Elt F)),
    unary main_v26 main_v27 (broadcastInDim S56x56x3x3 ![0, 1, 2, 3] bcast_S56x1x3x1_S56x56x3x3_0_1_2_3 : (⟨S56x1x3x1, .i32⟩ : BufTy).Contents (Elt F) → (⟨S56x56x3x3, .i32⟩ : BufTy).Contents (Elt F)),
    reshape main_v27 main_v28 rfl shapeCasts_S56x56x3x3_S56x56x9,
    unary main_v25 main_v29 (broadcastInDim S1x56x1x3 ![1, 3] bcast_S56x3_S1x56x1x3_1_3 : (⟨S56x3, .i32⟩ : BufTy).Contents (Elt F) → (⟨S1x56x1x3, .i32⟩ : BufTy).Contents (Elt F)),
    unary main_v29 main_v30 (broadcastInDim S56x56x3x3 ![0, 1, 2, 3] bcast_S1x56x1x3_S56x56x3x3_0_1_2_3 : (⟨S1x56x1x3, .i32⟩ : BufTy).Contents (Elt F) → (⟨S56x56x3x3, .i32⟩ : BufTy).Contents (Elt F)),
    reshape main_v30 main_v31 rfl shapeCasts_S56x56x3x3_S56x56x9,
    unary main_v28 main_v32 (broadcastInDim S56x56x9x1 ![0, 1, 2] bcast_S56x56x9_S56x56x9x1_0_1_2 : (⟨S56x56x9, .i32⟩ : BufTy).Contents (Elt F) → (⟨S56x56x9x1, .i32⟩ : BufTy).Contents (Elt F)),
    unary main_v31 main_v33 (broadcastInDim S56x56x9x1 ![0, 1, 2] bcast_S56x56x9_S56x56x9x1_0_1_2 : (⟨S56x56x9, .i32⟩ : BufTy).Contents (Elt F) → (⟨S56x56x9x1, .i32⟩ : BufTy).Contents (Elt F)),
    binary main_v32 main_v33 main_v34 ((fun a b => concatenate S56x56x9x2 3 [⟨S56x56x9x1, a⟩, ⟨S56x56x9x1, b⟩] concatenates_S56x56x9x1_S56x56x9x1_S56x56x9x2_d3) : (⟨S56x56x9x1, .i32⟩ : BufTy).Contents (Elt F) → (⟨S56x56x9x1, .i32⟩ : BufTy).Contents (Elt F) → (⟨S56x56x9x2, .i32⟩ : BufTy).Contents (Elt F)),
    unary main_v34 main_v35 (sitofp .f32 : (⟨S56x56x9x2, .i32⟩ : BufTy).Contents (Elt F) → (⟨S56x56x9x2, .f32⟩ : BufTy).Contents (Elt F)) ]

theorem rops0_fresh : (rops0 : List (HloOp τ sig (Elt F))).Forall fun op => op.fresh = ∅ := by
  simp only [List.Forall]; repeat' constructor

set_option maxHeartbeats 4000000 in
/-- Operations 43 to 79 of the reference's @main. -/
abbrev rops1 : List (HloOp τ sig (Elt F)) :=
  [ reshape main_arg1 main_v36 rfl shapeCasts_S8x18x56x56_S8x1x9x2x56x56,
    unary main_v36 main_v37 ((transpose S8x1x56x56x9x2 [0, 1, 4, 5, 2, 3] · transposes_S8x1x9x2x56x56_S8x1x56x56x9x2_0_1_4_5_2_3) : (⟨S8x1x9x2x56x56, .f32⟩ : BufTy).Contents (Elt F) → (⟨S8x1x56x56x9x2, .f32⟩ : BufTy).Contents (Elt F)),
    unary main_v35 main_v38 (broadcastInDim S1x1x56x56x9x2 ![2, 3, 4, 5] bcast_S56x56x9x2_S1x1x56x56x9x2_2_3_4_5 : (⟨S56x56x9x2, .f32⟩ : BufTy).Contents (Elt F) → (⟨S1x1x56x56x9x2, .f32⟩ : BufTy).Contents (Elt F)),
    unary main_v38 main_v39 (broadcastInDim S8x1x56x56x9x2 ![0, 1, 2, 3, 4, 5] bcast_S1x1x56x56x9x2_S8x1x56x56x9x2_0_1_2_3_4_5 : (⟨S1x1x56x56x9x2, .f32⟩ : BufTy).Contents (Elt F) → (⟨S8x1x56x56x9x2, .f32⟩ : BufTy).Contents (Elt F)),
    binary main_v37 main_v39 main_v40 (addf : (⟨S8x1x56x56x9x2, .f32⟩ : BufTy).Contents (Elt F) → (⟨S8x1x56x56x9x2, .f32⟩ : BufTy).Contents (Elt F) → (⟨S8x1x56x56x9x2, .f32⟩ : BufTy).Contents (Elt F)),
    unary main_v40 main_v41 (Host.floor : (⟨S8x1x56x56x9x2, .f32⟩ : BufTy).Contents (Elt F) → (⟨S8x1x56x56x9x2, .f32⟩ : BufTy).Contents (Elt F)),
    binary main_v40 main_v41 main_v42 (subf : (⟨S8x1x56x56x9x2, .f32⟩ : BufTy).Contents (Elt F) → (⟨S8x1x56x56x9x2, .f32⟩ : BufTy).Contents (Elt F) → (⟨S8x1x56x56x9x2, .f32⟩ : BufTy).Contents (Elt F)),
    unary main_v41 main_v43 ((extractStridedSlice S8x1x56x56x9x1 ![0, 0, 0, 0, 0, 0] · slices_S8x1x56x56x9x2_S8x1x56x56x9x1_0_0_0_0_0_0) : (⟨S8x1x56x56x9x2, .f32⟩ : BufTy).Contents (Elt F) → (⟨S8x1x56x56x9x1, .f32⟩ : BufTy).Contents (Elt F)),
    reshape main_v43 main_v44 rfl shapeCasts_S8x1x56x56x9x1_S8x1x56x56x9,
    unary main_v44 main_v45 (fptosi 32 : (⟨S8x1x56x56x9, .f32⟩ : BufTy).Contents (Elt F) → (⟨S8x1x56x56x9, .i32⟩ : BufTy).Contents (Elt F)),
    unary main_v41 main_v46 ((extractStridedSlice S8x1x56x56x9x1 ![0, 0, 0, 0, 0, 1] · slices_S8x1x56x56x9x2_S8x1x56x56x9x1_0_0_0_0_0_1) : (⟨S8x1x56x56x9x2, .f32⟩ : BufTy).Contents (Elt F) → (⟨S8x1x56x56x9x1, .f32⟩ : BufTy).Contents (Elt F)),
    reshape main_v46 main_v47 rfl shapeCasts_S8x1x56x56x9x1_S8x1x56x56x9,
    unary main_v47 main_v48 (fptosi 32 : (⟨S8x1x56x56x9, .f32⟩ : BufTy).Contents (Elt F) → (⟨S8x1x56x56x9, .i32⟩ : BufTy).Contents (Elt F)),
    nullary main_c_5 (constantI S_ 32 1#32),
    unary main_c_5 main_v49 (broadcastInDim S8x1x56x56x9 ![] bcast_S_S8x1x56x56x9 : (⟨S_, .i32⟩ : BufTy).Contents (Elt F) → (⟨S8x1x56x56x9, .i32⟩ : BufTy).Contents (Elt F)),
    binary main_v45 main_v49 main_v50 (addi : (⟨S8x1x56x56x9, .i32⟩ : BufTy).Contents (Elt F) → (⟨S8x1x56x56x9, .i32⟩ : BufTy).Contents (Elt F) → (⟨S8x1x56x56x9, .i32⟩ : BufTy).Contents (Elt F)),
    nullary main_c_6 (constantI S_ 32 1#32),
    unary main_c_6 main_v51 (broadcastInDim S8x1x56x56x9 ![] bcast_S_S8x1x56x56x9 : (⟨S_, .i32⟩ : BufTy).Contents (Elt F) → (⟨S8x1x56x56x9, .i32⟩ : BufTy).Contents (Elt F)),
    binary main_v48 main_v51 main_v52 (addi : (⟨S8x1x56x56x9, .i32⟩ : BufTy).Contents (Elt F) → (⟨S8x1x56x56x9, .i32⟩ : BufTy).Contents (Elt F) → (⟨S8x1x56x56x9, .i32⟩ : BufTy).Contents (Elt F)),
    reshape main_arg0 main_v53 rfl shapeCasts_S8x256x56x56_S8x1x256x3136,
    nullary main_c_7 (constantI S_ 32 0#32),
    unary main_c_7 main_v54 (broadcastInDim S8x1x56x56x9 ![] bcast_S_S8x1x56x56x9 : (⟨S_, .i32⟩ : BufTy).Contents (Elt F) → (⟨S8x1x56x56x9, .i32⟩ : BufTy).Contents (Elt F)),
    binary main_v45 main_v54 main_v55 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    nullary main_c_8 (constantI S_ 32 56#32),
    unary main_c_8 main_v56 (broadcastInDim S8x1x56x56x9 ![] bcast_S_S8x1x56x56x9 : (⟨S_, .i32⟩ : BufTy).Contents (Elt F) → (⟨S8x1x56x56x9, .i32⟩ : BufTy).Contents (Elt F)),
    binary main_v45 main_v56 main_v57 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v55 main_v57 main_v58 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_9 (constantI S_ 32 0#32),
    unary main_c_9 main_v59 (broadcastInDim S8x1x56x56x9 ![] bcast_S_S8x1x56x56x9 : (⟨S_, .i32⟩ : BufTy).Contents (Elt F) → (⟨S8x1x56x56x9, .i32⟩ : BufTy).Contents (Elt F)),
    binary main_v48 main_v59 main_v60 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    binary main_v58 main_v60 main_v61 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_10 (constantI S_ 32 56#32),
    unary main_c_10 main_v62 (broadcastInDim S8x1x56x56x9 ![] bcast_S_S8x1x56x56x9 : (⟨S_, .i32⟩ : BufTy).Contents (Elt F) → (⟨S8x1x56x56x9, .i32⟩ : BufTy).Contents (Elt F)),
    binary main_v48 main_v62 main_v63 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v61 main_v63 main_v64 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_11 (constantI S_ 32 0#32),
    nullary main_c_12 (constantI S_ 32 55#32) ]

theorem rops1_fresh : (rops1 : List (HloOp τ sig (Elt F))).Forall fun op => op.fresh = ∅ := by
  simp only [List.Forall]; repeat' constructor

set_option maxHeartbeats 4000000 in
/-- Operations 80 to 85 of the reference's @main. -/
abbrev rops2 : List (HloOp τ sig (Elt F)) :=
  [ TRef.unary (TRef.of (T := ⟨S_, .i32⟩) main_c_11) (TRef.of (T := ⟨S_, .i32⟩) main_call0_v0) id,
    TRef.unary (TRef.of (T := ⟨S_, .i32⟩) main_call0_v0) (TRef.of (T := ⟨S8x1x56x56x9, .i32⟩) main_call0_v1) (broadcastInDim S8x1x56x56x9 ![] bcast_S_S8x1x56x56x9),
    TRef.binary (TRef.of (T := ⟨S8x1x56x56x9, .i32⟩) main_call0_v1) (TRef.of (T := ⟨S8x1x56x56x9, .i32⟩) main_v45) (TRef.of (T := ⟨S8x1x56x56x9, .i32⟩) main_call0_v2) maxsi,
    TRef.unary (TRef.of (T := ⟨S_, .i32⟩) main_c_12) (TRef.of (T := ⟨S_, .i32⟩) main_call0_v3) id,
    TRef.unary (TRef.of (T := ⟨S_, .i32⟩) main_call0_v3) (TRef.of (T := ⟨S8x1x56x56x9, .i32⟩) main_call0_v4) (broadcastInDim S8x1x56x56x9 ![] bcast_S_S8x1x56x56x9),
    TRef.binary (TRef.of (T := ⟨S8x1x56x56x9, .i32⟩) main_call0_v4) (TRef.of (T := ⟨S8x1x56x56x9, .i32⟩) main_call0_v2) (TRef.of (T := ⟨S8x1x56x56x9, .i32⟩) main_v65) minsi ]

theorem rops2_fresh : (rops2 : List (HloOp τ sig (Elt F))).Forall fun op => op.fresh = ∅ := by
  simp only [List.Forall]; repeat' constructor

set_option maxHeartbeats 4000000 in
/-- Operations 86 to 90 of the reference's @main. -/
abbrev rops3 : List (HloOp τ sig (Elt F)) :=
  [ nullary main_c_13 (constantI S_ 32 56#32),
    unary main_c_13 main_v66 (broadcastInDim S8x1x56x56x9 ![] bcast_S_S8x1x56x56x9 : (⟨S_, .i32⟩ : BufTy).Contents (Elt F) → (⟨S8x1x56x56x9, .i32⟩ : BufTy).Contents (Elt F)),
    binary main_v65 main_v66 main_v67 (muli : (⟨S8x1x56x56x9, .i32⟩ : BufTy).Contents (Elt F) → (⟨S8x1x56x56x9, .i32⟩ : BufTy).Contents (Elt F) → (⟨S8x1x56x56x9, .i32⟩ : BufTy).Contents (Elt F)),
    nullary main_c_14 (constantI S_ 32 0#32),
    nullary main_c_15 (constantI S_ 32 55#32) ]

theorem rops3_fresh : (rops3 : List (HloOp τ sig (Elt F))).Forall fun op => op.fresh = ∅ := by
  simp only [List.Forall]; repeat' constructor

set_option maxHeartbeats 4000000 in
/-- Operations 91 to 96 of the reference's @main. -/
abbrev rops4 : List (HloOp τ sig (Elt F)) :=
  [ TRef.unary (TRef.of (T := ⟨S_, .i32⟩) main_c_14) (TRef.of (T := ⟨S_, .i32⟩) main_call1_v0) id,
    TRef.unary (TRef.of (T := ⟨S_, .i32⟩) main_call1_v0) (TRef.of (T := ⟨S8x1x56x56x9, .i32⟩) main_call1_v1) (broadcastInDim S8x1x56x56x9 ![] bcast_S_S8x1x56x56x9),
    TRef.binary (TRef.of (T := ⟨S8x1x56x56x9, .i32⟩) main_call1_v1) (TRef.of (T := ⟨S8x1x56x56x9, .i32⟩) main_v48) (TRef.of (T := ⟨S8x1x56x56x9, .i32⟩) main_call1_v2) maxsi,
    TRef.unary (TRef.of (T := ⟨S_, .i32⟩) main_c_15) (TRef.of (T := ⟨S_, .i32⟩) main_call1_v3) id,
    TRef.unary (TRef.of (T := ⟨S_, .i32⟩) main_call1_v3) (TRef.of (T := ⟨S8x1x56x56x9, .i32⟩) main_call1_v4) (broadcastInDim S8x1x56x56x9 ![] bcast_S_S8x1x56x56x9),
    TRef.binary (TRef.of (T := ⟨S8x1x56x56x9, .i32⟩) main_call1_v4) (TRef.of (T := ⟨S8x1x56x56x9, .i32⟩) main_call1_v2) (TRef.of (T := ⟨S8x1x56x56x9, .i32⟩) main_v68) minsi ]

theorem rops4_fresh : (rops4 : List (HloOp τ sig (Elt F))).Forall fun op => op.fresh = ∅ := by
  simp only [List.Forall]; repeat' constructor

set_option maxHeartbeats 4000000 in
/-- Operations 97 to 98 of the reference's @main. -/
abbrev rops5 : List (HloOp τ sig (Elt F)) :=
  [ binary main_v67 main_v68 main_v69 (addi : (⟨S8x1x56x56x9, .i32⟩ : BufTy).Contents (Elt F) → (⟨S8x1x56x56x9, .i32⟩ : BufTy).Contents (Elt F) → (⟨S8x1x56x56x9, .i32⟩ : BufTy).Contents (Elt F)),
    reshape main_v69 main_v70 rfl shapeCasts_S8x1x56x56x9_S8x1x1x28224 ]

theorem rops5_fresh : (rops5 : List (HloOp τ sig (Elt F))).Forall fun op => op.fresh = ∅ := by
  simp only [List.Forall]; repeat' constructor

set_option maxHeartbeats 4000000 in
/-- Operations 99 to 121 of the reference's @main. -/
abbrev rops6 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x1x1x28224, .i32⟩) main_call2_v0) (broadcastInDim S8x1x1x28224 ![] bcast_S_S8x1x1x28224),
    TRef.binary (TRef.of (T := ⟨S8x1x1x28224, .i32⟩) main_v70) (TRef.of (T := ⟨S8x1x1x28224, .i32⟩) main_call2_v0) (TRef.of (T := ⟨S8x1x1x28224, .i1⟩) main_call2_v1) (cmpi .slt),
    TRef.nullary (TRef.of (T := ⟨S_, .i32⟩) main_call2_c_0) (constantI S_ 32 3136#32),
    TRef.unary (TRef.of (T := ⟨S_, .i32⟩) main_call2_c_0) (TRef.of (T := ⟨S8x1x1x28224, .i32⟩) main_call2_v2) (broadcastInDim S8x1x1x28224 ![] bcast_S_S8x1x1x28224),
    TRef.binary (TRef.of (T := ⟨S8x1x1x28224, .i32⟩) main_v70) (TRef.of (T := ⟨S8x1x1x28224, .i32⟩) main_call2_v2) (TRef.of (T := ⟨S8x1x1x28224, .i32⟩) main_call2_v3) addi,
    TRef.ternary (TRef.of (T := ⟨S8x1x1x28224, .i1⟩) main_call2_v1) (TRef.of (T := ⟨S8x1x1x28224, .i32⟩) main_call2_v3) (TRef.of (T := ⟨S8x1x1x28224, .i32⟩) main_v70) (TRef.of (T := ⟨S8x1x1x28224, .i32⟩) main_call2_v4) select,
    TRef.reshape (TRef.of (T := ⟨S8x1x1x28224, .i32⟩) main_call2_v4) (TRef.of (T := ⟨S8x28224x1, .i32⟩) main_call2_v5) rfl shapeCasts_S8x1x1x28224_S8x28224x1,
    TRef.nullary (TRef.of (T := ⟨S1, .i32⟩) main_call2_c_1) (constantI S1 32 3135#32),
    TRef.nullary (TRef.of (T := ⟨S_, .i32⟩) main_call2_c_2) (constantI S_ 32 0#32),
    TRef.unary (TRef.of (T := ⟨S_, .i32⟩) main_call2_c_2) (TRef.of (T := ⟨S8x28224x1, .i32⟩) main_call2_v6) (broadcastInDim S8x28224x1 ![] bcast_S_S8x28224x1),
    TRef.binary (TRef.of (T := ⟨S8x28224x1, .i32⟩) main_call2_v5) (TRef.of (T := ⟨S8x28224x1, .i32⟩) main_call2_v6) (TRef.of (T := ⟨S8x28224x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8x28224x1, .i32⟩) main_call2_v9) (broadcastInDim S8x28224x1 ![0, 1, 2] bcast_S1x1x1_S8x28224x1_0_1_2),
    TRef.binary (TRef.of (T := ⟨S8x28224x1, .i32⟩) main_call2_v5) (TRef.of (T := ⟨S8x28224x1, .i32⟩) main_call2_v9) (TRef.of (T := ⟨S8x28224x1, .i1⟩) main_call2_v10) (cmpi .sle),
    TRef.binary (TRef.of (T := ⟨S8x28224x1, .i1⟩) main_call2_v7) (TRef.of (T := ⟨S8x28224x1, .i1⟩) main_call2_v10) (TRef.of (T := ⟨S8x28224x1, .i1⟩) main_call2_v11) andi,
    TRef.nullary (TRef.of (T := ⟨S_, .i1⟩) main_call2_c_3) (constantI S_ 1 1#1),
    TRef.binary (TRef.of (T := ⟨S8x28224x1, .i1⟩) main_call2_v11) (TRef.of (T := ⟨S_, .i1⟩) main_call2_c_3) (TRef.of (T := ⟨S8x28224, .i1⟩) main_call2_v12) (fun x v => Host.reduce IntOp.andi x v reducesTo_S8x28224x1_S8x28224_d2 h_S_),
    TRef.binary (TRef.of (T := ⟨S8x1x256x3136, .f32⟩) main_v53) (TRef.of (T := ⟨S8x28224x1, .i32⟩) main_call2_v5) (TRef.of (T := ⟨S8x1x256x28224, .f32⟩) main_call2_v13) (fun x i => Host.gather gather_S8x1x256x3136_S8x28224x1_S8x1x256x28224_12_3_0_0_3_2_112561 x i),
    TRef.unary (TRef.of (T := ⟨S8x28224, .i1⟩) main_call2_v12) (TRef.of (T := ⟨S8x1x256x28224, .i1⟩) main_call2_v14) (broadcastInDim S8x1x256x28224 ![0, 3] bcast_S8x28224_S8x1x256x28224_0_3),
    TRef.nullary (TRef.of (T := ⟨S_, .f32⟩) main_call2_cst) (constant S_ .f32 0x7FC00000#32),
    TRef.unary (TRef.of (T := ⟨S_, .f32⟩) main_call2_cst) (TRef.of (T := ⟨S8x1x256x28224, .f32⟩) main_call2_v15) (broadcastInDim S8x1x256x28224 ![] bcast_S_S8x1x256x28224),
    TRef.ternary (TRef.of (T := ⟨S8x1x256x28224, .i1⟩) main_call2_v14) (TRef.of (T := ⟨S8x1x256x28224, .f32⟩) main_call2_v13) (TRef.of (T := ⟨S8x1x256x28224, .f32⟩) main_call2_v15) (TRef.of (T := ⟨S8x1x256x28224, .f32⟩) main_v71) select ]

theorem rops6_fresh : (rops6 : List (HloOp τ sig (Elt F))).Forall fun op => op.fresh = ∅ := by
  simp only [List.Forall]; repeat' constructor

set_option maxHeartbeats 4000000 in
/-- Operations 122 to 124 of the reference's @main. -/
abbrev rops7 : List (HloOp τ sig (Elt F)) :=
  [ reshape main_v71 main_v72 rfl shapeCasts_S8x1x256x28224_S8x1x256x56x56x9,
    unary main_v64 main_v73 (broadcastInDim S8x1x1x56x56x9 ![0, 1, 3, 4, 5] bcast_S8x1x56x56x9_S8x1x1x56x56x9_0_1_3_4_5 : (⟨S8x1x56x56x9, .i1⟩ : BufTy).Contents (Elt F) → (⟨S8x1x1x56x56x9, .i1⟩ : BufTy).Contents (Elt F)),
    nullary main_cst (constant S_ .f32 0x00000000#32) ]

theorem rops7_fresh : (rops7 : List (HloOp τ sig (Elt F))).Forall fun op => op.fresh = ∅ := by
  simp only [List.Forall]; repeat' constructor

set_option maxHeartbeats 4000000 in
/-- Operations 125 to 127 of the reference's @main. -/
abbrev rops8 : List (HloOp τ sig (Elt F)) :=
  [ TRef.unary (TRef.of (T := ⟨S8x1x1x56x56x9, .i1⟩) main_v73) (TRef.of (T := ⟨S8x1x256x56x56x9, .i1⟩) main_call3_v0) (broadcastInDim S8x1x256x56x56x9 ![0, 1, 2, 3, 4, 5] bcast_S8x1x1x56x56x9_S8x1x256x56x56x9_0_1_2_3_4_5),
    TRef.unary (TRef.of (T := ⟨S_, .f32⟩) main_cst) (TRef.of (T := ⟨S8x1x256x56x56x9, .f32⟩) main_call3_v1) (broadcastInDim S8x1x256x56x56x9 ![] bcast_S_S8x1x256x56x56x9),
    TRef.ternary (TRef.of (T := ⟨S8x1x256x56x56x9, .i1⟩) main_call3_v0) (TRef.of (T := ⟨S8x1x256x56x56x9, .f32⟩) main_v72) (TRef.of (T := ⟨S8x1x256x56x56x9, .f32⟩) main_call3_v1) (TRef.of (T := ⟨S8x1x256x56x56x9, .f32⟩) main_v74) select ]

theorem rops8_fresh : (rops8 : List (HloOp τ sig (Elt F))).Forall fun op => op.fresh = ∅ := by
  simp only [List.Forall]; repeat' constructor

set_option maxHeartbeats 4000000 in
/-- Operations 128 to 144 of the reference's @main. -/
abbrev rops9 : List (HloOp τ sig (Elt F)) :=
  [ nullary main_c_16 (constantI S_ 32 0#32),
    unary main_c_16 main_v75 (broadcastInDim S8x1x56x56x9 ![] bcast_S_S8x1x56x56x9 : (⟨S_, .i32⟩ : BufTy).Contents (Elt F) → (⟨S8x1x56x56x9, .i32⟩ : BufTy).Contents (Elt F)),
    binary main_v50 main_v75 main_v76 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    nullary main_c_17 (constantI S_ 32 56#32),
    unary main_c_17 main_v77 (broadcastInDim S8x1x56x56x9 ![] bcast_S_S8x1x56x56x9 : (⟨S_, .i32⟩ : BufTy).Contents (Elt F) → (⟨S8x1x56x56x9, .i32⟩ : BufTy).Contents (Elt F)),
    binary main_v50 main_v77 main_v78 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v76 main_v78 main_v79 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_18 (constantI S_ 32 0#32),
    unary main_c_18 main_v80 (broadcastInDim S8x1x56x56x9 ![] bcast_S_S8x1x56x56x9 : (⟨S_, .i32⟩ : BufTy).Contents (Elt F) → (⟨S8x1x56x56x9, .i32⟩ : BufTy).Contents (Elt F)),
    binary main_v52 main_v80 main_v81 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    binary main_v79 main_v81 main_v82 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_19 (constantI S_ 32 56#32),
    unary main_c_19 main_v83 (broadcastInDim S8x1x56x56x9 ![] bcast_S_S8x1x56x56x9 : (⟨S_, .i32⟩ : BufTy).Contents (Elt F) → (⟨S8x1x56x56x9, .i32⟩ : BufTy).Contents (Elt F)),
    binary main_v52 main_v83 main_v84 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v82 main_v84 main_v85 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_20 (constantI S_ 32 0#32),
    nullary main_c_21 (constantI S_ 32 55#32) ]

theorem rops9_fresh : (rops9 : List (HloOp τ sig (Elt F))).Forall fun op => op.fresh = ∅ := by
  simp only [List.Forall]; repeat' constructor

set_option maxHeartbeats 4000000 in
/-- Operations 145 to 150 of the reference's @main. -/
abbrev rops10 : List (HloOp τ sig (Elt F)) :=
  [ TRef.unary (TRef.of (T := ⟨S_, .i32⟩) main_c_20) (TRef.of (T := ⟨S_, .i32⟩) main_call4_v0) id,
    TRef.unary (TRef.of (T := ⟨S_, .i32⟩) main_call4_v0) (TRef.of (T := ⟨S8x1x56x56x9, .i32⟩) main_call4_v1) (broadcastInDim S8x1x56x56x9 ![] bcast_S_S8x1x56x56x9),
    TRef.binary (TRef.of (T := ⟨S8x1x56x56x9, .i32⟩) main_call4_v1) (TRef.of (T := ⟨S8x1x56x56x9, .i32⟩) main_v50) (TRef.of (T := ⟨S8x1x56x56x9, .i32⟩) main_call4_v2) maxsi,
    TRef.unary (TRef.of (T := ⟨S_, .i32⟩) main_c_21) (TRef.of (T := ⟨S_, .i32⟩) main_call4_v3) id,
    TRef.unary (TRef.of (T := ⟨S_, .i32⟩) main_call4_v3) (TRef.of (T := ⟨S8x1x56x56x9, .i32⟩) main_call4_v4) (broadcastInDim S8x1x56x56x9 ![] bcast_S_S8x1x56x56x9),
    TRef.binary (TRef.of (T := ⟨S8x1x56x56x9, .i32⟩) main_call4_v4) (TRef.of (T := ⟨S8x1x56x56x9, .i32⟩) main_call4_v2) (TRef.of (T := ⟨S8x1x56x56x9, .i32⟩) main_v86) minsi ]

theorem rops10_fresh : (rops10 : List (HloOp τ sig (Elt F))).Forall fun op => op.fresh = ∅ := by
  simp only [List.Forall]; repeat' constructor

set_option maxHeartbeats 4000000 in
/-- Operations 151 to 155 of the reference's @main. -/
abbrev rops11 : List (HloOp τ sig (Elt F)) :=
  [ nullary main_c_22 (constantI S_ 32 56#32),
    unary main_c_22 main_v87 (broadcastInDim S8x1x56x56x9 ![] bcast_S_S8x1x56x56x9 : (⟨S_, .i32⟩ : BufTy).Contents (Elt F) → (⟨S8x1x56x56x9, .i32⟩ : BufTy).Contents (Elt F)),
    binary main_v86 main_v87 main_v88 (muli : (⟨S8x1x56x56x9, .i32⟩ : BufTy).Contents (Elt F) → (⟨S8x1x56x56x9, .i32⟩ : BufTy).Contents (Elt F) → (⟨S8x1x56x56x9, .i32⟩ : BufTy).Contents (Elt F)),
    nullary main_c_23 (constantI S_ 32 0#32),
    nullary main_c_24 (constantI S_ 32 55#32) ]

theorem rops11_fresh : (rops11 : List (HloOp τ sig (Elt F))).Forall fun op => op.fresh = ∅ := by
  simp only [List.Forall]; repeat' constructor

set_option maxHeartbeats 4000000 in
/-- Operations 156 to 161 of the reference's @main. -/
abbrev rops12 : List (HloOp τ sig (Elt F)) :=
  [ TRef.unary (TRef.of (T := ⟨S_, .i32⟩) main_c_23) (TRef.of (T := ⟨S_, .i32⟩) main_call5_v0) id,
    TRef.unary (TRef.of (T := ⟨S_, .i32⟩) main_call5_v0) (TRef.of (T := ⟨S8x1x56x56x9, .i32⟩) main_call5_v1) (broadcastInDim S8x1x56x56x9 ![] bcast_S_S8x1x56x56x9),
    TRef.binary (TRef.of (T := ⟨S8x1x56x56x9, .i32⟩) main_call5_v1) (TRef.of (T := ⟨S8x1x56x56x9, .i32⟩) main_v52) (TRef.of (T := ⟨S8x1x56x56x9, .i32⟩) main_call5_v2) maxsi,
    TRef.unary (TRef.of (T := ⟨S_, .i32⟩) main_c_24) (TRef.of (T := ⟨S_, .i32⟩) main_call5_v3) id,
    TRef.unary (TRef.of (T := ⟨S_, .i32⟩) main_call5_v3) (TRef.of (T := ⟨S8x1x56x56x9, .i32⟩) main_call5_v4) (broadcastInDim S8x1x56x56x9 ![] bcast_S_S8x1x56x56x9),
    TRef.binary (TRef.of (T := ⟨S8x1x56x56x9, .i32⟩) main_call5_v4) (TRef.of (T := ⟨S8x1x56x56x9, .i32⟩) main_call5_v2) (TRef.of (T := ⟨S8x1x56x56x9, .i32⟩) main_v89) minsi ]

theorem rops12_fresh : (rops12 : List (HloOp τ sig (Elt F))).Forall fun op => op.fresh = ∅ := by
  simp only [List.Forall]; repeat' constructor

set_option maxHeartbeats 4000000 in
/-- Operations 162 to 163 of the reference's @main. -/
abbrev rops13 : List (HloOp τ sig (Elt F)) :=
  [ binary main_v88 main_v89 main_v90 (addi : (⟨S8x1x56x56x9, .i32⟩ : BufTy).Contents (Elt F) → (⟨S8x1x56x56x9, .i32⟩ : BufTy).Contents (Elt F) → (⟨S8x1x56x56x9, .i32⟩ : BufTy).Contents (Elt F)),
    reshape main_v90 main_v91 rfl shapeCasts_S8x1x56x56x9_S8x1x1x28224 ]

theorem rops13_fresh : (rops13 : List (HloOp τ sig (Elt F))).Forall fun op => op.fresh = ∅ := by
  simp only [List.Forall]; repeat' constructor

set_option maxHeartbeats 4000000 in
/-- Operations 164 to 186 of the reference's @main. -/
abbrev rops14 : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S8x1x1x28224, .i32⟩) main_call6_v0) (broadcastInDim S8x1x1x28224 ![] bcast_S_S8x1x1x28224),
    TRef.binary (TRef.of (T := ⟨S8x1x1x28224, .i32⟩) main_v91) (TRef.of (T := ⟨S8x1x1x28224, .i32⟩) main_call6_v0) (TRef.of (T := ⟨S8x1x1x28224, .i1⟩) main_call6_v1) (cmpi .slt),
    TRef.nullary (TRef.of (T := ⟨S_, .i32⟩) main_call6_c_0) (constantI S_ 32 3136#32),
    TRef.unary (TRef.of (T := ⟨S_, .i32⟩) main_call6_c_0) (TRef.of (T := ⟨S8x1x1x28224, .i32⟩) main_call6_v2) (broadcastInDim S8x1x1x28224 ![] bcast_S_S8x1x1x28224),
    TRef.binary (TRef.of (T := ⟨S8x1x1x28224, .i32⟩) main_v91) (TRef.of (T := ⟨S8x1x1x28224, .i32⟩) main_call6_v2) (TRef.of (T := ⟨S8x1x1x28224, .i32⟩) main_call6_v3) addi,
    TRef.ternary (TRef.of (T := ⟨S8x1x1x28224, .i1⟩) main_call6_v1) (TRef.of (T := ⟨S8x1x1x28224, .i32⟩) main_call6_v3) (TRef.of (T := ⟨S8x1x1x28224, .i32⟩) main_v91) (TRef.of (T := ⟨S8x1x1x28224, .i32⟩) main_call6_v4) select,
    TRef.reshape (TRef.of (T := ⟨S8x1x1x28224, .i32⟩) main_call6_v4) (TRef.of (T := ⟨S8x28224x1, .i32⟩) main_call6_v5) rfl shapeCasts_S8x1x1x28224_S8x28224x1,
    TRef.nullary (TRef.of (T := ⟨S1, .i32⟩) main_call6_c_1) (constantI S1 32 3135#32),
    TRef.nullary (TRef.of (T := ⟨S_, .i32⟩) main_call6_c_2) (constantI S_ 32 0#32),
    TRef.unary (TRef.of (T := ⟨S_, .i32⟩) main_call6_c_2) (TRef.of (T := ⟨S8x28224x1, .i32⟩) main_call6_v6) (broadcastInDim S8x28224x1 ![] bcast_S_S8x28224x1),
    TRef.binary (TRef.of (T := ⟨S8x28224x1, .i32⟩) main_call6_v5) (TRef.of (T := ⟨S8x28224x1, .i32⟩) main_call6_v6) (TRef.of (T := ⟨S8x28224x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S8x28224x1, .i32⟩) main_call6_v9) (broadcastInDim S8x28224x1 ![0, 1, 2] bcast_S1x1x1_S8x28224x1_0_1_2),
    TRef.binary (TRef.of (T := ⟨S8x28224x1, .i32⟩) main_call6_v5) (TRef.of (T := ⟨S8x28224x1, .i32⟩) main_call6_v9) (TRef.of (T := ⟨S8x28224x1, .i1⟩) main_call6_v10) (cmpi .sle),
    TRef.binary (TRef.of (T := ⟨S8x28224x1, .i1⟩) main_call6_v7) (TRef.of (T := ⟨S8x28224x1, .i1⟩) main_call6_v10) (TRef.of (T := ⟨S8x28224x1, .i1⟩) main_call6_v11) andi,
    TRef.nullary (TRef.of (T := ⟨S_, .i1⟩) main_call6_c_3) (constantI S_ 1 1#1),
    TRef.binary (TRef.of (T := ⟨S8x28224x1, .i1⟩) main_call6_v11) (TRef.of (T := ⟨S_, .i1⟩) main_call6_c_3) (TRef.of (T := ⟨S8x28224, .i1⟩) main_call6_v12) (fun x v => Host.reduce IntOp.andi x v reducesTo_S8x28224x1_S8x28224_d2 h_S_),
    TRef.binary (TRef.of (T := ⟨S8x1x256x3136, .f32⟩) main_v53) (TRef.of (T := ⟨S8x28224x1, .i32⟩) main_call6_v5) (TRef.of (T := ⟨S8x1x256x28224, .f32⟩) main_call6_v13) (fun x i => Host.gather gather_S8x1x256x3136_S8x28224x1_S8x1x256x28224_12_3_0_0_3_2_112561 x i),
    TRef.unary (TRef.of (T := ⟨S8x28224, .i1⟩) main_call6_v12) (TRef.of (T := ⟨S8x1x256x28224, .i1⟩) main_call6_v14) (broadcastInDim S8x1x256x28224 ![0, 3] bcast_S8x28224_S8x1x256x28224_0_3),
    TRef.nullary (TRef.of (T := ⟨S_, .f32⟩) main_call6_cst) (constant S_ .f32 0x7FC00000#32),
    TRef.unary (TRef.of (T := ⟨S_, .f32⟩) main_call6_cst) (TRef.of (T := ⟨S8x1x256x28224, .f32⟩) main_call6_v15) (broadcastInDim S8x1x256x28224 ![] bcast_S_S8x1x256x28224),
    TRef.ternary (TRef.of (T := ⟨S8x1x256x28224, .i1⟩) main_call6_v14) (TRef.of (T := ⟨S8x1x256x28224, .f32⟩) main_call6_v13) (TRef.of (T := ⟨S8x1x256x28224, .f32⟩) main_call6_v15) (TRef.of (T := ⟨S8x1x256x28224, .f32⟩) main_v92) select ]

theorem rops14_fresh : (rops14 : List (HloOp τ sig (Elt F))).Forall fun op => op.fresh = ∅ := by
  simp only [List.Forall]; repeat' constructor

set_option maxHeartbeats 4000000 in
/-- Operations 187 to 189 of the reference's @main. -/
abbrev rops15 : List (HloOp τ sig (Elt F)) :=
  [ reshape main_v92 main_v93 rfl shapeCasts_S8x1x256x28224_S8x1x256x56x56x9,
    unary main_v85 main_v94 (broadcastInDim S8x1x1x56x56x9 ![0, 1, 3, 4, 5] bcast_S8x1x56x56x9_S8x1x1x56x56x9_0_1_3_4_5 : (⟨S8x1x56x56x9, .i1⟩ : BufTy).Contents (Elt F) → (⟨S8x1x1x56x56x9, .i1⟩ : BufTy).Contents (Elt F)),
    nullary main_cst_25 (constant S_ .f32 0x00000000#32) ]

theorem rops15_fresh : (rops15 : List (HloOp τ sig (Elt F))).Forall fun op => op.fresh = ∅ := by
  simp only [List.Forall]; repeat' constructor

set_option maxHeartbeats 4000000 in
/-- Operations 190 to 192 of the reference's @main. -/
abbrev rops16 : List (HloOp τ sig (Elt F)) :=
  [ TRef.unary (TRef.of (T := ⟨S8x1x1x56x56x9, .i1⟩) main_v94) (TRef.of (T := ⟨S8x1x256x56x56x9, .i1⟩) main_call7_v0) (broadcastInDim S8x1x256x56x56x9 ![0, 1, 2, 3, 4, 5] bcast_S8x1x1x56x56x9_S8x1x256x56x56x9_0_1_2_3_4_5),
    TRef.unary (TRef.of (T := ⟨S_, .f32⟩) main_cst_25) (TRef.of (T := ⟨S8x1x256x56x56x9, .f32⟩) main_call7_v1) (broadcastInDim S8x1x256x56x56x9 ![] bcast_S_S8x1x256x56x56x9),
    TRef.ternary (TRef.of (T := ⟨S8x1x256x56x56x9, .i1⟩) main_call7_v0) (TRef.of (T := ⟨S8x1x256x56x56x9, .f32⟩) main_v93) (TRef.of (T := ⟨S8x1x256x56x56x9, .f32⟩) main_call7_v1) (TRef.of (T := ⟨S8x1x256x56x56x9, .f32⟩) main_v95) select ]

theorem rops16_fresh : (rops16 : List (HloOp τ sig (Elt F))).Forall fun op => op.fresh = ∅ := by
  simp only [List.Forall]; repeat' constructor

set_option maxHeartbeats 4000000 in
/-- Operations 193 to 209 of the reference's @main. -/
abbrev rops17 : List (HloOp τ sig (Elt F)) :=
  [ nullary main_c_26 (constantI S_ 32 0#32),
    unary main_c_26 main_v96 (broadcastInDim S8x1x56x56x9 ![] bcast_S_S8x1x56x56x9 : (⟨S_, .i32⟩ : BufTy).Contents (Elt F) → (⟨S8x1x56x56x9, .i32⟩ : BufTy).Contents (Elt F)),
    binary main_v45 main_v96 main_v97 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    nullary main_c_27 (constantI S_ 32 56#32),
    unary main_c_27 main_v98 (broadcastInDim S8x1x56x56x9 ![] bcast_S_S8x1x56x56x9 : (⟨S_, .i32⟩ : BufTy).Contents (Elt F) → (⟨S8x1x56x56x9, .i32⟩ : BufTy).Contents (Elt F)),
    binary main_v45 main_v98 main_v99 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v97 main_v99 main_v100 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_28 (constantI S_ 32 0#32),
    unary main_c_28 main_v101 (broadcastInDim S8x1x56x56x9 ![] bcast_S_S8x1x56x56x9 : (⟨S_, .i32⟩ : BufTy).Contents (Elt F) → (⟨S8x1x56x56x9, .i32⟩ : BufTy).Contents (Elt F)),
    binary main_v52 main_v101 main_v102 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    binary main_v100 main_v102 main_v103 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_29 (constantI S_ 32 56#32),
    unary main_c_29 main_v104 (broadcastInDim S8x1x56x56x9 ![] bcast_S_S8x1x56x56x9 : (⟨S_, .i32⟩ : BufTy).Contents (Elt F) → (⟨S8x1x56x56x9, .i32⟩ : BufTy).Contents (Elt F)),
    binary main_v52 main_v104 main_v105 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v103 main_v105 main_v106 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_30 (constantI S_ 32 0#32),
    nullary main_c_31 (constantI S_ 32 55#32) ]

theorem rops17_fresh : (rops17 : List (HloOp τ sig (Elt F))).Forall fun op => op.fresh = ∅ := by
  simp only [List.Forall]; repeat' constructor

set_option maxHeartbeats 4000000 in
/-- Operations 210 to 215 of the reference's @main. -/
abbrev rops18 : List (HloOp τ sig (Elt F)) :=
  [ TRef.unary (TRef.of (T := ⟨S_, .i32⟩) main_c_30) (TRef.of (T := ⟨S_, .i32⟩) main_call8_v0) id,
    TRef.unary (TRef.of (T := ⟨S_, .i32⟩) main_call8_v0) (TRef.of (T := ⟨S8x1x56x56x9, .i32⟩) main_call8_v1) (broadcastInDim S8x1x56x56x9 ![] bcast_S_S8x1x56x56x9),
    TRef.binary (TRef.of (T := ⟨S8x1x56x56x9, .i32⟩) main_call8_v1) (TRef.of (T := ⟨S8x1x56x56x9, .i32⟩) main_v45) (TRef.of (T := ⟨S8x1x56x56x9, .i32⟩) main_call8_v2) maxsi,
    TRef.unary (TRef.of (T := ⟨S_, .i32⟩) main_c_31) (TRef.of (T := ⟨S_, .i32⟩) main_call8_v3) id,
    TRef.unary (TRef.of (T := ⟨S_, .i32⟩) main_call8_v3) (TRef.of (T := ⟨S8x1x56x56x9, .i32⟩) main_call8_v4) (broadcastInDim S8x1x56x56x9 ![] bcast_S_S8x1x56x56x9),
    TRef.binary (TRef.of (T := ⟨S8x1x56x56x9, .i32⟩) main_call8_v4) (TRef.of (T := ⟨S8x1x56x56x9, .i32⟩) main_call8_v2) (TRef.of (T := ⟨S8x1x56x56x9, .i32⟩) main_v107) minsi ]

theorem rops18_fresh : (rops18 : List (HloOp τ sig (Elt F))).Forall fun op => op.fresh = ∅ := by
  simp only [List.Forall]; repeat' constructor

set_option maxHeartbeats 4000000 in
/-- Operations 216 to 220 of the reference's @main. -/
abbrev rops19 : List (HloOp τ sig (Elt F)) :=
  [ nullary main_c_32 (constantI S_ 32 56#32),
    unary main_c_32 main_v108 (broadcastInDim S8x1x56x56x9 ![] bcast_S_S8x1x56x56x9 : (⟨S_, .i32⟩ : BufTy).Contents (Elt F) → (⟨S8x1x56x56x9, .i32⟩ : BufTy).Contents (Elt F)),
    binary main_v107 main_v108 main_v109 (muli : (⟨S8x1x56x56x9, .i32⟩ : BufTy).Contents (Elt F) → (⟨S8x1x56x56x9, .i32⟩ : BufTy).Contents (Elt F) → (⟨S8x1x56x56x9, .i32⟩ : BufTy).Contents (Elt F)),
    nullary main_c_33 (constantI S_ 32 0#32),
    nullary main_c_34 (constantI S_ 32 55#32) ]

theorem rops19_fresh : (rops19 : List (HloOp τ sig (Elt F))).Forall fun op => op.fresh = ∅ := by
  simp only [List.Forall]; repeat' constructor

set_option maxHeartbeats 4000000 in
/-- Operations 221 to 226 of the reference's @main. -/
abbrev rops20 : List (HloOp τ sig (Elt F)) :=
  [ TRef.unary (TRef.of (T := ⟨S_, .i32⟩) main_c_33) (TRef.of (T := ⟨S_, .i32⟩) main_call9_v0) id,
    TRef.unary (TRef.of (T := ⟨S_, .i32⟩) main_call9_v0) (TRef.of (T := ⟨S8x1x56x56x9, .i32⟩) main_call9_v1) (broadcastInDim S8x1x56x56x9 ![] bcast_S_S8x1x56x56x9),
    TRef.binary (TRef.of (T := ⟨S8x1x56x56x9, .i32⟩) main_call9_v1) (TRef.of (T := ⟨S8x1x56x56x9, .i32⟩) main_v52) (TRef.of (T := ⟨S8x1x56x56x9, .i32⟩) main_call9_v2) maxsi,
    TRef.unary (TRef.of (T := ⟨S_, .i32⟩) main_c_34) (TRef.of (T := ⟨S_, .i32⟩) main_call9_v3) id,
    TRef.unary (TRef.of (T := ⟨S_, .i32⟩) main_call9_v3) (TRef.of (T := ⟨S8x1x56x56x9, .i32⟩) main_call9_v4) (broadcastInDim S8x1x56x56x9 ![] bcast_S_S8x1x56x56x9),
    TRef.binary (TRef.of (T := ⟨S8x1x56x56x9, .i32⟩) main_call9_v4) (TRef.of (T := ⟨S8x1x56x56x9, .i32⟩) main_call9_v2) (TRef.of (T := ⟨S8x1x56x56x9, .i32⟩) main_v110) minsi ]

theorem rops20_fresh : (rops20 : List (HloOp τ sig (Elt F))).Forall fun op => op.fresh = ∅ := by
  simp only [List.Forall]; repeat' constructor

set_option maxHeartbeats 4000000 in
/-- Operations 227 to 228 of the reference's @main. -/
abbrev rops21 : List (HloOp τ sig (Elt F)) :=
  [ binary main_v109 main_v110 main_v111 (addi : (⟨S8x1x56x56x9, .i32⟩ : BufTy).Contents (Elt F) → (⟨S8x1x56x56x9, .i32⟩ : BufTy).Contents (Elt F) → (⟨S8x1x56x56x9, .i32⟩ : BufTy).Contents (Elt F)),
    reshape main_v111 main_v112 rfl shapeCasts_S8x1x56x56x9_S8x1x1x28224 ]

theorem rops21_fresh : (rops21 : List (HloOp τ sig (Elt F))).Forall fun op => op.fresh = ∅ := by
  simp only [List.Forall]; repeat' constructor

set_option maxHeartbeats 4000000 in
/-- Operations 229 to 251 of the reference's @main. -/
abbrev rops22 : List (HloOp τ sig (Elt F)) :=
  [ TRef.nullary (TRef.of (T := ⟨S_, .i32⟩) main_call10_c) (constantI S_ 32 0#32),
    TRef.unary (TRef.of (T := ⟨S_, .i32⟩) main_call10_c) (TRef.of (T := ⟨S8x1x1x28224, .i32⟩) main_call10_v0) (broadcastInDim S8x1x1x28224 ![] bcast_S_S8x1x1x28224),
    TRef.binary (TRef.of (T := ⟨S8x1x1x28224, .i32⟩) main_v112) (TRef.of (T := ⟨S8x1x1x28224, .i32⟩) main_call10_v0) (TRef.of (T := ⟨S8x1x1x28224, .i1⟩) main_call10_v1) (cmpi .slt),
    TRef.nullary (TRef.of (T := ⟨S_, .i32⟩) main_call10_c_0) (constantI S_ 32 3136#32),
    TRef.unary (TRef.of (T := ⟨S_, .i32⟩) main_call10_c_0) (TRef.of (T := ⟨S8x1x1x28224, .i32⟩) main_call10_v2) (broadcastInDim S8x1x1x28224 ![] bcast_S_S8x1x1x28224),
    TRef.binary (TRef.of (T := ⟨S8x1x1x28224, .i32⟩) main_v112) (TRef.of (T := ⟨S8x1x1x28224, .i32⟩) main_call10_v2) (TRef.of (T := ⟨S8x1x1x28224, .i32⟩) main_call10_v3) addi,
    TRef.ternary (TRef.of (T := ⟨S8x1x1x28224, .i1⟩) main_call10_v1) (TRef.of (T := ⟨S8x1x1x28224, .i32⟩) main_call10_v3) (TRef.of (T := ⟨S8x1x1x28224, .i32⟩) main_v112) (TRef.of (T := ⟨S8x1x1x28224, .i32⟩) main_call10_v4) select,
    TRef.reshape (TRef.of (T := ⟨S8x1x1x28224, .i32⟩) main_call10_v4) (TRef.of (T := ⟨S8x28224x1, .i32⟩) main_call10_v5) rfl shapeCasts_S8x1x1x28224_S8x28224x1,
    TRef.nullary (TRef.of (T := ⟨S1, .i32⟩) main_call10_c_1) (constantI S1 32 3135#32),
    TRef.nullary (TRef.of (T := ⟨S_, .i32⟩) main_call10_c_2) (constantI S_ 32 0#32),
    TRef.unary (TRef.of (T := ⟨S_, .i32⟩) main_call10_c_2) (TRef.of (T := ⟨S8x28224x1, .i32⟩) main_call10_v6) (broadcastInDim S8x28224x1 ![] bcast_S_S8x28224x1),
    TRef.binary (TRef.of (T := ⟨S8x28224x1, .i32⟩) main_call10_v5) (TRef.of (T := ⟨S8x28224x1, .i32⟩) main_call10_v6) (TRef.of (T := ⟨S8x28224x1, .i1⟩) main_call10_v7) (cmpi .sge),
    TRef.unary (TRef.of (T := ⟨S1, .i32⟩) main_call10_c_1) (TRef.of (T := ⟨S1x1x1, .i32⟩) main_call10_v8) (broadcastInDim S1x1x1 ![2] bcast_S1_S1x1x1_2),
    TRef.unary (TRef.of (T := ⟨S1x1x1, .i32⟩) main_call10_v8) (TRef.of (T := ⟨S8x28224x1, .i32⟩) main_call10_v9) (broadcastInDim S8x28224x1 ![0, 1, 2] bcast_S1x1x1_S8x28224x1_0_1_2),
    TRef.binary (TRef.of (T := ⟨S8x28224x1, .i32⟩) main_call10_v5) (TRef.of (T := ⟨S8x28224x1, .i32⟩) main_call10_v9) (TRef.of (T := ⟨S8x28224x1, .i1⟩) main_call10_v10) (cmpi .sle),
    TRef.binary (TRef.of (T := ⟨S8x28224x1, .i1⟩) main_call10_v7) (TRef.of (T := ⟨S8x28224x1, .i1⟩) main_call10_v10) (TRef.of (T := ⟨S8x28224x1, .i1⟩) main_call10_v11) andi,
    TRef.nullary (TRef.of (T := ⟨S_, .i1⟩) main_call10_c_3) (constantI S_ 1 1#1),
    TRef.binary (TRef.of (T := ⟨S8x28224x1, .i1⟩) main_call10_v11) (TRef.of (T := ⟨S_, .i1⟩) main_call10_c_3) (TRef.of (T := ⟨S8x28224, .i1⟩) main_call10_v12) (fun x v => Host.reduce IntOp.andi x v reducesTo_S8x28224x1_S8x28224_d2 h_S_),
    TRef.binary (TRef.of (T := ⟨S8x1x256x3136, .f32⟩) main_v53) (TRef.of (T := ⟨S8x28224x1, .i32⟩) main_call10_v5) (TRef.of (T := ⟨S8x1x256x28224, .f32⟩) main_call10_v13) (fun x i => Host.gather gather_S8x1x256x3136_S8x28224x1_S8x1x256x28224_12_3_0_0_3_2_112561 x i),
    TRef.unary (TRef.of (T := ⟨S8x28224, .i1⟩) main_call10_v12) (TRef.of (T := ⟨S8x1x256x28224, .i1⟩) main_call10_v14) (broadcastInDim S8x1x256x28224 ![0, 3] bcast_S8x28224_S8x1x256x28224_0_3),
    TRef.nullary (TRef.of (T := ⟨S_, .f32⟩) main_call10_cst) (constant S_ .f32 0x7FC00000#32),
    TRef.unary (TRef.of (T := ⟨S_, .f32⟩) main_call10_cst) (TRef.of (T := ⟨S8x1x256x28224, .f32⟩) main_call10_v15) (broadcastInDim S8x1x256x28224 ![] bcast_S_S8x1x256x28224),
    TRef.ternary (TRef.of (T := ⟨S8x1x256x28224, .i1⟩) main_call10_v14) (TRef.of (T := ⟨S8x1x256x28224, .f32⟩) main_call10_v13) (TRef.of (T := ⟨S8x1x256x28224, .f32⟩) main_call10_v15) (TRef.of (T := ⟨S8x1x256x28224, .f32⟩) main_v113) select ]

theorem rops22_fresh : (rops22 : List (HloOp τ sig (Elt F))).Forall fun op => op.fresh = ∅ := by
  simp only [List.Forall]; repeat' constructor

set_option maxHeartbeats 4000000 in
/-- Operations 252 to 254 of the reference's @main. -/
abbrev rops23 : List (HloOp τ sig (Elt F)) :=
  [ reshape main_v113 main_v114 rfl shapeCasts_S8x1x256x28224_S8x1x256x56x56x9,
    unary main_v106 main_v115 (broadcastInDim S8x1x1x56x56x9 ![0, 1, 3, 4, 5] bcast_S8x1x56x56x9_S8x1x1x56x56x9_0_1_3_4_5 : (⟨S8x1x56x56x9, .i1⟩ : BufTy).Contents (Elt F) → (⟨S8x1x1x56x56x9, .i1⟩ : BufTy).Contents (Elt F)),
    nullary main_cst_35 (constant S_ .f32 0x00000000#32) ]

theorem rops23_fresh : (rops23 : List (HloOp τ sig (Elt F))).Forall fun op => op.fresh = ∅ := by
  simp only [List.Forall]; repeat' constructor

set_option maxHeartbeats 4000000 in
/-- Operations 255 to 257 of the reference's @main. -/
abbrev rops24 : List (HloOp τ sig (Elt F)) :=
  [ TRef.unary (TRef.of (T := ⟨S8x1x1x56x56x9, .i1⟩) main_v115) (TRef.of (T := ⟨S8x1x256x56x56x9, .i1⟩) main_call11_v0) (broadcastInDim S8x1x256x56x56x9 ![0, 1, 2, 3, 4, 5] bcast_S8x1x1x56x56x9_S8x1x256x56x56x9_0_1_2_3_4_5),
    TRef.unary (TRef.of (T := ⟨S_, .f32⟩) main_cst_35) (TRef.of (T := ⟨S8x1x256x56x56x9, .f32⟩) main_call11_v1) (broadcastInDim S8x1x256x56x56x9 ![] bcast_S_S8x1x256x56x56x9),
    TRef.ternary (TRef.of (T := ⟨S8x1x256x56x56x9, .i1⟩) main_call11_v0) (TRef.of (T := ⟨S8x1x256x56x56x9, .f32⟩) main_v114) (TRef.of (T := ⟨S8x1x256x56x56x9, .f32⟩) main_call11_v1) (TRef.of (T := ⟨S8x1x256x56x56x9, .f32⟩) main_v116) select ]

theorem rops24_fresh : (rops24 : List (HloOp τ sig (Elt F))).Forall fun op => op.fresh = ∅ := by
  simp only [List.Forall]; repeat' constructor

set_option maxHeartbeats 4000000 in
/-- Operations 258 to 274 of the reference's @main. -/
abbrev rops25 : List (HloOp τ sig (Elt F)) :=
  [ nullary main_c_36 (constantI S_ 32 0#32),
    unary main_c_36 main_v117 (broadcastInDim S8x1x56x56x9 ![] bcast_S_S8x1x56x56x9 : (⟨S_, .i32⟩ : BufTy).Contents (Elt F) → (⟨S8x1x56x56x9, .i32⟩ : BufTy).Contents (Elt F)),
    binary main_v50 main_v117 main_v118 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    nullary main_c_37 (constantI S_ 32 56#32),
    unary main_c_37 main_v119 (broadcastInDim S8x1x56x56x9 ![] bcast_S_S8x1x56x56x9 : (⟨S_, .i32⟩ : BufTy).Contents (Elt F) → (⟨S8x1x56x56x9, .i32⟩ : BufTy).Contents (Elt F)),
    binary main_v50 main_v119 main_v120 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v118 main_v120 main_v121 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_38 (constantI S_ 32 0#32),
    unary main_c_38 main_v122 (broadcastInDim S8x1x56x56x9 ![] bcast_S_S8x1x56x56x9 : (⟨S_, .i32⟩ : BufTy).Contents (Elt F) → (⟨S8x1x56x56x9, .i32⟩ : BufTy).Contents (Elt F)),
    binary main_v48 main_v122 main_v123 (cmpi .sge : (⟨S8x1x56x56x9, .i32⟩ : BufTy).Contents (Elt F) → (⟨S8x1x56x56x9, .i32⟩ : BufTy).Contents (Elt F) → (⟨S8x1x56x56x9, .i1⟩ : BufTy).Contents (Elt F)),
    binary main_v121 main_v123 main_v124 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_39 (constantI S_ 32 56#32),
    unary main_c_39 main_v125 (broadcastInDim S8x1x56x56x9 ![] bcast_S_S8x1x56x56x9 : (⟨S_, .i32⟩ : BufTy).Contents (Elt F) → (⟨S8x1x56x56x9, .i32⟩ : BufTy).Contents (Elt F)),
    binary main_v48 main_v125 main_v126 (cmpi .slt : (⟨S8x1x56x56x9, .i32⟩ : BufTy).Contents (Elt F) → (⟨S8x1x56x56x9, .i32⟩ : BufTy).Contents (Elt F) → (⟨S8x1x56x56x9, .i1⟩ : BufTy).Contents (Elt F)),
    binary main_v124 main_v126 main_v127 (andi : (⟨S8x1x56x56x9, .i1⟩ : BufTy).Contents (Elt F) → (⟨S8x1x56x56x9, .i1⟩ : BufTy).Contents (Elt F) → (⟨S8x1x56x56x9, .i1⟩ : BufTy).Contents (Elt F)),
    nullary main_c_40 (constantI S_ 32 0#32),
    nullary main_c_41 (constantI S_ 32 55#32) ]

theorem rops25_fresh : (rops25 : List (HloOp τ sig (Elt F))).Forall fun op => op.fresh = ∅ := by
  simp only [List.Forall]; repeat' constructor

set_option maxHeartbeats 4000000 in
/-- Operations 275 to 280 of the reference's @main. -/
abbrev rops26 : List (HloOp τ sig (Elt F)) :=
  [ TRef.unary (TRef.of (T := ⟨S_, .i32⟩) main_c_40) (TRef.of (T := ⟨S_, .i32⟩) main_call12_v0) id,
    TRef.unary (TRef.of (T := ⟨S_, .i32⟩) main_call12_v0) (TRef.of (T := ⟨S8x1x56x56x9, .i32⟩) main_call12_v1) (broadcastInDim S8x1x56x56x9 ![] bcast_S_S8x1x56x56x9),
    TRef.binary (TRef.of (T := ⟨S8x1x56x56x9, .i32⟩) main_call12_v1) (TRef.of (T := ⟨S8x1x56x56x9, .i32⟩) main_v50) (TRef.of (T := ⟨S8x1x56x56x9, .i32⟩) main_call12_v2) maxsi,
    TRef.unary (TRef.of (T := ⟨S_, .i32⟩) main_c_41) (TRef.of (T := ⟨S_, .i32⟩) main_call12_v3) id,
    TRef.unary (TRef.of (T := ⟨S_, .i32⟩) main_call12_v3) (TRef.of (T := ⟨S8x1x56x56x9, .i32⟩) main_call12_v4) (broadcastInDim S8x1x56x56x9 ![] bcast_S_S8x1x56x56x9),
    TRef.binary (TRef.of (T := ⟨S8x1x56x56x9, .i32⟩) main_call12_v4) (TRef.of (T := ⟨S8x1x56x56x9, .i32⟩) main_call12_v2) (TRef.of (T := ⟨S8x1x56x56x9, .i32⟩) main_v128) minsi ]

theorem rops26_fresh : (rops26 : List (HloOp τ sig (Elt F))).Forall fun op => op.fresh = ∅ := by
  simp only [List.Forall]; repeat' constructor

set_option maxHeartbeats 4000000 in
/-- Operations 281 to 285 of the reference's @main. -/
abbrev rops27 : List (HloOp τ sig (Elt F)) :=
  [ nullary main_c_42 (constantI S_ 32 56#32),
    unary main_c_42 main_v129 (broadcastInDim S8x1x56x56x9 ![] bcast_S_S8x1x56x56x9 : (⟨S_, .i32⟩ : BufTy).Contents (Elt F) → (⟨S8x1x56x56x9, .i32⟩ : BufTy).Contents (Elt F)),
    binary main_v128 main_v129 main_v130 (muli : (⟨S8x1x56x56x9, .i32⟩ : BufTy).Contents (Elt F) → (⟨S8x1x56x56x9, .i32⟩ : BufTy).Contents (Elt F) → (⟨S8x1x56x56x9, .i32⟩ : BufTy).Contents (Elt F)),
    nullary main_c_43 (constantI S_ 32 0#32),
    nullary main_c_44 (constantI S_ 32 55#32) ]

theorem rops27_fresh : (rops27 : List (HloOp τ sig (Elt F))).Forall fun op => op.fresh = ∅ := by
  simp only [List.Forall]; repeat' constructor

set_option maxHeartbeats 4000000 in
/-- Operations 286 to 291 of the reference's @main. -/
abbrev rops28 : List (HloOp τ sig (Elt F)) :=
  [ TRef.unary (TRef.of (T := ⟨S_, .i32⟩) main_c_43) (TRef.of (T := ⟨S_, .i32⟩) main_call13_v0) id,
    TRef.unary (TRef.of (T := ⟨S_, .i32⟩) main_call13_v0) (TRef.of (T := ⟨S8x1x56x56x9, .i32⟩) main_call13_v1) (broadcastInDim S8x1x56x56x9 ![] bcast_S_S8x1x56x56x9),
    TRef.binary (TRef.of (T := ⟨S8x1x56x56x9, .i32⟩) main_call13_v1) (TRef.of (T := ⟨S8x1x56x56x9, .i32⟩) main_v48) (TRef.of (T := ⟨S8x1x56x56x9, .i32⟩) main_call13_v2) maxsi,
    TRef.unary (TRef.of (T := ⟨S_, .i32⟩) main_c_44) (TRef.of (T := ⟨S_, .i32⟩) main_call13_v3) id,
    TRef.unary (TRef.of (T := ⟨S_, .i32⟩) main_call13_v3) (TRef.of (T := ⟨S8x1x56x56x9, .i32⟩) main_call13_v4) (broadcastInDim S8x1x56x56x9 ![] bcast_S_S8x1x56x56x9),
    TRef.binary (TRef.of (T := ⟨S8x1x56x56x9, .i32⟩) main_call13_v4) (TRef.of (T := ⟨S8x1x56x56x9, .i32⟩) main_call13_v2) (TRef.of (T := ⟨S8x1x56x56x9, .i32⟩) main_v131) minsi ]

theorem rops28_fresh : (rops28 : List (HloOp τ sig (Elt F))).Forall fun op => op.fresh = ∅ := by
  simp only [List.Forall]; repeat' constructor

set_option maxHeartbeats 4000000 in
/-- Operations 292 to 293 of the reference's @main. -/
abbrev rops29 : List (HloOp τ sig (Elt F)) :=
  [ binary main_v130 main_v131 main_v132 (addi : (⟨S8x1x56x56x9, .i32⟩ : BufTy).Contents (Elt F) → (⟨S8x1x56x56x9, .i32⟩ : BufTy).Contents (Elt F) → (⟨S8x1x56x56x9, .i32⟩ : BufTy).Contents (Elt F)),
    reshape main_v132 main_v133 rfl shapeCasts_S8x1x56x56x9_S8x1x1x28224 ]

theorem rops29_fresh : (rops29 : List (HloOp τ sig (Elt F))).Forall fun op => op.fresh = ∅ := by
  simp only [List.Forall]; repeat' constructor

set_option maxHeartbeats 4000000 in
/-- Operations 294 to 316 of the reference's @main. -/
abbrev rops30 : List (HloOp τ sig (Elt F)) :=
  [ TRef.nullary (TRef.of (T := ⟨S_, .i32⟩) main_call14_c) (constantI S_ 32 0#32),
    TRef.unary (TRef.of (T := ⟨S_, .i32⟩) main_call14_c) (TRef.of (T := ⟨S8x1x1x28224, .i32⟩) main_call14_v0) (broadcastInDim S8x1x1x28224 ![] bcast_S_S8x1x1x28224),
    TRef.binary (TRef.of (T := ⟨S8x1x1x28224, .i32⟩) main_v133) (TRef.of (T := ⟨S8x1x1x28224, .i32⟩) main_call14_v0) (TRef.of (T := ⟨S8x1x1x28224, .i1⟩) main_call14_v1) (cmpi .slt),
    TRef.nullary (TRef.of (T := ⟨S_, .i32⟩) main_call14_c_0) (constantI S_ 32 3136#32),
    TRef.unary (TRef.of (T := ⟨S_, .i32⟩) main_call14_c_0) (TRef.of (T := ⟨S8x1x1x28224, .i32⟩) main_call14_v2) (broadcastInDim S8x1x1x28224 ![] bcast_S_S8x1x1x28224),
    TRef.binary (TRef.of (T := ⟨S8x1x1x28224, .i32⟩) main_v133) (TRef.of (T := ⟨S8x1x1x28224, .i32⟩) main_call14_v2) (TRef.of (T := ⟨S8x1x1x28224, .i32⟩) main_call14_v3) addi,
    TRef.ternary (TRef.of (T := ⟨S8x1x1x28224, .i1⟩) main_call14_v1) (TRef.of (T := ⟨S8x1x1x28224, .i32⟩) main_call14_v3) (TRef.of (T := ⟨S8x1x1x28224, .i32⟩) main_v133) (TRef.of (T := ⟨S8x1x1x28224, .i32⟩) main_call14_v4) select,
    TRef.reshape (TRef.of (T := ⟨S8x1x1x28224, .i32⟩) main_call14_v4) (TRef.of (T := ⟨S8x28224x1, .i32⟩) main_call14_v5) rfl shapeCasts_S8x1x1x28224_S8x28224x1,
    TRef.nullary (TRef.of (T := ⟨S1, .i32⟩) main_call14_c_1) (constantI S1 32 3135#32),
    TRef.nullary (TRef.of (T := ⟨S_, .i32⟩) main_call14_c_2) (constantI S_ 32 0#32),
    TRef.unary (TRef.of (T := ⟨S_, .i32⟩) main_call14_c_2) (TRef.of (T := ⟨S8x28224x1, .i32⟩) main_call14_v6) (broadcastInDim S8x28224x1 ![] bcast_S_S8x28224x1),
    TRef.binary (TRef.of (T := ⟨S8x28224x1, .i32⟩) main_call14_v5) (TRef.of (T := ⟨S8x28224x1, .i32⟩) main_call14_v6) (TRef.of (T := ⟨S8x28224x1, .i1⟩) main_call14_v7) (cmpi .sge),
    TRef.unary (TRef.of (T := ⟨S1, .i32⟩) main_call14_c_1) (TRef.of (T := ⟨S1x1x1, .i32⟩) main_call14_v8) (broadcastInDim S1x1x1 ![2] bcast_S1_S1x1x1_2),
    TRef.unary (TRef.of (T := ⟨S1x1x1, .i32⟩) main_call14_v8) (TRef.of (T := ⟨S8x28224x1, .i32⟩) main_call14_v9) (broadcastInDim S8x28224x1 ![0, 1, 2] bcast_S1x1x1_S8x28224x1_0_1_2),
    TRef.binary (TRef.of (T := ⟨S8x28224x1, .i32⟩) main_call14_v5) (TRef.of (T := ⟨S8x28224x1, .i32⟩) main_call14_v9) (TRef.of (T := ⟨S8x28224x1, .i1⟩) main_call14_v10) (cmpi .sle),
    TRef.binary (TRef.of (T := ⟨S8x28224x1, .i1⟩) main_call14_v7) (TRef.of (T := ⟨S8x28224x1, .i1⟩) main_call14_v10) (TRef.of (T := ⟨S8x28224x1, .i1⟩) main_call14_v11) andi,
    TRef.nullary (TRef.of (T := ⟨S_, .i1⟩) main_call14_c_3) (constantI S_ 1 1#1),
    TRef.binary (TRef.of (T := ⟨S8x28224x1, .i1⟩) main_call14_v11) (TRef.of (T := ⟨S_, .i1⟩) main_call14_c_3) (TRef.of (T := ⟨S8x28224, .i1⟩) main_call14_v12) (fun x v => Host.reduce IntOp.andi x v reducesTo_S8x28224x1_S8x28224_d2 h_S_),
    TRef.binary (TRef.of (T := ⟨S8x1x256x3136, .f32⟩) main_v53) (TRef.of (T := ⟨S8x28224x1, .i32⟩) main_call14_v5) (TRef.of (T := ⟨S8x1x256x28224, .f32⟩) main_call14_v13) (fun x i => Host.gather gather_S8x1x256x3136_S8x28224x1_S8x1x256x28224_12_3_0_0_3_2_112561 x i),
    TRef.unary (TRef.of (T := ⟨S8x28224, .i1⟩) main_call14_v12) (TRef.of (T := ⟨S8x1x256x28224, .i1⟩) main_call14_v14) (broadcastInDim S8x1x256x28224 ![0, 3] bcast_S8x28224_S8x1x256x28224_0_3),
    TRef.nullary (TRef.of (T := ⟨S_, .f32⟩) main_call14_cst) (constant S_ .f32 0x7FC00000#32),
    TRef.unary (TRef.of (T := ⟨S_, .f32⟩) main_call14_cst) (TRef.of (T := ⟨S8x1x256x28224, .f32⟩) main_call14_v15) (broadcastInDim S8x1x256x28224 ![] bcast_S_S8x1x256x28224),
    TRef.ternary (TRef.of (T := ⟨S8x1x256x28224, .i1⟩) main_call14_v14) (TRef.of (T := ⟨S8x1x256x28224, .f32⟩) main_call14_v13) (TRef.of (T := ⟨S8x1x256x28224, .f32⟩) main_call14_v15) (TRef.of (T := ⟨S8x1x256x28224, .f32⟩) main_v134) select ]

theorem rops30_fresh : (rops30 : List (HloOp τ sig (Elt F))).Forall fun op => op.fresh = ∅ := by
  simp only [List.Forall]; repeat' constructor

set_option maxHeartbeats 4000000 in
/-- Operations 317 to 319 of the reference's @main. -/
abbrev rops31 : List (HloOp τ sig (Elt F)) :=
  [ reshape main_v134 main_v135 rfl shapeCasts_S8x1x256x28224_S8x1x256x56x56x9,
    unary main_v127 main_v136 (broadcastInDim S8x1x1x56x56x9 ![0, 1, 3, 4, 5] bcast_S8x1x56x56x9_S8x1x1x56x56x9_0_1_3_4_5 : (⟨S8x1x56x56x9, .i1⟩ : BufTy).Contents (Elt F) → (⟨S8x1x1x56x56x9, .i1⟩ : BufTy).Contents (Elt F)),
    nullary main_cst_45 (constant S_ .f32 0x00000000#32) ]

theorem rops31_fresh : (rops31 : List (HloOp τ sig (Elt F))).Forall fun op => op.fresh = ∅ := by
  simp only [List.Forall]; repeat' constructor

set_option maxHeartbeats 4000000 in
/-- Operations 320 to 322 of the reference's @main. -/
abbrev rops32 : List (HloOp τ sig (Elt F)) :=
  [ TRef.unary (TRef.of (T := ⟨S8x1x1x56x56x9, .i1⟩) main_v136) (TRef.of (T := ⟨S8x1x256x56x56x9, .i1⟩) main_call15_v0) (broadcastInDim S8x1x256x56x56x9 ![0, 1, 2, 3, 4, 5] bcast_S8x1x1x56x56x9_S8x1x256x56x56x9_0_1_2_3_4_5),
    TRef.unary (TRef.of (T := ⟨S_, .f32⟩) main_cst_45) (TRef.of (T := ⟨S8x1x256x56x56x9, .f32⟩) main_call15_v1) (broadcastInDim S8x1x256x56x56x9 ![] bcast_S_S8x1x256x56x56x9),
    TRef.ternary (TRef.of (T := ⟨S8x1x256x56x56x9, .i1⟩) main_call15_v0) (TRef.of (T := ⟨S8x1x256x56x56x9, .f32⟩) main_v135) (TRef.of (T := ⟨S8x1x256x56x56x9, .f32⟩) main_call15_v1) (TRef.of (T := ⟨S8x1x256x56x56x9, .f32⟩) main_v137) select ]

theorem rops32_fresh : (rops32 : List (HloOp τ sig (Elt F))).Forall fun op => op.fresh = ∅ := by
  simp only [List.Forall]; repeat' constructor

set_option maxHeartbeats 4000000 in
/-- Operations 323 to 354 of the reference's @main. -/
abbrev rops33 : List (HloOp τ sig (Elt F)) :=
  [ unary main_v42 main_v138 ((extractStridedSlice S8x1x56x56x9x1 ![0, 0, 0, 0, 0, 0] · slices_S8x1x56x56x9x2_S8x1x56x56x9x1_0_0_0_0_0_0) : (⟨S8x1x56x56x9x2, .f32⟩ : BufTy).Contents (Elt F) → (⟨S8x1x56x56x9x1, .f32⟩ : BufTy).Contents (Elt F)),
    reshape main_v138 main_v139 rfl shapeCasts_S8x1x56x56x9x1_S8x1x56x56x9,
    unary main_v139 main_v140 (broadcastInDim S8x1x1x56x56x9 ![0, 1, 3, 4, 5] bcast_S8x1x56x56x9_S8x1x1x56x56x9_0_1_3_4_5 : (⟨S8x1x56x56x9, .f32⟩ : BufTy).Contents (Elt F) → (⟨S8x1x1x56x56x9, .f32⟩ : BufTy).Contents (Elt F)),
    unary main_v42 main_v141 ((extractStridedSlice S8x1x56x56x9x1 ![0, 0, 0, 0, 0, 1] · slices_S8x1x56x56x9x2_S8x1x56x56x9x1_0_0_0_0_0_1) : (⟨S8x1x56x56x9x2, .f32⟩ : BufTy).Contents (Elt F) → (⟨S8x1x56x56x9x1, .f32⟩ : BufTy).Contents (Elt F)),
    reshape main_v141 main_v142 rfl shapeCasts_S8x1x56x56x9x1_S8x1x56x56x9,
    unary main_v142 main_v143 (broadcastInDim S8x1x1x56x56x9 ![0, 1, 3, 4, 5] bcast_S8x1x56x56x9_S8x1x1x56x56x9_0_1_3_4_5 : (⟨S8x1x56x56x9, .f32⟩ : BufTy).Contents (Elt F) → (⟨S8x1x1x56x56x9, .f32⟩ : BufTy).Contents (Elt F)),
    binary main_v116 main_v74 main_v144 (subf : (⟨S8x1x256x56x56x9, .f32⟩ : BufTy).Contents (Elt F) → (⟨S8x1x256x56x56x9, .f32⟩ : BufTy).Contents (Elt F) → (⟨S8x1x256x56x56x9, .f32⟩ : BufTy).Contents (Elt F)),
    unary main_v143 main_v145 (broadcastInDim S8x1x256x56x56x9 ![0, 1, 2, 3, 4, 5] bcast_S8x1x1x56x56x9_S8x1x256x56x56x9_0_1_2_3_4_5 : (⟨S8x1x1x56x56x9, .f32⟩ : BufTy).Contents (Elt F) → (⟨S8x1x256x56x56x9, .f32⟩ : BufTy).Contents (Elt F)),
    binary main_v145 main_v144 main_v146 (mulf : (⟨S8x1x256x56x56x9, .f32⟩ : BufTy).Contents (Elt F) → (⟨S8x1x256x56x56x9, .f32⟩ : BufTy).Contents (Elt F) → (⟨S8x1x256x56x56x9, .f32⟩ : BufTy).Contents (Elt F)),
    binary main_v74 main_v146 main_v147 (addf : (⟨S8x1x256x56x56x9, .f32⟩ : BufTy).Contents (Elt F) → (⟨S8x1x256x56x56x9, .f32⟩ : BufTy).Contents (Elt F) → (⟨S8x1x256x56x56x9, .f32⟩ : BufTy).Contents (Elt F)),
    binary main_v95 main_v137 main_v148 (subf : (⟨S8x1x256x56x56x9, .f32⟩ : BufTy).Contents (Elt F) → (⟨S8x1x256x56x56x9, .f32⟩ : BufTy).Contents (Elt F) → (⟨S8x1x256x56x56x9, .f32⟩ : BufTy).Contents (Elt F)),
    unary main_v143 main_v149 (broadcastInDim S8x1x256x56x56x9 ![0, 1, 2, 3, 4, 5] bcast_S8x1x1x56x56x9_S8x1x256x56x56x9_0_1_2_3_4_5 : (⟨S8x1x1x56x56x9, .f32⟩ : BufTy).Contents (Elt F) → (⟨S8x1x256x56x56x9, .f32⟩ : BufTy).Contents (Elt F)),
    binary main_v149 main_v148 main_v150 (mulf : (⟨S8x1x256x56x56x9, .f32⟩ : BufTy).Contents (Elt F) → (⟨S8x1x256x56x56x9, .f32⟩ : BufTy).Contents (Elt F) → (⟨S8x1x256x56x56x9, .f32⟩ : BufTy).Contents (Elt F)),
    binary main_v137 main_v150 main_v151 (addf : (⟨S8x1x256x56x56x9, .f32⟩ : BufTy).Contents (Elt F) → (⟨S8x1x256x56x56x9, .f32⟩ : BufTy).Contents (Elt F) → (⟨S8x1x256x56x56x9, .f32⟩ : BufTy).Contents (Elt F)),
    binary main_v151 main_v147 main_v152 (subf : (⟨S8x1x256x56x56x9, .f32⟩ : BufTy).Contents (Elt F) → (⟨S8x1x256x56x56x9, .f32⟩ : BufTy).Contents (Elt F) → (⟨S8x1x256x56x56x9, .f32⟩ : BufTy).Contents (Elt F)),
    unary main_v140 main_v153 (broadcastInDim S8x1x256x56x56x9 ![0, 1, 2, 3, 4, 5] bcast_S8x1x1x56x56x9_S8x1x256x56x56x9_0_1_2_3_4_5 : (⟨S8x1x1x56x56x9, .f32⟩ : BufTy).Contents (Elt F) → (⟨S8x1x256x56x56x9, .f32⟩ : BufTy).Contents (Elt F)),
    binary main_v153 main_v152 main_v154 (mulf : (⟨S8x1x256x56x56x9, .f32⟩ : BufTy).Contents (Elt F) → (⟨S8x1x256x56x56x9, .f32⟩ : BufTy).Contents (Elt F) → (⟨S8x1x256x56x56x9, .f32⟩ : BufTy).Contents (Elt F)),
    binary main_v147 main_v154 main_v155 (addf : (⟨S8x1x256x56x56x9, .f32⟩ : BufTy).Contents (Elt F) → (⟨S8x1x256x56x56x9, .f32⟩ : BufTy).Contents (Elt F) → (⟨S8x1x256x56x56x9, .f32⟩ : BufTy).Contents (Elt F)),
    reshape main_arg2 main_v156 rfl shapeCasts_S8x9x56x56_S8x1x9x56x56,
    unary main_v156 main_v157 ((transpose S8x1x56x56x9 [0, 1, 3, 4, 2] · transposes_S8x1x9x56x56_S8x1x56x56x9_0_1_3_4_2) : (⟨S8x1x9x56x56, .f32⟩ : BufTy).Contents (Elt F) → (⟨S8x1x56x56x9, .f32⟩ : BufTy).Contents (Elt F)),
    unary main_v157 main_v158 (broadcastInDim S8x1x1x56x56x9 ![0, 1, 3, 4, 5] bcast_S8x1x56x56x9_S8x1x1x56x56x9_0_1_3_4_5 : (⟨S8x1x56x56x9, .f32⟩ : BufTy).Contents (Elt F) → (⟨S8x1x1x56x56x9, .f32⟩ : BufTy).Contents (Elt F)),
    unary main_v158 main_v159 (broadcastInDim S8x1x256x56x56x9 ![0, 1, 2, 3, 4, 5] bcast_S8x1x1x56x56x9_S8x1x256x56x56x9_0_1_2_3_4_5 : (⟨S8x1x1x56x56x9, .f32⟩ : BufTy).Contents (Elt F) → (⟨S8x1x256x56x56x9, .f32⟩ : BufTy).Contents (Elt F)),
    binary main_v155 main_v159 main_v160 (mulf : (⟨S8x1x256x56x56x9, .f32⟩ : BufTy).Contents (Elt F) → (⟨S8x1x256x56x56x9, .f32⟩ : BufTy).Contents (Elt F) → (⟨S8x1x256x56x56x9, .f32⟩ : BufTy).Contents (Elt F)),
    unary main_v160 main_v161 ((transpose S1x256x9x8x56x56 [1, 2, 5, 0, 3, 4] · transposes_S8x1x256x56x56x9_S1x256x9x8x56x56_1_2_5_0_3_4) : (⟨S8x1x256x56x56x9, .f32⟩ : BufTy).Contents (Elt F) → (⟨S1x256x9x8x56x56, .f32⟩ : BufTy).Contents (Elt F)),
    reshape main_v161 main_v162 rfl shapeCasts_S1x256x9x8x56x56_S1x2304x25088,
    reshape main_arg3 main_v163 rfl shapeCasts_S256x256x3x3_S1x256x2304,
    binary main_v163 main_v162 main_v164 ((fun l r => Host.dotGeneral dot_S1x256x2304_S1x2304x25088_S1x256x25088_2_1_1_2_0_0 none l r) : (⟨S1x256x2304, .f32⟩ : BufTy).Contents (Elt F) → (⟨S1x2304x25088, .f32⟩ : BufTy).Contents (Elt F) → (⟨S1x256x25088, .f32⟩ : BufTy).Contents (Elt F)),
    reshape main_v164 main_v165 rfl shapeCasts_S1x256x25088_S256x8x56x56,
    unary main_arg4 main_v166 (broadcastInDim S256x1x1x1 ![0] bcast_S256_S256x1x1x1_0 : (⟨S256, .f32⟩ : BufTy).Contents (Elt F) → (⟨S256x1x1x1, .f32⟩ : BufTy).Contents (Elt F)),
    unary main_v166 main_v167 (broadcastInDim S256x8x56x56 ![0, 1, 2, 3] bcast_S256x1x1x1_S256x8x56x56_0_1_2_3 : (⟨S256x1x1x1, .f32⟩ : BufTy).Contents (Elt F) → (⟨S256x8x56x56, .f32⟩ : BufTy).Contents (Elt F)),
    binary main_v165 main_v167 main_v168 (addf : (⟨S256x8x56x56, .f32⟩ : BufTy).Contents (Elt F) → (⟨S256x8x56x56, .f32⟩ : BufTy).Contents (Elt F) → (⟨S256x8x56x56, .f32⟩ : BufTy).Contents (Elt F)),
    unary main_v168 main_v169 ((transpose S8x256x56x56 [1, 0, 2, 3] · transposes_S256x8x56x56_S8x256x56x56_1_0_2_3) : (⟨S256x8x56x56, .f32⟩ : BufTy).Contents (Elt F) → (⟨S8x256x56x56, .f32⟩ : BufTy).Contents (Elt F)) ]

theorem rops33_fresh : (rops33 : List (HloOp τ sig (Elt F))).Forall fun op => op.fresh = ∅ := by
  simp only [List.Forall]; repeat' constructor

set_option maxRecDepth 65536 in
set_option maxHeartbeats 40000000 in
/-- The operation list is the chunks in order. -/
theorem ops_split : (ops : List (HloOp τ sig (Elt F))) = rops0 ++ (rops1 ++ (rops2 ++ (rops3 ++ (rops4 ++ (rops5 ++ (rops6 ++ (rops7 ++ (rops8 ++ (rops9 ++ (rops10 ++ (rops11 ++ (rops12 ++ (rops13 ++ (rops14 ++ (rops15 ++ (rops16 ++ (rops17 ++ (rops18 ++ (rops19 ++ (rops20 ++ (rops21 ++ (rops22 ++ (rops23 ++ (rops24 ++ (rops25 ++ (rops26 ++ (rops27 ++ (rops28 ++ (rops29 ++ (rops30 ++ (rops31 ++ (rops32 ++ (rops33))))))))))))))))))))))))))))))))) := rfl

/-- No operation allocates a buffer. -/
theorem ops_fresh : ∀ op ∈ (ops : List (HloOp τ sig (Elt F))), op.fresh = ∅ := by
  rw [ops_split]
  intro op h
  simp only [List.mem_append] at h
  rcases h with h | h | h | h | h | h | h | h | h | h | h | h | h | h | h | h | h | h | h | h | h | h | h | h | h | h | h | h | h | h | h | h | h | h
  · exact List.forall_iff_forall_mem.mp rops0_fresh op h
  · exact List.forall_iff_forall_mem.mp rops1_fresh op h
  · exact List.forall_iff_forall_mem.mp rops2_fresh op h
  · exact List.forall_iff_forall_mem.mp rops3_fresh op h
  · exact List.forall_iff_forall_mem.mp rops4_fresh op h
  · exact List.forall_iff_forall_mem.mp rops5_fresh op h
  · exact List.forall_iff_forall_mem.mp rops6_fresh op h
  · exact List.forall_iff_forall_mem.mp rops7_fresh op h
  · exact List.forall_iff_forall_mem.mp rops8_fresh op h
  · exact List.forall_iff_forall_mem.mp rops9_fresh op h
  · exact List.forall_iff_forall_mem.mp rops10_fresh op h
  · exact List.forall_iff_forall_mem.mp rops11_fresh op h
  · exact List.forall_iff_forall_mem.mp rops12_fresh op h
  · exact List.forall_iff_forall_mem.mp rops13_fresh op h
  · exact List.forall_iff_forall_mem.mp rops14_fresh op h
  · exact List.forall_iff_forall_mem.mp rops15_fresh op h
  · exact List.forall_iff_forall_mem.mp rops16_fresh op h
  · exact List.forall_iff_forall_mem.mp rops17_fresh op h
  · exact List.forall_iff_forall_mem.mp rops18_fresh op h
  · exact List.forall_iff_forall_mem.mp rops19_fresh op h
  · exact List.forall_iff_forall_mem.mp rops20_fresh op h
  · exact List.forall_iff_forall_mem.mp rops21_fresh op h
  · exact List.forall_iff_forall_mem.mp rops22_fresh op h
  · exact List.forall_iff_forall_mem.mp rops23_fresh op h
  · exact List.forall_iff_forall_mem.mp rops24_fresh op h
  · exact List.forall_iff_forall_mem.mp rops25_fresh op h
  · exact List.forall_iff_forall_mem.mp rops26_fresh op h
  · exact List.forall_iff_forall_mem.mp rops27_fresh op h
  · exact List.forall_iff_forall_mem.mp rops28_fresh op h
  · exact List.forall_iff_forall_mem.mp rops29_fresh op h
  · exact List.forall_iff_forall_mem.mp rops30_fresh op h
  · exact List.forall_iff_forall_mem.mp rops31_fresh op h
  · exact List.forall_iff_forall_mem.mp rops32_fresh op h
  · exact List.forall_iff_forall_mem.mp rops33_fresh op h

set_option maxHeartbeats 4000000 in
/-- Chunk 0 keeps every live buffer at its stage. -/
theorem st0 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) :
    after (rops0 : List (HloOp τ sig (Elt F))) W (Proc.devRef .tc main_arg0) = x0 ∧ after (rops0 : List (HloOp τ sig (Elt F))) W (Proc.devRef .tc main_arg1) = x1 ∧ after (rops0 : List (HloOp τ sig (Elt F))) W (Proc.devRef .tc main_arg2) = x2 ∧ after (rops0 : List (HloOp τ sig (Elt F))) W (Proc.devRef .tc main_arg3) = x3 ∧ after (rops0 : List (HloOp τ sig (Elt F))) W (Proc.devRef .tc main_arg4) = x4 ∧ after (rops0 : List (HloOp τ sig (Elt F))) W (Proc.devRef .tc main_v35) = val_main_v35 (F := F) := by
  refine ⟨?_, ?_, ?_, ?_, ?_, ?_⟩ <;>
    (simp only [rops0]; after_results <;> (try simp only [h_main_arg0, h_main_arg1, h_main_arg2, h_main_arg3, h_main_arg4]) <;> rfl)

set_option maxHeartbeats 4000000 in
/-- Chunk 1 keeps every live buffer at its stage. -/
theorem st1 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v35 : W (Proc.devRef .tc main_v35) = val_main_v35 (F := F)) :
    after (rops1 : List (HloOp τ sig (Elt F))) W (Proc.devRef .tc main_arg0) = x0 ∧ after (rops1 : List (HloOp τ sig (Elt F))) W (Proc.devRef .tc main_arg1) = x1 ∧ after (rops1 : List (HloOp τ sig (Elt F))) W (Proc.devRef .tc main_arg2) = x2 ∧ after (rops1 : List (HloOp τ sig (Elt F))) W (Proc.devRef .tc main_arg3) = x3 ∧ after (rops1 : List (HloOp τ sig (Elt F))) W (Proc.devRef .tc main_arg4) = x4 ∧ after (rops1 : List (HloOp τ sig (Elt F))) W (Proc.devRef .tc main_v42) = val_main_v42 (F := F) x1 ∧ after (rops1 : List (HloOp τ sig (Elt F))) W (Proc.devRef .tc main_v45) = val_main_v45 (F := F) x1 ∧ after (rops1 : List (HloOp τ sig (Elt F))) W (Proc.devRef .tc main_v48) = val_main_v48 (F := F) x1 ∧ after (rops1 : List (HloOp τ sig (Elt F))) W (Proc.devRef .tc main_v50) = val_main_v50 (F := F) x1 ∧ after (rops1 : List (HloOp τ sig (Elt F))) W (Proc.devRef .tc main_v52) = val_main_v52 (F := F) x1 ∧ after (rops1 : List (HloOp τ sig (Elt F))) W (Proc.devRef .tc main_v53) = val_main_v53 (F := F) x0 ∧ after (rops1 : List (HloOp τ sig (Elt F))) W (Proc.devRef .tc main_v64) = val_main_v64 (F := F) x1 ∧ after (rops1 : List (HloOp τ sig (Elt F))) W (Proc.devRef .tc main_c_11) = val_main_c_11 (F := F) ∧ after (rops1 : List (HloOp τ sig (Elt F))) W (Proc.devRef .tc main_c_12) = val_main_c_12 (F := F) := by
  refine ⟨?_, ?_, ?_, ?_, ?_, ?_, ?_, ?_, ?_, ?_, ?_, ?_, ?_, ?_⟩ <;>
    (simp only [rops1]; after_results_simp <;> (try simp only [TRef.ofBuf, TRef.toBuf, cast_eq]) <;> (try simp only [h_main_arg0, h_main_arg1, h_main_arg2, h_main_arg3, h_main_arg4, h_main_v35]) <;> rfl)

set_option maxHeartbeats 4000000 in
/-- Chunk 2 keeps every live buffer at its stage. -/
theorem st2 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v64 : W (Proc.devRef .tc main_v64) = val_main_v64 (F := F) x1) (h_main_c_11 : W (Proc.devRef .tc main_c_11) = val_main_c_11 (F := F)) (h_main_c_12 : W (Proc.devRef .tc main_c_12) = val_main_c_12 (F := F)) :
    after (rops2 : List (HloOp τ sig (Elt F))) W (Proc.devRef .tc main_arg0) = x0 ∧ after (rops2 : List (HloOp τ sig (Elt F))) W (Proc.devRef .tc main_arg1) = x1 ∧ after (rops2 : List (HloOp τ sig (Elt F))) W (Proc.devRef .tc main_arg2) = x2 ∧ after (rops2 : List (HloOp τ sig (Elt F))) W (Proc.devRef .tc main_arg3) = x3 ∧ after (rops2 : List (HloOp τ sig (Elt F))) W (Proc.devRef .tc main_arg4) = x4 ∧ after (rops2 : List (HloOp τ sig (Elt F))) W (Proc.devRef .tc main_v42) = val_main_v42 (F := F) x1 ∧ after (rops2 : List (HloOp τ sig (Elt F))) W (Proc.devRef .tc main_v45) = val_main_v45 (F := F) x1 ∧ after (rops2 : List (HloOp τ sig (Elt F))) W (Proc.devRef .tc main_v48) = val_main_v48 (F := F) x1 ∧ after (rops2 : List (HloOp τ sig (Elt F))) W (Proc.devRef .tc main_v50) = val_main_v50 (F := F) x1 ∧ after (rops2 : List (HloOp τ sig (Elt F))) W (Proc.devRef .tc main_v52) = val_main_v52 (F := F) x1 ∧ after (rops2 : List (HloOp τ sig (Elt F))) W (Proc.devRef .tc main_v53) = val_main_v53 (F := F) x0 ∧ after (rops2 : List (HloOp τ sig (Elt F))) W (Proc.devRef .tc main_v64) = val_main_v64 (F := F) x1 ∧ after (rops2 : List (HloOp τ sig (Elt F))) W (Proc.devRef .tc main_v65) = val_main_v65 (F := F) x1 := by
  refine ⟨?_, ?_, ?_, ?_, ?_, ?_, ?_, ?_, ?_, ?_, ?_, ?_, ?_⟩ <;>
    (simp only [rops2]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v64, h_main_c_11, h_main_c_12]) <;> rfl)

set_option maxHeartbeats 4000000 in
/-- Chunk 3 keeps every live buffer at its stage. -/
theorem st3 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v64 : W (Proc.devRef .tc main_v64) = val_main_v64 (F := F) x1) (h_main_v65 : W (Proc.devRef .tc main_v65) = val_main_v65 (F := F) x1) :
    after (rops3 : List (HloOp τ sig (Elt F))) W (Proc.devRef .tc main_arg0) = x0 ∧ after (rops3 : List (HloOp τ sig (Elt F))) W (Proc.devRef .tc main_arg1) = x1 ∧ after (rops3 : List (HloOp τ sig (Elt F))) W (Proc.devRef .tc main_arg2) = x2 ∧ after (rops3 : List (HloOp τ sig (Elt F))) W (Proc.devRef .tc main_arg3) = x3 ∧ after (rops3 : List (HloOp τ sig (Elt F))) W (Proc.devRef .tc main_arg4) = x4 ∧ after (rops3 : List (HloOp τ sig (Elt F))) W (Proc.devRef .tc main_v42) = val_main_v42 (F := F) x1 ∧ after (rops3 : List (HloOp τ sig (Elt F))) W (Proc.devRef .tc main_v45) = val_main_v45 (F := F) x1 ∧ after (rops3 : List (HloOp τ sig (Elt F))) W (Proc.devRef .tc main_v48) = val_main_v48 (F := F) x1 ∧ after (rops3 : List (HloOp τ sig (Elt F))) W (Proc.devRef .tc main_v50) = val_main_v50 (F := F) x1 ∧ after (rops3 : List (HloOp τ sig (Elt F))) W (Proc.devRef .tc main_v52) = val_main_v52 (F := F) x1 ∧ after (rops3 : List (HloOp τ sig (Elt F))) W (Proc.devRef .tc main_v53) = val_main_v53 (F := F) x0 ∧ after (rops3 : List (HloOp τ sig (Elt F))) W (Proc.devRef .tc main_v64) = val_main_v64 (F := F) x1 ∧ after (rops3 : List (HloOp τ sig (Elt F))) W (Proc.devRef .tc main_v67) = val_main_v67 (F := F) x1 ∧ after (rops3 : List (HloOp τ sig (Elt F))) W (Proc.devRef .tc main_c_14) = val_main_c_14 (F := F) ∧ after (rops3 : List (HloOp τ sig (Elt F))) W (Proc.devRef .tc main_c_15) = val_main_c_15 (F := F) := by
  refine ⟨?_, ?_, ?_, ?_, ?_, ?_, ?_, ?_, ?_, ?_, ?_, ?_, ?_, ?_, ?_⟩ <;>
    (simp only [rops3]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v64, h_main_v65]) <;> rfl)

set_option maxHeartbeats 4000000 in
/-- Chunk 4 keeps every live buffer at its stage. -/
theorem st4 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v64 : W (Proc.devRef .tc main_v64) = val_main_v64 (F := F) x1) (h_main_v67 : W (Proc.devRef .tc main_v67) = val_main_v67 (F := F) x1) (h_main_c_14 : W (Proc.devRef .tc main_c_14) = val_main_c_14 (F := F)) (h_main_c_15 : W (Proc.devRef .tc main_c_15) = val_main_c_15 (F := F)) :
    after (rops4 : List (HloOp τ sig (Elt F))) W (Proc.devRef .tc main_arg0) = x0 ∧ after (rops4 : List (HloOp τ sig (Elt F))) W (Proc.devRef .tc main_arg1) = x1 ∧ after (rops4 : List (HloOp τ sig (Elt F))) W (Proc.devRef .tc main_arg2) = x2 ∧ after (rops4 : List (HloOp τ sig (Elt F))) W (Proc.devRef .tc main_arg3) = x3 ∧ after (rops4 : List (HloOp τ sig (Elt F))) W (Proc.devRef .tc main_arg4) = x4 ∧ after (rops4 : List (HloOp τ sig (Elt F))) W (Proc.devRef .tc main_v42) = val_main_v42 (F := F) x1 ∧ after (rops4 : List (HloOp τ sig (Elt F))) W (Proc.devRef .tc main_v45) = val_main_v45 (F := F) x1 ∧ after (rops4 : List (HloOp τ sig (Elt F))) W (Proc.devRef .tc main_v48) = val_main_v48 (F := F) x1 ∧ after (rops4 : List (HloOp τ sig (Elt F))) W (Proc.devRef .tc main_v50) = val_main_v50 (F := F) x1 ∧ after (rops4 : List (HloOp τ sig (Elt F))) W (Proc.devRef .tc main_v52) = val_main_v52 (F := F) x1 ∧ after (rops4 : List (HloOp τ sig (Elt F))) W (Proc.devRef .tc main_v53) = val_main_v53 (F := F) x0 ∧ after (rops4 : List (HloOp τ sig (Elt F))) W (Proc.devRef .tc main_v64) = val_main_v64 (F := F) x1 ∧ after (rops4 : List (HloOp τ sig (Elt F))) W (Proc.devRef .tc main_v67) = val_main_v67 (F := F) x1 ∧ after (rops4 : List (HloOp τ sig (Elt F))) W (Proc.devRef .tc main_v68) = val_main_v68 (F := F) x1 := by
  refine ⟨?_, ?_, ?_, ?_, ?_, ?_, ?_, ?_, ?_, ?_, ?_, ?_, ?_, ?_⟩ <;>
    (simp only [rops4]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v64, h_main_v67, h_main_c_14, h_main_c_15]) <;> rfl)

set_option maxHeartbeats 4000000 in
/-- Chunk 5 keeps every live buffer at its stage. -/
theorem st5 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v64 : W (Proc.devRef .tc main_v64) = val_main_v64 (F := F) x1) (h_main_v67 : W (Proc.devRef .tc main_v67) = val_main_v67 (F := F) x1) (h_main_v68 : W (Proc.devRef .tc main_v68) = val_main_v68 (F := F) x1) :
    after (rops5 : List (HloOp τ sig (Elt F))) W (Proc.devRef .tc main_arg0) = x0 ∧ after (rops5 : List (HloOp τ sig (Elt F))) W (Proc.devRef .tc main_arg1) = x1 ∧ after (rops5 : List (HloOp τ sig (Elt F))) W (Proc.devRef .tc main_arg2) = x2 ∧ after (rops5 : List (HloOp τ sig (Elt F))) W (Proc.devRef .tc main_arg3) = x3 ∧ after (rops5 : List (HloOp τ sig (Elt F))) W (Proc.devRef .tc main_arg4) = x4 ∧ after (rops5 : List (HloOp τ sig (Elt F))) W (Proc.devRef .tc main_v42) = val_main_v42 (F := F) x1 ∧ after (rops5 : List (HloOp τ sig (Elt F))) W (Proc.devRef .tc main_v45) = val_main_v45 (F := F) x1 ∧ after (rops5 : List (HloOp τ sig (Elt F))) W (Proc.devRef .tc main_v48) = val_main_v48 (F := F) x1 ∧ after (rops5 : List (HloOp τ sig (Elt F))) W (Proc.devRef .tc main_v50) = val_main_v50 (F := F) x1 ∧ after (rops5 : List (HloOp τ sig (Elt F))) W (Proc.devRef .tc main_v52) = val_main_v52 (F := F) x1 ∧ after (rops5 : List (HloOp τ sig (Elt F))) W (Proc.devRef .tc main_v53) = val_main_v53 (F := F) x0 ∧ after (rops5 : List (HloOp τ sig (Elt F))) W (Proc.devRef .tc main_v64) = val_main_v64 (F := F) x1 ∧ after (rops5 : List (HloOp τ sig (Elt F))) W (Proc.devRef .tc main_v70) = val_main_v70 (F := F) x1 := by
  refine ⟨?_, ?_, ?_, ?_, ?_, ?_, ?_, ?_, ?_, ?_, ?_, ?_, ?_⟩ <;>
    (simp only [rops5]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v64, h_main_v67, h_main_v68]) <;> rfl)

set_option maxHeartbeats 4000000 in
/-- Chunk 6 keeps every live buffer at its stage. -/
theorem st6 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v64 : W (Proc.devRef .tc main_v64) = val_main_v64 (F := F) x1) (h_main_v70 : W (Proc.devRef .tc main_v70) = val_main_v70 (F := F) x1) :
    after (rops6 : List (HloOp τ sig (Elt F))) W (Proc.devRef .tc main_arg0) = x0 ∧ after (rops6 : List (HloOp τ sig (Elt F))) W (Proc.devRef .tc main_arg1) = x1 ∧ after (rops6 : List (HloOp τ sig (Elt F))) W (Proc.devRef .tc main_arg2) = x2 ∧ after (rops6 : List (HloOp τ sig (Elt F))) W (Proc.devRef .tc main_arg3) = x3 ∧ after (rops6 : List (HloOp τ sig (Elt F))) W (Proc.devRef .tc main_arg4) = x4 ∧ after (rops6 : List (HloOp τ sig (Elt F))) W (Proc.devRef .tc main_v42) = val_main_v42 (F := F) x1 ∧ after (rops6 : List (HloOp τ sig (Elt F))) W (Proc.devRef .tc main_v45) = val_main_v45 (F := F) x1 ∧ after (rops6 : List (HloOp τ sig (Elt F))) W (Proc.devRef .tc main_v48) = val_main_v48 (F := F) x1 ∧ after (rops6 : List (HloOp τ sig (Elt F))) W (Proc.devRef .tc main_v50) = val_main_v50 (F := F) x1 ∧ after (rops6 : List (HloOp τ sig (Elt F))) W (Proc.devRef .tc main_v52) = val_main_v52 (F := F) x1 ∧ after (rops6 : List (HloOp τ sig (Elt F))) W (Proc.devRef .tc main_v53) = val_main_v53 (F := F) x0 ∧ after (rops6 : List (HloOp τ sig (Elt F))) W (Proc.devRef .tc main_v64) = val_main_v64 (F := F) x1 ∧ after (rops6 : List (HloOp τ sig (Elt F))) W (Proc.devRef .tc main_v71) = val_main_v71 (F := F) x0 x1 := by
  refine ⟨?_, ?_, ?_, ?_, ?_, ?_, ?_, ?_, ?_, ?_, ?_, ?_, ?_⟩ <;>
    (simp only [rops6]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v64, h_main_v70]) <;> rfl)

set_option maxHeartbeats 4000000 in
/-- Chunk 7 keeps every live buffer at its stage. -/
theorem st7 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v64 : W (Proc.devRef .tc main_v64) = val_main_v64 (F := F) x1) (h_main_v71 : W (Proc.devRef .tc main_v71) = val_main_v71 (F := F) x0 x1) :
    after (rops7 : List (HloOp τ sig (Elt F))) W (Proc.devRef .tc main_arg0) = x0 ∧ after (rops7 : List (HloOp τ sig (Elt F))) W (Proc.devRef .tc main_arg1) = x1 ∧ after (rops7 : List (HloOp τ sig (Elt F))) W (Proc.devRef .tc main_arg2) = x2 ∧ after (rops7 : List (HloOp τ sig (Elt F))) W (Proc.devRef .tc main_arg3) = x3 ∧ after (rops7 : List (HloOp τ sig (Elt F))) W (Proc.devRef .tc main_arg4) = x4 ∧ after (rops7 : List (HloOp τ sig (Elt F))) W (Proc.devRef .tc main_v42) = val_main_v42 (F := F) x1 ∧ after (rops7 : List (HloOp τ sig (Elt F))) W (Proc.devRef .tc main_v45) = val_main_v45 (F := F) x1 ∧ after (rops7 : List (HloOp τ sig (Elt F))) W (Proc.devRef .tc main_v48) = val_main_v48 (F := F) x1 ∧ after (rops7 : List (HloOp τ sig (Elt F))) W (Proc.devRef .tc main_v50) = val_main_v50 (F := F) x1 ∧ after (rops7 : List (HloOp τ sig (Elt F))) W (Proc.devRef .tc main_v52) = val_main_v52 (F := F) x1 ∧ after (rops7 : List (HloOp τ sig (Elt F))) W (Proc.devRef .tc main_v53) = val_main_v53 (F := F) x0 ∧ after (rops7 : List (HloOp τ sig (Elt F))) W (Proc.devRef .tc main_v72) = val_main_v72 (F := F) x0 x1 ∧ after (rops7 : List (HloOp τ sig (Elt F))) W (Proc.devRef .tc main_v73) = val_main_v73 (F := F) x1 ∧ after (rops7 : List (HloOp τ sig (Elt F))) W (Proc.devRef .tc main_cst) = val_main_cst (F := F) := by
  refine ⟨?_, ?_, ?_, ?_, ?_, ?_, ?_, ?_, ?_, ?_, ?_, ?_, ?_, ?_⟩ <;>
    (simp only [rops7]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v64, h_main_v71]) <;> rfl)

set_option maxHeartbeats 4000000 in
/-- Chunk 8 keeps every live buffer at its stage. -/
theorem st8 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v72 : W (Proc.devRef .tc main_v72) = val_main_v72 (F := F) x0 x1) (h_main_v73 : W (Proc.devRef .tc main_v73) = val_main_v73 (F := F) x1) (h_main_cst : W (Proc.devRef .tc main_cst) = val_main_cst (F := F)) :
    after (rops8 : List (HloOp τ sig (Elt F))) W (Proc.devRef .tc main_arg0) = x0 ∧ after (rops8 : List (HloOp τ sig (Elt F))) W (Proc.devRef .tc main_arg1) = x1 ∧ after (rops8 : List (HloOp τ sig (Elt F))) W (Proc.devRef .tc main_arg2) = x2 ∧ after (rops8 : List (HloOp τ sig (Elt F))) W (Proc.devRef .tc main_arg3) = x3 ∧ after (rops8 : List (HloOp τ sig (Elt F))) W (Proc.devRef .tc main_arg4) = x4 ∧ after (rops8 : List (HloOp τ sig (Elt F))) W (Proc.devRef .tc main_v42) = val_main_v42 (F := F) x1 ∧ after (rops8 : List (HloOp τ sig (Elt F))) W (Proc.devRef .tc main_v45) = val_main_v45 (F := F) x1 ∧ after (rops8 : List (HloOp τ sig (Elt F))) W (Proc.devRef .tc main_v48) = val_main_v48 (F := F) x1 ∧ after (rops8 : List (HloOp τ sig (Elt F))) W (Proc.devRef .tc main_v50) = val_main_v50 (F := F) x1 ∧ after (rops8 : List (HloOp τ sig (Elt F))) W (Proc.devRef .tc main_v52) = val_main_v52 (F := F) x1 ∧ after (rops8 : List (HloOp τ sig (Elt F))) W (Proc.devRef .tc main_v53) = val_main_v53 (F := F) x0 ∧ after (rops8 : List (HloOp τ sig (Elt F))) W (Proc.devRef .tc main_v74) = val_main_v74 (F := F) x0 x1 := by
  refine ⟨?_, ?_, ?_, ?_, ?_, ?_, ?_, ?_, ?_, ?_, ?_, ?_⟩ <;>
    (simp only [rops8]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v72, h_main_v73, h_main_cst]) <;> rfl)

set_option maxHeartbeats 4000000 in
/-- Chunk 9 keeps every live buffer at its stage. -/
theorem st9 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) :
    after (rops9 : List (HloOp τ sig (Elt F))) W (Proc.devRef .tc main_arg0) = x0 ∧ after (rops9 : List (HloOp τ sig (Elt F))) W (Proc.devRef .tc main_arg1) = x1 ∧ after (rops9 : List (HloOp τ sig (Elt F))) W (Proc.devRef .tc main_arg2) = x2 ∧ after (rops9 : List (HloOp τ sig (Elt F))) W (Proc.devRef .tc main_arg3) = x3 ∧ after (rops9 : List (HloOp τ sig (Elt F))) W (Proc.devRef .tc main_arg4) = x4 ∧ after (rops9 : List (HloOp τ sig (Elt F))) W (Proc.devRef .tc main_v42) = val_main_v42 (F := F) x1 ∧ after (rops9 : List (HloOp τ sig (Elt F))) W (Proc.devRef .tc main_v45) = val_main_v45 (F := F) x1 ∧ after (rops9 : List (HloOp τ sig (Elt F))) W (Proc.devRef .tc main_v48) = val_main_v48 (F := F) x1 ∧ after (rops9 : List (HloOp τ sig (Elt F))) W (Proc.devRef .tc main_v50) = val_main_v50 (F := F) x1 ∧ after (rops9 : List (HloOp τ sig (Elt F))) W (Proc.devRef .tc main_v52) = val_main_v52 (F := F) x1 ∧ after (rops9 : List (HloOp τ sig (Elt F))) W (Proc.devRef .tc main_v53) = val_main_v53 (F := F) x0 ∧ after (rops9 : List (HloOp τ sig (Elt F))) W (Proc.devRef .tc main_v74) = val_main_v74 (F := F) x0 x1 ∧ after (rops9 : List (HloOp τ sig (Elt F))) W (Proc.devRef .tc main_v85) = val_main_v85 (F := F) x1 ∧ after (rops9 : List (HloOp τ sig (Elt F))) W (Proc.devRef .tc main_c_20) = val_main_c_20 (F := F) ∧ after (rops9 : List (HloOp τ sig (Elt F))) W (Proc.devRef .tc main_c_21) = val_main_c_21 (F := F) := by
  refine ⟨?_, ?_, ?_, ?_, ?_, ?_, ?_, ?_, ?_, ?_, ?_, ?_, ?_, ?_, ?_⟩ <;>
    (simp only [rops9]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74]) <;> rfl)

set_option maxHeartbeats 4000000 in
/-- Chunk 10 keeps every live buffer at its stage. -/
theorem st10 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v85 : W (Proc.devRef .tc main_v85) = val_main_v85 (F := F) x1) (h_main_c_20 : W (Proc.devRef .tc main_c_20) = val_main_c_20 (F := F)) (h_main_c_21 : W (Proc.devRef .tc main_c_21) = val_main_c_21 (F := F)) :
    after (rops10 : List (HloOp τ sig (Elt F))) W (Proc.devRef .tc main_arg0) = x0 ∧ after (rops10 : List (HloOp τ sig (Elt F))) W (Proc.devRef .tc main_arg1) = x1 ∧ after (rops10 : List (HloOp τ sig (Elt F))) W (Proc.devRef .tc main_arg2) = x2 ∧ after (rops10 : List (HloOp τ sig (Elt F))) W (Proc.devRef .tc main_arg3) = x3 ∧ after (rops10 : List (HloOp τ sig (Elt F))) W (Proc.devRef .tc main_arg4) = x4 ∧ after (rops10 : List (HloOp τ sig (Elt F))) W (Proc.devRef .tc main_v42) = val_main_v42 (F := F) x1 ∧ after (rops10 : List (HloOp τ sig (Elt F))) W (Proc.devRef .tc main_v45) = val_main_v45 (F := F) x1 ∧ after (rops10 : List (HloOp τ sig (Elt F))) W (Proc.devRef .tc main_v48) = val_main_v48 (F := F) x1 ∧ after (rops10 : List (HloOp τ sig (Elt F))) W (Proc.devRef .tc main_v50) = val_main_v50 (F := F) x1 ∧ after (rops10 : List (HloOp τ sig (Elt F))) W (Proc.devRef .tc main_v52) = val_main_v52 (F := F) x1 ∧ after (rops10 : List (HloOp τ sig (Elt F))) W (Proc.devRef .tc main_v53) = val_main_v53 (F := F) x0 ∧ after (rops10 : List (HloOp τ sig (Elt F))) W (Proc.devRef .tc main_v74) = val_main_v74 (F := F) x0 x1 ∧ after (rops10 : List (HloOp τ sig (Elt F))) W (Proc.devRef .tc main_v85) = val_main_v85 (F := F) x1 ∧ after (rops10 : List (HloOp τ sig (Elt F))) W (Proc.devRef .tc main_v86) = val_main_v86 (F := F) x1 := by
  refine ⟨?_, ?_, ?_, ?_, ?_, ?_, ?_, ?_, ?_, ?_, ?_, ?_, ?_, ?_⟩ <;>
    (simp only [rops10]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v85, h_main_c_20, h_main_c_21]) <;> rfl)

set_option maxHeartbeats 4000000 in
/-- Chunk 11 keeps every live buffer at its stage. -/
theorem st11 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v85 : W (Proc.devRef .tc main_v85) = val_main_v85 (F := F) x1) (h_main_v86 : W (Proc.devRef .tc main_v86) = val_main_v86 (F := F) x1) :
    after (rops11 : List (HloOp τ sig (Elt F))) W (Proc.devRef .tc main_arg0) = x0 ∧ after (rops11 : List (HloOp τ sig (Elt F))) W (Proc.devRef .tc main_arg1) = x1 ∧ after (rops11 : List (HloOp τ sig (Elt F))) W (Proc.devRef .tc main_arg2) = x2 ∧ after (rops11 : List (HloOp τ sig (Elt F))) W (Proc.devRef .tc main_arg3) = x3 ∧ after (rops11 : List (HloOp τ sig (Elt F))) W (Proc.devRef .tc main_arg4) = x4 ∧ after (rops11 : List (HloOp τ sig (Elt F))) W (Proc.devRef .tc main_v42) = val_main_v42 (F := F) x1 ∧ after (rops11 : List (HloOp τ sig (Elt F))) W (Proc.devRef .tc main_v45) = val_main_v45 (F := F) x1 ∧ after (rops11 : List (HloOp τ sig (Elt F))) W (Proc.devRef .tc main_v48) = val_main_v48 (F := F) x1 ∧ after (rops11 : List (HloOp τ sig (Elt F))) W (Proc.devRef .tc main_v50) = val_main_v50 (F := F) x1 ∧ after (rops11 : List (HloOp τ sig (Elt F))) W (Proc.devRef .tc main_v52) = val_main_v52 (F := F) x1 ∧ after (rops11 : List (HloOp τ sig (Elt F))) W (Proc.devRef .tc main_v53) = val_main_v53 (F := F) x0 ∧ after (rops11 : List (HloOp τ sig (Elt F))) W (Proc.devRef .tc main_v74) = val_main_v74 (F := F) x0 x1 ∧ after (rops11 : List (HloOp τ sig (Elt F))) W (Proc.devRef .tc main_v85) = val_main_v85 (F := F) x1 ∧ after (rops11 : List (HloOp τ sig (Elt F))) W (Proc.devRef .tc main_v88) = val_main_v88 (F := F) x1 ∧ after (rops11 : List (HloOp τ sig (Elt F))) W (Proc.devRef .tc main_c_23) = val_main_c_23 (F := F) ∧ after (rops11 : List (HloOp τ sig (Elt F))) W (Proc.devRef .tc main_c_24) = val_main_c_24 (F := F) := by
  refine ⟨?_, ?_, ?_, ?_, ?_, ?_, ?_, ?_, ?_, ?_, ?_, ?_, ?_, ?_, ?_, ?_⟩ <;>
    (simp only [rops11]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v85, h_main_v86]) <;> rfl)

set_option maxHeartbeats 4000000 in
/-- Chunk 12 keeps every live buffer at its stage. -/
theorem st12 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v85 : W (Proc.devRef .tc main_v85) = val_main_v85 (F := F) x1) (h_main_v88 : W (Proc.devRef .tc main_v88) = val_main_v88 (F := F) x1) (h_main_c_23 : W (Proc.devRef .tc main_c_23) = val_main_c_23 (F := F)) (h_main_c_24 : W (Proc.devRef .tc main_c_24) = val_main_c_24 (F := F)) :
    after (rops12 : List (HloOp τ sig (Elt F))) W (Proc.devRef .tc main_arg0) = x0 ∧ after (rops12 : List (HloOp τ sig (Elt F))) W (Proc.devRef .tc main_arg1) = x1 ∧ after (rops12 : List (HloOp τ sig (Elt F))) W (Proc.devRef .tc main_arg2) = x2 ∧ after (rops12 : List (HloOp τ sig (Elt F))) W (Proc.devRef .tc main_arg3) = x3 ∧ after (rops12 : List (HloOp τ sig (Elt F))) W (Proc.devRef .tc main_arg4) = x4 ∧ after (rops12 : List (HloOp τ sig (Elt F))) W (Proc.devRef .tc main_v42) = val_main_v42 (F := F) x1 ∧ after (rops12 : List (HloOp τ sig (Elt F))) W (Proc.devRef .tc main_v45) = val_main_v45 (F := F) x1 ∧ after (rops12 : List (HloOp τ sig (Elt F))) W (Proc.devRef .tc main_v48) = val_main_v48 (F := F) x1 ∧ after (rops12 : List (HloOp τ sig (Elt F))) W (Proc.devRef .tc main_v50) = val_main_v50 (F := F) x1 ∧ after (rops12 : List (HloOp τ sig (Elt F))) W (Proc.devRef .tc main_v52) = val_main_v52 (F := F) x1 ∧ after (rops12 : List (HloOp τ sig (Elt F))) W (Proc.devRef .tc main_v53) = val_main_v53 (F := F) x0 ∧ after (rops12 : List (HloOp τ sig (Elt F))) W (Proc.devRef .tc main_v74) = val_main_v74 (F := F) x0 x1 ∧ after (rops12 : List (HloOp τ sig (Elt F))) W (Proc.devRef .tc main_v85) = val_main_v85 (F := F) x1 ∧ after (rops12 : List (HloOp τ sig (Elt F))) W (Proc.devRef .tc main_v88) = val_main_v88 (F := F) x1 ∧ after (rops12 : List (HloOp τ sig (Elt F))) W (Proc.devRef .tc main_v89) = val_main_v89 (F := F) x1 := by
  refine ⟨?_, ?_, ?_, ?_, ?_, ?_, ?_, ?_, ?_, ?_, ?_, ?_, ?_, ?_, ?_⟩ <;>
    (simp only [rops12]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v85, h_main_v88, h_main_c_23, h_main_c_24]) <;> rfl)

set_option maxHeartbeats 4000000 in
/-- Chunk 13 keeps every live buffer at its stage. -/
theorem st13 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v85 : W (Proc.devRef .tc main_v85) = val_main_v85 (F := F) x1) (h_main_v88 : W (Proc.devRef .tc main_v88) = val_main_v88 (F := F) x1) (h_main_v89 : W (Proc.devRef .tc main_v89) = val_main_v89 (F := F) x1) :
    after (rops13 : List (HloOp τ sig (Elt F))) W (Proc.devRef .tc main_arg0) = x0 ∧ after (rops13 : List (HloOp τ sig (Elt F))) W (Proc.devRef .tc main_arg1) = x1 ∧ after (rops13 : List (HloOp τ sig (Elt F))) W (Proc.devRef .tc main_arg2) = x2 ∧ after (rops13 : List (HloOp τ sig (Elt F))) W (Proc.devRef .tc main_arg3) = x3 ∧ after (rops13 : List (HloOp τ sig (Elt F))) W (Proc.devRef .tc main_arg4) = x4 ∧ after (rops13 : List (HloOp τ sig (Elt F))) W (Proc.devRef .tc main_v42) = val_main_v42 (F := F) x1 ∧ after (rops13 : List (HloOp τ sig (Elt F))) W (Proc.devRef .tc main_v45) = val_main_v45 (F := F) x1 ∧ after (rops13 : List (HloOp τ sig (Elt F))) W (Proc.devRef .tc main_v48) = val_main_v48 (F := F) x1 ∧ after (rops13 : List (HloOp τ sig (Elt F))) W (Proc.devRef .tc main_v50) = val_main_v50 (F := F) x1 ∧ after (rops13 : List (HloOp τ sig (Elt F))) W (Proc.devRef .tc main_v52) = val_main_v52 (F := F) x1 ∧ after (rops13 : List (HloOp τ sig (Elt F))) W (Proc.devRef .tc main_v53) = val_main_v53 (F := F) x0 ∧ after (rops13 : List (HloOp τ sig (Elt F))) W (Proc.devRef .tc main_v74) = val_main_v74 (F := F) x0 x1 ∧ after (rops13 : List (HloOp τ sig (Elt F))) W (Proc.devRef .tc main_v85) = val_main_v85 (F := F) x1 ∧ after (rops13 : List (HloOp τ sig (Elt F))) W (Proc.devRef .tc main_v91) = val_main_v91 (F := F) x1 := by
  refine ⟨?_, ?_, ?_, ?_, ?_, ?_, ?_, ?_, ?_, ?_, ?_, ?_, ?_, ?_⟩ <;>
    (simp only [rops13]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v85, h_main_v88, h_main_v89]) <;> rfl)

set_option maxHeartbeats 4000000 in
/-- Chunk 14 keeps every live buffer at its stage. -/
theorem st14 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v85 : W (Proc.devRef .tc main_v85) = val_main_v85 (F := F) x1) (h_main_v91 : W (Proc.devRef .tc main_v91) = val_main_v91 (F := F) x1) :
    after (rops14 : List (HloOp τ sig (Elt F))) W (Proc.devRef .tc main_arg0) = x0 ∧ after (rops14 : List (HloOp τ sig (Elt F))) W (Proc.devRef .tc main_arg1) = x1 ∧ after (rops14 : List (HloOp τ sig (Elt F))) W (Proc.devRef .tc main_arg2) = x2 ∧ after (rops14 : List (HloOp τ sig (Elt F))) W (Proc.devRef .tc main_arg3) = x3 ∧ after (rops14 : List (HloOp τ sig (Elt F))) W (Proc.devRef .tc main_arg4) = x4 ∧ after (rops14 : List (HloOp τ sig (Elt F))) W (Proc.devRef .tc main_v42) = val_main_v42 (F := F) x1 ∧ after (rops14 : List (HloOp τ sig (Elt F))) W (Proc.devRef .tc main_v45) = val_main_v45 (F := F) x1 ∧ after (rops14 : List (HloOp τ sig (Elt F))) W (Proc.devRef .tc main_v48) = val_main_v48 (F := F) x1 ∧ after (rops14 : List (HloOp τ sig (Elt F))) W (Proc.devRef .tc main_v50) = val_main_v50 (F := F) x1 ∧ after (rops14 : List (HloOp τ sig (Elt F))) W (Proc.devRef .tc main_v52) = val_main_v52 (F := F) x1 ∧ after (rops14 : List (HloOp τ sig (Elt F))) W (Proc.devRef .tc main_v53) = val_main_v53 (F := F) x0 ∧ after (rops14 : List (HloOp τ sig (Elt F))) W (Proc.devRef .tc main_v74) = val_main_v74 (F := F) x0 x1 ∧ after (rops14 : List (HloOp τ sig (Elt F))) W (Proc.devRef .tc main_v85) = val_main_v85 (F := F) x1 ∧ after (rops14 : List (HloOp τ sig (Elt F))) W (Proc.devRef .tc main_v92) = val_main_v92 (F := F) x0 x1 := by
  refine ⟨?_, ?_, ?_, ?_, ?_, ?_, ?_, ?_, ?_, ?_, ?_, ?_, ?_, ?_⟩ <;>
    (simp only [rops14]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v85, h_main_v91]) <;> rfl)

set_option maxHeartbeats 4000000 in
/-- Chunk 15 keeps every live buffer at its stage. -/
theorem st15 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v85 : W (Proc.devRef .tc main_v85) = val_main_v85 (F := F) x1) (h_main_v92 : W (Proc.devRef .tc main_v92) = val_main_v92 (F := F) x0 x1) :
    after (rops15 : List (HloOp τ sig (Elt F))) W (Proc.devRef .tc main_arg0) = x0 ∧ after (rops15 : List (HloOp τ sig (Elt F))) W (Proc.devRef .tc main_arg1) = x1 ∧ after (rops15 : List (HloOp τ sig (Elt F))) W (Proc.devRef .tc main_arg2) = x2 ∧ after (rops15 : List (HloOp τ sig (Elt F))) W (Proc.devRef .tc main_arg3) = x3 ∧ after (rops15 : List (HloOp τ sig (Elt F))) W (Proc.devRef .tc main_arg4) = x4 ∧ after (rops15 : List (HloOp τ sig (Elt F))) W (Proc.devRef .tc main_v42) = val_main_v42 (F := F) x1 ∧ after (rops15 : List (HloOp τ sig (Elt F))) W (Proc.devRef .tc main_v45) = val_main_v45 (F := F) x1 ∧ after (rops15 : List (HloOp τ sig (Elt F))) W (Proc.devRef .tc main_v48) = val_main_v48 (F := F) x1 ∧ after (rops15 : List (HloOp τ sig (Elt F))) W (Proc.devRef .tc main_v50) = val_main_v50 (F := F) x1 ∧ after (rops15 : List (HloOp τ sig (Elt F))) W (Proc.devRef .tc main_v52) = val_main_v52 (F := F) x1 ∧ after (rops15 : List (HloOp τ sig (Elt F))) W (Proc.devRef .tc main_v53) = val_main_v53 (F := F) x0 ∧ after (rops15 : List (HloOp τ sig (Elt F))) W (Proc.devRef .tc main_v74) = val_main_v74 (F := F) x0 x1 ∧ after (rops15 : List (HloOp τ sig (Elt F))) W (Proc.devRef .tc main_v93) = val_main_v93 (F := F) x0 x1 ∧ after (rops15 : List (HloOp τ sig (Elt F))) W (Proc.devRef .tc main_v94) = val_main_v94 (F := F) x1 ∧ after (rops15 : List (HloOp τ sig (Elt F))) W (Proc.devRef .tc main_cst_25) = val_main_cst_25 (F := F) := by
  refine ⟨?_, ?_, ?_, ?_, ?_, ?_, ?_, ?_, ?_, ?_, ?_, ?_, ?_, ?_, ?_⟩ <;>
    (simp only [rops15]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v85, h_main_v92]) <;> rfl)

set_option maxHeartbeats 4000000 in
/-- Chunk 16 keeps every live buffer at its stage. -/
theorem st16 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v93 : W (Proc.devRef .tc main_v93) = val_main_v93 (F := F) x0 x1) (h_main_v94 : W (Proc.devRef .tc main_v94) = val_main_v94 (F := F) x1) (h_main_cst_25 : W (Proc.devRef .tc main_cst_25) = val_main_cst_25 (F := F)) :
    after (rops16 : List (HloOp τ sig (Elt F))) W (Proc.devRef .tc main_arg0) = x0 ∧ after (rops16 : List (HloOp τ sig (Elt F))) W (Proc.devRef .tc main_arg1) = x1 ∧ after (rops16 : List (HloOp τ sig (Elt F))) W (Proc.devRef .tc main_arg2) = x2 ∧ after (rops16 : List (HloOp τ sig (Elt F))) W (Proc.devRef .tc main_arg3) = x3 ∧ after (rops16 : List (HloOp τ sig (Elt F))) W (Proc.devRef .tc main_arg4) = x4 ∧ after (rops16 : List (HloOp τ sig (Elt F))) W (Proc.devRef .tc main_v42) = val_main_v42 (F := F) x1 ∧ after (rops16 : List (HloOp τ sig (Elt F))) W (Proc.devRef .tc main_v45) = val_main_v45 (F := F) x1 ∧ after (rops16 : List (HloOp τ sig (Elt F))) W (Proc.devRef .tc main_v48) = val_main_v48 (F := F) x1 ∧ after (rops16 : List (HloOp τ sig (Elt F))) W (Proc.devRef .tc main_v50) = val_main_v50 (F := F) x1 ∧ after (rops16 : List (HloOp τ sig (Elt F))) W (Proc.devRef .tc main_v52) = val_main_v52 (F := F) x1 ∧ after (rops16 : List (HloOp τ sig (Elt F))) W (Proc.devRef .tc main_v53) = val_main_v53 (F := F) x0 ∧ after (rops16 : List (HloOp τ sig (Elt F))) W (Proc.devRef .tc main_v74) = val_main_v74 (F := F) x0 x1 ∧ after (rops16 : List (HloOp τ sig (Elt F))) W (Proc.devRef .tc main_v95) = val_main_v95 (F := F) x0 x1 := by
  refine ⟨?_, ?_, ?_, ?_, ?_, ?_, ?_, ?_, ?_, ?_, ?_, ?_, ?_⟩ <;>
    (simp only [rops16]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v93, h_main_v94, h_main_cst_25]) <;> rfl)

set_option maxHeartbeats 4000000 in
/-- Chunk 17 keeps every live buffer at its stage. -/
theorem st17 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) :
    after (rops17 : List (HloOp τ sig (Elt F))) W (Proc.devRef .tc main_arg0) = x0 ∧ after (rops17 : List (HloOp τ sig (Elt F))) W (Proc.devRef .tc main_arg1) = x1 ∧ after (rops17 : List (HloOp τ sig (Elt F))) W (Proc.devRef .tc main_arg2) = x2 ∧ after (rops17 : List (HloOp τ sig (Elt F))) W (Proc.devRef .tc main_arg3) = x3 ∧ after (rops17 : List (HloOp τ sig (Elt F))) W (Proc.devRef .tc main_arg4) = x4 ∧ after (rops17 : List (HloOp τ sig (Elt F))) W (Proc.devRef .tc main_v42) = val_main_v42 (F := F) x1 ∧ after (rops17 : List (HloOp τ sig (Elt F))) W (Proc.devRef .tc main_v45) = val_main_v45 (F := F) x1 ∧ after (rops17 : List (HloOp τ sig (Elt F))) W (Proc.devRef .tc main_v48) = val_main_v48 (F := F) x1 ∧ after (rops17 : List (HloOp τ sig (Elt F))) W (Proc.devRef .tc main_v50) = val_main_v50 (F := F) x1 ∧ after (rops17 : List (HloOp τ sig (Elt F))) W (Proc.devRef .tc main_v52) = val_main_v52 (F := F) x1 ∧ after (rops17 : List (HloOp τ sig (Elt F))) W (Proc.devRef .tc main_v53) = val_main_v53 (F := F) x0 ∧ after (rops17 : List (HloOp τ sig (Elt F))) W (Proc.devRef .tc main_v74) = val_main_v74 (F := F) x0 x1 ∧ after (rops17 : List (HloOp τ sig (Elt F))) W (Proc.devRef .tc main_v95) = val_main_v95 (F := F) x0 x1 ∧ after (rops17 : List (HloOp τ sig (Elt F))) W (Proc.devRef .tc main_v106) = val_main_v106 (F := F) x1 ∧ after (rops17 : List (HloOp τ sig (Elt F))) W (Proc.devRef .tc main_c_30) = val_main_c_30 (F := F) ∧ after (rops17 : List (HloOp τ sig (Elt F))) W (Proc.devRef .tc main_c_31) = val_main_c_31 (F := F) := by
  refine ⟨?_, ?_, ?_, ?_, ?_, ?_, ?_, ?_, ?_, ?_, ?_, ?_, ?_, ?_, ?_, ?_⟩ <;>
    (simp only [rops17]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v95]) <;> rfl)

set_option maxHeartbeats 4000000 in
/-- Chunk 18 keeps every live buffer at its stage. -/
theorem st18 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v45 : W (Proc.devRef .tc main_v45) = val_main_v45 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v106 : W (Proc.devRef .tc main_v106) = val_main_v106 (F := F) x1) (h_main_c_30 : W (Proc.devRef .tc main_c_30) = val_main_c_30 (F := F)) (h_main_c_31 : W (Proc.devRef .tc main_c_31) = val_main_c_31 (F := F)) :
    after (rops18 : List (HloOp τ sig (Elt F))) W (Proc.devRef .tc main_arg0) = x0 ∧ after (rops18 : List (HloOp τ sig (Elt F))) W (Proc.devRef .tc main_arg1) = x1 ∧ after (rops18 : List (HloOp τ sig (Elt F))) W (Proc.devRef .tc main_arg2) = x2 ∧ after (rops18 : List (HloOp τ sig (Elt F))) W (Proc.devRef .tc main_arg3) = x3 ∧ after (rops18 : List (HloOp τ sig (Elt F))) W (Proc.devRef .tc main_arg4) = x4 ∧ after (rops18 : List (HloOp τ sig (Elt F))) W (Proc.devRef .tc main_v42) = val_main_v42 (F := F) x1 ∧ after (rops18 : List (HloOp τ sig (Elt F))) W (Proc.devRef .tc main_v48) = val_main_v48 (F := F) x1 ∧ after (rops18 : List (HloOp τ sig (Elt F))) W (Proc.devRef .tc main_v50) = val_main_v50 (F := F) x1 ∧ after (rops18 : List (HloOp τ sig (Elt F))) W (Proc.devRef .tc main_v52) = val_main_v52 (F := F) x1 ∧ after (rops18 : List (HloOp τ sig (Elt F))) W (Proc.devRef .tc main_v53) = val_main_v53 (F := F) x0 ∧ after (rops18 : List (HloOp τ sig (Elt F))) W (Proc.devRef .tc main_v74) = val_main_v74 (F := F) x0 x1 ∧ after (rops18 : List (HloOp τ sig (Elt F))) W (Proc.devRef .tc main_v95) = val_main_v95 (F := F) x0 x1 ∧ after (rops18 : List (HloOp τ sig (Elt F))) W (Proc.devRef .tc main_v106) = val_main_v106 (F := F) x1 ∧ after (rops18 : List (HloOp τ sig (Elt F))) W (Proc.devRef .tc main_v107) = val_main_v107 (F := F) x1 := by
  refine ⟨?_, ?_, ?_, ?_, ?_, ?_, ?_, ?_, ?_, ?_, ?_, ?_, ?_, ?_⟩ <;>
    (simp only [rops18]; after_results_simp <;> (try simp only [TRef.ofBuf, TRef.toBuf, cast_eq]) <;> (try simp only [h_main_arg0, h_main_arg1, h_main_arg2, h_main_arg3, h_main_arg4, h_main_v42, h_main_v45, h_main_v48, h_main_v50, h_main_v52, h_main_v53, h_main_v74, h_main_v95, h_main_v106, h_main_c_30, h_main_c_31]) <;> rfl)

set_option maxHeartbeats 4000000 in
/-- Chunk 19 keeps every live buffer at its stage. -/
theorem st19 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v106 : W (Proc.devRef .tc main_v106) = val_main_v106 (F := F) x1) (h_main_v107 : W (Proc.devRef .tc main_v107) = val_main_v107 (F := F) x1) :
    after (rops19 : List (HloOp τ sig (Elt F))) W (Proc.devRef .tc main_arg0) = x0 ∧ after (rops19 : List (HloOp τ sig (Elt F))) W (Proc.devRef .tc main_arg1) = x1 ∧ after (rops19 : List (HloOp τ sig (Elt F))) W (Proc.devRef .tc main_arg2) = x2 ∧ after (rops19 : List (HloOp τ sig (Elt F))) W (Proc.devRef .tc main_arg3) = x3 ∧ after (rops19 : List (HloOp τ sig (Elt F))) W (Proc.devRef .tc main_arg4) = x4 ∧ after (rops19 : List (HloOp τ sig (Elt F))) W (Proc.devRef .tc main_v42) = val_main_v42 (F := F) x1 ∧ after (rops19 : List (HloOp τ sig (Elt F))) W (Proc.devRef .tc main_v48) = val_main_v48 (F := F) x1 ∧ after (rops19 : List (HloOp τ sig (Elt F))) W (Proc.devRef .tc main_v50) = val_main_v50 (F := F) x1 ∧ after (rops19 : List (HloOp τ sig (Elt F))) W (Proc.devRef .tc main_v52) = val_main_v52 (F := F) x1 ∧ after (rops19 : List (HloOp τ sig (Elt F))) W (Proc.devRef .tc main_v53) = val_main_v53 (F := F) x0 ∧ after (rops19 : List (HloOp τ sig (Elt F))) W (Proc.devRef .tc main_v74) = val_main_v74 (F := F) x0 x1 ∧ after (rops19 : List (HloOp τ sig (Elt F))) W (Proc.devRef .tc main_v95) = val_main_v95 (F := F) x0 x1 ∧ after (rops19 : List (HloOp τ sig (Elt F))) W (Proc.devRef .tc main_v106) = val_main_v106 (F := F) x1 ∧ after (rops19 : List (HloOp τ sig (Elt F))) W (Proc.devRef .tc main_v109) = val_main_v109 (F := F) x1 ∧ after (rops19 : List (HloOp τ sig (Elt F))) W (Proc.devRef .tc main_c_33) = val_main_c_33 (F := F) ∧ after (rops19 : List (HloOp τ sig (Elt F))) W (Proc.devRef .tc main_c_34) = val_main_c_34 (F := F) := by
  refine ⟨?_, ?_, ?_, ?_, ?_, ?_, ?_, ?_, ?_, ?_, ?_, ?_, ?_, ?_, ?_, ?_⟩ <;>
    (simp only [rops19]; after_results_simp <;> (try simp only [TRef.ofBuf, TRef.toBuf, cast_eq]) <;> (try simp only [h_main_arg0, h_main_arg1, h_main_arg2, h_main_arg3, h_main_arg4, h_main_v42, h_main_v48, h_main_v50, h_main_v52, h_main_v53, h_main_v74, h_main_v95, h_main_v106, h_main_v107]) <;> rfl)

set_option maxHeartbeats 4000000 in
/-- Chunk 20 keeps every live buffer at its stage. -/
theorem st20 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v52 : W (Proc.devRef .tc main_v52) = val_main_v52 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v106 : W (Proc.devRef .tc main_v106) = val_main_v106 (F := F) x1) (h_main_v109 : W (Proc.devRef .tc main_v109) = val_main_v109 (F := F) x1) (h_main_c_33 : W (Proc.devRef .tc main_c_33) = val_main_c_33 (F := F)) (h_main_c_34 : W (Proc.devRef .tc main_c_34) = val_main_c_34 (F := F)) :
    after (rops20 : List (HloOp τ sig (Elt F))) W (Proc.devRef .tc main_arg0) = x0 ∧ after (rops20 : List (HloOp τ sig (Elt F))) W (Proc.devRef .tc main_arg1) = x1 ∧ after (rops20 : List (HloOp τ sig (Elt F))) W (Proc.devRef .tc main_arg2) = x2 ∧ after (rops20 : List (HloOp τ sig (Elt F))) W (Proc.devRef .tc main_arg3) = x3 ∧ after (rops20 : List (HloOp τ sig (Elt F))) W (Proc.devRef .tc main_arg4) = x4 ∧ after (rops20 : List (HloOp τ sig (Elt F))) W (Proc.devRef .tc main_v42) = val_main_v42 (F := F) x1 ∧ after (rops20 : List (HloOp τ sig (Elt F))) W (Proc.devRef .tc main_v48) = val_main_v48 (F := F) x1 ∧ after (rops20 : List (HloOp τ sig (Elt F))) W (Proc.devRef .tc main_v50) = val_main_v50 (F := F) x1 ∧ after (rops20 : List (HloOp τ sig (Elt F))) W (Proc.devRef .tc main_v53) = val_main_v53 (F := F) x0 ∧ after (rops20 : List (HloOp τ sig (Elt F))) W (Proc.devRef .tc main_v74) = val_main_v74 (F := F) x0 x1 ∧ after (rops20 : List (HloOp τ sig (Elt F))) W (Proc.devRef .tc main_v95) = val_main_v95 (F := F) x0 x1 ∧ after (rops20 : List (HloOp τ sig (Elt F))) W (Proc.devRef .tc main_v106) = val_main_v106 (F := F) x1 ∧ after (rops20 : List (HloOp τ sig (Elt F))) W (Proc.devRef .tc main_v109) = val_main_v109 (F := F) x1 ∧ after (rops20 : List (HloOp τ sig (Elt F))) W (Proc.devRef .tc main_v110) = val_main_v110 (F := F) x1 := by
  refine ⟨?_, ?_, ?_, ?_, ?_, ?_, ?_, ?_, ?_, ?_, ?_, ?_, ?_, ?_⟩ <;>
    (simp only [rops20]; after_results_simp <;> (try simp only [TRef.ofBuf, TRef.toBuf, cast_eq]) <;> (try simp only [h_main_arg0, h_main_arg1, h_main_arg2, h_main_arg3, h_main_arg4, h_main_v42, h_main_v48, h_main_v50, h_main_v52, h_main_v53, h_main_v74, h_main_v95, h_main_v106, h_main_v109, h_main_c_33, h_main_c_34]) <;> rfl)

set_option maxHeartbeats 4000000 in
/-- Chunk 21 keeps every live buffer at its stage. -/
theorem st21 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v106 : W (Proc.devRef .tc main_v106) = val_main_v106 (F := F) x1) (h_main_v109 : W (Proc.devRef .tc main_v109) = val_main_v109 (F := F) x1) (h_main_v110 : W (Proc.devRef .tc main_v110) = val_main_v110 (F := F) x1) :
    after (rops21 : List (HloOp τ sig (Elt F))) W (Proc.devRef .tc main_arg0) = x0 ∧ after (rops21 : List (HloOp τ sig (Elt F))) W (Proc.devRef .tc main_arg1) = x1 ∧ after (rops21 : List (HloOp τ sig (Elt F))) W (Proc.devRef .tc main_arg2) = x2 ∧ after (rops21 : List (HloOp τ sig (Elt F))) W (Proc.devRef .tc main_arg3) = x3 ∧ after (rops21 : List (HloOp τ sig (Elt F))) W (Proc.devRef .tc main_arg4) = x4 ∧ after (rops21 : List (HloOp τ sig (Elt F))) W (Proc.devRef .tc main_v42) = val_main_v42 (F := F) x1 ∧ after (rops21 : List (HloOp τ sig (Elt F))) W (Proc.devRef .tc main_v48) = val_main_v48 (F := F) x1 ∧ after (rops21 : List (HloOp τ sig (Elt F))) W (Proc.devRef .tc main_v50) = val_main_v50 (F := F) x1 ∧ after (rops21 : List (HloOp τ sig (Elt F))) W (Proc.devRef .tc main_v53) = val_main_v53 (F := F) x0 ∧ after (rops21 : List (HloOp τ sig (Elt F))) W (Proc.devRef .tc main_v74) = val_main_v74 (F := F) x0 x1 ∧ after (rops21 : List (HloOp τ sig (Elt F))) W (Proc.devRef .tc main_v95) = val_main_v95 (F := F) x0 x1 ∧ after (rops21 : List (HloOp τ sig (Elt F))) W (Proc.devRef .tc main_v106) = val_main_v106 (F := F) x1 ∧ after (rops21 : List (HloOp τ sig (Elt F))) W (Proc.devRef .tc main_v112) = val_main_v112 (F := F) x1 := by
  refine ⟨?_, ?_, ?_, ?_, ?_, ?_, ?_, ?_, ?_, ?_, ?_, ?_, ?_⟩ <;>
    (simp only [rops21]; after_results_simp <;> (try simp only [TRef.ofBuf, TRef.toBuf, cast_eq]) <;> (try simp only [h_main_arg0, h_main_arg1, h_main_arg2, h_main_arg3, h_main_arg4, h_main_v42, h_main_v48, h_main_v50, h_main_v53, h_main_v74, h_main_v95, h_main_v106, h_main_v109, h_main_v110]) <;> rfl)

set_option maxHeartbeats 4000000 in
/-- Chunk 22 keeps every live buffer at its stage. -/
theorem st22 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v106 : W (Proc.devRef .tc main_v106) = val_main_v106 (F := F) x1) (h_main_v112 : W (Proc.devRef .tc main_v112) = val_main_v112 (F := F) x1) :
    after (rops22 : List (HloOp τ sig (Elt F))) W (Proc.devRef .tc main_arg0) = x0 ∧ after (rops22 : List (HloOp τ sig (Elt F))) W (Proc.devRef .tc main_arg1) = x1 ∧ after (rops22 : List (HloOp τ sig (Elt F))) W (Proc.devRef .tc main_arg2) = x2 ∧ after (rops22 : List (HloOp τ sig (Elt F))) W (Proc.devRef .tc main_arg3) = x3 ∧ after (rops22 : List (HloOp τ sig (Elt F))) W (Proc.devRef .tc main_arg4) = x4 ∧ after (rops22 : List (HloOp τ sig (Elt F))) W (Proc.devRef .tc main_v42) = val_main_v42 (F := F) x1 ∧ after (rops22 : List (HloOp τ sig (Elt F))) W (Proc.devRef .tc main_v48) = val_main_v48 (F := F) x1 ∧ after (rops22 : List (HloOp τ sig (Elt F))) W (Proc.devRef .tc main_v50) = val_main_v50 (F := F) x1 ∧ after (rops22 : List (HloOp τ sig (Elt F))) W (Proc.devRef .tc main_v53) = val_main_v53 (F := F) x0 ∧ after (rops22 : List (HloOp τ sig (Elt F))) W (Proc.devRef .tc main_v74) = val_main_v74 (F := F) x0 x1 ∧ after (rops22 : List (HloOp τ sig (Elt F))) W (Proc.devRef .tc main_v95) = val_main_v95 (F := F) x0 x1 ∧ after (rops22 : List (HloOp τ sig (Elt F))) W (Proc.devRef .tc main_v106) = val_main_v106 (F := F) x1 ∧ after (rops22 : List (HloOp τ sig (Elt F))) W (Proc.devRef .tc main_v113) = val_main_v113 (F := F) x0 x1 := by
  refine ⟨?_, ?_, ?_, ?_, ?_, ?_, ?_, ?_, ?_, ?_, ?_, ?_, ?_⟩ <;>
    (simp only [rops22]; after_results_simp <;> (try simp only [TRef.ofBuf, TRef.toBuf, cast_eq]) <;> (try simp only [h_main_arg0, h_main_arg1, h_main_arg2, h_main_arg3, h_main_arg4, h_main_v42, h_main_v48, h_main_v50, h_main_v53, h_main_v74, h_main_v95, h_main_v106, h_main_v112]) <;> rfl)

set_option maxHeartbeats 4000000 in
/-- Chunk 23 keeps every live buffer at its stage. -/
theorem st23 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v106 : W (Proc.devRef .tc main_v106) = val_main_v106 (F := F) x1) (h_main_v113 : W (Proc.devRef .tc main_v113) = val_main_v113 (F := F) x0 x1) :
    after (rops23 : List (HloOp τ sig (Elt F))) W (Proc.devRef .tc main_arg0) = x0 ∧ after (rops23 : List (HloOp τ sig (Elt F))) W (Proc.devRef .tc main_arg1) = x1 ∧ after (rops23 : List (HloOp τ sig (Elt F))) W (Proc.devRef .tc main_arg2) = x2 ∧ after (rops23 : List (HloOp τ sig (Elt F))) W (Proc.devRef .tc main_arg3) = x3 ∧ after (rops23 : List (HloOp τ sig (Elt F))) W (Proc.devRef .tc main_arg4) = x4 ∧ after (rops23 : List (HloOp τ sig (Elt F))) W (Proc.devRef .tc main_v42) = val_main_v42 (F := F) x1 ∧ after (rops23 : List (HloOp τ sig (Elt F))) W (Proc.devRef .tc main_v48) = val_main_v48 (F := F) x1 ∧ after (rops23 : List (HloOp τ sig (Elt F))) W (Proc.devRef .tc main_v50) = val_main_v50 (F := F) x1 ∧ after (rops23 : List (HloOp τ sig (Elt F))) W (Proc.devRef .tc main_v53) = val_main_v53 (F := F) x0 ∧ after (rops23 : List (HloOp τ sig (Elt F))) W (Proc.devRef .tc main_v74) = val_main_v74 (F := F) x0 x1 ∧ after (rops23 : List (HloOp τ sig (Elt F))) W (Proc.devRef .tc main_v95) = val_main_v95 (F := F) x0 x1 ∧ after (rops23 : List (HloOp τ sig (Elt F))) W (Proc.devRef .tc main_v114) = val_main_v114 (F := F) x0 x1 ∧ after (rops23 : List (HloOp τ sig (Elt F))) W (Proc.devRef .tc main_v115) = val_main_v115 (F := F) x1 ∧ after (rops23 : List (HloOp τ sig (Elt F))) W (Proc.devRef .tc main_cst_35) = val_main_cst_35 (F := F) := by
  refine ⟨?_, ?_, ?_, ?_, ?_, ?_, ?_, ?_, ?_, ?_, ?_, ?_, ?_, ?_⟩ <;>
    (simp only [rops23]; after_results_simp <;> (try simp only [TRef.ofBuf, TRef.toBuf, cast_eq]) <;> (try simp only [h_main_arg0, h_main_arg1, h_main_arg2, h_main_arg3, h_main_arg4, h_main_v42, h_main_v48, h_main_v50, h_main_v53, h_main_v74, h_main_v95, h_main_v106, h_main_v113]) <;> rfl)

set_option maxHeartbeats 4000000 in
/-- Chunk 24 keeps every live buffer at its stage. -/
theorem st24 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v114 : W (Proc.devRef .tc main_v114) = val_main_v114 (F := F) x0 x1) (h_main_v115 : W (Proc.devRef .tc main_v115) = val_main_v115 (F := F) x1) (h_main_cst_35 : W (Proc.devRef .tc main_cst_35) = val_main_cst_35 (F := F)) :
    after (rops24 : List (HloOp τ sig (Elt F))) W (Proc.devRef .tc main_arg0) = x0 ∧ after (rops24 : List (HloOp τ sig (Elt F))) W (Proc.devRef .tc main_arg1) = x1 ∧ after (rops24 : List (HloOp τ sig (Elt F))) W (Proc.devRef .tc main_arg2) = x2 ∧ after (rops24 : List (HloOp τ sig (Elt F))) W (Proc.devRef .tc main_arg3) = x3 ∧ after (rops24 : List (HloOp τ sig (Elt F))) W (Proc.devRef .tc main_arg4) = x4 ∧ after (rops24 : List (HloOp τ sig (Elt F))) W (Proc.devRef .tc main_v42) = val_main_v42 (F := F) x1 ∧ after (rops24 : List (HloOp τ sig (Elt F))) W (Proc.devRef .tc main_v48) = val_main_v48 (F := F) x1 ∧ after (rops24 : List (HloOp τ sig (Elt F))) W (Proc.devRef .tc main_v50) = val_main_v50 (F := F) x1 ∧ after (rops24 : List (HloOp τ sig (Elt F))) W (Proc.devRef .tc main_v53) = val_main_v53 (F := F) x0 ∧ after (rops24 : List (HloOp τ sig (Elt F))) W (Proc.devRef .tc main_v74) = val_main_v74 (F := F) x0 x1 ∧ after (rops24 : List (HloOp τ sig (Elt F))) W (Proc.devRef .tc main_v95) = val_main_v95 (F := F) x0 x1 ∧ after (rops24 : List (HloOp τ sig (Elt F))) W (Proc.devRef .tc main_v116) = val_main_v116 (F := F) x0 x1 := by
  refine ⟨?_, ?_, ?_, ?_, ?_, ?_, ?_, ?_, ?_, ?_, ?_, ?_⟩ <;>
    (simp only [rops24]; after_results_simp <;> (try simp only [TRef.ofBuf, TRef.toBuf, cast_eq]) <;> (try simp only [h_main_arg0, h_main_arg1, h_main_arg2, h_main_arg3, h_main_arg4, h_main_v42, h_main_v48, h_main_v50, h_main_v53, h_main_v74, h_main_v95, h_main_v114, h_main_v115, h_main_cst_35]) <;> rfl)

set_option maxHeartbeats 4000000 in
/-- Chunk 25 keeps every live buffer at its stage. -/
theorem st25 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) :
    after (rops25 : List (HloOp τ sig (Elt F))) W (Proc.devRef .tc main_arg0) = x0 ∧ after (rops25 : List (HloOp τ sig (Elt F))) W (Proc.devRef .tc main_arg1) = x1 ∧ after (rops25 : List (HloOp τ sig (Elt F))) W (Proc.devRef .tc main_arg2) = x2 ∧ after (rops25 : List (HloOp τ sig (Elt F))) W (Proc.devRef .tc main_arg3) = x3 ∧ after (rops25 : List (HloOp τ sig (Elt F))) W (Proc.devRef .tc main_arg4) = x4 ∧ after (rops25 : List (HloOp τ sig (Elt F))) W (Proc.devRef .tc main_v42) = val_main_v42 (F := F) x1 ∧ after (rops25 : List (HloOp τ sig (Elt F))) W (Proc.devRef .tc main_v48) = val_main_v48 (F := F) x1 ∧ after (rops25 : List (HloOp τ sig (Elt F))) W (Proc.devRef .tc main_v50) = val_main_v50 (F := F) x1 ∧ after (rops25 : List (HloOp τ sig (Elt F))) W (Proc.devRef .tc main_v53) = val_main_v53 (F := F) x0 ∧ after (rops25 : List (HloOp τ sig (Elt F))) W (Proc.devRef .tc main_v74) = val_main_v74 (F := F) x0 x1 ∧ after (rops25 : List (HloOp τ sig (Elt F))) W (Proc.devRef .tc main_v95) = val_main_v95 (F := F) x0 x1 ∧ after (rops25 : List (HloOp τ sig (Elt F))) W (Proc.devRef .tc main_v116) = val_main_v116 (F := F) x0 x1 ∧ after (rops25 : List (HloOp τ sig (Elt F))) W (Proc.devRef .tc main_v127) = val_main_v127 (F := F) x1 ∧ after (rops25 : List (HloOp τ sig (Elt F))) W (Proc.devRef .tc main_c_40) = val_main_c_40 (F := F) ∧ after (rops25 : List (HloOp τ sig (Elt F))) W (Proc.devRef .tc main_c_41) = val_main_c_41 (F := F) := by
  refine ⟨?_, ?_, ?_, ?_, ?_, ?_, ?_, ?_, ?_, ?_, ?_, ?_, ?_, ?_, ?_⟩ <;>
    (simp only [rops25]; after_results_simp <;> (try simp only [TRef.ofBuf, TRef.toBuf, cast_eq]) <;> (try simp only [h_main_arg0, h_main_arg1, h_main_arg2, h_main_arg3, h_main_arg4, h_main_v42, h_main_v48, h_main_v50, h_main_v53, h_main_v74, h_main_v95, h_main_v116]) <;> rfl)

set_option maxHeartbeats 4000000 in
/-- Chunk 26 keeps every live buffer at its stage. -/
theorem st26 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v50 : W (Proc.devRef .tc main_v50) = val_main_v50 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v127 : W (Proc.devRef .tc main_v127) = val_main_v127 (F := F) x1) (h_main_c_40 : W (Proc.devRef .tc main_c_40) = val_main_c_40 (F := F)) (h_main_c_41 : W (Proc.devRef .tc main_c_41) = val_main_c_41 (F := F)) :
    after (rops26 : List (HloOp τ sig (Elt F))) W (Proc.devRef .tc main_arg0) = x0 ∧ after (rops26 : List (HloOp τ sig (Elt F))) W (Proc.devRef .tc main_arg1) = x1 ∧ after (rops26 : List (HloOp τ sig (Elt F))) W (Proc.devRef .tc main_arg2) = x2 ∧ after (rops26 : List (HloOp τ sig (Elt F))) W (Proc.devRef .tc main_arg3) = x3 ∧ after (rops26 : List (HloOp τ sig (Elt F))) W (Proc.devRef .tc main_arg4) = x4 ∧ after (rops26 : List (HloOp τ sig (Elt F))) W (Proc.devRef .tc main_v42) = val_main_v42 (F := F) x1 ∧ after (rops26 : List (HloOp τ sig (Elt F))) W (Proc.devRef .tc main_v48) = val_main_v48 (F := F) x1 ∧ after (rops26 : List (HloOp τ sig (Elt F))) W (Proc.devRef .tc main_v53) = val_main_v53 (F := F) x0 ∧ after (rops26 : List (HloOp τ sig (Elt F))) W (Proc.devRef .tc main_v74) = val_main_v74 (F := F) x0 x1 ∧ after (rops26 : List (HloOp τ sig (Elt F))) W (Proc.devRef .tc main_v95) = val_main_v95 (F := F) x0 x1 ∧ after (rops26 : List (HloOp τ sig (Elt F))) W (Proc.devRef .tc main_v116) = val_main_v116 (F := F) x0 x1 ∧ after (rops26 : List (HloOp τ sig (Elt F))) W (Proc.devRef .tc main_v127) = val_main_v127 (F := F) x1 ∧ after (rops26 : List (HloOp τ sig (Elt F))) W (Proc.devRef .tc main_v128) = val_main_v128 (F := F) x1 := by
  refine ⟨?_, ?_, ?_, ?_, ?_, ?_, ?_, ?_, ?_, ?_, ?_, ?_, ?_⟩ <;>
    (simp only [rops26]; after_results_simp <;> (try simp only [TRef.ofBuf, TRef.toBuf, cast_eq]) <;> (try simp only [h_main_arg0, h_main_arg1, h_main_arg2, h_main_arg3, h_main_arg4, h_main_v42, h_main_v48, h_main_v50, h_main_v53, h_main_v74, h_main_v95, h_main_v116, h_main_v127, h_main_c_40, h_main_c_41]) <;> rfl)

set_option maxHeartbeats 4000000 in
/-- Chunk 27 keeps every live buffer at its stage. -/
theorem st27 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v127 : W (Proc.devRef .tc main_v127) = val_main_v127 (F := F) x1) (h_main_v128 : W (Proc.devRef .tc main_v128) = val_main_v128 (F := F) x1) :
    after (rops27 : List (HloOp τ sig (Elt F))) W (Proc.devRef .tc main_arg0) = x0 ∧ after (rops27 : List (HloOp τ sig (Elt F))) W (Proc.devRef .tc main_arg1) = x1 ∧ after (rops27 : List (HloOp τ sig (Elt F))) W (Proc.devRef .tc main_arg2) = x2 ∧ after (rops27 : List (HloOp τ sig (Elt F))) W (Proc.devRef .tc main_arg3) = x3 ∧ after (rops27 : List (HloOp τ sig (Elt F))) W (Proc.devRef .tc main_arg4) = x4 ∧ after (rops27 : List (HloOp τ sig (Elt F))) W (Proc.devRef .tc main_v42) = val_main_v42 (F := F) x1 ∧ after (rops27 : List (HloOp τ sig (Elt F))) W (Proc.devRef .tc main_v48) = val_main_v48 (F := F) x1 ∧ after (rops27 : List (HloOp τ sig (Elt F))) W (Proc.devRef .tc main_v53) = val_main_v53 (F := F) x0 ∧ after (rops27 : List (HloOp τ sig (Elt F))) W (Proc.devRef .tc main_v74) = val_main_v74 (F := F) x0 x1 ∧ after (rops27 : List (HloOp τ sig (Elt F))) W (Proc.devRef .tc main_v95) = val_main_v95 (F := F) x0 x1 ∧ after (rops27 : List (HloOp τ sig (Elt F))) W (Proc.devRef .tc main_v116) = val_main_v116 (F := F) x0 x1 ∧ after (rops27 : List (HloOp τ sig (Elt F))) W (Proc.devRef .tc main_v127) = val_main_v127 (F := F) x1 ∧ after (rops27 : List (HloOp τ sig (Elt F))) W (Proc.devRef .tc main_v130) = val_main_v130 (F := F) x1 ∧ after (rops27 : List (HloOp τ sig (Elt F))) W (Proc.devRef .tc main_c_43) = val_main_c_43 (F := F) ∧ after (rops27 : List (HloOp τ sig (Elt F))) W (Proc.devRef .tc main_c_44) = val_main_c_44 (F := F) := by
  refine ⟨?_, ?_, ?_, ?_, ?_, ?_, ?_, ?_, ?_, ?_, ?_, ?_, ?_, ?_, ?_⟩ <;>
    (simp only [rops27]; after_results_simp <;> (try simp only [TRef.ofBuf, TRef.toBuf, cast_eq]) <;> (try simp only [h_main_arg0, h_main_arg1, h_main_arg2, h_main_arg3, h_main_arg4, h_main_v42, h_main_v48, h_main_v53, h_main_v74, h_main_v95, h_main_v116, h_main_v127, h_main_v128]) <;> rfl)

set_option maxHeartbeats 4000000 in
/-- Chunk 28 keeps every live buffer at its stage. -/
theorem st28 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v48 : W (Proc.devRef .tc main_v48) = val_main_v48 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v127 : W (Proc.devRef .tc main_v127) = val_main_v127 (F := F) x1) (h_main_v130 : W (Proc.devRef .tc main_v130) = val_main_v130 (F := F) x1) (h_main_c_43 : W (Proc.devRef .tc main_c_43) = val_main_c_43 (F := F)) (h_main_c_44 : W (Proc.devRef .tc main_c_44) = val_main_c_44 (F := F)) :
    after (rops28 : List (HloOp τ sig (Elt F))) W (Proc.devRef .tc main_arg0) = x0 ∧ after (rops28 : List (HloOp τ sig (Elt F))) W (Proc.devRef .tc main_arg1) = x1 ∧ after (rops28 : List (HloOp τ sig (Elt F))) W (Proc.devRef .tc main_arg2) = x2 ∧ after (rops28 : List (HloOp τ sig (Elt F))) W (Proc.devRef .tc main_arg3) = x3 ∧ after (rops28 : List (HloOp τ sig (Elt F))) W (Proc.devRef .tc main_arg4) = x4 ∧ after (rops28 : List (HloOp τ sig (Elt F))) W (Proc.devRef .tc main_v42) = val_main_v42 (F := F) x1 ∧ after (rops28 : List (HloOp τ sig (Elt F))) W (Proc.devRef .tc main_v53) = val_main_v53 (F := F) x0 ∧ after (rops28 : List (HloOp τ sig (Elt F))) W (Proc.devRef .tc main_v74) = val_main_v74 (F := F) x0 x1 ∧ after (rops28 : List (HloOp τ sig (Elt F))) W (Proc.devRef .tc main_v95) = val_main_v95 (F := F) x0 x1 ∧ after (rops28 : List (HloOp τ sig (Elt F))) W (Proc.devRef .tc main_v116) = val_main_v116 (F := F) x0 x1 ∧ after (rops28 : List (HloOp τ sig (Elt F))) W (Proc.devRef .tc main_v127) = val_main_v127 (F := F) x1 ∧ after (rops28 : List (HloOp τ sig (Elt F))) W (Proc.devRef .tc main_v130) = val_main_v130 (F := F) x1 ∧ after (rops28 : List (HloOp τ sig (Elt F))) W (Proc.devRef .tc main_v131) = val_main_v131 (F := F) x1 := by
  refine ⟨?_, ?_, ?_, ?_, ?_, ?_, ?_, ?_, ?_, ?_, ?_, ?_, ?_⟩ <;>
    (simp only [rops28]; after_results_simp <;> (try simp only [TRef.ofBuf, TRef.toBuf, cast_eq]) <;> (try simp only [h_main_arg0, h_main_arg1, h_main_arg2, h_main_arg3, h_main_arg4, h_main_v42, h_main_v48, h_main_v53, h_main_v74, h_main_v95, h_main_v116, h_main_v127, h_main_v130, h_main_c_43, h_main_c_44]) <;> rfl)

set_option maxHeartbeats 4000000 in
/-- Chunk 29 keeps every live buffer at its stage. -/
theorem st29 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v127 : W (Proc.devRef .tc main_v127) = val_main_v127 (F := F) x1) (h_main_v130 : W (Proc.devRef .tc main_v130) = val_main_v130 (F := F) x1) (h_main_v131 : W (Proc.devRef .tc main_v131) = val_main_v131 (F := F) x1) :
    after (rops29 : List (HloOp τ sig (Elt F))) W (Proc.devRef .tc main_arg0) = x0 ∧ after (rops29 : List (HloOp τ sig (Elt F))) W (Proc.devRef .tc main_arg1) = x1 ∧ after (rops29 : List (HloOp τ sig (Elt F))) W (Proc.devRef .tc main_arg2) = x2 ∧ after (rops29 : List (HloOp τ sig (Elt F))) W (Proc.devRef .tc main_arg3) = x3 ∧ after (rops29 : List (HloOp τ sig (Elt F))) W (Proc.devRef .tc main_arg4) = x4 ∧ after (rops29 : List (HloOp τ sig (Elt F))) W (Proc.devRef .tc main_v42) = val_main_v42 (F := F) x1 ∧ after (rops29 : List (HloOp τ sig (Elt F))) W (Proc.devRef .tc main_v53) = val_main_v53 (F := F) x0 ∧ after (rops29 : List (HloOp τ sig (Elt F))) W (Proc.devRef .tc main_v74) = val_main_v74 (F := F) x0 x1 ∧ after (rops29 : List (HloOp τ sig (Elt F))) W (Proc.devRef .tc main_v95) = val_main_v95 (F := F) x0 x1 ∧ after (rops29 : List (HloOp τ sig (Elt F))) W (Proc.devRef .tc main_v116) = val_main_v116 (F := F) x0 x1 ∧ after (rops29 : List (HloOp τ sig (Elt F))) W (Proc.devRef .tc main_v127) = val_main_v127 (F := F) x1 ∧ after (rops29 : List (HloOp τ sig (Elt F))) W (Proc.devRef .tc main_v133) = val_main_v133 (F := F) x1 := by
  refine ⟨?_, ?_, ?_, ?_, ?_, ?_, ?_, ?_, ?_, ?_, ?_, ?_⟩ <;>
    (simp only [rops29]; after_results_simp <;> (try simp only [TRef.ofBuf, TRef.toBuf, cast_eq]) <;> (try simp only [h_main_arg0, h_main_arg1, h_main_arg2, h_main_arg3, h_main_arg4, h_main_v42, h_main_v53, h_main_v74, h_main_v95, h_main_v116, h_main_v127, h_main_v130, h_main_v131]) <;> rfl)

set_option maxHeartbeats 4000000 in
/-- Chunk 30 keeps every live buffer at its stage. -/
theorem st30 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v53 : W (Proc.devRef .tc main_v53) = val_main_v53 (F := F) x0) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v127 : W (Proc.devRef .tc main_v127) = val_main_v127 (F := F) x1) (h_main_v133 : W (Proc.devRef .tc main_v133) = val_main_v133 (F := F) x1) :
    after (rops30 : List (HloOp τ sig (Elt F))) W (Proc.devRef .tc main_arg0) = x0 ∧ after (rops30 : List (HloOp τ sig (Elt F))) W (Proc.devRef .tc main_arg1) = x1 ∧ after (rops30 : List (HloOp τ sig (Elt F))) W (Proc.devRef .tc main_arg2) = x2 ∧ after (rops30 : List (HloOp τ sig (Elt F))) W (Proc.devRef .tc main_arg3) = x3 ∧ after (rops30 : List (HloOp τ sig (Elt F))) W (Proc.devRef .tc main_arg4) = x4 ∧ after (rops30 : List (HloOp τ sig (Elt F))) W (Proc.devRef .tc main_v42) = val_main_v42 (F := F) x1 ∧ after (rops30 : List (HloOp τ sig (Elt F))) W (Proc.devRef .tc main_v74) = val_main_v74 (F := F) x0 x1 ∧ after (rops30 : List (HloOp τ sig (Elt F))) W (Proc.devRef .tc main_v95) = val_main_v95 (F := F) x0 x1 ∧ after (rops30 : List (HloOp τ sig (Elt F))) W (Proc.devRef .tc main_v116) = val_main_v116 (F := F) x0 x1 ∧ after (rops30 : List (HloOp τ sig (Elt F))) W (Proc.devRef .tc main_v127) = val_main_v127 (F := F) x1 ∧ after (rops30 : List (HloOp τ sig (Elt F))) W (Proc.devRef .tc main_v134) = val_main_v134 (F := F) x0 x1 := by
  refine ⟨?_, ?_, ?_, ?_, ?_, ?_, ?_, ?_, ?_, ?_, ?_⟩ <;>
    (simp only [rops30]; after_results_simp <;> (try simp only [TRef.ofBuf, TRef.toBuf, cast_eq]) <;> (try simp only [h_main_arg0, h_main_arg1, h_main_arg2, h_main_arg3, h_main_arg4, h_main_v42, h_main_v53, h_main_v74, h_main_v95, h_main_v116, h_main_v127, h_main_v133]) <;> rfl)

set_option maxHeartbeats 4000000 in
/-- Chunk 31 keeps every live buffer at its stage. -/
theorem st31 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v127 : W (Proc.devRef .tc main_v127) = val_main_v127 (F := F) x1) (h_main_v134 : W (Proc.devRef .tc main_v134) = val_main_v134 (F := F) x0 x1) :
    after (rops31 : List (HloOp τ sig (Elt F))) W (Proc.devRef .tc main_arg0) = x0 ∧ after (rops31 : List (HloOp τ sig (Elt F))) W (Proc.devRef .tc main_arg1) = x1 ∧ after (rops31 : List (HloOp τ sig (Elt F))) W (Proc.devRef .tc main_arg2) = x2 ∧ after (rops31 : List (HloOp τ sig (Elt F))) W (Proc.devRef .tc main_arg3) = x3 ∧ after (rops31 : List (HloOp τ sig (Elt F))) W (Proc.devRef .tc main_arg4) = x4 ∧ after (rops31 : List (HloOp τ sig (Elt F))) W (Proc.devRef .tc main_v42) = val_main_v42 (F := F) x1 ∧ after (rops31 : List (HloOp τ sig (Elt F))) W (Proc.devRef .tc main_v74) = val_main_v74 (F := F) x0 x1 ∧ after (rops31 : List (HloOp τ sig (Elt F))) W (Proc.devRef .tc main_v95) = val_main_v95 (F := F) x0 x1 ∧ after (rops31 : List (HloOp τ sig (Elt F))) W (Proc.devRef .tc main_v116) = val_main_v116 (F := F) x0 x1 ∧ after (rops31 : List (HloOp τ sig (Elt F))) W (Proc.devRef .tc main_v135) = val_main_v135 (F := F) x0 x1 ∧ after (rops31 : List (HloOp τ sig (Elt F))) W (Proc.devRef .tc main_v136) = val_main_v136 (F := F) x1 ∧ after (rops31 : List (HloOp τ sig (Elt F))) W (Proc.devRef .tc main_cst_45) = val_main_cst_45 (F := F) := by
  refine ⟨?_, ?_, ?_, ?_, ?_, ?_, ?_, ?_, ?_, ?_, ?_, ?_⟩ <;>
    (simp only [rops31]; after_results_simp <;> (try simp only [TRef.ofBuf, TRef.toBuf, cast_eq]) <;> (try simp only [h_main_arg0, h_main_arg1, h_main_arg2, h_main_arg3, h_main_arg4, h_main_v42, h_main_v74, h_main_v95, h_main_v116, h_main_v127, h_main_v134]) <;> rfl)

set_option maxHeartbeats 4000000 in
/-- Chunk 32 keeps every live buffer at its stage. -/
theorem st32 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v135 : W (Proc.devRef .tc main_v135) = val_main_v135 (F := F) x0 x1) (h_main_v136 : W (Proc.devRef .tc main_v136) = val_main_v136 (F := F) x1) (h_main_cst_45 : W (Proc.devRef .tc main_cst_45) = val_main_cst_45 (F := F)) :
    after (rops32 : List (HloOp τ sig (Elt F))) W (Proc.devRef .tc main_arg0) = x0 ∧ after (rops32 : List (HloOp τ sig (Elt F))) W (Proc.devRef .tc main_arg1) = x1 ∧ after (rops32 : List (HloOp τ sig (Elt F))) W (Proc.devRef .tc main_arg2) = x2 ∧ after (rops32 : List (HloOp τ sig (Elt F))) W (Proc.devRef .tc main_arg3) = x3 ∧ after (rops32 : List (HloOp τ sig (Elt F))) W (Proc.devRef .tc main_arg4) = x4 ∧ after (rops32 : List (HloOp τ sig (Elt F))) W (Proc.devRef .tc main_v42) = val_main_v42 (F := F) x1 ∧ after (rops32 : List (HloOp τ sig (Elt F))) W (Proc.devRef .tc main_v74) = val_main_v74 (F := F) x0 x1 ∧ after (rops32 : List (HloOp τ sig (Elt F))) W (Proc.devRef .tc main_v95) = val_main_v95 (F := F) x0 x1 ∧ after (rops32 : List (HloOp τ sig (Elt F))) W (Proc.devRef .tc main_v116) = val_main_v116 (F := F) x0 x1 ∧ after (rops32 : List (HloOp τ sig (Elt F))) W (Proc.devRef .tc main_v137) = val_main_v137 (F := F) x0 x1 := by
  refine ⟨?_, ?_, ?_, ?_, ?_, ?_, ?_, ?_, ?_, ?_⟩ <;>
    (simp only [rops32]; after_results_simp <;> (try simp only [TRef.ofBuf, TRef.toBuf, cast_eq]) <;> (try simp only [h_main_arg0, h_main_arg1, h_main_arg2, h_main_arg3, h_main_arg4, h_main_v42, h_main_v74, h_main_v95, h_main_v116, h_main_v135, h_main_v136, h_main_cst_45]) <;> rfl)

set_option maxHeartbeats 4000000 in
/-- Chunk 33 keeps every live buffer at its stage. -/
theorem st33 (W : Valuation τ sig (Elt F)) (x0 : (⟨S8x256x56x56, .f32⟩ : BufTy).Contents (Elt F)) (x1 : (⟨S8x18x56x56, .f32⟩ : BufTy).Contents (Elt F)) (x2 : (⟨S8x9x56x56, .f32⟩ : BufTy).Contents (Elt F)) (x3 : (⟨S256x256x3x3, .f32⟩ : BufTy).Contents (Elt F)) (x4 : (⟨S256, .f32⟩ : BufTy).Contents (Elt F)) (h_main_arg0 : W (Proc.devRef .tc main_arg0) = x0) (h_main_arg1 : W (Proc.devRef .tc main_arg1) = x1) (h_main_arg2 : W (Proc.devRef .tc main_arg2) = x2) (h_main_arg3 : W (Proc.devRef .tc main_arg3) = x3) (h_main_arg4 : W (Proc.devRef .tc main_arg4) = x4) (h_main_v42 : W (Proc.devRef .tc main_v42) = val_main_v42 (F := F) x1) (h_main_v74 : W (Proc.devRef .tc main_v74) = val_main_v74 (F := F) x0 x1) (h_main_v95 : W (Proc.devRef .tc main_v95) = val_main_v95 (F := F) x0 x1) (h_main_v116 : W (Proc.devRef .tc main_v116) = val_main_v116 (F := F) x0 x1) (h_main_v137 : W (Proc.devRef .tc main_v137) = val_main_v137 (F := F) x0 x1) :
    after (rops33 : List (HloOp τ sig (Elt F))) W (Proc.devRef .tc main_arg0) = x0 ∧ after (rops33 : List (HloOp τ sig (Elt F))) W (Proc.devRef .tc main_arg1) = x1 ∧ after (rops33 : List (HloOp τ sig (Elt F))) W (Proc.devRef .tc main_arg2) = x2 ∧ after (rops33 : List (HloOp τ sig (Elt F))) W (Proc.devRef .tc main_arg3) = x3 ∧ after (rops33 : List (HloOp τ sig (Elt F))) W (Proc.devRef .tc main_arg4) = x4 ∧ after (rops33 : List (HloOp τ sig (Elt F))) W (Proc.devRef .tc main_v169) = val_main_v169 (F := F) x0 x1 x2 x3 x4 := by
  refine ⟨?_, ?_, ?_, ?_, ?_, ?_⟩ <;>
    (simp only [rops33]; after_results_simp <;> (try simp only [TRef.ofBuf, TRef.toBuf, cast_eq]) <;> (try simp only [h_main_arg0, h_main_arg1, h_main_arg2, h_main_arg3, h_main_arg4, h_main_v42, h_main_v74, h_main_v95, h_main_v116, h_main_v137]) <;> rfl)

variable (m : (ℓ : Loc nD τ sig) → Buf (Elt F) ℓ)

/-- The contents after the first k + 1 chunks, from the launch contents. -/
def Wk0 (c : Dev nD) : Valuation τ sig (Elt F) := after (rops0 : List (HloOp τ sig (Elt F))) (launchContents m c)
def Wk1 (c : Dev nD) : Valuation τ sig (Elt F) := after (rops1 : List (HloOp τ sig (Elt F))) (Wk0 m c)
def Wk2 (c : Dev nD) : Valuation τ sig (Elt F) := after (rops2 : List (HloOp τ sig (Elt F))) (Wk1 m c)
def Wk3 (c : Dev nD) : Valuation τ sig (Elt F) := after (rops3 : List (HloOp τ sig (Elt F))) (Wk2 m c)
def Wk4 (c : Dev nD) : Valuation τ sig (Elt F) := after (rops4 : List (HloOp τ sig (Elt F))) (Wk3 m c)
def Wk5 (c : Dev nD) : Valuation τ sig (Elt F) := after (rops5 : List (HloOp τ sig (Elt F))) (Wk4 m c)
def Wk6 (c : Dev nD) : Valuation τ sig (Elt F) := after (rops6 : List (HloOp τ sig (Elt F))) (Wk5 m c)
def Wk7 (c : Dev nD) : Valuation τ sig (Elt F) := after (rops7 : List (HloOp τ sig (Elt F))) (Wk6 m c)
def Wk8 (c : Dev nD) : Valuation τ sig (Elt F) := after (rops8 : List (HloOp τ sig (Elt F))) (Wk7 m c)
def Wk9 (c : Dev nD) : Valuation τ sig (Elt F) := after (rops9 : List (HloOp τ sig (Elt F))) (Wk8 m c)
def Wk10 (c : Dev nD) : Valuation τ sig (Elt F) := after (rops10 : List (HloOp τ sig (Elt F))) (Wk9 m c)
def Wk11 (c : Dev nD) : Valuation τ sig (Elt F) := after (rops11 : List (HloOp τ sig (Elt F))) (Wk10 m c)
def Wk12 (c : Dev nD) : Valuation τ sig (Elt F) := after (rops12 : List (HloOp τ sig (Elt F))) (Wk11 m c)
def Wk13 (c : Dev nD) : Valuation τ sig (Elt F) := after (rops13 : List (HloOp τ sig (Elt F))) (Wk12 m c)
def Wk14 (c : Dev nD) : Valuation τ sig (Elt F) := after (rops14 : List (HloOp τ sig (Elt F))) (Wk13 m c)
def Wk15 (c : Dev nD) : Valuation τ sig (Elt F) := after (rops15 : List (HloOp τ sig (Elt F))) (Wk14 m c)
def Wk16 (c : Dev nD) : Valuation τ sig (Elt F) := after (rops16 : List (HloOp τ sig (Elt F))) (Wk15 m c)
def Wk17 (c : Dev nD) : Valuation τ sig (Elt F) := after (rops17 : List (HloOp τ sig (Elt F))) (Wk16 m c)
def Wk18 (c : Dev nD) : Valuation τ sig (Elt F) := after (rops18 : List (HloOp τ sig (Elt F))) (Wk17 m c)
def Wk19 (c : Dev nD) : Valuation τ sig (Elt F) := after (rops19 : List (HloOp τ sig (Elt F))) (Wk18 m c)
def Wk20 (c : Dev nD) : Valuation τ sig (Elt F) := after (rops20 : List (HloOp τ sig (Elt F))) (Wk19 m c)
def Wk21 (c : Dev nD) : Valuation τ sig (Elt F) := after (rops21 : List (HloOp τ sig (Elt F))) (Wk20 m c)
def Wk22 (c : Dev nD) : Valuation τ sig (Elt F) := after (rops22 : List (HloOp τ sig (Elt F))) (Wk21 m c)
def Wk23 (c : Dev nD) : Valuation τ sig (Elt F) := after (rops23 : List (HloOp τ sig (Elt F))) (Wk22 m c)
def Wk24 (c : Dev nD) : Valuation τ sig (Elt F) := after (rops24 : List (HloOp τ sig (Elt F))) (Wk23 m c)
def Wk25 (c : Dev nD) : Valuation τ sig (Elt F) := after (rops25 : List (HloOp τ sig (Elt F))) (Wk24 m c)
def Wk26 (c : Dev nD) : Valuation τ sig (Elt F) := after (rops26 : List (HloOp τ sig (Elt F))) (Wk25 m c)
def Wk27 (c : Dev nD) : Valuation τ sig (Elt F) := after (rops27 : List (HloOp τ sig (Elt F))) (Wk26 m c)
def Wk28 (c : Dev nD) : Valuation τ sig (Elt F) := after (rops28 : List (HloOp τ sig (Elt F))) (Wk27 m c)
def Wk29 (c : Dev nD) : Valuation τ sig (Elt F) := after (rops29 : List (HloOp τ sig (Elt F))) (Wk28 m c)
def Wk30 (c : Dev nD) : Valuation τ sig (Elt F) := after (rops30 : List (HloOp τ sig (Elt F))) (Wk29 m c)
def Wk31 (c : Dev nD) : Valuation τ sig (Elt F) := after (rops31 : List (HloOp τ sig (Elt F))) (Wk30 m c)
def Wk32 (c : Dev nD) : Valuation τ sig (Elt F) := after (rops32 : List (HloOp τ sig (Elt F))) (Wk31 m c)
def Wk33 (c : Dev nD) : Valuation τ sig (Elt F) := after (rops33 : List (HloOp τ sig (Elt F))) (Wk32 m c)

theorem live0 (c : Dev nD) : Wk0 m c (Proc.devRef .tc main_arg0) = m ((c.tc : Thread nD τ).loc main_arg0) ∧ Wk0 m c (Proc.devRef .tc main_arg1) = m ((c.tc : Thread nD τ).loc main_arg1) ∧ Wk0 m c (Proc.devRef .tc main_arg2) = m ((c.tc : Thread nD τ).loc main_arg2) ∧ Wk0 m c (Proc.devRef .tc main_arg3) = m ((c.tc : Thread nD τ).loc main_arg3) ∧ Wk0 m c (Proc.devRef .tc main_arg4) = m ((c.tc : Thread nD τ).loc main_arg4) ∧ Wk0 m c (Proc.devRef .tc main_v35) = val_main_v35 (F := F) := by
  exact st0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) rfl rfl rfl rfl rfl

theorem live1 (c : Dev nD) : Wk1 m c (Proc.devRef .tc main_arg0) = m ((c.tc : Thread nD τ).loc main_arg0) ∧ Wk1 m c (Proc.devRef .tc main_arg1) = m ((c.tc : Thread nD τ).loc main_arg1) ∧ Wk1 m c (Proc.devRef .tc main_arg2) = m ((c.tc : Thread nD τ).loc main_arg2) ∧ Wk1 m c (Proc.devRef .tc main_arg3) = m ((c.tc : Thread nD τ).loc main_arg3) ∧ Wk1 m c (Proc.devRef .tc main_arg4) = m ((c.tc : Thread nD τ).loc main_arg4) ∧ Wk1 m c (Proc.devRef .tc main_v42) = val_main_v42 (F := F) (m ((c.tc : Thread nD τ).loc main_arg1)) ∧ Wk1 m c (Proc.devRef .tc main_v45) = val_main_v45 (F := F) (m ((c.tc : Thread nD τ).loc main_arg1)) ∧ Wk1 m c (Proc.devRef .tc main_v48) = val_main_v48 (F := F) (m ((c.tc : Thread nD τ).loc main_arg1)) ∧ Wk1 m c (Proc.devRef .tc main_v50) = val_main_v50 (F := F) (m ((c.tc : Thread nD τ).loc main_arg1)) ∧ Wk1 m c (Proc.devRef .tc main_v52) = val_main_v52 (F := F) (m ((c.tc : Thread nD τ).loc main_arg1)) ∧ Wk1 m c (Proc.devRef .tc main_v53) = val_main_v53 (F := F) (m ((c.tc : Thread nD τ).loc main_arg0)) ∧ Wk1 m c (Proc.devRef .tc main_v64) = val_main_v64 (F := F) (m ((c.tc : Thread nD τ).loc main_arg1)) ∧ Wk1 m c (Proc.devRef .tc main_c_11) = val_main_c_11 (F := F) ∧ Wk1 m c (Proc.devRef .tc main_c_12) = val_main_c_12 (F := F) := by
  exact st1 (Wk0 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live0 m c).1 (live0 m c).2.1 (live0 m c).2.2.1 (live0 m c).2.2.2.1 (live0 m c).2.2.2.2.1 (live0 m c).2.2.2.2.2

theorem live2 (c : Dev nD) : Wk2 m c (Proc.devRef .tc main_arg0) = m ((c.tc : Thread nD τ).loc main_arg0) ∧ Wk2 m c (Proc.devRef .tc main_arg1) = m ((c.tc : Thread nD τ).loc main_arg1) ∧ Wk2 m c (Proc.devRef .tc main_arg2) = m ((c.tc : Thread nD τ).loc main_arg2) ∧ Wk2 m c (Proc.devRef .tc main_arg3) = m ((c.tc : Thread nD τ).loc main_arg3) ∧ Wk2 m c (Proc.devRef .tc main_arg4) = m ((c.tc : Thread nD τ).loc main_arg4) ∧ Wk2 m c (Proc.devRef .tc main_v42) = val_main_v42 (F := F) (m ((c.tc : Thread nD τ).loc main_arg1)) ∧ Wk2 m c (Proc.devRef .tc main_v45) = val_main_v45 (F := F) (m ((c.tc : Thread nD τ).loc main_arg1)) ∧ Wk2 m c (Proc.devRef .tc main_v48) = val_main_v48 (F := F) (m ((c.tc : Thread nD τ).loc main_arg1)) ∧ Wk2 m c (Proc.devRef .tc main_v50) = val_main_v50 (F := F) (m ((c.tc : Thread nD τ).loc main_arg1)) ∧ Wk2 m c (Proc.devRef .tc main_v52) = val_main_v52 (F := F) (m ((c.tc : Thread nD τ).loc main_arg1)) ∧ Wk2 m c (Proc.devRef .tc main_v53) = val_main_v53 (F := F) (m ((c.tc : Thread nD τ).loc main_arg0)) ∧ Wk2 m c (Proc.devRef .tc main_v64) = val_main_v64 (F := F) (m ((c.tc : Thread nD τ).loc main_arg1)) ∧ Wk2 m c (Proc.devRef .tc main_v65) = val_main_v65 (F := F) (m ((c.tc : Thread nD τ).loc main_arg1)) := by
  exact st2 (Wk1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live1 m c).1 (live1 m c).2.1 (live1 m c).2.2.1 (live1 m c).2.2.2.1 (live1 m c).2.2.2.2.1 (live1 m c).2.2.2.2.2.1 (live1 m c).2.2.2.2.2.2.1 (live1 m c).2.2.2.2.2.2.2.1 (live1 m c).2.2.2.2.2.2.2.2.1 (live1 m c).2.2.2.2.2.2.2.2.2.1 (live1 m c).2.2.2.2.2.2.2.2.2.2.1 (live1 m c).2.2.2.2.2.2.2.2.2.2.2.1 (live1 m c).2.2.2.2.2.2.2.2.2.2.2.2.1 (live1 m c).2.2.2.2.2.2.2.2.2.2.2.2.2

theorem live3 (c : Dev nD) : Wk3 m c (Proc.devRef .tc main_arg0) = m ((c.tc : Thread nD τ).loc main_arg0) ∧ Wk3 m c (Proc.devRef .tc main_arg1) = m ((c.tc : Thread nD τ).loc main_arg1) ∧ Wk3 m c (Proc.devRef .tc main_arg2) = m ((c.tc : Thread nD τ).loc main_arg2) ∧ Wk3 m c (Proc.devRef .tc main_arg3) = m ((c.tc : Thread nD τ).loc main_arg3) ∧ Wk3 m c (Proc.devRef .tc main_arg4) = m ((c.tc : Thread nD τ).loc main_arg4) ∧ Wk3 m c (Proc.devRef .tc main_v42) = val_main_v42 (F := F) (m ((c.tc : Thread nD τ).loc main_arg1)) ∧ Wk3 m c (Proc.devRef .tc main_v45) = val_main_v45 (F := F) (m ((c.tc : Thread nD τ).loc main_arg1)) ∧ Wk3 m c (Proc.devRef .tc main_v48) = val_main_v48 (F := F) (m ((c.tc : Thread nD τ).loc main_arg1)) ∧ Wk3 m c (Proc.devRef .tc main_v50) = val_main_v50 (F := F) (m ((c.tc : Thread nD τ).loc main_arg1)) ∧ Wk3 m c (Proc.devRef .tc main_v52) = val_main_v52 (F := F) (m ((c.tc : Thread nD τ).loc main_arg1)) ∧ Wk3 m c (Proc.devRef .tc main_v53) = val_main_v53 (F := F) (m ((c.tc : Thread nD τ).loc main_arg0)) ∧ Wk3 m c (Proc.devRef .tc main_v64) = val_main_v64 (F := F) (m ((c.tc : Thread nD τ).loc main_arg1)) ∧ Wk3 m c (Proc.devRef .tc main_v67) = val_main_v67 (F := F) (m ((c.tc : Thread nD τ).loc main_arg1)) ∧ Wk3 m c (Proc.devRef .tc main_c_14) = val_main_c_14 (F := F) ∧ Wk3 m c (Proc.devRef .tc main_c_15) = val_main_c_15 (F := F) := by
  exact st3 (Wk2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live2 m c).1 (live2 m c).2.1 (live2 m c).2.2.1 (live2 m c).2.2.2.1 (live2 m c).2.2.2.2.1 (live2 m c).2.2.2.2.2.1 (live2 m c).2.2.2.2.2.2.1 (live2 m c).2.2.2.2.2.2.2.1 (live2 m c).2.2.2.2.2.2.2.2.1 (live2 m c).2.2.2.2.2.2.2.2.2.1 (live2 m c).2.2.2.2.2.2.2.2.2.2.1 (live2 m c).2.2.2.2.2.2.2.2.2.2.2.1 (live2 m c).2.2.2.2.2.2.2.2.2.2.2.2

theorem live4 (c : Dev nD) : Wk4 m c (Proc.devRef .tc main_arg0) = m ((c.tc : Thread nD τ).loc main_arg0) ∧ Wk4 m c (Proc.devRef .tc main_arg1) = m ((c.tc : Thread nD τ).loc main_arg1) ∧ Wk4 m c (Proc.devRef .tc main_arg2) = m ((c.tc : Thread nD τ).loc main_arg2) ∧ Wk4 m c (Proc.devRef .tc main_arg3) = m ((c.tc : Thread nD τ).loc main_arg3) ∧ Wk4 m c (Proc.devRef .tc main_arg4) = m ((c.tc : Thread nD τ).loc main_arg4) ∧ Wk4 m c (Proc.devRef .tc main_v42) = val_main_v42 (F := F) (m ((c.tc : Thread nD τ).loc main_arg1)) ∧ Wk4 m c (Proc.devRef .tc main_v45) = val_main_v45 (F := F) (m ((c.tc : Thread nD τ).loc main_arg1)) ∧ Wk4 m c (Proc.devRef .tc main_v48) = val_main_v48 (F := F) (m ((c.tc : Thread nD τ).loc main_arg1)) ∧ Wk4 m c (Proc.devRef .tc main_v50) = val_main_v50 (F := F) (m ((c.tc : Thread nD τ).loc main_arg1)) ∧ Wk4 m c (Proc.devRef .tc main_v52) = val_main_v52 (F := F) (m ((c.tc : Thread nD τ).loc main_arg1)) ∧ Wk4 m c (Proc.devRef .tc main_v53) = val_main_v53 (F := F) (m ((c.tc : Thread nD τ).loc main_arg0)) ∧ Wk4 m c (Proc.devRef .tc main_v64) = val_main_v64 (F := F) (m ((c.tc : Thread nD τ).loc main_arg1)) ∧ Wk4 m c (Proc.devRef .tc main_v67) = val_main_v67 (F := F) (m ((c.tc : Thread nD τ).loc main_arg1)) ∧ Wk4 m c (Proc.devRef .tc main_v68) = val_main_v68 (F := F) (m ((c.tc : Thread nD τ).loc main_arg1)) := by
  exact st4 (Wk3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live3 m c).1 (live3 m c).2.1 (live3 m c).2.2.1 (live3 m c).2.2.2.1 (live3 m c).2.2.2.2.1 (live3 m c).2.2.2.2.2.1 (live3 m c).2.2.2.2.2.2.1 (live3 m c).2.2.2.2.2.2.2.1 (live3 m c).2.2.2.2.2.2.2.2.1 (live3 m c).2.2.2.2.2.2.2.2.2.1 (live3 m c).2.2.2.2.2.2.2.2.2.2.1 (live3 m c).2.2.2.2.2.2.2.2.2.2.2.1 (live3 m c).2.2.2.2.2.2.2.2.2.2.2.2.1 (live3 m c).2.2.2.2.2.2.2.2.2.2.2.2.2.1 (live3 m c).2.2.2.2.2.2.2.2.2.2.2.2.2.2

theorem live5 (c : Dev nD) : Wk5 m c (Proc.devRef .tc main_arg0) = m ((c.tc : Thread nD τ).loc main_arg0) ∧ Wk5 m c (Proc.devRef .tc main_arg1) = m ((c.tc : Thread nD τ).loc main_arg1) ∧ Wk5 m c (Proc.devRef .tc main_arg2) = m ((c.tc : Thread nD τ).loc main_arg2) ∧ Wk5 m c (Proc.devRef .tc main_arg3) = m ((c.tc : Thread nD τ).loc main_arg3) ∧ Wk5 m c (Proc.devRef .tc main_arg4) = m ((c.tc : Thread nD τ).loc main_arg4) ∧ Wk5 m c (Proc.devRef .tc main_v42) = val_main_v42 (F := F) (m ((c.tc : Thread nD τ).loc main_arg1)) ∧ Wk5 m c (Proc.devRef .tc main_v45) = val_main_v45 (F := F) (m ((c.tc : Thread nD τ).loc main_arg1)) ∧ Wk5 m c (Proc.devRef .tc main_v48) = val_main_v48 (F := F) (m ((c.tc : Thread nD τ).loc main_arg1)) ∧ Wk5 m c (Proc.devRef .tc main_v50) = val_main_v50 (F := F) (m ((c.tc : Thread nD τ).loc main_arg1)) ∧ Wk5 m c (Proc.devRef .tc main_v52) = val_main_v52 (F := F) (m ((c.tc : Thread nD τ).loc main_arg1)) ∧ Wk5 m c (Proc.devRef .tc main_v53) = val_main_v53 (F := F) (m ((c.tc : Thread nD τ).loc main_arg0)) ∧ Wk5 m c (Proc.devRef .tc main_v64) = val_main_v64 (F := F) (m ((c.tc : Thread nD τ).loc main_arg1)) ∧ Wk5 m c (Proc.devRef .tc main_v70) = val_main_v70 (F := F) (m ((c.tc : Thread nD τ).loc main_arg1)) := by
  exact st5 (Wk4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live4 m c).1 (live4 m c).2.1 (live4 m c).2.2.1 (live4 m c).2.2.2.1 (live4 m c).2.2.2.2.1 (live4 m c).2.2.2.2.2.1 (live4 m c).2.2.2.2.2.2.1 (live4 m c).2.2.2.2.2.2.2.1 (live4 m c).2.2.2.2.2.2.2.2.1 (live4 m c).2.2.2.2.2.2.2.2.2.1 (live4 m c).2.2.2.2.2.2.2.2.2.2.1 (live4 m c).2.2.2.2.2.2.2.2.2.2.2.1 (live4 m c).2.2.2.2.2.2.2.2.2.2.2.2.1 (live4 m c).2.2.2.2.2.2.2.2.2.2.2.2.2

theorem live6 (c : Dev nD) : Wk6 m c (Proc.devRef .tc main_arg0) = m ((c.tc : Thread nD τ).loc main_arg0) ∧ Wk6 m c (Proc.devRef .tc main_arg1) = m ((c.tc : Thread nD τ).loc main_arg1) ∧ Wk6 m c (Proc.devRef .tc main_arg2) = m ((c.tc : Thread nD τ).loc main_arg2) ∧ Wk6 m c (Proc.devRef .tc main_arg3) = m ((c.tc : Thread nD τ).loc main_arg3) ∧ Wk6 m c (Proc.devRef .tc main_arg4) = m ((c.tc : Thread nD τ).loc main_arg4) ∧ Wk6 m c (Proc.devRef .tc main_v42) = val_main_v42 (F := F) (m ((c.tc : Thread nD τ).loc main_arg1)) ∧ Wk6 m c (Proc.devRef .tc main_v45) = val_main_v45 (F := F) (m ((c.tc : Thread nD τ).loc main_arg1)) ∧ Wk6 m c (Proc.devRef .tc main_v48) = val_main_v48 (F := F) (m ((c.tc : Thread nD τ).loc main_arg1)) ∧ Wk6 m c (Proc.devRef .tc main_v50) = val_main_v50 (F := F) (m ((c.tc : Thread nD τ).loc main_arg1)) ∧ Wk6 m c (Proc.devRef .tc main_v52) = val_main_v52 (F := F) (m ((c.tc : Thread nD τ).loc main_arg1)) ∧ Wk6 m c (Proc.devRef .tc main_v53) = val_main_v53 (F := F) (m ((c.tc : Thread nD τ).loc main_arg0)) ∧ Wk6 m c (Proc.devRef .tc main_v64) = val_main_v64 (F := F) (m ((c.tc : Thread nD τ).loc main_arg1)) ∧ Wk6 m c (Proc.devRef .tc main_v71) = val_main_v71 (F := F) (m ((c.tc : Thread nD τ).loc main_arg0)) (m ((c.tc : Thread nD τ).loc main_arg1)) := by
  exact st6 (Wk5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live5 m c).1 (live5 m c).2.1 (live5 m c).2.2.1 (live5 m c).2.2.2.1 (live5 m c).2.2.2.2.1 (live5 m c).2.2.2.2.2.1 (live5 m c).2.2.2.2.2.2.1 (live5 m c).2.2.2.2.2.2.2.1 (live5 m c).2.2.2.2.2.2.2.2.1 (live5 m c).2.2.2.2.2.2.2.2.2.1 (live5 m c).2.2.2.2.2.2.2.2.2.2.1 (live5 m c).2.2.2.2.2.2.2.2.2.2.2.1 (live5 m c).2.2.2.2.2.2.2.2.2.2.2.2

theorem live7 (c : Dev nD) : Wk7 m c (Proc.devRef .tc main_arg0) = m ((c.tc : Thread nD τ).loc main_arg0) ∧ Wk7 m c (Proc.devRef .tc main_arg1) = m ((c.tc : Thread nD τ).loc main_arg1) ∧ Wk7 m c (Proc.devRef .tc main_arg2) = m ((c.tc : Thread nD τ).loc main_arg2) ∧ Wk7 m c (Proc.devRef .tc main_arg3) = m ((c.tc : Thread nD τ).loc main_arg3) ∧ Wk7 m c (Proc.devRef .tc main_arg4) = m ((c.tc : Thread nD τ).loc main_arg4) ∧ Wk7 m c (Proc.devRef .tc main_v42) = val_main_v42 (F := F) (m ((c.tc : Thread nD τ).loc main_arg1)) ∧ Wk7 m c (Proc.devRef .tc main_v45) = val_main_v45 (F := F) (m ((c.tc : Thread nD τ).loc main_arg1)) ∧ Wk7 m c (Proc.devRef .tc main_v48) = val_main_v48 (F := F) (m ((c.tc : Thread nD τ).loc main_arg1)) ∧ Wk7 m c (Proc.devRef .tc main_v50) = val_main_v50 (F := F) (m ((c.tc : Thread nD τ).loc main_arg1)) ∧ Wk7 m c (Proc.devRef .tc main_v52) = val_main_v52 (F := F) (m ((c.tc : Thread nD τ).loc main_arg1)) ∧ Wk7 m c (Proc.devRef .tc main_v53) = val_main_v53 (F := F) (m ((c.tc : Thread nD τ).loc main_arg0)) ∧ Wk7 m c (Proc.devRef .tc main_v72) = val_main_v72 (F := F) (m ((c.tc : Thread nD τ).loc main_arg0)) (m ((c.tc : Thread nD τ).loc main_arg1)) ∧ Wk7 m c (Proc.devRef .tc main_v73) = val_main_v73 (F := F) (m ((c.tc : Thread nD τ).loc main_arg1)) ∧ Wk7 m c (Proc.devRef .tc main_cst) = val_main_cst (F := F) := by
  exact st7 (Wk6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live6 m c).1 (live6 m c).2.1 (live6 m c).2.2.1 (live6 m c).2.2.2.1 (live6 m c).2.2.2.2.1 (live6 m c).2.2.2.2.2.1 (live6 m c).2.2.2.2.2.2.1 (live6 m c).2.2.2.2.2.2.2.1 (live6 m c).2.2.2.2.2.2.2.2.1 (live6 m c).2.2.2.2.2.2.2.2.2.1 (live6 m c).2.2.2.2.2.2.2.2.2.2.1 (live6 m c).2.2.2.2.2.2.2.2.2.2.2.1 (live6 m c).2.2.2.2.2.2.2.2.2.2.2.2

theorem live8 (c : Dev nD) : Wk8 m c (Proc.devRef .tc main_arg0) = m ((c.tc : Thread nD τ).loc main_arg0) ∧ Wk8 m c (Proc.devRef .tc main_arg1) = m ((c.tc : Thread nD τ).loc main_arg1) ∧ Wk8 m c (Proc.devRef .tc main_arg2) = m ((c.tc : Thread nD τ).loc main_arg2) ∧ Wk8 m c (Proc.devRef .tc main_arg3) = m ((c.tc : Thread nD τ).loc main_arg3) ∧ Wk8 m c (Proc.devRef .tc main_arg4) = m ((c.tc : Thread nD τ).loc main_arg4) ∧ Wk8 m c (Proc.devRef .tc main_v42) = val_main_v42 (F := F) (m ((c.tc : Thread nD τ).loc main_arg1)) ∧ Wk8 m c (Proc.devRef .tc main_v45) = val_main_v45 (F := F) (m ((c.tc : Thread nD τ).loc main_arg1)) ∧ Wk8 m c (Proc.devRef .tc main_v48) = val_main_v48 (F := F) (m ((c.tc : Thread nD τ).loc main_arg1)) ∧ Wk8 m c (Proc.devRef .tc main_v50) = val_main_v50 (F := F) (m ((c.tc : Thread nD τ).loc main_arg1)) ∧ Wk8 m c (Proc.devRef .tc main_v52) = val_main_v52 (F := F) (m ((c.tc : Thread nD τ).loc main_arg1)) ∧ Wk8 m c (Proc.devRef .tc main_v53) = val_main_v53 (F := F) (m ((c.tc : Thread nD τ).loc main_arg0)) ∧ Wk8 m c (Proc.devRef .tc main_v74) = val_main_v74 (F := F) (m ((c.tc : Thread nD τ).loc main_arg0)) (m ((c.tc : Thread nD τ).loc main_arg1)) := by
  exact st8 (Wk7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live7 m c).1 (live7 m c).2.1 (live7 m c).2.2.1 (live7 m c).2.2.2.1 (live7 m c).2.2.2.2.1 (live7 m c).2.2.2.2.2.1 (live7 m c).2.2.2.2.2.2.1 (live7 m c).2.2.2.2.2.2.2.1 (live7 m c).2.2.2.2.2.2.2.2.1 (live7 m c).2.2.2.2.2.2.2.2.2.1 (live7 m c).2.2.2.2.2.2.2.2.2.2.1 (live7 m c).2.2.2.2.2.2.2.2.2.2.2.1 (live7 m c).2.2.2.2.2.2.2.2.2.2.2.2.1 (live7 m c).2.2.2.2.2.2.2.2.2.2.2.2.2

theorem live9 (c : Dev nD) : Wk9 m c (Proc.devRef .tc main_arg0) = m ((c.tc : Thread nD τ).loc main_arg0) ∧ Wk9 m c (Proc.devRef .tc main_arg1) = m ((c.tc : Thread nD τ).loc main_arg1) ∧ Wk9 m c (Proc.devRef .tc main_arg2) = m ((c.tc : Thread nD τ).loc main_arg2) ∧ Wk9 m c (Proc.devRef .tc main_arg3) = m ((c.tc : Thread nD τ).loc main_arg3) ∧ Wk9 m c (Proc.devRef .tc main_arg4) = m ((c.tc : Thread nD τ).loc main_arg4) ∧ Wk9 m c (Proc.devRef .tc main_v42) = val_main_v42 (F := F) (m ((c.tc : Thread nD τ).loc main_arg1)) ∧ Wk9 m c (Proc.devRef .tc main_v45) = val_main_v45 (F := F) (m ((c.tc : Thread nD τ).loc main_arg1)) ∧ Wk9 m c (Proc.devRef .tc main_v48) = val_main_v48 (F := F) (m ((c.tc : Thread nD τ).loc main_arg1)) ∧ Wk9 m c (Proc.devRef .tc main_v50) = val_main_v50 (F := F) (m ((c.tc : Thread nD τ).loc main_arg1)) ∧ Wk9 m c (Proc.devRef .tc main_v52) = val_main_v52 (F := F) (m ((c.tc : Thread nD τ).loc main_arg1)) ∧ Wk9 m c (Proc.devRef .tc main_v53) = val_main_v53 (F := F) (m ((c.tc : Thread nD τ).loc main_arg0)) ∧ Wk9 m c (Proc.devRef .tc main_v74) = val_main_v74 (F := F) (m ((c.tc : Thread nD τ).loc main_arg0)) (m ((c.tc : Thread nD τ).loc main_arg1)) ∧ Wk9 m c (Proc.devRef .tc main_v85) = val_main_v85 (F := F) (m ((c.tc : Thread nD τ).loc main_arg1)) ∧ Wk9 m c (Proc.devRef .tc main_c_20) = val_main_c_20 (F := F) ∧ Wk9 m c (Proc.devRef .tc main_c_21) = val_main_c_21 (F := F) := by
  exact st9 (Wk8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live8 m c).1 (live8 m c).2.1 (live8 m c).2.2.1 (live8 m c).2.2.2.1 (live8 m c).2.2.2.2.1 (live8 m c).2.2.2.2.2.1 (live8 m c).2.2.2.2.2.2.1 (live8 m c).2.2.2.2.2.2.2.1 (live8 m c).2.2.2.2.2.2.2.2.1 (live8 m c).2.2.2.2.2.2.2.2.2.1 (live8 m c).2.2.2.2.2.2.2.2.2.2.1 (live8 m c).2.2.2.2.2.2.2.2.2.2.2

theorem live10 (c : Dev nD) : Wk10 m c (Proc.devRef .tc main_arg0) = m ((c.tc : Thread nD τ).loc main_arg0) ∧ Wk10 m c (Proc.devRef .tc main_arg1) = m ((c.tc : Thread nD τ).loc main_arg1) ∧ Wk10 m c (Proc.devRef .tc main_arg2) = m ((c.tc : Thread nD τ).loc main_arg2) ∧ Wk10 m c (Proc.devRef .tc main_arg3) = m ((c.tc : Thread nD τ).loc main_arg3) ∧ Wk10 m c (Proc.devRef .tc main_arg4) = m ((c.tc : Thread nD τ).loc main_arg4) ∧ Wk10 m c (Proc.devRef .tc main_v42) = val_main_v42 (F := F) (m ((c.tc : Thread nD τ).loc main_arg1)) ∧ Wk10 m c (Proc.devRef .tc main_v45) = val_main_v45 (F := F) (m ((c.tc : Thread nD τ).loc main_arg1)) ∧ Wk10 m c (Proc.devRef .tc main_v48) = val_main_v48 (F := F) (m ((c.tc : Thread nD τ).loc main_arg1)) ∧ Wk10 m c (Proc.devRef .tc main_v50) = val_main_v50 (F := F) (m ((c.tc : Thread nD τ).loc main_arg1)) ∧ Wk10 m c (Proc.devRef .tc main_v52) = val_main_v52 (F := F) (m ((c.tc : Thread nD τ).loc main_arg1)) ∧ Wk10 m c (Proc.devRef .tc main_v53) = val_main_v53 (F := F) (m ((c.tc : Thread nD τ).loc main_arg0)) ∧ Wk10 m c (Proc.devRef .tc main_v74) = val_main_v74 (F := F) (m ((c.tc : Thread nD τ).loc main_arg0)) (m ((c.tc : Thread nD τ).loc main_arg1)) ∧ Wk10 m c (Proc.devRef .tc main_v85) = val_main_v85 (F := F) (m ((c.tc : Thread nD τ).loc main_arg1)) ∧ Wk10 m c (Proc.devRef .tc main_v86) = val_main_v86 (F := F) (m ((c.tc : Thread nD τ).loc main_arg1)) := by
  exact st10 (Wk9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live9 m c).1 (live9 m c).2.1 (live9 m c).2.2.1 (live9 m c).2.2.2.1 (live9 m c).2.2.2.2.1 (live9 m c).2.2.2.2.2.1 (live9 m c).2.2.2.2.2.2.1 (live9 m c).2.2.2.2.2.2.2.1 (live9 m c).2.2.2.2.2.2.2.2.1 (live9 m c).2.2.2.2.2.2.2.2.2.1 (live9 m c).2.2.2.2.2.2.2.2.2.2.1 (live9 m c).2.2.2.2.2.2.2.2.2.2.2.1 (live9 m c).2.2.2.2.2.2.2.2.2.2.2.2.1 (live9 m c).2.2.2.2.2.2.2.2.2.2.2.2.2.1 (live9 m c).2.2.2.2.2.2.2.2.2.2.2.2.2.2

theorem live11 (c : Dev nD) : Wk11 m c (Proc.devRef .tc main_arg0) = m ((c.tc : Thread nD τ).loc main_arg0) ∧ Wk11 m c (Proc.devRef .tc main_arg1) = m ((c.tc : Thread nD τ).loc main_arg1) ∧ Wk11 m c (Proc.devRef .tc main_arg2) = m ((c.tc : Thread nD τ).loc main_arg2) ∧ Wk11 m c (Proc.devRef .tc main_arg3) = m ((c.tc : Thread nD τ).loc main_arg3) ∧ Wk11 m c (Proc.devRef .tc main_arg4) = m ((c.tc : Thread nD τ).loc main_arg4) ∧ Wk11 m c (Proc.devRef .tc main_v42) = val_main_v42 (F := F) (m ((c.tc : Thread nD τ).loc main_arg1)) ∧ Wk11 m c (Proc.devRef .tc main_v45) = val_main_v45 (F := F) (m ((c.tc : Thread nD τ).loc main_arg1)) ∧ Wk11 m c (Proc.devRef .tc main_v48) = val_main_v48 (F := F) (m ((c.tc : Thread nD τ).loc main_arg1)) ∧ Wk11 m c (Proc.devRef .tc main_v50) = val_main_v50 (F := F) (m ((c.tc : Thread nD τ).loc main_arg1)) ∧ Wk11 m c (Proc.devRef .tc main_v52) = val_main_v52 (F := F) (m ((c.tc : Thread nD τ).loc main_arg1)) ∧ Wk11 m c (Proc.devRef .tc main_v53) = val_main_v53 (F := F) (m ((c.tc : Thread nD τ).loc main_arg0)) ∧ Wk11 m c (Proc.devRef .tc main_v74) = val_main_v74 (F := F) (m ((c.tc : Thread nD τ).loc main_arg0)) (m ((c.tc : Thread nD τ).loc main_arg1)) ∧ Wk11 m c (Proc.devRef .tc main_v85) = val_main_v85 (F := F) (m ((c.tc : Thread nD τ).loc main_arg1)) ∧ Wk11 m c (Proc.devRef .tc main_v88) = val_main_v88 (F := F) (m ((c.tc : Thread nD τ).loc main_arg1)) ∧ Wk11 m c (Proc.devRef .tc main_c_23) = val_main_c_23 (F := F) ∧ Wk11 m c (Proc.devRef .tc main_c_24) = val_main_c_24 (F := F) := by
  exact st11 (Wk10 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live10 m c).1 (live10 m c).2.1 (live10 m c).2.2.1 (live10 m c).2.2.2.1 (live10 m c).2.2.2.2.1 (live10 m c).2.2.2.2.2.1 (live10 m c).2.2.2.2.2.2.1 (live10 m c).2.2.2.2.2.2.2.1 (live10 m c).2.2.2.2.2.2.2.2.1 (live10 m c).2.2.2.2.2.2.2.2.2.1 (live10 m c).2.2.2.2.2.2.2.2.2.2.1 (live10 m c).2.2.2.2.2.2.2.2.2.2.2.1 (live10 m c).2.2.2.2.2.2.2.2.2.2.2.2.1 (live10 m c).2.2.2.2.2.2.2.2.2.2.2.2.2

theorem live12 (c : Dev nD) : Wk12 m c (Proc.devRef .tc main_arg0) = m ((c.tc : Thread nD τ).loc main_arg0) ∧ Wk12 m c (Proc.devRef .tc main_arg1) = m ((c.tc : Thread nD τ).loc main_arg1) ∧ Wk12 m c (Proc.devRef .tc main_arg2) = m ((c.tc : Thread nD τ).loc main_arg2) ∧ Wk12 m c (Proc.devRef .tc main_arg3) = m ((c.tc : Thread nD τ).loc main_arg3) ∧ Wk12 m c (Proc.devRef .tc main_arg4) = m ((c.tc : Thread nD τ).loc main_arg4) ∧ Wk12 m c (Proc.devRef .tc main_v42) = val_main_v42 (F := F) (m ((c.tc : Thread nD τ).loc main_arg1)) ∧ Wk12 m c (Proc.devRef .tc main_v45) = val_main_v45 (F := F) (m ((c.tc : Thread nD τ).loc main_arg1)) ∧ Wk12 m c (Proc.devRef .tc main_v48) = val_main_v48 (F := F) (m ((c.tc : Thread nD τ).loc main_arg1)) ∧ Wk12 m c (Proc.devRef .tc main_v50) = val_main_v50 (F := F) (m ((c.tc : Thread nD τ).loc main_arg1)) ∧ Wk12 m c (Proc.devRef .tc main_v52) = val_main_v52 (F := F) (m ((c.tc : Thread nD τ).loc main_arg1)) ∧ Wk12 m c (Proc.devRef .tc main_v53) = val_main_v53 (F := F) (m ((c.tc : Thread nD τ).loc main_arg0)) ∧ Wk12 m c (Proc.devRef .tc main_v74) = val_main_v74 (F := F) (m ((c.tc : Thread nD τ).loc main_arg0)) (m ((c.tc : Thread nD τ).loc main_arg1)) ∧ Wk12 m c (Proc.devRef .tc main_v85) = val_main_v85 (F := F) (m ((c.tc : Thread nD τ).loc main_arg1)) ∧ Wk12 m c (Proc.devRef .tc main_v88) = val_main_v88 (F := F) (m ((c.tc : Thread nD τ).loc main_arg1)) ∧ Wk12 m c (Proc.devRef .tc main_v89) = val_main_v89 (F := F) (m ((c.tc : Thread nD τ).loc main_arg1)) := by
  exact st12 (Wk11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live11 m c).1 (live11 m c).2.1 (live11 m c).2.2.1 (live11 m c).2.2.2.1 (live11 m c).2.2.2.2.1 (live11 m c).2.2.2.2.2.1 (live11 m c).2.2.2.2.2.2.1 (live11 m c).2.2.2.2.2.2.2.1 (live11 m c).2.2.2.2.2.2.2.2.1 (live11 m c).2.2.2.2.2.2.2.2.2.1 (live11 m c).2.2.2.2.2.2.2.2.2.2.1 (live11 m c).2.2.2.2.2.2.2.2.2.2.2.1 (live11 m c).2.2.2.2.2.2.2.2.2.2.2.2.1 (live11 m c).2.2.2.2.2.2.2.2.2.2.2.2.2.1 (live11 m c).2.2.2.2.2.2.2.2.2.2.2.2.2.2.1 (live11 m c).2.2.2.2.2.2.2.2.2.2.2.2.2.2.2

theorem live13 (c : Dev nD) : Wk13 m c (Proc.devRef .tc main_arg0) = m ((c.tc : Thread nD τ).loc main_arg0) ∧ Wk13 m c (Proc.devRef .tc main_arg1) = m ((c.tc : Thread nD τ).loc main_arg1) ∧ Wk13 m c (Proc.devRef .tc main_arg2) = m ((c.tc : Thread nD τ).loc main_arg2) ∧ Wk13 m c (Proc.devRef .tc main_arg3) = m ((c.tc : Thread nD τ).loc main_arg3) ∧ Wk13 m c (Proc.devRef .tc main_arg4) = m ((c.tc : Thread nD τ).loc main_arg4) ∧ Wk13 m c (Proc.devRef .tc main_v42) = val_main_v42 (F := F) (m ((c.tc : Thread nD τ).loc main_arg1)) ∧ Wk13 m c (Proc.devRef .tc main_v45) = val_main_v45 (F := F) (m ((c.tc : Thread nD τ).loc main_arg1)) ∧ Wk13 m c (Proc.devRef .tc main_v48) = val_main_v48 (F := F) (m ((c.tc : Thread nD τ).loc main_arg1)) ∧ Wk13 m c (Proc.devRef .tc main_v50) = val_main_v50 (F := F) (m ((c.tc : Thread nD τ).loc main_arg1)) ∧ Wk13 m c (Proc.devRef .tc main_v52) = val_main_v52 (F := F) (m ((c.tc : Thread nD τ).loc main_arg1)) ∧ Wk13 m c (Proc.devRef .tc main_v53) = val_main_v53 (F := F) (m ((c.tc : Thread nD τ).loc main_arg0)) ∧ Wk13 m c (Proc.devRef .tc main_v74) = val_main_v74 (F := F) (m ((c.tc : Thread nD τ).loc main_arg0)) (m ((c.tc : Thread nD τ).loc main_arg1)) ∧ Wk13 m c (Proc.devRef .tc main_v85) = val_main_v85 (F := F) (m ((c.tc : Thread nD τ).loc main_arg1)) ∧ Wk13 m c (Proc.devRef .tc main_v91) = val_main_v91 (F := F) (m ((c.tc : Thread nD τ).loc main_arg1)) := by
  exact st13 (Wk12 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live12 m c).1 (live12 m c).2.1 (live12 m c).2.2.1 (live12 m c).2.2.2.1 (live12 m c).2.2.2.2.1 (live12 m c).2.2.2.2.2.1 (live12 m c).2.2.2.2.2.2.1 (live12 m c).2.2.2.2.2.2.2.1 (live12 m c).2.2.2.2.2.2.2.2.1 (live12 m c).2.2.2.2.2.2.2.2.2.1 (live12 m c).2.2.2.2.2.2.2.2.2.2.1 (live12 m c).2.2.2.2.2.2.2.2.2.2.2.1 (live12 m c).2.2.2.2.2.2.2.2.2.2.2.2.1 (live12 m c).2.2.2.2.2.2.2.2.2.2.2.2.2.1 (live12 m c).2.2.2.2.2.2.2.2.2.2.2.2.2.2

theorem live14 (c : Dev nD) : Wk14 m c (Proc.devRef .tc main_arg0) = m ((c.tc : Thread nD τ).loc main_arg0) ∧ Wk14 m c (Proc.devRef .tc main_arg1) = m ((c.tc : Thread nD τ).loc main_arg1) ∧ Wk14 m c (Proc.devRef .tc main_arg2) = m ((c.tc : Thread nD τ).loc main_arg2) ∧ Wk14 m c (Proc.devRef .tc main_arg3) = m ((c.tc : Thread nD τ).loc main_arg3) ∧ Wk14 m c (Proc.devRef .tc main_arg4) = m ((c.tc : Thread nD τ).loc main_arg4) ∧ Wk14 m c (Proc.devRef .tc main_v42) = val_main_v42 (F := F) (m ((c.tc : Thread nD τ).loc main_arg1)) ∧ Wk14 m c (Proc.devRef .tc main_v45) = val_main_v45 (F := F) (m ((c.tc : Thread nD τ).loc main_arg1)) ∧ Wk14 m c (Proc.devRef .tc main_v48) = val_main_v48 (F := F) (m ((c.tc : Thread nD τ).loc main_arg1)) ∧ Wk14 m c (Proc.devRef .tc main_v50) = val_main_v50 (F := F) (m ((c.tc : Thread nD τ).loc main_arg1)) ∧ Wk14 m c (Proc.devRef .tc main_v52) = val_main_v52 (F := F) (m ((c.tc : Thread nD τ).loc main_arg1)) ∧ Wk14 m c (Proc.devRef .tc main_v53) = val_main_v53 (F := F) (m ((c.tc : Thread nD τ).loc main_arg0)) ∧ Wk14 m c (Proc.devRef .tc main_v74) = val_main_v74 (F := F) (m ((c.tc : Thread nD τ).loc main_arg0)) (m ((c.tc : Thread nD τ).loc main_arg1)) ∧ Wk14 m c (Proc.devRef .tc main_v85) = val_main_v85 (F := F) (m ((c.tc : Thread nD τ).loc main_arg1)) ∧ Wk14 m c (Proc.devRef .tc main_v92) = val_main_v92 (F := F) (m ((c.tc : Thread nD τ).loc main_arg0)) (m ((c.tc : Thread nD τ).loc main_arg1)) := by
  exact st14 (Wk13 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live13 m c).1 (live13 m c).2.1 (live13 m c).2.2.1 (live13 m c).2.2.2.1 (live13 m c).2.2.2.2.1 (live13 m c).2.2.2.2.2.1 (live13 m c).2.2.2.2.2.2.1 (live13 m c).2.2.2.2.2.2.2.1 (live13 m c).2.2.2.2.2.2.2.2.1 (live13 m c).2.2.2.2.2.2.2.2.2.1 (live13 m c).2.2.2.2.2.2.2.2.2.2.1 (live13 m c).2.2.2.2.2.2.2.2.2.2.2.1 (live13 m c).2.2.2.2.2.2.2.2.2.2.2.2.1 (live13 m c).2.2.2.2.2.2.2.2.2.2.2.2.2

theorem live15 (c : Dev nD) : Wk15 m c (Proc.devRef .tc main_arg0) = m ((c.tc : Thread nD τ).loc main_arg0) ∧ Wk15 m c (Proc.devRef .tc main_arg1) = m ((c.tc : Thread nD τ).loc main_arg1) ∧ Wk15 m c (Proc.devRef .tc main_arg2) = m ((c.tc : Thread nD τ).loc main_arg2) ∧ Wk15 m c (Proc.devRef .tc main_arg3) = m ((c.tc : Thread nD τ).loc main_arg3) ∧ Wk15 m c (Proc.devRef .tc main_arg4) = m ((c.tc : Thread nD τ).loc main_arg4) ∧ Wk15 m c (Proc.devRef .tc main_v42) = val_main_v42 (F := F) (m ((c.tc : Thread nD τ).loc main_arg1)) ∧ Wk15 m c (Proc.devRef .tc main_v45) = val_main_v45 (F := F) (m ((c.tc : Thread nD τ).loc main_arg1)) ∧ Wk15 m c (Proc.devRef .tc main_v48) = val_main_v48 (F := F) (m ((c.tc : Thread nD τ).loc main_arg1)) ∧ Wk15 m c (Proc.devRef .tc main_v50) = val_main_v50 (F := F) (m ((c.tc : Thread nD τ).loc main_arg1)) ∧ Wk15 m c (Proc.devRef .tc main_v52) = val_main_v52 (F := F) (m ((c.tc : Thread nD τ).loc main_arg1)) ∧ Wk15 m c (Proc.devRef .tc main_v53) = val_main_v53 (F := F) (m ((c.tc : Thread nD τ).loc main_arg0)) ∧ Wk15 m c (Proc.devRef .tc main_v74) = val_main_v74 (F := F) (m ((c.tc : Thread nD τ).loc main_arg0)) (m ((c.tc : Thread nD τ).loc main_arg1)) ∧ Wk15 m c (Proc.devRef .tc main_v93) = val_main_v93 (F := F) (m ((c.tc : Thread nD τ).loc main_arg0)) (m ((c.tc : Thread nD τ).loc main_arg1)) ∧ Wk15 m c (Proc.devRef .tc main_v94) = val_main_v94 (F := F) (m ((c.tc : Thread nD τ).loc main_arg1)) ∧ Wk15 m c (Proc.devRef .tc main_cst_25) = val_main_cst_25 (F := F) := by
  exact st15 (Wk14 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live14 m c).1 (live14 m c).2.1 (live14 m c).2.2.1 (live14 m c).2.2.2.1 (live14 m c).2.2.2.2.1 (live14 m c).2.2.2.2.2.1 (live14 m c).2.2.2.2.2.2.1 (live14 m c).2.2.2.2.2.2.2.1 (live14 m c).2.2.2.2.2.2.2.2.1 (live14 m c).2.2.2.2.2.2.2.2.2.1 (live14 m c).2.2.2.2.2.2.2.2.2.2.1 (live14 m c).2.2.2.2.2.2.2.2.2.2.2.1 (live14 m c).2.2.2.2.2.2.2.2.2.2.2.2.1 (live14 m c).2.2.2.2.2.2.2.2.2.2.2.2.2

theorem live16 (c : Dev nD) : Wk16 m c (Proc.devRef .tc main_arg0) = m ((c.tc : Thread nD τ).loc main_arg0) ∧ Wk16 m c (Proc.devRef .tc main_arg1) = m ((c.tc : Thread nD τ).loc main_arg1) ∧ Wk16 m c (Proc.devRef .tc main_arg2) = m ((c.tc : Thread nD τ).loc main_arg2) ∧ Wk16 m c (Proc.devRef .tc main_arg3) = m ((c.tc : Thread nD τ).loc main_arg3) ∧ Wk16 m c (Proc.devRef .tc main_arg4) = m ((c.tc : Thread nD τ).loc main_arg4) ∧ Wk16 m c (Proc.devRef .tc main_v42) = val_main_v42 (F := F) (m ((c.tc : Thread nD τ).loc main_arg1)) ∧ Wk16 m c (Proc.devRef .tc main_v45) = val_main_v45 (F := F) (m ((c.tc : Thread nD τ).loc main_arg1)) ∧ Wk16 m c (Proc.devRef .tc main_v48) = val_main_v48 (F := F) (m ((c.tc : Thread nD τ).loc main_arg1)) ∧ Wk16 m c (Proc.devRef .tc main_v50) = val_main_v50 (F := F) (m ((c.tc : Thread nD τ).loc main_arg1)) ∧ Wk16 m c (Proc.devRef .tc main_v52) = val_main_v52 (F := F) (m ((c.tc : Thread nD τ).loc main_arg1)) ∧ Wk16 m c (Proc.devRef .tc main_v53) = val_main_v53 (F := F) (m ((c.tc : Thread nD τ).loc main_arg0)) ∧ Wk16 m c (Proc.devRef .tc main_v74) = val_main_v74 (F := F) (m ((c.tc : Thread nD τ).loc main_arg0)) (m ((c.tc : Thread nD τ).loc main_arg1)) ∧ Wk16 m c (Proc.devRef .tc main_v95) = val_main_v95 (F := F) (m ((c.tc : Thread nD τ).loc main_arg0)) (m ((c.tc : Thread nD τ).loc main_arg1)) := by
  exact st16 (Wk15 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live15 m c).1 (live15 m c).2.1 (live15 m c).2.2.1 (live15 m c).2.2.2.1 (live15 m c).2.2.2.2.1 (live15 m c).2.2.2.2.2.1 (live15 m c).2.2.2.2.2.2.1 (live15 m c).2.2.2.2.2.2.2.1 (live15 m c).2.2.2.2.2.2.2.2.1 (live15 m c).2.2.2.2.2.2.2.2.2.1 (live15 m c).2.2.2.2.2.2.2.2.2.2.1 (live15 m c).2.2.2.2.2.2.2.2.2.2.2.1 (live15 m c).2.2.2.2.2.2.2.2.2.2.2.2.1 (live15 m c).2.2.2.2.2.2.2.2.2.2.2.2.2.1 (live15 m c).2.2.2.2.2.2.2.2.2.2.2.2.2.2

theorem live17 (c : Dev nD) : Wk17 m c (Proc.devRef .tc main_arg0) = m ((c.tc : Thread nD τ).loc main_arg0) ∧ Wk17 m c (Proc.devRef .tc main_arg1) = m ((c.tc : Thread nD τ).loc main_arg1) ∧ Wk17 m c (Proc.devRef .tc main_arg2) = m ((c.tc : Thread nD τ).loc main_arg2) ∧ Wk17 m c (Proc.devRef .tc main_arg3) = m ((c.tc : Thread nD τ).loc main_arg3) ∧ Wk17 m c (Proc.devRef .tc main_arg4) = m ((c.tc : Thread nD τ).loc main_arg4) ∧ Wk17 m c (Proc.devRef .tc main_v42) = val_main_v42 (F := F) (m ((c.tc : Thread nD τ).loc main_arg1)) ∧ Wk17 m c (Proc.devRef .tc main_v45) = val_main_v45 (F := F) (m ((c.tc : Thread nD τ).loc main_arg1)) ∧ Wk17 m c (Proc.devRef .tc main_v48) = val_main_v48 (F := F) (m ((c.tc : Thread nD τ).loc main_arg1)) ∧ Wk17 m c (Proc.devRef .tc main_v50) = val_main_v50 (F := F) (m ((c.tc : Thread nD τ).loc main_arg1)) ∧ Wk17 m c (Proc.devRef .tc main_v52) = val_main_v52 (F := F) (m ((c.tc : Thread nD τ).loc main_arg1)) ∧ Wk17 m c (Proc.devRef .tc main_v53) = val_main_v53 (F := F) (m ((c.tc : Thread nD τ).loc main_arg0)) ∧ Wk17 m c (Proc.devRef .tc main_v74) = val_main_v74 (F := F) (m ((c.tc : Thread nD τ).loc main_arg0)) (m ((c.tc : Thread nD τ).loc main_arg1)) ∧ Wk17 m c (Proc.devRef .tc main_v95) = val_main_v95 (F := F) (m ((c.tc : Thread nD τ).loc main_arg0)) (m ((c.tc : Thread nD τ).loc main_arg1)) ∧ Wk17 m c (Proc.devRef .tc main_v106) = val_main_v106 (F := F) (m ((c.tc : Thread nD τ).loc main_arg1)) ∧ Wk17 m c (Proc.devRef .tc main_c_30) = val_main_c_30 (F := F) ∧ Wk17 m c (Proc.devRef .tc main_c_31) = val_main_c_31 (F := F) := by
  exact st17 (Wk16 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live16 m c).1 (live16 m c).2.1 (live16 m c).2.2.1 (live16 m c).2.2.2.1 (live16 m c).2.2.2.2.1 (live16 m c).2.2.2.2.2.1 (live16 m c).2.2.2.2.2.2.1 (live16 m c).2.2.2.2.2.2.2.1 (live16 m c).2.2.2.2.2.2.2.2.1 (live16 m c).2.2.2.2.2.2.2.2.2.1 (live16 m c).2.2.2.2.2.2.2.2.2.2.1 (live16 m c).2.2.2.2.2.2.2.2.2.2.2.1 (live16 m c).2.2.2.2.2.2.2.2.2.2.2.2

theorem live18 (c : Dev nD) : Wk18 m c (Proc.devRef .tc main_arg0) = m ((c.tc : Thread nD τ).loc main_arg0) ∧ Wk18 m c (Proc.devRef .tc main_arg1) = m ((c.tc : Thread nD τ).loc main_arg1) ∧ Wk18 m c (Proc.devRef .tc main_arg2) = m ((c.tc : Thread nD τ).loc main_arg2) ∧ Wk18 m c (Proc.devRef .tc main_arg3) = m ((c.tc : Thread nD τ).loc main_arg3) ∧ Wk18 m c (Proc.devRef .tc main_arg4) = m ((c.tc : Thread nD τ).loc main_arg4) ∧ Wk18 m c (Proc.devRef .tc main_v42) = val_main_v42 (F := F) (m ((c.tc : Thread nD τ).loc main_arg1)) ∧ Wk18 m c (Proc.devRef .tc main_v48) = val_main_v48 (F := F) (m ((c.tc : Thread nD τ).loc main_arg1)) ∧ Wk18 m c (Proc.devRef .tc main_v50) = val_main_v50 (F := F) (m ((c.tc : Thread nD τ).loc main_arg1)) ∧ Wk18 m c (Proc.devRef .tc main_v52) = val_main_v52 (F := F) (m ((c.tc : Thread nD τ).loc main_arg1)) ∧ Wk18 m c (Proc.devRef .tc main_v53) = val_main_v53 (F := F) (m ((c.tc : Thread nD τ).loc main_arg0)) ∧ Wk18 m c (Proc.devRef .tc main_v74) = val_main_v74 (F := F) (m ((c.tc : Thread nD τ).loc main_arg0)) (m ((c.tc : Thread nD τ).loc main_arg1)) ∧ Wk18 m c (Proc.devRef .tc main_v95) = val_main_v95 (F := F) (m ((c.tc : Thread nD τ).loc main_arg0)) (m ((c.tc : Thread nD τ).loc main_arg1)) ∧ Wk18 m c (Proc.devRef .tc main_v106) = val_main_v106 (F := F) (m ((c.tc : Thread nD τ).loc main_arg1)) ∧ Wk18 m c (Proc.devRef .tc main_v107) = val_main_v107 (F := F) (m ((c.tc : Thread nD τ).loc main_arg1)) := by
  exact st18 (Wk17 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live17 m c).1 (live17 m c).2.1 (live17 m c).2.2.1 (live17 m c).2.2.2.1 (live17 m c).2.2.2.2.1 (live17 m c).2.2.2.2.2.1 (live17 m c).2.2.2.2.2.2.1 (live17 m c).2.2.2.2.2.2.2.1 (live17 m c).2.2.2.2.2.2.2.2.1 (live17 m c).2.2.2.2.2.2.2.2.2.1 (live17 m c).2.2.2.2.2.2.2.2.2.2.1 (live17 m c).2.2.2.2.2.2.2.2.2.2.2.1 (live17 m c).2.2.2.2.2.2.2.2.2.2.2.2.1 (live17 m c).2.2.2.2.2.2.2.2.2.2.2.2.2.1 (live17 m c).2.2.2.2.2.2.2.2.2.2.2.2.2.2.1 (live17 m c).2.2.2.2.2.2.2.2.2.2.2.2.2.2.2

theorem live19 (c : Dev nD) : Wk19 m c (Proc.devRef .tc main_arg0) = m ((c.tc : Thread nD τ).loc main_arg0) ∧ Wk19 m c (Proc.devRef .tc main_arg1) = m ((c.tc : Thread nD τ).loc main_arg1) ∧ Wk19 m c (Proc.devRef .tc main_arg2) = m ((c.tc : Thread nD τ).loc main_arg2) ∧ Wk19 m c (Proc.devRef .tc main_arg3) = m ((c.tc : Thread nD τ).loc main_arg3) ∧ Wk19 m c (Proc.devRef .tc main_arg4) = m ((c.tc : Thread nD τ).loc main_arg4) ∧ Wk19 m c (Proc.devRef .tc main_v42) = val_main_v42 (F := F) (m ((c.tc : Thread nD τ).loc main_arg1)) ∧ Wk19 m c (Proc.devRef .tc main_v48) = val_main_v48 (F := F) (m ((c.tc : Thread nD τ).loc main_arg1)) ∧ Wk19 m c (Proc.devRef .tc main_v50) = val_main_v50 (F := F) (m ((c.tc : Thread nD τ).loc main_arg1)) ∧ Wk19 m c (Proc.devRef .tc main_v52) = val_main_v52 (F := F) (m ((c.tc : Thread nD τ).loc main_arg1)) ∧ Wk19 m c (Proc.devRef .tc main_v53) = val_main_v53 (F := F) (m ((c.tc : Thread nD τ).loc main_arg0)) ∧ Wk19 m c (Proc.devRef .tc main_v74) = val_main_v74 (F := F) (m ((c.tc : Thread nD τ).loc main_arg0)) (m ((c.tc : Thread nD τ).loc main_arg1)) ∧ Wk19 m c (Proc.devRef .tc main_v95) = val_main_v95 (F := F) (m ((c.tc : Thread nD τ).loc main_arg0)) (m ((c.tc : Thread nD τ).loc main_arg1)) ∧ Wk19 m c (Proc.devRef .tc main_v106) = val_main_v106 (F := F) (m ((c.tc : Thread nD τ).loc main_arg1)) ∧ Wk19 m c (Proc.devRef .tc main_v109) = val_main_v109 (F := F) (m ((c.tc : Thread nD τ).loc main_arg1)) ∧ Wk19 m c (Proc.devRef .tc main_c_33) = val_main_c_33 (F := F) ∧ Wk19 m c (Proc.devRef .tc main_c_34) = val_main_c_34 (F := F) := by
  exact st19 (Wk18 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live18 m c).1 (live18 m c).2.1 (live18 m c).2.2.1 (live18 m c).2.2.2.1 (live18 m c).2.2.2.2.1 (live18 m c).2.2.2.2.2.1 (live18 m c).2.2.2.2.2.2.1 (live18 m c).2.2.2.2.2.2.2.1 (live18 m c).2.2.2.2.2.2.2.2.1 (live18 m c).2.2.2.2.2.2.2.2.2.1 (live18 m c).2.2.2.2.2.2.2.2.2.2.1 (live18 m c).2.2.2.2.2.2.2.2.2.2.2.1 (live18 m c).2.2.2.2.2.2.2.2.2.2.2.2.1 (live18 m c).2.2.2.2.2.2.2.2.2.2.2.2.2

theorem live20 (c : Dev nD) : Wk20 m c (Proc.devRef .tc main_arg0) = m ((c.tc : Thread nD τ).loc main_arg0) ∧ Wk20 m c (Proc.devRef .tc main_arg1) = m ((c.tc : Thread nD τ).loc main_arg1) ∧ Wk20 m c (Proc.devRef .tc main_arg2) = m ((c.tc : Thread nD τ).loc main_arg2) ∧ Wk20 m c (Proc.devRef .tc main_arg3) = m ((c.tc : Thread nD τ).loc main_arg3) ∧ Wk20 m c (Proc.devRef .tc main_arg4) = m ((c.tc : Thread nD τ).loc main_arg4) ∧ Wk20 m c (Proc.devRef .tc main_v42) = val_main_v42 (F := F) (m ((c.tc : Thread nD τ).loc main_arg1)) ∧ Wk20 m c (Proc.devRef .tc main_v48) = val_main_v48 (F := F) (m ((c.tc : Thread nD τ).loc main_arg1)) ∧ Wk20 m c (Proc.devRef .tc main_v50) = val_main_v50 (F := F) (m ((c.tc : Thread nD τ).loc main_arg1)) ∧ Wk20 m c (Proc.devRef .tc main_v53) = val_main_v53 (F := F) (m ((c.tc : Thread nD τ).loc main_arg0)) ∧ Wk20 m c (Proc.devRef .tc main_v74) = val_main_v74 (F := F) (m ((c.tc : Thread nD τ).loc main_arg0)) (m ((c.tc : Thread nD τ).loc main_arg1)) ∧ Wk20 m c (Proc.devRef .tc main_v95) = val_main_v95 (F := F) (m ((c.tc : Thread nD τ).loc main_arg0)) (m ((c.tc : Thread nD τ).loc main_arg1)) ∧ Wk20 m c (Proc.devRef .tc main_v106) = val_main_v106 (F := F) (m ((c.tc : Thread nD τ).loc main_arg1)) ∧ Wk20 m c (Proc.devRef .tc main_v109) = val_main_v109 (F := F) (m ((c.tc : Thread nD τ).loc main_arg1)) ∧ Wk20 m c (Proc.devRef .tc main_v110) = val_main_v110 (F := F) (m ((c.tc : Thread nD τ).loc main_arg1)) := by
  exact st20 (Wk19 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live19 m c).1 (live19 m c).2.1 (live19 m c).2.2.1 (live19 m c).2.2.2.1 (live19 m c).2.2.2.2.1 (live19 m c).2.2.2.2.2.1 (live19 m c).2.2.2.2.2.2.1 (live19 m c).2.2.2.2.2.2.2.1 (live19 m c).2.2.2.2.2.2.2.2.1 (live19 m c).2.2.2.2.2.2.2.2.2.1 (live19 m c).2.2.2.2.2.2.2.2.2.2.1 (live19 m c).2.2.2.2.2.2.2.2.2.2.2.1 (live19 m c).2.2.2.2.2.2.2.2.2.2.2.2.1 (live19 m c).2.2.2.2.2.2.2.2.2.2.2.2.2.1 (live19 m c).2.2.2.2.2.2.2.2.2.2.2.2.2.2.1 (live19 m c).2.2.2.2.2.2.2.2.2.2.2.2.2.2.2

theorem live21 (c : Dev nD) : Wk21 m c (Proc.devRef .tc main_arg0) = m ((c.tc : Thread nD τ).loc main_arg0) ∧ Wk21 m c (Proc.devRef .tc main_arg1) = m ((c.tc : Thread nD τ).loc main_arg1) ∧ Wk21 m c (Proc.devRef .tc main_arg2) = m ((c.tc : Thread nD τ).loc main_arg2) ∧ Wk21 m c (Proc.devRef .tc main_arg3) = m ((c.tc : Thread nD τ).loc main_arg3) ∧ Wk21 m c (Proc.devRef .tc main_arg4) = m ((c.tc : Thread nD τ).loc main_arg4) ∧ Wk21 m c (Proc.devRef .tc main_v42) = val_main_v42 (F := F) (m ((c.tc : Thread nD τ).loc main_arg1)) ∧ Wk21 m c (Proc.devRef .tc main_v48) = val_main_v48 (F := F) (m ((c.tc : Thread nD τ).loc main_arg1)) ∧ Wk21 m c (Proc.devRef .tc main_v50) = val_main_v50 (F := F) (m ((c.tc : Thread nD τ).loc main_arg1)) ∧ Wk21 m c (Proc.devRef .tc main_v53) = val_main_v53 (F := F) (m ((c.tc : Thread nD τ).loc main_arg0)) ∧ Wk21 m c (Proc.devRef .tc main_v74) = val_main_v74 (F := F) (m ((c.tc : Thread nD τ).loc main_arg0)) (m ((c.tc : Thread nD τ).loc main_arg1)) ∧ Wk21 m c (Proc.devRef .tc main_v95) = val_main_v95 (F := F) (m ((c.tc : Thread nD τ).loc main_arg0)) (m ((c.tc : Thread nD τ).loc main_arg1)) ∧ Wk21 m c (Proc.devRef .tc main_v106) = val_main_v106 (F := F) (m ((c.tc : Thread nD τ).loc main_arg1)) ∧ Wk21 m c (Proc.devRef .tc main_v112) = val_main_v112 (F := F) (m ((c.tc : Thread nD τ).loc main_arg1)) := by
  exact st21 (Wk20 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live20 m c).1 (live20 m c).2.1 (live20 m c).2.2.1 (live20 m c).2.2.2.1 (live20 m c).2.2.2.2.1 (live20 m c).2.2.2.2.2.1 (live20 m c).2.2.2.2.2.2.1 (live20 m c).2.2.2.2.2.2.2.1 (live20 m c).2.2.2.2.2.2.2.2.1 (live20 m c).2.2.2.2.2.2.2.2.2.1 (live20 m c).2.2.2.2.2.2.2.2.2.2.1 (live20 m c).2.2.2.2.2.2.2.2.2.2.2.1 (live20 m c).2.2.2.2.2.2.2.2.2.2.2.2.1 (live20 m c).2.2.2.2.2.2.2.2.2.2.2.2.2

theorem live22 (c : Dev nD) : Wk22 m c (Proc.devRef .tc main_arg0) = m ((c.tc : Thread nD τ).loc main_arg0) ∧ Wk22 m c (Proc.devRef .tc main_arg1) = m ((c.tc : Thread nD τ).loc main_arg1) ∧ Wk22 m c (Proc.devRef .tc main_arg2) = m ((c.tc : Thread nD τ).loc main_arg2) ∧ Wk22 m c (Proc.devRef .tc main_arg3) = m ((c.tc : Thread nD τ).loc main_arg3) ∧ Wk22 m c (Proc.devRef .tc main_arg4) = m ((c.tc : Thread nD τ).loc main_arg4) ∧ Wk22 m c (Proc.devRef .tc main_v42) = val_main_v42 (F := F) (m ((c.tc : Thread nD τ).loc main_arg1)) ∧ Wk22 m c (Proc.devRef .tc main_v48) = val_main_v48 (F := F) (m ((c.tc : Thread nD τ).loc main_arg1)) ∧ Wk22 m c (Proc.devRef .tc main_v50) = val_main_v50 (F := F) (m ((c.tc : Thread nD τ).loc main_arg1)) ∧ Wk22 m c (Proc.devRef .tc main_v53) = val_main_v53 (F := F) (m ((c.tc : Thread nD τ).loc main_arg0)) ∧ Wk22 m c (Proc.devRef .tc main_v74) = val_main_v74 (F := F) (m ((c.tc : Thread nD τ).loc main_arg0)) (m ((c.tc : Thread nD τ).loc main_arg1)) ∧ Wk22 m c (Proc.devRef .tc main_v95) = val_main_v95 (F := F) (m ((c.tc : Thread nD τ).loc main_arg0)) (m ((c.tc : Thread nD τ).loc main_arg1)) ∧ Wk22 m c (Proc.devRef .tc main_v106) = val_main_v106 (F := F) (m ((c.tc : Thread nD τ).loc main_arg1)) ∧ Wk22 m c (Proc.devRef .tc main_v113) = val_main_v113 (F := F) (m ((c.tc : Thread nD τ).loc main_arg0)) (m ((c.tc : Thread nD τ).loc main_arg1)) := by
  exact st22 (Wk21 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live21 m c).1 (live21 m c).2.1 (live21 m c).2.2.1 (live21 m c).2.2.2.1 (live21 m c).2.2.2.2.1 (live21 m c).2.2.2.2.2.1 (live21 m c).2.2.2.2.2.2.1 (live21 m c).2.2.2.2.2.2.2.1 (live21 m c).2.2.2.2.2.2.2.2.1 (live21 m c).2.2.2.2.2.2.2.2.2.1 (live21 m c).2.2.2.2.2.2.2.2.2.2.1 (live21 m c).2.2.2.2.2.2.2.2.2.2.2.1 (live21 m c).2.2.2.2.2.2.2.2.2.2.2.2

theorem live23 (c : Dev nD) : Wk23 m c (Proc.devRef .tc main_arg0) = m ((c.tc : Thread nD τ).loc main_arg0) ∧ Wk23 m c (Proc.devRef .tc main_arg1) = m ((c.tc : Thread nD τ).loc main_arg1) ∧ Wk23 m c (Proc.devRef .tc main_arg2) = m ((c.tc : Thread nD τ).loc main_arg2) ∧ Wk23 m c (Proc.devRef .tc main_arg3) = m ((c.tc : Thread nD τ).loc main_arg3) ∧ Wk23 m c (Proc.devRef .tc main_arg4) = m ((c.tc : Thread nD τ).loc main_arg4) ∧ Wk23 m c (Proc.devRef .tc main_v42) = val_main_v42 (F := F) (m ((c.tc : Thread nD τ).loc main_arg1)) ∧ Wk23 m c (Proc.devRef .tc main_v48) = val_main_v48 (F := F) (m ((c.tc : Thread nD τ).loc main_arg1)) ∧ Wk23 m c (Proc.devRef .tc main_v50) = val_main_v50 (F := F) (m ((c.tc : Thread nD τ).loc main_arg1)) ∧ Wk23 m c (Proc.devRef .tc main_v53) = val_main_v53 (F := F) (m ((c.tc : Thread nD τ).loc main_arg0)) ∧ Wk23 m c (Proc.devRef .tc main_v74) = val_main_v74 (F := F) (m ((c.tc : Thread nD τ).loc main_arg0)) (m ((c.tc : Thread nD τ).loc main_arg1)) ∧ Wk23 m c (Proc.devRef .tc main_v95) = val_main_v95 (F := F) (m ((c.tc : Thread nD τ).loc main_arg0)) (m ((c.tc : Thread nD τ).loc main_arg1)) ∧ Wk23 m c (Proc.devRef .tc main_v114) = val_main_v114 (F := F) (m ((c.tc : Thread nD τ).loc main_arg0)) (m ((c.tc : Thread nD τ).loc main_arg1)) ∧ Wk23 m c (Proc.devRef .tc main_v115) = val_main_v115 (F := F) (m ((c.tc : Thread nD τ).loc main_arg1)) ∧ Wk23 m c (Proc.devRef .tc main_cst_35) = val_main_cst_35 (F := F) := by
  exact st23 (Wk22 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live22 m c).1 (live22 m c).2.1 (live22 m c).2.2.1 (live22 m c).2.2.2.1 (live22 m c).2.2.2.2.1 (live22 m c).2.2.2.2.2.1 (live22 m c).2.2.2.2.2.2.1 (live22 m c).2.2.2.2.2.2.2.1 (live22 m c).2.2.2.2.2.2.2.2.1 (live22 m c).2.2.2.2.2.2.2.2.2.1 (live22 m c).2.2.2.2.2.2.2.2.2.2.1 (live22 m c).2.2.2.2.2.2.2.2.2.2.2.1 (live22 m c).2.2.2.2.2.2.2.2.2.2.2.2

theorem live24 (c : Dev nD) : Wk24 m c (Proc.devRef .tc main_arg0) = m ((c.tc : Thread nD τ).loc main_arg0) ∧ Wk24 m c (Proc.devRef .tc main_arg1) = m ((c.tc : Thread nD τ).loc main_arg1) ∧ Wk24 m c (Proc.devRef .tc main_arg2) = m ((c.tc : Thread nD τ).loc main_arg2) ∧ Wk24 m c (Proc.devRef .tc main_arg3) = m ((c.tc : Thread nD τ).loc main_arg3) ∧ Wk24 m c (Proc.devRef .tc main_arg4) = m ((c.tc : Thread nD τ).loc main_arg4) ∧ Wk24 m c (Proc.devRef .tc main_v42) = val_main_v42 (F := F) (m ((c.tc : Thread nD τ).loc main_arg1)) ∧ Wk24 m c (Proc.devRef .tc main_v48) = val_main_v48 (F := F) (m ((c.tc : Thread nD τ).loc main_arg1)) ∧ Wk24 m c (Proc.devRef .tc main_v50) = val_main_v50 (F := F) (m ((c.tc : Thread nD τ).loc main_arg1)) ∧ Wk24 m c (Proc.devRef .tc main_v53) = val_main_v53 (F := F) (m ((c.tc : Thread nD τ).loc main_arg0)) ∧ Wk24 m c (Proc.devRef .tc main_v74) = val_main_v74 (F := F) (m ((c.tc : Thread nD τ).loc main_arg0)) (m ((c.tc : Thread nD τ).loc main_arg1)) ∧ Wk24 m c (Proc.devRef .tc main_v95) = val_main_v95 (F := F) (m ((c.tc : Thread nD τ).loc main_arg0)) (m ((c.tc : Thread nD τ).loc main_arg1)) ∧ Wk24 m c (Proc.devRef .tc main_v116) = val_main_v116 (F := F) (m ((c.tc : Thread nD τ).loc main_arg0)) (m ((c.tc : Thread nD τ).loc main_arg1)) := by
  exact st24 (Wk23 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live23 m c).1 (live23 m c).2.1 (live23 m c).2.2.1 (live23 m c).2.2.2.1 (live23 m c).2.2.2.2.1 (live23 m c).2.2.2.2.2.1 (live23 m c).2.2.2.2.2.2.1 (live23 m c).2.2.2.2.2.2.2.1 (live23 m c).2.2.2.2.2.2.2.2.1 (live23 m c).2.2.2.2.2.2.2.2.2.1 (live23 m c).2.2.2.2.2.2.2.2.2.2.1 (live23 m c).2.2.2.2.2.2.2.2.2.2.2.1 (live23 m c).2.2.2.2.2.2.2.2.2.2.2.2.1 (live23 m c).2.2.2.2.2.2.2.2.2.2.2.2.2

theorem live25 (c : Dev nD) : Wk25 m c (Proc.devRef .tc main_arg0) = m ((c.tc : Thread nD τ).loc main_arg0) ∧ Wk25 m c (Proc.devRef .tc main_arg1) = m ((c.tc : Thread nD τ).loc main_arg1) ∧ Wk25 m c (Proc.devRef .tc main_arg2) = m ((c.tc : Thread nD τ).loc main_arg2) ∧ Wk25 m c (Proc.devRef .tc main_arg3) = m ((c.tc : Thread nD τ).loc main_arg3) ∧ Wk25 m c (Proc.devRef .tc main_arg4) = m ((c.tc : Thread nD τ).loc main_arg4) ∧ Wk25 m c (Proc.devRef .tc main_v42) = val_main_v42 (F := F) (m ((c.tc : Thread nD τ).loc main_arg1)) ∧ Wk25 m c (Proc.devRef .tc main_v48) = val_main_v48 (F := F) (m ((c.tc : Thread nD τ).loc main_arg1)) ∧ Wk25 m c (Proc.devRef .tc main_v50) = val_main_v50 (F := F) (m ((c.tc : Thread nD τ).loc main_arg1)) ∧ Wk25 m c (Proc.devRef .tc main_v53) = val_main_v53 (F := F) (m ((c.tc : Thread nD τ).loc main_arg0)) ∧ Wk25 m c (Proc.devRef .tc main_v74) = val_main_v74 (F := F) (m ((c.tc : Thread nD τ).loc main_arg0)) (m ((c.tc : Thread nD τ).loc main_arg1)) ∧ Wk25 m c (Proc.devRef .tc main_v95) = val_main_v95 (F := F) (m ((c.tc : Thread nD τ).loc main_arg0)) (m ((c.tc : Thread nD τ).loc main_arg1)) ∧ Wk25 m c (Proc.devRef .tc main_v116) = val_main_v116 (F := F) (m ((c.tc : Thread nD τ).loc main_arg0)) (m ((c.tc : Thread nD τ).loc main_arg1)) ∧ Wk25 m c (Proc.devRef .tc main_v127) = val_main_v127 (F := F) (m ((c.tc : Thread nD τ).loc main_arg1)) ∧ Wk25 m c (Proc.devRef .tc main_c_40) = val_main_c_40 (F := F) ∧ Wk25 m c (Proc.devRef .tc main_c_41) = val_main_c_41 (F := F) := by
  exact st25 (Wk24 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live24 m c).1 (live24 m c).2.1 (live24 m c).2.2.1 (live24 m c).2.2.2.1 (live24 m c).2.2.2.2.1 (live24 m c).2.2.2.2.2.1 (live24 m c).2.2.2.2.2.2.1 (live24 m c).2.2.2.2.2.2.2.1 (live24 m c).2.2.2.2.2.2.2.2.1 (live24 m c).2.2.2.2.2.2.2.2.2.1 (live24 m c).2.2.2.2.2.2.2.2.2.2.1 (live24 m c).2.2.2.2.2.2.2.2.2.2.2

theorem live26 (c : Dev nD) : Wk26 m c (Proc.devRef .tc main_arg0) = m ((c.tc : Thread nD τ).loc main_arg0) ∧ Wk26 m c (Proc.devRef .tc main_arg1) = m ((c.tc : Thread nD τ).loc main_arg1) ∧ Wk26 m c (Proc.devRef .tc main_arg2) = m ((c.tc : Thread nD τ).loc main_arg2) ∧ Wk26 m c (Proc.devRef .tc main_arg3) = m ((c.tc : Thread nD τ).loc main_arg3) ∧ Wk26 m c (Proc.devRef .tc main_arg4) = m ((c.tc : Thread nD τ).loc main_arg4) ∧ Wk26 m c (Proc.devRef .tc main_v42) = val_main_v42 (F := F) (m ((c.tc : Thread nD τ).loc main_arg1)) ∧ Wk26 m c (Proc.devRef .tc main_v48) = val_main_v48 (F := F) (m ((c.tc : Thread nD τ).loc main_arg1)) ∧ Wk26 m c (Proc.devRef .tc main_v53) = val_main_v53 (F := F) (m ((c.tc : Thread nD τ).loc main_arg0)) ∧ Wk26 m c (Proc.devRef .tc main_v74) = val_main_v74 (F := F) (m ((c.tc : Thread nD τ).loc main_arg0)) (m ((c.tc : Thread nD τ).loc main_arg1)) ∧ Wk26 m c (Proc.devRef .tc main_v95) = val_main_v95 (F := F) (m ((c.tc : Thread nD τ).loc main_arg0)) (m ((c.tc : Thread nD τ).loc main_arg1)) ∧ Wk26 m c (Proc.devRef .tc main_v116) = val_main_v116 (F := F) (m ((c.tc : Thread nD τ).loc main_arg0)) (m ((c.tc : Thread nD τ).loc main_arg1)) ∧ Wk26 m c (Proc.devRef .tc main_v127) = val_main_v127 (F := F) (m ((c.tc : Thread nD τ).loc main_arg1)) ∧ Wk26 m c (Proc.devRef .tc main_v128) = val_main_v128 (F := F) (m ((c.tc : Thread nD τ).loc main_arg1)) := by
  exact st26 (Wk25 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live25 m c).1 (live25 m c).2.1 (live25 m c).2.2.1 (live25 m c).2.2.2.1 (live25 m c).2.2.2.2.1 (live25 m c).2.2.2.2.2.1 (live25 m c).2.2.2.2.2.2.1 (live25 m c).2.2.2.2.2.2.2.1 (live25 m c).2.2.2.2.2.2.2.2.1 (live25 m c).2.2.2.2.2.2.2.2.2.1 (live25 m c).2.2.2.2.2.2.2.2.2.2.1 (live25 m c).2.2.2.2.2.2.2.2.2.2.2.1 (live25 m c).2.2.2.2.2.2.2.2.2.2.2.2.1 (live25 m c).2.2.2.2.2.2.2.2.2.2.2.2.2.1 (live25 m c).2.2.2.2.2.2.2.2.2.2.2.2.2.2

theorem live27 (c : Dev nD) : Wk27 m c (Proc.devRef .tc main_arg0) = m ((c.tc : Thread nD τ).loc main_arg0) ∧ Wk27 m c (Proc.devRef .tc main_arg1) = m ((c.tc : Thread nD τ).loc main_arg1) ∧ Wk27 m c (Proc.devRef .tc main_arg2) = m ((c.tc : Thread nD τ).loc main_arg2) ∧ Wk27 m c (Proc.devRef .tc main_arg3) = m ((c.tc : Thread nD τ).loc main_arg3) ∧ Wk27 m c (Proc.devRef .tc main_arg4) = m ((c.tc : Thread nD τ).loc main_arg4) ∧ Wk27 m c (Proc.devRef .tc main_v42) = val_main_v42 (F := F) (m ((c.tc : Thread nD τ).loc main_arg1)) ∧ Wk27 m c (Proc.devRef .tc main_v48) = val_main_v48 (F := F) (m ((c.tc : Thread nD τ).loc main_arg1)) ∧ Wk27 m c (Proc.devRef .tc main_v53) = val_main_v53 (F := F) (m ((c.tc : Thread nD τ).loc main_arg0)) ∧ Wk27 m c (Proc.devRef .tc main_v74) = val_main_v74 (F := F) (m ((c.tc : Thread nD τ).loc main_arg0)) (m ((c.tc : Thread nD τ).loc main_arg1)) ∧ Wk27 m c (Proc.devRef .tc main_v95) = val_main_v95 (F := F) (m ((c.tc : Thread nD τ).loc main_arg0)) (m ((c.tc : Thread nD τ).loc main_arg1)) ∧ Wk27 m c (Proc.devRef .tc main_v116) = val_main_v116 (F := F) (m ((c.tc : Thread nD τ).loc main_arg0)) (m ((c.tc : Thread nD τ).loc main_arg1)) ∧ Wk27 m c (Proc.devRef .tc main_v127) = val_main_v127 (F := F) (m ((c.tc : Thread nD τ).loc main_arg1)) ∧ Wk27 m c (Proc.devRef .tc main_v130) = val_main_v130 (F := F) (m ((c.tc : Thread nD τ).loc main_arg1)) ∧ Wk27 m c (Proc.devRef .tc main_c_43) = val_main_c_43 (F := F) ∧ Wk27 m c (Proc.devRef .tc main_c_44) = val_main_c_44 (F := F) := by
  exact st27 (Wk26 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live26 m c).1 (live26 m c).2.1 (live26 m c).2.2.1 (live26 m c).2.2.2.1 (live26 m c).2.2.2.2.1 (live26 m c).2.2.2.2.2.1 (live26 m c).2.2.2.2.2.2.1 (live26 m c).2.2.2.2.2.2.2.1 (live26 m c).2.2.2.2.2.2.2.2.1 (live26 m c).2.2.2.2.2.2.2.2.2.1 (live26 m c).2.2.2.2.2.2.2.2.2.2.1 (live26 m c).2.2.2.2.2.2.2.2.2.2.2.1 (live26 m c).2.2.2.2.2.2.2.2.2.2.2.2

theorem live28 (c : Dev nD) : Wk28 m c (Proc.devRef .tc main_arg0) = m ((c.tc : Thread nD τ).loc main_arg0) ∧ Wk28 m c (Proc.devRef .tc main_arg1) = m ((c.tc : Thread nD τ).loc main_arg1) ∧ Wk28 m c (Proc.devRef .tc main_arg2) = m ((c.tc : Thread nD τ).loc main_arg2) ∧ Wk28 m c (Proc.devRef .tc main_arg3) = m ((c.tc : Thread nD τ).loc main_arg3) ∧ Wk28 m c (Proc.devRef .tc main_arg4) = m ((c.tc : Thread nD τ).loc main_arg4) ∧ Wk28 m c (Proc.devRef .tc main_v42) = val_main_v42 (F := F) (m ((c.tc : Thread nD τ).loc main_arg1)) ∧ Wk28 m c (Proc.devRef .tc main_v53) = val_main_v53 (F := F) (m ((c.tc : Thread nD τ).loc main_arg0)) ∧ Wk28 m c (Proc.devRef .tc main_v74) = val_main_v74 (F := F) (m ((c.tc : Thread nD τ).loc main_arg0)) (m ((c.tc : Thread nD τ).loc main_arg1)) ∧ Wk28 m c (Proc.devRef .tc main_v95) = val_main_v95 (F := F) (m ((c.tc : Thread nD τ).loc main_arg0)) (m ((c.tc : Thread nD τ).loc main_arg1)) ∧ Wk28 m c (Proc.devRef .tc main_v116) = val_main_v116 (F := F) (m ((c.tc : Thread nD τ).loc main_arg0)) (m ((c.tc : Thread nD τ).loc main_arg1)) ∧ Wk28 m c (Proc.devRef .tc main_v127) = val_main_v127 (F := F) (m ((c.tc : Thread nD τ).loc main_arg1)) ∧ Wk28 m c (Proc.devRef .tc main_v130) = val_main_v130 (F := F) (m ((c.tc : Thread nD τ).loc main_arg1)) ∧ Wk28 m c (Proc.devRef .tc main_v131) = val_main_v131 (F := F) (m ((c.tc : Thread nD τ).loc main_arg1)) := by
  exact st28 (Wk27 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live27 m c).1 (live27 m c).2.1 (live27 m c).2.2.1 (live27 m c).2.2.2.1 (live27 m c).2.2.2.2.1 (live27 m c).2.2.2.2.2.1 (live27 m c).2.2.2.2.2.2.1 (live27 m c).2.2.2.2.2.2.2.1 (live27 m c).2.2.2.2.2.2.2.2.1 (live27 m c).2.2.2.2.2.2.2.2.2.1 (live27 m c).2.2.2.2.2.2.2.2.2.2.1 (live27 m c).2.2.2.2.2.2.2.2.2.2.2.1 (live27 m c).2.2.2.2.2.2.2.2.2.2.2.2.1 (live27 m c).2.2.2.2.2.2.2.2.2.2.2.2.2.1 (live27 m c).2.2.2.2.2.2.2.2.2.2.2.2.2.2

theorem live29 (c : Dev nD) : Wk29 m c (Proc.devRef .tc main_arg0) = m ((c.tc : Thread nD τ).loc main_arg0) ∧ Wk29 m c (Proc.devRef .tc main_arg1) = m ((c.tc : Thread nD τ).loc main_arg1) ∧ Wk29 m c (Proc.devRef .tc main_arg2) = m ((c.tc : Thread nD τ).loc main_arg2) ∧ Wk29 m c (Proc.devRef .tc main_arg3) = m ((c.tc : Thread nD τ).loc main_arg3) ∧ Wk29 m c (Proc.devRef .tc main_arg4) = m ((c.tc : Thread nD τ).loc main_arg4) ∧ Wk29 m c (Proc.devRef .tc main_v42) = val_main_v42 (F := F) (m ((c.tc : Thread nD τ).loc main_arg1)) ∧ Wk29 m c (Proc.devRef .tc main_v53) = val_main_v53 (F := F) (m ((c.tc : Thread nD τ).loc main_arg0)) ∧ Wk29 m c (Proc.devRef .tc main_v74) = val_main_v74 (F := F) (m ((c.tc : Thread nD τ).loc main_arg0)) (m ((c.tc : Thread nD τ).loc main_arg1)) ∧ Wk29 m c (Proc.devRef .tc main_v95) = val_main_v95 (F := F) (m ((c.tc : Thread nD τ).loc main_arg0)) (m ((c.tc : Thread nD τ).loc main_arg1)) ∧ Wk29 m c (Proc.devRef .tc main_v116) = val_main_v116 (F := F) (m ((c.tc : Thread nD τ).loc main_arg0)) (m ((c.tc : Thread nD τ).loc main_arg1)) ∧ Wk29 m c (Proc.devRef .tc main_v127) = val_main_v127 (F := F) (m ((c.tc : Thread nD τ).loc main_arg1)) ∧ Wk29 m c (Proc.devRef .tc main_v133) = val_main_v133 (F := F) (m ((c.tc : Thread nD τ).loc main_arg1)) := by
  exact st29 (Wk28 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live28 m c).1 (live28 m c).2.1 (live28 m c).2.2.1 (live28 m c).2.2.2.1 (live28 m c).2.2.2.2.1 (live28 m c).2.2.2.2.2.1 (live28 m c).2.2.2.2.2.2.1 (live28 m c).2.2.2.2.2.2.2.1 (live28 m c).2.2.2.2.2.2.2.2.1 (live28 m c).2.2.2.2.2.2.2.2.2.1 (live28 m c).2.2.2.2.2.2.2.2.2.2.1 (live28 m c).2.2.2.2.2.2.2.2.2.2.2.1 (live28 m c).2.2.2.2.2.2.2.2.2.2.2.2

theorem live30 (c : Dev nD) : Wk30 m c (Proc.devRef .tc main_arg0) = m ((c.tc : Thread nD τ).loc main_arg0) ∧ Wk30 m c (Proc.devRef .tc main_arg1) = m ((c.tc : Thread nD τ).loc main_arg1) ∧ Wk30 m c (Proc.devRef .tc main_arg2) = m ((c.tc : Thread nD τ).loc main_arg2) ∧ Wk30 m c (Proc.devRef .tc main_arg3) = m ((c.tc : Thread nD τ).loc main_arg3) ∧ Wk30 m c (Proc.devRef .tc main_arg4) = m ((c.tc : Thread nD τ).loc main_arg4) ∧ Wk30 m c (Proc.devRef .tc main_v42) = val_main_v42 (F := F) (m ((c.tc : Thread nD τ).loc main_arg1)) ∧ Wk30 m c (Proc.devRef .tc main_v74) = val_main_v74 (F := F) (m ((c.tc : Thread nD τ).loc main_arg0)) (m ((c.tc : Thread nD τ).loc main_arg1)) ∧ Wk30 m c (Proc.devRef .tc main_v95) = val_main_v95 (F := F) (m ((c.tc : Thread nD τ).loc main_arg0)) (m ((c.tc : Thread nD τ).loc main_arg1)) ∧ Wk30 m c (Proc.devRef .tc main_v116) = val_main_v116 (F := F) (m ((c.tc : Thread nD τ).loc main_arg0)) (m ((c.tc : Thread nD τ).loc main_arg1)) ∧ Wk30 m c (Proc.devRef .tc main_v127) = val_main_v127 (F := F) (m ((c.tc : Thread nD τ).loc main_arg1)) ∧ Wk30 m c (Proc.devRef .tc main_v134) = val_main_v134 (F := F) (m ((c.tc : Thread nD τ).loc main_arg0)) (m ((c.tc : Thread nD τ).loc main_arg1)) := by
  exact st30 (Wk29 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live29 m c).1 (live29 m c).2.1 (live29 m c).2.2.1 (live29 m c).2.2.2.1 (live29 m c).2.2.2.2.1 (live29 m c).2.2.2.2.2.1 (live29 m c).2.2.2.2.2.2.1 (live29 m c).2.2.2.2.2.2.2.1 (live29 m c).2.2.2.2.2.2.2.2.1 (live29 m c).2.2.2.2.2.2.2.2.2.1 (live29 m c).2.2.2.2.2.2.2.2.2.2.1 (live29 m c).2.2.2.2.2.2.2.2.2.2.2

theorem live31 (c : Dev nD) : Wk31 m c (Proc.devRef .tc main_arg0) = m ((c.tc : Thread nD τ).loc main_arg0) ∧ Wk31 m c (Proc.devRef .tc main_arg1) = m ((c.tc : Thread nD τ).loc main_arg1) ∧ Wk31 m c (Proc.devRef .tc main_arg2) = m ((c.tc : Thread nD τ).loc main_arg2) ∧ Wk31 m c (Proc.devRef .tc main_arg3) = m ((c.tc : Thread nD τ).loc main_arg3) ∧ Wk31 m c (Proc.devRef .tc main_arg4) = m ((c.tc : Thread nD τ).loc main_arg4) ∧ Wk31 m c (Proc.devRef .tc main_v42) = val_main_v42 (F := F) (m ((c.tc : Thread nD τ).loc main_arg1)) ∧ Wk31 m c (Proc.devRef .tc main_v74) = val_main_v74 (F := F) (m ((c.tc : Thread nD τ).loc main_arg0)) (m ((c.tc : Thread nD τ).loc main_arg1)) ∧ Wk31 m c (Proc.devRef .tc main_v95) = val_main_v95 (F := F) (m ((c.tc : Thread nD τ).loc main_arg0)) (m ((c.tc : Thread nD τ).loc main_arg1)) ∧ Wk31 m c (Proc.devRef .tc main_v116) = val_main_v116 (F := F) (m ((c.tc : Thread nD τ).loc main_arg0)) (m ((c.tc : Thread nD τ).loc main_arg1)) ∧ Wk31 m c (Proc.devRef .tc main_v135) = val_main_v135 (F := F) (m ((c.tc : Thread nD τ).loc main_arg0)) (m ((c.tc : Thread nD τ).loc main_arg1)) ∧ Wk31 m c (Proc.devRef .tc main_v136) = val_main_v136 (F := F) (m ((c.tc : Thread nD τ).loc main_arg1)) ∧ Wk31 m c (Proc.devRef .tc main_cst_45) = val_main_cst_45 (F := F) := by
  exact st31 (Wk30 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live30 m c).1 (live30 m c).2.1 (live30 m c).2.2.1 (live30 m c).2.2.2.1 (live30 m c).2.2.2.2.1 (live30 m c).2.2.2.2.2.1 (live30 m c).2.2.2.2.2.2.1 (live30 m c).2.2.2.2.2.2.2.1 (live30 m c).2.2.2.2.2.2.2.2.1 (live30 m c).2.2.2.2.2.2.2.2.2.1 (live30 m c).2.2.2.2.2.2.2.2.2.2

theorem live32 (c : Dev nD) : Wk32 m c (Proc.devRef .tc main_arg0) = m ((c.tc : Thread nD τ).loc main_arg0) ∧ Wk32 m c (Proc.devRef .tc main_arg1) = m ((c.tc : Thread nD τ).loc main_arg1) ∧ Wk32 m c (Proc.devRef .tc main_arg2) = m ((c.tc : Thread nD τ).loc main_arg2) ∧ Wk32 m c (Proc.devRef .tc main_arg3) = m ((c.tc : Thread nD τ).loc main_arg3) ∧ Wk32 m c (Proc.devRef .tc main_arg4) = m ((c.tc : Thread nD τ).loc main_arg4) ∧ Wk32 m c (Proc.devRef .tc main_v42) = val_main_v42 (F := F) (m ((c.tc : Thread nD τ).loc main_arg1)) ∧ Wk32 m c (Proc.devRef .tc main_v74) = val_main_v74 (F := F) (m ((c.tc : Thread nD τ).loc main_arg0)) (m ((c.tc : Thread nD τ).loc main_arg1)) ∧ Wk32 m c (Proc.devRef .tc main_v95) = val_main_v95 (F := F) (m ((c.tc : Thread nD τ).loc main_arg0)) (m ((c.tc : Thread nD τ).loc main_arg1)) ∧ Wk32 m c (Proc.devRef .tc main_v116) = val_main_v116 (F := F) (m ((c.tc : Thread nD τ).loc main_arg0)) (m ((c.tc : Thread nD τ).loc main_arg1)) ∧ Wk32 m c (Proc.devRef .tc main_v137) = val_main_v137 (F := F) (m ((c.tc : Thread nD τ).loc main_arg0)) (m ((c.tc : Thread nD τ).loc main_arg1)) := by
  exact st32 (Wk31 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live31 m c).1 (live31 m c).2.1 (live31 m c).2.2.1 (live31 m c).2.2.2.1 (live31 m c).2.2.2.2.1 (live31 m c).2.2.2.2.2.1 (live31 m c).2.2.2.2.2.2.1 (live31 m c).2.2.2.2.2.2.2.1 (live31 m c).2.2.2.2.2.2.2.2.1 (live31 m c).2.2.2.2.2.2.2.2.2.1 (live31 m c).2.2.2.2.2.2.2.2.2.2.1 (live31 m c).2.2.2.2.2.2.2.2.2.2.2

theorem live33 (c : Dev nD) : Wk33 m c (Proc.devRef .tc main_arg0) = m ((c.tc : Thread nD τ).loc main_arg0) ∧ Wk33 m c (Proc.devRef .tc main_arg1) = m ((c.tc : Thread nD τ).loc main_arg1) ∧ Wk33 m c (Proc.devRef .tc main_arg2) = m ((c.tc : Thread nD τ).loc main_arg2) ∧ Wk33 m c (Proc.devRef .tc main_arg3) = m ((c.tc : Thread nD τ).loc main_arg3) ∧ Wk33 m c (Proc.devRef .tc main_arg4) = m ((c.tc : Thread nD τ).loc main_arg4) ∧ Wk33 m c (Proc.devRef .tc main_v169) = val_main_v169 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  exact st33 (Wk32 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (live32 m c).1 (live32 m c).2.1 (live32 m c).2.2.1 (live32 m c).2.2.2.1 (live32 m c).2.2.2.2.1 (live32 m c).2.2.2.2.2.1 (live32 m c).2.2.2.2.2.2.1 (live32 m c).2.2.2.2.2.2.2.1 (live32 m c).2.2.2.2.2.2.2.2.1 (live32 m c).2.2.2.2.2.2.2.2.2

/-- The contents after all the operations are the contents after the last chunk. -/
theorem after_ops (c : Dev nD) : after (ops : List (HloOp τ sig (Elt F))) (launchContents m c) = Wk33 m c := by
  rw [ops_split]
  simp only [StableHlo.after_append]
  rfl

/-- THE REFERENCE'S RUN: every weakly fair execution terminates with the result buffer at the last stage of the
    arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v169) = val_main_v169 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
    :=
  (θ_run defs _ _).mono (fun _ h c => ⟨(h c main_v169).trans ((congrFun (after_ops m c) _).trans (live33 m c).2.2.2.2.2),
      (h c main_arg0).trans ((congrFun (after_ops m c) _).trans (live33 m c).1),
      (h c main_arg1).trans ((congrFun (after_ops m c) _).trans (live33 m c).2.1),
      (h c main_arg2).trans ((congrFun (after_ops m c) _).trans (live33 m c).2.2.1),
      (h c main_arg3).trans ((congrFun (after_ops m c) _).trans (live33 m c).2.2.2.1),
      (h c main_arg4).trans ((congrFun (after_ops m c) _).trans (live33 m c).2.2.2.2.1)⟩)
    (run_seq scopedRefs_eq scopedSems_eq defs main (fun _ => ops) main_eq (fun _ => ops_sub) m ρ (fun _ => ops_fresh))

end Cert.ReferenceIdeal.RPre

end
-- ==== Proof.RCoord.lean ====
/-
  The reference program's host operations that build the sampling coordinates, read at one output position and tap:
  the offsets re-laid as [batch, group, row, column, tap, axis] (one group) plus the base grid give the fractional
  coordinate; its floor converted to an integer is the cell, the cell plus one its neighbour, coordinate minus floor
  the fractional part; and the mask re-laid as [batch, group, row, column, tap].
-/
import proofs.«412700_j5961414607249_3_alg».proof.Proof.RefReadP
import proofs.«412700_j5961414607249_3_alg».proof.Proof.Spec
import proofs.«412700_j5961414607249_3_alg».proof.Proof.LibDeformLayout
import Idealize.ShloMosaic.Lib.Pipeline.Value
import Idealize.ShloMosaic.Lib.ValueIdx
import Idealize.ShloMosaic.Lib.ValueLayout

noncomputable section

open Idealize.ShloMosaic Idealize.ShloMosaic.ValueIdx DeformSpec DeformLib

namespace Cert.ReferenceIdeal.RCoord

open Cert.ReferenceIdeal Cert.ReferenceIdeal.Gen Cert.ReferenceIdeal.ReadP

variable (x1 : (⟨S8x18x56x56, .f32⟩ : BufTy).Contents (Elt Ideal)) (x2 : (⟨S8x9x56x56, .f32⟩ : BufTy).Contents (Elt Ideal))
variable (b : Fin 8) (oh ow : Fin 56) (k : Fin 9)

/-! ## The base grid -/

/-- The reshape [56,56,3,3] → [56,56,9] reads tap k at (k / 3, k % 3). -/
theorem idx_v28_at : idx_main_v28 (ix3 oh ow k) = ix4 oh ow (tapRow k) (tapCol k) := by
  funext a
  refine Fin.ext ?_
  have h0 := oh.isLt
  have h1 := ow.isLt
  have h2 := k.isLt
  match a with
  | ⟨0, _⟩ => show ((oh.val * 56 + ow.val) * 9 + k.val) / 504 = oh.val; omega
  | ⟨1, _⟩ => show ((oh.val * 56 + ow.val) * 9 + k.val) / 9 % 56 = ow.val; omega
  | ⟨2, _⟩ => show ((oh.val * 56 + ow.val) * 9 + k.val) / 3 % 3 = k.val / 3; omega
  | ⟨3, _⟩ => show ((oh.val * 56 + ow.val) * 9 + k.val) % 3 = k.val % 3; omega

theorem idx_v32_at : idx_main_v32 (ix4 oh ow k (0 : Fin 1)) = ix3 oh ow k := by
  funext a; refine Fin.ext ?_
  match a with
  | ⟨0, _⟩ => rfl
  | ⟨1, _⟩ => rfl
  | ⟨2, _⟩ => rfl

/-- The first piece of the base grid: the row coordinate oh − 1 + k / 3 of tap k, as a word. -/
theorem base_row : val_main_v34 (F := Ideal) (ix4 oh ow k 0) = baseW oh (tapRow k) := by
  unfold val_main_v34
  rw [concat2_last_apply, if_pos (show ((0 : Fin 2) : Nat) = 0 from rfl), val_main_v32_apply, val_main_v28_apply,
    idx_v32_at, idx_v28_at, val_main_v27_apply, val_main_v26_apply]
  rfl

/-- The second piece: the column coordinate ow − 1 + k % 3. -/
theorem base_col : val_main_v34 (F := Ideal) (ix4 oh ow k 1) = baseW ow (tapCol k) := by
  unfold val_main_v34
  rw [concat2_last_apply, if_neg (show ¬ ((1 : Fin 2) : Nat) = 0 from Nat.one_ne_zero), val_main_v33_apply,
    val_main_v31_apply]
  rw [show idx_main_v33 (ix4 oh ow k (0 : Fin 1)) = ix3 oh ow k from idx_v32_at oh ow k,
    show idx_main_v31 (ix3 oh ow k) = ix4 oh ow (tapRow k) (tapCol k) from idx_v28_at oh ow k,
    val_main_v30_apply, val_main_v29_apply]
  rfl

/-! ## The two reshapes above rank five -/

/-- The offsets' reshape [8,18,56,56] → [8,1,9,2,56,56]: (tap k, axis j) is channel 2k + j. -/
theorem v36_at (j : Fin 2) :
    val_main_v36 (F := Ideal) x1 (ix6 b 0 k j oh ow) = x1 (ix4 b ⟨2 * k.val + j.val, by omega⟩ oh ow) := by
  unfold val_main_v36
  refine shapeCast_apply x1 shapeCasts_S8x18x56x56_S8x1x9x2x56x56 _ _ ?_
  rw [Shape.rowMajor_val_four, Shape.rowMajor_val_six]
  show ((b.val * 18 + (2 * k.val + j.val)) * 56 + oh.val) * 56 + ow.val
    = ((((b.val * 1 + 0) * 9 + k.val) * 2 + j.val) * 56 + oh.val) * 56 + ow.val
  omega

/-- Dropping the trailing axis of extent one of an array [8,1,56,56,9,1]. -/
theorem dropLast_at {α : Type} (y : S8x1x56x56x9x1.Idx → α) :
    shapeCast S8x1x56x56x9 y shapeCasts_S8x1x56x56x9x1_S8x1x56x56x9 (ix5 b 0 oh ow k) = y (ix6 b 0 oh ow k 0) := by
  refine shapeCast_apply y shapeCasts_S8x1x56x56x9x1_S8x1x56x56x9 _ _ ?_
  rw [Shape.rowMajor_val_six, Shape.rowMajor_val_five]
  show (((((b.val * 1 + 0) * 56 + oh.val) * 56 + ow.val) * 9 + k.val) * 1 + 0)
    = ((((b.val * 1 + 0) * 56 + oh.val) * 56 + ow.val) * 9 + k.val)
  omega

/-! ## The coordinate, its cell and its fractional part -/

/-- The coordinate array at (b, 0, oh, ow, k, j): the offset of channel 2k + j plus the base coordinate. -/
theorem v40_at (j : Fin 2) :
    val_main_v40 (F := Ideal) x1 (ix6 b 0 oh ow k j)
      = x1 (ix4 b ⟨2 * k.val + j.val, by omega⟩ oh ow) + ofI32 (val_main_v34 (F := Ideal) (ix4 oh ow k j)) := by
  rw [val_main_v40_apply, val_main_v37_apply, val_main_v39_apply, val_main_v38_apply, val_main_v35_apply]
  rw [show idx_main_v37 (ix6 b (0 : Fin 1) oh ow k j) = ix6 b 0 k j oh ow from
      funext fun a => Fin.ext (by
        match a with
        | ⟨0, _⟩ => rfl
        | ⟨1, _⟩ => rfl
        | ⟨2, _⟩ => rfl
        | ⟨3, _⟩ => rfl
        | ⟨4, _⟩ => rfl
        | ⟨5, _⟩ => rfl),
    show idx_main_v38 (idx_main_v39 (ix6 b (0 : Fin 1) oh ow k j)) = ix4 oh ow k j from
      funext fun a => Fin.ext (by
        match a with
        | ⟨0, _⟩ => rfl
        | ⟨1, _⟩ => rfl
        | ⟨2, _⟩ => rfl
        | ⟨3, _⟩ => rfl),
    v36_at]
  rfl

/-- The fractional row coordinate of tap k at (b, oh, ow). -/
theorem coord_row : val_main_v40 (F := Ideal) x1 (ix6 b 0 oh ow k 0) = coordRow (x1 (ix4 b (chRow k) oh ow)) oh k := by
  rw [v40_at, base_row]
  rfl

/-- The fractional column coordinate. -/
theorem coord_col : val_main_v40 (F := Ideal) x1 (ix6 b 0 oh ow k 1) = coordCol (x1 (ix4 b (chCol k) oh ow)) ow k := by
  rw [v40_at, base_col]
  rfl

/-- The floor array is the floor of the coordinate array, element by element. -/
theorem v41_at (j : Fin 2) :
    val_main_v41 (F := Ideal) x1 (ix6 b 0 oh ow k j) = floorS (val_main_v40 (F := Ideal) x1 (ix6 b 0 oh ow k j)) := rfl

/-- The slice [.., 0:1] of an array [8,1,56,56,9,2] is read at last coordinate 0, the slice [.., 1:2] at 1. -/
theorem idx_v43_at : idx_main_v43 (ix6 b (0 : Fin 1) oh ow k (0 : Fin 1)) = ix6 b 0 oh ow k 0 := by
  funext a; refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem idx_v46_at : idx_main_v46 (ix6 b (0 : Fin 1) oh ow k (0 : Fin 1)) = ix6 b 0 oh ow k 1 := by
  funext a; refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

/-- The re-laying [8,1,56,56,9] → [8,1,1,56,56,9] reads (b, 0, 0, oh, ow, k) at (b, 0, oh, ow, k). -/
theorem idx_v140_at : idx_main_v140 (ix6 b (0 : Fin 1) (0 : Fin 1) oh ow k) = ix5 b 0 oh ow k := by
  funext a; refine Fin.ext ?_
  match a with
  | ⟨0, _⟩ => rfl
  | ⟨1, _⟩ => rfl
  | ⟨2, _⟩ => rfl
  | ⟨3, _⟩ => rfl
  | ⟨4, _⟩ => rfl

/-- The integer cell of the row coordinate, -/
theorem cell_row : val_main_v45 (F := Ideal) x1 (ix5 b 0 oh ow k) = cell (coordRow (x1 (ix4 b (chRow k) oh ow)) oh k) := by
  rw [val_main_v45_apply]
  unfold val_main_v44
  rw [dropLast_at, val_main_v43_apply, idx_v43_at, v41_at, coord_row]
  rfl

/-- of the column coordinate, -/
theorem cell_col : val_main_v48 (F := Ideal) x1 (ix5 b 0 oh ow k) = cell (coordCol (x1 (ix4 b (chCol k) oh ow)) ow k) := by
  rw [val_main_v48_apply]
  unfold val_main_v47
  rw [dropLast_at, val_main_v46_apply, idx_v46_at, v41_at, coord_col]
  rfl

/-- and each plus one. -/
theorem cell_row1 : val_main_v50 (F := Ideal) x1 (ix5 b 0 oh ow k)
    = IntOp.addi (cell (coordRow (x1 (ix4 b (chRow k) oh ow)) oh k)) 1#32 := by
  rw [val_main_v50_apply, cell_row]
  rfl

theorem cell_col1 : val_main_v52 (F := Ideal) x1 (ix5 b 0 oh ow k)
    = IntOp.addi (cell (coordCol (x1 (ix4 b (chCol k) oh ow)) ow k)) 1#32 := by
  rw [val_main_v52_apply, cell_col]
  rfl

/-- The fractional parts, as the arrays [8, 1, 1, 56, 56, 9] the interpolation broadcasts over the channels. -/
theorem frac_row : val_main_v140 (F := Ideal) x1 (ix6 b 0 0 oh ow k) = frac (coordRow (x1 (ix4 b (chRow k) oh ow)) oh k) := by
  rw [val_main_v140_apply, idx_v140_at]
  unfold val_main_v139
  rw [dropLast_at, val_main_v138_apply,
    show idx_main_v138 (ix6 b (0 : Fin 1) oh ow k (0 : Fin 1)) = ix6 b 0 oh ow k 0 from idx_v43_at b oh ow k,
    val_main_v42_apply, v41_at, coord_row]
  rfl

theorem frac_col : val_main_v143 (F := Ideal) x1 (ix6 b 0 0 oh ow k) = frac (coordCol (x1 (ix4 b (chCol k) oh ow)) ow k) := by
  rw [val_main_v143_apply,
    show idx_main_v143 (ix6 b (0 : Fin 1) (0 : Fin 1) oh ow k) = ix5 b 0 oh ow k from idx_v140_at b oh ow k]
  unfold val_main_v142
  rw [dropLast_at, val_main_v141_apply,
    show idx_main_v141 (ix6 b (0 : Fin 1) oh ow k (0 : Fin 1)) = ix6 b 0 oh ow k 1 from idx_v46_at b oh ow k,
    val_main_v42_apply, v41_at, coord_col]
  rfl

/-- The modulation mask as such an array. -/
theorem mask_at : val_main_v158 (F := Ideal) x2 (ix6 b 0 0 oh ow k) = x2 (ix4 b k oh ow) := by
  rw [val_main_v158_apply,
    show idx_main_v158 (ix6 b (0 : Fin 1) (0 : Fin 1) oh ow k) = ix5 b 0 oh ow k from idx_v140_at b oh ow k,
    val_main_v157_apply, val_main_v156_apply]
  congr 1
  funext a; refine Fin.ext ?_
  have h0 := b.isLt
  have h2 := k.isLt
  have h3 := oh.isLt
  have h4 := ow.isLt
  match a with
  | ⟨0, _⟩ => show ((((b.val * 1 + 0) * 9 + k.val) * 56 + oh.val) * 56 + ow.val) / 28224 = b.val; omega
  | ⟨1, _⟩ => show ((((b.val * 1 + 0) * 9 + k.val) * 56 + oh.val) * 56 + ow.val) / 3136 % 9 = k.val; omega
  | ⟨2, _⟩ => show ((((b.val * 1 + 0) * 9 + k.val) * 56 + oh.val) * 56 + ow.val) / 56 % 56 = oh.val; omega
  | ⟨3, _⟩ => show ((((b.val * 1 + 0) * 9 + k.val) * 56 + oh.val) * 56 + ow.val) % 56 = ow.val; omega

end Cert.ReferenceIdeal.RCoord

end
-- ==== Proof.RCorner.lean ====
/-
  One neighbour of the bilinear sample in the reference program: the validity test of an integer coordinate pair,
  its clipped flat position, the gather of the channels-first image at that position in fill mode, and the
  replacement by zero outside the image — read at one output position, tap and channel. The program runs this chain
  four times, at (cell, cell), (cell + 1, cell + 1), (cell, cell + 1) and (cell + 1, cell).
-/
import proofs.«412700_j5961414607249_3_alg».proof.Proof.RefReadP
import proofs.«412700_j5961414607249_3_alg».proof.Proof.Spec
import proofs.«412700_j5961414607249_3_alg».proof.Proof.LibDeformLayout
import Idealize.ShloMosaic.Lib.Pipeline.Value
import Idealize.ShloMosaic.Lib.ValueIdx
import Idealize.ShloMosaic.Lib.ValueLayout

noncomputable section

open Idealize.ShloMosaic Idealize.ShloMosaic.ValueIdx DeformSpec DeformLib

namespace Cert.ReferenceIdeal.RCorner

open Cert.ReferenceIdeal Cert.ReferenceIdeal.Gen Cert.ReferenceIdeal.ReadP

variable (x0 : (⟨S8x256x56x56, .f32⟩ : BufTy).Contents (Elt Ideal)) (x1 : (⟨S8x18x56x56, .f32⟩ : BufTy).Contents (Elt Ideal))
variable (b : Fin 8) (oh ow : Fin 56) (k : Fin 9) (c : Fin 256)

/-- Batch b's channel c of the image argument as a flat row of 3136 pixels. -/
def imgR (x0 : (⟨S8x256x56x56, .f32⟩ : BufTy).Contents (Elt Ideal)) (b : Fin 8) (c : Fin 256) (s : Fin 3136) : R :=
  x0 (ix4 b c ⟨s.val / 56, by omega⟩ ⟨s.val % 56, by omega⟩)

/-! ## What the four neighbours share -/

/-- The flat position of output position (oh, ow) and tap k among the 28224 = 56·56·9 sampling points. -/
def pos (oh ow : Fin 56) (k : Fin 9) : Fin 28224 := ⟨(oh.val * 56 + ow.val) * 9 + k.val, by omega⟩

/-- The image reshaped [8, 256, 56, 56] → [8, 1, 256, 3136] read at (b, 0, c, s): pixel s of channel c is
    (s / 56, s % 56). -/
theorem v53_at (s : Fin 3136) : val_main_v53 (F := Ideal) x0 (ix4 b 0 c s) = imgR x0 b c s := by
  rw [val_main_v53_apply]
  unfold imgR
  refine congrArg _ (funext fun a => Fin.ext ?_)
  have hb := b.isLt; have hc := c.isLt; have hs := s.isLt
  match a with
  | ⟨0, _⟩ => show (((b.val * 1 + 0) * 256 + c.val) * 3136 + s.val) / 802816 = b.val; omega
  | ⟨1, _⟩ => show (((b.val * 1 + 0) * 256 + c.val) * 3136 + s.val) / 3136 % 256 = c.val; omega
  | ⟨2, _⟩ => show (((b.val * 1 + 0) * 256 + c.val) * 3136 + s.val) / 56 % 56 = s.val / 56; omega
  | ⟨3, _⟩ => show (((b.val * 1 + 0) * 256 + c.val) * 3136 + s.val) % 56 = s.val % 56; omega

/-- The reshape [8, 1, 256, 28224] → [8, 1, 256, 56, 56, 9] read at (b, 0, c, oh, ow, k), over any operand: both
    indices have the row-major position ((b·256 + c)·56 + oh)·56·9 + ow·9 + k. -/
theorem reshape6_at {α : Type} (y : S8x1x256x28224.Idx → α) (h : S8x1x256x28224.ShapeCasts S8x1x256x56x56x9) :
    shapeCast S8x1x256x56x56x9 y h (ix6 b 0 c oh ow k) = y (ix4 b 0 c (pos oh ow k)) := by
  refine shapeCast_apply y h _ _ ?_
  rw [Shape.rowMajor_val_four, Shape.rowMajor_val_six]
  have hb := b.isLt; have hc := c.isLt; have hoh := oh.isLt; have how := ow.isLt; have hk := k.isLt
  show ((b.val * 1 + 0) * 256 + c.val) * 28224 + ((oh.val * 56 + ow.val) * 9 + k.val)
    = ((((b.val * 1 + 0) * 256 + c.val) * 56 + oh.val) * 56 + ow.val) * 9 + k.val
  omega

/-! ## The neighbour at (row cell, column cell) -/

/-- The validity bit: both integer coordinates inside the image. -/
theorem valid_lt (i : S8x1x56x56x9.Idx) :
    val_main_v64 (F := Ideal) x1 i = inImage (val_main_v45 (F := Ideal) x1 i) (val_main_v48 (F := Ideal) x1 i) := rfl

/-- The flat position 56·row + column of the two clipped coordinates. -/
theorem flat_lt (i : S8x1x56x56x9.Idx) :
    val_main_v69 (F := Ideal) x1 i = flat (val_main_v45 (F := Ideal) x1 i) (val_main_v48 (F := Ideal) x1 i) := rfl

/-- The flat positions laid out as [8, 1, 1, 28224], read at (b, 0, 0, pos oh ow k). -/
theorem flatRow_lt : val_main_v70 (F := Ideal) x1 (ix4 b 0 0 (pos oh ow k)) = val_main_v69 (F := Ideal) x1 (ix5 b 0 oh ow k) := by
  rw [val_main_v70_apply]
  refine congrArg _ (funext fun a => Fin.ext ?_)
  have hb := b.isLt; have hoh := oh.isLt; have how := ow.isLt; have hk := k.isLt
  match a with
  | ⟨0, _⟩ => show (((b.val * 1 + 0) * 1 + 0) * 28224 + ((oh.val * 56 + ow.val) * 9 + k.val)) / 28224 = b.val; omega
  | ⟨1, _⟩ => rfl
  | ⟨2, _⟩ => show (((b.val * 1 + 0) * 1 + 0) * 28224 + ((oh.val * 56 + ow.val) * 9 + k.val)) / 504 % 56 = oh.val; omega
  | ⟨3, _⟩ => show (((b.val * 1 + 0) * 1 + 0) * 28224 + ((oh.val * 56 + ow.val) * 9 + k.val)) / 9 % 56 = ow.val; omega
  | ⟨4, _⟩ => show (((b.val * 1 + 0) * 1 + 0) * 28224 + ((oh.val * 56 + ow.val) * 9 + k.val)) % 9 = k.val; omega

/-- The rule for a negative index: 3136 is added to it. -/
theorem wrap_lt (i : S8x1x1x28224.Idx) :
    val_main_call2_v4 (F := Ideal) x1 i = wrap (val_main_v70 (F := Ideal) x1 i) := rfl

/-- The index column [8, 28224, 1] read at (b, p, 0) is the index row at (b, 0, 0, p). -/
theorem idxCol_lt (p : Fin 28224) :
    val_main_call2_v5 (F := Ideal) x1 (ix3 b p 0) = val_main_call2_v4 (F := Ideal) x1 (ix4 b 0 0 p) := by
  rw [val_main_call2_v5_apply]
  refine congrArg _ (funext fun a => Fin.ext ?_)
  have hb := b.isLt; have hp := p.isLt
  match a with
  | ⟨0, _⟩ => show ((b.val * 28224 + p.val) * 1 + 0) / 28224 = b.val; omega
  | ⟨1, _⟩ => rfl
  | ⟨2, _⟩ => rfl
  | ⟨3, _⟩ => show ((b.val * 28224 + p.val) * 1 + 0) % 28224 = p.val; omega

/-- The range test 0 ≤ s ≤ 3135 of one index. -/
theorem rangeElt_lt (i : S8x28224x1.Idx) :
    val_main_call2_v11 (F := Ideal) x1 i
      = IntOp.andi (IntOp.cmpi .sge (val_main_call2_v5 (F := Ideal) x1 i) 0#32)
          (IntOp.cmpi .sle (val_main_call2_v5 (F := Ideal) x1 i) 3135#32) := rfl

/-- The range bit: the test reduced by `and` from `true` over the index column's axis of size one. -/
theorem rangeBit_lt (p : Fin 28224) :
    val_main_call2_v12 (F := Ideal) x1 (ix2 b p) = inRange (val_main_call2_v5 (F := Ideal) x1 (ix3 b p 0)) := by
  unfold val_main_call2_v12
  rw [reduce_andi_last1, rangeElt_lt]
  rfl

/-- The range bit broadcast over the channels. -/
theorem rangeBcast_lt (p : Fin 28224) :
    val_main_call2_v14 (F := Ideal) x1 (ix4 b 0 c p) = val_main_call2_v12 (F := Ideal) x1 (ix2 b p) := by
  rw [val_main_call2_v14_apply]
  exact congrArg _ (funext fun a => Fin.ext (by match a with | ⟨0, _⟩ => rfl | ⟨1, _⟩ => rfl))

/-- The gather: batch b's channel c at the index read signed and clamped into [0, 3135]. -/
theorem gather_lt (p : Fin 28224) :
    val_main_call2_v13 (F := Ideal) x0 x1 (ix4 b 0 c p)
      = imgR x0 b c (clampPos (val_main_call2_v5 (F := Ideal) x1 (ix3 b p 0))) := by
  unfold val_main_call2_v13
  rw [← v53_at]
  show Host.gather (DeformLib.colsDims 8 3136 256 28224 _) _ _ _ = _
  rw [DeformLib.gather_cols_apply (by decide)]
  rfl

/-- The fill value outside the range. -/
theorem fill_lt (i : S8x1x256x28224.Idx) : val_main_call2_v15 (F := Ideal) i = fillF := rfl

/-- The gathered values laid out as [8, 1, 256, 56, 56, 9]. -/
theorem gathered6_lt :
    val_main_v72 (F := Ideal) x0 x1 (ix6 b 0 c oh ow k) = val_main_v71 (F := Ideal) x0 x1 (ix4 b 0 c (pos oh ow k)) := by
  unfold val_main_v72
  exact reshape6_at b oh ow k c _ _

/-- The validity bit broadcast over the channels. -/
theorem validBcast_lt :
    val_main_call3_v0 (F := Ideal) x1 (ix6 b 0 c oh ow k) = val_main_v64 (F := Ideal) x1 (ix5 b 0 oh ow k) := by
  rw [val_main_call3_v0_apply, val_main_v73_apply]
  exact congrArg _ (funext fun a => Fin.ext (by
    match a with | ⟨0, _⟩ => rfl | ⟨1, _⟩ => rfl | ⟨2, _⟩ => rfl | ⟨3, _⟩ => rfl | ⟨4, _⟩ => rfl))

/-- The zero that replaces a neighbour outside the image. -/
theorem zero_lt (i : S8x1x256x56x56x9.Idx) : val_main_call3_v1 (F := Ideal) i = zeroF := rfl

/-- The neighbour at (row cell, column cell). -/
theorem corner_lt : val_main_v74 (F := Ideal) x0 x1 (ix6 b 0 c oh ow k)
    = corner (imgR x0 b c) (val_main_v45 (F := Ideal) x1 (ix5 b 0 oh ow k)) (val_main_v48 (F := Ideal) x1 (ix5 b 0 oh ow k)) := by
  rw [val_main_v74_apply, validBcast_lt, valid_lt, zero_lt, gathered6_lt, val_main_v71_apply, rangeBcast_lt,
    rangeBit_lt, gather_lt, fill_lt, idxCol_lt, wrap_lt, flatRow_lt, flat_lt]
  rfl

/-! ## The neighbour at (row cell + 1, column cell + 1) -/

/-- The validity bit: both integer coordinates inside the image. -/
theorem valid_rb (i : S8x1x56x56x9.Idx) :
    val_main_v85 (F := Ideal) x1 i = inImage (val_main_v50 (F := Ideal) x1 i) (val_main_v52 (F := Ideal) x1 i) := rfl

/-- The flat position 56·row + column of the two clipped coordinates. -/
theorem flat_rb (i : S8x1x56x56x9.Idx) :
    val_main_v90 (F := Ideal) x1 i = flat (val_main_v50 (F := Ideal) x1 i) (val_main_v52 (F := Ideal) x1 i) := rfl

/-- The flat positions laid out as [8, 1, 1, 28224], read at (b, 0, 0, pos oh ow k). -/
theorem flatRow_rb : val_main_v91 (F := Ideal) x1 (ix4 b 0 0 (pos oh ow k)) = val_main_v90 (F := Ideal) x1 (ix5 b 0 oh ow k) := by
  rw [val_main_v91_apply]
  refine congrArg _ (funext fun a => Fin.ext ?_)
  have hb := b.isLt; have hoh := oh.isLt; have how := ow.isLt; have hk := k.isLt
  match a with
  | ⟨0, _⟩ => show (((b.val * 1 + 0) * 1 + 0) * 28224 + ((oh.val * 56 + ow.val) * 9 + k.val)) / 28224 = b.val; omega
  | ⟨1, _⟩ => rfl
  | ⟨2, _⟩ => show (((b.val * 1 + 0) * 1 + 0) * 28224 + ((oh.val * 56 + ow.val) * 9 + k.val)) / 504 % 56 = oh.val; omega
  | ⟨3, _⟩ => show (((b.val * 1 + 0) * 1 + 0) * 28224 + ((oh.val * 56 + ow.val) * 9 + k.val)) / 9 % 56 = ow.val; omega
  | ⟨4, _⟩ => show (((b.val * 1 + 0) * 1 + 0) * 28224 + ((oh.val * 56 + ow.val) * 9 + k.val)) % 9 = k.val; omega

/-- The rule for a negative index: 3136 is added to it. -/
theorem wrap_rb (i : S8x1x1x28224.Idx) :
    val_main_call6_v4 (F := Ideal) x1 i = wrap (val_main_v91 (F := Ideal) x1 i) := rfl

/-- The index column [8, 28224, 1] read at (b, p, 0) is the index row at (b, 0, 0, p). -/
theorem idxCol_rb (p : Fin 28224) :
    val_main_call6_v5 (F := Ideal) x1 (ix3 b p 0) = val_main_call6_v4 (F := Ideal) x1 (ix4 b 0 0 p) := by
  rw [val_main_call6_v5_apply]
  refine congrArg _ (funext fun a => Fin.ext ?_)
  have hb := b.isLt; have hp := p.isLt
  match a with
  | ⟨0, _⟩ => show ((b.val * 28224 + p.val) * 1 + 0) / 28224 = b.val; omega
  | ⟨1, _⟩ => rfl
  | ⟨2, _⟩ => rfl
  | ⟨3, _⟩ => show ((b.val * 28224 + p.val) * 1 + 0) % 28224 = p.val; omega

/-- The range test 0 ≤ s ≤ 3135 of one index. -/
theorem rangeElt_rb (i : S8x28224x1.Idx) :
    val_main_call6_v11 (F := Ideal) x1 i
      = IntOp.andi (IntOp.cmpi .sge (val_main_call6_v5 (F := Ideal) x1 i) 0#32)
          (IntOp.cmpi .sle (val_main_call6_v5 (F := Ideal) x1 i) 3135#32) := rfl

/-- The range bit: the test reduced by `and` from `true` over the index column's axis of size one. -/
theorem rangeBit_rb (p : Fin 28224) :
    val_main_call6_v12 (F := Ideal) x1 (ix2 b p) = inRange (val_main_call6_v5 (F := Ideal) x1 (ix3 b p 0)) := by
  unfold val_main_call6_v12
  rw [reduce_andi_last1, rangeElt_rb]
  rfl

/-- The range bit broadcast over the channels. -/
theorem rangeBcast_rb (p : Fin 28224) :
    val_main_call6_v14 (F := Ideal) x1 (ix4 b 0 c p) = val_main_call6_v12 (F := Ideal) x1 (ix2 b p) := by
  rw [val_main_call6_v14_apply]
  exact congrArg _ (funext fun a => Fin.ext (by match a with | ⟨0, _⟩ => rfl | ⟨1, _⟩ => rfl))

/-- The gather: batch b's channel c at the index read signed and clamped into [0, 3135]. -/
theorem gather_rb (p : Fin 28224) :
    val_main_call6_v13 (F := Ideal) x0 x1 (ix4 b 0 c p)
      = imgR x0 b c (clampPos (val_main_call6_v5 (F := Ideal) x1 (ix3 b p 0))) := by
  unfold val_main_call6_v13
  rw [← v53_at]
  show Host.gather (DeformLib.colsDims 8 3136 256 28224 _) _ _ _ = _
  rw [DeformLib.gather_cols_apply (by decide)]
  rfl

/-- The fill value outside the range. -/
theorem fill_rb (i : S8x1x256x28224.Idx) : val_main_call6_v15 (F := Ideal) i = fillF := rfl

/-- The gathered values laid out as [8, 1, 256, 56, 56, 9]. -/
theorem gathered6_rb :
    val_main_v93 (F := Ideal) x0 x1 (ix6 b 0 c oh ow k) = val_main_v92 (F := Ideal) x0 x1 (ix4 b 0 c (pos oh ow k)) := by
  unfold val_main_v93
  exact reshape6_at b oh ow k c _ _

/-- The validity bit broadcast over the channels. -/
theorem validBcast_rb :
    val_main_call7_v0 (F := Ideal) x1 (ix6 b 0 c oh ow k) = val_main_v85 (F := Ideal) x1 (ix5 b 0 oh ow k) := by
  rw [val_main_call7_v0_apply, val_main_v94_apply]
  exact congrArg _ (funext fun a => Fin.ext (by
    match a with | ⟨0, _⟩ => rfl | ⟨1, _⟩ => rfl | ⟨2, _⟩ => rfl | ⟨3, _⟩ => rfl | ⟨4, _⟩ => rfl))

/-- The zero that replaces a neighbour outside the image. -/
theorem zero_rb (i : S8x1x256x56x56x9.Idx) : val_main_call7_v1 (F := Ideal) i = zeroF := rfl

/-- The neighbour at (row cell + 1, column cell + 1). -/
theorem corner_rb : val_main_v95 (F := Ideal) x0 x1 (ix6 b 0 c oh ow k)
    = corner (imgR x0 b c) (val_main_v50 (F := Ideal) x1 (ix5 b 0 oh ow k)) (val_main_v52 (F := Ideal) x1 (ix5 b 0 oh ow k)) := by
  rw [val_main_v95_apply, validBcast_rb, valid_rb, zero_rb, gathered6_rb, val_main_v92_apply, rangeBcast_rb,
    rangeBit_rb, gather_rb, fill_rb, idxCol_rb, wrap_rb, flatRow_rb, flat_rb]
  rfl

/-! ## The neighbour at (row cell, column cell + 1) -/

/-- The validity bit: both integer coordinates inside the image. -/
theorem valid_rt (i : S8x1x56x56x9.Idx) :
    val_main_v106 (F := Ideal) x1 i = inImage (val_main_v45 (F := Ideal) x1 i) (val_main_v52 (F := Ideal) x1 i) := rfl

/-- The flat position 56·row + column of the two clipped coordinates. -/
theorem flat_rt (i : S8x1x56x56x9.Idx) :
    val_main_v111 (F := Ideal) x1 i = flat (val_main_v45 (F := Ideal) x1 i) (val_main_v52 (F := Ideal) x1 i) := rfl

/-- The flat positions laid out as [8, 1, 1, 28224], read at (b, 0, 0, pos oh ow k). -/
theorem flatRow_rt : val_main_v112 (F := Ideal) x1 (ix4 b 0 0 (pos oh ow k)) = val_main_v111 (F := Ideal) x1 (ix5 b 0 oh ow k) := by
  rw [val_main_v112_apply]
  refine congrArg _ (funext fun a => Fin.ext ?_)
  have hb := b.isLt; have hoh := oh.isLt; have how := ow.isLt; have hk := k.isLt
  match a with
  | ⟨0, _⟩ => show (((b.val * 1 + 0) * 1 + 0) * 28224 + ((oh.val * 56 + ow.val) * 9 + k.val)) / 28224 = b.val; omega
  | ⟨1, _⟩ => rfl
  | ⟨2, _⟩ => show (((b.val * 1 + 0) * 1 + 0) * 28224 + ((oh.val * 56 + ow.val) * 9 + k.val)) / 504 % 56 = oh.val; omega
  | ⟨3, _⟩ => show (((b.val * 1 + 0) * 1 + 0) * 28224 + ((oh.val * 56 + ow.val) * 9 + k.val)) / 9 % 56 = ow.val; omega
  | ⟨4, _⟩ => show (((b.val * 1 + 0) * 1 + 0) * 28224 + ((oh.val * 56 + ow.val) * 9 + k.val)) % 9 = k.val; omega

/-- The rule for a negative index: 3136 is added to it. -/
theorem wrap_rt (i : S8x1x1x28224.Idx) :
    val_main_call10_v4 (F := Ideal) x1 i = wrap (val_main_v112 (F := Ideal) x1 i) := rfl

/-- The index column [8, 28224, 1] read at (b, p, 0) is the index row at (b, 0, 0, p). -/
theorem idxCol_rt (p : Fin 28224) :
    val_main_call10_v5 (F := Ideal) x1 (ix3 b p 0) = val_main_call10_v4 (F := Ideal) x1 (ix4 b 0 0 p) := by
  rw [val_main_call10_v5_apply]
  refine congrArg _ (funext fun a => Fin.ext ?_)
  have hb := b.isLt; have hp := p.isLt
  match a with
  | ⟨0, _⟩ => show ((b.val * 28224 + p.val) * 1 + 0) / 28224 = b.val; omega
  | ⟨1, _⟩ => rfl
  | ⟨2, _⟩ => rfl
  | ⟨3, _⟩ => show ((b.val * 28224 + p.val) * 1 + 0) % 28224 = p.val; omega

/-- The range test 0 ≤ s ≤ 3135 of one index. -/
theorem rangeElt_rt (i : S8x28224x1.Idx) :
    val_main_call10_v11 (F := Ideal) x1 i
      = IntOp.andi (IntOp.cmpi .sge (val_main_call10_v5 (F := Ideal) x1 i) 0#32)
          (IntOp.cmpi .sle (val_main_call10_v5 (F := Ideal) x1 i) 3135#32) := rfl

/-- The range bit: the test reduced by `and` from `true` over the index column's axis of size one. -/
theorem rangeBit_rt (p : Fin 28224) :
    val_main_call10_v12 (F := Ideal) x1 (ix2 b p) = inRange (val_main_call10_v5 (F := Ideal) x1 (ix3 b p 0)) := by
  unfold val_main_call10_v12
  rw [reduce_andi_last1, rangeElt_rt]
  rfl

/-- The range bit broadcast over the channels. -/
theorem rangeBcast_rt (p : Fin 28224) :
    val_main_call10_v14 (F := Ideal) x1 (ix4 b 0 c p) = val_main_call10_v12 (F := Ideal) x1 (ix2 b p) := by
  rw [val_main_call10_v14_apply]
  exact congrArg _ (funext fun a => Fin.ext (by match a with | ⟨0, _⟩ => rfl | ⟨1, _⟩ => rfl))

/-- The gather: batch b's channel c at the index read signed and clamped into [0, 3135]. -/
theorem gather_rt (p : Fin 28224) :
    val_main_call10_v13 (F := Ideal) x0 x1 (ix4 b 0 c p)
      = imgR x0 b c (clampPos (val_main_call10_v5 (F := Ideal) x1 (ix3 b p 0))) := by
  unfold val_main_call10_v13
  rw [← v53_at]
  show Host.gather (DeformLib.colsDims 8 3136 256 28224 _) _ _ _ = _
  rw [DeformLib.gather_cols_apply (by decide)]
  rfl

/-- The fill value outside the range. -/
theorem fill_rt (i : S8x1x256x28224.Idx) : val_main_call10_v15 (F := Ideal) i = fillF := rfl

/-- The gathered values laid out as [8, 1, 256, 56, 56, 9]. -/
theorem gathered6_rt :
    val_main_v114 (F := Ideal) x0 x1 (ix6 b 0 c oh ow k) = val_main_v113 (F := Ideal) x0 x1 (ix4 b 0 c (pos oh ow k)) := by
  unfold val_main_v114
  exact reshape6_at b oh ow k c _ _

/-- The validity bit broadcast over the channels. -/
theorem validBcast_rt :
    val_main_call11_v0 (F := Ideal) x1 (ix6 b 0 c oh ow k) = val_main_v106 (F := Ideal) x1 (ix5 b 0 oh ow k) := by
  rw [val_main_call11_v0_apply, val_main_v115_apply]
  exact congrArg _ (funext fun a => Fin.ext (by
    match a with | ⟨0, _⟩ => rfl | ⟨1, _⟩ => rfl | ⟨2, _⟩ => rfl | ⟨3, _⟩ => rfl | ⟨4, _⟩ => rfl))

/-- The zero that replaces a neighbour outside the image. -/
theorem zero_rt (i : S8x1x256x56x56x9.Idx) : val_main_call11_v1 (F := Ideal) i = zeroF := rfl

/-- The neighbour at (row cell, column cell + 1). -/
theorem corner_rt : val_main_v116 (F := Ideal) x0 x1 (ix6 b 0 c oh ow k)
    = corner (imgR x0 b c) (val_main_v45 (F := Ideal) x1 (ix5 b 0 oh ow k)) (val_main_v52 (F := Ideal) x1 (ix5 b 0 oh ow k)) := by
  rw [val_main_v116_apply, validBcast_rt, valid_rt, zero_rt, gathered6_rt, val_main_v113_apply, rangeBcast_rt,
    rangeBit_rt, gather_rt, fill_rt, idxCol_rt, wrap_rt, flatRow_rt, flat_rt]
  rfl

/-! ## The neighbour at (row cell + 1, column cell) -/

/-- The validity bit: both integer coordinates inside the image. -/
theorem valid_lb (i : S8x1x56x56x9.Idx) :
    val_main_v127 (F := Ideal) x1 i = inImage (val_main_v50 (F := Ideal) x1 i) (val_main_v48 (F := Ideal) x1 i) := rfl

/-- The flat position 56·row + column of the two clipped coordinates. -/
theorem flat_lb (i : S8x1x56x56x9.Idx) :
    val_main_v132 (F := Ideal) x1 i = flat (val_main_v50 (F := Ideal) x1 i) (val_main_v48 (F := Ideal) x1 i) := rfl

/-- The flat positions laid out as [8, 1, 1, 28224], read at (b, 0, 0, pos oh ow k). -/
theorem flatRow_lb : val_main_v133 (F := Ideal) x1 (ix4 b 0 0 (pos oh ow k)) = val_main_v132 (F := Ideal) x1 (ix5 b 0 oh ow k) := by
  rw [val_main_v133_apply]
  refine congrArg _ (funext fun a => Fin.ext ?_)
  have hb := b.isLt; have hoh := oh.isLt; have how := ow.isLt; have hk := k.isLt
  match a with
  | ⟨0, _⟩ => show (((b.val * 1 + 0) * 1 + 0) * 28224 + ((oh.val * 56 + ow.val) * 9 + k.val)) / 28224 = b.val; omega
  | ⟨1, _⟩ => rfl
  | ⟨2, _⟩ => show (((b.val * 1 + 0) * 1 + 0) * 28224 + ((oh.val * 56 + ow.val) * 9 + k.val)) / 504 % 56 = oh.val; omega
  | ⟨3, _⟩ => show (((b.val * 1 + 0) * 1 + 0) * 28224 + ((oh.val * 56 + ow.val) * 9 + k.val)) / 9 % 56 = ow.val; omega
  | ⟨4, _⟩ => show (((b.val * 1 + 0) * 1 + 0) * 28224 + ((oh.val * 56 + ow.val) * 9 + k.val)) % 9 = k.val; omega

/-- The rule for a negative index: 3136 is added to it. -/
theorem wrap_lb (i : S8x1x1x28224.Idx) :
    val_main_call14_v4 (F := Ideal) x1 i = wrap (val_main_v133 (F := Ideal) x1 i) := rfl

/-- The index column [8, 28224, 1] read at (b, p, 0) is the index row at (b, 0, 0, p). -/
theorem idxCol_lb (p : Fin 28224) :
    val_main_call14_v5 (F := Ideal) x1 (ix3 b p 0) = val_main_call14_v4 (F := Ideal) x1 (ix4 b 0 0 p) := by
  rw [val_main_call14_v5_apply]
  refine congrArg _ (funext fun a => Fin.ext ?_)
  have hb := b.isLt; have hp := p.isLt
  match a with
  | ⟨0, _⟩ => show ((b.val * 28224 + p.val) * 1 + 0) / 28224 = b.val; omega
  | ⟨1, _⟩ => rfl
  | ⟨2, _⟩ => rfl
  | ⟨3, _⟩ => show ((b.val * 28224 + p.val) * 1 + 0) % 28224 = p.val; omega

/-- The range test 0 ≤ s ≤ 3135 of one index. -/
theorem rangeElt_lb (i : S8x28224x1.Idx) :
    val_main_call14_v11 (F := Ideal) x1 i
      = IntOp.andi (IntOp.cmpi .sge (val_main_call14_v5 (F := Ideal) x1 i) 0#32)
          (IntOp.cmpi .sle (val_main_call14_v5 (F := Ideal) x1 i) 3135#32) := rfl

/-- The range bit: the test reduced by `and` from `true` over the index column's axis of size one. -/
theorem rangeBit_lb (p : Fin 28224) :
    val_main_call14_v12 (F := Ideal) x1 (ix2 b p) = inRange (val_main_call14_v5 (F := Ideal) x1 (ix3 b p 0)) := by
  unfold val_main_call14_v12
  rw [reduce_andi_last1, rangeElt_lb]
  rfl

/-- The range bit broadcast over the channels. -/
theorem rangeBcast_lb (p : Fin 28224) :
    val_main_call14_v14 (F := Ideal) x1 (ix4 b 0 c p) = val_main_call14_v12 (F := Ideal) x1 (ix2 b p) := by
  rw [val_main_call14_v14_apply]
  exact congrArg _ (funext fun a => Fin.ext (by match a with | ⟨0, _⟩ => rfl | ⟨1, _⟩ => rfl))

/-- The gather: batch b's channel c at the index read signed and clamped into [0, 3135]. -/
theorem gather_lb (p : Fin 28224) :
    val_main_call14_v13 (F := Ideal) x0 x1 (ix4 b 0 c p)
      = imgR x0 b c (clampPos (val_main_call14_v5 (F := Ideal) x1 (ix3 b p 0))) := by
  unfold val_main_call14_v13
  rw [← v53_at]
  show Host.gather (DeformLib.colsDims 8 3136 256 28224 _) _ _ _ = _
  rw [DeformLib.gather_cols_apply (by decide)]
  rfl

/-- The fill value outside the range. -/
theorem fill_lb (i : S8x1x256x28224.Idx) : val_main_call14_v15 (F := Ideal) i = fillF := rfl

/-- The gathered values laid out as [8, 1, 256, 56, 56, 9]. -/
theorem gathered6_lb :
    val_main_v135 (F := Ideal) x0 x1 (ix6 b 0 c oh ow k) = val_main_v134 (F := Ideal) x0 x1 (ix4 b 0 c (pos oh ow k)) := by
  unfold val_main_v135
  exact reshape6_at b oh ow k c _ _

/-- The validity bit broadcast over the channels. -/
theorem validBcast_lb :
    val_main_call15_v0 (F := Ideal) x1 (ix6 b 0 c oh ow k) = val_main_v127 (F := Ideal) x1 (ix5 b 0 oh ow k) := by
  rw [val_main_call15_v0_apply, val_main_v136_apply]
  exact congrArg _ (funext fun a => Fin.ext (by
    match a with | ⟨0, _⟩ => rfl | ⟨1, _⟩ => rfl | ⟨2, _⟩ => rfl | ⟨3, _⟩ => rfl | ⟨4, _⟩ => rfl))

/-- The zero that replaces a neighbour outside the image. -/
theorem zero_lb (i : S8x1x256x56x56x9.Idx) : val_main_call15_v1 (F := Ideal) i = zeroF := rfl

/-- The neighbour at (row cell + 1, column cell). -/
theorem corner_lb : val_main_v137 (F := Ideal) x0 x1 (ix6 b 0 c oh ow k)
    = corner (imgR x0 b c) (val_main_v50 (F := Ideal) x1 (ix5 b 0 oh ow k)) (val_main_v48 (F := Ideal) x1 (ix5 b 0 oh ow k)) := by
  rw [val_main_v137_apply, validBcast_lb, valid_lb, zero_lb, gathered6_lb, val_main_v134_apply, rangeBcast_lb,
    rangeBit_lb, gather_lb, fill_lb, idxCol_lb, wrap_lb, flatRow_lb, flat_lb]
  rfl

end Cert.ReferenceIdeal.RCorner

end
-- ==== Proof.RRead.lean ====
/-
  The reference program's result, index by index, in terms of the specification: the sample array at
  (b, 0, c, oh, ow, k) is the modulated bilinear sample; the result at (b, oc, oh, ow) is the contraction of the
  samples with the weights over the 2304 positions n = 9·c + k (channel-major), plus the bias.
-/
import proofs.«412700_j5961414607249_3_alg».proof.Proof.RCoord
import proofs.«412700_j5961414607249_3_alg».proof.Proof.RCorner

noncomputable section

open Idealize.ShloMosaic Idealize.ShloMosaic.ValueIdx DeformSpec DeformLib

namespace Cert.ReferenceIdeal.RRead

open Cert.ReferenceIdeal Cert.ReferenceIdeal.Gen Cert.ReferenceIdeal.ReadP

variable (x0 : (⟨S8x256x56x56, .f32⟩ : BufTy).Contents (Elt Ideal)) (x1 : (⟨S8x18x56x56, .f32⟩ : BufTy).Contents (Elt Ideal)) (x2 : (⟨S8x9x56x56, .f32⟩ : BufTy).Contents (Elt Ideal)) (x3 : (⟨S256x256x3x3, .f32⟩ : BufTy).Contents (Elt Ideal)) (x4 : (⟨S256, .f32⟩ : BufTy).Contents (Elt Ideal))

/-- A broadcast over the channel axis reads its operand at channel 0. -/
theorem bcast_idx (b : Fin 8) (oh ow : Fin 56) (k : Fin 9) (c : Fin 256) :
    idx_main_v145 (ix6 b 0 c oh ow k) = ix6 b 0 0 oh ow k :=
  funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl)

/-- The sample the program computes at (b, 0, c, oh, ow, k). -/
theorem col_read (b : Fin 8) (oh ow : Fin 56) (k : Fin 9) (c : Fin 256) :
    val_main_v160 (F := Ideal) x0 x1 x2 (ix6 b 0 c oh ow k) = col (argsOf x0 x1 x2 x3 x4) b oh ow k c := by
  have e145 : idx_main_v145 (ix6 b 0 c oh ow k) = ix6 b 0 0 oh ow k := bcast_idx b oh ow k c
  have e149 : idx_main_v149 (ix6 b 0 c oh ow k) = ix6 b 0 0 oh ow k := bcast_idx b oh ow k c
  have e153 : idx_main_v153 (ix6 b 0 c oh ow k) = ix6 b 0 0 oh ow k := bcast_idx b oh ow k c
  have e159 : idx_main_v159 (ix6 b 0 c oh ow k) = ix6 b 0 0 oh ow k := bcast_idx b oh ow k c
  rw [val_main_v160_apply, val_main_v155_apply, val_main_v154_apply, val_main_v152_apply, val_main_v151_apply,
    val_main_v150_apply, val_main_v148_apply, val_main_v147_apply, val_main_v146_apply, val_main_v144_apply,
    val_main_v159_apply, val_main_v153_apply, val_main_v149_apply, val_main_v145_apply, e145, e149, e153, e159,
    RCorner.corner_lt, RCorner.corner_rb, RCorner.corner_rt, RCorner.corner_lb,
    RCoord.cell_row, RCoord.cell_col, RCoord.cell_row1, RCoord.cell_col1,
    RCoord.frac_row, RCoord.frac_col, RCoord.mask_at]
  rfl

/-- The re-laid samples [1, 2304, 25088] at (0, n, (b·56 + oh)·56 + ow): the transposed array at
    (0, n / 9, n % 9, b, oh, ow), since 25088·n + 3136·b + 56·oh + ow is the row-major position of both. -/
theorem relaid_apply {α : Type} (y : S1x256x9x8x56x56.Idx → α) (n : Fin 2304) (b : Fin 8) (oh ow : Fin 56) :
    shapeCast S1x2304x25088 y shapeCasts_S1x256x9x8x56x56_S1x2304x25088
        (ix3 0 n ⟨(b.val * 56 + oh.val) * 56 + ow.val, by omega⟩)
      = y (ix6 0 ⟨n.val / 9, by omega⟩ ⟨n.val % 9, by omega⟩ b oh ow) := by
  refine shapeCast_apply y shapeCasts_S1x256x9x8x56x56_S1x2304x25088 _ _ ?_
  rewrite [Shape.rowMajor_val_six, Shape.rowMajor_val_three]
  have hn := n.isLt
  have hb := b.isLt
  have hoh := oh.isLt
  have how := ow.isLt
  show ((((0 * 256 + n.val / 9) * 9 + n.val % 9) * 8 + b.val) * 56 + oh.val) * 56 + ow.val
    = (0 * 2304 + n.val) * 25088 + ((b.val * 56 + oh.val) * 56 + ow.val)
  omega

/-- The re-laid samples in terms of the specification. -/
theorem samples_read (n : Fin 2304) (b : Fin 8) (oh ow : Fin 56) :
    val_main_v162 (F := Ideal) x0 x1 x2 (ix3 0 n ⟨(b.val * 56 + oh.val) * 56 + ow.val, by omega⟩)
      = col (argsOf x0 x1 x2 x3 x4) b oh ow ⟨n.val % 9, by omega⟩ ⟨n.val / 9, by omega⟩ := by
  have e161 : idx_main_v161 (ix6 0 ⟨n.val / 9, by omega⟩ ⟨n.val % 9, by omega⟩ b oh ow)
      = ix6 b 0 ⟨n.val / 9, by omega⟩ oh ow ⟨n.val % 9, by omega⟩ :=
    funext fun a => Fin.ext (by
      match a with
      | ⟨0, _⟩ => rfl
      | ⟨1, _⟩ => rfl
      | ⟨2, _⟩ => rfl
      | ⟨3, _⟩ => rfl
      | ⟨4, _⟩ => rfl
      | ⟨5, _⟩ => rfl)
  unfold val_main_v162
  rw [relaid_apply, val_main_v161_apply, e161, col_read x0 x1 x2 x3 x4]

/-- The weights re-laid as [1, 256, 2304] at (0, oc, n): position n = 9·c + 3·kh + kw. -/
theorem wgt_read (oc : Fin 256) (n : Fin 2304) :
    val_main_v163 (F := Ideal) x3 (ix3 0 oc n)
      = wgt (argsOf x0 x1 x2 x3 x4) oc ⟨n.val % 9, by omega⟩ ⟨n.val / 9, by omega⟩ := by
  have e : idx_main_v163 (ix3 0 oc n)
      = ix4 oc ⟨n.val / 9, by omega⟩ ⟨n.val % 9 / 3, by omega⟩ ⟨n.val % 9 % 3, by omega⟩ :=
    funext fun a => Fin.ext (by
      have hn := n.isLt
      have hoc := oc.isLt
      match a with
      | ⟨0, _⟩ => show ((0 * 256 + oc.val) * 2304 + n.val) / 2304 = oc.val; omega
      | ⟨1, _⟩ => show ((0 * 256 + oc.val) * 2304 + n.val) / 9 % 256 = n.val / 9; omega
      | ⟨2, _⟩ => show ((0 * 256 + oc.val) * 2304 + n.val) / 3 % 3 = n.val % 9 / 3; omega
      | ⟨3, _⟩ => show ((0 * 256 + oc.val) * 2304 + n.val) % 3 = n.val % 9 % 3; omega)
  rw [val_main_v163_apply, e]
  rfl

/-- The result: weights times samples summed channel-major, plus the bias. -/
theorem out_read (b : Fin 8) (oc : Fin 256) (oh ow : Fin 56) :
    val_main_v169 (F := Ideal) x0 x1 x2 x3 x4 (ix4 b oc oh ow)
      = (∑ n : Fin 2304, wgt (argsOf x0 x1 x2 x3 x4) oc ⟨n.val % 9, by omega⟩ ⟨n.val / 9, by omega⟩
            * col (argsOf x0 x1 x2 x3 x4) b oh ow ⟨n.val % 9, by omega⟩ ⟨n.val / 9, by omega⟩)
        + (argsOf x0 x1 x2 x3 x4).bias oc := by
  have e169 : idx_main_v169 (ix4 b oc oh ow) = ix4 oc b oh ow :=
    funext fun a => Fin.ext (by
      match a with
      | ⟨0, _⟩ => rfl
      | ⟨1, _⟩ => rfl
      | ⟨2, _⟩ => rfl
      | ⟨3, _⟩ => rfl)
  have e167 : idx_main_v167 (ix4 oc b oh ow) = ix4 oc 0 0 0 :=
    funext fun a => Fin.ext (by
      match a with
      | ⟨0, _⟩ => rfl
      | ⟨1, _⟩ => rfl
      | ⟨2, _⟩ => rfl
      | ⟨3, _⟩ => rfl)
  have e166 : idx_main_v166 (ix4 oc 0 0 0) = ix1 oc :=
    funext fun a => Fin.ext (by
      match a with
      | ⟨0, _⟩ => rfl)
  have e165 : idx_main_v165 (ix4 oc b oh ow) = ix3 0 oc ⟨(b.val * 56 + oh.val) * 56 + ow.val, by omega⟩ :=
    funext fun a => Fin.ext (by
      have hoc := oc.isLt
      have hb := b.isLt
      have hoh := oh.isLt
      have how := ow.isLt
      match a with
      | ⟨0, _⟩ => rfl
      | ⟨1, _⟩ =>
        show (((oc.val * 8 + b.val) * 56 + oh.val) * 56 + ow.val) / 25088 % 256 = oc.val
        omega
      | ⟨2, _⟩ =>
        show (((oc.val * 8 + b.val) * 56 + oh.val) * 56 + ow.val) % 25088 = (b.val * 56 + oh.val) * 56 + ow.val
        omega)
  rw [val_main_v169_apply, e169, val_main_v168_apply, val_main_v167_apply, e167, val_main_v166_apply, e166,
    val_main_v165_apply, e165, val_main_v164_apply, Ideal.addf_def]
  refine congrArg₂ (· + ·) (Finset.sum_congr rfl fun n _ => ?_) rfl
  have el : lidx_main_v164 (ix3 0 oc ⟨(b.val * 56 + oh.val) * 56 + ow.val, by omega⟩) n = ix3 0 oc n :=
    funext fun a => Fin.ext (by
      match a with
      | ⟨0, _⟩ => rfl
      | ⟨1, _⟩ => rfl
      | ⟨2, _⟩ => rfl)
  have er : ridx_main_v164 (ix3 0 oc ⟨(b.val * 56 + oh.val) * 56 + ow.val, by omega⟩) n
      = ix3 0 n ⟨(b.val * 56 + oh.val) * 56 + ow.val, by omega⟩ :=
    funext fun a => Fin.ext (by
      match a with
      | ⟨0, _⟩ => rfl
      | ⟨1, _⟩ => rfl
      | ⟨2, _⟩ => rfl)
  rw [el, er, wgt_read x0 x1 x2 x3 x4, samples_read x0 x1 x2 x3 x4]

end Cert.ReferenceIdeal.RRead

end
-- ==== Proof.Algebra.lean ====
/-
  The one algebraic law that joins the two programs: a contraction over 2304 = 9 taps × 256 channels entries, taken
  by one program tap-major in three tiles of 768 added one after the other onto the bias, and by the other
  channel-major as one sum with the bias added last, is the same extended real. Addition of extended reals is
  commutative and associative (also at the infinities), which is all this needs.
-/
import Idealize.ShloMosaic.PureOps.Ideal
import Mathlib.Algebra.BigOperators.Fin
import Mathlib.Algebra.BigOperators.Group.Finset.Defs
import Mathlib.Algebra.BigOperators.Group.Finset.Sigma
import Mathlib.Data.Fintype.BigOperators

noncomputable section

namespace DeformAlgebra

/-- Entry `kk` of tile `t` of the tap-major contraction axis. -/
def tileIx (t : Fin 3) (kk : Fin 768) : Fin 2304 := ⟨t.val * 768 + kk.val, by omega⟩

/-- Tap-major position n is (tap n / 256, channel n % 256). -/
def tapOf (n : Fin 2304) : Fin 9 := ⟨n.val / 256, by omega⟩
def chanOf (n : Fin 2304) : Fin 256 := ⟨n.val % 256, by omega⟩

/-- Channel-major position n is (channel n / 9, tap n % 9). -/
def chanOf' (n : Fin 2304) : Fin 256 := ⟨n.val / 9, by omega⟩
def tapOf' (n : Fin 2304) : Fin 9 := ⟨n.val % 9, by omega⟩

/-! ### Three bijections onto the flat axis

Each is division with remainder: a position below 2304 = 3·768 = 9·256 = 256·9 is a unique
(quotient, remainder) pair, and the pair is recovered from `q·m + r` with `r < m`. -/

/-- (tile, entry) ↦ 768·tile + entry. -/
def tileEquiv : Fin 3 × Fin 768 ≃ Fin 2304 where
  toFun p := tileIx p.1 p.2
  invFun n := (⟨n.val / 768, by omega⟩, ⟨n.val % 768, by omega⟩)
  left_inv := by
    rintro ⟨⟨t, ht⟩, ⟨kk, hkk⟩⟩
    simp only [tileIx, Prod.mk.injEq, Fin.mk.injEq]
    constructor <;> omega
  right_inv := by
    rintro ⟨n, hn⟩
    simp only [tileIx, Fin.mk.injEq]
    omega

/-- position ↦ (tap, channel), inverse (k, c) ↦ 256·k + c. -/
def tapMajorEquiv : Fin 2304 ≃ Fin 9 × Fin 256 where
  toFun n := (tapOf n, chanOf n)
  invFun p := ⟨p.1.val * 256 + p.2.val, by omega⟩
  left_inv := by
    rintro ⟨n, hn⟩
    simp only [tapOf, chanOf, Fin.mk.injEq]
    omega
  right_inv := by
    rintro ⟨⟨k, hk⟩, ⟨c, hc⟩⟩
    simp only [tapOf, chanOf, Prod.mk.injEq, Fin.mk.injEq]
    constructor <;> omega

/-- position ↦ (channel, tap), inverse (c, k) ↦ 9·c + k. -/
def chanMajorEquiv : Fin 2304 ≃ Fin 256 × Fin 9 where
  toFun n := (chanOf' n, tapOf' n)
  invFun p := ⟨p.1.val * 9 + p.2.val, by omega⟩
  left_inv := by
    rintro ⟨n, hn⟩
    simp only [chanOf', tapOf', Fin.mk.injEq]
    omega
  right_inv := by
    rintro ⟨⟨c, hc⟩, ⟨k, hk⟩⟩
    simp only [chanOf', tapOf', Prod.mk.injEq, Fin.mk.injEq]
    constructor <;> omega

/-! ### The three reindexings of a sum -/

/-- A sum over the flat axis is the sum of its three tiles. -/
theorem sum_eq_tiles (f : Fin 2304 → EReal) :
    ∑ n : Fin 2304, f n
      = (∑ kk : Fin 768, f (tileIx 0 kk)) + (∑ kk : Fin 768, f (tileIx 1 kk))
          + ∑ kk : Fin 768, f (tileIx 2 kk) := by
  have h : ∑ p : Fin 3 × Fin 768, f (tileIx p.1 p.2) = ∑ n : Fin 2304, f n :=
    Fintype.sum_equiv tileEquiv _ _ (fun _ => rfl)
  rw [← h, Fintype.sum_prod_type' (fun t kk => f (tileIx t kk)), Fin.sum_univ_three]

/-- The tap-major flat sum is the double sum, taps outside. -/
theorem sum_tapMajor (T : Fin 9 → Fin 256 → EReal) :
    ∑ n : Fin 2304, T (tapOf n) (chanOf n) = ∑ k : Fin 9, ∑ c : Fin 256, T k c := by
  have h : ∑ n : Fin 2304, T (tapOf n) (chanOf n) = ∑ p : Fin 9 × Fin 256, T p.1 p.2 :=
    Fintype.sum_equiv tapMajorEquiv _ _ (fun _ => rfl)
  rw [h, Fintype.sum_prod_type']

/-- The channel-major flat sum is the double sum, channels outside. -/
theorem sum_chanMajor (T : Fin 9 → Fin 256 → EReal) :
    ∑ n : Fin 2304, T (tapOf' n) (chanOf' n) = ∑ c : Fin 256, ∑ k : Fin 9, T k c := by
  have h : ∑ n : Fin 2304, T (tapOf' n) (chanOf' n) = ∑ p : Fin 256 × Fin 9, T p.2 p.1 :=
    Fintype.sum_equiv chanMajorEquiv _ _ (fun _ => rfl)
  rw [h, Fintype.sum_prod_type' (fun c k => T k c)]

/-- THE LAW: for any term `T tap channel`, three tap-major tiles added in order onto `bias` equal the channel-major
    sum plus `bias`. -/
theorem tiles_eq_sum (T : Fin 9 → Fin 256 → EReal) (bias : EReal) :
    ((bias + ∑ kk : Fin 768, T (tapOf (tileIx 0 kk)) (chanOf (tileIx 0 kk)))
        + ∑ kk : Fin 768, T (tapOf (tileIx 1 kk)) (chanOf (tileIx 1 kk)))
      + ∑ kk : Fin 768, T (tapOf (tileIx 2 kk)) (chanOf (tileIx 2 kk))
    = (∑ n : Fin 2304, T (tapOf' n) (chanOf' n)) + bias := by
  -- the three tiles together are the whole tap-major sum
  have hT := sum_eq_tiles (fun n => T (tapOf n) (chanOf n))
  -- both flat sums are the same double sum, up to the order of summation
  have hM : ∑ n : Fin 2304, T (tapOf n) (chanOf n) = ∑ n : Fin 2304, T (tapOf' n) (chanOf' n) := by
    rw [sum_tapMajor, sum_chanMajor, Finset.sum_comm]
  rw [add_assoc, add_assoc, ← add_assoc (∑ kk : Fin 768, T (tapOf (tileIx 0 kk)) (chanOf (tileIx 0 kk))),
    ← hT, hM, add_comm]

end DeformAlgebra

end
-- ==== Proof.lean ====
/-
  A deformable 3×3 convolution (stride 1, padding 1, one offset group) on 8 images of 256 channels and 56×56 pixels:
  every output element is the 2304-term contraction, over the 9 taps and 256 input channels, of the weights with the
  modulated bilinear samples of the input at the learned fractional positions, plus the bias.

  The kernel program samples in a channels-last layout, orders the contraction axis tap-major, converts both
  factors to bf16 (the identity on extended reals), and contracts in one pallas_call over 8 batch elements × 3 tiles
  of the contraction axis, a scratch accumulator starting at the bias and taking one tile's product per grid point;
  the reference samples channels-first, orders the contraction axis channel-major, contracts in one dot_general and
  adds the bias last. At the ideal instance both compute, element by element, the same extended real:
    * each program's sample array, read index by index, is the specification's `col` (Spec.lean) — the same clip,
      range test, gather and interpolation operations on both sides, differing only in layout (KRead.lean over the
      kernel's host operations, RRead.lean over the reference's);
    * the kernel's region leaves ((bias + P₀) + P₁) + P₂ with Pₜ the tile products (KernelRun.lean, read off the
      generated frame run by induction over the grid points);
    * three tap-major tiles added onto the bias equal the channel-major sum plus the bias (Algebra.lean: addition of
      extended reals is commutative and associative), and each term's two factors commute.
  The frames of the two kernel programs are the generated ones; the reference's frame is its run with the result
  dropped; the ideal pass rewrote nothing, so `preserves` is `True`.
-/
import proofs.«412700_j5961414607249_3_alg».proof.Defs
import proofs.«412700_j5961414607249_3_alg».proof.Proof.Gen.Kernel
import proofs.«412700_j5961414607249_3_alg».proof.Proof.Gen.Kernel.Frame
import proofs.«412700_j5961414607249_3_alg».proof.Proof.Gen.KernelIdeal
import proofs.«412700_j5961414607249_3_alg».proof.Proof.Gen.KernelIdeal.Frame
import proofs.«412700_j5961414607249_3_alg».proof.Proof.Gen.ReferenceIdeal
import proofs.«412700_j5961414607249_3_alg».proof.Proof.Gen.Pre_finite_inputs
import proofs.«412700_j5961414607249_3_alg».proof.Proof.KernelRun
import proofs.«412700_j5961414607249_3_alg».proof.Proof.KPre
import proofs.«412700_j5961414607249_3_alg».proof.Proof.KRead
import proofs.«412700_j5961414607249_3_alg».proof.Proof.RefPre
import proofs.«412700_j5961414607249_3_alg».proof.Proof.RRead
import proofs.«412700_j5961414607249_3_alg».proof.Proof.Algebra
import Idealize.ShloMosaic.Adequacy
import Idealize.ShloMosaic.Init

noncomputable section

open Idealize.ShloMosaic Idealize.ShloMosaic.TcCoe Idealize.SL.Sem Idealize.ShloMosaic.ValueIdx DeformSpec

namespace Cert.Proof

/-- Output position (oh, ow) as row oh·56 + ow of the im2col matrix reads back as (oh, ow). -/
theorem lix_div (oh ow : Fin 56) : (⟨(Cert.KernelIdeal.KRun.lix oh ow).val / 56, by omega⟩ : Fin 56) = oh :=
  Fin.ext (by show (oh.val * 56 + ow.val) / 56 = oh.val; omega)
theorem lix_mod (oh ow : Fin 56) : (⟨(Cert.KernelIdeal.KRun.lix oh ow).val % 56, by omega⟩ : Fin 56) = ow :=
  Fin.ext (by show (oh.val * 56 + ow.val) % 56 = ow.val; omega)

/-- THE TWO RESULTS ARE ONE FUNCTION of arguments that agree: the kernel's ((bias + P₀) + P₁) + P₂ over its three
    arrays, each read against the specification, is the reference's channel-major contraction plus the bias. -/
theorem result_eq
    (x0 : (⟨Cert.KernelIdeal.S8x256x56x56, .f32⟩ : BufTy).Contents (Elt Ideal))
    (x1 : (⟨Cert.KernelIdeal.S8x18x56x56, .f32⟩ : BufTy).Contents (Elt Ideal))
    (x2 : (⟨Cert.KernelIdeal.S8x9x56x56, .f32⟩ : BufTy).Contents (Elt Ideal))
    (x3 : (⟨Cert.KernelIdeal.S256x256x3x3, .f32⟩ : BufTy).Contents (Elt Ideal))
    (x4 : (⟨Cert.KernelIdeal.S256, .f32⟩ : BufTy).Contents (Elt Ideal))
    (b : Fin 8) (oc : Fin 256) (oh ow : Fin 56) :
    Cert.ReferenceIdeal.ReadP.val_main_v169 (F := Ideal) x0 x1 x2 x3 x4 (ix4 b oc oh ow)
      = ((Cert.KernelIdeal.KVal.kv_main_v166 (F := Ideal) x4 (ix2 0 oc)
            + ∑ kk : Fin 768, Cert.KernelIdeal.KVal.kv_main_v164 (F := Ideal) x0 x1 x2 (ix3 b (Cert.KernelIdeal.KRun.lix oh ow) (Cert.KernelIdeal.KRun.kix 0 kk))
                * Cert.KernelIdeal.KVal.kv_main_v165 (F := Ideal) x3 (ix2 (Cert.KernelIdeal.KRun.kix 0 kk) oc))
          + ∑ kk : Fin 768, Cert.KernelIdeal.KVal.kv_main_v164 (F := Ideal) x0 x1 x2 (ix3 b (Cert.KernelIdeal.KRun.lix oh ow) (Cert.KernelIdeal.KRun.kix 1 kk))
                * Cert.KernelIdeal.KVal.kv_main_v165 (F := Ideal) x3 (ix2 (Cert.KernelIdeal.KRun.kix 1 kk) oc))
        + ∑ kk : Fin 768, Cert.KernelIdeal.KVal.kv_main_v164 (F := Ideal) x0 x1 x2 (ix3 b (Cert.KernelIdeal.KRun.lix oh ow) (Cert.KernelIdeal.KRun.kix 2 kk))
                * Cert.KernelIdeal.KVal.kv_main_v165 (F := Ideal) x3 (ix2 (Cert.KernelIdeal.KRun.kix 2 kk) oc) := by
  rw [Cert.ReferenceIdeal.RRead.out_read]
  simp only [Cert.KernelIdeal.KRead.cols_read x0 x1 x2 x3 x4, Cert.KernelIdeal.KRead.wmat_read x0 x1 x2 x3 x4,
    Cert.KernelIdeal.KRead.bias_read x0 x1 x2 x3 x4, lix_div, lix_mod]
  have h := DeformAlgebra.tiles_eq_sum
    (fun k c => col (argsOf x0 x1 x2 x3 x4) b oh ow k c * wgt (argsOf x0 x1 x2 x3 x4) oc k c) ((argsOf x0 x1 x2 x3 x4).bias oc)
  refine Eq.trans ?_ h.symm
  refine congrArg (· + (argsOf x0 x1 x2 x3 x4).bias oc) (Finset.sum_congr rfl fun n _ => ?_)
  exact mul_comm _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RPre.run (F := Ideal) m ρ)

/-- Both programs run, and from memories that agree on the five arguments their results are equal element by
    element. -/
theorem algebraic : Cert.algebraic_KernelIdeal_ReferenceIdeal := by
  intro m ρ m' ρ' _ hagree
  refine ⟨fun c => Cert.KernelIdeal.KRun.outK m c, Cert.KernelIdeal.KRun.run m ρ, ?_⟩
  refine (θ_run Cert.ReferenceIdeal.defs _ _).mono (fun _ h c => ⟨(h c).1.trans ?_, (h c).2⟩)
    (Cert.ReferenceIdeal.RPre.run (F := Ideal) m' ρ')
  rw [(hagree c).1, (hagree c).2.1, (hagree c).2.2.1, (hagree c).2.2.2.1,
    (hagree c).2.2.2.2]
  funext i
  obtain ⟨b, oc, oh, ow, rfl⟩ : ∃ (b : Fin 8) (oc : Fin 256) (oh ow : Fin 56), i = ix4 b oc oh ow :=
    ⟨i 0, i 1, i 2, i 3, eq_ix4 i⟩
  show _ = Cert.KernelIdeal.KRun.outK m c (ix4 b oc oh ow)
  unfold Cert.KernelIdeal.KRun.outK Cert.KernelIdeal.KRun.tile Cert.KernelIdeal.KRun.colsA Cert.KernelIdeal.KRun.wmatA
    Cert.KernelIdeal.KRun.biasA
  rw [Cert.KernelIdeal.KPre.V_cols, Cert.KernelIdeal.KPre.V_wmat, Cert.KernelIdeal.KPre.V_bias]
  exact result_eq _ _ _ _ _ b oc oh ow

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
